-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S128x8x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S50257x1024 : Shape := ⟨2, ![50257, 1024]⟩
abbrev S50257x8 : Shape := ⟨2, ![50257, 8]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S50257x8 : S_.BroadcastsInDim S50257x8 (![] : Fin 0 → Fin S50257x8.rank)
  reducesTo_S50257x8_S_d0_1 : S50257x8.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : IVec S8x2048 32) (main_arg1 : FVec F S50257x1024 .f32) (main_arg2 : FVec F S50257x8 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S50257x8 .f32 := Host.absf main_arg2
  let main_cst_0 : FVec F S_ .f32 := constant S_ .f32 0x7F800000#32
  let main_v5 : FVec F S50257x8 .f32 := broadcastInDim S50257x8 ![] bcast_S_S50257x8 main_cst_0
  let main_v6 : IVec S50257x8 1 := cmpf .olt main_v4 main_v5
  let main_c_1 : IVec S_ 1 := constantI S_ 1 1#1
  let main_v7 : IVec S_ 1 := (fun x v => Host.reduce IntOp.andi x v reducesTo_S50257x8_S_d0_1 h_S_) main_v6 main_c_1
  let main_v8 : IVec S_ 1 := andi main_v3 main_v7
  let main_c_2 : IVec S_ 32 := constantI S_ 32 0#32
  let main_v9 : IVec S8x2048 32 := broadcastInDim S8x2048 ![] bcast_S_S8x2048 main_c_2
  let main_v10 : IVec S8x2048 1 := cmpi .sge main_arg0 main_v9
  let main_c_3 : IVec S_ 32 := constantI S_ 32 50257#32
  let main_v11 : IVec S8x2048 32 := broadcastInDim S8x2048 ![] bcast_S_S8x2048 main_c_3
  let main_v12 : IVec S8x2048 1 := cmpi .slt main_arg0 main_v11
  let main_v13 : IVec S8x2048 1 := andi main_v10 main_v12
  let main_c_4 : IVec S_ 1 := constantI S_ 1 1#1
  let main_v14 : IVec S_ 1 := (fun x v => Host.reduce IntOp.andi x v reducesTo_S8x2048_S_d0_1 h_S_) main_v13 main_c_4
  let main_v15 : IVec S_ 1 := andi main_v8 main_v14
  main_v15
-- ==== Kernel.lean ====
abbrev S8x2048 : Shape := ⟨2, ![8, 2048]⟩
abbrev S50257x1024 : Shape := ⟨2, ![50257, 1024]⟩
abbrev S50257x8 : Shape := ⟨2, ![50257, 8]⟩
abbrev S16384 : Shape := ⟨1, ![16384]⟩
abbrev S_ : Shape := ⟨0, ![]⟩
abbrev S50257x1x1024 : Shape := ⟨3, ![50257, 1, 1024]⟩
abbrev S50257x128 : Shape := ⟨2, ![50257, 128]⟩
abbrev S50257x1x128 : Shape := ⟨3, ![50257, 1, 128]⟩
abbrev S16384x1024 : Shape := ⟨2, ![16384, 1024]⟩
abbrev S128x1024 : Shape := ⟨2, ![128, 1024]⟩
abbrev S128x1x1024 : Shape := ⟨3, ![128, 1, 1024]⟩
abbrev S128x1x128 : Shape := ⟨3, ![128, 1, 128]⟩
abbrev S1 : Shape := ⟨1, ![1]⟩
abbrev S1x1x1024 : Shape := ⟨3, ![1, 1, 1024]⟩
abbrev S1x1024 : Shape := ⟨2, ![1, 1024]⟩
abbrev S1x1x128 : Shape := ⟨3, ![1, 1, 128]⟩
abbrev S1x128 : Shape := ⟨2, ![1, 128]⟩
abbrev S128x8x128 : Shape := ⟨3, ![128, 8, 128]⟩
abbrev S128x128 : Shape := ⟨2, ![128, 128]⟩
abbrev S128x8 : Shape := ⟨2, ![128, 8]⟩
abbrev S128x8x1 : Shape := ⟨3, ![128, 8, 1]⟩
abbrev S8x2048x1024 : Shape := ⟨3, ![8, 2048, 1024]⟩

abbrev nBuf : Space → Nat
  | .hbm => 18
  | .vmem => 4
  | .smem => 1
  | _ => 0

abbrev bufTy : (tb : Table) → Fin (tcTables nBuf tb) → BufTy
  | .hbm, ⟨0, _⟩ => ⟨S8x2048, .i32⟩
  | .hbm, ⟨1, _⟩ => ⟨S50257x1024, .f32⟩
  | .hbm, ⟨2, _⟩ => ⟨S50257x8, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S50257x1x1024, .f32⟩
  | .hbm, ⟨12, _⟩ => ⟨S_, .i32⟩
  | .hbm, ⟨13, _⟩ => ⟨S_, .f32⟩
  | .hbm, ⟨14, _⟩ => ⟨S50257x128, .f32⟩
  | .hbm, ⟨15, _⟩ => ⟨S50257x1x128, .f32⟩
  | .hbm, ⟨16, _⟩ => ⟨S16384x1024, .f32⟩
  | .hbm, ⟨17, _⟩ => ⟨S8x2048x1024, .f32⟩
  | .local _ .vmem, ⟨0, _⟩ => ⟨S128x1024, .f32⟩
  | .local _ .vmem, ⟨1, _⟩ => ⟨S128x1024, .f32⟩
  | .local _ .vmem, ⟨2, _⟩ => ⟨S128x1x1024, .f32⟩
  | .local _ .vmem, ⟨3, _⟩ => ⟨S128x1x128, .f32⟩
  | .local _ .smem, ⟨0, _⟩ => ⟨S16384, .i32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_c_1 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem0_1 : DmaSem sig := 1

abbrev nD : Nat := 1
abbrev τ : Topo := Topo.v7x

variable {F : FTy → Type} [BitOps F]

abbrev grid0 : Pipeline.Grid := ⟨1, ![128], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_3 : BitVec 32 := 0#32
  let c0_i32_4 : BitVec 32 := 0#32
  ![v3.toNat, 0, 0]

def k0_off3 (v3 : BitVec 32) : Fin 3 → Nat :=
  let c0_i32_8 : BitVec 32 := 0#32
  let c0_i32_9 : BitVec 32 := 0#32
  ![v3.toNat, 0, 0]
def k0_off4 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v12 : BitVec 32 := Scalar.addi v0 c1_i32
  let v13 : Index := Scalar.indexCast v12
  ![v13.toNat]
def k0_off5 (v14 : BitVec 32) : Fin 3 → Nat :=
  let c0_i32_13 : BitVec 32 := 0#32
  let c0_i32_14 : BitVec 32 := 0#32
  ![v14.toNat, 0, 0]

def k0_off6 (v14 : BitVec 32) : Fin 3 → Nat :=
  let c0_i32_18 : BitVec 32 := 0#32
  let c0_i32_19 : BitVec 32 := 0#32
  ![v14.toNat, 0, 0]
def k0_off7 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v23 : BitVec 32 := Scalar.addi v0 c2_i32
  let v24 : Index := Scalar.indexCast v23
  ![v24.toNat]
def k0_off8 (v25 : BitVec 32) : Fin 3 → Nat :=
  let c0_i32_23 : BitVec 32 := 0#32
  let c0_i32_24 : BitVec 32 := 0#32
  ![v25.toNat, 0, 0]

def k0_off9 (v25 : BitVec 32) : Fin 3 → Nat :=
  let c0_i32_28 : BitVec 32 := 0#32
  let c0_i32_29 : BitVec 32 := 0#32
  ![v25.toNat, 0, 0]
def k0_off10 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v34 : BitVec 32 := Scalar.addi v0 c3_i32
  let v35 : Index := Scalar.indexCast v34
  ![v35.toNat]
def k0_off11 (v36 : BitVec 32) : Fin 3 → Nat :=
  let c0_i32_33 : BitVec 32 := 0#32
  let c0_i32_34 : BitVec 32 := 0#32
  ![v36.toNat, 0, 0]

def k0_off12 (v36 : BitVec 32) : Fin 3 → Nat :=
  let c0_i32_38 : BitVec 32 := 0#32
  let c0_i32_39 : BitVec 32 := 0#32
  ![v36.toNat, 0, 0]
def k0_off13 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v45 : BitVec 32 := Scalar.addi v0 c4_i32
  let v46 : Index := Scalar.indexCast v45
  ![v46.toNat]
def k0_off14 (v47 : BitVec 32) : Fin 3 → Nat :=
  let c0_i32_43 : BitVec 32 := 0#32
  let c0_i32_44 : BitVec 32 := 0#32
  ![v47.toNat, 0, 0]

def k0_off15 (v47 : BitVec 32) : Fin 3 → Nat :=
  let c0_i32_48 : BitVec 32 := 0#32
  let c0_i32_49 : BitVec 32 := 0#32
  ![v47.toNat, 0, 0]
def k0_off16 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v56 : BitVec 32 := Scalar.addi v0 c5_i32
  let v57 : Index := Scalar.indexCast v56
  ![v57.toNat]
def k0_off17 (v58 : BitVec 32) : Fin 3 → Nat :=
  let c0_i32_53 : BitVec 32 := 0#32
  let c0_i32_54 : BitVec 32 := 0#32
  ![v58.toNat, 0, 0]

def k0_off18 (v58 : BitVec 32) : Fin 3 → Nat :=
  let c0_i32_58 : BitVec 32 := 0#32
  let c0_i32_59 : BitVec 32 := 0#32
  ![v58.toNat, 0, 0]
def k0_off19 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v67 : BitVec 32 := Scalar.addi v0 c6_i32
  let v68 : Index := Scalar.indexCast v67
  ![v68.toNat]
def k0_off20 (v69 : BitVec 32) : Fin 3 → Nat :=
  let c0_i32_63 : BitVec 32 := 0#32
  let c0_i32_64 : BitVec 32 := 0#32
  ![v69.toNat, 0, 0]

def k0_off21 (v69 : BitVec 32) : Fin 3 → Nat :=
  let c0_i32_68 : BitVec 32 := 0#32
  let c0_i32_69 : BitVec 32 := 0#32
  ![v69.toNat, 0, 0]
def k0_off22 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v78 : BitVec 32 := Scalar.addi v0 c7_i32
  let v79 : Index := Scalar.indexCast v78
  ![v79.toNat]
def k0_off23 (v80 : BitVec 32) : Fin 3 → Nat :=
  let c0_i32_73 : BitVec 32 := 0#32
  let c0_i32_74 : BitVec 32 := 0#32
  ![v80.toNat, 0, 0]

def k0_off24 (v80 : BitVec 32) : Fin 3 → Nat :=
  let c0_i32_78 : BitVec 32 := 0#32
  let c0_i32_79 : BitVec 32 := 0#32
  ![v80.toNat, 0, 0]
def k0_off25 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v89 : BitVec 32 := Scalar.addi v0 c8_i32
  let v90 : Index := Scalar.indexCast v89
  ![v90.toNat]
def k0_off26 (v91 : BitVec 32) : Fin 3 → Nat :=
  let c0_i32_83 : BitVec 32 := 0#32
  let c0_i32_84 : BitVec 32 := 0#32
  ![v91.toNat, 0, 0]

def k0_off27 (v91 : BitVec 32) : Fin 3 → Nat :=
  let c0_i32_88 : BitVec 32 := 0#32
  let c0_i32_89 : BitVec 32 := 0#32
  ![v91.toNat, 0, 0]
def k0_off28 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v100 : BitVec 32 := Scalar.addi v0 c9_i32
  let v101 : Index := Scalar.indexCast v100
  ![v101.toNat]
def k0_off29 (v102 : BitVec 32) : Fin 3 → Nat :=
  let c0_i32_93 : BitVec 32 := 0#32
  let c0_i32_94 : BitVec 32 := 0#32
  ![v102.toNat, 0, 0]

def k0_off30 (v102 : BitVec 32) : Fin 3 → Nat :=
  let c0_i32_98 : BitVec 32 := 0#32
  let c0_i32_99 : BitVec 32 := 0#32
  ![v102.toNat, 0, 0]
def k0_off31 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v111 : BitVec 32 := Scalar.addi v0 c10_i32
  let v112 : Index := Scalar.indexCast v111
  ![v112.toNat]
def k0_off32 (v113 : BitVec 32) : Fin 3 → Nat :=
  let c0_i32_103 : BitVec 32 := 0#32
  let c0_i32_104 : BitVec 32 := 0#32
  ![v113.toNat, 0, 0]

def k0_off33 (v113 : BitVec 32) : Fin 3 → Nat :=
  let c0_i32_108 : BitVec 32 := 0#32
  let c0_i32_109 : BitVec 32 := 0#32
  ![v113.toNat, 0, 0]
def k0_off34 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v122 : BitVec 32 := Scalar.addi v0 c11_i32
  let v123 : Index := Scalar.indexCast v122
  ![v123.toNat]
def k0_off35 (v124 : BitVec 32) : Fin 3 → Nat :=
  let c0_i32_113 : BitVec 32 := 0#32
  let c0_i32_114 : BitVec 32 := 0#32
  ![v124.toNat, 0, 0]

def k0_off36 (v124 : BitVec 32) : Fin 3 → Nat :=
  let c0_i32_118 : BitVec 32 := 0#32
  let c0_i32_119 : BitVec 32 := 0#32
  ![v124.toNat, 0, 0]
def k0_off37 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v133 : BitVec 32 := Scalar.addi v0 c12_i32
  let v134 : Index := Scalar.indexCast v133
  ![v134.toNat]
def k0_off38 (v135 : BitVec 32) : Fin 3 → Nat :=
  let c0_i32_123 : BitVec 32 := 0#32
  let c0_i32_124 : BitVec 32 := 0#32
  ![v135.toNat, 0, 0]

def k0_off39 (v135 : BitVec 32) : Fin 3 → Nat :=
  let c0_i32_128 : BitVec 32 := 0#32
  let c0_i32_129 : BitVec 32 := 0#32
  ![v135.toNat, 0, 0]
def k0_off40 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v144 : BitVec 32 := Scalar.addi v0 c13_i32
  let v145 : Index := Scalar.indexCast v144
  ![v145.toNat]
def k0_off41 (v146 : BitVec 32) : Fin 3 → Nat :=
  let c0_i32_133 : BitVec 32 := 0#32
  let c0_i32_134 : BitVec 32 := 0#32
  ![v146.toNat, 0, 0]

def k0_off42 (v146 : BitVec 32) : Fin 3 → Nat :=
  let c0_i32_138 : BitVec 32 := 0#32
  let c0_i32_139 : BitVec 32 := 0#32
  ![v146.toNat, 0, 0]
def k0_off43 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v155 : BitVec 32 := Scalar.addi v0 c14_i32
  let v156 : Index := Scalar.indexCast v155
  ![v156.toNat]
def k0_off44 (v157 : BitVec 32) : Fin 3 → Nat :=
  let c0_i32_143 : BitVec 32 := 0#32
  let c0_i32_144 : BitVec 32 := 0#32
  ![v157.toNat, 0, 0]

def k0_off45 (v157 : BitVec 32) : Fin 3 → Nat :=
  let c0_i32_148 : BitVec 32 := 0#32
  let c0_i32_149 : BitVec 32 := 0#32
  ![v157.toNat, 0, 0]
def k0_off46 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v166 : BitVec 32 := Scalar.addi v0 c15_i32
  let v167 : Index := Scalar.indexCast v166
  ![v167.toNat]
def k0_off47 (v168 : BitVec 32) : Fin 3 → Nat :=
  let c0_i32_153 : BitVec 32 := 0#32
  let c0_i32_154 : BitVec 32 := 0#32
  ![v168.toNat, 0, 0]

def k0_off48 (v168 : BitVec 32) : Fin 3 → Nat :=
  let c0_i32_158 : BitVec 32 := 0#32
  let c0_i32_159 : BitVec 32 := 0#32
  ![v168.toNat, 0, 0]
def k0_off49 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v177 : BitVec 32 := Scalar.addi v0 c16_i32
  let v178 : Index := Scalar.indexCast v177
  ![v178.toNat]
def k0_off50 (v179 : BitVec 32) : Fin 3 → Nat :=
  let c0_i32_163 : BitVec 32 := 0#32
  let c0_i32_164 : BitVec 32 := 0#32
  ![v179.toNat, 0, 0]

def k0_off51 (v179 : BitVec 32) : Fin 3 → Nat :=
  let c0_i32_168 : BitVec 32 := 0#32
  let c0_i32_169 : BitVec 32 := 0#32
  ![v179.toNat, 0, 0]
def k0_off52 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v188 : BitVec 32 := Scalar.addi v0 c17_i32
  let v189 : Index := Scalar.indexCast v188
  ![v189.toNat]
def k0_off53 (v190 : BitVec 32) : Fin 3 → Nat :=
  let c0_i32_173 : BitVec 32 := 0#32
  let c0_i32_174 : BitVec 32 := 0#32
  ![v190.toNat, 0, 0]

def k0_off54 (v190 : BitVec 32) : Fin 3 → Nat :=
  let c0_i32_178 : BitVec 32 := 0#32
  let c0_i32_179 : BitVec 32 := 0#32
  ![v190.toNat, 0, 0]
def k0_off55 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v199 : BitVec 32 := Scalar.addi v0 c18_i32
  let v200 : Index := Scalar.indexCast v199
  ![v200.toNat]
def k0_off56 (v201 : BitVec 32) : Fin 3 → Nat :=
  let c0_i32_183 : BitVec 32 := 0#32
  let c0_i32_184 : BitVec 32 := 0#32
  ![v201.toNat, 0, 0]

def k0_off57 (v201 : BitVec 32) : Fin 3 → Nat :=
  let c0_i32_188 : BitVec 32 := 0#32
  let c0_i32_189 : BitVec 32 := 0#32
  ![v201.toNat, 0, 0]
def k0_off58 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v210 : BitVec 32 := Scalar.addi v0 c19_i32
  let v211 : Index := Scalar.indexCast v210
  ![v211.toNat]
def k0_off59 (v212 : BitVec 32) : Fin 3 → Nat :=
  let c0_i32_193 : BitVec 32 := 0#32
  let c0_i32_194 : BitVec 32 := 0#32
  ![v212.toNat, 0, 0]

def k0_off60 (v212 : BitVec 32) : Fin 3 → Nat :=
  let c0_i32_198 : BitVec 32 := 0#32
  let c0_i32_199 : BitVec 32 := 0#32
  ![v212.toNat, 0, 0]
def k0_off61 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v221 : BitVec 32 := Scalar.addi v0 c20_i32
  let v222 : Index := Scalar.indexCast v221
  ![v222.toNat]
def k0_off62 (v223 : BitVec 32) : Fin 3 → Nat :=
  let c0_i32_203 : BitVec 32 := 0#32
  let c0_i32_204 : BitVec 32 := 0#32
  ![v223.toNat, 0, 0]

def k0_off63 (v223 : BitVec 32) : Fin 3 → Nat :=
  let c0_i32_208 : BitVec 32 := 0#32
  let c0_i32_209 : BitVec 32 := 0#32
  ![v223.toNat, 0, 0]
def k0_off64 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v232 : BitVec 32 := Scalar.addi v0 c21_i32
  let v233 : Index := Scalar.indexCast v232
  ![v233.toNat]
def k0_off65 (v234 : BitVec 32) : Fin 3 → Nat :=
  let c0_i32_213 : BitVec 32 := 0#32
  let c0_i32_214 : BitVec 32 := 0#32
  ![v234.toNat, 0, 0]

def k0_off66 (v234 : BitVec 32) : Fin 3 → Nat :=
  let c0_i32_218 : BitVec 32 := 0#32
  let c0_i32_219 : BitVec 32 := 0#32
  ![v234.toNat, 0, 0]
def k0_off67 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v243 : BitVec 32 := Scalar.addi v0 c22_i32
  let v244 : Index := Scalar.indexCast v243
  ![v244.toNat]
def k0_off68 (v245 : BitVec 32) : Fin 3 → Nat :=
  let c0_i32_223 : BitVec 32 := 0#32
  let c0_i32_224 : BitVec 32 := 0#32
  ![v245.toNat, 0, 0]

def k0_off69 (v245 : BitVec 32) : Fin 3 → Nat :=
  let c0_i32_228 : BitVec 32 := 0#32
  let c0_i32_229 : BitVec 32 := 0#32
  ![v245.toNat, 0, 0]
def k0_off70 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v254 : BitVec 32 := Scalar.addi v0 c23_i32
  let v255 : Index := Scalar.indexCast v254
  ![v255.toNat]
def k0_off71 (v256 : BitVec 32) : Fin 3 → Nat :=
  let c0_i32_233 : BitVec 32 := 0#32
  let c0_i32_234 : BitVec 32 := 0#32
  ![v256.toNat, 0, 0]

def k0_off72 (v256 : BitVec 32) : Fin 3 → Nat :=
  let c0_i32_238 : BitVec 32 := 0#32
  let c0_i32_239 : BitVec 32 := 0#32
  ![v256.toNat, 0, 0]
def k0_off73 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v265 : BitVec 32 := Scalar.addi v0 c24_i32
  let v266 : Index := Scalar.indexCast v265
  ![v266.toNat]
def k0_off74 (v267 : BitVec 32) : Fin 3 → Nat :=
  let c0_i32_243 : BitVec 32 := 0#32
  let c0_i32_244 : BitVec 32 := 0#32
  ![v267.toNat, 0, 0]

def k0_off75 (v267 : BitVec 32) : Fin 3 → Nat :=
  let c0_i32_248 : BitVec 32 := 0#32
  let c0_i32_249 : BitVec 32 := 0#32
  ![v267.toNat, 0, 0]
def k0_off76 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v276 : BitVec 32 := Scalar.addi v0 c25_i32
  let v277 : Index := Scalar.indexCast v276
  ![v277.toNat]
def k0_off77 (v278 : BitVec 32) : Fin 3 → Nat :=
  let c0_i32_253 : BitVec 32 := 0#32
  let c0_i32_254 : BitVec 32 := 0#32
  ![v278.toNat, 0, 0]

def k0_off78 (v278 : BitVec 32) : Fin 3 → Nat :=
  let c0_i32_258 : BitVec 32 := 0#32
  let c0_i32_259 : BitVec 32 := 0#32
  ![v278.toNat, 0, 0]
def k0_off79 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v287 : BitVec 32 := Scalar.addi v0 c26_i32
  let v288 : Index := Scalar.indexCast v287
  ![v288.toNat]
def k0_off80 (v289 : BitVec 32) : Fin 3 → Nat :=
  let c0_i32_263 : BitVec 32 := 0#32
  let c0_i32_264 : BitVec 32 := 0#32
  ![v289.toNat, 0, 0]

def k0_off81 (v289 : BitVec 32) : Fin 3 → Nat :=
  let c0_i32_268 : BitVec 32 := 0#32
  let c0_i32_269 : BitVec 32 := 0#32
  ![v289.toNat, 0, 0]
def k0_off82 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v298 : BitVec 32 := Scalar.addi v0 c27_i32
  let v299 : Index := Scalar.indexCast v298
  ![v299.toNat]
def k0_off83 (v300 : BitVec 32) : Fin 3 → Nat :=
  let c0_i32_273 : BitVec 32 := 0#32
  let c0_i32_274 : BitVec 32 := 0#32
  ![v300.toNat, 0, 0]

def k0_off84 (v300 : BitVec 32) : Fin 3 → Nat :=
  let c0_i32_278 : BitVec 32 := 0#32
  let c0_i32_279 : BitVec 32 := 0#32
  ![v300.toNat, 0, 0]
def k0_off85 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v309 : BitVec 32 := Scalar.addi v0 c28_i32
  let v310 : Index := Scalar.indexCast v309
  ![v310.toNat]
def k0_off86 (v311 : BitVec 32) : Fin 3 → Nat :=
  let c0_i32_283 : BitVec 32 := 0#32
  let c0_i32_284 : BitVec 32 := 0#32
  ![v311.toNat, 0, 0]

def k0_off87 (v311 : BitVec 32) : Fin 3 → Nat :=
  let c0_i32_288 : BitVec 32 := 0#32
  let c0_i32_289 : BitVec 32 := 0#32
  ![v311.toNat, 0, 0]
def k0_off88 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v320 : BitVec 32 := Scalar.addi v0 c29_i32
  let v321 : Index := Scalar.indexCast v320
  ![v321.toNat]
def k0_off89 (v322 : BitVec 32) : Fin 3 → Nat :=
  let c0_i32_293 : BitVec 32 := 0#32
  let c0_i32_294 : BitVec 32 := 0#32
  ![v322.toNat, 0, 0]

def k0_off90 (v322 : BitVec 32) : Fin 3 → Nat :=
  let c0_i32_298 : BitVec 32 := 0#32
  let c0_i32_299 : BitVec 32 := 0#32
  ![v322.toNat, 0, 0]
def k0_off91 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v331 : BitVec 32 := Scalar.addi v0 c30_i32
  let v332 : Index := Scalar.indexCast v331
  ![v332.toNat]
def k0_off92 (v333 : BitVec 32) : Fin 3 → Nat :=
  let c0_i32_303 : BitVec 32 := 0#32
  let c0_i32_304 : BitVec 32 := 0#32
  ![v333.toNat, 0, 0]

def k0_off93 (v333 : BitVec 32) : Fin 3 → Nat :=
  let c0_i32_308 : BitVec 32 := 0#32
  let c0_i32_309 : BitVec 32 := 0#32
  ![v333.toNat, 0, 0]
def k0_off94 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v342 : BitVec 32 := Scalar.addi v0 c31_i32
  let v343 : Index := Scalar.indexCast v342
  ![v343.toNat]
def k0_off95 (v344 : BitVec 32) : Fin 3 → Nat :=
  let c0_i32_313 : BitVec 32 := 0#32
  let c0_i32_314 : BitVec 32 := 0#32
  ![v344.toNat, 0, 0]

def k0_off96 (v344 : BitVec 32) : Fin 3 → Nat :=
  let c0_i32_318 : BitVec 32 := 0#32
  let c0_i32_319 : BitVec 32 := 0#32
  ![v344.toNat, 0, 0]
def k0_off97 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v353 : BitVec 32 := Scalar.addi v0 c32_i32
  let v354 : Index := Scalar.indexCast v353
  ![v354.toNat]
def k0_off98 (v355 : BitVec 32) : Fin 3 → Nat :=
  let c0_i32_323 : BitVec 32 := 0#32
  let c0_i32_324 : BitVec 32 := 0#32
  ![v355.toNat, 0, 0]

def k0_off99 (v355 : BitVec 32) : Fin 3 → Nat :=
  let c0_i32_328 : BitVec 32 := 0#32
  let c0_i32_329 : BitVec 32 := 0#32
  ![v355.toNat, 0, 0]
def k0_off100 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v364 : BitVec 32 := Scalar.addi v0 c33_i32
  let v365 : Index := Scalar.indexCast v364
  ![v365.toNat]
def k0_off101 (v366 : BitVec 32) : Fin 3 → Nat :=
  let c0_i32_333 : BitVec 32 := 0#32
  let c0_i32_334 : BitVec 32 := 0#32
  ![v366.toNat, 0, 0]

def k0_off102 (v366 : BitVec 32) : Fin 3 → Nat :=
  let c0_i32_338 : BitVec 32 := 0#32
  let c0_i32_339 : BitVec 32 := 0#32
  ![v366.toNat, 0, 0]
def k0_off103 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v375 : BitVec 32 := Scalar.addi v0 c34_i32
  let v376 : Index := Scalar.indexCast v375
  ![v376.toNat]
def k0_off104 (v377 : BitVec 32) : Fin 3 → Nat :=
  let c0_i32_343 : BitVec 32 := 0#32
  let c0_i32_344 : BitVec 32 := 0#32
  ![v377.toNat, 0, 0]

def k0_off105 (v377 : BitVec 32) : Fin 3 → Nat :=
  let c0_i32_348 : BitVec 32 := 0#32
  let c0_i32_349 : BitVec 32 := 0#32
  ![v377.toNat, 0, 0]
def k0_off106 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v386 : BitVec 32 := Scalar.addi v0 c35_i32
  let v387 : Index := Scalar.indexCast v386
  ![v387.toNat]
def k0_off107 (v388 : BitVec 32) : Fin 3 → Nat :=
  let c0_i32_353 : BitVec 32 := 0#32
  let c0_i32_354 : BitVec 32 := 0#32
  ![v388.toNat, 0, 0]

def k0_off108 (v388 : BitVec 32) : Fin 3 → Nat :=
  let c0_i32_358 : BitVec 32 := 0#32
  let c0_i32_359 : BitVec 32 := 0#32
  ![v388.toNat, 0, 0]
def k0_off109 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v397 : BitVec 32 := Scalar.addi v0 c36_i32
  let v398 : Index := Scalar.indexCast v397
  ![v398.toNat]
def k0_off110 (v399 : BitVec 32) : Fin 3 → Nat :=
  let c0_i32_363 : BitVec 32 := 0#32
  let c0_i32_364 : BitVec 32 := 0#32
  ![v399.toNat, 0, 0]

def k0_off111 (v399 : BitVec 32) : Fin 3 → Nat :=
  let c0_i32_368 : BitVec 32 := 0#32
  let c0_i32_369 : BitVec 32 := 0#32
  ![v399.toNat, 0, 0]
def k0_off112 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v408 : BitVec 32 := Scalar.addi v0 c37_i32
  let v409 : Index := Scalar.indexCast v408
  ![v409.toNat]
def k0_off113 (v410 : BitVec 32) : Fin 3 → Nat :=
  let c0_i32_373 : BitVec 32 := 0#32
  let c0_i32_374 : BitVec 32 := 0#32
  ![v410.toNat, 0, 0]

def k0_off114 (v410 : BitVec 32) : Fin 3 → Nat :=
  let c0_i32_378 : BitVec 32 := 0#32
  let c0_i32_379 : BitVec 32 := 0#32
  ![v410.toNat, 0, 0]
def k0_off115 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v419 : BitVec 32 := Scalar.addi v0 c38_i32
  let v420 : Index := Scalar.indexCast v419
  ![v420.toNat]
def k0_off116 (v421 : BitVec 32) : Fin 3 → Nat :=
  let c0_i32_383 : BitVec 32 := 0#32
  let c0_i32_384 : BitVec 32 := 0#32
  ![v421.toNat, 0, 0]

def k0_off117 (v421 : BitVec 32) : Fin 3 → Nat :=
  let c0_i32_388 : BitVec 32 := 0#32
  let c0_i32_389 : BitVec 32 := 0#32
  ![v421.toNat, 0, 0]
def k0_off118 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v430 : BitVec 32 := Scalar.addi v0 c39_i32
  let v431 : Index := Scalar.indexCast v430
  ![v431.toNat]
def k0_off119 (v432 : BitVec 32) : Fin 3 → Nat :=
  let c0_i32_393 : BitVec 32 := 0#32
  let c0_i32_394 : BitVec 32 := 0#32
  ![v432.toNat, 0, 0]

def k0_off120 (v432 : BitVec 32) : Fin 3 → Nat :=
  let c0_i32_398 : BitVec 32 := 0#32
  let c0_i32_399 : BitVec 32 := 0#32
  ![v432.toNat, 0, 0]
def k0_off121 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v441 : BitVec 32 := Scalar.addi v0 c40_i32
  let v442 : Index := Scalar.indexCast v441
  ![v442.toNat]
def k0_off122 (v443 : BitVec 32) : Fin 3 → Nat :=
  let c0_i32_403 : BitVec 32 := 0#32
  let c0_i32_404 : BitVec 32 := 0#32
  ![v443.toNat, 0, 0]

def k0_off123 (v443 : BitVec 32) : Fin 3 → Nat :=
  let c0_i32_408 : BitVec 32 := 0#32
  let c0_i32_409 : BitVec 32 := 0#32
  ![v443.toNat, 0, 0]
def k0_off124 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v452 : BitVec 32 := Scalar.addi v0 c41_i32
  let v453 : Index := Scalar.indexCast v452
  ![v453.toNat]
def k0_off125 (v454 : BitVec 32) : Fin 3 → Nat :=
  let c0_i32_413 : BitVec 32 := 0#32
  let c0_i32_414 : BitVec 32 := 0#32
  ![v454.toNat, 0, 0]

def k0_off126 (v454 : BitVec 32) : Fin 3 → Nat :=
  let c0_i32_418 : BitVec 32 := 0#32
  let c0_i32_419 : BitVec 32 := 0#32
  ![v454.toNat, 0, 0]
def k0_off127 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v463 : BitVec 32 := Scalar.addi v0 c42_i32
  let v464 : Index := Scalar.indexCast v463
  ![v464.toNat]
def k0_off128 (v465 : BitVec 32) : Fin 3 → Nat :=
  let c0_i32_423 : BitVec 32 := 0#32
  let c0_i32_424 : BitVec 32 := 0#32
  ![v465.toNat, 0, 0]

def k0_off129 (v465 : BitVec 32) : Fin 3 → Nat :=
  let c0_i32_428 : BitVec 32 := 0#32
  let c0_i32_429 : BitVec 32 := 0#32
  ![v465.toNat, 0, 0]
def k0_off130 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v474 : BitVec 32 := Scalar.addi v0 c43_i32
  let v475 : Index := Scalar.indexCast v474
  ![v475.toNat]
def k0_off131 (v476 : BitVec 32) : Fin 3 → Nat :=
  let c0_i32_433 : BitVec 32 := 0#32
  let c0_i32_434 : BitVec 32 := 0#32
  ![v476.toNat, 0, 0]

def k0_off132 (v476 : BitVec 32) : Fin 3 → Nat :=
  let c0_i32_438 : BitVec 32 := 0#32
  let c0_i32_439 : BitVec 32 := 0#32
  ![v476.toNat, 0, 0]
def k0_off133 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v485 : BitVec 32 := Scalar.addi v0 c44_i32
  let v486 : Index := Scalar.indexCast v485
  ![v486.toNat]
def k0_off134 (v487 : BitVec 32) : Fin 3 → Nat :=
  let c0_i32_443 : BitVec 32 := 0#32
  let c0_i32_444 : BitVec 32 := 0#32
  ![v487.toNat, 0, 0]

def k0_off135 (v487 : BitVec 32) : Fin 3 → Nat :=
  let c0_i32_448 : BitVec 32 := 0#32
  let c0_i32_449 : BitVec 32 := 0#32
  ![v487.toNat, 0, 0]
def k0_off136 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v496 : BitVec 32 := Scalar.addi v0 c45_i32
  let v497 : Index := Scalar.indexCast v496
  ![v497.toNat]
def k0_off137 (v498 : BitVec 32) : Fin 3 → Nat :=
  let c0_i32_453 : BitVec 32 := 0#32
  let c0_i32_454 : BitVec 32 := 0#32
  ![v498.toNat, 0, 0]

def k0_off138 (v498 : BitVec 32) : Fin 3 → Nat :=
  let c0_i32_458 : BitVec 32 := 0#32
  let c0_i32_459 : BitVec 32 := 0#32
  ![v498.toNat, 0, 0]
def k0_off139 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v507 : BitVec 32 := Scalar.addi v0 c46_i32
  let v508 : Index := Scalar.indexCast v507
  ![v508.toNat]
def k0_off140 (v509 : BitVec 32) : Fin 3 → Nat :=
  let c0_i32_463 : BitVec 32 := 0#32
  let c0_i32_464 : BitVec 32 := 0#32
  ![v509.toNat, 0, 0]

def k0_off141 (v509 : BitVec 32) : Fin 3 → Nat :=
  let c0_i32_468 : BitVec 32 := 0#32
  let c0_i32_469 : BitVec 32 := 0#32
  ![v509.toNat, 0, 0]
def k0_off142 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v518 : BitVec 32 := Scalar.addi v0 c47_i32
  let v519 : Index := Scalar.indexCast v518
  ![v519.toNat]
def k0_off143 (v520 : BitVec 32) : Fin 3 → Nat :=
  let c0_i32_473 : BitVec 32 := 0#32
  let c0_i32_474 : BitVec 32 := 0#32
  ![v520.toNat, 0, 0]

def k0_off144 (v520 : BitVec 32) : Fin 3 → Nat :=
  let c0_i32_478 : BitVec 32 := 0#32
  let c0_i32_479 : BitVec 32 := 0#32
  ![v520.toNat, 0, 0]
def k0_off145 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v529 : BitVec 32 := Scalar.addi v0 c48_i32
  let v530 : Index := Scalar.indexCast v529
  ![v530.toNat]
def k0_off146 (v531 : BitVec 32) : Fin 3 → Nat :=
  let c0_i32_483 : BitVec 32 := 0#32
  let c0_i32_484 : BitVec 32 := 0#32
  ![v531.toNat, 0, 0]

def k0_off147 (v531 : BitVec 32) : Fin 3 → Nat :=
  let c0_i32_488 : BitVec 32 := 0#32
  let c0_i32_489 : BitVec 32 := 0#32
  ![v531.toNat, 0, 0]
def k0_off148 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v540 : BitVec 32 := Scalar.addi v0 c49_i32
  let v541 : Index := Scalar.indexCast v540
  ![v541.toNat]
def k0_off149 (v542 : BitVec 32) : Fin 3 → Nat :=
  let c0_i32_493 : BitVec 32 := 0#32
  let c0_i32_494 : BitVec 32 := 0#32
  ![v542.toNat, 0, 0]

def k0_off150 (v542 : BitVec 32) : Fin 3 → Nat :=
  let c0_i32_498 : BitVec 32 := 0#32
  let c0_i32_499 : BitVec 32 := 0#32
  ![v542.toNat, 0, 0]
def k0_off151 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v551 : BitVec 32 := Scalar.addi v0 c50_i32
  let v552 : Index := Scalar.indexCast v551
  ![v552.toNat]
def k0_off152 (v553 : BitVec 32) : Fin 3 → Nat :=
  let c0_i32_503 : BitVec 32 := 0#32
  let c0_i32_504 : BitVec 32 := 0#32
  ![v553.toNat, 0, 0]

def k0_off153 (v553 : BitVec 32) : Fin 3 → Nat :=
  let c0_i32_508 : BitVec 32 := 0#32
  let c0_i32_509 : BitVec 32 := 0#32
  ![v553.toNat, 0, 0]
def k0_off154 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v562 : BitVec 32 := Scalar.addi v0 c51_i32
  let v563 : Index := Scalar.indexCast v562
  ![v563.toNat]
def k0_off155 (v564 : BitVec 32) : Fin 3 → Nat :=
  let c0_i32_513 : BitVec 32 := 0#32
  let c0_i32_514 : BitVec 32 := 0#32
  ![v564.toNat, 0, 0]

def k0_off156 (v564 : BitVec 32) : Fin 3 → Nat :=
  let c0_i32_518 : BitVec 32 := 0#32
  let c0_i32_519 : BitVec 32 := 0#32
  ![v564.toNat, 0, 0]
def k0_off157 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v573 : BitVec 32 := Scalar.addi v0 c52_i32
  let v574 : Index := Scalar.indexCast v573
  ![v574.toNat]
def k0_off158 (v575 : BitVec 32) : Fin 3 → Nat :=
  let c0_i32_523 : BitVec 32 := 0#32
  let c0_i32_524 : BitVec 32 := 0#32
  ![v575.toNat, 0, 0]

def k0_off159 (v575 : BitVec 32) : Fin 3 → Nat :=
  let c0_i32_528 : BitVec 32 := 0#32
  let c0_i32_529 : BitVec 32 := 0#32
  ![v575.toNat, 0, 0]
def k0_off160 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v584 : BitVec 32 := Scalar.addi v0 c53_i32
  let v585 : Index := Scalar.indexCast v584
  ![v585.toNat]
def k0_off161 (v586 : BitVec 32) : Fin 3 → Nat :=
  let c0_i32_533 : BitVec 32 := 0#32
  let c0_i32_534 : BitVec 32 := 0#32
  ![v586.toNat, 0, 0]

def k0_off162 (v586 : BitVec 32) : Fin 3 → Nat :=
  let c0_i32_538 : BitVec 32 := 0#32
  let c0_i32_539 : BitVec 32 := 0#32
  ![v586.toNat, 0, 0]
def k0_off163 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v595 : BitVec 32 := Scalar.addi v0 c54_i32
  let v596 : Index := Scalar.indexCast v595
  ![v596.toNat]
def k0_off164 (v597 : BitVec 32) : Fin 3 → Nat :=
  let c0_i32_543 : BitVec 32 := 0#32
  let c0_i32_544 : BitVec 32 := 0#32
  ![v597.toNat, 0, 0]

def k0_off165 (v597 : BitVec 32) : Fin 3 → Nat :=
  let c0_i32_548 : BitVec 32 := 0#32
  let c0_i32_549 : BitVec 32 := 0#32
  ![v597.toNat, 0, 0]
def k0_off166 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v606 : BitVec 32 := Scalar.addi v0 c55_i32
  let v607 : Index := Scalar.indexCast v606
  ![v607.toNat]
def k0_off167 (v608 : BitVec 32) : Fin 3 → Nat :=
  let c0_i32_553 : BitVec 32 := 0#32
  let c0_i32_554 : BitVec 32 := 0#32
  ![v608.toNat, 0, 0]

def k0_off168 (v608 : BitVec 32) : Fin 3 → Nat :=
  let c0_i32_558 : BitVec 32 := 0#32
  let c0_i32_559 : BitVec 32 := 0#32
  ![v608.toNat, 0, 0]
def k0_off169 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v617 : BitVec 32 := Scalar.addi v0 c56_i32
  let v618 : Index := Scalar.indexCast v617
  ![v618.toNat]
def k0_off170 (v619 : BitVec 32) : Fin 3 → Nat :=
  let c0_i32_563 : BitVec 32 := 0#32
  let c0_i32_564 : BitVec 32 := 0#32
  ![v619.toNat, 0, 0]

def k0_off171 (v619 : BitVec 32) : Fin 3 → Nat :=
  let c0_i32_568 : BitVec 32 := 0#32
  let c0_i32_569 : BitVec 32 := 0#32
  ![v619.toNat, 0, 0]
def k0_off172 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v628 : BitVec 32 := Scalar.addi v0 c57_i32
  let v629 : Index := Scalar.indexCast v628
  ![v629.toNat]
def k0_off173 (v630 : BitVec 32) : Fin 3 → Nat :=
  let c0_i32_573 : BitVec 32 := 0#32
  let c0_i32_574 : BitVec 32 := 0#32
  ![v630.toNat, 0, 0]

def k0_off174 (v630 : BitVec 32) : Fin 3 → Nat :=
  let c0_i32_578 : BitVec 32 := 0#32
  let c0_i32_579 : BitVec 32 := 0#32
  ![v630.toNat, 0, 0]
def k0_off175 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v639 : BitVec 32 := Scalar.addi v0 c58_i32
  let v640 : Index := Scalar.indexCast v639
  ![v640.toNat]
def k0_off176 (v641 : BitVec 32) : Fin 3 → Nat :=
  let c0_i32_583 : BitVec 32 := 0#32
  let c0_i32_584 : BitVec 32 := 0#32
  ![v641.toNat, 0, 0]

def k0_off177 (v641 : BitVec 32) : Fin 3 → Nat :=
  let c0_i32_588 : BitVec 32 := 0#32
  let c0_i32_589 : BitVec 32 := 0#32
  ![v641.toNat, 0, 0]
def k0_off178 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v650 : BitVec 32 := Scalar.addi v0 c59_i32
  let v651 : Index := Scalar.indexCast v650
  ![v651.toNat]
def k0_off179 (v652 : BitVec 32) : Fin 3 → Nat :=
  let c0_i32_593 : BitVec 32 := 0#32
  let c0_i32_594 : BitVec 32 := 0#32
  ![v652.toNat, 0, 0]

def k0_off180 (v652 : BitVec 32) : Fin 3 → Nat :=
  let c0_i32_598 : BitVec 32 := 0#32
  let c0_i32_599 : BitVec 32 := 0#32
  ![v652.toNat, 0, 0]
def k0_off181 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v661 : BitVec 32 := Scalar.addi v0 c60_i32
  let v662 : Index := Scalar.indexCast v661
  ![v662.toNat]
def k0_off182 (v663 : BitVec 32) : Fin 3 → Nat :=
  let c0_i32_603 : BitVec 32 := 0#32
  let c0_i32_604 : BitVec 32 := 0#32
  ![v663.toNat, 0, 0]

def k0_off183 (v663 : BitVec 32) : Fin 3 → Nat :=
  let c0_i32_608 : BitVec 32 := 0#32
  let c0_i32_609 : BitVec 32 := 0#32
  ![v663.toNat, 0, 0]
def k0_off184 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v672 : BitVec 32 := Scalar.addi v0 c61_i32
  let v673 : Index := Scalar.indexCast v672
  ![v673.toNat]
def k0_off185 (v674 : BitVec 32) : Fin 3 → Nat :=
  let c0_i32_613 : BitVec 32 := 0#32
  let c0_i32_614 : BitVec 32 := 0#32
  ![v674.toNat, 0, 0]

def k0_off186 (v674 : BitVec 32) : Fin 3 → Nat :=
  let c0_i32_618 : BitVec 32 := 0#32
  let c0_i32_619 : BitVec 32 := 0#32
  ![v674.toNat, 0, 0]
def k0_off187 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v683 : BitVec 32 := Scalar.addi v0 c62_i32
  let v684 : Index := Scalar.indexCast v683
  ![v684.toNat]
def k0_off188 (v685 : BitVec 32) : Fin 3 → Nat :=
  let c0_i32_623 : BitVec 32 := 0#32
  let c0_i32_624 : BitVec 32 := 0#32
  ![v685.toNat, 0, 0]

def k0_off189 (v685 : BitVec 32) : Fin 3 → Nat :=
  let c0_i32_628 : BitVec 32 := 0#32
  let c0_i32_629 : BitVec 32 := 0#32
  ![v685.toNat, 0, 0]
def k0_off190 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v694 : BitVec 32 := Scalar.addi v0 c63_i32
  let v695 : Index := Scalar.indexCast v694
  ![v695.toNat]
def k0_off191 (v696 : BitVec 32) : Fin 3 → Nat :=
  let c0_i32_633 : BitVec 32 := 0#32
  let c0_i32_634 : BitVec 32 := 0#32
  ![v696.toNat, 0, 0]

def k0_off192 (v696 : BitVec 32) : Fin 3 → Nat :=
  let c0_i32_638 : BitVec 32 := 0#32
  let c0_i32_639 : BitVec 32 := 0#32
  ![v696.toNat, 0, 0]
def k0_off193 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v705 : BitVec 32 := Scalar.addi v0 c64_i32
  let v706 : Index := Scalar.indexCast v705
  ![v706.toNat]
def k0_off194 (v707 : BitVec 32) : Fin 3 → Nat :=
  let c0_i32_643 : BitVec 32 := 0#32
  let c0_i32_644 : BitVec 32 := 0#32
  ![v707.toNat, 0, 0]

def k0_off195 (v707 : BitVec 32) : Fin 3 → Nat :=
  let c0_i32_648 : BitVec 32 := 0#32
  let c0_i32_649 : BitVec 32 := 0#32
  ![v707.toNat, 0, 0]
def k0_off196 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v716 : BitVec 32 := Scalar.addi v0 c65_i32
  let v717 : Index := Scalar.indexCast v716
  ![v717.toNat]
def k0_off197 (v718 : BitVec 32) : Fin 3 → Nat :=
  let c0_i32_653 : BitVec 32 := 0#32
  let c0_i32_654 : BitVec 32 := 0#32
  ![v718.toNat, 0, 0]

def k0_off198 (v718 : BitVec 32) : Fin 3 → Nat :=
  let c0_i32_658 : BitVec 32 := 0#32
  let c0_i32_659 : BitVec 32 := 0#32
  ![v718.toNat, 0, 0]
def k0_off199 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v727 : BitVec 32 := Scalar.addi v0 c66_i32
  let v728 : Index := Scalar.indexCast v727
  ![v728.toNat]
def k0_off200 (v729 : BitVec 32) : Fin 3 → Nat :=
  let c0_i32_663 : BitVec 32 := 0#32
  let c0_i32_664 : BitVec 32 := 0#32
  ![v729.toNat, 0, 0]

def k0_off201 (v729 : BitVec 32) : Fin 3 → Nat :=
  let c0_i32_668 : BitVec 32 := 0#32
  let c0_i32_669 : BitVec 32 := 0#32
  ![v729.toNat, 0, 0]
def k0_off202 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v738 : BitVec 32 := Scalar.addi v0 c67_i32
  let v739 : Index := Scalar.indexCast v738
  ![v739.toNat]
def k0_off203 (v740 : BitVec 32) : Fin 3 → Nat :=
  let c0_i32_673 : BitVec 32 := 0#32
  let c0_i32_674 : BitVec 32 := 0#32
  ![v740.toNat, 0, 0]

def k0_off204 (v740 : BitVec 32) : Fin 3 → Nat :=
  let c0_i32_678 : BitVec 32 := 0#32
  let c0_i32_679 : BitVec 32 := 0#32
  ![v740.toNat, 0, 0]
def k0_off205 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v749 : BitVec 32 := Scalar.addi v0 c68_i32
  let v750 : Index := Scalar.indexCast v749
  ![v750.toNat]
def k0_off206 (v751 : BitVec 32) : Fin 3 → Nat :=
  let c0_i32_683 : BitVec 32 := 0#32
  let c0_i32_684 : BitVec 32 := 0#32
  ![v751.toNat, 0, 0]

def k0_off207 (v751 : BitVec 32) : Fin 3 → Nat :=
  let c0_i32_688 : BitVec 32 := 0#32
  let c0_i32_689 : BitVec 32 := 0#32
  ![v751.toNat, 0, 0]
def k0_off208 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v760 : BitVec 32 := Scalar.addi v0 c69_i32
  let v761 : Index := Scalar.indexCast v760
  ![v761.toNat]
def k0_off209 (v762 : BitVec 32) : Fin 3 → Nat :=
  let c0_i32_693 : BitVec 32 := 0#32
  let c0_i32_694 : BitVec 32 := 0#32
  ![v762.toNat, 0, 0]

def k0_off210 (v762 : BitVec 32) : Fin 3 → Nat :=
  let c0_i32_698 : BitVec 32 := 0#32
  let c0_i32_699 : BitVec 32 := 0#32
  ![v762.toNat, 0, 0]
def k0_off211 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v771 : BitVec 32 := Scalar.addi v0 c70_i32
  let v772 : Index := Scalar.indexCast v771
  ![v772.toNat]
def k0_off212 (v773 : BitVec 32) : Fin 3 → Nat :=
  let c0_i32_703 : BitVec 32 := 0#32
  let c0_i32_704 : BitVec 32 := 0#32
  ![v773.toNat, 0, 0]

def k0_off213 (v773 : BitVec 32) : Fin 3 → Nat :=
  let c0_i32_708 : BitVec 32 := 0#32
  let c0_i32_709 : BitVec 32 := 0#32
  ![v773.toNat, 0, 0]
def k0_off214 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v782 : BitVec 32 := Scalar.addi v0 c71_i32
  let v783 : Index := Scalar.indexCast v782
  ![v783.toNat]
def k0_off215 (v784 : BitVec 32) : Fin 3 → Nat :=
  let c0_i32_713 : BitVec 32 := 0#32
  let c0_i32_714 : BitVec 32 := 0#32
  ![v784.toNat, 0, 0]

def k0_off216 (v784 : BitVec 32) : Fin 3 → Nat :=
  let c0_i32_718 : BitVec 32 := 0#32
  let c0_i32_719 : BitVec 32 := 0#32
  ![v784.toNat, 0, 0]
def k0_off217 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v793 : BitVec 32 := Scalar.addi v0 c72_i32
  let v794 : Index := Scalar.indexCast v793
  ![v794.toNat]
def k0_off218 (v795 : BitVec 32) : Fin 3 → Nat :=
  let c0_i32_723 : BitVec 32 := 0#32
  let c0_i32_724 : BitVec 32 := 0#32
  ![v795.toNat, 0, 0]

def k0_off219 (v795 : BitVec 32) : Fin 3 → Nat :=
  let c0_i32_728 : BitVec 32 := 0#32
  let c0_i32_729 : BitVec 32 := 0#32
  ![v795.toNat, 0, 0]
def k0_off220 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v804 : BitVec 32 := Scalar.addi v0 c73_i32
  let v805 : Index := Scalar.indexCast v804
  ![v805.toNat]
def k0_off221 (v806 : BitVec 32) : Fin 3 → Nat :=
  let c0_i32_733 : BitVec 32 := 0#32
  let c0_i32_734 : BitVec 32 := 0#32
  ![v806.toNat, 0, 0]

def k0_off222 (v806 : BitVec 32) : Fin 3 → Nat :=
  let c0_i32_738 : BitVec 32 := 0#32
  let c0_i32_739 : BitVec 32 := 0#32
  ![v806.toNat, 0, 0]
def k0_off223 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v815 : BitVec 32 := Scalar.addi v0 c74_i32
  let v816 : Index := Scalar.indexCast v815
  ![v816.toNat]
def k0_off224 (v817 : BitVec 32) : Fin 3 → Nat :=
  let c0_i32_743 : BitVec 32 := 0#32
  let c0_i32_744 : BitVec 32 := 0#32
  ![v817.toNat, 0, 0]

def k0_off225 (v817 : BitVec 32) : Fin 3 → Nat :=
  let c0_i32_748 : BitVec 32 := 0#32
  let c0_i32_749 : BitVec 32 := 0#32
  ![v817.toNat, 0, 0]
def k0_off226 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v826 : BitVec 32 := Scalar.addi v0 c75_i32
  let v827 : Index := Scalar.indexCast v826
  ![v827.toNat]
def k0_off227 (v828 : BitVec 32) : Fin 3 → Nat :=
  let c0_i32_753 : BitVec 32 := 0#32
  let c0_i32_754 : BitVec 32 := 0#32
  ![v828.toNat, 0, 0]

def k0_off228 (v828 : BitVec 32) : Fin 3 → Nat :=
  let c0_i32_758 : BitVec 32 := 0#32
  let c0_i32_759 : BitVec 32 := 0#32
  ![v828.toNat, 0, 0]
def k0_off229 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v837 : BitVec 32 := Scalar.addi v0 c76_i32
  let v838 : Index := Scalar.indexCast v837
  ![v838.toNat]
def k0_off230 (v839 : BitVec 32) : Fin 3 → Nat :=
  let c0_i32_763 : BitVec 32 := 0#32
  let c0_i32_764 : BitVec 32 := 0#32
  ![v839.toNat, 0, 0]

def k0_off231 (v839 : BitVec 32) : Fin 3 → Nat :=
  let c0_i32_768 : BitVec 32 := 0#32
  let c0_i32_769 : BitVec 32 := 0#32
  ![v839.toNat, 0, 0]
def k0_off232 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v848 : BitVec 32 := Scalar.addi v0 c77_i32
  let v849 : Index := Scalar.indexCast v848
  ![v849.toNat]
def k0_off233 (v850 : BitVec 32) : Fin 3 → Nat :=
  let c0_i32_773 : BitVec 32 := 0#32
  let c0_i32_774 : BitVec 32 := 0#32
  ![v850.toNat, 0, 0]

def k0_off234 (v850 : BitVec 32) : Fin 3 → Nat :=
  let c0_i32_778 : BitVec 32 := 0#32
  let c0_i32_779 : BitVec 32 := 0#32
  ![v850.toNat, 0, 0]
def k0_off235 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v859 : BitVec 32 := Scalar.addi v0 c78_i32
  let v860 : Index := Scalar.indexCast v859
  ![v860.toNat]
def k0_off236 (v861 : BitVec 32) : Fin 3 → Nat :=
  let c0_i32_783 : BitVec 32 := 0#32
  let c0_i32_784 : BitVec 32 := 0#32
  ![v861.toNat, 0, 0]

def k0_off237 (v861 : BitVec 32) : Fin 3 → Nat :=
  let c0_i32_788 : BitVec 32 := 0#32
  let c0_i32_789 : BitVec 32 := 0#32
  ![v861.toNat, 0, 0]
def k0_off238 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v870 : BitVec 32 := Scalar.addi v0 c79_i32
  let v871 : Index := Scalar.indexCast v870
  ![v871.toNat]
def k0_off239 (v872 : BitVec 32) : Fin 3 → Nat :=
  let c0_i32_793 : BitVec 32 := 0#32
  let c0_i32_794 : BitVec 32 := 0#32
  ![v872.toNat, 0, 0]

def k0_off240 (v872 : BitVec 32) : Fin 3 → Nat :=
  let c0_i32_798 : BitVec 32 := 0#32
  let c0_i32_799 : BitVec 32 := 0#32
  ![v872.toNat, 0, 0]
def k0_off241 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v881 : BitVec 32 := Scalar.addi v0 c80_i32
  let v882 : Index := Scalar.indexCast v881
  ![v882.toNat]
def k0_off242 (v883 : BitVec 32) : Fin 3 → Nat :=
  let c0_i32_803 : BitVec 32 := 0#32
  let c0_i32_804 : BitVec 32 := 0#32
  ![v883.toNat, 0, 0]

def k0_off243 (v883 : BitVec 32) : Fin 3 → Nat :=
  let c0_i32_808 : BitVec 32 := 0#32
  let c0_i32_809 : BitVec 32 := 0#32
  ![v883.toNat, 0, 0]
def k0_off244 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v892 : BitVec 32 := Scalar.addi v0 c81_i32
  let v893 : Index := Scalar.indexCast v892
  ![v893.toNat]
def k0_off245 (v894 : BitVec 32) : Fin 3 → Nat :=
  let c0_i32_813 : BitVec 32 := 0#32
  let c0_i32_814 : BitVec 32 := 0#32
  ![v894.toNat, 0, 0]

def k0_off246 (v894 : BitVec 32) : Fin 3 → Nat :=
  let c0_i32_818 : BitVec 32 := 0#32
  let c0_i32_819 : BitVec 32 := 0#32
  ![v894.toNat, 0, 0]
def k0_off247 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v903 : BitVec 32 := Scalar.addi v0 c82_i32
  let v904 : Index := Scalar.indexCast v903
  ![v904.toNat]
def k0_off248 (v905 : BitVec 32) : Fin 3 → Nat :=
  let c0_i32_823 : BitVec 32 := 0#32
  let c0_i32_824 : BitVec 32 := 0#32
  ![v905.toNat, 0, 0]

def k0_off249 (v905 : BitVec 32) : Fin 3 → Nat :=
  let c0_i32_828 : BitVec 32 := 0#32
  let c0_i32_829 : BitVec 32 := 0#32
  ![v905.toNat, 0, 0]
def k0_off250 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v914 : BitVec 32 := Scalar.addi v0 c83_i32
  let v915 : Index := Scalar.indexCast v914
  ![v915.toNat]
def k0_off251 (v916 : BitVec 32) : Fin 3 → Nat :=
  let c0_i32_833 : BitVec 32 := 0#32
  let c0_i32_834 : BitVec 32 := 0#32
  ![v916.toNat, 0, 0]

def k0_off252 (v916 : BitVec 32) : Fin 3 → Nat :=
  let c0_i32_838 : BitVec 32 := 0#32
  let c0_i32_839 : BitVec 32 := 0#32
  ![v916.toNat, 0, 0]
def k0_off253 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v925 : BitVec 32 := Scalar.addi v0 c84_i32
  let v926 : Index := Scalar.indexCast v925
  ![v926.toNat]
def k0_off254 (v927 : BitVec 32) : Fin 3 → Nat :=
  let c0_i32_843 : BitVec 32 := 0#32
  let c0_i32_844 : BitVec 32 := 0#32
  ![v927.toNat, 0, 0]

def k0_off255 (v927 : BitVec 32) : Fin 3 → Nat :=
  let c0_i32_848 : BitVec 32 := 0#32
  let c0_i32_849 : BitVec 32 := 0#32
  ![v927.toNat, 0, 0]
def k0_off256 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v936 : BitVec 32 := Scalar.addi v0 c85_i32
  let v937 : Index := Scalar.indexCast v936
  ![v937.toNat]
def k0_off257 (v938 : BitVec 32) : Fin 3 → Nat :=
  let c0_i32_853 : BitVec 32 := 0#32
  let c0_i32_854 : BitVec 32 := 0#32
  ![v938.toNat, 0, 0]

def k0_off258 (v938 : BitVec 32) : Fin 3 → Nat :=
  let c0_i32_858 : BitVec 32 := 0#32
  let c0_i32_859 : BitVec 32 := 0#32
  ![v938.toNat, 0, 0]
def k0_off259 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v947 : BitVec 32 := Scalar.addi v0 c86_i32
  let v948 : Index := Scalar.indexCast v947
  ![v948.toNat]
def k0_off260 (v949 : BitVec 32) : Fin 3 → Nat :=
  let c0_i32_863 : BitVec 32 := 0#32
  let c0_i32_864 : BitVec 32 := 0#32
  ![v949.toNat, 0, 0]

def k0_off261 (v949 : BitVec 32) : Fin 3 → Nat :=
  let c0_i32_868 : BitVec 32 := 0#32
  let c0_i32_869 : BitVec 32 := 0#32
  ![v949.toNat, 0, 0]
def k0_off262 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v958 : BitVec 32 := Scalar.addi v0 c87_i32
  let v959 : Index := Scalar.indexCast v958
  ![v959.toNat]
def k0_off263 (v960 : BitVec 32) : Fin 3 → Nat :=
  let c0_i32_873 : BitVec 32 := 0#32
  let c0_i32_874 : BitVec 32 := 0#32
  ![v960.toNat, 0, 0]

def k0_off264 (v960 : BitVec 32) : Fin 3 → Nat :=
  let c0_i32_878 : BitVec 32 := 0#32
  let c0_i32_879 : BitVec 32 := 0#32
  ![v960.toNat, 0, 0]
def k0_off265 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v969 : BitVec 32 := Scalar.addi v0 c88_i32
  let v970 : Index := Scalar.indexCast v969
  ![v970.toNat]
def k0_off266 (v971 : BitVec 32) : Fin 3 → Nat :=
  let c0_i32_883 : BitVec 32 := 0#32
  let c0_i32_884 : BitVec 32 := 0#32
  ![v971.toNat, 0, 0]

def k0_off267 (v971 : BitVec 32) : Fin 3 → Nat :=
  let c0_i32_888 : BitVec 32 := 0#32
  let c0_i32_889 : BitVec 32 := 0#32
  ![v971.toNat, 0, 0]
def k0_off268 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v980 : BitVec 32 := Scalar.addi v0 c89_i32
  let v981 : Index := Scalar.indexCast v980
  ![v981.toNat]
def k0_off269 (v982 : BitVec 32) : Fin 3 → Nat :=
  let c0_i32_893 : BitVec 32 := 0#32
  let c0_i32_894 : BitVec 32 := 0#32
  ![v982.toNat, 0, 0]

def k0_off270 (v982 : BitVec 32) : Fin 3 → Nat :=
  let c0_i32_898 : BitVec 32 := 0#32
  let c0_i32_899 : BitVec 32 := 0#32
  ![v982.toNat, 0, 0]
def k0_off271 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v991 : BitVec 32 := Scalar.addi v0 c90_i32
  let v992 : Index := Scalar.indexCast v991
  ![v992.toNat]
def k0_off272 (v993 : BitVec 32) : Fin 3 → Nat :=
  let c0_i32_903 : BitVec 32 := 0#32
  let c0_i32_904 : BitVec 32 := 0#32
  ![v993.toNat, 0, 0]

def k0_off273 (v993 : BitVec 32) : Fin 3 → Nat :=
  let c0_i32_908 : BitVec 32 := 0#32
  let c0_i32_909 : BitVec 32 := 0#32
  ![v993.toNat, 0, 0]
def k0_off274 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v1002 : BitVec 32 := Scalar.addi v0 c91_i32
  let v1003 : Index := Scalar.indexCast v1002
  ![v1003.toNat]
def k0_off275 (v1004 : BitVec 32) : Fin 3 → Nat :=
  let c0_i32_913 : BitVec 32 := 0#32
  let c0_i32_914 : BitVec 32 := 0#32
  ![v1004.toNat, 0, 0]

def k0_off276 (v1004 : BitVec 32) : Fin 3 → Nat :=
  let c0_i32_918 : BitVec 32 := 0#32
  let c0_i32_919 : BitVec 32 := 0#32
  ![v1004.toNat, 0, 0]
def k0_off277 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v1013 : BitVec 32 := Scalar.addi v0 c92_i32
  let v1014 : Index := Scalar.indexCast v1013
  ![v1014.toNat]
def k0_off278 (v1015 : BitVec 32) : Fin 3 → Nat :=
  let c0_i32_923 : BitVec 32 := 0#32
  let c0_i32_924 : BitVec 32 := 0#32
  ![v1015.toNat, 0, 0]

def k0_off279 (v1015 : BitVec 32) : Fin 3 → Nat :=
  let c0_i32_928 : BitVec 32 := 0#32
  let c0_i32_929 : BitVec 32 := 0#32
  ![v1015.toNat, 0, 0]
def k0_off280 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v1024 : BitVec 32 := Scalar.addi v0 c93_i32
  let v1025 : Index := Scalar.indexCast v1024
  ![v1025.toNat]
def k0_off281 (v1026 : BitVec 32) : Fin 3 → Nat :=
  let c0_i32_933 : BitVec 32 := 0#32
  let c0_i32_934 : BitVec 32 := 0#32
  ![v1026.toNat, 0, 0]

def k0_off282 (v1026 : BitVec 32) : Fin 3 → Nat :=
  let c0_i32_938 : BitVec 32 := 0#32
  let c0_i32_939 : BitVec 32 := 0#32
  ![v1026.toNat, 0, 0]
def k0_off283 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v1035 : BitVec 32 := Scalar.addi v0 c94_i32
  let v1036 : Index := Scalar.indexCast v1035
  ![v1036.toNat]
def k0_off284 (v1037 : BitVec 32) : Fin 3 → Nat :=
  let c0_i32_943 : BitVec 32 := 0#32
  let c0_i32_944 : BitVec 32 := 0#32
  ![v1037.toNat, 0, 0]

def k0_off285 (v1037 : BitVec 32) : Fin 3 → Nat :=
  let c0_i32_948 : BitVec 32 := 0#32
  let c0_i32_949 : BitVec 32 := 0#32
  ![v1037.toNat, 0, 0]
def k0_off286 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v1046 : BitVec 32 := Scalar.addi v0 c95_i32
  let v1047 : Index := Scalar.indexCast v1046
  ![v1047.toNat]
def k0_off287 (v1048 : BitVec 32) : Fin 3 → Nat :=
  let c0_i32_953 : BitVec 32 := 0#32
  let c0_i32_954 : BitVec 32 := 0#32
  ![v1048.toNat, 0, 0]

def k0_off288 (v1048 : BitVec 32) : Fin 3 → Nat :=
  let c0_i32_958 : BitVec 32 := 0#32
  let c0_i32_959 : BitVec 32 := 0#32
  ![v1048.toNat, 0, 0]
def k0_off289 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v1057 : BitVec 32 := Scalar.addi v0 c96_i32
  let v1058 : Index := Scalar.indexCast v1057
  ![v1058.toNat]
def k0_off290 (v1059 : BitVec 32) : Fin 3 → Nat :=
  let c0_i32_963 : BitVec 32 := 0#32
  let c0_i32_964 : BitVec 32 := 0#32
  ![v1059.toNat, 0, 0]

def k0_off291 (v1059 : BitVec 32) : Fin 3 → Nat :=
  let c0_i32_968 : BitVec 32 := 0#32
  let c0_i32_969 : BitVec 32 := 0#32
  ![v1059.toNat, 0, 0]
def k0_off292 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v1068 : BitVec 32 := Scalar.addi v0 c97_i32
  let v1069 : Index := Scalar.indexCast v1068
  ![v1069.toNat]
def k0_off293 (v1070 : BitVec 32) : Fin 3 → Nat :=
  let c0_i32_973 : BitVec 32 := 0#32
  let c0_i32_974 : BitVec 32 := 0#32
  ![v1070.toNat, 0, 0]

def k0_off294 (v1070 : BitVec 32) : Fin 3 → Nat :=
  let c0_i32_978 : BitVec 32 := 0#32
  let c0_i32_979 : BitVec 32 := 0#32
  ![v1070.toNat, 0, 0]
def k0_off295 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v1079 : BitVec 32 := Scalar.addi v0 c98_i32
  let v1080 : Index := Scalar.indexCast v1079
  ![v1080.toNat]
def k0_off296 (v1081 : BitVec 32) : Fin 3 → Nat :=
  let c0_i32_983 : BitVec 32 := 0#32
  let c0_i32_984 : BitVec 32 := 0#32
  ![v1081.toNat, 0, 0]

def k0_off297 (v1081 : BitVec 32) : Fin 3 → Nat :=
  let c0_i32_988 : BitVec 32 := 0#32
  let c0_i32_989 : BitVec 32 := 0#32
  ![v1081.toNat, 0, 0]
def k0_off298 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v1090 : BitVec 32 := Scalar.addi v0 c99_i32
  let v1091 : Index := Scalar.indexCast v1090
  ![v1091.toNat]
def k0_off299 (v1092 : BitVec 32) : Fin 3 → Nat :=
  let c0_i32_993 : BitVec 32 := 0#32
  let c0_i32_994 : BitVec 32 := 0#32
  ![v1092.toNat, 0, 0]

def k0_off300 (v1092 : BitVec 32) : Fin 3 → Nat :=
  let c0_i32_998 : BitVec 32 := 0#32
  let c0_i32_999 : BitVec 32 := 0#32
  ![v1092.toNat, 0, 0]
def k0_off301 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1101 : BitVec 32 := Scalar.addi v0 c100_i32
  let v1102 : Index := Scalar.indexCast v1101
  ![v1102.toNat]
def k0_off302 (v1103 : BitVec 32) : Fin 3 → Nat :=
  let c0_i32_1003 : BitVec 32 := 0#32
  let c0_i32_1004 : BitVec 32 := 0#32
  ![v1103.toNat, 0, 0]

def k0_off303 (v1103 : BitVec 32) : Fin 3 → Nat :=
  let c0_i32_1008 : BitVec 32 := 0#32
  let c0_i32_1009 : BitVec 32 := 0#32
  ![v1103.toNat, 0, 0]
def k0_off304 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1112 : BitVec 32 := Scalar.addi v0 c101_i32
  let v1113 : Index := Scalar.indexCast v1112
  ![v1113.toNat]
def k0_off305 (v1114 : BitVec 32) : Fin 3 → Nat :=
  let c0_i32_1013 : BitVec 32 := 0#32
  let c0_i32_1014 : BitVec 32 := 0#32
  ![v1114.toNat, 0, 0]

def k0_off306 (v1114 : BitVec 32) : Fin 3 → Nat :=
  let c0_i32_1018 : BitVec 32 := 0#32
  let c0_i32_1019 : BitVec 32 := 0#32
  ![v1114.toNat, 0, 0]
def k0_off307 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1123 : BitVec 32 := Scalar.addi v0 c102_i32
  let v1124 : Index := Scalar.indexCast v1123
  ![v1124.toNat]
def k0_off308 (v1125 : BitVec 32) : Fin 3 → Nat :=
  let c0_i32_1023 : BitVec 32 := 0#32
  let c0_i32_1024 : BitVec 32 := 0#32
  ![v1125.toNat, 0, 0]

def k0_off309 (v1125 : BitVec 32) : Fin 3 → Nat :=
  let c0_i32_1028 : BitVec 32 := 0#32
  let c0_i32_1029 : BitVec 32 := 0#32
  ![v1125.toNat, 0, 0]
def k0_off310 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1134 : BitVec 32 := Scalar.addi v0 c103_i32
  let v1135 : Index := Scalar.indexCast v1134
  ![v1135.toNat]
def k0_off311 (v1136 : BitVec 32) : Fin 3 → Nat :=
  let c0_i32_1033 : BitVec 32 := 0#32
  let c0_i32_1034 : BitVec 32 := 0#32
  ![v1136.toNat, 0, 0]

def k0_off312 (v1136 : BitVec 32) : Fin 3 → Nat :=
  let c0_i32_1038 : BitVec 32 := 0#32
  let c0_i32_1039 : BitVec 32 := 0#32
  ![v1136.toNat, 0, 0]
def k0_off313 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1145 : BitVec 32 := Scalar.addi v0 c104_i32
  let v1146 : Index := Scalar.indexCast v1145
  ![v1146.toNat]
def k0_off314 (v1147 : BitVec 32) : Fin 3 → Nat :=
  let c0_i32_1043 : BitVec 32 := 0#32
  let c0_i32_1044 : BitVec 32 := 0#32
  ![v1147.toNat, 0, 0]

def k0_off315 (v1147 : BitVec 32) : Fin 3 → Nat :=
  let c0_i32_1048 : BitVec 32 := 0#32
  let c0_i32_1049 : BitVec 32 := 0#32
  ![v1147.toNat, 0, 0]
def k0_off316 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1156 : BitVec 32 := Scalar.addi v0 c105_i32
  let v1157 : Index := Scalar.indexCast v1156
  ![v1157.toNat]
def k0_off317 (v1158 : BitVec 32) : Fin 3 → Nat :=
  let c0_i32_1053 : BitVec 32 := 0#32
  let c0_i32_1054 : BitVec 32 := 0#32
  ![v1158.toNat, 0, 0]

def k0_off318 (v1158 : BitVec 32) : Fin 3 → Nat :=
  let c0_i32_1058 : BitVec 32 := 0#32
  let c0_i32_1059 : BitVec 32 := 0#32
  ![v1158.toNat, 0, 0]
def k0_off319 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1167 : BitVec 32 := Scalar.addi v0 c106_i32
  let v1168 : Index := Scalar.indexCast v1167
  ![v1168.toNat]
def k0_off320 (v1169 : BitVec 32) : Fin 3 → Nat :=
  let c0_i32_1063 : BitVec 32 := 0#32
  let c0_i32_1064 : BitVec 32 := 0#32
  ![v1169.toNat, 0, 0]

def k0_off321 (v1169 : BitVec 32) : Fin 3 → Nat :=
  let c0_i32_1068 : BitVec 32 := 0#32
  let c0_i32_1069 : BitVec 32 := 0#32
  ![v1169.toNat, 0, 0]
def k0_off322 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1178 : BitVec 32 := Scalar.addi v0 c107_i32
  let v1179 : Index := Scalar.indexCast v1178
  ![v1179.toNat]
def k0_off323 (v1180 : BitVec 32) : Fin 3 → Nat :=
  let c0_i32_1073 : BitVec 32 := 0#32
  let c0_i32_1074 : BitVec 32 := 0#32
  ![v1180.toNat, 0, 0]

def k0_off324 (v1180 : BitVec 32) : Fin 3 → Nat :=
  let c0_i32_1078 : BitVec 32 := 0#32
  let c0_i32_1079 : BitVec 32 := 0#32
  ![v1180.toNat, 0, 0]
def k0_off325 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1189 : BitVec 32 := Scalar.addi v0 c108_i32
  let v1190 : Index := Scalar.indexCast v1189
  ![v1190.toNat]
def k0_off326 (v1191 : BitVec 32) : Fin 3 → Nat :=
  let c0_i32_1083 : BitVec 32 := 0#32
  let c0_i32_1084 : BitVec 32 := 0#32
  ![v1191.toNat, 0, 0]

def k0_off327 (v1191 : BitVec 32) : Fin 3 → Nat :=
  let c0_i32_1088 : BitVec 32 := 0#32
  let c0_i32_1089 : BitVec 32 := 0#32
  ![v1191.toNat, 0, 0]
def k0_off328 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1200 : BitVec 32 := Scalar.addi v0 c109_i32
  let v1201 : Index := Scalar.indexCast v1200
  ![v1201.toNat]
def k0_off329 (v1202 : BitVec 32) : Fin 3 → Nat :=
  let c0_i32_1093 : BitVec 32 := 0#32
  let c0_i32_1094 : BitVec 32 := 0#32
  ![v1202.toNat, 0, 0]

def k0_off330 (v1202 : BitVec 32) : Fin 3 → Nat :=
  let c0_i32_1098 : BitVec 32 := 0#32
  let c0_i32_1099 : BitVec 32 := 0#32
  ![v1202.toNat, 0, 0]
def k0_off331 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1211 : BitVec 32 := Scalar.addi v0 c110_i32
  let v1212 : Index := Scalar.indexCast v1211
  ![v1212.toNat]
def k0_off332 (v1213 : BitVec 32) : Fin 3 → Nat :=
  let c0_i32_1103 : BitVec 32 := 0#32
  let c0_i32_1104 : BitVec 32 := 0#32
  ![v1213.toNat, 0, 0]

def k0_off333 (v1213 : BitVec 32) : Fin 3 → Nat :=
  let c0_i32_1108 : BitVec 32 := 0#32
  let c0_i32_1109 : BitVec 32 := 0#32
  ![v1213.toNat, 0, 0]
def k0_off334 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1222 : BitVec 32 := Scalar.addi v0 c111_i32
  let v1223 : Index := Scalar.indexCast v1222
  ![v1223.toNat]
def k0_off335 (v1224 : BitVec 32) : Fin 3 → Nat :=
  let c0_i32_1113 : BitVec 32 := 0#32
  let c0_i32_1114 : BitVec 32 := 0#32
  ![v1224.toNat, 0, 0]

def k0_off336 (v1224 : BitVec 32) : Fin 3 → Nat :=
  let c0_i32_1118 : BitVec 32 := 0#32
  let c0_i32_1119 : BitVec 32 := 0#32
  ![v1224.toNat, 0, 0]
def k0_off337 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1233 : BitVec 32 := Scalar.addi v0 c112_i32
  let v1234 : Index := Scalar.indexCast v1233
  ![v1234.toNat]
def k0_off338 (v1235 : BitVec 32) : Fin 3 → Nat :=
  let c0_i32_1123 : BitVec 32 := 0#32
  let c0_i32_1124 : BitVec 32 := 0#32
  ![v1235.toNat, 0, 0]

def k0_off339 (v1235 : BitVec 32) : Fin 3 → Nat :=
  let c0_i32_1128 : BitVec 32 := 0#32
  let c0_i32_1129 : BitVec 32 := 0#32
  ![v1235.toNat, 0, 0]
def k0_off340 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1244 : BitVec 32 := Scalar.addi v0 c113_i32
  let v1245 : Index := Scalar.indexCast v1244
  ![v1245.toNat]
def k0_off341 (v1246 : BitVec 32) : Fin 3 → Nat :=
  let c0_i32_1133 : BitVec 32 := 0#32
  let c0_i32_1134 : BitVec 32 := 0#32
  ![v1246.toNat, 0, 0]

def k0_off342 (v1246 : BitVec 32) : Fin 3 → Nat :=
  let c0_i32_1138 : BitVec 32 := 0#32
  let c0_i32_1139 : BitVec 32 := 0#32
  ![v1246.toNat, 0, 0]
def k0_off343 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1255 : BitVec 32 := Scalar.addi v0 c114_i32
  let v1256 : Index := Scalar.indexCast v1255
  ![v1256.toNat]
def k0_off344 (v1257 : BitVec 32) : Fin 3 → Nat :=
  let c0_i32_1143 : BitVec 32 := 0#32
  let c0_i32_1144 : BitVec 32 := 0#32
  ![v1257.toNat, 0, 0]

def k0_off345 (v1257 : BitVec 32) : Fin 3 → Nat :=
  let c0_i32_1148 : BitVec 32 := 0#32
  let c0_i32_1149 : BitVec 32 := 0#32
  ![v1257.toNat, 0, 0]
def k0_off346 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1266 : BitVec 32 := Scalar.addi v0 c115_i32
  let v1267 : Index := Scalar.indexCast v1266
  ![v1267.toNat]
def k0_off347 (v1268 : BitVec 32) : Fin 3 → Nat :=
  let c0_i32_1153 : BitVec 32 := 0#32
  let c0_i32_1154 : BitVec 32 := 0#32
  ![v1268.toNat, 0, 0]

def k0_off348 (v1268 : BitVec 32) : Fin 3 → Nat :=
  let c0_i32_1158 : BitVec 32 := 0#32
  let c0_i32_1159 : BitVec 32 := 0#32
  ![v1268.toNat, 0, 0]
def k0_off349 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1277 : BitVec 32 := Scalar.addi v0 c116_i32
  let v1278 : Index := Scalar.indexCast v1277
  ![v1278.toNat]
def k0_off350 (v1279 : BitVec 32) : Fin 3 → Nat :=
  let c0_i32_1163 : BitVec 32 := 0#32
  let c0_i32_1164 : BitVec 32 := 0#32
  ![v1279.toNat, 0, 0]

def k0_off351 (v1279 : BitVec 32) : Fin 3 → Nat :=
  let c0_i32_1168 : BitVec 32 := 0#32
  let c0_i32_1169 : BitVec 32 := 0#32
  ![v1279.toNat, 0, 0]
def k0_off352 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1288 : BitVec 32 := Scalar.addi v0 c117_i32
  let v1289 : Index := Scalar.indexCast v1288
  ![v1289.toNat]
def k0_off353 (v1290 : BitVec 32) : Fin 3 → Nat :=
  let c0_i32_1173 : BitVec 32 := 0#32
  let c0_i32_1174 : BitVec 32 := 0#32
  ![v1290.toNat, 0, 0]

def k0_off354 (v1290 : BitVec 32) : Fin 3 → Nat :=
  let c0_i32_1178 : BitVec 32 := 0#32
  let c0_i32_1179 : BitVec 32 := 0#32
  ![v1290.toNat, 0, 0]
def k0_off355 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1299 : BitVec 32 := Scalar.addi v0 c118_i32
  let v1300 : Index := Scalar.indexCast v1299
  ![v1300.toNat]
def k0_off356 (v1301 : BitVec 32) : Fin 3 → Nat :=
  let c0_i32_1183 : BitVec 32 := 0#32
  let c0_i32_1184 : BitVec 32 := 0#32
  ![v1301.toNat, 0, 0]

def k0_off357 (v1301 : BitVec 32) : Fin 3 → Nat :=
  let c0_i32_1188 : BitVec 32 := 0#32
  let c0_i32_1189 : BitVec 32 := 0#32
  ![v1301.toNat, 0, 0]
def k0_off358 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1310 : BitVec 32 := Scalar.addi v0 c119_i32
  let v1311 : Index := Scalar.indexCast v1310
  ![v1311.toNat]
def k0_off359 (v1312 : BitVec 32) : Fin 3 → Nat :=
  let c0_i32_1193 : BitVec 32 := 0#32
  let c0_i32_1194 : BitVec 32 := 0#32
  ![v1312.toNat, 0, 0]

def k0_off360 (v1312 : BitVec 32) : Fin 3 → Nat :=
  let c0_i32_1198 : BitVec 32 := 0#32
  let c0_i32_1199 : BitVec 32 := 0#32
  ![v1312.toNat, 0, 0]
def k0_off361 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1321 : BitVec 32 := Scalar.addi v0 c120_i32
  let v1322 : Index := Scalar.indexCast v1321
  ![v1322.toNat]
def k0_off362 (v1323 : BitVec 32) : Fin 3 → Nat :=
  let c0_i32_1203 : BitVec 32 := 0#32
  let c0_i32_1204 : BitVec 32 := 0#32
  ![v1323.toNat, 0, 0]

def k0_off363 (v1323 : BitVec 32) : Fin 3 → Nat :=
  let c0_i32_1208 : BitVec 32 := 0#32
  let c0_i32_1209 : BitVec 32 := 0#32
  ![v1323.toNat, 0, 0]
def k0_off364 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1332 : BitVec 32 := Scalar.addi v0 c121_i32
  let v1333 : Index := Scalar.indexCast v1332
  ![v1333.toNat]
def k0_off365 (v1334 : BitVec 32) : Fin 3 → Nat :=
  let c0_i32_1213 : BitVec 32 := 0#32
  let c0_i32_1214 : BitVec 32 := 0#32
  ![v1334.toNat, 0, 0]

def k0_off366 (v1334 : BitVec 32) : Fin 3 → Nat :=
  let c0_i32_1218 : BitVec 32 := 0#32
  let c0_i32_1219 : BitVec 32 := 0#32
  ![v1334.toNat, 0, 0]
def k0_off367 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1343 : BitVec 32 := Scalar.addi v0 c122_i32
  let v1344 : Index := Scalar.indexCast v1343
  ![v1344.toNat]
def k0_off368 (v1345 : BitVec 32) : Fin 3 → Nat :=
  let c0_i32_1223 : BitVec 32 := 0#32
  let c0_i32_1224 : BitVec 32 := 0#32
  ![v1345.toNat, 0, 0]

def k0_off369 (v1345 : BitVec 32) : Fin 3 → Nat :=
  let c0_i32_1228 : BitVec 32 := 0#32
  let c0_i32_1229 : BitVec 32 := 0#32
  ![v1345.toNat, 0, 0]
def k0_off370 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1354 : BitVec 32 := Scalar.addi v0 c123_i32
  let v1355 : Index := Scalar.indexCast v1354
  ![v1355.toNat]
def k0_off371 (v1356 : BitVec 32) : Fin 3 → Nat :=
  let c0_i32_1233 : BitVec 32 := 0#32
  let c0_i32_1234 : BitVec 32 := 0#32
  ![v1356.toNat, 0, 0]

def k0_off372 (v1356 : BitVec 32) : Fin 3 → Nat :=
  let c0_i32_1238 : BitVec 32 := 0#32
  let c0_i32_1239 : BitVec 32 := 0#32
  ![v1356.toNat, 0, 0]
def k0_off373 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1365 : BitVec 32 := Scalar.addi v0 c124_i32
  let v1366 : Index := Scalar.indexCast v1365
  ![v1366.toNat]
def k0_off374 (v1367 : BitVec 32) : Fin 3 → Nat :=
  let c0_i32_1243 : BitVec 32 := 0#32
  let c0_i32_1244 : BitVec 32 := 0#32
  ![v1367.toNat, 0, 0]

def k0_off375 (v1367 : BitVec 32) : Fin 3 → Nat :=
  let c0_i32_1248 : BitVec 32 := 0#32
  let c0_i32_1249 : BitVec 32 := 0#32
  ![v1367.toNat, 0, 0]
def k0_off376 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1376 : BitVec 32 := Scalar.addi v0 c125_i32
  let v1377 : Index := Scalar.indexCast v1376
  ![v1377.toNat]
def k0_off377 (v1378 : BitVec 32) : Fin 3 → Nat :=
  let c0_i32_1253 : BitVec 32 := 0#32
  let c0_i32_1254 : BitVec 32 := 0#32
  ![v1378.toNat, 0, 0]

def k0_off378 (v1378 : BitVec 32) : Fin 3 → Nat :=
  let c0_i32_1258 : BitVec 32 := 0#32
  let c0_i32_1259 : BitVec 32 := 0#32
  ![v1378.toNat, 0, 0]
def k0_off379 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1387 : BitVec 32 := Scalar.addi v0 c126_i32
  let v1388 : Index := Scalar.indexCast v1387
  ![v1388.toNat]
def k0_off380 (v1389 : BitVec 32) : Fin 3 → Nat :=
  let c0_i32_1263 : BitVec 32 := 0#32
  let c0_i32_1264 : BitVec 32 := 0#32
  ![v1389.toNat, 0, 0]

def k0_off381 (v1389 : BitVec 32) : Fin 3 → Nat :=
  let c0_i32_1268 : BitVec 32 := 0#32
  let c0_i32_1269 : BitVec 32 := 0#32
  ![v1389.toNat, 0, 0]
def k0_off382 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1398 : BitVec 32 := Scalar.addi v0 c127_i32
  let v1399 : Index := Scalar.indexCast v1398
  ![v1399.toNat]
def k0_off383 (v1400 : BitVec 32) : Fin 3 → Nat :=
  let c0_i32_1273 : BitVec 32 := 0#32
  let c0_i32_1274 : BitVec 32 := 0#32
  ![v1400.toNat, 0, 0]

def k0_off384 (v1400 : BitVec 32) : Fin 3 → Nat :=
  let c0_i32_1278 : BitVec 32 := 0#32
  let c0_i32_1279 : BitVec 32 := 0#32
  ![v1400.toNat, 0, 0]

def k0_chk128 (v1400 : BitVec 32) : Prop :=
  (∀ a, (k0_off383 v1400) a + S1x1x1024.size a ≤ S50257x1x1024.size a) ∧
  (∀ a, (k0_off384 v1400) a + S1x1x128.size a ≤ S50257x1x128.size a)
instance k0_chk128.dec : ∀ (v1400 : BitVec 32), Decidable (k0_chk128 v1400) := fun v1400 => decidable_of_iff' _ (Iff.of_eq (k0_chk128.eq_1 v1400))
theorem k0_off383_inb : ∀ (v1400 : BitVec 32) (k0_hw128 : k0_chk128 v1400), ∀ a, (k0_off383 v1400) a + S1x1x1024.size a ≤ S50257x1x1024.size a := fun v1400 k0_hw128 => k0_hw128.1
theorem k0_off384_inb : ∀ (v1400 : BitVec 32) (k0_hw128 : k0_chk128 v1400), ∀ a, (k0_off384 v1400) a + S1x1x128.size a ≤ S50257x1x128.size a := fun v1400 k0_hw128 => k0_hw128.2

def k0_off385 (v3 : BitVec 32) : Fin 3 → Nat :=
  let c0_i32_1283 : BitVec 32 := 0#32
  let c0_i32_1284 : BitVec 32 := 0#32
  ![v3.toNat, 0, 0]
def k0_off386 (v14 : BitVec 32) : Fin 3 → Nat :=
  let c0_i32_1288 : BitVec 32 := 0#32
  let c0_i32_1289 : BitVec 32 := 0#32
  ![v14.toNat, 0, 0]
def k0_off387 (v25 : BitVec 32) : Fin 3 → Nat :=
  let c0_i32_1293 : BitVec 32 := 0#32
  let c0_i32_1294 : BitVec 32 := 0#32
  ![v25.toNat, 0, 0]
def k0_off388 (v36 : BitVec 32) : Fin 3 → Nat :=
  let c0_i32_1298 : BitVec 32 := 0#32
  let c0_i32_1299 : BitVec 32 := 0#32
  ![v36.toNat, 0, 0]
def k0_off389 (v47 : BitVec 32) : Fin 3 → Nat :=
  let c0_i32_1303 : BitVec 32 := 0#32
  let c0_i32_1304 : BitVec 32 := 0#32
  ![v47.toNat, 0, 0]
def k0_off390 (v58 : BitVec 32) : Fin 3 → Nat :=
  let c0_i32_1308 : BitVec 32 := 0#32
  let c0_i32_1309 : BitVec 32 := 0#32
  ![v58.toNat, 0, 0]
def k0_off391 (v69 : BitVec 32) : Fin 3 → Nat :=
  let c0_i32_1313 : BitVec 32 := 0#32
  let c0_i32_1314 : BitVec 32 := 0#32
  ![v69.toNat, 0, 0]
def k0_off392 (v80 : BitVec 32) : Fin 3 → Nat :=
  let c0_i32_1318 : BitVec 32 := 0#32
  let c0_i32_1319 : BitVec 32 := 0#32
  ![v80.toNat, 0, 0]
def k0_off393 (v91 : BitVec 32) : Fin 3 → Nat :=
  let c0_i32_1323 : BitVec 32 := 0#32
  let c0_i32_1324 : BitVec 32 := 0#32
  ![v91.toNat, 0, 0]
def k0_off394 (v102 : BitVec 32) : Fin 3 → Nat :=
  let c0_i32_1328 : BitVec 32 := 0#32
  let c0_i32_1329 : BitVec 32 := 0#32
  ![v102.toNat, 0, 0]
def k0_off395 (v113 : BitVec 32) : Fin 3 → Nat :=
  let c0_i32_1333 : BitVec 32 := 0#32
  let c0_i32_1334 : BitVec 32 := 0#32
  ![v113.toNat, 0, 0]
def k0_off396 (v124 : BitVec 32) : Fin 3 → Nat :=
  let c0_i32_1338 : BitVec 32 := 0#32
  let c0_i32_1339 : BitVec 32 := 0#32
  ![v124.toNat, 0, 0]
def k0_off397 (v135 : BitVec 32) : Fin 3 → Nat :=
  let c0_i32_1343 : BitVec 32 := 0#32
  let c0_i32_1344 : BitVec 32 := 0#32
  ![v135.toNat, 0, 0]
def k0_off398 (v146 : BitVec 32) : Fin 3 → Nat :=
  let c0_i32_1348 : BitVec 32 := 0#32
  let c0_i32_1349 : BitVec 32 := 0#32
  ![v146.toNat, 0, 0]
def k0_off399 (v157 : BitVec 32) : Fin 3 → Nat :=
  let c0_i32_1353 : BitVec 32 := 0#32
  let c0_i32_1354 : BitVec 32 := 0#32
  ![v157.toNat, 0, 0]
def k0_off400 (v168 : BitVec 32) : Fin 3 → Nat :=
  let c0_i32_1358 : BitVec 32 := 0#32
  let c0_i32_1359 : BitVec 32 := 0#32
  ![v168.toNat, 0, 0]
def k0_off401 (v179 : BitVec 32) : Fin 3 → Nat :=
  let c0_i32_1363 : BitVec 32 := 0#32
  let c0_i32_1364 : BitVec 32 := 0#32
  ![v179.toNat, 0, 0]
def k0_off402 (v190 : BitVec 32) : Fin 3 → Nat :=
  let c0_i32_1368 : BitVec 32 := 0#32
  let c0_i32_1369 : BitVec 32 := 0#32
  ![v190.toNat, 0, 0]
def k0_off403 (v201 : BitVec 32) : Fin 3 → Nat :=
  let c0_i32_1373 : BitVec 32 := 0#32
  let c0_i32_1374 : BitVec 32 := 0#32
  ![v201.toNat, 0, 0]
def k0_off404 (v212 : BitVec 32) : Fin 3 → Nat :=
  let c0_i32_1378 : BitVec 32 := 0#32
  let c0_i32_1379 : BitVec 32 := 0#32
  ![v212.toNat, 0, 0]
def k0_off405 (v223 : BitVec 32) : Fin 3 → Nat :=
  let c0_i32_1383 : BitVec 32 := 0#32
  let c0_i32_1384 : BitVec 32 := 0#32
  ![v223.toNat, 0, 0]
def k0_off406 (v234 : BitVec 32) : Fin 3 → Nat :=
  let c0_i32_1388 : BitVec 32 := 0#32
  let c0_i32_1389 : BitVec 32 := 0#32
  ![v234.toNat, 0, 0]
def k0_off407 (v245 : BitVec 32) : Fin 3 → Nat :=
  let c0_i32_1393 : BitVec 32 := 0#32
  let c0_i32_1394 : BitVec 32 := 0#32
  ![v245.toNat, 0, 0]
def k0_off408 (v256 : BitVec 32) : Fin 3 → Nat :=
  let c0_i32_1398 : BitVec 32 := 0#32
  let c0_i32_1399 : BitVec 32 := 0#32
  ![v256.toNat, 0, 0]
def k0_off409 (v267 : BitVec 32) : Fin 3 → Nat :=
  let c0_i32_1403 : BitVec 32 := 0#32
  let c0_i32_1404 : BitVec 32 := 0#32
  ![v267.toNat, 0, 0]
def k0_off410 (v278 : BitVec 32) : Fin 3 → Nat :=
  let c0_i32_1408 : BitVec 32 := 0#32
  let c0_i32_1409 : BitVec 32 := 0#32
  ![v278.toNat, 0, 0]
def k0_off411 (v289 : BitVec 32) : Fin 3 → Nat :=
  let c0_i32_1413 : BitVec 32 := 0#32
  let c0_i32_1414 : BitVec 32 := 0#32
  ![v289.toNat, 0, 0]
def k0_off412 (v300 : BitVec 32) : Fin 3 → Nat :=
  let c0_i32_1418 : BitVec 32 := 0#32
  let c0_i32_1419 : BitVec 32 := 0#32
  ![v300.toNat, 0, 0]
def k0_off413 (v311 : BitVec 32) : Fin 3 → Nat :=
  let c0_i32_1423 : BitVec 32 := 0#32
  let c0_i32_1424 : BitVec 32 := 0#32
  ![v311.toNat, 0, 0]
def k0_off414 (v322 : BitVec 32) : Fin 3 → Nat :=
  let c0_i32_1428 : BitVec 32 := 0#32
  let c0_i32_1429 : BitVec 32 := 0#32
  ![v322.toNat, 0, 0]
def k0_off415 (v333 : BitVec 32) : Fin 3 → Nat :=
  let c0_i32_1433 : BitVec 32 := 0#32
  let c0_i32_1434 : BitVec 32 := 0#32
  ![v333.toNat, 0, 0]
def k0_off416 (v344 : BitVec 32) : Fin 3 → Nat :=
  let c0_i32_1438 : BitVec 32 := 0#32
  let c0_i32_1439 : BitVec 32 := 0#32
  ![v344.toNat, 0, 0]
def k0_off417 (v355 : BitVec 32) : Fin 3 → Nat :=
  let c0_i32_1443 : BitVec 32 := 0#32
  let c0_i32_1444 : BitVec 32 := 0#32
  ![v355.toNat, 0, 0]
def k0_off418 (v366 : BitVec 32) : Fin 3 → Nat :=
  let c0_i32_1448 : BitVec 32 := 0#32
  let c0_i32_1449 : BitVec 32 := 0#32
  ![v366.toNat, 0, 0]
def k0_off419 (v377 : BitVec 32) : Fin 3 → Nat :=
  let c0_i32_1453 : BitVec 32 := 0#32
  let c0_i32_1454 : BitVec 32 := 0#32
  ![v377.toNat, 0, 0]
def k0_off420 (v388 : BitVec 32) : Fin 3 → Nat :=
  let c0_i32_1458 : BitVec 32 := 0#32
  let c0_i32_1459 : BitVec 32 := 0#32
  ![v388.toNat, 0, 0]
def k0_off421 (v399 : BitVec 32) : Fin 3 → Nat :=
  let c0_i32_1463 : BitVec 32 := 0#32
  let c0_i32_1464 : BitVec 32 := 0#32
  ![v399.toNat, 0, 0]
def k0_off422 (v410 : BitVec 32) : Fin 3 → Nat :=
  let c0_i32_1468 : BitVec 32 := 0#32
  let c0_i32_1469 : BitVec 32 := 0#32
  ![v410.toNat, 0, 0]
def k0_off423 (v421 : BitVec 32) : Fin 3 → Nat :=
  let c0_i32_1473 : BitVec 32 := 0#32
  let c0_i32_1474 : BitVec 32 := 0#32
  ![v421.toNat, 0, 0]
def k0_off424 (v432 : BitVec 32) : Fin 3 → Nat :=
  let c0_i32_1478 : BitVec 32 := 0#32
  let c0_i32_1479 : BitVec 32 := 0#32
  ![v432.toNat, 0, 0]
def k0_off425 (v443 : BitVec 32) : Fin 3 → Nat :=
  let c0_i32_1483 : BitVec 32 := 0#32
  let c0_i32_1484 : BitVec 32 := 0#32
  ![v443.toNat, 0, 0]
def k0_off426 (v454 : BitVec 32) : Fin 3 → Nat :=
  let c0_i32_1488 : BitVec 32 := 0#32
  let c0_i32_1489 : BitVec 32 := 0#32
  ![v454.toNat, 0, 0]
def k0_off427 (v465 : BitVec 32) : Fin 3 → Nat :=
  let c0_i32_1493 : BitVec 32 := 0#32
  let c0_i32_1494 : BitVec 32 := 0#32
  ![v465.toNat, 0, 0]
def k0_off428 (v476 : BitVec 32) : Fin 3 → Nat :=
  let c0_i32_1498 : BitVec 32 := 0#32
  let c0_i32_1499 : BitVec 32 := 0#32
  ![v476.toNat, 0, 0]
def k0_off429 (v487 : BitVec 32) : Fin 3 → Nat :=
  let c0_i32_1503 : BitVec 32 := 0#32
  let c0_i32_1504 : BitVec 32 := 0#32
  ![v487.toNat, 0, 0]
def k0_off430 (v498 : BitVec 32) : Fin 3 → Nat :=
  let c0_i32_1508 : BitVec 32 := 0#32
  let c0_i32_1509 : BitVec 32 := 0#32
  ![v498.toNat, 0, 0]
def k0_off431 (v509 : BitVec 32) : Fin 3 → Nat :=
  let c0_i32_1513 : BitVec 32 := 0#32
  let c0_i32_1514 : BitVec 32 := 0#32
  ![v509.toNat, 0, 0]
def k0_off432 (v520 : BitVec 32) : Fin 3 → Nat :=
  let c0_i32_1518 : BitVec 32 := 0#32
  let c0_i32_1519 : BitVec 32 := 0#32
  ![v520.toNat, 0, 0]
def k0_off433 (v531 : BitVec 32) : Fin 3 → Nat :=
  let c0_i32_1523 : BitVec 32 := 0#32
  let c0_i32_1524 : BitVec 32 := 0#32
  ![v531.toNat, 0, 0]
def k0_off434 (v542 : BitVec 32) : Fin 3 → Nat :=
  let c0_i32_1528 : BitVec 32 := 0#32
  let c0_i32_1529 : BitVec 32 := 0#32
  ![v542.toNat, 0, 0]
def k0_off435 (v553 : BitVec 32) : Fin 3 → Nat :=
  let c0_i32_1533 : BitVec 32 := 0#32
  let c0_i32_1534 : BitVec 32 := 0#32
  ![v553.toNat, 0, 0]
def k0_off436 (v564 : BitVec 32) : Fin 3 → Nat :=
  let c0_i32_1538 : BitVec 32 := 0#32
  let c0_i32_1539 : BitVec 32 := 0#32
  ![v564.toNat, 0, 0]
def k0_off437 (v575 : BitVec 32) : Fin 3 → Nat :=
  let c0_i32_1543 : BitVec 32 := 0#32
  let c0_i32_1544 : BitVec 32 := 0#32
  ![v575.toNat, 0, 0]
def k0_off438 (v586 : BitVec 32) : Fin 3 → Nat :=
  let c0_i32_1548 : BitVec 32 := 0#32
  let c0_i32_1549 : BitVec 32 := 0#32
  ![v586.toNat, 0, 0]
def k0_off439 (v597 : BitVec 32) : Fin 3 → Nat :=
  let c0_i32_1553 : BitVec 32 := 0#32
  let c0_i32_1554 : BitVec 32 := 0#32
  ![v597.toNat, 0, 0]
def k0_off440 (v608 : BitVec 32) : Fin 3 → Nat :=
  let c0_i32_1558 : BitVec 32 := 0#32
  let c0_i32_1559 : BitVec 32 := 0#32
  ![v608.toNat, 0, 0]
def k0_off441 (v619 : BitVec 32) : Fin 3 → Nat :=
  let c0_i32_1563 : BitVec 32 := 0#32
  let c0_i32_1564 : BitVec 32 := 0#32
  ![v619.toNat, 0, 0]
def k0_off442 (v630 : BitVec 32) : Fin 3 → Nat :=
  let c0_i32_1568 : BitVec 32 := 0#32
  let c0_i32_1569 : BitVec 32 := 0#32
  ![v630.toNat, 0, 0]
def k0_off443 (v641 : BitVec 32) : Fin 3 → Nat :=
  let c0_i32_1573 : BitVec 32 := 0#32
  let c0_i32_1574 : BitVec 32 := 0#32
  ![v641.toNat, 0, 0]
def k0_off444 (v652 : BitVec 32) : Fin 3 → Nat :=
  let c0_i32_1578 : BitVec 32 := 0#32
  let c0_i32_1579 : BitVec 32 := 0#32
  ![v652.toNat, 0, 0]
def k0_off445 (v663 : BitVec 32) : Fin 3 → Nat :=
  let c0_i32_1583 : BitVec 32 := 0#32
  let c0_i32_1584 : BitVec 32 := 0#32
  ![v663.toNat, 0, 0]
def k0_off446 (v674 : BitVec 32) : Fin 3 → Nat :=
  let c0_i32_1588 : BitVec 32 := 0#32
  let c0_i32_1589 : BitVec 32 := 0#32
  ![v674.toNat, 0, 0]
def k0_off447 (v685 : BitVec 32) : Fin 3 → Nat :=
  let c0_i32_1593 : BitVec 32 := 0#32
  let c0_i32_1594 : BitVec 32 := 0#32
  ![v685.toNat, 0, 0]
def k0_off448 (v696 : BitVec 32) : Fin 3 → Nat :=
  let c0_i32_1598 : BitVec 32 := 0#32
  let c0_i32_1599 : BitVec 32 := 0#32
  ![v696.toNat, 0, 0]
def k0_off449 (v707 : BitVec 32) : Fin 3 → Nat :=
  let c0_i32_1603 : BitVec 32 := 0#32
  let c0_i32_1604 : BitVec 32 := 0#32
  ![v707.toNat, 0, 0]
def k0_off450 (v718 : BitVec 32) : Fin 3 → Nat :=
  let c0_i32_1608 : BitVec 32 := 0#32
  let c0_i32_1609 : BitVec 32 := 0#32
  ![v718.toNat, 0, 0]
def k0_off451 (v729 : BitVec 32) : Fin 3 → Nat :=
  let c0_i32_1613 : BitVec 32 := 0#32
  let c0_i32_1614 : BitVec 32 := 0#32
  ![v729.toNat, 0, 0]
def k0_off452 (v740 : BitVec 32) : Fin 3 → Nat :=
  let c0_i32_1618 : BitVec 32 := 0#32
  let c0_i32_1619 : BitVec 32 := 0#32
  ![v740.toNat, 0, 0]
def k0_off453 (v751 : BitVec 32) : Fin 3 → Nat :=
  let c0_i32_1623 : BitVec 32 := 0#32
  let c0_i32_1624 : BitVec 32 := 0#32
  ![v751.toNat, 0, 0]
def k0_off454 (v762 : BitVec 32) : Fin 3 → Nat :=
  let c0_i32_1628 : BitVec 32 := 0#32
  let c0_i32_1629 : BitVec 32 := 0#32
  ![v762.toNat, 0, 0]
def k0_off455 (v773 : BitVec 32) : Fin 3 → Nat :=
  let c0_i32_1633 : BitVec 32 := 0#32
  let c0_i32_1634 : BitVec 32 := 0#32
  ![v773.toNat, 0, 0]
def k0_off456 (v784 : BitVec 32) : Fin 3 → Nat :=
  let c0_i32_1638 : BitVec 32 := 0#32
  let c0_i32_1639 : BitVec 32 := 0#32
  ![v784.toNat, 0, 0]
def k0_off457 (v795 : BitVec 32) : Fin 3 → Nat :=
  let c0_i32_1643 : BitVec 32 := 0#32
  let c0_i32_1644 : BitVec 32 := 0#32
  ![v795.toNat, 0, 0]
def k0_off458 (v806 : BitVec 32) : Fin 3 → Nat :=
  let c0_i32_1648 : BitVec 32 := 0#32
  let c0_i32_1649 : BitVec 32 := 0#32
  ![v806.toNat, 0, 0]
def k0_off459 (v817 : BitVec 32) : Fin 3 → Nat :=
  let c0_i32_1653 : BitVec 32 := 0#32
  let c0_i32_1654 : BitVec 32 := 0#32
  ![v817.toNat, 0, 0]
def k0_off460 (v828 : BitVec 32) : Fin 3 → Nat :=
  let c0_i32_1658 : BitVec 32 := 0#32
  let c0_i32_1659 : BitVec 32 := 0#32
  ![v828.toNat, 0, 0]
def k0_off461 (v839 : BitVec 32) : Fin 3 → Nat :=
  let c0_i32_1663 : BitVec 32 := 0#32
  let c0_i32_1664 : BitVec 32 := 0#32
  ![v839.toNat, 0, 0]
def k0_off462 (v850 : BitVec 32) : Fin 3 → Nat :=
  let c0_i32_1668 : BitVec 32 := 0#32
  let c0_i32_1669 : BitVec 32 := 0#32
  ![v850.toNat, 0, 0]
def k0_off463 (v861 : BitVec 32) : Fin 3 → Nat :=
  let c0_i32_1673 : BitVec 32 := 0#32
  let c0_i32_1674 : BitVec 32 := 0#32
  ![v861.toNat, 0, 0]
def k0_off464 (v872 : BitVec 32) : Fin 3 → Nat :=
  let c0_i32_1678 : BitVec 32 := 0#32
  let c0_i32_1679 : BitVec 32 := 0#32
  ![v872.toNat, 0, 0]
def k0_off465 (v883 : BitVec 32) : Fin 3 → Nat :=
  let c0_i32_1683 : BitVec 32 := 0#32
  let c0_i32_1684 : BitVec 32 := 0#32
  ![v883.toNat, 0, 0]
def k0_off466 (v894 : BitVec 32) : Fin 3 → Nat :=
  let c0_i32_1688 : BitVec 32 := 0#32
  let c0_i32_1689 : BitVec 32 := 0#32
  ![v894.toNat, 0, 0]
def k0_off467 (v905 : BitVec 32) : Fin 3 → Nat :=
  let c0_i32_1693 : BitVec 32 := 0#32
  let c0_i32_1694 : BitVec 32 := 0#32
  ![v905.toNat, 0, 0]
def k0_off468 (v916 : BitVec 32) : Fin 3 → Nat :=
  let c0_i32_1698 : BitVec 32 := 0#32
  let c0_i32_1699 : BitVec 32 := 0#32
  ![v916.toNat, 0, 0]
def k0_off469 (v927 : BitVec 32) : Fin 3 → Nat :=
  let c0_i32_1703 : BitVec 32 := 0#32
  let c0_i32_1704 : BitVec 32 := 0#32
  ![v927.toNat, 0, 0]
def k0_off470 (v938 : BitVec 32) : Fin 3 → Nat :=
  let c0_i32_1708 : BitVec 32 := 0#32
  let c0_i32_1709 : BitVec 32 := 0#32
  ![v938.toNat, 0, 0]
def k0_off471 (v949 : BitVec 32) : Fin 3 → Nat :=
  let c0_i32_1713 : BitVec 32 := 0#32
  let c0_i32_1714 : BitVec 32 := 0#32
  ![v949.toNat, 0, 0]
def k0_off472 (v960 : BitVec 32) : Fin 3 → Nat :=
  let c0_i32_1718 : BitVec 32 := 0#32
  let c0_i32_1719 : BitVec 32 := 0#32
  ![v960.toNat, 0, 0]
def k0_off473 (v971 : BitVec 32) : Fin 3 → Nat :=
  let c0_i32_1723 : BitVec 32 := 0#32
  let c0_i32_1724 : BitVec 32 := 0#32
  ![v971.toNat, 0, 0]
def k0_off474 (v982 : BitVec 32) : Fin 3 → Nat :=
  let c0_i32_1728 : BitVec 32 := 0#32
  let c0_i32_1729 : BitVec 32 := 0#32
  ![v982.toNat, 0, 0]
def k0_off475 (v993 : BitVec 32) : Fin 3 → Nat :=
  let c0_i32_1733 : BitVec 32 := 0#32
  let c0_i32_1734 : BitVec 32 := 0#32
  ![v993.toNat, 0, 0]
def k0_off476 (v1004 : BitVec 32) : Fin 3 → Nat :=
  let c0_i32_1738 : BitVec 32 := 0#32
  let c0_i32_1739 : BitVec 32 := 0#32
  ![v1004.toNat, 0, 0]
def k0_off477 (v1015 : BitVec 32) : Fin 3 → Nat :=
  let c0_i32_1743 : BitVec 32 := 0#32
  let c0_i32_1744 : BitVec 32 := 0#32
  ![v1015.toNat, 0, 0]
def k0_off478 (v1026 : BitVec 32) : Fin 3 → Nat :=
  let c0_i32_1748 : BitVec 32 := 0#32
  let c0_i32_1749 : BitVec 32 := 0#32
  ![v1026.toNat, 0, 0]
def k0_off479 (v1037 : BitVec 32) : Fin 3 → Nat :=
  let c0_i32_1753 : BitVec 32 := 0#32
  let c0_i32_1754 : BitVec 32 := 0#32
  ![v1037.toNat, 0, 0]
def k0_off480 (v1048 : BitVec 32) : Fin 3 → Nat :=
  let c0_i32_1758 : BitVec 32 := 0#32
  let c0_i32_1759 : BitVec 32 := 0#32
  ![v1048.toNat, 0, 0]
def k0_off481 (v1059 : BitVec 32) : Fin 3 → Nat :=
  let c0_i32_1763 : BitVec 32 := 0#32
  let c0_i32_1764 : BitVec 32 := 0#32
  ![v1059.toNat, 0, 0]
def k0_off482 (v1070 : BitVec 32) : Fin 3 → Nat :=
  let c0_i32_1768 : BitVec 32 := 0#32
  let c0_i32_1769 : BitVec 32 := 0#32
  ![v1070.toNat, 0, 0]
def k0_off483 (v1081 : BitVec 32) : Fin 3 → Nat :=
  let c0_i32_1773 : BitVec 32 := 0#32
  let c0_i32_1774 : BitVec 32 := 0#32
  ![v1081.toNat, 0, 0]
def k0_off484 (v1092 : BitVec 32) : Fin 3 → Nat :=
  let c0_i32_1778 : BitVec 32 := 0#32
  let c0_i32_1779 : BitVec 32 := 0#32
  ![v1092.toNat, 0, 0]
def k0_off485 (v1103 : BitVec 32) : Fin 3 → Nat :=
  let c0_i32_1783 : BitVec 32 := 0#32
  let c0_i32_1784 : BitVec 32 := 0#32
  ![v1103.toNat, 0, 0]
def k0_off486 (v1114 : BitVec 32) : Fin 3 → Nat :=
  let c0_i32_1788 : BitVec 32 := 0#32
  let c0_i32_1789 : BitVec 32 := 0#32
  ![v1114.toNat, 0, 0]
def k0_off487 (v1125 : BitVec 32) : Fin 3 → Nat :=
  let c0_i32_1793 : BitVec 32 := 0#32
  let c0_i32_1794 : BitVec 32 := 0#32
  ![v1125.toNat, 0, 0]
def k0_off488 (v1136 : BitVec 32) : Fin 3 → Nat :=
  let c0_i32_1798 : BitVec 32 := 0#32
  let c0_i32_1799 : BitVec 32 := 0#32
  ![v1136.toNat, 0, 0]
def k0_off489 (v1147 : BitVec 32) : Fin 3 → Nat :=
  let c0_i32_1803 : BitVec 32 := 0#32
  let c0_i32_1804 : BitVec 32 := 0#32
  ![v1147.toNat, 0, 0]
def k0_off490 (v1158 : BitVec 32) : Fin 3 → Nat :=
  let c0_i32_1808 : BitVec 32 := 0#32
  let c0_i32_1809 : BitVec 32 := 0#32
  ![v1158.toNat, 0, 0]
def k0_off491 (v1169 : BitVec 32) : Fin 3 → Nat :=
  let c0_i32_1813 : BitVec 32 := 0#32
  let c0_i32_1814 : BitVec 32 := 0#32
  ![v1169.toNat, 0, 0]
def k0_off492 (v1180 : BitVec 32) : Fin 3 → Nat :=
  let c0_i32_1818 : BitVec 32 := 0#32
  let c0_i32_1819 : BitVec 32 := 0#32
  ![v1180.toNat, 0, 0]
def k0_off493 (v1191 : BitVec 32) : Fin 3 → Nat :=
  let c0_i32_1823 : BitVec 32 := 0#32
  let c0_i32_1824 : BitVec 32 := 0#32
  ![v1191.toNat, 0, 0]
def k0_off494 (v1202 : BitVec 32) : Fin 3 → Nat :=
  let c0_i32_1828 : BitVec 32 := 0#32
  let c0_i32_1829 : BitVec 32 := 0#32
  ![v1202.toNat, 0, 0]
def k0_off495 (v1213 : BitVec 32) : Fin 3 → Nat :=
  let c0_i32_1833 : BitVec 32 := 0#32
  let c0_i32_1834 : BitVec 32 := 0#32
  ![v1213.toNat, 0, 0]
def k0_off496 (v1224 : BitVec 32) : Fin 3 → Nat :=
  let c0_i32_1838 : BitVec 32 := 0#32
  let c0_i32_1839 : BitVec 32 := 0#32
  ![v1224.toNat, 0, 0]
def k0_off497 (v1235 : BitVec 32) : Fin 3 → Nat :=
  let c0_i32_1843 : BitVec 32 := 0#32
  let c0_i32_1844 : BitVec 32 := 0#32
  ![v1235.toNat, 0, 0]
def k0_off498 (v1246 : BitVec 32) : Fin 3 → Nat :=
  let c0_i32_1848 : BitVec 32 := 0#32
  let c0_i32_1849 : BitVec 32 := 0#32
  ![v1246.toNat, 0, 0]
def k0_off499 (v1257 : BitVec 32) : Fin 3 → Nat :=
  let c0_i32_1853 : BitVec 32 := 0#32
  let c0_i32_1854 : BitVec 32 := 0#32
  ![v1257.toNat, 0, 0]
def k0_off500 (v1268 : BitVec 32) : Fin 3 → Nat :=
  let c0_i32_1858 : BitVec 32 := 0#32
  let c0_i32_1859 : BitVec 32 := 0#32
  ![v1268.toNat, 0, 0]
def k0_off501 (v1279 : BitVec 32) : Fin 3 → Nat :=
  let c0_i32_1863 : BitVec 32 := 0#32
  let c0_i32_1864 : BitVec 32 := 0#32
  ![v1279.toNat, 0, 0]
def k0_off502 (v1290 : BitVec 32) : Fin 3 → Nat :=
  let c0_i32_1868 : BitVec 32 := 0#32
  let c0_i32_1869 : BitVec 32 := 0#32
  ![v1290.toNat, 0, 0]
def k0_off503 (v1301 : BitVec 32) : Fin 3 → Nat :=
  let c0_i32_1873 : BitVec 32 := 0#32
  let c0_i32_1874 : BitVec 32 := 0#32
  ![v1301.toNat, 0, 0]
def k0_off504 (v1312 : BitVec 32) : Fin 3 → Nat :=
  let c0_i32_1878 : BitVec 32 := 0#32
  let c0_i32_1879 : BitVec 32 := 0#32
  ![v1312.toNat, 0, 0]
def k0_off505 (v1323 : BitVec 32) : Fin 3 → Nat :=
  let c0_i32_1883 : BitVec 32 := 0#32
  let c0_i32_1884 : BitVec 32 := 0#32
  ![v1323.toNat, 0, 0]
def k0_off506 (v1334 : BitVec 32) : Fin 3 → Nat :=
  let c0_i32_1888 : BitVec 32 := 0#32
  let c0_i32_1889 : BitVec 32 := 0#32
  ![v1334.toNat, 0, 0]
def k0_off507 (v1345 : BitVec 32) : Fin 3 → Nat :=
  let c0_i32_1893 : BitVec 32 := 0#32
  let c0_i32_1894 : BitVec 32 := 0#32
  ![v1345.toNat, 0, 0]
def k0_off508 (v1356 : BitVec 32) : Fin 3 → Nat :=
  let c0_i32_1898 : BitVec 32 := 0#32
  let c0_i32_1899 : BitVec 32 := 0#32
  ![v1356.toNat, 0, 0]
def k0_off509 (v1367 : BitVec 32) : Fin 3 → Nat :=
  let c0_i32_1903 : BitVec 32 := 0#32
  let c0_i32_1904 : BitVec 32 := 0#32
  ![v1367.toNat, 0, 0]
def k0_off510 (v1378 : BitVec 32) : Fin 3 → Nat :=
  let c0_i32_1908 : BitVec 32 := 0#32
  let c0_i32_1909 : BitVec 32 := 0#32
  ![v1378.toNat, 0, 0]
def k0_off511 (v1389 : BitVec 32) : Fin 3 → Nat :=
  let c0_i32_1913 : BitVec 32 := 0#32
  let c0_i32_1914 : BitVec 32 := 0#32
  ![v1389.toNat, 0, 0]
def k0_off512 (v3 : BitVec 32) : Fin 3 → Nat :=
  let c0_i32_1923 : BitVec 32 := 0#32
  let c0_i32_1924 : BitVec 32 := 0#32
  ![v3.toNat, 0, 0]

def k0_chk1 (v3 : BitVec 32) : Prop :=
  (∀ a, (k0_off2 v3) a + S1x1x1024.size a ≤ S50257x1x1024.size a) ∧
  (∀ a, (k0_off3 v3) a + S1x1x128.size a ≤ S50257x1x128.size a) ∧
  (∀ a, (k0_off385 v3) a + S1x1x1024.size a ≤ S50257x1x1024.size a) ∧
  (∀ a, (k0_off512 v3) a + S1x1x128.size a ≤ S50257x1x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1x1024.size a ≤ S50257x1x1024.size a := fun v3 k0_hw1 => k0_hw1.1
theorem k0_off3_inb : ∀ (v3 : BitVec 32) (k0_hw1 : k0_chk1 v3), ∀ a, (k0_off3 v3) a + S1x1x128.size a ≤ S50257x1x128.size a := fun v3 k0_hw1 => k0_hw1.2.1
theorem k0_off385_inb : ∀ (v3 : BitVec 32) (k0_hw1 : k0_chk1 v3), ∀ a, (k0_off385 v3) a + S1x1x1024.size a ≤ S50257x1x1024.size a := fun v3 k0_hw1 => k0_hw1.2.2.1
theorem k0_off512_inb : ∀ (v3 : BitVec 32) (k0_hw1 : k0_chk1 v3), ∀ a, (k0_off512 v3) a + S1x1x128.size a ≤ S50257x1x128.size a := fun v3 k0_hw1 => k0_hw1.2.2.2

def k0_off513 (v14 : BitVec 32) : Fin 3 → Nat :=
  let c0_i32_1928 : BitVec 32 := 0#32
  let c0_i32_1929 : BitVec 32 := 0#32
  ![v14.toNat, 0, 0]

def k0_chk2 (v14 : BitVec 32) : Prop :=
  (∀ a, (k0_off5 v14) a + S1x1x1024.size a ≤ S50257x1x1024.size a) ∧
  (∀ a, (k0_off6 v14) a + S1x1x128.size a ≤ S50257x1x128.size a) ∧
  (∀ a, (k0_off386 v14) a + S1x1x1024.size a ≤ S50257x1x1024.size a) ∧
  (∀ a, (k0_off513 v14) a + S1x1x128.size a ≤ S50257x1x128.size a)
instance k0_chk2.dec : ∀ (v14 : BitVec 32), Decidable (k0_chk2 v14) := fun v14 => decidable_of_iff' _ (Iff.of_eq (k0_chk2.eq_1 v14))
theorem k0_off5_inb : ∀ (v14 : BitVec 32) (k0_hw2 : k0_chk2 v14), ∀ a, (k0_off5 v14) a + S1x1x1024.size a ≤ S50257x1x1024.size a := fun v14 k0_hw2 => k0_hw2.1
theorem k0_off6_inb : ∀ (v14 : BitVec 32) (k0_hw2 : k0_chk2 v14), ∀ a, (k0_off6 v14) a + S1x1x128.size a ≤ S50257x1x128.size a := fun v14 k0_hw2 => k0_hw2.2.1
theorem k0_off386_inb : ∀ (v14 : BitVec 32) (k0_hw2 : k0_chk2 v14), ∀ a, (k0_off386 v14) a + S1x1x1024.size a ≤ S50257x1x1024.size a := fun v14 k0_hw2 => k0_hw2.2.2.1
theorem k0_off513_inb : ∀ (v14 : BitVec 32) (k0_hw2 : k0_chk2 v14), ∀ a, (k0_off513 v14) a + S1x1x128.size a ≤ S50257x1x128.size a := fun v14 k0_hw2 => k0_hw2.2.2.2

def k0_off514 (v25 : BitVec 32) : Fin 3 → Nat :=
  let c0_i32_1933 : BitVec 32 := 0#32
  let c0_i32_1934 : BitVec 32 := 0#32
  ![v25.toNat, 0, 0]

def k0_chk3 (v25 : BitVec 32) : Prop :=
  (∀ a, (k0_off8 v25) a + S1x1x1024.size a ≤ S50257x1x1024.size a) ∧
  (∀ a, (k0_off9 v25) a + S1x1x128.size a ≤ S50257x1x128.size a) ∧
  (∀ a, (k0_off387 v25) a + S1x1x1024.size a ≤ S50257x1x1024.size a) ∧
  (∀ a, (k0_off514 v25) a + S1x1x128.size a ≤ S50257x1x128.size a)
instance k0_chk3.dec : ∀ (v25 : BitVec 32), Decidable (k0_chk3 v25) := fun v25 => decidable_of_iff' _ (Iff.of_eq (k0_chk3.eq_1 v25))
theorem k0_off8_inb : ∀ (v25 : BitVec 32) (k0_hw3 : k0_chk3 v25), ∀ a, (k0_off8 v25) a + S1x1x1024.size a ≤ S50257x1x1024.size a := fun v25 k0_hw3 => k0_hw3.1
theorem k0_off9_inb : ∀ (v25 : BitVec 32) (k0_hw3 : k0_chk3 v25), ∀ a, (k0_off9 v25) a + S1x1x128.size a ≤ S50257x1x128.size a := fun v25 k0_hw3 => k0_hw3.2.1
theorem k0_off387_inb : ∀ (v25 : BitVec 32) (k0_hw3 : k0_chk3 v25), ∀ a, (k0_off387 v25) a + S1x1x1024.size a ≤ S50257x1x1024.size a := fun v25 k0_hw3 => k0_hw3.2.2.1
theorem k0_off514_inb : ∀ (v25 : BitVec 32) (k0_hw3 : k0_chk3 v25), ∀ a, (k0_off514 v25) a + S1x1x128.size a ≤ S50257x1x128.size a := fun v25 k0_hw3 => k0_hw3.2.2.2

def k0_off515 (v36 : BitVec 32) : Fin 3 → Nat :=
  let c0_i32_1938 : BitVec 32 := 0#32
  let c0_i32_1939 : BitVec 32 := 0#32
  ![v36.toNat, 0, 0]

def k0_chk4 (v36 : BitVec 32) : Prop :=
  (∀ a, (k0_off11 v36) a + S1x1x1024.size a ≤ S50257x1x1024.size a) ∧
  (∀ a, (k0_off12 v36) a + S1x1x128.size a ≤ S50257x1x128.size a) ∧
  (∀ a, (k0_off388 v36) a + S1x1x1024.size a ≤ S50257x1x1024.size a) ∧
  (∀ a, (k0_off515 v36) a + S1x1x128.size a ≤ S50257x1x128.size a)
instance k0_chk4.dec : ∀ (v36 : BitVec 32), Decidable (k0_chk4 v36) := fun v36 => decidable_of_iff' _ (Iff.of_eq (k0_chk4.eq_1 v36))
theorem k0_off11_inb : ∀ (v36 : BitVec 32) (k0_hw4 : k0_chk4 v36), ∀ a, (k0_off11 v36) a + S1x1x1024.size a ≤ S50257x1x1024.size a := fun v36 k0_hw4 => k0_hw4.1
theorem k0_off12_inb : ∀ (v36 : BitVec 32) (k0_hw4 : k0_chk4 v36), ∀ a, (k0_off12 v36) a + S1x1x128.size a ≤ S50257x1x128.size a := fun v36 k0_hw4 => k0_hw4.2.1
theorem k0_off388_inb : ∀ (v36 : BitVec 32) (k0_hw4 : k0_chk4 v36), ∀ a, (k0_off388 v36) a + S1x1x1024.size a ≤ S50257x1x1024.size a := fun v36 k0_hw4 => k0_hw4.2.2.1
theorem k0_off515_inb : ∀ (v36 : BitVec 32) (k0_hw4 : k0_chk4 v36), ∀ a, (k0_off515 v36) a + S1x1x128.size a ≤ S50257x1x128.size a := fun v36 k0_hw4 => k0_hw4.2.2.2

def k0_off516 (v47 : BitVec 32) : Fin 3 → Nat :=
  let c0_i32_1943 : BitVec 32 := 0#32
  let c0_i32_1944 : BitVec 32 := 0#32
  ![v47.toNat, 0, 0]

def k0_chk5 (v47 : BitVec 32) : Prop :=
  (∀ a, (k0_off14 v47) a + S1x1x1024.size a ≤ S50257x1x1024.size a) ∧
  (∀ a, (k0_off15 v47) a + S1x1x128.size a ≤ S50257x1x128.size a) ∧
  (∀ a, (k0_off389 v47) a + S1x1x1024.size a ≤ S50257x1x1024.size a) ∧
  (∀ a, (k0_off516 v47) a + S1x1x128.size a ≤ S50257x1x128.size a)
instance k0_chk5.dec : ∀ (v47 : BitVec 32), Decidable (k0_chk5 v47) := fun v47 => decidable_of_iff' _ (Iff.of_eq (k0_chk5.eq_1 v47))
theorem k0_off14_inb : ∀ (v47 : BitVec 32) (k0_hw5 : k0_chk5 v47), ∀ a, (k0_off14 v47) a + S1x1x1024.size a ≤ S50257x1x1024.size a := fun v47 k0_hw5 => k0_hw5.1
theorem k0_off15_inb : ∀ (v47 : BitVec 32) (k0_hw5 : k0_chk5 v47), ∀ a, (k0_off15 v47) a + S1x1x128.size a ≤ S50257x1x128.size a := fun v47 k0_hw5 => k0_hw5.2.1
theorem k0_off389_inb : ∀ (v47 : BitVec 32) (k0_hw5 : k0_chk5 v47), ∀ a, (k0_off389 v47) a + S1x1x1024.size a ≤ S50257x1x1024.size a := fun v47 k0_hw5 => k0_hw5.2.2.1
theorem k0_off516_inb : ∀ (v47 : BitVec 32) (k0_hw5 : k0_chk5 v47), ∀ a, (k0_off516 v47) a + S1x1x128.size a ≤ S50257x1x128.size a := fun v47 k0_hw5 => k0_hw5.2.2.2

def k0_off517 (v58 : BitVec 32) : Fin 3 → Nat :=
  let c0_i32_1948 : BitVec 32 := 0#32
  let c0_i32_1949 : BitVec 32 := 0#32
  ![v58.toNat, 0, 0]

def k0_chk6 (v58 : BitVec 32) : Prop :=
  (∀ a, (k0_off17 v58) a + S1x1x1024.size a ≤ S50257x1x1024.size a) ∧
  (∀ a, (k0_off18 v58) a + S1x1x128.size a ≤ S50257x1x128.size a) ∧
  (∀ a, (k0_off390 v58) a + S1x1x1024.size a ≤ S50257x1x1024.size a) ∧
  (∀ a, (k0_off517 v58) a + S1x1x128.size a ≤ S50257x1x128.size a)
instance k0_chk6.dec : ∀ (v58 : BitVec 32), Decidable (k0_chk6 v58) := fun v58 => decidable_of_iff' _ (Iff.of_eq (k0_chk6.eq_1 v58))
theorem k0_off17_inb : ∀ (v58 : BitVec 32) (k0_hw6 : k0_chk6 v58), ∀ a, (k0_off17 v58) a + S1x1x1024.size a ≤ S50257x1x1024.size a := fun v58 k0_hw6 => k0_hw6.1
theorem k0_off18_inb : ∀ (v58 : BitVec 32) (k0_hw6 : k0_chk6 v58), ∀ a, (k0_off18 v58) a + S1x1x128.size a ≤ S50257x1x128.size a := fun v58 k0_hw6 => k0_hw6.2.1
theorem k0_off390_inb : ∀ (v58 : BitVec 32) (k0_hw6 : k0_chk6 v58), ∀ a, (k0_off390 v58) a + S1x1x1024.size a ≤ S50257x1x1024.size a := fun v58 k0_hw6 => k0_hw6.2.2.1
theorem k0_off517_inb : ∀ (v58 : BitVec 32) (k0_hw6 : k0_chk6 v58), ∀ a, (k0_off517 v58) a + S1x1x128.size a ≤ S50257x1x128.size a := fun v58 k0_hw6 => k0_hw6.2.2.2

def k0_off518 (v69 : BitVec 32) : Fin 3 → Nat :=
  let c0_i32_1953 : BitVec 32 := 0#32
  let c0_i32_1954 : BitVec 32 := 0#32
  ![v69.toNat, 0, 0]

def k0_chk7 (v69 : BitVec 32) : Prop :=
  (∀ a, (k0_off20 v69) a + S1x1x1024.size a ≤ S50257x1x1024.size a) ∧
  (∀ a, (k0_off21 v69) a + S1x1x128.size a ≤ S50257x1x128.size a) ∧
  (∀ a, (k0_off391 v69) a + S1x1x1024.size a ≤ S50257x1x1024.size a) ∧
  (∀ a, (k0_off518 v69) a + S1x1x128.size a ≤ S50257x1x128.size a)
instance k0_chk7.dec : ∀ (v69 : BitVec 32), Decidable (k0_chk7 v69) := fun v69 => decidable_of_iff' _ (Iff.of_eq (k0_chk7.eq_1 v69))
theorem k0_off20_inb : ∀ (v69 : BitVec 32) (k0_hw7 : k0_chk7 v69), ∀ a, (k0_off20 v69) a + S1x1x1024.size a ≤ S50257x1x1024.size a := fun v69 k0_hw7 => k0_hw7.1
theorem k0_off21_inb : ∀ (v69 : BitVec 32) (k0_hw7 : k0_chk7 v69), ∀ a, (k0_off21 v69) a + S1x1x128.size a ≤ S50257x1x128.size a := fun v69 k0_hw7 => k0_hw7.2.1
theorem k0_off391_inb : ∀ (v69 : BitVec 32) (k0_hw7 : k0_chk7 v69), ∀ a, (k0_off391 v69) a + S1x1x1024.size a ≤ S50257x1x1024.size a := fun v69 k0_hw7 => k0_hw7.2.2.1
theorem k0_off518_inb : ∀ (v69 : BitVec 32) (k0_hw7 : k0_chk7 v69), ∀ a, (k0_off518 v69) a + S1x1x128.size a ≤ S50257x1x128.size a := fun v69 k0_hw7 => k0_hw7.2.2.2

def k0_off519 (v80 : BitVec 32) : Fin 3 → Nat :=
  let c0_i32_1958 : BitVec 32 := 0#32
  let c0_i32_1959 : BitVec 32 := 0#32
  ![v80.toNat, 0, 0]

def k0_chk8 (v80 : BitVec 32) : Prop :=
  (∀ a, (k0_off23 v80) a + S1x1x1024.size a ≤ S50257x1x1024.size a) ∧
  (∀ a, (k0_off24 v80) a + S1x1x128.size a ≤ S50257x1x128.size a) ∧
  (∀ a, (k0_off392 v80) a + S1x1x1024.size a ≤ S50257x1x1024.size a) ∧
  (∀ a, (k0_off519 v80) a + S1x1x128.size a ≤ S50257x1x128.size a)
instance k0_chk8.dec : ∀ (v80 : BitVec 32), Decidable (k0_chk8 v80) := fun v80 => decidable_of_iff' _ (Iff.of_eq (k0_chk8.eq_1 v80))
theorem k0_off23_inb : ∀ (v80 : BitVec 32) (k0_hw8 : k0_chk8 v80), ∀ a, (k0_off23 v80) a + S1x1x1024.size a ≤ S50257x1x1024.size a := fun v80 k0_hw8 => k0_hw8.1
theorem k0_off24_inb : ∀ (v80 : BitVec 32) (k0_hw8 : k0_chk8 v80), ∀ a, (k0_off24 v80) a + S1x1x128.size a ≤ S50257x1x128.size a := fun v80 k0_hw8 => k0_hw8.2.1
theorem k0_off392_inb : ∀ (v80 : BitVec 32) (k0_hw8 : k0_chk8 v80), ∀ a, (k0_off392 v80) a + S1x1x1024.size a ≤ S50257x1x1024.size a := fun v80 k0_hw8 => k0_hw8.2.2.1
theorem k0_off519_inb : ∀ (v80 : BitVec 32) (k0_hw8 : k0_chk8 v80), ∀ a, (k0_off519 v80) a + S1x1x128.size a ≤ S50257x1x128.size a := fun v80 k0_hw8 => k0_hw8.2.2.2

def k0_off520 (v91 : BitVec 32) : Fin 3 → Nat :=
  let c0_i32_1963 : BitVec 32 := 0#32
  let c0_i32_1964 : BitVec 32 := 0#32
  ![v91.toNat, 0, 0]

def k0_chk9 (v91 : BitVec 32) : Prop :=
  (∀ a, (k0_off26 v91) a + S1x1x1024.size a ≤ S50257x1x1024.size a) ∧
  (∀ a, (k0_off27 v91) a + S1x1x128.size a ≤ S50257x1x128.size a) ∧
  (∀ a, (k0_off393 v91) a + S1x1x1024.size a ≤ S50257x1x1024.size a) ∧
  (∀ a, (k0_off520 v91) a + S1x1x128.size a ≤ S50257x1x128.size a)
instance k0_chk9.dec : ∀ (v91 : BitVec 32), Decidable (k0_chk9 v91) := fun v91 => decidable_of_iff' _ (Iff.of_eq (k0_chk9.eq_1 v91))
theorem k0_off26_inb : ∀ (v91 : BitVec 32) (k0_hw9 : k0_chk9 v91), ∀ a, (k0_off26 v91) a + S1x1x1024.size a ≤ S50257x1x1024.size a := fun v91 k0_hw9 => k0_hw9.1
theorem k0_off27_inb : ∀ (v91 : BitVec 32) (k0_hw9 : k0_chk9 v91), ∀ a, (k0_off27 v91) a + S1x1x128.size a ≤ S50257x1x128.size a := fun v91 k0_hw9 => k0_hw9.2.1
theorem k0_off393_inb : ∀ (v91 : BitVec 32) (k0_hw9 : k0_chk9 v91), ∀ a, (k0_off393 v91) a + S1x1x1024.size a ≤ S50257x1x1024.size a := fun v91 k0_hw9 => k0_hw9.2.2.1
theorem k0_off520_inb : ∀ (v91 : BitVec 32) (k0_hw9 : k0_chk9 v91), ∀ a, (k0_off520 v91) a + S1x1x128.size a ≤ S50257x1x128.size a := fun v91 k0_hw9 => k0_hw9.2.2.2

def k0_off521 (v102 : BitVec 32) : Fin 3 → Nat :=
  let c0_i32_1968 : BitVec 32 := 0#32
  let c0_i32_1969 : BitVec 32 := 0#32
  ![v102.toNat, 0, 0]

def k0_chk10 (v102 : BitVec 32) : Prop :=
  (∀ a, (k0_off29 v102) a + S1x1x1024.size a ≤ S50257x1x1024.size a) ∧
  (∀ a, (k0_off30 v102) a + S1x1x128.size a ≤ S50257x1x128.size a) ∧
  (∀ a, (k0_off394 v102) a + S1x1x1024.size a ≤ S50257x1x1024.size a) ∧
  (∀ a, (k0_off521 v102) a + S1x1x128.size a ≤ S50257x1x128.size a)
instance k0_chk10.dec : ∀ (v102 : BitVec 32), Decidable (k0_chk10 v102) := fun v102 => decidable_of_iff' _ (Iff.of_eq (k0_chk10.eq_1 v102))
theorem k0_off29_inb : ∀ (v102 : BitVec 32) (k0_hw10 : k0_chk10 v102), ∀ a, (k0_off29 v102) a + S1x1x1024.size a ≤ S50257x1x1024.size a := fun v102 k0_hw10 => k0_hw10.1
theorem k0_off30_inb : ∀ (v102 : BitVec 32) (k0_hw10 : k0_chk10 v102), ∀ a, (k0_off30 v102) a + S1x1x128.size a ≤ S50257x1x128.size a := fun v102 k0_hw10 => k0_hw10.2.1
theorem k0_off394_inb : ∀ (v102 : BitVec 32) (k0_hw10 : k0_chk10 v102), ∀ a, (k0_off394 v102) a + S1x1x1024.size a ≤ S50257x1x1024.size a := fun v102 k0_hw10 => k0_hw10.2.2.1
theorem k0_off521_inb : ∀ (v102 : BitVec 32) (k0_hw10 : k0_chk10 v102), ∀ a, (k0_off521 v102) a + S1x1x128.size a ≤ S50257x1x128.size a := fun v102 k0_hw10 => k0_hw10.2.2.2

def k0_off522 (v113 : BitVec 32) : Fin 3 → Nat :=
  let c0_i32_1973 : BitVec 32 := 0#32
  let c0_i32_1974 : BitVec 32 := 0#32
  ![v113.toNat, 0, 0]

def k0_chk11 (v113 : BitVec 32) : Prop :=
  (∀ a, (k0_off32 v113) a + S1x1x1024.size a ≤ S50257x1x1024.size a) ∧
  (∀ a, (k0_off33 v113) a + S1x1x128.size a ≤ S50257x1x128.size a) ∧
  (∀ a, (k0_off395 v113) a + S1x1x1024.size a ≤ S50257x1x1024.size a) ∧
  (∀ a, (k0_off522 v113) a + S1x1x128.size a ≤ S50257x1x128.size a)
instance k0_chk11.dec : ∀ (v113 : BitVec 32), Decidable (k0_chk11 v113) := fun v113 => decidable_of_iff' _ (Iff.of_eq (k0_chk11.eq_1 v113))
theorem k0_off32_inb : ∀ (v113 : BitVec 32) (k0_hw11 : k0_chk11 v113), ∀ a, (k0_off32 v113) a + S1x1x1024.size a ≤ S50257x1x1024.size a := fun v113 k0_hw11 => k0_hw11.1
theorem k0_off33_inb : ∀ (v113 : BitVec 32) (k0_hw11 : k0_chk11 v113), ∀ a, (k0_off33 v113) a + S1x1x128.size a ≤ S50257x1x128.size a := fun v113 k0_hw11 => k0_hw11.2.1
theorem k0_off395_inb : ∀ (v113 : BitVec 32) (k0_hw11 : k0_chk11 v113), ∀ a, (k0_off395 v113) a + S1x1x1024.size a ≤ S50257x1x1024.size a := fun v113 k0_hw11 => k0_hw11.2.2.1
theorem k0_off522_inb : ∀ (v113 : BitVec 32) (k0_hw11 : k0_chk11 v113), ∀ a, (k0_off522 v113) a + S1x1x128.size a ≤ S50257x1x128.size a := fun v113 k0_hw11 => k0_hw11.2.2.2

def k0_off523 (v124 : BitVec 32) : Fin 3 → Nat :=
  let c0_i32_1978 : BitVec 32 := 0#32
  let c0_i32_1979 : BitVec 32 := 0#32
  ![v124.toNat, 0, 0]

def k0_chk12 (v124 : BitVec 32) : Prop :=
  (∀ a, (k0_off35 v124) a + S1x1x1024.size a ≤ S50257x1x1024.size a) ∧
  (∀ a, (k0_off36 v124) a + S1x1x128.size a ≤ S50257x1x128.size a) ∧
  (∀ a, (k0_off396 v124) a + S1x1x1024.size a ≤ S50257x1x1024.size a) ∧
  (∀ a, (k0_off523 v124) a + S1x1x128.size a ≤ S50257x1x128.size a)
instance k0_chk12.dec : ∀ (v124 : BitVec 32), Decidable (k0_chk12 v124) := fun v124 => decidable_of_iff' _ (Iff.of_eq (k0_chk12.eq_1 v124))
theorem k0_off35_inb : ∀ (v124 : BitVec 32) (k0_hw12 : k0_chk12 v124), ∀ a, (k0_off35 v124) a + S1x1x1024.size a ≤ S50257x1x1024.size a := fun v124 k0_hw12 => k0_hw12.1
theorem k0_off36_inb : ∀ (v124 : BitVec 32) (k0_hw12 : k0_chk12 v124), ∀ a, (k0_off36 v124) a + S1x1x128.size a ≤ S50257x1x128.size a := fun v124 k0_hw12 => k0_hw12.2.1
theorem k0_off396_inb : ∀ (v124 : BitVec 32) (k0_hw12 : k0_chk12 v124), ∀ a, (k0_off396 v124) a + S1x1x1024.size a ≤ S50257x1x1024.size a := fun v124 k0_hw12 => k0_hw12.2.2.1
theorem k0_off523_inb : ∀ (v124 : BitVec 32) (k0_hw12 : k0_chk12 v124), ∀ a, (k0_off523 v124) a + S1x1x128.size a ≤ S50257x1x128.size a := fun v124 k0_hw12 => k0_hw12.2.2.2

def k0_off524 (v135 : BitVec 32) : Fin 3 → Nat :=
  let c0_i32_1983 : BitVec 32 := 0#32
  let c0_i32_1984 : BitVec 32 := 0#32
  ![v135.toNat, 0, 0]

def k0_chk13 (v135 : BitVec 32) : Prop :=
  (∀ a, (k0_off38 v135) a + S1x1x1024.size a ≤ S50257x1x1024.size a) ∧
  (∀ a, (k0_off39 v135) a + S1x1x128.size a ≤ S50257x1x128.size a) ∧
  (∀ a, (k0_off397 v135) a + S1x1x1024.size a ≤ S50257x1x1024.size a) ∧
  (∀ a, (k0_off524 v135) a + S1x1x128.size a ≤ S50257x1x128.size a)
instance k0_chk13.dec : ∀ (v135 : BitVec 32), Decidable (k0_chk13 v135) := fun v135 => decidable_of_iff' _ (Iff.of_eq (k0_chk13.eq_1 v135))
theorem k0_off38_inb : ∀ (v135 : BitVec 32) (k0_hw13 : k0_chk13 v135), ∀ a, (k0_off38 v135) a + S1x1x1024.size a ≤ S50257x1x1024.size a := fun v135 k0_hw13 => k0_hw13.1
theorem k0_off39_inb : ∀ (v135 : BitVec 32) (k0_hw13 : k0_chk13 v135), ∀ a, (k0_off39 v135) a + S1x1x128.size a ≤ S50257x1x128.size a := fun v135 k0_hw13 => k0_hw13.2.1
theorem k0_off397_inb : ∀ (v135 : BitVec 32) (k0_hw13 : k0_chk13 v135), ∀ a, (k0_off397 v135) a + S1x1x1024.size a ≤ S50257x1x1024.size a := fun v135 k0_hw13 => k0_hw13.2.2.1
theorem k0_off524_inb : ∀ (v135 : BitVec 32) (k0_hw13 : k0_chk13 v135), ∀ a, (k0_off524 v135) a + S1x1x128.size a ≤ S50257x1x128.size a := fun v135 k0_hw13 => k0_hw13.2.2.2

def k0_off525 (v146 : BitVec 32) : Fin 3 → Nat :=
  let c0_i32_1988 : BitVec 32 := 0#32
  let c0_i32_1989 : BitVec 32 := 0#32
  ![v146.toNat, 0, 0]

def k0_chk14 (v146 : BitVec 32) : Prop :=
  (∀ a, (k0_off41 v146) a + S1x1x1024.size a ≤ S50257x1x1024.size a) ∧
  (∀ a, (k0_off42 v146) a + S1x1x128.size a ≤ S50257x1x128.size a) ∧
  (∀ a, (k0_off398 v146) a + S1x1x1024.size a ≤ S50257x1x1024.size a) ∧
  (∀ a, (k0_off525 v146) a + S1x1x128.size a ≤ S50257x1x128.size a)
instance k0_chk14.dec : ∀ (v146 : BitVec 32), Decidable (k0_chk14 v146) := fun v146 => decidable_of_iff' _ (Iff.of_eq (k0_chk14.eq_1 v146))
theorem k0_off41_inb : ∀ (v146 : BitVec 32) (k0_hw14 : k0_chk14 v146), ∀ a, (k0_off41 v146) a + S1x1x1024.size a ≤ S50257x1x1024.size a := fun v146 k0_hw14 => k0_hw14.1
theorem k0_off42_inb : ∀ (v146 : BitVec 32) (k0_hw14 : k0_chk14 v146), ∀ a, (k0_off42 v146) a + S1x1x128.size a ≤ S50257x1x128.size a := fun v146 k0_hw14 => k0_hw14.2.1
theorem k0_off398_inb : ∀ (v146 : BitVec 32) (k0_hw14 : k0_chk14 v146), ∀ a, (k0_off398 v146) a + S1x1x1024.size a ≤ S50257x1x1024.size a := fun v146 k0_hw14 => k0_hw14.2.2.1
theorem k0_off525_inb : ∀ (v146 : BitVec 32) (k0_hw14 : k0_chk14 v146), ∀ a, (k0_off525 v146) a + S1x1x128.size a ≤ S50257x1x128.size a := fun v146 k0_hw14 => k0_hw14.2.2.2

def k0_off526 (v157 : BitVec 32) : Fin 3 → Nat :=
  let c0_i32_1993 : BitVec 32 := 0#32
  let c0_i32_1994 : BitVec 32 := 0#32
  ![v157.toNat, 0, 0]

def k0_chk15 (v157 : BitVec 32) : Prop :=
  (∀ a, (k0_off44 v157) a + S1x1x1024.size a ≤ S50257x1x1024.size a) ∧
  (∀ a, (k0_off45 v157) a + S1x1x128.size a ≤ S50257x1x128.size a) ∧
  (∀ a, (k0_off399 v157) a + S1x1x1024.size a ≤ S50257x1x1024.size a) ∧
  (∀ a, (k0_off526 v157) a + S1x1x128.size a ≤ S50257x1x128.size a)
instance k0_chk15.dec : ∀ (v157 : BitVec 32), Decidable (k0_chk15 v157) := fun v157 => decidable_of_iff' _ (Iff.of_eq (k0_chk15.eq_1 v157))
theorem k0_off44_inb : ∀ (v157 : BitVec 32) (k0_hw15 : k0_chk15 v157), ∀ a, (k0_off44 v157) a + S1x1x1024.size a ≤ S50257x1x1024.size a := fun v157 k0_hw15 => k0_hw15.1
theorem k0_off45_inb : ∀ (v157 : BitVec 32) (k0_hw15 : k0_chk15 v157), ∀ a, (k0_off45 v157) a + S1x1x128.size a ≤ S50257x1x128.size a := fun v157 k0_hw15 => k0_hw15.2.1
theorem k0_off399_inb : ∀ (v157 : BitVec 32) (k0_hw15 : k0_chk15 v157), ∀ a, (k0_off399 v157) a + S1x1x1024.size a ≤ S50257x1x1024.size a := fun v157 k0_hw15 => k0_hw15.2.2.1
theorem k0_off526_inb : ∀ (v157 : BitVec 32) (k0_hw15 : k0_chk15 v157), ∀ a, (k0_off526 v157) a + S1x1x128.size a ≤ S50257x1x128.size a := fun v157 k0_hw15 => k0_hw15.2.2.2

def k0_off527 (v168 : BitVec 32) : Fin 3 → Nat :=
  let c0_i32_1998 : BitVec 32 := 0#32
  let c0_i32_1999 : BitVec 32 := 0#32
  ![v168.toNat, 0, 0]

def k0_chk16 (v168 : BitVec 32) : Prop :=
  (∀ a, (k0_off47 v168) a + S1x1x1024.size a ≤ S50257x1x1024.size a) ∧
  (∀ a, (k0_off48 v168) a + S1x1x128.size a ≤ S50257x1x128.size a) ∧
  (∀ a, (k0_off400 v168) a + S1x1x1024.size a ≤ S50257x1x1024.size a) ∧
  (∀ a, (k0_off527 v168) a + S1x1x128.size a ≤ S50257x1x128.size a)
instance k0_chk16.dec : ∀ (v168 : BitVec 32), Decidable (k0_chk16 v168) := fun v168 => decidable_of_iff' _ (Iff.of_eq (k0_chk16.eq_1 v168))
theorem k0_off47_inb : ∀ (v168 : BitVec 32) (k0_hw16 : k0_chk16 v168), ∀ a, (k0_off47 v168) a + S1x1x1024.size a ≤ S50257x1x1024.size a := fun v168 k0_hw16 => k0_hw16.1
theorem k0_off48_inb : ∀ (v168 : BitVec 32) (k0_hw16 : k0_chk16 v168), ∀ a, (k0_off48 v168) a + S1x1x128.size a ≤ S50257x1x128.size a := fun v168 k0_hw16 => k0_hw16.2.1
theorem k0_off400_inb : ∀ (v168 : BitVec 32) (k0_hw16 : k0_chk16 v168), ∀ a, (k0_off400 v168) a + S1x1x1024.size a ≤ S50257x1x1024.size a := fun v168 k0_hw16 => k0_hw16.2.2.1
theorem k0_off527_inb : ∀ (v168 : BitVec 32) (k0_hw16 : k0_chk16 v168), ∀ a, (k0_off527 v168) a + S1x1x128.size a ≤ S50257x1x128.size a := fun v168 k0_hw16 => k0_hw16.2.2.2

def k0_off528 (v179 : BitVec 32) : Fin 3 → Nat :=
  let c0_i32_2003 : BitVec 32 := 0#32
  let c0_i32_2004 : BitVec 32 := 0#32
  ![v179.toNat, 0, 0]

def k0_chk17 (v179 : BitVec 32) : Prop :=
  (∀ a, (k0_off50 v179) a + S1x1x1024.size a ≤ S50257x1x1024.size a) ∧
  (∀ a, (k0_off51 v179) a + S1x1x128.size a ≤ S50257x1x128.size a) ∧
  (∀ a, (k0_off401 v179) a + S1x1x1024.size a ≤ S50257x1x1024.size a) ∧
  (∀ a, (k0_off528 v179) a + S1x1x128.size a ≤ S50257x1x128.size a)
instance k0_chk17.dec : ∀ (v179 : BitVec 32), Decidable (k0_chk17 v179) := fun v179 => decidable_of_iff' _ (Iff.of_eq (k0_chk17.eq_1 v179))
theorem k0_off50_inb : ∀ (v179 : BitVec 32) (k0_hw17 : k0_chk17 v179), ∀ a, (k0_off50 v179) a + S1x1x1024.size a ≤ S50257x1x1024.size a := fun v179 k0_hw17 => k0_hw17.1
theorem k0_off51_inb : ∀ (v179 : BitVec 32) (k0_hw17 : k0_chk17 v179), ∀ a, (k0_off51 v179) a + S1x1x128.size a ≤ S50257x1x128.size a := fun v179 k0_hw17 => k0_hw17.2.1
theorem k0_off401_inb : ∀ (v179 : BitVec 32) (k0_hw17 : k0_chk17 v179), ∀ a, (k0_off401 v179) a + S1x1x1024.size a ≤ S50257x1x1024.size a := fun v179 k0_hw17 => k0_hw17.2.2.1
theorem k0_off528_inb : ∀ (v179 : BitVec 32) (k0_hw17 : k0_chk17 v179), ∀ a, (k0_off528 v179) a + S1x1x128.size a ≤ S50257x1x128.size a := fun v179 k0_hw17 => k0_hw17.2.2.2

def k0_off529 (v190 : BitVec 32) : Fin 3 → Nat :=
  let c0_i32_2008 : BitVec 32 := 0#32
  let c0_i32_2009 : BitVec 32 := 0#32
  ![v190.toNat, 0, 0]

def k0_chk18 (v190 : BitVec 32) : Prop :=
  (∀ a, (k0_off53 v190) a + S1x1x1024.size a ≤ S50257x1x1024.size a) ∧
  (∀ a, (k0_off54 v190) a + S1x1x128.size a ≤ S50257x1x128.size a) ∧
  (∀ a, (k0_off402 v190) a + S1x1x1024.size a ≤ S50257x1x1024.size a) ∧
  (∀ a, (k0_off529 v190) a + S1x1x128.size a ≤ S50257x1x128.size a)
instance k0_chk18.dec : ∀ (v190 : BitVec 32), Decidable (k0_chk18 v190) := fun v190 => decidable_of_iff' _ (Iff.of_eq (k0_chk18.eq_1 v190))
theorem k0_off53_inb : ∀ (v190 : BitVec 32) (k0_hw18 : k0_chk18 v190), ∀ a, (k0_off53 v190) a + S1x1x1024.size a ≤ S50257x1x1024.size a := fun v190 k0_hw18 => k0_hw18.1
theorem k0_off54_inb : ∀ (v190 : BitVec 32) (k0_hw18 : k0_chk18 v190), ∀ a, (k0_off54 v190) a + S1x1x128.size a ≤ S50257x1x128.size a := fun v190 k0_hw18 => k0_hw18.2.1
theorem k0_off402_inb : ∀ (v190 : BitVec 32) (k0_hw18 : k0_chk18 v190), ∀ a, (k0_off402 v190) a + S1x1x1024.size a ≤ S50257x1x1024.size a := fun v190 k0_hw18 => k0_hw18.2.2.1
theorem k0_off529_inb : ∀ (v190 : BitVec 32) (k0_hw18 : k0_chk18 v190), ∀ a, (k0_off529 v190) a + S1x1x128.size a ≤ S50257x1x128.size a := fun v190 k0_hw18 => k0_hw18.2.2.2

def k0_off530 (v201 : BitVec 32) : Fin 3 → Nat :=
  let c0_i32_2013 : BitVec 32 := 0#32
  let c0_i32_2014 : BitVec 32 := 0#32
  ![v201.toNat, 0, 0]

def k0_chk19 (v201 : BitVec 32) : Prop :=
  (∀ a, (k0_off56 v201) a + S1x1x1024.size a ≤ S50257x1x1024.size a) ∧
  (∀ a, (k0_off57 v201) a + S1x1x128.size a ≤ S50257x1x128.size a) ∧
  (∀ a, (k0_off403 v201) a + S1x1x1024.size a ≤ S50257x1x1024.size a) ∧
  (∀ a, (k0_off530 v201) a + S1x1x128.size a ≤ S50257x1x128.size a)
instance k0_chk19.dec : ∀ (v201 : BitVec 32), Decidable (k0_chk19 v201) := fun v201 => decidable_of_iff' _ (Iff.of_eq (k0_chk19.eq_1 v201))
theorem k0_off56_inb : ∀ (v201 : BitVec 32) (k0_hw19 : k0_chk19 v201), ∀ a, (k0_off56 v201) a + S1x1x1024.size a ≤ S50257x1x1024.size a := fun v201 k0_hw19 => k0_hw19.1
theorem k0_off57_inb : ∀ (v201 : BitVec 32) (k0_hw19 : k0_chk19 v201), ∀ a, (k0_off57 v201) a + S1x1x128.size a ≤ S50257x1x128.size a := fun v201 k0_hw19 => k0_hw19.2.1
theorem k0_off403_inb : ∀ (v201 : BitVec 32) (k0_hw19 : k0_chk19 v201), ∀ a, (k0_off403 v201) a + S1x1x1024.size a ≤ S50257x1x1024.size a := fun v201 k0_hw19 => k0_hw19.2.2.1
theorem k0_off530_inb : ∀ (v201 : BitVec 32) (k0_hw19 : k0_chk19 v201), ∀ a, (k0_off530 v201) a + S1x1x128.size a ≤ S50257x1x128.size a := fun v201 k0_hw19 => k0_hw19.2.2.2

def k0_off531 (v212 : BitVec 32) : Fin 3 → Nat :=
  let c0_i32_2018 : BitVec 32 := 0#32
  let c0_i32_2019 : BitVec 32 := 0#32
  ![v212.toNat, 0, 0]

def k0_chk20 (v212 : BitVec 32) : Prop :=
  (∀ a, (k0_off59 v212) a + S1x1x1024.size a ≤ S50257x1x1024.size a) ∧
  (∀ a, (k0_off60 v212) a + S1x1x128.size a ≤ S50257x1x128.size a) ∧
  (∀ a, (k0_off404 v212) a + S1x1x1024.size a ≤ S50257x1x1024.size a) ∧
  (∀ a, (k0_off531 v212) a + S1x1x128.size a ≤ S50257x1x128.size a)
instance k0_chk20.dec : ∀ (v212 : BitVec 32), Decidable (k0_chk20 v212) := fun v212 => decidable_of_iff' _ (Iff.of_eq (k0_chk20.eq_1 v212))
theorem k0_off59_inb : ∀ (v212 : BitVec 32) (k0_hw20 : k0_chk20 v212), ∀ a, (k0_off59 v212) a + S1x1x1024.size a ≤ S50257x1x1024.size a := fun v212 k0_hw20 => k0_hw20.1
theorem k0_off60_inb : ∀ (v212 : BitVec 32) (k0_hw20 : k0_chk20 v212), ∀ a, (k0_off60 v212) a + S1x1x128.size a ≤ S50257x1x128.size a := fun v212 k0_hw20 => k0_hw20.2.1
theorem k0_off404_inb : ∀ (v212 : BitVec 32) (k0_hw20 : k0_chk20 v212), ∀ a, (k0_off404 v212) a + S1x1x1024.size a ≤ S50257x1x1024.size a := fun v212 k0_hw20 => k0_hw20.2.2.1
theorem k0_off531_inb : ∀ (v212 : BitVec 32) (k0_hw20 : k0_chk20 v212), ∀ a, (k0_off531 v212) a + S1x1x128.size a ≤ S50257x1x128.size a := fun v212 k0_hw20 => k0_hw20.2.2.2

def k0_off532 (v223 : BitVec 32) : Fin 3 → Nat :=
  let c0_i32_2023 : BitVec 32 := 0#32
  let c0_i32_2024 : BitVec 32 := 0#32
  ![v223.toNat, 0, 0]

def k0_chk21 (v223 : BitVec 32) : Prop :=
  (∀ a, (k0_off62 v223) a + S1x1x1024.size a ≤ S50257x1x1024.size a) ∧
  (∀ a, (k0_off63 v223) a + S1x1x128.size a ≤ S50257x1x128.size a) ∧
  (∀ a, (k0_off405 v223) a + S1x1x1024.size a ≤ S50257x1x1024.size a) ∧
  (∀ a, (k0_off532 v223) a + S1x1x128.size a ≤ S50257x1x128.size a)
instance k0_chk21.dec : ∀ (v223 : BitVec 32), Decidable (k0_chk21 v223) := fun v223 => decidable_of_iff' _ (Iff.of_eq (k0_chk21.eq_1 v223))
theorem k0_off62_inb : ∀ (v223 : BitVec 32) (k0_hw21 : k0_chk21 v223), ∀ a, (k0_off62 v223) a + S1x1x1024.size a ≤ S50257x1x1024.size a := fun v223 k0_hw21 => k0_hw21.1
theorem k0_off63_inb : ∀ (v223 : BitVec 32) (k0_hw21 : k0_chk21 v223), ∀ a, (k0_off63 v223) a + S1x1x128.size a ≤ S50257x1x128.size a := fun v223 k0_hw21 => k0_hw21.2.1
theorem k0_off405_inb : ∀ (v223 : BitVec 32) (k0_hw21 : k0_chk21 v223), ∀ a, (k0_off405 v223) a + S1x1x1024.size a ≤ S50257x1x1024.size a := fun v223 k0_hw21 => k0_hw21.2.2.1
theorem k0_off532_inb : ∀ (v223 : BitVec 32) (k0_hw21 : k0_chk21 v223), ∀ a, (k0_off532 v223) a + S1x1x128.size a ≤ S50257x1x128.size a := fun v223 k0_hw21 => k0_hw21.2.2.2

def k0_off533 (v234 : BitVec 32) : Fin 3 → Nat :=
  let c0_i32_2028 : BitVec 32 := 0#32
  let c0_i32_2029 : BitVec 32 := 0#32
  ![v234.toNat, 0, 0]

def k0_chk22 (v234 : BitVec 32) : Prop :=
  (∀ a, (k0_off65 v234) a + S1x1x1024.size a ≤ S50257x1x1024.size a) ∧
  (∀ a, (k0_off66 v234) a + S1x1x128.size a ≤ S50257x1x128.size a) ∧
  (∀ a, (k0_off406 v234) a + S1x1x1024.size a ≤ S50257x1x1024.size a) ∧
  (∀ a, (k0_off533 v234) a + S1x1x128.size a ≤ S50257x1x128.size a)
instance k0_chk22.dec : ∀ (v234 : BitVec 32), Decidable (k0_chk22 v234) := fun v234 => decidable_of_iff' _ (Iff.of_eq (k0_chk22.eq_1 v234))
theorem k0_off65_inb : ∀ (v234 : BitVec 32) (k0_hw22 : k0_chk22 v234), ∀ a, (k0_off65 v234) a + S1x1x1024.size a ≤ S50257x1x1024.size a := fun v234 k0_hw22 => k0_hw22.1
theorem k0_off66_inb : ∀ (v234 : BitVec 32) (k0_hw22 : k0_chk22 v234), ∀ a, (k0_off66 v234) a + S1x1x128.size a ≤ S50257x1x128.size a := fun v234 k0_hw22 => k0_hw22.2.1
theorem k0_off406_inb : ∀ (v234 : BitVec 32) (k0_hw22 : k0_chk22 v234), ∀ a, (k0_off406 v234) a + S1x1x1024.size a ≤ S50257x1x1024.size a := fun v234 k0_hw22 => k0_hw22.2.2.1
theorem k0_off533_inb : ∀ (v234 : BitVec 32) (k0_hw22 : k0_chk22 v234), ∀ a, (k0_off533 v234) a + S1x1x128.size a ≤ S50257x1x128.size a := fun v234 k0_hw22 => k0_hw22.2.2.2

def k0_off534 (v245 : BitVec 32) : Fin 3 → Nat :=
  let c0_i32_2033 : BitVec 32 := 0#32
  let c0_i32_2034 : BitVec 32 := 0#32
  ![v245.toNat, 0, 0]

def k0_chk23 (v245 : BitVec 32) : Prop :=
  (∀ a, (k0_off68 v245) a + S1x1x1024.size a ≤ S50257x1x1024.size a) ∧
  (∀ a, (k0_off69 v245) a + S1x1x128.size a ≤ S50257x1x128.size a) ∧
  (∀ a, (k0_off407 v245) a + S1x1x1024.size a ≤ S50257x1x1024.size a) ∧
  (∀ a, (k0_off534 v245) a + S1x1x128.size a ≤ S50257x1x128.size a)
instance k0_chk23.dec : ∀ (v245 : BitVec 32), Decidable (k0_chk23 v245) := fun v245 => decidable_of_iff' _ (Iff.of_eq (k0_chk23.eq_1 v245))
theorem k0_off68_inb : ∀ (v245 : BitVec 32) (k0_hw23 : k0_chk23 v245), ∀ a, (k0_off68 v245) a + S1x1x1024.size a ≤ S50257x1x1024.size a := fun v245 k0_hw23 => k0_hw23.1
theorem k0_off69_inb : ∀ (v245 : BitVec 32) (k0_hw23 : k0_chk23 v245), ∀ a, (k0_off69 v245) a + S1x1x128.size a ≤ S50257x1x128.size a := fun v245 k0_hw23 => k0_hw23.2.1
theorem k0_off407_inb : ∀ (v245 : BitVec 32) (k0_hw23 : k0_chk23 v245), ∀ a, (k0_off407 v245) a + S1x1x1024.size a ≤ S50257x1x1024.size a := fun v245 k0_hw23 => k0_hw23.2.2.1
theorem k0_off534_inb : ∀ (v245 : BitVec 32) (k0_hw23 : k0_chk23 v245), ∀ a, (k0_off534 v245) a + S1x1x128.size a ≤ S50257x1x128.size a := fun v245 k0_hw23 => k0_hw23.2.2.2

def k0_off535 (v256 : BitVec 32) : Fin 3 → Nat :=
  let c0_i32_2038 : BitVec 32 := 0#32
  let c0_i32_2039 : BitVec 32 := 0#32
  ![v256.toNat, 0, 0]

def k0_chk24 (v256 : BitVec 32) : Prop :=
  (∀ a, (k0_off71 v256) a + S1x1x1024.size a ≤ S50257x1x1024.size a) ∧
  (∀ a, (k0_off72 v256) a + S1x1x128.size a ≤ S50257x1x128.size a) ∧
  (∀ a, (k0_off408 v256) a + S1x1x1024.size a ≤ S50257x1x1024.size a) ∧
  (∀ a, (k0_off535 v256) a + S1x1x128.size a ≤ S50257x1x128.size a)
instance k0_chk24.dec : ∀ (v256 : BitVec 32), Decidable (k0_chk24 v256) := fun v256 => decidable_of_iff' _ (Iff.of_eq (k0_chk24.eq_1 v256))
theorem k0_off71_inb : ∀ (v256 : BitVec 32) (k0_hw24 : k0_chk24 v256), ∀ a, (k0_off71 v256) a + S1x1x1024.size a ≤ S50257x1x1024.size a := fun v256 k0_hw24 => k0_hw24.1
theorem k0_off72_inb : ∀ (v256 : BitVec 32) (k0_hw24 : k0_chk24 v256), ∀ a, (k0_off72 v256) a + S1x1x128.size a ≤ S50257x1x128.size a := fun v256 k0_hw24 => k0_hw24.2.1
theorem k0_off408_inb : ∀ (v256 : BitVec 32) (k0_hw24 : k0_chk24 v256), ∀ a, (k0_off408 v256) a + S1x1x1024.size a ≤ S50257x1x1024.size a := fun v256 k0_hw24 => k0_hw24.2.2.1
theorem k0_off535_inb : ∀ (v256 : BitVec 32) (k0_hw24 : k0_chk24 v256), ∀ a, (k0_off535 v256) a + S1x1x128.size a ≤ S50257x1x128.size a := fun v256 k0_hw24 => k0_hw24.2.2.2

def k0_off536 (v267 : BitVec 32) : Fin 3 → Nat :=
  let c0_i32_2043 : BitVec 32 := 0#32
  let c0_i32_2044 : BitVec 32 := 0#32
  ![v267.toNat, 0, 0]

def k0_chk25 (v267 : BitVec 32) : Prop :=
  (∀ a, (k0_off74 v267) a + S1x1x1024.size a ≤ S50257x1x1024.size a) ∧
  (∀ a, (k0_off75 v267) a + S1x1x128.size a ≤ S50257x1x128.size a) ∧
  (∀ a, (k0_off409 v267) a + S1x1x1024.size a ≤ S50257x1x1024.size a) ∧
  (∀ a, (k0_off536 v267) a + S1x1x128.size a ≤ S50257x1x128.size a)
instance k0_chk25.dec : ∀ (v267 : BitVec 32), Decidable (k0_chk25 v267) := fun v267 => decidable_of_iff' _ (Iff.of_eq (k0_chk25.eq_1 v267))
theorem k0_off74_inb : ∀ (v267 : BitVec 32) (k0_hw25 : k0_chk25 v267), ∀ a, (k0_off74 v267) a + S1x1x1024.size a ≤ S50257x1x1024.size a := fun v267 k0_hw25 => k0_hw25.1
theorem k0_off75_inb : ∀ (v267 : BitVec 32) (k0_hw25 : k0_chk25 v267), ∀ a, (k0_off75 v267) a + S1x1x128.size a ≤ S50257x1x128.size a := fun v267 k0_hw25 => k0_hw25.2.1
theorem k0_off409_inb : ∀ (v267 : BitVec 32) (k0_hw25 : k0_chk25 v267), ∀ a, (k0_off409 v267) a + S1x1x1024.size a ≤ S50257x1x1024.size a := fun v267 k0_hw25 => k0_hw25.2.2.1
theorem k0_off536_inb : ∀ (v267 : BitVec 32) (k0_hw25 : k0_chk25 v267), ∀ a, (k0_off536 v267) a + S1x1x128.size a ≤ S50257x1x128.size a := fun v267 k0_hw25 => k0_hw25.2.2.2

def k0_off537 (v278 : BitVec 32) : Fin 3 → Nat :=
  let c0_i32_2048 : BitVec 32 := 0#32
  let c0_i32_2049 : BitVec 32 := 0#32
  ![v278.toNat, 0, 0]

def k0_chk26 (v278 : BitVec 32) : Prop :=
  (∀ a, (k0_off77 v278) a + S1x1x1024.size a ≤ S50257x1x1024.size a) ∧
  (∀ a, (k0_off78 v278) a + S1x1x128.size a ≤ S50257x1x128.size a) ∧
  (∀ a, (k0_off410 v278) a + S1x1x1024.size a ≤ S50257x1x1024.size a) ∧
  (∀ a, (k0_off537 v278) a + S1x1x128.size a ≤ S50257x1x128.size a)
instance k0_chk26.dec : ∀ (v278 : BitVec 32), Decidable (k0_chk26 v278) := fun v278 => decidable_of_iff' _ (Iff.of_eq (k0_chk26.eq_1 v278))
theorem k0_off77_inb : ∀ (v278 : BitVec 32) (k0_hw26 : k0_chk26 v278), ∀ a, (k0_off77 v278) a + S1x1x1024.size a ≤ S50257x1x1024.size a := fun v278 k0_hw26 => k0_hw26.1
theorem k0_off78_inb : ∀ (v278 : BitVec 32) (k0_hw26 : k0_chk26 v278), ∀ a, (k0_off78 v278) a + S1x1x128.size a ≤ S50257x1x128.size a := fun v278 k0_hw26 => k0_hw26.2.1
theorem k0_off410_inb : ∀ (v278 : BitVec 32) (k0_hw26 : k0_chk26 v278), ∀ a, (k0_off410 v278) a + S1x1x1024.size a ≤ S50257x1x1024.size a := fun v278 k0_hw26 => k0_hw26.2.2.1
theorem k0_off537_inb : ∀ (v278 : BitVec 32) (k0_hw26 : k0_chk26 v278), ∀ a, (k0_off537 v278) a + S1x1x128.size a ≤ S50257x1x128.size a := fun v278 k0_hw26 => k0_hw26.2.2.2

def k0_off538 (v289 : BitVec 32) : Fin 3 → Nat :=
  let c0_i32_2053 : BitVec 32 := 0#32
  let c0_i32_2054 : BitVec 32 := 0#32
  ![v289.toNat, 0, 0]

def k0_chk27 (v289 : BitVec 32) : Prop :=
  (∀ a, (k0_off80 v289) a + S1x1x1024.size a ≤ S50257x1x1024.size a) ∧
  (∀ a, (k0_off81 v289) a + S1x1x128.size a ≤ S50257x1x128.size a) ∧
  (∀ a, (k0_off411 v289) a + S1x1x1024.size a ≤ S50257x1x1024.size a) ∧
  (∀ a, (k0_off538 v289) a + S1x1x128.size a ≤ S50257x1x128.size a)
instance k0_chk27.dec : ∀ (v289 : BitVec 32), Decidable (k0_chk27 v289) := fun v289 => decidable_of_iff' _ (Iff.of_eq (k0_chk27.eq_1 v289))
theorem k0_off80_inb : ∀ (v289 : BitVec 32) (k0_hw27 : k0_chk27 v289), ∀ a, (k0_off80 v289) a + S1x1x1024.size a ≤ S50257x1x1024.size a := fun v289 k0_hw27 => k0_hw27.1
theorem k0_off81_inb : ∀ (v289 : BitVec 32) (k0_hw27 : k0_chk27 v289), ∀ a, (k0_off81 v289) a + S1x1x128.size a ≤ S50257x1x128.size a := fun v289 k0_hw27 => k0_hw27.2.1
theorem k0_off411_inb : ∀ (v289 : BitVec 32) (k0_hw27 : k0_chk27 v289), ∀ a, (k0_off411 v289) a + S1x1x1024.size a ≤ S50257x1x1024.size a := fun v289 k0_hw27 => k0_hw27.2.2.1
theorem k0_off538_inb : ∀ (v289 : BitVec 32) (k0_hw27 : k0_chk27 v289), ∀ a, (k0_off538 v289) a + S1x1x128.size a ≤ S50257x1x128.size a := fun v289 k0_hw27 => k0_hw27.2.2.2

def k0_off539 (v300 : BitVec 32) : Fin 3 → Nat :=
  let c0_i32_2058 : BitVec 32 := 0#32
  let c0_i32_2059 : BitVec 32 := 0#32
  ![v300.toNat, 0, 0]

def k0_chk28 (v300 : BitVec 32) : Prop :=
  (∀ a, (k0_off83 v300) a + S1x1x1024.size a ≤ S50257x1x1024.size a) ∧
  (∀ a, (k0_off84 v300) a + S1x1x128.size a ≤ S50257x1x128.size a) ∧
  (∀ a, (k0_off412 v300) a + S1x1x1024.size a ≤ S50257x1x1024.size a) ∧
  (∀ a, (k0_off539 v300) a + S1x1x128.size a ≤ S50257x1x128.size a)
instance k0_chk28.dec : ∀ (v300 : BitVec 32), Decidable (k0_chk28 v300) := fun v300 => decidable_of_iff' _ (Iff.of_eq (k0_chk28.eq_1 v300))
theorem k0_off83_inb : ∀ (v300 : BitVec 32) (k0_hw28 : k0_chk28 v300), ∀ a, (k0_off83 v300) a + S1x1x1024.size a ≤ S50257x1x1024.size a := fun v300 k0_hw28 => k0_hw28.1
theorem k0_off84_inb : ∀ (v300 : BitVec 32) (k0_hw28 : k0_chk28 v300), ∀ a, (k0_off84 v300) a + S1x1x128.size a ≤ S50257x1x128.size a := fun v300 k0_hw28 => k0_hw28.2.1
theorem k0_off412_inb : ∀ (v300 : BitVec 32) (k0_hw28 : k0_chk28 v300), ∀ a, (k0_off412 v300) a + S1x1x1024.size a ≤ S50257x1x1024.size a := fun v300 k0_hw28 => k0_hw28.2.2.1
theorem k0_off539_inb : ∀ (v300 : BitVec 32) (k0_hw28 : k0_chk28 v300), ∀ a, (k0_off539 v300) a + S1x1x128.size a ≤ S50257x1x128.size a := fun v300 k0_hw28 => k0_hw28.2.2.2

def k0_off540 (v311 : BitVec 32) : Fin 3 → Nat :=
  let c0_i32_2063 : BitVec 32 := 0#32
  let c0_i32_2064 : BitVec 32 := 0#32
  ![v311.toNat, 0, 0]

def k0_chk29 (v311 : BitVec 32) : Prop :=
  (∀ a, (k0_off86 v311) a + S1x1x1024.size a ≤ S50257x1x1024.size a) ∧
  (∀ a, (k0_off87 v311) a + S1x1x128.size a ≤ S50257x1x128.size a) ∧
  (∀ a, (k0_off413 v311) a + S1x1x1024.size a ≤ S50257x1x1024.size a) ∧
  (∀ a, (k0_off540 v311) a + S1x1x128.size a ≤ S50257x1x128.size a)
instance k0_chk29.dec : ∀ (v311 : BitVec 32), Decidable (k0_chk29 v311) := fun v311 => decidable_of_iff' _ (Iff.of_eq (k0_chk29.eq_1 v311))
theorem k0_off86_inb : ∀ (v311 : BitVec 32) (k0_hw29 : k0_chk29 v311), ∀ a, (k0_off86 v311) a + S1x1x1024.size a ≤ S50257x1x1024.size a := fun v311 k0_hw29 => k0_hw29.1
theorem k0_off87_inb : ∀ (v311 : BitVec 32) (k0_hw29 : k0_chk29 v311), ∀ a, (k0_off87 v311) a + S1x1x128.size a ≤ S50257x1x128.size a := fun v311 k0_hw29 => k0_hw29.2.1
theorem k0_off413_inb : ∀ (v311 : BitVec 32) (k0_hw29 : k0_chk29 v311), ∀ a, (k0_off413 v311) a + S1x1x1024.size a ≤ S50257x1x1024.size a := fun v311 k0_hw29 => k0_hw29.2.2.1
theorem k0_off540_inb : ∀ (v311 : BitVec 32) (k0_hw29 : k0_chk29 v311), ∀ a, (k0_off540 v311) a + S1x1x128.size a ≤ S50257x1x128.size a := fun v311 k0_hw29 => k0_hw29.2.2.2

def k0_off541 (v322 : BitVec 32) : Fin 3 → Nat :=
  let c0_i32_2068 : BitVec 32 := 0#32
  let c0_i32_2069 : BitVec 32 := 0#32
  ![v322.toNat, 0, 0]

def k0_chk30 (v322 : BitVec 32) : Prop :=
  (∀ a, (k0_off89 v322) a + S1x1x1024.size a ≤ S50257x1x1024.size a) ∧
  (∀ a, (k0_off90 v322) a + S1x1x128.size a ≤ S50257x1x128.size a) ∧
  (∀ a, (k0_off414 v322) a + S1x1x1024.size a ≤ S50257x1x1024.size a) ∧
  (∀ a, (k0_off541 v322) a + S1x1x128.size a ≤ S50257x1x128.size a)
instance k0_chk30.dec : ∀ (v322 : BitVec 32), Decidable (k0_chk30 v322) := fun v322 => decidable_of_iff' _ (Iff.of_eq (k0_chk30.eq_1 v322))
theorem k0_off89_inb : ∀ (v322 : BitVec 32) (k0_hw30 : k0_chk30 v322), ∀ a, (k0_off89 v322) a + S1x1x1024.size a ≤ S50257x1x1024.size a := fun v322 k0_hw30 => k0_hw30.1
theorem k0_off90_inb : ∀ (v322 : BitVec 32) (k0_hw30 : k0_chk30 v322), ∀ a, (k0_off90 v322) a + S1x1x128.size a ≤ S50257x1x128.size a := fun v322 k0_hw30 => k0_hw30.2.1
theorem k0_off414_inb : ∀ (v322 : BitVec 32) (k0_hw30 : k0_chk30 v322), ∀ a, (k0_off414 v322) a + S1x1x1024.size a ≤ S50257x1x1024.size a := fun v322 k0_hw30 => k0_hw30.2.2.1
theorem k0_off541_inb : ∀ (v322 : BitVec 32) (k0_hw30 : k0_chk30 v322), ∀ a, (k0_off541 v322) a + S1x1x128.size a ≤ S50257x1x128.size a := fun v322 k0_hw30 => k0_hw30.2.2.2

def k0_off542 (v333 : BitVec 32) : Fin 3 → Nat :=
  let c0_i32_2073 : BitVec 32 := 0#32
  let c0_i32_2074 : BitVec 32 := 0#32
  ![v333.toNat, 0, 0]

def k0_chk31 (v333 : BitVec 32) : Prop :=
  (∀ a, (k0_off92 v333) a + S1x1x1024.size a ≤ S50257x1x1024.size a) ∧
  (∀ a, (k0_off93 v333) a + S1x1x128.size a ≤ S50257x1x128.size a) ∧
  (∀ a, (k0_off415 v333) a + S1x1x1024.size a ≤ S50257x1x1024.size a) ∧
  (∀ a, (k0_off542 v333) a + S1x1x128.size a ≤ S50257x1x128.size a)
instance k0_chk31.dec : ∀ (v333 : BitVec 32), Decidable (k0_chk31 v333) := fun v333 => decidable_of_iff' _ (Iff.of_eq (k0_chk31.eq_1 v333))
theorem k0_off92_inb : ∀ (v333 : BitVec 32) (k0_hw31 : k0_chk31 v333), ∀ a, (k0_off92 v333) a + S1x1x1024.size a ≤ S50257x1x1024.size a := fun v333 k0_hw31 => k0_hw31.1
theorem k0_off93_inb : ∀ (v333 : BitVec 32) (k0_hw31 : k0_chk31 v333), ∀ a, (k0_off93 v333) a + S1x1x128.size a ≤ S50257x1x128.size a := fun v333 k0_hw31 => k0_hw31.2.1
theorem k0_off415_inb : ∀ (v333 : BitVec 32) (k0_hw31 : k0_chk31 v333), ∀ a, (k0_off415 v333) a + S1x1x1024.size a ≤ S50257x1x1024.size a := fun v333 k0_hw31 => k0_hw31.2.2.1
theorem k0_off542_inb : ∀ (v333 : BitVec 32) (k0_hw31 : k0_chk31 v333), ∀ a, (k0_off542 v333) a + S1x1x128.size a ≤ S50257x1x128.size a := fun v333 k0_hw31 => k0_hw31.2.2.2

def k0_off543 (v344 : BitVec 32) : Fin 3 → Nat :=
  let c0_i32_2078 : BitVec 32 := 0#32
  let c0_i32_2079 : BitVec 32 := 0#32
  ![v344.toNat, 0, 0]

def k0_chk32 (v344 : BitVec 32) : Prop :=
  (∀ a, (k0_off95 v344) a + S1x1x1024.size a ≤ S50257x1x1024.size a) ∧
  (∀ a, (k0_off96 v344) a + S1x1x128.size a ≤ S50257x1x128.size a) ∧
  (∀ a, (k0_off416 v344) a + S1x1x1024.size a ≤ S50257x1x1024.size a) ∧
  (∀ a, (k0_off543 v344) a + S1x1x128.size a ≤ S50257x1x128.size a)
instance k0_chk32.dec : ∀ (v344 : BitVec 32), Decidable (k0_chk32 v344) := fun v344 => decidable_of_iff' _ (Iff.of_eq (k0_chk32.eq_1 v344))
theorem k0_off95_inb : ∀ (v344 : BitVec 32) (k0_hw32 : k0_chk32 v344), ∀ a, (k0_off95 v344) a + S1x1x1024.size a ≤ S50257x1x1024.size a := fun v344 k0_hw32 => k0_hw32.1
theorem k0_off96_inb : ∀ (v344 : BitVec 32) (k0_hw32 : k0_chk32 v344), ∀ a, (k0_off96 v344) a + S1x1x128.size a ≤ S50257x1x128.size a := fun v344 k0_hw32 => k0_hw32.2.1
theorem k0_off416_inb : ∀ (v344 : BitVec 32) (k0_hw32 : k0_chk32 v344), ∀ a, (k0_off416 v344) a + S1x1x1024.size a ≤ S50257x1x1024.size a := fun v344 k0_hw32 => k0_hw32.2.2.1
theorem k0_off543_inb : ∀ (v344 : BitVec 32) (k0_hw32 : k0_chk32 v344), ∀ a, (k0_off543 v344) a + S1x1x128.size a ≤ S50257x1x128.size a := fun v344 k0_hw32 => k0_hw32.2.2.2

def k0_off544 (v355 : BitVec 32) : Fin 3 → Nat :=
  let c0_i32_2083 : BitVec 32 := 0#32
  let c0_i32_2084 : BitVec 32 := 0#32
  ![v355.toNat, 0, 0]

def k0_chk33 (v355 : BitVec 32) : Prop :=
  (∀ a, (k0_off98 v355) a + S1x1x1024.size a ≤ S50257x1x1024.size a) ∧
  (∀ a, (k0_off99 v355) a + S1x1x128.size a ≤ S50257x1x128.size a) ∧
  (∀ a, (k0_off417 v355) a + S1x1x1024.size a ≤ S50257x1x1024.size a) ∧
  (∀ a, (k0_off544 v355) a + S1x1x128.size a ≤ S50257x1x128.size a)
instance k0_chk33.dec : ∀ (v355 : BitVec 32), Decidable (k0_chk33 v355) := fun v355 => decidable_of_iff' _ (Iff.of_eq (k0_chk33.eq_1 v355))
theorem k0_off98_inb : ∀ (v355 : BitVec 32) (k0_hw33 : k0_chk33 v355), ∀ a, (k0_off98 v355) a + S1x1x1024.size a ≤ S50257x1x1024.size a := fun v355 k0_hw33 => k0_hw33.1
theorem k0_off99_inb : ∀ (v355 : BitVec 32) (k0_hw33 : k0_chk33 v355), ∀ a, (k0_off99 v355) a + S1x1x128.size a ≤ S50257x1x128.size a := fun v355 k0_hw33 => k0_hw33.2.1
theorem k0_off417_inb : ∀ (v355 : BitVec 32) (k0_hw33 : k0_chk33 v355), ∀ a, (k0_off417 v355) a + S1x1x1024.size a ≤ S50257x1x1024.size a := fun v355 k0_hw33 => k0_hw33.2.2.1
theorem k0_off544_inb : ∀ (v355 : BitVec 32) (k0_hw33 : k0_chk33 v355), ∀ a, (k0_off544 v355) a + S1x1x128.size a ≤ S50257x1x128.size a := fun v355 k0_hw33 => k0_hw33.2.2.2

def k0_off545 (v366 : BitVec 32) : Fin 3 → Nat :=
  let c0_i32_2088 : BitVec 32 := 0#32
  let c0_i32_2089 : BitVec 32 := 0#32
  ![v366.toNat, 0, 0]

def k0_chk34 (v366 : BitVec 32) : Prop :=
  (∀ a, (k0_off101 v366) a + S1x1x1024.size a ≤ S50257x1x1024.size a) ∧
  (∀ a, (k0_off102 v366) a + S1x1x128.size a ≤ S50257x1x128.size a) ∧
  (∀ a, (k0_off418 v366) a + S1x1x1024.size a ≤ S50257x1x1024.size a) ∧
  (∀ a, (k0_off545 v366) a + S1x1x128.size a ≤ S50257x1x128.size a)
instance k0_chk34.dec : ∀ (v366 : BitVec 32), Decidable (k0_chk34 v366) := fun v366 => decidable_of_iff' _ (Iff.of_eq (k0_chk34.eq_1 v366))
theorem k0_off101_inb : ∀ (v366 : BitVec 32) (k0_hw34 : k0_chk34 v366), ∀ a, (k0_off101 v366) a + S1x1x1024.size a ≤ S50257x1x1024.size a := fun v366 k0_hw34 => k0_hw34.1
theorem k0_off102_inb : ∀ (v366 : BitVec 32) (k0_hw34 : k0_chk34 v366), ∀ a, (k0_off102 v366) a + S1x1x128.size a ≤ S50257x1x128.size a := fun v366 k0_hw34 => k0_hw34.2.1
theorem k0_off418_inb : ∀ (v366 : BitVec 32) (k0_hw34 : k0_chk34 v366), ∀ a, (k0_off418 v366) a + S1x1x1024.size a ≤ S50257x1x1024.size a := fun v366 k0_hw34 => k0_hw34.2.2.1
theorem k0_off545_inb : ∀ (v366 : BitVec 32) (k0_hw34 : k0_chk34 v366), ∀ a, (k0_off545 v366) a + S1x1x128.size a ≤ S50257x1x128.size a := fun v366 k0_hw34 => k0_hw34.2.2.2

def k0_off546 (v377 : BitVec 32) : Fin 3 → Nat :=
  let c0_i32_2093 : BitVec 32 := 0#32
  let c0_i32_2094 : BitVec 32 := 0#32
  ![v377.toNat, 0, 0]

def k0_chk35 (v377 : BitVec 32) : Prop :=
  (∀ a, (k0_off104 v377) a + S1x1x1024.size a ≤ S50257x1x1024.size a) ∧
  (∀ a, (k0_off105 v377) a + S1x1x128.size a ≤ S50257x1x128.size a) ∧
  (∀ a, (k0_off419 v377) a + S1x1x1024.size a ≤ S50257x1x1024.size a) ∧
  (∀ a, (k0_off546 v377) a + S1x1x128.size a ≤ S50257x1x128.size a)
instance k0_chk35.dec : ∀ (v377 : BitVec 32), Decidable (k0_chk35 v377) := fun v377 => decidable_of_iff' _ (Iff.of_eq (k0_chk35.eq_1 v377))
theorem k0_off104_inb : ∀ (v377 : BitVec 32) (k0_hw35 : k0_chk35 v377), ∀ a, (k0_off104 v377) a + S1x1x1024.size a ≤ S50257x1x1024.size a := fun v377 k0_hw35 => k0_hw35.1
theorem k0_off105_inb : ∀ (v377 : BitVec 32) (k0_hw35 : k0_chk35 v377), ∀ a, (k0_off105 v377) a + S1x1x128.size a ≤ S50257x1x128.size a := fun v377 k0_hw35 => k0_hw35.2.1
theorem k0_off419_inb : ∀ (v377 : BitVec 32) (k0_hw35 : k0_chk35 v377), ∀ a, (k0_off419 v377) a + S1x1x1024.size a ≤ S50257x1x1024.size a := fun v377 k0_hw35 => k0_hw35.2.2.1
theorem k0_off546_inb : ∀ (v377 : BitVec 32) (k0_hw35 : k0_chk35 v377), ∀ a, (k0_off546 v377) a + S1x1x128.size a ≤ S50257x1x128.size a := fun v377 k0_hw35 => k0_hw35.2.2.2

def k0_off547 (v388 : BitVec 32) : Fin 3 → Nat :=
  let c0_i32_2098 : BitVec 32 := 0#32
  let c0_i32_2099 : BitVec 32 := 0#32
  ![v388.toNat, 0, 0]

def k0_chk36 (v388 : BitVec 32) : Prop :=
  (∀ a, (k0_off107 v388) a + S1x1x1024.size a ≤ S50257x1x1024.size a) ∧
  (∀ a, (k0_off108 v388) a + S1x1x128.size a ≤ S50257x1x128.size a) ∧
  (∀ a, (k0_off420 v388) a + S1x1x1024.size a ≤ S50257x1x1024.size a) ∧
  (∀ a, (k0_off547 v388) a + S1x1x128.size a ≤ S50257x1x128.size a)
instance k0_chk36.dec : ∀ (v388 : BitVec 32), Decidable (k0_chk36 v388) := fun v388 => decidable_of_iff' _ (Iff.of_eq (k0_chk36.eq_1 v388))
theorem k0_off107_inb : ∀ (v388 : BitVec 32) (k0_hw36 : k0_chk36 v388), ∀ a, (k0_off107 v388) a + S1x1x1024.size a ≤ S50257x1x1024.size a := fun v388 k0_hw36 => k0_hw36.1
theorem k0_off108_inb : ∀ (v388 : BitVec 32) (k0_hw36 : k0_chk36 v388), ∀ a, (k0_off108 v388) a + S1x1x128.size a ≤ S50257x1x128.size a := fun v388 k0_hw36 => k0_hw36.2.1
theorem k0_off420_inb : ∀ (v388 : BitVec 32) (k0_hw36 : k0_chk36 v388), ∀ a, (k0_off420 v388) a + S1x1x1024.size a ≤ S50257x1x1024.size a := fun v388 k0_hw36 => k0_hw36.2.2.1
theorem k0_off547_inb : ∀ (v388 : BitVec 32) (k0_hw36 : k0_chk36 v388), ∀ a, (k0_off547 v388) a + S1x1x128.size a ≤ S50257x1x128.size a := fun v388 k0_hw36 => k0_hw36.2.2.2

def k0_off548 (v399 : BitVec 32) : Fin 3 → Nat :=
  let c0_i32_2103 : BitVec 32 := 0#32
  let c0_i32_2104 : BitVec 32 := 0#32
  ![v399.toNat, 0, 0]

def k0_chk37 (v399 : BitVec 32) : Prop :=
  (∀ a, (k0_off110 v399) a + S1x1x1024.size a ≤ S50257x1x1024.size a) ∧
  (∀ a, (k0_off111 v399) a + S1x1x128.size a ≤ S50257x1x128.size a) ∧
  (∀ a, (k0_off421 v399) a + S1x1x1024.size a ≤ S50257x1x1024.size a) ∧
  (∀ a, (k0_off548 v399) a + S1x1x128.size a ≤ S50257x1x128.size a)
instance k0_chk37.dec : ∀ (v399 : BitVec 32), Decidable (k0_chk37 v399) := fun v399 => decidable_of_iff' _ (Iff.of_eq (k0_chk37.eq_1 v399))
theorem k0_off110_inb : ∀ (v399 : BitVec 32) (k0_hw37 : k0_chk37 v399), ∀ a, (k0_off110 v399) a + S1x1x1024.size a ≤ S50257x1x1024.size a := fun v399 k0_hw37 => k0_hw37.1
theorem k0_off111_inb : ∀ (v399 : BitVec 32) (k0_hw37 : k0_chk37 v399), ∀ a, (k0_off111 v399) a + S1x1x128.size a ≤ S50257x1x128.size a := fun v399 k0_hw37 => k0_hw37.2.1
theorem k0_off421_inb : ∀ (v399 : BitVec 32) (k0_hw37 : k0_chk37 v399), ∀ a, (k0_off421 v399) a + S1x1x1024.size a ≤ S50257x1x1024.size a := fun v399 k0_hw37 => k0_hw37.2.2.1
theorem k0_off548_inb : ∀ (v399 : BitVec 32) (k0_hw37 : k0_chk37 v399), ∀ a, (k0_off548 v399) a + S1x1x128.size a ≤ S50257x1x128.size a := fun v399 k0_hw37 => k0_hw37.2.2.2

def k0_off549 (v410 : BitVec 32) : Fin 3 → Nat :=
  let c0_i32_2108 : BitVec 32 := 0#32
  let c0_i32_2109 : BitVec 32 := 0#32
  ![v410.toNat, 0, 0]

def k0_chk38 (v410 : BitVec 32) : Prop :=
  (∀ a, (k0_off113 v410) a + S1x1x1024.size a ≤ S50257x1x1024.size a) ∧
  (∀ a, (k0_off114 v410) a + S1x1x128.size a ≤ S50257x1x128.size a) ∧
  (∀ a, (k0_off422 v410) a + S1x1x1024.size a ≤ S50257x1x1024.size a) ∧
  (∀ a, (k0_off549 v410) a + S1x1x128.size a ≤ S50257x1x128.size a)
instance k0_chk38.dec : ∀ (v410 : BitVec 32), Decidable (k0_chk38 v410) := fun v410 => decidable_of_iff' _ (Iff.of_eq (k0_chk38.eq_1 v410))
theorem k0_off113_inb : ∀ (v410 : BitVec 32) (k0_hw38 : k0_chk38 v410), ∀ a, (k0_off113 v410) a + S1x1x1024.size a ≤ S50257x1x1024.size a := fun v410 k0_hw38 => k0_hw38.1
theorem k0_off114_inb : ∀ (v410 : BitVec 32) (k0_hw38 : k0_chk38 v410), ∀ a, (k0_off114 v410) a + S1x1x128.size a ≤ S50257x1x128.size a := fun v410 k0_hw38 => k0_hw38.2.1
theorem k0_off422_inb : ∀ (v410 : BitVec 32) (k0_hw38 : k0_chk38 v410), ∀ a, (k0_off422 v410) a + S1x1x1024.size a ≤ S50257x1x1024.size a := fun v410 k0_hw38 => k0_hw38.2.2.1
theorem k0_off549_inb : ∀ (v410 : BitVec 32) (k0_hw38 : k0_chk38 v410), ∀ a, (k0_off549 v410) a + S1x1x128.size a ≤ S50257x1x128.size a := fun v410 k0_hw38 => k0_hw38.2.2.2

def k0_off550 (v421 : BitVec 32) : Fin 3 → Nat :=
  let c0_i32_2113 : BitVec 32 := 0#32
  let c0_i32_2114 : BitVec 32 := 0#32
  ![v421.toNat, 0, 0]

def k0_chk39 (v421 : BitVec 32) : Prop :=
  (∀ a, (k0_off116 v421) a + S1x1x1024.size a ≤ S50257x1x1024.size a) ∧
  (∀ a, (k0_off117 v421) a + S1x1x128.size a ≤ S50257x1x128.size a) ∧
  (∀ a, (k0_off423 v421) a + S1x1x1024.size a ≤ S50257x1x1024.size a) ∧
  (∀ a, (k0_off550 v421) a + S1x1x128.size a ≤ S50257x1x128.size a)
instance k0_chk39.dec : ∀ (v421 : BitVec 32), Decidable (k0_chk39 v421) := fun v421 => decidable_of_iff' _ (Iff.of_eq (k0_chk39.eq_1 v421))
theorem k0_off116_inb : ∀ (v421 : BitVec 32) (k0_hw39 : k0_chk39 v421), ∀ a, (k0_off116 v421) a + S1x1x1024.size a ≤ S50257x1x1024.size a := fun v421 k0_hw39 => k0_hw39.1
theorem k0_off117_inb : ∀ (v421 : BitVec 32) (k0_hw39 : k0_chk39 v421), ∀ a, (k0_off117 v421) a + S1x1x128.size a ≤ S50257x1x128.size a := fun v421 k0_hw39 => k0_hw39.2.1
theorem k0_off423_inb : ∀ (v421 : BitVec 32) (k0_hw39 : k0_chk39 v421), ∀ a, (k0_off423 v421) a + S1x1x1024.size a ≤ S50257x1x1024.size a := fun v421 k0_hw39 => k0_hw39.2.2.1
theorem k0_off550_inb : ∀ (v421 : BitVec 32) (k0_hw39 : k0_chk39 v421), ∀ a, (k0_off550 v421) a + S1x1x128.size a ≤ S50257x1x128.size a := fun v421 k0_hw39 => k0_hw39.2.2.2

def k0_off551 (v432 : BitVec 32) : Fin 3 → Nat :=
  let c0_i32_2118 : BitVec 32 := 0#32
  let c0_i32_2119 : BitVec 32 := 0#32
  ![v432.toNat, 0, 0]

def k0_chk40 (v432 : BitVec 32) : Prop :=
  (∀ a, (k0_off119 v432) a + S1x1x1024.size a ≤ S50257x1x1024.size a) ∧
  (∀ a, (k0_off120 v432) a + S1x1x128.size a ≤ S50257x1x128.size a) ∧
  (∀ a, (k0_off424 v432) a + S1x1x1024.size a ≤ S50257x1x1024.size a) ∧
  (∀ a, (k0_off551 v432) a + S1x1x128.size a ≤ S50257x1x128.size a)
instance k0_chk40.dec : ∀ (v432 : BitVec 32), Decidable (k0_chk40 v432) := fun v432 => decidable_of_iff' _ (Iff.of_eq (k0_chk40.eq_1 v432))
theorem k0_off119_inb : ∀ (v432 : BitVec 32) (k0_hw40 : k0_chk40 v432), ∀ a, (k0_off119 v432) a + S1x1x1024.size a ≤ S50257x1x1024.size a := fun v432 k0_hw40 => k0_hw40.1
theorem k0_off120_inb : ∀ (v432 : BitVec 32) (k0_hw40 : k0_chk40 v432), ∀ a, (k0_off120 v432) a + S1x1x128.size a ≤ S50257x1x128.size a := fun v432 k0_hw40 => k0_hw40.2.1
theorem k0_off424_inb : ∀ (v432 : BitVec 32) (k0_hw40 : k0_chk40 v432), ∀ a, (k0_off424 v432) a + S1x1x1024.size a ≤ S50257x1x1024.size a := fun v432 k0_hw40 => k0_hw40.2.2.1
theorem k0_off551_inb : ∀ (v432 : BitVec 32) (k0_hw40 : k0_chk40 v432), ∀ a, (k0_off551 v432) a + S1x1x128.size a ≤ S50257x1x128.size a := fun v432 k0_hw40 => k0_hw40.2.2.2

def k0_off552 (v443 : BitVec 32) : Fin 3 → Nat :=
  let c0_i32_2123 : BitVec 32 := 0#32
  let c0_i32_2124 : BitVec 32 := 0#32
  ![v443.toNat, 0, 0]

def k0_chk41 (v443 : BitVec 32) : Prop :=
  (∀ a, (k0_off122 v443) a + S1x1x1024.size a ≤ S50257x1x1024.size a) ∧
  (∀ a, (k0_off123 v443) a + S1x1x128.size a ≤ S50257x1x128.size a) ∧
  (∀ a, (k0_off425 v443) a + S1x1x1024.size a ≤ S50257x1x1024.size a) ∧
  (∀ a, (k0_off552 v443) a + S1x1x128.size a ≤ S50257x1x128.size a)
instance k0_chk41.dec : ∀ (v443 : BitVec 32), Decidable (k0_chk41 v443) := fun v443 => decidable_of_iff' _ (Iff.of_eq (k0_chk41.eq_1 v443))
theorem k0_off122_inb : ∀ (v443 : BitVec 32) (k0_hw41 : k0_chk41 v443), ∀ a, (k0_off122 v443) a + S1x1x1024.size a ≤ S50257x1x1024.size a := fun v443 k0_hw41 => k0_hw41.1
theorem k0_off123_inb : ∀ (v443 : BitVec 32) (k0_hw41 : k0_chk41 v443), ∀ a, (k0_off123 v443) a + S1x1x128.size a ≤ S50257x1x128.size a := fun v443 k0_hw41 => k0_hw41.2.1
theorem k0_off425_inb : ∀ (v443 : BitVec 32) (k0_hw41 : k0_chk41 v443), ∀ a, (k0_off425 v443) a + S1x1x1024.size a ≤ S50257x1x1024.size a := fun v443 k0_hw41 => k0_hw41.2.2.1
theorem k0_off552_inb : ∀ (v443 : BitVec 32) (k0_hw41 : k0_chk41 v443), ∀ a, (k0_off552 v443) a + S1x1x128.size a ≤ S50257x1x128.size a := fun v443 k0_hw41 => k0_hw41.2.2.2

def k0_off553 (v454 : BitVec 32) : Fin 3 → Nat :=
  let c0_i32_2128 : BitVec 32 := 0#32
  let c0_i32_2129 : BitVec 32 := 0#32
  ![v454.toNat, 0, 0]

def k0_chk42 (v454 : BitVec 32) : Prop :=
  (∀ a, (k0_off125 v454) a + S1x1x1024.size a ≤ S50257x1x1024.size a) ∧
  (∀ a, (k0_off126 v454) a + S1x1x128.size a ≤ S50257x1x128.size a) ∧
  (∀ a, (k0_off426 v454) a + S1x1x1024.size a ≤ S50257x1x1024.size a) ∧
  (∀ a, (k0_off553 v454) a + S1x1x128.size a ≤ S50257x1x128.size a)
instance k0_chk42.dec : ∀ (v454 : BitVec 32), Decidable (k0_chk42 v454) := fun v454 => decidable_of_iff' _ (Iff.of_eq (k0_chk42.eq_1 v454))
theorem k0_off125_inb : ∀ (v454 : BitVec 32) (k0_hw42 : k0_chk42 v454), ∀ a, (k0_off125 v454) a + S1x1x1024.size a ≤ S50257x1x1024.size a := fun v454 k0_hw42 => k0_hw42.1
theorem k0_off126_inb : ∀ (v454 : BitVec 32) (k0_hw42 : k0_chk42 v454), ∀ a, (k0_off126 v454) a + S1x1x128.size a ≤ S50257x1x128.size a := fun v454 k0_hw42 => k0_hw42.2.1
theorem k0_off426_inb : ∀ (v454 : BitVec 32) (k0_hw42 : k0_chk42 v454), ∀ a, (k0_off426 v454) a + S1x1x1024.size a ≤ S50257x1x1024.size a := fun v454 k0_hw42 => k0_hw42.2.2.1
theorem k0_off553_inb : ∀ (v454 : BitVec 32) (k0_hw42 : k0_chk42 v454), ∀ a, (k0_off553 v454) a + S1x1x128.size a ≤ S50257x1x128.size a := fun v454 k0_hw42 => k0_hw42.2.2.2

def k0_off554 (v465 : BitVec 32) : Fin 3 → Nat :=
  let c0_i32_2133 : BitVec 32 := 0#32
  let c0_i32_2134 : BitVec 32 := 0#32
  ![v465.toNat, 0, 0]

def k0_chk43 (v465 : BitVec 32) : Prop :=
  (∀ a, (k0_off128 v465) a + S1x1x1024.size a ≤ S50257x1x1024.size a) ∧
  (∀ a, (k0_off129 v465) a + S1x1x128.size a ≤ S50257x1x128.size a) ∧
  (∀ a, (k0_off427 v465) a + S1x1x1024.size a ≤ S50257x1x1024.size a) ∧
  (∀ a, (k0_off554 v465) a + S1x1x128.size a ≤ S50257x1x128.size a)
instance k0_chk43.dec : ∀ (v465 : BitVec 32), Decidable (k0_chk43 v465) := fun v465 => decidable_of_iff' _ (Iff.of_eq (k0_chk43.eq_1 v465))
theorem k0_off128_inb : ∀ (v465 : BitVec 32) (k0_hw43 : k0_chk43 v465), ∀ a, (k0_off128 v465) a + S1x1x1024.size a ≤ S50257x1x1024.size a := fun v465 k0_hw43 => k0_hw43.1
theorem k0_off129_inb : ∀ (v465 : BitVec 32) (k0_hw43 : k0_chk43 v465), ∀ a, (k0_off129 v465) a + S1x1x128.size a ≤ S50257x1x128.size a := fun v465 k0_hw43 => k0_hw43.2.1
theorem k0_off427_inb : ∀ (v465 : BitVec 32) (k0_hw43 : k0_chk43 v465), ∀ a, (k0_off427 v465) a + S1x1x1024.size a ≤ S50257x1x1024.size a := fun v465 k0_hw43 => k0_hw43.2.2.1
theorem k0_off554_inb : ∀ (v465 : BitVec 32) (k0_hw43 : k0_chk43 v465), ∀ a, (k0_off554 v465) a + S1x1x128.size a ≤ S50257x1x128.size a := fun v465 k0_hw43 => k0_hw43.2.2.2

def k0_off555 (v476 : BitVec 32) : Fin 3 → Nat :=
  let c0_i32_2138 : BitVec 32 := 0#32
  let c0_i32_2139 : BitVec 32 := 0#32
  ![v476.toNat, 0, 0]

def k0_chk44 (v476 : BitVec 32) : Prop :=
  (∀ a, (k0_off131 v476) a + S1x1x1024.size a ≤ S50257x1x1024.size a) ∧
  (∀ a, (k0_off132 v476) a + S1x1x128.size a ≤ S50257x1x128.size a) ∧
  (∀ a, (k0_off428 v476) a + S1x1x1024.size a ≤ S50257x1x1024.size a) ∧
  (∀ a, (k0_off555 v476) a + S1x1x128.size a ≤ S50257x1x128.size a)
instance k0_chk44.dec : ∀ (v476 : BitVec 32), Decidable (k0_chk44 v476) := fun v476 => decidable_of_iff' _ (Iff.of_eq (k0_chk44.eq_1 v476))
theorem k0_off131_inb : ∀ (v476 : BitVec 32) (k0_hw44 : k0_chk44 v476), ∀ a, (k0_off131 v476) a + S1x1x1024.size a ≤ S50257x1x1024.size a := fun v476 k0_hw44 => k0_hw44.1
theorem k0_off132_inb : ∀ (v476 : BitVec 32) (k0_hw44 : k0_chk44 v476), ∀ a, (k0_off132 v476) a + S1x1x128.size a ≤ S50257x1x128.size a := fun v476 k0_hw44 => k0_hw44.2.1
theorem k0_off428_inb : ∀ (v476 : BitVec 32) (k0_hw44 : k0_chk44 v476), ∀ a, (k0_off428 v476) a + S1x1x1024.size a ≤ S50257x1x1024.size a := fun v476 k0_hw44 => k0_hw44.2.2.1
theorem k0_off555_inb : ∀ (v476 : BitVec 32) (k0_hw44 : k0_chk44 v476), ∀ a, (k0_off555 v476) a + S1x1x128.size a ≤ S50257x1x128.size a := fun v476 k0_hw44 => k0_hw44.2.2.2

def k0_off556 (v487 : BitVec 32) : Fin 3 → Nat :=
  let c0_i32_2143 : BitVec 32 := 0#32
  let c0_i32_2144 : BitVec 32 := 0#32
  ![v487.toNat, 0, 0]

def k0_chk45 (v487 : BitVec 32) : Prop :=
  (∀ a, (k0_off134 v487) a + S1x1x1024.size a ≤ S50257x1x1024.size a) ∧
  (∀ a, (k0_off135 v487) a + S1x1x128.size a ≤ S50257x1x128.size a) ∧
  (∀ a, (k0_off429 v487) a + S1x1x1024.size a ≤ S50257x1x1024.size a) ∧
  (∀ a, (k0_off556 v487) a + S1x1x128.size a ≤ S50257x1x128.size a)
instance k0_chk45.dec : ∀ (v487 : BitVec 32), Decidable (k0_chk45 v487) := fun v487 => decidable_of_iff' _ (Iff.of_eq (k0_chk45.eq_1 v487))
theorem k0_off134_inb : ∀ (v487 : BitVec 32) (k0_hw45 : k0_chk45 v487), ∀ a, (k0_off134 v487) a + S1x1x1024.size a ≤ S50257x1x1024.size a := fun v487 k0_hw45 => k0_hw45.1
theorem k0_off135_inb : ∀ (v487 : BitVec 32) (k0_hw45 : k0_chk45 v487), ∀ a, (k0_off135 v487) a + S1x1x128.size a ≤ S50257x1x128.size a := fun v487 k0_hw45 => k0_hw45.2.1
theorem k0_off429_inb : ∀ (v487 : BitVec 32) (k0_hw45 : k0_chk45 v487), ∀ a, (k0_off429 v487) a + S1x1x1024.size a ≤ S50257x1x1024.size a := fun v487 k0_hw45 => k0_hw45.2.2.1
theorem k0_off556_inb : ∀ (v487 : BitVec 32) (k0_hw45 : k0_chk45 v487), ∀ a, (k0_off556 v487) a + S1x1x128.size a ≤ S50257x1x128.size a := fun v487 k0_hw45 => k0_hw45.2.2.2

def k0_off557 (v498 : BitVec 32) : Fin 3 → Nat :=
  let c0_i32_2148 : BitVec 32 := 0#32
  let c0_i32_2149 : BitVec 32 := 0#32
  ![v498.toNat, 0, 0]

def k0_chk46 (v498 : BitVec 32) : Prop :=
  (∀ a, (k0_off137 v498) a + S1x1x1024.size a ≤ S50257x1x1024.size a) ∧
  (∀ a, (k0_off138 v498) a + S1x1x128.size a ≤ S50257x1x128.size a) ∧
  (∀ a, (k0_off430 v498) a + S1x1x1024.size a ≤ S50257x1x1024.size a) ∧
  (∀ a, (k0_off557 v498) a + S1x1x128.size a ≤ S50257x1x128.size a)
instance k0_chk46.dec : ∀ (v498 : BitVec 32), Decidable (k0_chk46 v498) := fun v498 => decidable_of_iff' _ (Iff.of_eq (k0_chk46.eq_1 v498))
theorem k0_off137_inb : ∀ (v498 : BitVec 32) (k0_hw46 : k0_chk46 v498), ∀ a, (k0_off137 v498) a + S1x1x1024.size a ≤ S50257x1x1024.size a := fun v498 k0_hw46 => k0_hw46.1
theorem k0_off138_inb : ∀ (v498 : BitVec 32) (k0_hw46 : k0_chk46 v498), ∀ a, (k0_off138 v498) a + S1x1x128.size a ≤ S50257x1x128.size a := fun v498 k0_hw46 => k0_hw46.2.1
theorem k0_off430_inb : ∀ (v498 : BitVec 32) (k0_hw46 : k0_chk46 v498), ∀ a, (k0_off430 v498) a + S1x1x1024.size a ≤ S50257x1x1024.size a := fun v498 k0_hw46 => k0_hw46.2.2.1
theorem k0_off557_inb : ∀ (v498 : BitVec 32) (k0_hw46 : k0_chk46 v498), ∀ a, (k0_off557 v498) a + S1x1x128.size a ≤ S50257x1x128.size a := fun v498 k0_hw46 => k0_hw46.2.2.2

def k0_off558 (v509 : BitVec 32) : Fin 3 → Nat :=
  let c0_i32_2153 : BitVec 32 := 0#32
  let c0_i32_2154 : BitVec 32 := 0#32
  ![v509.toNat, 0, 0]

def k0_chk47 (v509 : BitVec 32) : Prop :=
  (∀ a, (k0_off140 v509) a + S1x1x1024.size a ≤ S50257x1x1024.size a) ∧
  (∀ a, (k0_off141 v509) a + S1x1x128.size a ≤ S50257x1x128.size a) ∧
  (∀ a, (k0_off431 v509) a + S1x1x1024.size a ≤ S50257x1x1024.size a) ∧
  (∀ a, (k0_off558 v509) a + S1x1x128.size a ≤ S50257x1x128.size a)
instance k0_chk47.dec : ∀ (v509 : BitVec 32), Decidable (k0_chk47 v509) := fun v509 => decidable_of_iff' _ (Iff.of_eq (k0_chk47.eq_1 v509))
theorem k0_off140_inb : ∀ (v509 : BitVec 32) (k0_hw47 : k0_chk47 v509), ∀ a, (k0_off140 v509) a + S1x1x1024.size a ≤ S50257x1x1024.size a := fun v509 k0_hw47 => k0_hw47.1
theorem k0_off141_inb : ∀ (v509 : BitVec 32) (k0_hw47 : k0_chk47 v509), ∀ a, (k0_off141 v509) a + S1x1x128.size a ≤ S50257x1x128.size a := fun v509 k0_hw47 => k0_hw47.2.1
theorem k0_off431_inb : ∀ (v509 : BitVec 32) (k0_hw47 : k0_chk47 v509), ∀ a, (k0_off431 v509) a + S1x1x1024.size a ≤ S50257x1x1024.size a := fun v509 k0_hw47 => k0_hw47.2.2.1
theorem k0_off558_inb : ∀ (v509 : BitVec 32) (k0_hw47 : k0_chk47 v509), ∀ a, (k0_off558 v509) a + S1x1x128.size a ≤ S50257x1x128.size a := fun v509 k0_hw47 => k0_hw47.2.2.2

def k0_off559 (v520 : BitVec 32) : Fin 3 → Nat :=
  let c0_i32_2158 : BitVec 32 := 0#32
  let c0_i32_2159 : BitVec 32 := 0#32
  ![v520.toNat, 0, 0]

def k0_chk48 (v520 : BitVec 32) : Prop :=
  (∀ a, (k0_off143 v520) a + S1x1x1024.size a ≤ S50257x1x1024.size a) ∧
  (∀ a, (k0_off144 v520) a + S1x1x128.size a ≤ S50257x1x128.size a) ∧
  (∀ a, (k0_off432 v520) a + S1x1x1024.size a ≤ S50257x1x1024.size a) ∧
  (∀ a, (k0_off559 v520) a + S1x1x128.size a ≤ S50257x1x128.size a)
instance k0_chk48.dec : ∀ (v520 : BitVec 32), Decidable (k0_chk48 v520) := fun v520 => decidable_of_iff' _ (Iff.of_eq (k0_chk48.eq_1 v520))
theorem k0_off143_inb : ∀ (v520 : BitVec 32) (k0_hw48 : k0_chk48 v520), ∀ a, (k0_off143 v520) a + S1x1x1024.size a ≤ S50257x1x1024.size a := fun v520 k0_hw48 => k0_hw48.1
theorem k0_off144_inb : ∀ (v520 : BitVec 32) (k0_hw48 : k0_chk48 v520), ∀ a, (k0_off144 v520) a + S1x1x128.size a ≤ S50257x1x128.size a := fun v520 k0_hw48 => k0_hw48.2.1
theorem k0_off432_inb : ∀ (v520 : BitVec 32) (k0_hw48 : k0_chk48 v520), ∀ a, (k0_off432 v520) a + S1x1x1024.size a ≤ S50257x1x1024.size a := fun v520 k0_hw48 => k0_hw48.2.2.1
theorem k0_off559_inb : ∀ (v520 : BitVec 32) (k0_hw48 : k0_chk48 v520), ∀ a, (k0_off559 v520) a + S1x1x128.size a ≤ S50257x1x128.size a := fun v520 k0_hw48 => k0_hw48.2.2.2

def k0_off560 (v531 : BitVec 32) : Fin 3 → Nat :=
  let c0_i32_2163 : BitVec 32 := 0#32
  let c0_i32_2164 : BitVec 32 := 0#32
  ![v531.toNat, 0, 0]

def k0_chk49 (v531 : BitVec 32) : Prop :=
  (∀ a, (k0_off146 v531) a + S1x1x1024.size a ≤ S50257x1x1024.size a) ∧
  (∀ a, (k0_off147 v531) a + S1x1x128.size a ≤ S50257x1x128.size a) ∧
  (∀ a, (k0_off433 v531) a + S1x1x1024.size a ≤ S50257x1x1024.size a) ∧
  (∀ a, (k0_off560 v531) a + S1x1x128.size a ≤ S50257x1x128.size a)
instance k0_chk49.dec : ∀ (v531 : BitVec 32), Decidable (k0_chk49 v531) := fun v531 => decidable_of_iff' _ (Iff.of_eq (k0_chk49.eq_1 v531))
theorem k0_off146_inb : ∀ (v531 : BitVec 32) (k0_hw49 : k0_chk49 v531), ∀ a, (k0_off146 v531) a + S1x1x1024.size a ≤ S50257x1x1024.size a := fun v531 k0_hw49 => k0_hw49.1
theorem k0_off147_inb : ∀ (v531 : BitVec 32) (k0_hw49 : k0_chk49 v531), ∀ a, (k0_off147 v531) a + S1x1x128.size a ≤ S50257x1x128.size a := fun v531 k0_hw49 => k0_hw49.2.1
theorem k0_off433_inb : ∀ (v531 : BitVec 32) (k0_hw49 : k0_chk49 v531), ∀ a, (k0_off433 v531) a + S1x1x1024.size a ≤ S50257x1x1024.size a := fun v531 k0_hw49 => k0_hw49.2.2.1
theorem k0_off560_inb : ∀ (v531 : BitVec 32) (k0_hw49 : k0_chk49 v531), ∀ a, (k0_off560 v531) a + S1x1x128.size a ≤ S50257x1x128.size a := fun v531 k0_hw49 => k0_hw49.2.2.2

def k0_off561 (v542 : BitVec 32) : Fin 3 → Nat :=
  let c0_i32_2168 : BitVec 32 := 0#32
  let c0_i32_2169 : BitVec 32 := 0#32
  ![v542.toNat, 0, 0]

def k0_chk50 (v542 : BitVec 32) : Prop :=
  (∀ a, (k0_off149 v542) a + S1x1x1024.size a ≤ S50257x1x1024.size a) ∧
  (∀ a, (k0_off150 v542) a + S1x1x128.size a ≤ S50257x1x128.size a) ∧
  (∀ a, (k0_off434 v542) a + S1x1x1024.size a ≤ S50257x1x1024.size a) ∧
  (∀ a, (k0_off561 v542) a + S1x1x128.size a ≤ S50257x1x128.size a)
instance k0_chk50.dec : ∀ (v542 : BitVec 32), Decidable (k0_chk50 v542) := fun v542 => decidable_of_iff' _ (Iff.of_eq (k0_chk50.eq_1 v542))
theorem k0_off149_inb : ∀ (v542 : BitVec 32) (k0_hw50 : k0_chk50 v542), ∀ a, (k0_off149 v542) a + S1x1x1024.size a ≤ S50257x1x1024.size a := fun v542 k0_hw50 => k0_hw50.1
theorem k0_off150_inb : ∀ (v542 : BitVec 32) (k0_hw50 : k0_chk50 v542), ∀ a, (k0_off150 v542) a + S1x1x128.size a ≤ S50257x1x128.size a := fun v542 k0_hw50 => k0_hw50.2.1
theorem k0_off434_inb : ∀ (v542 : BitVec 32) (k0_hw50 : k0_chk50 v542), ∀ a, (k0_off434 v542) a + S1x1x1024.size a ≤ S50257x1x1024.size a := fun v542 k0_hw50 => k0_hw50.2.2.1
theorem k0_off561_inb : ∀ (v542 : BitVec 32) (k0_hw50 : k0_chk50 v542), ∀ a, (k0_off561 v542) a + S1x1x128.size a ≤ S50257x1x128.size a := fun v542 k0_hw50 => k0_hw50.2.2.2

def k0_off562 (v553 : BitVec 32) : Fin 3 → Nat :=
  let c0_i32_2173 : BitVec 32 := 0#32
  let c0_i32_2174 : BitVec 32 := 0#32
  ![v553.toNat, 0, 0]

def k0_chk51 (v553 : BitVec 32) : Prop :=
  (∀ a, (k0_off152 v553) a + S1x1x1024.size a ≤ S50257x1x1024.size a) ∧
  (∀ a, (k0_off153 v553) a + S1x1x128.size a ≤ S50257x1x128.size a) ∧
  (∀ a, (k0_off435 v553) a + S1x1x1024.size a ≤ S50257x1x1024.size a) ∧
  (∀ a, (k0_off562 v553) a + S1x1x128.size a ≤ S50257x1x128.size a)
instance k0_chk51.dec : ∀ (v553 : BitVec 32), Decidable (k0_chk51 v553) := fun v553 => decidable_of_iff' _ (Iff.of_eq (k0_chk51.eq_1 v553))
theorem k0_off152_inb : ∀ (v553 : BitVec 32) (k0_hw51 : k0_chk51 v553), ∀ a, (k0_off152 v553) a + S1x1x1024.size a ≤ S50257x1x1024.size a := fun v553 k0_hw51 => k0_hw51.1
theorem k0_off153_inb : ∀ (v553 : BitVec 32) (k0_hw51 : k0_chk51 v553), ∀ a, (k0_off153 v553) a + S1x1x128.size a ≤ S50257x1x128.size a := fun v553 k0_hw51 => k0_hw51.2.1
theorem k0_off435_inb : ∀ (v553 : BitVec 32) (k0_hw51 : k0_chk51 v553), ∀ a, (k0_off435 v553) a + S1x1x1024.size a ≤ S50257x1x1024.size a := fun v553 k0_hw51 => k0_hw51.2.2.1
theorem k0_off562_inb : ∀ (v553 : BitVec 32) (k0_hw51 : k0_chk51 v553), ∀ a, (k0_off562 v553) a + S1x1x128.size a ≤ S50257x1x128.size a := fun v553 k0_hw51 => k0_hw51.2.2.2

def k0_off563 (v564 : BitVec 32) : Fin 3 → Nat :=
  let c0_i32_2178 : BitVec 32 := 0#32
  let c0_i32_2179 : BitVec 32 := 0#32
  ![v564.toNat, 0, 0]

def k0_chk52 (v564 : BitVec 32) : Prop :=
  (∀ a, (k0_off155 v564) a + S1x1x1024.size a ≤ S50257x1x1024.size a) ∧
  (∀ a, (k0_off156 v564) a + S1x1x128.size a ≤ S50257x1x128.size a) ∧
  (∀ a, (k0_off436 v564) a + S1x1x1024.size a ≤ S50257x1x1024.size a) ∧
  (∀ a, (k0_off563 v564) a + S1x1x128.size a ≤ S50257x1x128.size a)
instance k0_chk52.dec : ∀ (v564 : BitVec 32), Decidable (k0_chk52 v564) := fun v564 => decidable_of_iff' _ (Iff.of_eq (k0_chk52.eq_1 v564))
theorem k0_off155_inb : ∀ (v564 : BitVec 32) (k0_hw52 : k0_chk52 v564), ∀ a, (k0_off155 v564) a + S1x1x1024.size a ≤ S50257x1x1024.size a := fun v564 k0_hw52 => k0_hw52.1
theorem k0_off156_inb : ∀ (v564 : BitVec 32) (k0_hw52 : k0_chk52 v564), ∀ a, (k0_off156 v564) a + S1x1x128.size a ≤ S50257x1x128.size a := fun v564 k0_hw52 => k0_hw52.2.1
theorem k0_off436_inb : ∀ (v564 : BitVec 32) (k0_hw52 : k0_chk52 v564), ∀ a, (k0_off436 v564) a + S1x1x1024.size a ≤ S50257x1x1024.size a := fun v564 k0_hw52 => k0_hw52.2.2.1
theorem k0_off563_inb : ∀ (v564 : BitVec 32) (k0_hw52 : k0_chk52 v564), ∀ a, (k0_off563 v564) a + S1x1x128.size a ≤ S50257x1x128.size a := fun v564 k0_hw52 => k0_hw52.2.2.2

def k0_off564 (v575 : BitVec 32) : Fin 3 → Nat :=
  let c0_i32_2183 : BitVec 32 := 0#32
  let c0_i32_2184 : BitVec 32 := 0#32
  ![v575.toNat, 0, 0]

def k0_chk53 (v575 : BitVec 32) : Prop :=
  (∀ a, (k0_off158 v575) a + S1x1x1024.size a ≤ S50257x1x1024.size a) ∧
  (∀ a, (k0_off159 v575) a + S1x1x128.size a ≤ S50257x1x128.size a) ∧
  (∀ a, (k0_off437 v575) a + S1x1x1024.size a ≤ S50257x1x1024.size a) ∧
  (∀ a, (k0_off564 v575) a + S1x1x128.size a ≤ S50257x1x128.size a)
instance k0_chk53.dec : ∀ (v575 : BitVec 32), Decidable (k0_chk53 v575) := fun v575 => decidable_of_iff' _ (Iff.of_eq (k0_chk53.eq_1 v575))
theorem k0_off158_inb : ∀ (v575 : BitVec 32) (k0_hw53 : k0_chk53 v575), ∀ a, (k0_off158 v575) a + S1x1x1024.size a ≤ S50257x1x1024.size a := fun v575 k0_hw53 => k0_hw53.1
theorem k0_off159_inb : ∀ (v575 : BitVec 32) (k0_hw53 : k0_chk53 v575), ∀ a, (k0_off159 v575) a + S1x1x128.size a ≤ S50257x1x128.size a := fun v575 k0_hw53 => k0_hw53.2.1
theorem k0_off437_inb : ∀ (v575 : BitVec 32) (k0_hw53 : k0_chk53 v575), ∀ a, (k0_off437 v575) a + S1x1x1024.size a ≤ S50257x1x1024.size a := fun v575 k0_hw53 => k0_hw53.2.2.1
theorem k0_off564_inb : ∀ (v575 : BitVec 32) (k0_hw53 : k0_chk53 v575), ∀ a, (k0_off564 v575) a + S1x1x128.size a ≤ S50257x1x128.size a := fun v575 k0_hw53 => k0_hw53.2.2.2

def k0_off565 (v586 : BitVec 32) : Fin 3 → Nat :=
  let c0_i32_2188 : BitVec 32 := 0#32
  let c0_i32_2189 : BitVec 32 := 0#32
  ![v586.toNat, 0, 0]

def k0_chk54 (v586 : BitVec 32) : Prop :=
  (∀ a, (k0_off161 v586) a + S1x1x1024.size a ≤ S50257x1x1024.size a) ∧
  (∀ a, (k0_off162 v586) a + S1x1x128.size a ≤ S50257x1x128.size a) ∧
  (∀ a, (k0_off438 v586) a + S1x1x1024.size a ≤ S50257x1x1024.size a) ∧
  (∀ a, (k0_off565 v586) a + S1x1x128.size a ≤ S50257x1x128.size a)
instance k0_chk54.dec : ∀ (v586 : BitVec 32), Decidable (k0_chk54 v586) := fun v586 => decidable_of_iff' _ (Iff.of_eq (k0_chk54.eq_1 v586))
theorem k0_off161_inb : ∀ (v586 : BitVec 32) (k0_hw54 : k0_chk54 v586), ∀ a, (k0_off161 v586) a + S1x1x1024.size a ≤ S50257x1x1024.size a := fun v586 k0_hw54 => k0_hw54.1
theorem k0_off162_inb : ∀ (v586 : BitVec 32) (k0_hw54 : k0_chk54 v586), ∀ a, (k0_off162 v586) a + S1x1x128.size a ≤ S50257x1x128.size a := fun v586 k0_hw54 => k0_hw54.2.1
theorem k0_off438_inb : ∀ (v586 : BitVec 32) (k0_hw54 : k0_chk54 v586), ∀ a, (k0_off438 v586) a + S1x1x1024.size a ≤ S50257x1x1024.size a := fun v586 k0_hw54 => k0_hw54.2.2.1
theorem k0_off565_inb : ∀ (v586 : BitVec 32) (k0_hw54 : k0_chk54 v586), ∀ a, (k0_off565 v586) a + S1x1x128.size a ≤ S50257x1x128.size a := fun v586 k0_hw54 => k0_hw54.2.2.2

def k0_off566 (v597 : BitVec 32) : Fin 3 → Nat :=
  let c0_i32_2193 : BitVec 32 := 0#32
  let c0_i32_2194 : BitVec 32 := 0#32
  ![v597.toNat, 0, 0]

def k0_chk55 (v597 : BitVec 32) : Prop :=
  (∀ a, (k0_off164 v597) a + S1x1x1024.size a ≤ S50257x1x1024.size a) ∧
  (∀ a, (k0_off165 v597) a + S1x1x128.size a ≤ S50257x1x128.size a) ∧
  (∀ a, (k0_off439 v597) a + S1x1x1024.size a ≤ S50257x1x1024.size a) ∧
  (∀ a, (k0_off566 v597) a + S1x1x128.size a ≤ S50257x1x128.size a)
instance k0_chk55.dec : ∀ (v597 : BitVec 32), Decidable (k0_chk55 v597) := fun v597 => decidable_of_iff' _ (Iff.of_eq (k0_chk55.eq_1 v597))
theorem k0_off164_inb : ∀ (v597 : BitVec 32) (k0_hw55 : k0_chk55 v597), ∀ a, (k0_off164 v597) a + S1x1x1024.size a ≤ S50257x1x1024.size a := fun v597 k0_hw55 => k0_hw55.1
theorem k0_off165_inb : ∀ (v597 : BitVec 32) (k0_hw55 : k0_chk55 v597), ∀ a, (k0_off165 v597) a + S1x1x128.size a ≤ S50257x1x128.size a := fun v597 k0_hw55 => k0_hw55.2.1
theorem k0_off439_inb : ∀ (v597 : BitVec 32) (k0_hw55 : k0_chk55 v597), ∀ a, (k0_off439 v597) a + S1x1x1024.size a ≤ S50257x1x1024.size a := fun v597 k0_hw55 => k0_hw55.2.2.1
theorem k0_off566_inb : ∀ (v597 : BitVec 32) (k0_hw55 : k0_chk55 v597), ∀ a, (k0_off566 v597) a + S1x1x128.size a ≤ S50257x1x128.size a := fun v597 k0_hw55 => k0_hw55.2.2.2

def k0_off567 (v608 : BitVec 32) : Fin 3 → Nat :=
  let c0_i32_2198 : BitVec 32 := 0#32
  let c0_i32_2199 : BitVec 32 := 0#32
  ![v608.toNat, 0, 0]

def k0_chk56 (v608 : BitVec 32) : Prop :=
  (∀ a, (k0_off167 v608) a + S1x1x1024.size a ≤ S50257x1x1024.size a) ∧
  (∀ a, (k0_off168 v608) a + S1x1x128.size a ≤ S50257x1x128.size a) ∧
  (∀ a, (k0_off440 v608) a + S1x1x1024.size a ≤ S50257x1x1024.size a) ∧
  (∀ a, (k0_off567 v608) a + S1x1x128.size a ≤ S50257x1x128.size a)
instance k0_chk56.dec : ∀ (v608 : BitVec 32), Decidable (k0_chk56 v608) := fun v608 => decidable_of_iff' _ (Iff.of_eq (k0_chk56.eq_1 v608))
theorem k0_off167_inb : ∀ (v608 : BitVec 32) (k0_hw56 : k0_chk56 v608), ∀ a, (k0_off167 v608) a + S1x1x1024.size a ≤ S50257x1x1024.size a := fun v608 k0_hw56 => k0_hw56.1
theorem k0_off168_inb : ∀ (v608 : BitVec 32) (k0_hw56 : k0_chk56 v608), ∀ a, (k0_off168 v608) a + S1x1x128.size a ≤ S50257x1x128.size a := fun v608 k0_hw56 => k0_hw56.2.1
theorem k0_off440_inb : ∀ (v608 : BitVec 32) (k0_hw56 : k0_chk56 v608), ∀ a, (k0_off440 v608) a + S1x1x1024.size a ≤ S50257x1x1024.size a := fun v608 k0_hw56 => k0_hw56.2.2.1
theorem k0_off567_inb : ∀ (v608 : BitVec 32) (k0_hw56 : k0_chk56 v608), ∀ a, (k0_off567 v608) a + S1x1x128.size a ≤ S50257x1x128.size a := fun v608 k0_hw56 => k0_hw56.2.2.2

def k0_off568 (v619 : BitVec 32) : Fin 3 → Nat :=
  let c0_i32_2203 : BitVec 32 := 0#32
  let c0_i32_2204 : BitVec 32 := 0#32
  ![v619.toNat, 0, 0]

def k0_chk57 (v619 : BitVec 32) : Prop :=
  (∀ a, (k0_off170 v619) a + S1x1x1024.size a ≤ S50257x1x1024.size a) ∧
  (∀ a, (k0_off171 v619) a + S1x1x128.size a ≤ S50257x1x128.size a) ∧
  (∀ a, (k0_off441 v619) a + S1x1x1024.size a ≤ S50257x1x1024.size a) ∧
  (∀ a, (k0_off568 v619) a + S1x1x128.size a ≤ S50257x1x128.size a)
instance k0_chk57.dec : ∀ (v619 : BitVec 32), Decidable (k0_chk57 v619) := fun v619 => decidable_of_iff' _ (Iff.of_eq (k0_chk57.eq_1 v619))
theorem k0_off170_inb : ∀ (v619 : BitVec 32) (k0_hw57 : k0_chk57 v619), ∀ a, (k0_off170 v619) a + S1x1x1024.size a ≤ S50257x1x1024.size a := fun v619 k0_hw57 => k0_hw57.1
theorem k0_off171_inb : ∀ (v619 : BitVec 32) (k0_hw57 : k0_chk57 v619), ∀ a, (k0_off171 v619) a + S1x1x128.size a ≤ S50257x1x128.size a := fun v619 k0_hw57 => k0_hw57.2.1
theorem k0_off441_inb : ∀ (v619 : BitVec 32) (k0_hw57 : k0_chk57 v619), ∀ a, (k0_off441 v619) a + S1x1x1024.size a ≤ S50257x1x1024.size a := fun v619 k0_hw57 => k0_hw57.2.2.1
theorem k0_off568_inb : ∀ (v619 : BitVec 32) (k0_hw57 : k0_chk57 v619), ∀ a, (k0_off568 v619) a + S1x1x128.size a ≤ S50257x1x128.size a := fun v619 k0_hw57 => k0_hw57.2.2.2

def k0_off569 (v630 : BitVec 32) : Fin 3 → Nat :=
  let c0_i32_2208 : BitVec 32 := 0#32
  let c0_i32_2209 : BitVec 32 := 0#32
  ![v630.toNat, 0, 0]

def k0_chk58 (v630 : BitVec 32) : Prop :=
  (∀ a, (k0_off173 v630) a + S1x1x1024.size a ≤ S50257x1x1024.size a) ∧
  (∀ a, (k0_off174 v630) a + S1x1x128.size a ≤ S50257x1x128.size a) ∧
  (∀ a, (k0_off442 v630) a + S1x1x1024.size a ≤ S50257x1x1024.size a) ∧
  (∀ a, (k0_off569 v630) a + S1x1x128.size a ≤ S50257x1x128.size a)
instance k0_chk58.dec : ∀ (v630 : BitVec 32), Decidable (k0_chk58 v630) := fun v630 => decidable_of_iff' _ (Iff.of_eq (k0_chk58.eq_1 v630))
theorem k0_off173_inb : ∀ (v630 : BitVec 32) (k0_hw58 : k0_chk58 v630), ∀ a, (k0_off173 v630) a + S1x1x1024.size a ≤ S50257x1x1024.size a := fun v630 k0_hw58 => k0_hw58.1
theorem k0_off174_inb : ∀ (v630 : BitVec 32) (k0_hw58 : k0_chk58 v630), ∀ a, (k0_off174 v630) a + S1x1x128.size a ≤ S50257x1x128.size a := fun v630 k0_hw58 => k0_hw58.2.1
theorem k0_off442_inb : ∀ (v630 : BitVec 32) (k0_hw58 : k0_chk58 v630), ∀ a, (k0_off442 v630) a + S1x1x1024.size a ≤ S50257x1x1024.size a := fun v630 k0_hw58 => k0_hw58.2.2.1
theorem k0_off569_inb : ∀ (v630 : BitVec 32) (k0_hw58 : k0_chk58 v630), ∀ a, (k0_off569 v630) a + S1x1x128.size a ≤ S50257x1x128.size a := fun v630 k0_hw58 => k0_hw58.2.2.2

def k0_off570 (v641 : BitVec 32) : Fin 3 → Nat :=
  let c0_i32_2213 : BitVec 32 := 0#32
  let c0_i32_2214 : BitVec 32 := 0#32
  ![v641.toNat, 0, 0]

def k0_chk59 (v641 : BitVec 32) : Prop :=
  (∀ a, (k0_off176 v641) a + S1x1x1024.size a ≤ S50257x1x1024.size a) ∧
  (∀ a, (k0_off177 v641) a + S1x1x128.size a ≤ S50257x1x128.size a) ∧
  (∀ a, (k0_off443 v641) a + S1x1x1024.size a ≤ S50257x1x1024.size a) ∧
  (∀ a, (k0_off570 v641) a + S1x1x128.size a ≤ S50257x1x128.size a)
instance k0_chk59.dec : ∀ (v641 : BitVec 32), Decidable (k0_chk59 v641) := fun v641 => decidable_of_iff' _ (Iff.of_eq (k0_chk59.eq_1 v641))
theorem k0_off176_inb : ∀ (v641 : BitVec 32) (k0_hw59 : k0_chk59 v641), ∀ a, (k0_off176 v641) a + S1x1x1024.size a ≤ S50257x1x1024.size a := fun v641 k0_hw59 => k0_hw59.1
theorem k0_off177_inb : ∀ (v641 : BitVec 32) (k0_hw59 : k0_chk59 v641), ∀ a, (k0_off177 v641) a + S1x1x128.size a ≤ S50257x1x128.size a := fun v641 k0_hw59 => k0_hw59.2.1
theorem k0_off443_inb : ∀ (v641 : BitVec 32) (k0_hw59 : k0_chk59 v641), ∀ a, (k0_off443 v641) a + S1x1x1024.size a ≤ S50257x1x1024.size a := fun v641 k0_hw59 => k0_hw59.2.2.1
theorem k0_off570_inb : ∀ (v641 : BitVec 32) (k0_hw59 : k0_chk59 v641), ∀ a, (k0_off570 v641) a + S1x1x128.size a ≤ S50257x1x128.size a := fun v641 k0_hw59 => k0_hw59.2.2.2

def k0_off571 (v652 : BitVec 32) : Fin 3 → Nat :=
  let c0_i32_2218 : BitVec 32 := 0#32
  let c0_i32_2219 : BitVec 32 := 0#32
  ![v652.toNat, 0, 0]

def k0_chk60 (v652 : BitVec 32) : Prop :=
  (∀ a, (k0_off179 v652) a + S1x1x1024.size a ≤ S50257x1x1024.size a) ∧
  (∀ a, (k0_off180 v652) a + S1x1x128.size a ≤ S50257x1x128.size a) ∧
  (∀ a, (k0_off444 v652) a + S1x1x1024.size a ≤ S50257x1x1024.size a) ∧
  (∀ a, (k0_off571 v652) a + S1x1x128.size a ≤ S50257x1x128.size a)
instance k0_chk60.dec : ∀ (v652 : BitVec 32), Decidable (k0_chk60 v652) := fun v652 => decidable_of_iff' _ (Iff.of_eq (k0_chk60.eq_1 v652))
theorem k0_off179_inb : ∀ (v652 : BitVec 32) (k0_hw60 : k0_chk60 v652), ∀ a, (k0_off179 v652) a + S1x1x1024.size a ≤ S50257x1x1024.size a := fun v652 k0_hw60 => k0_hw60.1
theorem k0_off180_inb : ∀ (v652 : BitVec 32) (k0_hw60 : k0_chk60 v652), ∀ a, (k0_off180 v652) a + S1x1x128.size a ≤ S50257x1x128.size a := fun v652 k0_hw60 => k0_hw60.2.1
theorem k0_off444_inb : ∀ (v652 : BitVec 32) (k0_hw60 : k0_chk60 v652), ∀ a, (k0_off444 v652) a + S1x1x1024.size a ≤ S50257x1x1024.size a := fun v652 k0_hw60 => k0_hw60.2.2.1
theorem k0_off571_inb : ∀ (v652 : BitVec 32) (k0_hw60 : k0_chk60 v652), ∀ a, (k0_off571 v652) a + S1x1x128.size a ≤ S50257x1x128.size a := fun v652 k0_hw60 => k0_hw60.2.2.2

def k0_off572 (v663 : BitVec 32) : Fin 3 → Nat :=
  let c0_i32_2223 : BitVec 32 := 0#32
  let c0_i32_2224 : BitVec 32 := 0#32
  ![v663.toNat, 0, 0]

def k0_chk61 (v663 : BitVec 32) : Prop :=
  (∀ a, (k0_off182 v663) a + S1x1x1024.size a ≤ S50257x1x1024.size a) ∧
  (∀ a, (k0_off183 v663) a + S1x1x128.size a ≤ S50257x1x128.size a) ∧
  (∀ a, (k0_off445 v663) a + S1x1x1024.size a ≤ S50257x1x1024.size a) ∧
  (∀ a, (k0_off572 v663) a + S1x1x128.size a ≤ S50257x1x128.size a)
instance k0_chk61.dec : ∀ (v663 : BitVec 32), Decidable (k0_chk61 v663) := fun v663 => decidable_of_iff' _ (Iff.of_eq (k0_chk61.eq_1 v663))
theorem k0_off182_inb : ∀ (v663 : BitVec 32) (k0_hw61 : k0_chk61 v663), ∀ a, (k0_off182 v663) a + S1x1x1024.size a ≤ S50257x1x1024.size a := fun v663 k0_hw61 => k0_hw61.1
theorem k0_off183_inb : ∀ (v663 : BitVec 32) (k0_hw61 : k0_chk61 v663), ∀ a, (k0_off183 v663) a + S1x1x128.size a ≤ S50257x1x128.size a := fun v663 k0_hw61 => k0_hw61.2.1
theorem k0_off445_inb : ∀ (v663 : BitVec 32) (k0_hw61 : k0_chk61 v663), ∀ a, (k0_off445 v663) a + S1x1x1024.size a ≤ S50257x1x1024.size a := fun v663 k0_hw61 => k0_hw61.2.2.1
theorem k0_off572_inb : ∀ (v663 : BitVec 32) (k0_hw61 : k0_chk61 v663), ∀ a, (k0_off572 v663) a + S1x1x128.size a ≤ S50257x1x128.size a := fun v663 k0_hw61 => k0_hw61.2.2.2

def k0_off573 (v674 : BitVec 32) : Fin 3 → Nat :=
  let c0_i32_2228 : BitVec 32 := 0#32
  let c0_i32_2229 : BitVec 32 := 0#32
  ![v674.toNat, 0, 0]

def k0_chk62 (v674 : BitVec 32) : Prop :=
  (∀ a, (k0_off185 v674) a + S1x1x1024.size a ≤ S50257x1x1024.size a) ∧
  (∀ a, (k0_off186 v674) a + S1x1x128.size a ≤ S50257x1x128.size a) ∧
  (∀ a, (k0_off446 v674) a + S1x1x1024.size a ≤ S50257x1x1024.size a) ∧
  (∀ a, (k0_off573 v674) a + S1x1x128.size a ≤ S50257x1x128.size a)
instance k0_chk62.dec : ∀ (v674 : BitVec 32), Decidable (k0_chk62 v674) := fun v674 => decidable_of_iff' _ (Iff.of_eq (k0_chk62.eq_1 v674))
theorem k0_off185_inb : ∀ (v674 : BitVec 32) (k0_hw62 : k0_chk62 v674), ∀ a, (k0_off185 v674) a + S1x1x1024.size a ≤ S50257x1x1024.size a := fun v674 k0_hw62 => k0_hw62.1
theorem k0_off186_inb : ∀ (v674 : BitVec 32) (k0_hw62 : k0_chk62 v674), ∀ a, (k0_off186 v674) a + S1x1x128.size a ≤ S50257x1x128.size a := fun v674 k0_hw62 => k0_hw62.2.1
theorem k0_off446_inb : ∀ (v674 : BitVec 32) (k0_hw62 : k0_chk62 v674), ∀ a, (k0_off446 v674) a + S1x1x1024.size a ≤ S50257x1x1024.size a := fun v674 k0_hw62 => k0_hw62.2.2.1
theorem k0_off573_inb : ∀ (v674 : BitVec 32) (k0_hw62 : k0_chk62 v674), ∀ a, (k0_off573 v674) a + S1x1x128.size a ≤ S50257x1x128.size a := fun v674 k0_hw62 => k0_hw62.2.2.2

def k0_off574 (v685 : BitVec 32) : Fin 3 → Nat :=
  let c0_i32_2233 : BitVec 32 := 0#32
  let c0_i32_2234 : BitVec 32 := 0#32
  ![v685.toNat, 0, 0]

def k0_chk63 (v685 : BitVec 32) : Prop :=
  (∀ a, (k0_off188 v685) a + S1x1x1024.size a ≤ S50257x1x1024.size a) ∧
  (∀ a, (k0_off189 v685) a + S1x1x128.size a ≤ S50257x1x128.size a) ∧
  (∀ a, (k0_off447 v685) a + S1x1x1024.size a ≤ S50257x1x1024.size a) ∧
  (∀ a, (k0_off574 v685) a + S1x1x128.size a ≤ S50257x1x128.size a)
instance k0_chk63.dec : ∀ (v685 : BitVec 32), Decidable (k0_chk63 v685) := fun v685 => decidable_of_iff' _ (Iff.of_eq (k0_chk63.eq_1 v685))
theorem k0_off188_inb : ∀ (v685 : BitVec 32) (k0_hw63 : k0_chk63 v685), ∀ a, (k0_off188 v685) a + S1x1x1024.size a ≤ S50257x1x1024.size a := fun v685 k0_hw63 => k0_hw63.1
theorem k0_off189_inb : ∀ (v685 : BitVec 32) (k0_hw63 : k0_chk63 v685), ∀ a, (k0_off189 v685) a + S1x1x128.size a ≤ S50257x1x128.size a := fun v685 k0_hw63 => k0_hw63.2.1
theorem k0_off447_inb : ∀ (v685 : BitVec 32) (k0_hw63 : k0_chk63 v685), ∀ a, (k0_off447 v685) a + S1x1x1024.size a ≤ S50257x1x1024.size a := fun v685 k0_hw63 => k0_hw63.2.2.1
theorem k0_off574_inb : ∀ (v685 : BitVec 32) (k0_hw63 : k0_chk63 v685), ∀ a, (k0_off574 v685) a + S1x1x128.size a ≤ S50257x1x128.size a := fun v685 k0_hw63 => k0_hw63.2.2.2

def k0_off575 (v696 : BitVec 32) : Fin 3 → Nat :=
  let c0_i32_2238 : BitVec 32 := 0#32
  let c0_i32_2239 : BitVec 32 := 0#32
  ![v696.toNat, 0, 0]

def k0_chk64 (v696 : BitVec 32) : Prop :=
  (∀ a, (k0_off191 v696) a + S1x1x1024.size a ≤ S50257x1x1024.size a) ∧
  (∀ a, (k0_off192 v696) a + S1x1x128.size a ≤ S50257x1x128.size a) ∧
  (∀ a, (k0_off448 v696) a + S1x1x1024.size a ≤ S50257x1x1024.size a) ∧
  (∀ a, (k0_off575 v696) a + S1x1x128.size a ≤ S50257x1x128.size a)
instance k0_chk64.dec : ∀ (v696 : BitVec 32), Decidable (k0_chk64 v696) := fun v696 => decidable_of_iff' _ (Iff.of_eq (k0_chk64.eq_1 v696))
theorem k0_off191_inb : ∀ (v696 : BitVec 32) (k0_hw64 : k0_chk64 v696), ∀ a, (k0_off191 v696) a + S1x1x1024.size a ≤ S50257x1x1024.size a := fun v696 k0_hw64 => k0_hw64.1
theorem k0_off192_inb : ∀ (v696 : BitVec 32) (k0_hw64 : k0_chk64 v696), ∀ a, (k0_off192 v696) a + S1x1x128.size a ≤ S50257x1x128.size a := fun v696 k0_hw64 => k0_hw64.2.1
theorem k0_off448_inb : ∀ (v696 : BitVec 32) (k0_hw64 : k0_chk64 v696), ∀ a, (k0_off448 v696) a + S1x1x1024.size a ≤ S50257x1x1024.size a := fun v696 k0_hw64 => k0_hw64.2.2.1
theorem k0_off575_inb : ∀ (v696 : BitVec 32) (k0_hw64 : k0_chk64 v696), ∀ a, (k0_off575 v696) a + S1x1x128.size a ≤ S50257x1x128.size a := fun v696 k0_hw64 => k0_hw64.2.2.2

def k0_off576 (v707 : BitVec 32) : Fin 3 → Nat :=
  let c0_i32_2243 : BitVec 32 := 0#32
  let c0_i32_2244 : BitVec 32 := 0#32
  ![v707.toNat, 0, 0]

def k0_chk65 (v707 : BitVec 32) : Prop :=
  (∀ a, (k0_off194 v707) a + S1x1x1024.size a ≤ S50257x1x1024.size a) ∧
  (∀ a, (k0_off195 v707) a + S1x1x128.size a ≤ S50257x1x128.size a) ∧
  (∀ a, (k0_off449 v707) a + S1x1x1024.size a ≤ S50257x1x1024.size a) ∧
  (∀ a, (k0_off576 v707) a + S1x1x128.size a ≤ S50257x1x128.size a)
instance k0_chk65.dec : ∀ (v707 : BitVec 32), Decidable (k0_chk65 v707) := fun v707 => decidable_of_iff' _ (Iff.of_eq (k0_chk65.eq_1 v707))
theorem k0_off194_inb : ∀ (v707 : BitVec 32) (k0_hw65 : k0_chk65 v707), ∀ a, (k0_off194 v707) a + S1x1x1024.size a ≤ S50257x1x1024.size a := fun v707 k0_hw65 => k0_hw65.1
theorem k0_off195_inb : ∀ (v707 : BitVec 32) (k0_hw65 : k0_chk65 v707), ∀ a, (k0_off195 v707) a + S1x1x128.size a ≤ S50257x1x128.size a := fun v707 k0_hw65 => k0_hw65.2.1
theorem k0_off449_inb : ∀ (v707 : BitVec 32) (k0_hw65 : k0_chk65 v707), ∀ a, (k0_off449 v707) a + S1x1x1024.size a ≤ S50257x1x1024.size a := fun v707 k0_hw65 => k0_hw65.2.2.1
theorem k0_off576_inb : ∀ (v707 : BitVec 32) (k0_hw65 : k0_chk65 v707), ∀ a, (k0_off576 v707) a + S1x1x128.size a ≤ S50257x1x128.size a := fun v707 k0_hw65 => k0_hw65.2.2.2

def k0_off577 (v718 : BitVec 32) : Fin 3 → Nat :=
  let c0_i32_2248 : BitVec 32 := 0#32
  let c0_i32_2249 : BitVec 32 := 0#32
  ![v718.toNat, 0, 0]

def k0_chk66 (v718 : BitVec 32) : Prop :=
  (∀ a, (k0_off197 v718) a + S1x1x1024.size a ≤ S50257x1x1024.size a) ∧
  (∀ a, (k0_off198 v718) a + S1x1x128.size a ≤ S50257x1x128.size a) ∧
  (∀ a, (k0_off450 v718) a + S1x1x1024.size a ≤ S50257x1x1024.size a) ∧
  (∀ a, (k0_off577 v718) a + S1x1x128.size a ≤ S50257x1x128.size a)
instance k0_chk66.dec : ∀ (v718 : BitVec 32), Decidable (k0_chk66 v718) := fun v718 => decidable_of_iff' _ (Iff.of_eq (k0_chk66.eq_1 v718))
theorem k0_off197_inb : ∀ (v718 : BitVec 32) (k0_hw66 : k0_chk66 v718), ∀ a, (k0_off197 v718) a + S1x1x1024.size a ≤ S50257x1x1024.size a := fun v718 k0_hw66 => k0_hw66.1
theorem k0_off198_inb : ∀ (v718 : BitVec 32) (k0_hw66 : k0_chk66 v718), ∀ a, (k0_off198 v718) a + S1x1x128.size a ≤ S50257x1x128.size a := fun v718 k0_hw66 => k0_hw66.2.1
theorem k0_off450_inb : ∀ (v718 : BitVec 32) (k0_hw66 : k0_chk66 v718), ∀ a, (k0_off450 v718) a + S1x1x1024.size a ≤ S50257x1x1024.size a := fun v718 k0_hw66 => k0_hw66.2.2.1
theorem k0_off577_inb : ∀ (v718 : BitVec 32) (k0_hw66 : k0_chk66 v718), ∀ a, (k0_off577 v718) a + S1x1x128.size a ≤ S50257x1x128.size a := fun v718 k0_hw66 => k0_hw66.2.2.2

def k0_off578 (v729 : BitVec 32) : Fin 3 → Nat :=
  let c0_i32_2253 : BitVec 32 := 0#32
  let c0_i32_2254 : BitVec 32 := 0#32
  ![v729.toNat, 0, 0]

def k0_chk67 (v729 : BitVec 32) : Prop :=
  (∀ a, (k0_off200 v729) a + S1x1x1024.size a ≤ S50257x1x1024.size a) ∧
  (∀ a, (k0_off201 v729) a + S1x1x128.size a ≤ S50257x1x128.size a) ∧
  (∀ a, (k0_off451 v729) a + S1x1x1024.size a ≤ S50257x1x1024.size a) ∧
  (∀ a, (k0_off578 v729) a + S1x1x128.size a ≤ S50257x1x128.size a)
instance k0_chk67.dec : ∀ (v729 : BitVec 32), Decidable (k0_chk67 v729) := fun v729 => decidable_of_iff' _ (Iff.of_eq (k0_chk67.eq_1 v729))
theorem k0_off200_inb : ∀ (v729 : BitVec 32) (k0_hw67 : k0_chk67 v729), ∀ a, (k0_off200 v729) a + S1x1x1024.size a ≤ S50257x1x1024.size a := fun v729 k0_hw67 => k0_hw67.1
theorem k0_off201_inb : ∀ (v729 : BitVec 32) (k0_hw67 : k0_chk67 v729), ∀ a, (k0_off201 v729) a + S1x1x128.size a ≤ S50257x1x128.size a := fun v729 k0_hw67 => k0_hw67.2.1
theorem k0_off451_inb : ∀ (v729 : BitVec 32) (k0_hw67 : k0_chk67 v729), ∀ a, (k0_off451 v729) a + S1x1x1024.size a ≤ S50257x1x1024.size a := fun v729 k0_hw67 => k0_hw67.2.2.1
theorem k0_off578_inb : ∀ (v729 : BitVec 32) (k0_hw67 : k0_chk67 v729), ∀ a, (k0_off578 v729) a + S1x1x128.size a ≤ S50257x1x128.size a := fun v729 k0_hw67 => k0_hw67.2.2.2

def k0_off579 (v740 : BitVec 32) : Fin 3 → Nat :=
  let c0_i32_2258 : BitVec 32 := 0#32
  let c0_i32_2259 : BitVec 32 := 0#32
  ![v740.toNat, 0, 0]

def k0_chk68 (v740 : BitVec 32) : Prop :=
  (∀ a, (k0_off203 v740) a + S1x1x1024.size a ≤ S50257x1x1024.size a) ∧
  (∀ a, (k0_off204 v740) a + S1x1x128.size a ≤ S50257x1x128.size a) ∧
  (∀ a, (k0_off452 v740) a + S1x1x1024.size a ≤ S50257x1x1024.size a) ∧
  (∀ a, (k0_off579 v740) a + S1x1x128.size a ≤ S50257x1x128.size a)
instance k0_chk68.dec : ∀ (v740 : BitVec 32), Decidable (k0_chk68 v740) := fun v740 => decidable_of_iff' _ (Iff.of_eq (k0_chk68.eq_1 v740))
theorem k0_off203_inb : ∀ (v740 : BitVec 32) (k0_hw68 : k0_chk68 v740), ∀ a, (k0_off203 v740) a + S1x1x1024.size a ≤ S50257x1x1024.size a := fun v740 k0_hw68 => k0_hw68.1
theorem k0_off204_inb : ∀ (v740 : BitVec 32) (k0_hw68 : k0_chk68 v740), ∀ a, (k0_off204 v740) a + S1x1x128.size a ≤ S50257x1x128.size a := fun v740 k0_hw68 => k0_hw68.2.1
theorem k0_off452_inb : ∀ (v740 : BitVec 32) (k0_hw68 : k0_chk68 v740), ∀ a, (k0_off452 v740) a + S1x1x1024.size a ≤ S50257x1x1024.size a := fun v740 k0_hw68 => k0_hw68.2.2.1
theorem k0_off579_inb : ∀ (v740 : BitVec 32) (k0_hw68 : k0_chk68 v740), ∀ a, (k0_off579 v740) a + S1x1x128.size a ≤ S50257x1x128.size a := fun v740 k0_hw68 => k0_hw68.2.2.2

def k0_off580 (v751 : BitVec 32) : Fin 3 → Nat :=
  let c0_i32_2263 : BitVec 32 := 0#32
  let c0_i32_2264 : BitVec 32 := 0#32
  ![v751.toNat, 0, 0]

def k0_chk69 (v751 : BitVec 32) : Prop :=
  (∀ a, (k0_off206 v751) a + S1x1x1024.size a ≤ S50257x1x1024.size a) ∧
  (∀ a, (k0_off207 v751) a + S1x1x128.size a ≤ S50257x1x128.size a) ∧
  (∀ a, (k0_off453 v751) a + S1x1x1024.size a ≤ S50257x1x1024.size a) ∧
  (∀ a, (k0_off580 v751) a + S1x1x128.size a ≤ S50257x1x128.size a)
instance k0_chk69.dec : ∀ (v751 : BitVec 32), Decidable (k0_chk69 v751) := fun v751 => decidable_of_iff' _ (Iff.of_eq (k0_chk69.eq_1 v751))
theorem k0_off206_inb : ∀ (v751 : BitVec 32) (k0_hw69 : k0_chk69 v751), ∀ a, (k0_off206 v751) a + S1x1x1024.size a ≤ S50257x1x1024.size a := fun v751 k0_hw69 => k0_hw69.1
theorem k0_off207_inb : ∀ (v751 : BitVec 32) (k0_hw69 : k0_chk69 v751), ∀ a, (k0_off207 v751) a + S1x1x128.size a ≤ S50257x1x128.size a := fun v751 k0_hw69 => k0_hw69.2.1
theorem k0_off453_inb : ∀ (v751 : BitVec 32) (k0_hw69 : k0_chk69 v751), ∀ a, (k0_off453 v751) a + S1x1x1024.size a ≤ S50257x1x1024.size a := fun v751 k0_hw69 => k0_hw69.2.2.1
theorem k0_off580_inb : ∀ (v751 : BitVec 32) (k0_hw69 : k0_chk69 v751), ∀ a, (k0_off580 v751) a + S1x1x128.size a ≤ S50257x1x128.size a := fun v751 k0_hw69 => k0_hw69.2.2.2

def k0_off581 (v762 : BitVec 32) : Fin 3 → Nat :=
  let c0_i32_2268 : BitVec 32 := 0#32
  let c0_i32_2269 : BitVec 32 := 0#32
  ![v762.toNat, 0, 0]

def k0_chk70 (v762 : BitVec 32) : Prop :=
  (∀ a, (k0_off209 v762) a + S1x1x1024.size a ≤ S50257x1x1024.size a) ∧
  (∀ a, (k0_off210 v762) a + S1x1x128.size a ≤ S50257x1x128.size a) ∧
  (∀ a, (k0_off454 v762) a + S1x1x1024.size a ≤ S50257x1x1024.size a) ∧
  (∀ a, (k0_off581 v762) a + S1x1x128.size a ≤ S50257x1x128.size a)
instance k0_chk70.dec : ∀ (v762 : BitVec 32), Decidable (k0_chk70 v762) := fun v762 => decidable_of_iff' _ (Iff.of_eq (k0_chk70.eq_1 v762))
theorem k0_off209_inb : ∀ (v762 : BitVec 32) (k0_hw70 : k0_chk70 v762), ∀ a, (k0_off209 v762) a + S1x1x1024.size a ≤ S50257x1x1024.size a := fun v762 k0_hw70 => k0_hw70.1
theorem k0_off210_inb : ∀ (v762 : BitVec 32) (k0_hw70 : k0_chk70 v762), ∀ a, (k0_off210 v762) a + S1x1x128.size a ≤ S50257x1x128.size a := fun v762 k0_hw70 => k0_hw70.2.1
theorem k0_off454_inb : ∀ (v762 : BitVec 32) (k0_hw70 : k0_chk70 v762), ∀ a, (k0_off454 v762) a + S1x1x1024.size a ≤ S50257x1x1024.size a := fun v762 k0_hw70 => k0_hw70.2.2.1
theorem k0_off581_inb : ∀ (v762 : BitVec 32) (k0_hw70 : k0_chk70 v762), ∀ a, (k0_off581 v762) a + S1x1x128.size a ≤ S50257x1x128.size a := fun v762 k0_hw70 => k0_hw70.2.2.2

def k0_off582 (v773 : BitVec 32) : Fin 3 → Nat :=
  let c0_i32_2273 : BitVec 32 := 0#32
  let c0_i32_2274 : BitVec 32 := 0#32
  ![v773.toNat, 0, 0]

def k0_chk71 (v773 : BitVec 32) : Prop :=
  (∀ a, (k0_off212 v773) a + S1x1x1024.size a ≤ S50257x1x1024.size a) ∧
  (∀ a, (k0_off213 v773) a + S1x1x128.size a ≤ S50257x1x128.size a) ∧
  (∀ a, (k0_off455 v773) a + S1x1x1024.size a ≤ S50257x1x1024.size a) ∧
  (∀ a, (k0_off582 v773) a + S1x1x128.size a ≤ S50257x1x128.size a)
instance k0_chk71.dec : ∀ (v773 : BitVec 32), Decidable (k0_chk71 v773) := fun v773 => decidable_of_iff' _ (Iff.of_eq (k0_chk71.eq_1 v773))
theorem k0_off212_inb : ∀ (v773 : BitVec 32) (k0_hw71 : k0_chk71 v773), ∀ a, (k0_off212 v773) a + S1x1x1024.size a ≤ S50257x1x1024.size a := fun v773 k0_hw71 => k0_hw71.1
theorem k0_off213_inb : ∀ (v773 : BitVec 32) (k0_hw71 : k0_chk71 v773), ∀ a, (k0_off213 v773) a + S1x1x128.size a ≤ S50257x1x128.size a := fun v773 k0_hw71 => k0_hw71.2.1
theorem k0_off455_inb : ∀ (v773 : BitVec 32) (k0_hw71 : k0_chk71 v773), ∀ a, (k0_off455 v773) a + S1x1x1024.size a ≤ S50257x1x1024.size a := fun v773 k0_hw71 => k0_hw71.2.2.1
theorem k0_off582_inb : ∀ (v773 : BitVec 32) (k0_hw71 : k0_chk71 v773), ∀ a, (k0_off582 v773) a + S1x1x128.size a ≤ S50257x1x128.size a := fun v773 k0_hw71 => k0_hw71.2.2.2

def k0_off583 (v784 : BitVec 32) : Fin 3 → Nat :=
  let c0_i32_2278 : BitVec 32 := 0#32
  let c0_i32_2279 : BitVec 32 := 0#32
  ![v784.toNat, 0, 0]

def k0_chk72 (v784 : BitVec 32) : Prop :=
  (∀ a, (k0_off215 v784) a + S1x1x1024.size a ≤ S50257x1x1024.size a) ∧
  (∀ a, (k0_off216 v784) a + S1x1x128.size a ≤ S50257x1x128.size a) ∧
  (∀ a, (k0_off456 v784) a + S1x1x1024.size a ≤ S50257x1x1024.size a) ∧
  (∀ a, (k0_off583 v784) a + S1x1x128.size a ≤ S50257x1x128.size a)
instance k0_chk72.dec : ∀ (v784 : BitVec 32), Decidable (k0_chk72 v784) := fun v784 => decidable_of_iff' _ (Iff.of_eq (k0_chk72.eq_1 v784))
theorem k0_off215_inb : ∀ (v784 : BitVec 32) (k0_hw72 : k0_chk72 v784), ∀ a, (k0_off215 v784) a + S1x1x1024.size a ≤ S50257x1x1024.size a := fun v784 k0_hw72 => k0_hw72.1
theorem k0_off216_inb : ∀ (v784 : BitVec 32) (k0_hw72 : k0_chk72 v784), ∀ a, (k0_off216 v784) a + S1x1x128.size a ≤ S50257x1x128.size a := fun v784 k0_hw72 => k0_hw72.2.1
theorem k0_off456_inb : ∀ (v784 : BitVec 32) (k0_hw72 : k0_chk72 v784), ∀ a, (k0_off456 v784) a + S1x1x1024.size a ≤ S50257x1x1024.size a := fun v784 k0_hw72 => k0_hw72.2.2.1
theorem k0_off583_inb : ∀ (v784 : BitVec 32) (k0_hw72 : k0_chk72 v784), ∀ a, (k0_off583 v784) a + S1x1x128.size a ≤ S50257x1x128.size a := fun v784 k0_hw72 => k0_hw72.2.2.2

def k0_off584 (v795 : BitVec 32) : Fin 3 → Nat :=
  let c0_i32_2283 : BitVec 32 := 0#32
  let c0_i32_2284 : BitVec 32 := 0#32
  ![v795.toNat, 0, 0]

def k0_chk73 (v795 : BitVec 32) : Prop :=
  (∀ a, (k0_off218 v795) a + S1x1x1024.size a ≤ S50257x1x1024.size a) ∧
  (∀ a, (k0_off219 v795) a + S1x1x128.size a ≤ S50257x1x128.size a) ∧
  (∀ a, (k0_off457 v795) a + S1x1x1024.size a ≤ S50257x1x1024.size a) ∧
  (∀ a, (k0_off584 v795) a + S1x1x128.size a ≤ S50257x1x128.size a)
instance k0_chk73.dec : ∀ (v795 : BitVec 32), Decidable (k0_chk73 v795) := fun v795 => decidable_of_iff' _ (Iff.of_eq (k0_chk73.eq_1 v795))
theorem k0_off218_inb : ∀ (v795 : BitVec 32) (k0_hw73 : k0_chk73 v795), ∀ a, (k0_off218 v795) a + S1x1x1024.size a ≤ S50257x1x1024.size a := fun v795 k0_hw73 => k0_hw73.1
theorem k0_off219_inb : ∀ (v795 : BitVec 32) (k0_hw73 : k0_chk73 v795), ∀ a, (k0_off219 v795) a + S1x1x128.size a ≤ S50257x1x128.size a := fun v795 k0_hw73 => k0_hw73.2.1
theorem k0_off457_inb : ∀ (v795 : BitVec 32) (k0_hw73 : k0_chk73 v795), ∀ a, (k0_off457 v795) a + S1x1x1024.size a ≤ S50257x1x1024.size a := fun v795 k0_hw73 => k0_hw73.2.2.1
theorem k0_off584_inb : ∀ (v795 : BitVec 32) (k0_hw73 : k0_chk73 v795), ∀ a, (k0_off584 v795) a + S1x1x128.size a ≤ S50257x1x128.size a := fun v795 k0_hw73 => k0_hw73.2.2.2

def k0_off585 (v806 : BitVec 32) : Fin 3 → Nat :=
  let c0_i32_2288 : BitVec 32 := 0#32
  let c0_i32_2289 : BitVec 32 := 0#32
  ![v806.toNat, 0, 0]

def k0_chk74 (v806 : BitVec 32) : Prop :=
  (∀ a, (k0_off221 v806) a + S1x1x1024.size a ≤ S50257x1x1024.size a) ∧
  (∀ a, (k0_off222 v806) a + S1x1x128.size a ≤ S50257x1x128.size a) ∧
  (∀ a, (k0_off458 v806) a + S1x1x1024.size a ≤ S50257x1x1024.size a) ∧
  (∀ a, (k0_off585 v806) a + S1x1x128.size a ≤ S50257x1x128.size a)
instance k0_chk74.dec : ∀ (v806 : BitVec 32), Decidable (k0_chk74 v806) := fun v806 => decidable_of_iff' _ (Iff.of_eq (k0_chk74.eq_1 v806))
theorem k0_off221_inb : ∀ (v806 : BitVec 32) (k0_hw74 : k0_chk74 v806), ∀ a, (k0_off221 v806) a + S1x1x1024.size a ≤ S50257x1x1024.size a := fun v806 k0_hw74 => k0_hw74.1
theorem k0_off222_inb : ∀ (v806 : BitVec 32) (k0_hw74 : k0_chk74 v806), ∀ a, (k0_off222 v806) a + S1x1x128.size a ≤ S50257x1x128.size a := fun v806 k0_hw74 => k0_hw74.2.1
theorem k0_off458_inb : ∀ (v806 : BitVec 32) (k0_hw74 : k0_chk74 v806), ∀ a, (k0_off458 v806) a + S1x1x1024.size a ≤ S50257x1x1024.size a := fun v806 k0_hw74 => k0_hw74.2.2.1
theorem k0_off585_inb : ∀ (v806 : BitVec 32) (k0_hw74 : k0_chk74 v806), ∀ a, (k0_off585 v806) a + S1x1x128.size a ≤ S50257x1x128.size a := fun v806 k0_hw74 => k0_hw74.2.2.2

def k0_off586 (v817 : BitVec 32) : Fin 3 → Nat :=
  let c0_i32_2293 : BitVec 32 := 0#32
  let c0_i32_2294 : BitVec 32 := 0#32
  ![v817.toNat, 0, 0]

def k0_chk75 (v817 : BitVec 32) : Prop :=
  (∀ a, (k0_off224 v817) a + S1x1x1024.size a ≤ S50257x1x1024.size a) ∧
  (∀ a, (k0_off225 v817) a + S1x1x128.size a ≤ S50257x1x128.size a) ∧
  (∀ a, (k0_off459 v817) a + S1x1x1024.size a ≤ S50257x1x1024.size a) ∧
  (∀ a, (k0_off586 v817) a + S1x1x128.size a ≤ S50257x1x128.size a)
instance k0_chk75.dec : ∀ (v817 : BitVec 32), Decidable (k0_chk75 v817) := fun v817 => decidable_of_iff' _ (Iff.of_eq (k0_chk75.eq_1 v817))
theorem k0_off224_inb : ∀ (v817 : BitVec 32) (k0_hw75 : k0_chk75 v817), ∀ a, (k0_off224 v817) a + S1x1x1024.size a ≤ S50257x1x1024.size a := fun v817 k0_hw75 => k0_hw75.1
theorem k0_off225_inb : ∀ (v817 : BitVec 32) (k0_hw75 : k0_chk75 v817), ∀ a, (k0_off225 v817) a + S1x1x128.size a ≤ S50257x1x128.size a := fun v817 k0_hw75 => k0_hw75.2.1
theorem k0_off459_inb : ∀ (v817 : BitVec 32) (k0_hw75 : k0_chk75 v817), ∀ a, (k0_off459 v817) a + S1x1x1024.size a ≤ S50257x1x1024.size a := fun v817 k0_hw75 => k0_hw75.2.2.1
theorem k0_off586_inb : ∀ (v817 : BitVec 32) (k0_hw75 : k0_chk75 v817), ∀ a, (k0_off586 v817) a + S1x1x128.size a ≤ S50257x1x128.size a := fun v817 k0_hw75 => k0_hw75.2.2.2

def k0_off587 (v828 : BitVec 32) : Fin 3 → Nat :=
  let c0_i32_2298 : BitVec 32 := 0#32
  let c0_i32_2299 : BitVec 32 := 0#32
  ![v828.toNat, 0, 0]

def k0_chk76 (v828 : BitVec 32) : Prop :=
  (∀ a, (k0_off227 v828) a + S1x1x1024.size a ≤ S50257x1x1024.size a) ∧
  (∀ a, (k0_off228 v828) a + S1x1x128.size a ≤ S50257x1x128.size a) ∧
  (∀ a, (k0_off460 v828) a + S1x1x1024.size a ≤ S50257x1x1024.size a) ∧
  (∀ a, (k0_off587 v828) a + S1x1x128.size a ≤ S50257x1x128.size a)
instance k0_chk76.dec : ∀ (v828 : BitVec 32), Decidable (k0_chk76 v828) := fun v828 => decidable_of_iff' _ (Iff.of_eq (k0_chk76.eq_1 v828))
theorem k0_off227_inb : ∀ (v828 : BitVec 32) (k0_hw76 : k0_chk76 v828), ∀ a, (k0_off227 v828) a + S1x1x1024.size a ≤ S50257x1x1024.size a := fun v828 k0_hw76 => k0_hw76.1
theorem k0_off228_inb : ∀ (v828 : BitVec 32) (k0_hw76 : k0_chk76 v828), ∀ a, (k0_off228 v828) a + S1x1x128.size a ≤ S50257x1x128.size a := fun v828 k0_hw76 => k0_hw76.2.1
theorem k0_off460_inb : ∀ (v828 : BitVec 32) (k0_hw76 : k0_chk76 v828), ∀ a, (k0_off460 v828) a + S1x1x1024.size a ≤ S50257x1x1024.size a := fun v828 k0_hw76 => k0_hw76.2.2.1
theorem k0_off587_inb : ∀ (v828 : BitVec 32) (k0_hw76 : k0_chk76 v828), ∀ a, (k0_off587 v828) a + S1x1x128.size a ≤ S50257x1x128.size a := fun v828 k0_hw76 => k0_hw76.2.2.2

def k0_off588 (v839 : BitVec 32) : Fin 3 → Nat :=
  let c0_i32_2303 : BitVec 32 := 0#32
  let c0_i32_2304 : BitVec 32 := 0#32
  ![v839.toNat, 0, 0]

def k0_chk77 (v839 : BitVec 32) : Prop :=
  (∀ a, (k0_off230 v839) a + S1x1x1024.size a ≤ S50257x1x1024.size a) ∧
  (∀ a, (k0_off231 v839) a + S1x1x128.size a ≤ S50257x1x128.size a) ∧
  (∀ a, (k0_off461 v839) a + S1x1x1024.size a ≤ S50257x1x1024.size a) ∧
  (∀ a, (k0_off588 v839) a + S1x1x128.size a ≤ S50257x1x128.size a)
instance k0_chk77.dec : ∀ (v839 : BitVec 32), Decidable (k0_chk77 v839) := fun v839 => decidable_of_iff' _ (Iff.of_eq (k0_chk77.eq_1 v839))
theorem k0_off230_inb : ∀ (v839 : BitVec 32) (k0_hw77 : k0_chk77 v839), ∀ a, (k0_off230 v839) a + S1x1x1024.size a ≤ S50257x1x1024.size a := fun v839 k0_hw77 => k0_hw77.1
theorem k0_off231_inb : ∀ (v839 : BitVec 32) (k0_hw77 : k0_chk77 v839), ∀ a, (k0_off231 v839) a + S1x1x128.size a ≤ S50257x1x128.size a := fun v839 k0_hw77 => k0_hw77.2.1
theorem k0_off461_inb : ∀ (v839 : BitVec 32) (k0_hw77 : k0_chk77 v839), ∀ a, (k0_off461 v839) a + S1x1x1024.size a ≤ S50257x1x1024.size a := fun v839 k0_hw77 => k0_hw77.2.2.1
theorem k0_off588_inb : ∀ (v839 : BitVec 32) (k0_hw77 : k0_chk77 v839), ∀ a, (k0_off588 v839) a + S1x1x128.size a ≤ S50257x1x128.size a := fun v839 k0_hw77 => k0_hw77.2.2.2

def k0_off589 (v850 : BitVec 32) : Fin 3 → Nat :=
  let c0_i32_2308 : BitVec 32 := 0#32
  let c0_i32_2309 : BitVec 32 := 0#32
  ![v850.toNat, 0, 0]

def k0_chk78 (v850 : BitVec 32) : Prop :=
  (∀ a, (k0_off233 v850) a + S1x1x1024.size a ≤ S50257x1x1024.size a) ∧
  (∀ a, (k0_off234 v850) a + S1x1x128.size a ≤ S50257x1x128.size a) ∧
  (∀ a, (k0_off462 v850) a + S1x1x1024.size a ≤ S50257x1x1024.size a) ∧
  (∀ a, (k0_off589 v850) a + S1x1x128.size a ≤ S50257x1x128.size a)
instance k0_chk78.dec : ∀ (v850 : BitVec 32), Decidable (k0_chk78 v850) := fun v850 => decidable_of_iff' _ (Iff.of_eq (k0_chk78.eq_1 v850))
theorem k0_off233_inb : ∀ (v850 : BitVec 32) (k0_hw78 : k0_chk78 v850), ∀ a, (k0_off233 v850) a + S1x1x1024.size a ≤ S50257x1x1024.size a := fun v850 k0_hw78 => k0_hw78.1
theorem k0_off234_inb : ∀ (v850 : BitVec 32) (k0_hw78 : k0_chk78 v850), ∀ a, (k0_off234 v850) a + S1x1x128.size a ≤ S50257x1x128.size a := fun v850 k0_hw78 => k0_hw78.2.1
theorem k0_off462_inb : ∀ (v850 : BitVec 32) (k0_hw78 : k0_chk78 v850), ∀ a, (k0_off462 v850) a + S1x1x1024.size a ≤ S50257x1x1024.size a := fun v850 k0_hw78 => k0_hw78.2.2.1
theorem k0_off589_inb : ∀ (v850 : BitVec 32) (k0_hw78 : k0_chk78 v850), ∀ a, (k0_off589 v850) a + S1x1x128.size a ≤ S50257x1x128.size a := fun v850 k0_hw78 => k0_hw78.2.2.2

def k0_off590 (v861 : BitVec 32) : Fin 3 → Nat :=
  let c0_i32_2313 : BitVec 32 := 0#32
  let c0_i32_2314 : BitVec 32 := 0#32
  ![v861.toNat, 0, 0]

def k0_chk79 (v861 : BitVec 32) : Prop :=
  (∀ a, (k0_off236 v861) a + S1x1x1024.size a ≤ S50257x1x1024.size a) ∧
  (∀ a, (k0_off237 v861) a + S1x1x128.size a ≤ S50257x1x128.size a) ∧
  (∀ a, (k0_off463 v861) a + S1x1x1024.size a ≤ S50257x1x1024.size a) ∧
  (∀ a, (k0_off590 v861) a + S1x1x128.size a ≤ S50257x1x128.size a)
instance k0_chk79.dec : ∀ (v861 : BitVec 32), Decidable (k0_chk79 v861) := fun v861 => decidable_of_iff' _ (Iff.of_eq (k0_chk79.eq_1 v861))
theorem k0_off236_inb : ∀ (v861 : BitVec 32) (k0_hw79 : k0_chk79 v861), ∀ a, (k0_off236 v861) a + S1x1x1024.size a ≤ S50257x1x1024.size a := fun v861 k0_hw79 => k0_hw79.1
theorem k0_off237_inb : ∀ (v861 : BitVec 32) (k0_hw79 : k0_chk79 v861), ∀ a, (k0_off237 v861) a + S1x1x128.size a ≤ S50257x1x128.size a := fun v861 k0_hw79 => k0_hw79.2.1
theorem k0_off463_inb : ∀ (v861 : BitVec 32) (k0_hw79 : k0_chk79 v861), ∀ a, (k0_off463 v861) a + S1x1x1024.size a ≤ S50257x1x1024.size a := fun v861 k0_hw79 => k0_hw79.2.2.1
theorem k0_off590_inb : ∀ (v861 : BitVec 32) (k0_hw79 : k0_chk79 v861), ∀ a, (k0_off590 v861) a + S1x1x128.size a ≤ S50257x1x128.size a := fun v861 k0_hw79 => k0_hw79.2.2.2

def k0_off591 (v872 : BitVec 32) : Fin 3 → Nat :=
  let c0_i32_2318 : BitVec 32 := 0#32
  let c0_i32_2319 : BitVec 32 := 0#32
  ![v872.toNat, 0, 0]

def k0_chk80 (v872 : BitVec 32) : Prop :=
  (∀ a, (k0_off239 v872) a + S1x1x1024.size a ≤ S50257x1x1024.size a) ∧
  (∀ a, (k0_off240 v872) a + S1x1x128.size a ≤ S50257x1x128.size a) ∧
  (∀ a, (k0_off464 v872) a + S1x1x1024.size a ≤ S50257x1x1024.size a) ∧
  (∀ a, (k0_off591 v872) a + S1x1x128.size a ≤ S50257x1x128.size a)
instance k0_chk80.dec : ∀ (v872 : BitVec 32), Decidable (k0_chk80 v872) := fun v872 => decidable_of_iff' _ (Iff.of_eq (k0_chk80.eq_1 v872))
theorem k0_off239_inb : ∀ (v872 : BitVec 32) (k0_hw80 : k0_chk80 v872), ∀ a, (k0_off239 v872) a + S1x1x1024.size a ≤ S50257x1x1024.size a := fun v872 k0_hw80 => k0_hw80.1
theorem k0_off240_inb : ∀ (v872 : BitVec 32) (k0_hw80 : k0_chk80 v872), ∀ a, (k0_off240 v872) a + S1x1x128.size a ≤ S50257x1x128.size a := fun v872 k0_hw80 => k0_hw80.2.1
theorem k0_off464_inb : ∀ (v872 : BitVec 32) (k0_hw80 : k0_chk80 v872), ∀ a, (k0_off464 v872) a + S1x1x1024.size a ≤ S50257x1x1024.size a := fun v872 k0_hw80 => k0_hw80.2.2.1
theorem k0_off591_inb : ∀ (v872 : BitVec 32) (k0_hw80 : k0_chk80 v872), ∀ a, (k0_off591 v872) a + S1x1x128.size a ≤ S50257x1x128.size a := fun v872 k0_hw80 => k0_hw80.2.2.2

def k0_off592 (v883 : BitVec 32) : Fin 3 → Nat :=
  let c0_i32_2323 : BitVec 32 := 0#32
  let c0_i32_2324 : BitVec 32 := 0#32
  ![v883.toNat, 0, 0]

def k0_chk81 (v883 : BitVec 32) : Prop :=
  (∀ a, (k0_off242 v883) a + S1x1x1024.size a ≤ S50257x1x1024.size a) ∧
  (∀ a, (k0_off243 v883) a + S1x1x128.size a ≤ S50257x1x128.size a) ∧
  (∀ a, (k0_off465 v883) a + S1x1x1024.size a ≤ S50257x1x1024.size a) ∧
  (∀ a, (k0_off592 v883) a + S1x1x128.size a ≤ S50257x1x128.size a)
instance k0_chk81.dec : ∀ (v883 : BitVec 32), Decidable (k0_chk81 v883) := fun v883 => decidable_of_iff' _ (Iff.of_eq (k0_chk81.eq_1 v883))
theorem k0_off242_inb : ∀ (v883 : BitVec 32) (k0_hw81 : k0_chk81 v883), ∀ a, (k0_off242 v883) a + S1x1x1024.size a ≤ S50257x1x1024.size a := fun v883 k0_hw81 => k0_hw81.1
theorem k0_off243_inb : ∀ (v883 : BitVec 32) (k0_hw81 : k0_chk81 v883), ∀ a, (k0_off243 v883) a + S1x1x128.size a ≤ S50257x1x128.size a := fun v883 k0_hw81 => k0_hw81.2.1
theorem k0_off465_inb : ∀ (v883 : BitVec 32) (k0_hw81 : k0_chk81 v883), ∀ a, (k0_off465 v883) a + S1x1x1024.size a ≤ S50257x1x1024.size a := fun v883 k0_hw81 => k0_hw81.2.2.1
theorem k0_off592_inb : ∀ (v883 : BitVec 32) (k0_hw81 : k0_chk81 v883), ∀ a, (k0_off592 v883) a + S1x1x128.size a ≤ S50257x1x128.size a := fun v883 k0_hw81 => k0_hw81.2.2.2

def k0_off593 (v894 : BitVec 32) : Fin 3 → Nat :=
  let c0_i32_2328 : BitVec 32 := 0#32
  let c0_i32_2329 : BitVec 32 := 0#32
  ![v894.toNat, 0, 0]

def k0_chk82 (v894 : BitVec 32) : Prop :=
  (∀ a, (k0_off245 v894) a + S1x1x1024.size a ≤ S50257x1x1024.size a) ∧
  (∀ a, (k0_off246 v894) a + S1x1x128.size a ≤ S50257x1x128.size a) ∧
  (∀ a, (k0_off466 v894) a + S1x1x1024.size a ≤ S50257x1x1024.size a) ∧
  (∀ a, (k0_off593 v894) a + S1x1x128.size a ≤ S50257x1x128.size a)
instance k0_chk82.dec : ∀ (v894 : BitVec 32), Decidable (k0_chk82 v894) := fun v894 => decidable_of_iff' _ (Iff.of_eq (k0_chk82.eq_1 v894))
theorem k0_off245_inb : ∀ (v894 : BitVec 32) (k0_hw82 : k0_chk82 v894), ∀ a, (k0_off245 v894) a + S1x1x1024.size a ≤ S50257x1x1024.size a := fun v894 k0_hw82 => k0_hw82.1
theorem k0_off246_inb : ∀ (v894 : BitVec 32) (k0_hw82 : k0_chk82 v894), ∀ a, (k0_off246 v894) a + S1x1x128.size a ≤ S50257x1x128.size a := fun v894 k0_hw82 => k0_hw82.2.1
theorem k0_off466_inb : ∀ (v894 : BitVec 32) (k0_hw82 : k0_chk82 v894), ∀ a, (k0_off466 v894) a + S1x1x1024.size a ≤ S50257x1x1024.size a := fun v894 k0_hw82 => k0_hw82.2.2.1
theorem k0_off593_inb : ∀ (v894 : BitVec 32) (k0_hw82 : k0_chk82 v894), ∀ a, (k0_off593 v894) a + S1x1x128.size a ≤ S50257x1x128.size a := fun v894 k0_hw82 => k0_hw82.2.2.2

def k0_off594 (v905 : BitVec 32) : Fin 3 → Nat :=
  let c0_i32_2333 : BitVec 32 := 0#32
  let c0_i32_2334 : BitVec 32 := 0#32
  ![v905.toNat, 0, 0]

def k0_chk83 (v905 : BitVec 32) : Prop :=
  (∀ a, (k0_off248 v905) a + S1x1x1024.size a ≤ S50257x1x1024.size a) ∧
  (∀ a, (k0_off249 v905) a + S1x1x128.size a ≤ S50257x1x128.size a) ∧
  (∀ a, (k0_off467 v905) a + S1x1x1024.size a ≤ S50257x1x1024.size a) ∧
  (∀ a, (k0_off594 v905) a + S1x1x128.size a ≤ S50257x1x128.size a)
instance k0_chk83.dec : ∀ (v905 : BitVec 32), Decidable (k0_chk83 v905) := fun v905 => decidable_of_iff' _ (Iff.of_eq (k0_chk83.eq_1 v905))
theorem k0_off248_inb : ∀ (v905 : BitVec 32) (k0_hw83 : k0_chk83 v905), ∀ a, (k0_off248 v905) a + S1x1x1024.size a ≤ S50257x1x1024.size a := fun v905 k0_hw83 => k0_hw83.1
theorem k0_off249_inb : ∀ (v905 : BitVec 32) (k0_hw83 : k0_chk83 v905), ∀ a, (k0_off249 v905) a + S1x1x128.size a ≤ S50257x1x128.size a := fun v905 k0_hw83 => k0_hw83.2.1
theorem k0_off467_inb : ∀ (v905 : BitVec 32) (k0_hw83 : k0_chk83 v905), ∀ a, (k0_off467 v905) a + S1x1x1024.size a ≤ S50257x1x1024.size a := fun v905 k0_hw83 => k0_hw83.2.2.1
theorem k0_off594_inb : ∀ (v905 : BitVec 32) (k0_hw83 : k0_chk83 v905), ∀ a, (k0_off594 v905) a + S1x1x128.size a ≤ S50257x1x128.size a := fun v905 k0_hw83 => k0_hw83.2.2.2

def k0_off595 (v916 : BitVec 32) : Fin 3 → Nat :=
  let c0_i32_2338 : BitVec 32 := 0#32
  let c0_i32_2339 : BitVec 32 := 0#32
  ![v916.toNat, 0, 0]

def k0_chk84 (v916 : BitVec 32) : Prop :=
  (∀ a, (k0_off251 v916) a + S1x1x1024.size a ≤ S50257x1x1024.size a) ∧
  (∀ a, (k0_off252 v916) a + S1x1x128.size a ≤ S50257x1x128.size a) ∧
  (∀ a, (k0_off468 v916) a + S1x1x1024.size a ≤ S50257x1x1024.size a) ∧
  (∀ a, (k0_off595 v916) a + S1x1x128.size a ≤ S50257x1x128.size a)
instance k0_chk84.dec : ∀ (v916 : BitVec 32), Decidable (k0_chk84 v916) := fun v916 => decidable_of_iff' _ (Iff.of_eq (k0_chk84.eq_1 v916))
theorem k0_off251_inb : ∀ (v916 : BitVec 32) (k0_hw84 : k0_chk84 v916), ∀ a, (k0_off251 v916) a + S1x1x1024.size a ≤ S50257x1x1024.size a := fun v916 k0_hw84 => k0_hw84.1
theorem k0_off252_inb : ∀ (v916 : BitVec 32) (k0_hw84 : k0_chk84 v916), ∀ a, (k0_off252 v916) a + S1x1x128.size a ≤ S50257x1x128.size a := fun v916 k0_hw84 => k0_hw84.2.1
theorem k0_off468_inb : ∀ (v916 : BitVec 32) (k0_hw84 : k0_chk84 v916), ∀ a, (k0_off468 v916) a + S1x1x1024.size a ≤ S50257x1x1024.size a := fun v916 k0_hw84 => k0_hw84.2.2.1
theorem k0_off595_inb : ∀ (v916 : BitVec 32) (k0_hw84 : k0_chk84 v916), ∀ a, (k0_off595 v916) a + S1x1x128.size a ≤ S50257x1x128.size a := fun v916 k0_hw84 => k0_hw84.2.2.2

def k0_off596 (v927 : BitVec 32) : Fin 3 → Nat :=
  let c0_i32_2343 : BitVec 32 := 0#32
  let c0_i32_2344 : BitVec 32 := 0#32
  ![v927.toNat, 0, 0]

def k0_chk85 (v927 : BitVec 32) : Prop :=
  (∀ a, (k0_off254 v927) a + S1x1x1024.size a ≤ S50257x1x1024.size a) ∧
  (∀ a, (k0_off255 v927) a + S1x1x128.size a ≤ S50257x1x128.size a) ∧
  (∀ a, (k0_off469 v927) a + S1x1x1024.size a ≤ S50257x1x1024.size a) ∧
  (∀ a, (k0_off596 v927) a + S1x1x128.size a ≤ S50257x1x128.size a)
instance k0_chk85.dec : ∀ (v927 : BitVec 32), Decidable (k0_chk85 v927) := fun v927 => decidable_of_iff' _ (Iff.of_eq (k0_chk85.eq_1 v927))
theorem k0_off254_inb : ∀ (v927 : BitVec 32) (k0_hw85 : k0_chk85 v927), ∀ a, (k0_off254 v927) a + S1x1x1024.size a ≤ S50257x1x1024.size a := fun v927 k0_hw85 => k0_hw85.1
theorem k0_off255_inb : ∀ (v927 : BitVec 32) (k0_hw85 : k0_chk85 v927), ∀ a, (k0_off255 v927) a + S1x1x128.size a ≤ S50257x1x128.size a := fun v927 k0_hw85 => k0_hw85.2.1
theorem k0_off469_inb : ∀ (v927 : BitVec 32) (k0_hw85 : k0_chk85 v927), ∀ a, (k0_off469 v927) a + S1x1x1024.size a ≤ S50257x1x1024.size a := fun v927 k0_hw85 => k0_hw85.2.2.1
theorem k0_off596_inb : ∀ (v927 : BitVec 32) (k0_hw85 : k0_chk85 v927), ∀ a, (k0_off596 v927) a + S1x1x128.size a ≤ S50257x1x128.size a := fun v927 k0_hw85 => k0_hw85.2.2.2

def k0_off597 (v938 : BitVec 32) : Fin 3 → Nat :=
  let c0_i32_2348 : BitVec 32 := 0#32
  let c0_i32_2349 : BitVec 32 := 0#32
  ![v938.toNat, 0, 0]

def k0_chk86 (v938 : BitVec 32) : Prop :=
  (∀ a, (k0_off257 v938) a + S1x1x1024.size a ≤ S50257x1x1024.size a) ∧
  (∀ a, (k0_off258 v938) a + S1x1x128.size a ≤ S50257x1x128.size a) ∧
  (∀ a, (k0_off470 v938) a + S1x1x1024.size a ≤ S50257x1x1024.size a) ∧
  (∀ a, (k0_off597 v938) a + S1x1x128.size a ≤ S50257x1x128.size a)
instance k0_chk86.dec : ∀ (v938 : BitVec 32), Decidable (k0_chk86 v938) := fun v938 => decidable_of_iff' _ (Iff.of_eq (k0_chk86.eq_1 v938))
theorem k0_off257_inb : ∀ (v938 : BitVec 32) (k0_hw86 : k0_chk86 v938), ∀ a, (k0_off257 v938) a + S1x1x1024.size a ≤ S50257x1x1024.size a := fun v938 k0_hw86 => k0_hw86.1
theorem k0_off258_inb : ∀ (v938 : BitVec 32) (k0_hw86 : k0_chk86 v938), ∀ a, (k0_off258 v938) a + S1x1x128.size a ≤ S50257x1x128.size a := fun v938 k0_hw86 => k0_hw86.2.1
theorem k0_off470_inb : ∀ (v938 : BitVec 32) (k0_hw86 : k0_chk86 v938), ∀ a, (k0_off470 v938) a + S1x1x1024.size a ≤ S50257x1x1024.size a := fun v938 k0_hw86 => k0_hw86.2.2.1
theorem k0_off597_inb : ∀ (v938 : BitVec 32) (k0_hw86 : k0_chk86 v938), ∀ a, (k0_off597 v938) a + S1x1x128.size a ≤ S50257x1x128.size a := fun v938 k0_hw86 => k0_hw86.2.2.2

def k0_off598 (v949 : BitVec 32) : Fin 3 → Nat :=
  let c0_i32_2353 : BitVec 32 := 0#32
  let c0_i32_2354 : BitVec 32 := 0#32
  ![v949.toNat, 0, 0]

def k0_chk87 (v949 : BitVec 32) : Prop :=
  (∀ a, (k0_off260 v949) a + S1x1x1024.size a ≤ S50257x1x1024.size a) ∧
  (∀ a, (k0_off261 v949) a + S1x1x128.size a ≤ S50257x1x128.size a) ∧
  (∀ a, (k0_off471 v949) a + S1x1x1024.size a ≤ S50257x1x1024.size a) ∧
  (∀ a, (k0_off598 v949) a + S1x1x128.size a ≤ S50257x1x128.size a)
instance k0_chk87.dec : ∀ (v949 : BitVec 32), Decidable (k0_chk87 v949) := fun v949 => decidable_of_iff' _ (Iff.of_eq (k0_chk87.eq_1 v949))
theorem k0_off260_inb : ∀ (v949 : BitVec 32) (k0_hw87 : k0_chk87 v949), ∀ a, (k0_off260 v949) a + S1x1x1024.size a ≤ S50257x1x1024.size a := fun v949 k0_hw87 => k0_hw87.1
theorem k0_off261_inb : ∀ (v949 : BitVec 32) (k0_hw87 : k0_chk87 v949), ∀ a, (k0_off261 v949) a + S1x1x128.size a ≤ S50257x1x128.size a := fun v949 k0_hw87 => k0_hw87.2.1
theorem k0_off471_inb : ∀ (v949 : BitVec 32) (k0_hw87 : k0_chk87 v949), ∀ a, (k0_off471 v949) a + S1x1x1024.size a ≤ S50257x1x1024.size a := fun v949 k0_hw87 => k0_hw87.2.2.1
theorem k0_off598_inb : ∀ (v949 : BitVec 32) (k0_hw87 : k0_chk87 v949), ∀ a, (k0_off598 v949) a + S1x1x128.size a ≤ S50257x1x128.size a := fun v949 k0_hw87 => k0_hw87.2.2.2

def k0_off599 (v960 : BitVec 32) : Fin 3 → Nat :=
  let c0_i32_2358 : BitVec 32 := 0#32
  let c0_i32_2359 : BitVec 32 := 0#32
  ![v960.toNat, 0, 0]

def k0_chk88 (v960 : BitVec 32) : Prop :=
  (∀ a, (k0_off263 v960) a + S1x1x1024.size a ≤ S50257x1x1024.size a) ∧
  (∀ a, (k0_off264 v960) a + S1x1x128.size a ≤ S50257x1x128.size a) ∧
  (∀ a, (k0_off472 v960) a + S1x1x1024.size a ≤ S50257x1x1024.size a) ∧
  (∀ a, (k0_off599 v960) a + S1x1x128.size a ≤ S50257x1x128.size a)
instance k0_chk88.dec : ∀ (v960 : BitVec 32), Decidable (k0_chk88 v960) := fun v960 => decidable_of_iff' _ (Iff.of_eq (k0_chk88.eq_1 v960))
theorem k0_off263_inb : ∀ (v960 : BitVec 32) (k0_hw88 : k0_chk88 v960), ∀ a, (k0_off263 v960) a + S1x1x1024.size a ≤ S50257x1x1024.size a := fun v960 k0_hw88 => k0_hw88.1
theorem k0_off264_inb : ∀ (v960 : BitVec 32) (k0_hw88 : k0_chk88 v960), ∀ a, (k0_off264 v960) a + S1x1x128.size a ≤ S50257x1x128.size a := fun v960 k0_hw88 => k0_hw88.2.1
theorem k0_off472_inb : ∀ (v960 : BitVec 32) (k0_hw88 : k0_chk88 v960), ∀ a, (k0_off472 v960) a + S1x1x1024.size a ≤ S50257x1x1024.size a := fun v960 k0_hw88 => k0_hw88.2.2.1
theorem k0_off599_inb : ∀ (v960 : BitVec 32) (k0_hw88 : k0_chk88 v960), ∀ a, (k0_off599 v960) a + S1x1x128.size a ≤ S50257x1x128.size a := fun v960 k0_hw88 => k0_hw88.2.2.2

def k0_off600 (v971 : BitVec 32) : Fin 3 → Nat :=
  let c0_i32_2363 : BitVec 32 := 0#32
  let c0_i32_2364 : BitVec 32 := 0#32
  ![v971.toNat, 0, 0]

def k0_chk89 (v971 : BitVec 32) : Prop :=
  (∀ a, (k0_off266 v971) a + S1x1x1024.size a ≤ S50257x1x1024.size a) ∧
  (∀ a, (k0_off267 v971) a + S1x1x128.size a ≤ S50257x1x128.size a) ∧
  (∀ a, (k0_off473 v971) a + S1x1x1024.size a ≤ S50257x1x1024.size a) ∧
  (∀ a, (k0_off600 v971) a + S1x1x128.size a ≤ S50257x1x128.size a)
instance k0_chk89.dec : ∀ (v971 : BitVec 32), Decidable (k0_chk89 v971) := fun v971 => decidable_of_iff' _ (Iff.of_eq (k0_chk89.eq_1 v971))
theorem k0_off266_inb : ∀ (v971 : BitVec 32) (k0_hw89 : k0_chk89 v971), ∀ a, (k0_off266 v971) a + S1x1x1024.size a ≤ S50257x1x1024.size a := fun v971 k0_hw89 => k0_hw89.1
theorem k0_off267_inb : ∀ (v971 : BitVec 32) (k0_hw89 : k0_chk89 v971), ∀ a, (k0_off267 v971) a + S1x1x128.size a ≤ S50257x1x128.size a := fun v971 k0_hw89 => k0_hw89.2.1
theorem k0_off473_inb : ∀ (v971 : BitVec 32) (k0_hw89 : k0_chk89 v971), ∀ a, (k0_off473 v971) a + S1x1x1024.size a ≤ S50257x1x1024.size a := fun v971 k0_hw89 => k0_hw89.2.2.1
theorem k0_off600_inb : ∀ (v971 : BitVec 32) (k0_hw89 : k0_chk89 v971), ∀ a, (k0_off600 v971) a + S1x1x128.size a ≤ S50257x1x128.size a := fun v971 k0_hw89 => k0_hw89.2.2.2

def k0_off601 (v982 : BitVec 32) : Fin 3 → Nat :=
  let c0_i32_2368 : BitVec 32 := 0#32
  let c0_i32_2369 : BitVec 32 := 0#32
  ![v982.toNat, 0, 0]

def k0_chk90 (v982 : BitVec 32) : Prop :=
  (∀ a, (k0_off269 v982) a + S1x1x1024.size a ≤ S50257x1x1024.size a) ∧
  (∀ a, (k0_off270 v982) a + S1x1x128.size a ≤ S50257x1x128.size a) ∧
  (∀ a, (k0_off474 v982) a + S1x1x1024.size a ≤ S50257x1x1024.size a) ∧
  (∀ a, (k0_off601 v982) a + S1x1x128.size a ≤ S50257x1x128.size a)
instance k0_chk90.dec : ∀ (v982 : BitVec 32), Decidable (k0_chk90 v982) := fun v982 => decidable_of_iff' _ (Iff.of_eq (k0_chk90.eq_1 v982))
theorem k0_off269_inb : ∀ (v982 : BitVec 32) (k0_hw90 : k0_chk90 v982), ∀ a, (k0_off269 v982) a + S1x1x1024.size a ≤ S50257x1x1024.size a := fun v982 k0_hw90 => k0_hw90.1
theorem k0_off270_inb : ∀ (v982 : BitVec 32) (k0_hw90 : k0_chk90 v982), ∀ a, (k0_off270 v982) a + S1x1x128.size a ≤ S50257x1x128.size a := fun v982 k0_hw90 => k0_hw90.2.1
theorem k0_off474_inb : ∀ (v982 : BitVec 32) (k0_hw90 : k0_chk90 v982), ∀ a, (k0_off474 v982) a + S1x1x1024.size a ≤ S50257x1x1024.size a := fun v982 k0_hw90 => k0_hw90.2.2.1
theorem k0_off601_inb : ∀ (v982 : BitVec 32) (k0_hw90 : k0_chk90 v982), ∀ a, (k0_off601 v982) a + S1x1x128.size a ≤ S50257x1x128.size a := fun v982 k0_hw90 => k0_hw90.2.2.2

def k0_off602 (v993 : BitVec 32) : Fin 3 → Nat :=
  let c0_i32_2373 : BitVec 32 := 0#32
  let c0_i32_2374 : BitVec 32 := 0#32
  ![v993.toNat, 0, 0]

def k0_chk91 (v993 : BitVec 32) : Prop :=
  (∀ a, (k0_off272 v993) a + S1x1x1024.size a ≤ S50257x1x1024.size a) ∧
  (∀ a, (k0_off273 v993) a + S1x1x128.size a ≤ S50257x1x128.size a) ∧
  (∀ a, (k0_off475 v993) a + S1x1x1024.size a ≤ S50257x1x1024.size a) ∧
  (∀ a, (k0_off602 v993) a + S1x1x128.size a ≤ S50257x1x128.size a)
instance k0_chk91.dec : ∀ (v993 : BitVec 32), Decidable (k0_chk91 v993) := fun v993 => decidable_of_iff' _ (Iff.of_eq (k0_chk91.eq_1 v993))
theorem k0_off272_inb : ∀ (v993 : BitVec 32) (k0_hw91 : k0_chk91 v993), ∀ a, (k0_off272 v993) a + S1x1x1024.size a ≤ S50257x1x1024.size a := fun v993 k0_hw91 => k0_hw91.1
theorem k0_off273_inb : ∀ (v993 : BitVec 32) (k0_hw91 : k0_chk91 v993), ∀ a, (k0_off273 v993) a + S1x1x128.size a ≤ S50257x1x128.size a := fun v993 k0_hw91 => k0_hw91.2.1
theorem k0_off475_inb : ∀ (v993 : BitVec 32) (k0_hw91 : k0_chk91 v993), ∀ a, (k0_off475 v993) a + S1x1x1024.size a ≤ S50257x1x1024.size a := fun v993 k0_hw91 => k0_hw91.2.2.1
theorem k0_off602_inb : ∀ (v993 : BitVec 32) (k0_hw91 : k0_chk91 v993), ∀ a, (k0_off602 v993) a + S1x1x128.size a ≤ S50257x1x128.size a := fun v993 k0_hw91 => k0_hw91.2.2.2

def k0_off603 (v1004 : BitVec 32) : Fin 3 → Nat :=
  let c0_i32_2378 : BitVec 32 := 0#32
  let c0_i32_2379 : BitVec 32 := 0#32
  ![v1004.toNat, 0, 0]

def k0_chk92 (v1004 : BitVec 32) : Prop :=
  (∀ a, (k0_off275 v1004) a + S1x1x1024.size a ≤ S50257x1x1024.size a) ∧
  (∀ a, (k0_off276 v1004) a + S1x1x128.size a ≤ S50257x1x128.size a) ∧
  (∀ a, (k0_off476 v1004) a + S1x1x1024.size a ≤ S50257x1x1024.size a) ∧
  (∀ a, (k0_off603 v1004) a + S1x1x128.size a ≤ S50257x1x128.size a)
instance k0_chk92.dec : ∀ (v1004 : BitVec 32), Decidable (k0_chk92 v1004) := fun v1004 => decidable_of_iff' _ (Iff.of_eq (k0_chk92.eq_1 v1004))
theorem k0_off275_inb : ∀ (v1004 : BitVec 32) (k0_hw92 : k0_chk92 v1004), ∀ a, (k0_off275 v1004) a + S1x1x1024.size a ≤ S50257x1x1024.size a := fun v1004 k0_hw92 => k0_hw92.1
theorem k0_off276_inb : ∀ (v1004 : BitVec 32) (k0_hw92 : k0_chk92 v1004), ∀ a, (k0_off276 v1004) a + S1x1x128.size a ≤ S50257x1x128.size a := fun v1004 k0_hw92 => k0_hw92.2.1
theorem k0_off476_inb : ∀ (v1004 : BitVec 32) (k0_hw92 : k0_chk92 v1004), ∀ a, (k0_off476 v1004) a + S1x1x1024.size a ≤ S50257x1x1024.size a := fun v1004 k0_hw92 => k0_hw92.2.2.1
theorem k0_off603_inb : ∀ (v1004 : BitVec 32) (k0_hw92 : k0_chk92 v1004), ∀ a, (k0_off603 v1004) a + S1x1x128.size a ≤ S50257x1x128.size a := fun v1004 k0_hw92 => k0_hw92.2.2.2

def k0_off604 (v1015 : BitVec 32) : Fin 3 → Nat :=
  let c0_i32_2383 : BitVec 32 := 0#32
  let c0_i32_2384 : BitVec 32 := 0#32
  ![v1015.toNat, 0, 0]

def k0_chk93 (v1015 : BitVec 32) : Prop :=
  (∀ a, (k0_off278 v1015) a + S1x1x1024.size a ≤ S50257x1x1024.size a) ∧
  (∀ a, (k0_off279 v1015) a + S1x1x128.size a ≤ S50257x1x128.size a) ∧
  (∀ a, (k0_off477 v1015) a + S1x1x1024.size a ≤ S50257x1x1024.size a) ∧
  (∀ a, (k0_off604 v1015) a + S1x1x128.size a ≤ S50257x1x128.size a)
instance k0_chk93.dec : ∀ (v1015 : BitVec 32), Decidable (k0_chk93 v1015) := fun v1015 => decidable_of_iff' _ (Iff.of_eq (k0_chk93.eq_1 v1015))
theorem k0_off278_inb : ∀ (v1015 : BitVec 32) (k0_hw93 : k0_chk93 v1015), ∀ a, (k0_off278 v1015) a + S1x1x1024.size a ≤ S50257x1x1024.size a := fun v1015 k0_hw93 => k0_hw93.1
theorem k0_off279_inb : ∀ (v1015 : BitVec 32) (k0_hw93 : k0_chk93 v1015), ∀ a, (k0_off279 v1015) a + S1x1x128.size a ≤ S50257x1x128.size a := fun v1015 k0_hw93 => k0_hw93.2.1
theorem k0_off477_inb : ∀ (v1015 : BitVec 32) (k0_hw93 : k0_chk93 v1015), ∀ a, (k0_off477 v1015) a + S1x1x1024.size a ≤ S50257x1x1024.size a := fun v1015 k0_hw93 => k0_hw93.2.2.1
theorem k0_off604_inb : ∀ (v1015 : BitVec 32) (k0_hw93 : k0_chk93 v1015), ∀ a, (k0_off604 v1015) a + S1x1x128.size a ≤ S50257x1x128.size a := fun v1015 k0_hw93 => k0_hw93.2.2.2

def k0_off605 (v1026 : BitVec 32) : Fin 3 → Nat :=
  let c0_i32_2388 : BitVec 32 := 0#32
  let c0_i32_2389 : BitVec 32 := 0#32
  ![v1026.toNat, 0, 0]

def k0_chk94 (v1026 : BitVec 32) : Prop :=
  (∀ a, (k0_off281 v1026) a + S1x1x1024.size a ≤ S50257x1x1024.size a) ∧
  (∀ a, (k0_off282 v1026) a + S1x1x128.size a ≤ S50257x1x128.size a) ∧
  (∀ a, (k0_off478 v1026) a + S1x1x1024.size a ≤ S50257x1x1024.size a) ∧
  (∀ a, (k0_off605 v1026) a + S1x1x128.size a ≤ S50257x1x128.size a)
instance k0_chk94.dec : ∀ (v1026 : BitVec 32), Decidable (k0_chk94 v1026) := fun v1026 => decidable_of_iff' _ (Iff.of_eq (k0_chk94.eq_1 v1026))
theorem k0_off281_inb : ∀ (v1026 : BitVec 32) (k0_hw94 : k0_chk94 v1026), ∀ a, (k0_off281 v1026) a + S1x1x1024.size a ≤ S50257x1x1024.size a := fun v1026 k0_hw94 => k0_hw94.1
theorem k0_off282_inb : ∀ (v1026 : BitVec 32) (k0_hw94 : k0_chk94 v1026), ∀ a, (k0_off282 v1026) a + S1x1x128.size a ≤ S50257x1x128.size a := fun v1026 k0_hw94 => k0_hw94.2.1
theorem k0_off478_inb : ∀ (v1026 : BitVec 32) (k0_hw94 : k0_chk94 v1026), ∀ a, (k0_off478 v1026) a + S1x1x1024.size a ≤ S50257x1x1024.size a := fun v1026 k0_hw94 => k0_hw94.2.2.1
theorem k0_off605_inb : ∀ (v1026 : BitVec 32) (k0_hw94 : k0_chk94 v1026), ∀ a, (k0_off605 v1026) a + S1x1x128.size a ≤ S50257x1x128.size a := fun v1026 k0_hw94 => k0_hw94.2.2.2

def k0_off606 (v1037 : BitVec 32) : Fin 3 → Nat :=
  let c0_i32_2393 : BitVec 32 := 0#32
  let c0_i32_2394 : BitVec 32 := 0#32
  ![v1037.toNat, 0, 0]

def k0_chk95 (v1037 : BitVec 32) : Prop :=
  (∀ a, (k0_off284 v1037) a + S1x1x1024.size a ≤ S50257x1x1024.size a) ∧
  (∀ a, (k0_off285 v1037) a + S1x1x128.size a ≤ S50257x1x128.size a) ∧
  (∀ a, (k0_off479 v1037) a + S1x1x1024.size a ≤ S50257x1x1024.size a) ∧
  (∀ a, (k0_off606 v1037) a + S1x1x128.size a ≤ S50257x1x128.size a)
instance k0_chk95.dec : ∀ (v1037 : BitVec 32), Decidable (k0_chk95 v1037) := fun v1037 => decidable_of_iff' _ (Iff.of_eq (k0_chk95.eq_1 v1037))
theorem k0_off284_inb : ∀ (v1037 : BitVec 32) (k0_hw95 : k0_chk95 v1037), ∀ a, (k0_off284 v1037) a + S1x1x1024.size a ≤ S50257x1x1024.size a := fun v1037 k0_hw95 => k0_hw95.1
theorem k0_off285_inb : ∀ (v1037 : BitVec 32) (k0_hw95 : k0_chk95 v1037), ∀ a, (k0_off285 v1037) a + S1x1x128.size a ≤ S50257x1x128.size a := fun v1037 k0_hw95 => k0_hw95.2.1
theorem k0_off479_inb : ∀ (v1037 : BitVec 32) (k0_hw95 : k0_chk95 v1037), ∀ a, (k0_off479 v1037) a + S1x1x1024.size a ≤ S50257x1x1024.size a := fun v1037 k0_hw95 => k0_hw95.2.2.1
theorem k0_off606_inb : ∀ (v1037 : BitVec 32) (k0_hw95 : k0_chk95 v1037), ∀ a, (k0_off606 v1037) a + S1x1x128.size a ≤ S50257x1x128.size a := fun v1037 k0_hw95 => k0_hw95.2.2.2

def k0_off607 (v1048 : BitVec 32) : Fin 3 → Nat :=
  let c0_i32_2398 : BitVec 32 := 0#32
  let c0_i32_2399 : BitVec 32 := 0#32
  ![v1048.toNat, 0, 0]

def k0_chk96 (v1048 : BitVec 32) : Prop :=
  (∀ a, (k0_off287 v1048) a + S1x1x1024.size a ≤ S50257x1x1024.size a) ∧
  (∀ a, (k0_off288 v1048) a + S1x1x128.size a ≤ S50257x1x128.size a) ∧
  (∀ a, (k0_off480 v1048) a + S1x1x1024.size a ≤ S50257x1x1024.size a) ∧
  (∀ a, (k0_off607 v1048) a + S1x1x128.size a ≤ S50257x1x128.size a)
instance k0_chk96.dec : ∀ (v1048 : BitVec 32), Decidable (k0_chk96 v1048) := fun v1048 => decidable_of_iff' _ (Iff.of_eq (k0_chk96.eq_1 v1048))
theorem k0_off287_inb : ∀ (v1048 : BitVec 32) (k0_hw96 : k0_chk96 v1048), ∀ a, (k0_off287 v1048) a + S1x1x1024.size a ≤ S50257x1x1024.size a := fun v1048 k0_hw96 => k0_hw96.1
theorem k0_off288_inb : ∀ (v1048 : BitVec 32) (k0_hw96 : k0_chk96 v1048), ∀ a, (k0_off288 v1048) a + S1x1x128.size a ≤ S50257x1x128.size a := fun v1048 k0_hw96 => k0_hw96.2.1
theorem k0_off480_inb : ∀ (v1048 : BitVec 32) (k0_hw96 : k0_chk96 v1048), ∀ a, (k0_off480 v1048) a + S1x1x1024.size a ≤ S50257x1x1024.size a := fun v1048 k0_hw96 => k0_hw96.2.2.1
theorem k0_off607_inb : ∀ (v1048 : BitVec 32) (k0_hw96 : k0_chk96 v1048), ∀ a, (k0_off607 v1048) a + S1x1x128.size a ≤ S50257x1x128.size a := fun v1048 k0_hw96 => k0_hw96.2.2.2

def k0_off608 (v1059 : BitVec 32) : Fin 3 → Nat :=
  let c0_i32_2403 : BitVec 32 := 0#32
  let c0_i32_2404 : BitVec 32 := 0#32
  ![v1059.toNat, 0, 0]

def k0_chk97 (v1059 : BitVec 32) : Prop :=
  (∀ a, (k0_off290 v1059) a + S1x1x1024.size a ≤ S50257x1x1024.size a) ∧
  (∀ a, (k0_off291 v1059) a + S1x1x128.size a ≤ S50257x1x128.size a) ∧
  (∀ a, (k0_off481 v1059) a + S1x1x1024.size a ≤ S50257x1x1024.size a) ∧
  (∀ a, (k0_off608 v1059) a + S1x1x128.size a ≤ S50257x1x128.size a)
instance k0_chk97.dec : ∀ (v1059 : BitVec 32), Decidable (k0_chk97 v1059) := fun v1059 => decidable_of_iff' _ (Iff.of_eq (k0_chk97.eq_1 v1059))
theorem k0_off290_inb : ∀ (v1059 : BitVec 32) (k0_hw97 : k0_chk97 v1059), ∀ a, (k0_off290 v1059) a + S1x1x1024.size a ≤ S50257x1x1024.size a := fun v1059 k0_hw97 => k0_hw97.1
theorem k0_off291_inb : ∀ (v1059 : BitVec 32) (k0_hw97 : k0_chk97 v1059), ∀ a, (k0_off291 v1059) a + S1x1x128.size a ≤ S50257x1x128.size a := fun v1059 k0_hw97 => k0_hw97.2.1
theorem k0_off481_inb : ∀ (v1059 : BitVec 32) (k0_hw97 : k0_chk97 v1059), ∀ a, (k0_off481 v1059) a + S1x1x1024.size a ≤ S50257x1x1024.size a := fun v1059 k0_hw97 => k0_hw97.2.2.1
theorem k0_off608_inb : ∀ (v1059 : BitVec 32) (k0_hw97 : k0_chk97 v1059), ∀ a, (k0_off608 v1059) a + S1x1x128.size a ≤ S50257x1x128.size a := fun v1059 k0_hw97 => k0_hw97.2.2.2

def k0_off609 (v1070 : BitVec 32) : Fin 3 → Nat :=
  let c0_i32_2408 : BitVec 32 := 0#32
  let c0_i32_2409 : BitVec 32 := 0#32
  ![v1070.toNat, 0, 0]

def k0_chk98 (v1070 : BitVec 32) : Prop :=
  (∀ a, (k0_off293 v1070) a + S1x1x1024.size a ≤ S50257x1x1024.size a) ∧
  (∀ a, (k0_off294 v1070) a + S1x1x128.size a ≤ S50257x1x128.size a) ∧
  (∀ a, (k0_off482 v1070) a + S1x1x1024.size a ≤ S50257x1x1024.size a) ∧
  (∀ a, (k0_off609 v1070) a + S1x1x128.size a ≤ S50257x1x128.size a)
instance k0_chk98.dec : ∀ (v1070 : BitVec 32), Decidable (k0_chk98 v1070) := fun v1070 => decidable_of_iff' _ (Iff.of_eq (k0_chk98.eq_1 v1070))
theorem k0_off293_inb : ∀ (v1070 : BitVec 32) (k0_hw98 : k0_chk98 v1070), ∀ a, (k0_off293 v1070) a + S1x1x1024.size a ≤ S50257x1x1024.size a := fun v1070 k0_hw98 => k0_hw98.1
theorem k0_off294_inb : ∀ (v1070 : BitVec 32) (k0_hw98 : k0_chk98 v1070), ∀ a, (k0_off294 v1070) a + S1x1x128.size a ≤ S50257x1x128.size a := fun v1070 k0_hw98 => k0_hw98.2.1
theorem k0_off482_inb : ∀ (v1070 : BitVec 32) (k0_hw98 : k0_chk98 v1070), ∀ a, (k0_off482 v1070) a + S1x1x1024.size a ≤ S50257x1x1024.size a := fun v1070 k0_hw98 => k0_hw98.2.2.1
theorem k0_off609_inb : ∀ (v1070 : BitVec 32) (k0_hw98 : k0_chk98 v1070), ∀ a, (k0_off609 v1070) a + S1x1x128.size a ≤ S50257x1x128.size a := fun v1070 k0_hw98 => k0_hw98.2.2.2

def k0_off610 (v1081 : BitVec 32) : Fin 3 → Nat :=
  let c0_i32_2413 : BitVec 32 := 0#32
  let c0_i32_2414 : BitVec 32 := 0#32
  ![v1081.toNat, 0, 0]

def k0_chk99 (v1081 : BitVec 32) : Prop :=
  (∀ a, (k0_off296 v1081) a + S1x1x1024.size a ≤ S50257x1x1024.size a) ∧
  (∀ a, (k0_off297 v1081) a + S1x1x128.size a ≤ S50257x1x128.size a) ∧
  (∀ a, (k0_off483 v1081) a + S1x1x1024.size a ≤ S50257x1x1024.size a) ∧
  (∀ a, (k0_off610 v1081) a + S1x1x128.size a ≤ S50257x1x128.size a)
instance k0_chk99.dec : ∀ (v1081 : BitVec 32), Decidable (k0_chk99 v1081) := fun v1081 => decidable_of_iff' _ (Iff.of_eq (k0_chk99.eq_1 v1081))
theorem k0_off296_inb : ∀ (v1081 : BitVec 32) (k0_hw99 : k0_chk99 v1081), ∀ a, (k0_off296 v1081) a + S1x1x1024.size a ≤ S50257x1x1024.size a := fun v1081 k0_hw99 => k0_hw99.1
theorem k0_off297_inb : ∀ (v1081 : BitVec 32) (k0_hw99 : k0_chk99 v1081), ∀ a, (k0_off297 v1081) a + S1x1x128.size a ≤ S50257x1x128.size a := fun v1081 k0_hw99 => k0_hw99.2.1
theorem k0_off483_inb : ∀ (v1081 : BitVec 32) (k0_hw99 : k0_chk99 v1081), ∀ a, (k0_off483 v1081) a + S1x1x1024.size a ≤ S50257x1x1024.size a := fun v1081 k0_hw99 => k0_hw99.2.2.1
theorem k0_off610_inb : ∀ (v1081 : BitVec 32) (k0_hw99 : k0_chk99 v1081), ∀ a, (k0_off610 v1081) a + S1x1x128.size a ≤ S50257x1x128.size a := fun v1081 k0_hw99 => k0_hw99.2.2.2

def k0_off611 (v1092 : BitVec 32) : Fin 3 → Nat :=
  let c0_i32_2418 : BitVec 32 := 0#32
  let c0_i32_2419 : BitVec 32 := 0#32
  ![v1092.toNat, 0, 0]

def k0_chk100 (v1092 : BitVec 32) : Prop :=
  (∀ a, (k0_off299 v1092) a + S1x1x1024.size a ≤ S50257x1x1024.size a) ∧
  (∀ a, (k0_off300 v1092) a + S1x1x128.size a ≤ S50257x1x128.size a) ∧
  (∀ a, (k0_off484 v1092) a + S1x1x1024.size a ≤ S50257x1x1024.size a) ∧
  (∀ a, (k0_off611 v1092) a + S1x1x128.size a ≤ S50257x1x128.size a)
instance k0_chk100.dec : ∀ (v1092 : BitVec 32), Decidable (k0_chk100 v1092) := fun v1092 => decidable_of_iff' _ (Iff.of_eq (k0_chk100.eq_1 v1092))
theorem k0_off299_inb : ∀ (v1092 : BitVec 32) (k0_hw100 : k0_chk100 v1092), ∀ a, (k0_off299 v1092) a + S1x1x1024.size a ≤ S50257x1x1024.size a := fun v1092 k0_hw100 => k0_hw100.1
theorem k0_off300_inb : ∀ (v1092 : BitVec 32) (k0_hw100 : k0_chk100 v1092), ∀ a, (k0_off300 v1092) a + S1x1x128.size a ≤ S50257x1x128.size a := fun v1092 k0_hw100 => k0_hw100.2.1
theorem k0_off484_inb : ∀ (v1092 : BitVec 32) (k0_hw100 : k0_chk100 v1092), ∀ a, (k0_off484 v1092) a + S1x1x1024.size a ≤ S50257x1x1024.size a := fun v1092 k0_hw100 => k0_hw100.2.2.1
theorem k0_off611_inb : ∀ (v1092 : BitVec 32) (k0_hw100 : k0_chk100 v1092), ∀ a, (k0_off611 v1092) a + S1x1x128.size a ≤ S50257x1x128.size a := fun v1092 k0_hw100 => k0_hw100.2.2.2

def k0_off612 (v1103 : BitVec 32) : Fin 3 → Nat :=
  let c0_i32_2423 : BitVec 32 := 0#32
  let c0_i32_2424 : BitVec 32 := 0#32
  ![v1103.toNat, 0, 0]

def k0_chk101 (v1103 : BitVec 32) : Prop :=
  (∀ a, (k0_off302 v1103) a + S1x1x1024.size a ≤ S50257x1x1024.size a) ∧
  (∀ a, (k0_off303 v1103) a + S1x1x128.size a ≤ S50257x1x128.size a) ∧
  (∀ a, (k0_off485 v1103) a + S1x1x1024.size a ≤ S50257x1x1024.size a) ∧
  (∀ a, (k0_off612 v1103) a + S1x1x128.size a ≤ S50257x1x128.size a)
instance k0_chk101.dec : ∀ (v1103 : BitVec 32), Decidable (k0_chk101 v1103) := fun v1103 => decidable_of_iff' _ (Iff.of_eq (k0_chk101.eq_1 v1103))
theorem k0_off302_inb : ∀ (v1103 : BitVec 32) (k0_hw101 : k0_chk101 v1103), ∀ a, (k0_off302 v1103) a + S1x1x1024.size a ≤ S50257x1x1024.size a := fun v1103 k0_hw101 => k0_hw101.1
theorem k0_off303_inb : ∀ (v1103 : BitVec 32) (k0_hw101 : k0_chk101 v1103), ∀ a, (k0_off303 v1103) a + S1x1x128.size a ≤ S50257x1x128.size a := fun v1103 k0_hw101 => k0_hw101.2.1
theorem k0_off485_inb : ∀ (v1103 : BitVec 32) (k0_hw101 : k0_chk101 v1103), ∀ a, (k0_off485 v1103) a + S1x1x1024.size a ≤ S50257x1x1024.size a := fun v1103 k0_hw101 => k0_hw101.2.2.1
theorem k0_off612_inb : ∀ (v1103 : BitVec 32) (k0_hw101 : k0_chk101 v1103), ∀ a, (k0_off612 v1103) a + S1x1x128.size a ≤ S50257x1x128.size a := fun v1103 k0_hw101 => k0_hw101.2.2.2

def k0_off613 (v1114 : BitVec 32) : Fin 3 → Nat :=
  let c0_i32_2428 : BitVec 32 := 0#32
  let c0_i32_2429 : BitVec 32 := 0#32
  ![v1114.toNat, 0, 0]

def k0_chk102 (v1114 : BitVec 32) : Prop :=
  (∀ a, (k0_off305 v1114) a + S1x1x1024.size a ≤ S50257x1x1024.size a) ∧
  (∀ a, (k0_off306 v1114) a + S1x1x128.size a ≤ S50257x1x128.size a) ∧
  (∀ a, (k0_off486 v1114) a + S1x1x1024.size a ≤ S50257x1x1024.size a) ∧
  (∀ a, (k0_off613 v1114) a + S1x1x128.size a ≤ S50257x1x128.size a)
instance k0_chk102.dec : ∀ (v1114 : BitVec 32), Decidable (k0_chk102 v1114) := fun v1114 => decidable_of_iff' _ (Iff.of_eq (k0_chk102.eq_1 v1114))
theorem k0_off305_inb : ∀ (v1114 : BitVec 32) (k0_hw102 : k0_chk102 v1114), ∀ a, (k0_off305 v1114) a + S1x1x1024.size a ≤ S50257x1x1024.size a := fun v1114 k0_hw102 => k0_hw102.1
theorem k0_off306_inb : ∀ (v1114 : BitVec 32) (k0_hw102 : k0_chk102 v1114), ∀ a, (k0_off306 v1114) a + S1x1x128.size a ≤ S50257x1x128.size a := fun v1114 k0_hw102 => k0_hw102.2.1
theorem k0_off486_inb : ∀ (v1114 : BitVec 32) (k0_hw102 : k0_chk102 v1114), ∀ a, (k0_off486 v1114) a + S1x1x1024.size a ≤ S50257x1x1024.size a := fun v1114 k0_hw102 => k0_hw102.2.2.1
theorem k0_off613_inb : ∀ (v1114 : BitVec 32) (k0_hw102 : k0_chk102 v1114), ∀ a, (k0_off613 v1114) a + S1x1x128.size a ≤ S50257x1x128.size a := fun v1114 k0_hw102 => k0_hw102.2.2.2

def k0_off614 (v1125 : BitVec 32) : Fin 3 → Nat :=
  let c0_i32_2433 : BitVec 32 := 0#32
  let c0_i32_2434 : BitVec 32 := 0#32
  ![v1125.toNat, 0, 0]

def k0_chk103 (v1125 : BitVec 32) : Prop :=
  (∀ a, (k0_off308 v1125) a + S1x1x1024.size a ≤ S50257x1x1024.size a) ∧
  (∀ a, (k0_off309 v1125) a + S1x1x128.size a ≤ S50257x1x128.size a) ∧
  (∀ a, (k0_off487 v1125) a + S1x1x1024.size a ≤ S50257x1x1024.size a) ∧
  (∀ a, (k0_off614 v1125) a + S1x1x128.size a ≤ S50257x1x128.size a)
instance k0_chk103.dec : ∀ (v1125 : BitVec 32), Decidable (k0_chk103 v1125) := fun v1125 => decidable_of_iff' _ (Iff.of_eq (k0_chk103.eq_1 v1125))
theorem k0_off308_inb : ∀ (v1125 : BitVec 32) (k0_hw103 : k0_chk103 v1125), ∀ a, (k0_off308 v1125) a + S1x1x1024.size a ≤ S50257x1x1024.size a := fun v1125 k0_hw103 => k0_hw103.1
theorem k0_off309_inb : ∀ (v1125 : BitVec 32) (k0_hw103 : k0_chk103 v1125), ∀ a, (k0_off309 v1125) a + S1x1x128.size a ≤ S50257x1x128.size a := fun v1125 k0_hw103 => k0_hw103.2.1
theorem k0_off487_inb : ∀ (v1125 : BitVec 32) (k0_hw103 : k0_chk103 v1125), ∀ a, (k0_off487 v1125) a + S1x1x1024.size a ≤ S50257x1x1024.size a := fun v1125 k0_hw103 => k0_hw103.2.2.1
theorem k0_off614_inb : ∀ (v1125 : BitVec 32) (k0_hw103 : k0_chk103 v1125), ∀ a, (k0_off614 v1125) a + S1x1x128.size a ≤ S50257x1x128.size a := fun v1125 k0_hw103 => k0_hw103.2.2.2

def k0_off615 (v1136 : BitVec 32) : Fin 3 → Nat :=
  let c0_i32_2438 : BitVec 32 := 0#32
  let c0_i32_2439 : BitVec 32 := 0#32
  ![v1136.toNat, 0, 0]

def k0_chk104 (v1136 : BitVec 32) : Prop :=
  (∀ a, (k0_off311 v1136) a + S1x1x1024.size a ≤ S50257x1x1024.size a) ∧
  (∀ a, (k0_off312 v1136) a + S1x1x128.size a ≤ S50257x1x128.size a) ∧
  (∀ a, (k0_off488 v1136) a + S1x1x1024.size a ≤ S50257x1x1024.size a) ∧
  (∀ a, (k0_off615 v1136) a + S1x1x128.size a ≤ S50257x1x128.size a)
instance k0_chk104.dec : ∀ (v1136 : BitVec 32), Decidable (k0_chk104 v1136) := fun v1136 => decidable_of_iff' _ (Iff.of_eq (k0_chk104.eq_1 v1136))
theorem k0_off311_inb : ∀ (v1136 : BitVec 32) (k0_hw104 : k0_chk104 v1136), ∀ a, (k0_off311 v1136) a + S1x1x1024.size a ≤ S50257x1x1024.size a := fun v1136 k0_hw104 => k0_hw104.1
theorem k0_off312_inb : ∀ (v1136 : BitVec 32) (k0_hw104 : k0_chk104 v1136), ∀ a, (k0_off312 v1136) a + S1x1x128.size a ≤ S50257x1x128.size a := fun v1136 k0_hw104 => k0_hw104.2.1
theorem k0_off488_inb : ∀ (v1136 : BitVec 32) (k0_hw104 : k0_chk104 v1136), ∀ a, (k0_off488 v1136) a + S1x1x1024.size a ≤ S50257x1x1024.size a := fun v1136 k0_hw104 => k0_hw104.2.2.1
theorem k0_off615_inb : ∀ (v1136 : BitVec 32) (k0_hw104 : k0_chk104 v1136), ∀ a, (k0_off615 v1136) a + S1x1x128.size a ≤ S50257x1x128.size a := fun v1136 k0_hw104 => k0_hw104.2.2.2

def k0_off616 (v1147 : BitVec 32) : Fin 3 → Nat :=
  let c0_i32_2443 : BitVec 32 := 0#32
  let c0_i32_2444 : BitVec 32 := 0#32
  ![v1147.toNat, 0, 0]

def k0_chk105 (v1147 : BitVec 32) : Prop :=
  (∀ a, (k0_off314 v1147) a + S1x1x1024.size a ≤ S50257x1x1024.size a) ∧
  (∀ a, (k0_off315 v1147) a + S1x1x128.size a ≤ S50257x1x128.size a) ∧
  (∀ a, (k0_off489 v1147) a + S1x1x1024.size a ≤ S50257x1x1024.size a) ∧
  (∀ a, (k0_off616 v1147) a + S1x1x128.size a ≤ S50257x1x128.size a)
instance k0_chk105.dec : ∀ (v1147 : BitVec 32), Decidable (k0_chk105 v1147) := fun v1147 => decidable_of_iff' _ (Iff.of_eq (k0_chk105.eq_1 v1147))
theorem k0_off314_inb : ∀ (v1147 : BitVec 32) (k0_hw105 : k0_chk105 v1147), ∀ a, (k0_off314 v1147) a + S1x1x1024.size a ≤ S50257x1x1024.size a := fun v1147 k0_hw105 => k0_hw105.1
theorem k0_off315_inb : ∀ (v1147 : BitVec 32) (k0_hw105 : k0_chk105 v1147), ∀ a, (k0_off315 v1147) a + S1x1x128.size a ≤ S50257x1x128.size a := fun v1147 k0_hw105 => k0_hw105.2.1
theorem k0_off489_inb : ∀ (v1147 : BitVec 32) (k0_hw105 : k0_chk105 v1147), ∀ a, (k0_off489 v1147) a + S1x1x1024.size a ≤ S50257x1x1024.size a := fun v1147 k0_hw105 => k0_hw105.2.2.1
theorem k0_off616_inb : ∀ (v1147 : BitVec 32) (k0_hw105 : k0_chk105 v1147), ∀ a, (k0_off616 v1147) a + S1x1x128.size a ≤ S50257x1x128.size a := fun v1147 k0_hw105 => k0_hw105.2.2.2

def k0_off617 (v1158 : BitVec 32) : Fin 3 → Nat :=
  let c0_i32_2448 : BitVec 32 := 0#32
  let c0_i32_2449 : BitVec 32 := 0#32
  ![v1158.toNat, 0, 0]

def k0_chk106 (v1158 : BitVec 32) : Prop :=
  (∀ a, (k0_off317 v1158) a + S1x1x1024.size a ≤ S50257x1x1024.size a) ∧
  (∀ a, (k0_off318 v1158) a + S1x1x128.size a ≤ S50257x1x128.size a) ∧
  (∀ a, (k0_off490 v1158) a + S1x1x1024.size a ≤ S50257x1x1024.size a) ∧
  (∀ a, (k0_off617 v1158) a + S1x1x128.size a ≤ S50257x1x128.size a)
instance k0_chk106.dec : ∀ (v1158 : BitVec 32), Decidable (k0_chk106 v1158) := fun v1158 => decidable_of_iff' _ (Iff.of_eq (k0_chk106.eq_1 v1158))
theorem k0_off317_inb : ∀ (v1158 : BitVec 32) (k0_hw106 : k0_chk106 v1158), ∀ a, (k0_off317 v1158) a + S1x1x1024.size a ≤ S50257x1x1024.size a := fun v1158 k0_hw106 => k0_hw106.1
theorem k0_off318_inb : ∀ (v1158 : BitVec 32) (k0_hw106 : k0_chk106 v1158), ∀ a, (k0_off318 v1158) a + S1x1x128.size a ≤ S50257x1x128.size a := fun v1158 k0_hw106 => k0_hw106.2.1
theorem k0_off490_inb : ∀ (v1158 : BitVec 32) (k0_hw106 : k0_chk106 v1158), ∀ a, (k0_off490 v1158) a + S1x1x1024.size a ≤ S50257x1x1024.size a := fun v1158 k0_hw106 => k0_hw106.2.2.1
theorem k0_off617_inb : ∀ (v1158 : BitVec 32) (k0_hw106 : k0_chk106 v1158), ∀ a, (k0_off617 v1158) a + S1x1x128.size a ≤ S50257x1x128.size a := fun v1158 k0_hw106 => k0_hw106.2.2.2

def k0_off618 (v1169 : BitVec 32) : Fin 3 → Nat :=
  let c0_i32_2453 : BitVec 32 := 0#32
  let c0_i32_2454 : BitVec 32 := 0#32
  ![v1169.toNat, 0, 0]

def k0_chk107 (v1169 : BitVec 32) : Prop :=
  (∀ a, (k0_off320 v1169) a + S1x1x1024.size a ≤ S50257x1x1024.size a) ∧
  (∀ a, (k0_off321 v1169) a + S1x1x128.size a ≤ S50257x1x128.size a) ∧
  (∀ a, (k0_off491 v1169) a + S1x1x1024.size a ≤ S50257x1x1024.size a) ∧
  (∀ a, (k0_off618 v1169) a + S1x1x128.size a ≤ S50257x1x128.size a)
instance k0_chk107.dec : ∀ (v1169 : BitVec 32), Decidable (k0_chk107 v1169) := fun v1169 => decidable_of_iff' _ (Iff.of_eq (k0_chk107.eq_1 v1169))
theorem k0_off320_inb : ∀ (v1169 : BitVec 32) (k0_hw107 : k0_chk107 v1169), ∀ a, (k0_off320 v1169) a + S1x1x1024.size a ≤ S50257x1x1024.size a := fun v1169 k0_hw107 => k0_hw107.1
theorem k0_off321_inb : ∀ (v1169 : BitVec 32) (k0_hw107 : k0_chk107 v1169), ∀ a, (k0_off321 v1169) a + S1x1x128.size a ≤ S50257x1x128.size a := fun v1169 k0_hw107 => k0_hw107.2.1
theorem k0_off491_inb : ∀ (v1169 : BitVec 32) (k0_hw107 : k0_chk107 v1169), ∀ a, (k0_off491 v1169) a + S1x1x1024.size a ≤ S50257x1x1024.size a := fun v1169 k0_hw107 => k0_hw107.2.2.1
theorem k0_off618_inb : ∀ (v1169 : BitVec 32) (k0_hw107 : k0_chk107 v1169), ∀ a, (k0_off618 v1169) a + S1x1x128.size a ≤ S50257x1x128.size a := fun v1169 k0_hw107 => k0_hw107.2.2.2

def k0_off619 (v1180 : BitVec 32) : Fin 3 → Nat :=
  let c0_i32_2458 : BitVec 32 := 0#32
  let c0_i32_2459 : BitVec 32 := 0#32
  ![v1180.toNat, 0, 0]

def k0_chk108 (v1180 : BitVec 32) : Prop :=
  (∀ a, (k0_off323 v1180) a + S1x1x1024.size a ≤ S50257x1x1024.size a) ∧
  (∀ a, (k0_off324 v1180) a + S1x1x128.size a ≤ S50257x1x128.size a) ∧
  (∀ a, (k0_off492 v1180) a + S1x1x1024.size a ≤ S50257x1x1024.size a) ∧
  (∀ a, (k0_off619 v1180) a + S1x1x128.size a ≤ S50257x1x128.size a)
instance k0_chk108.dec : ∀ (v1180 : BitVec 32), Decidable (k0_chk108 v1180) := fun v1180 => decidable_of_iff' _ (Iff.of_eq (k0_chk108.eq_1 v1180))
theorem k0_off323_inb : ∀ (v1180 : BitVec 32) (k0_hw108 : k0_chk108 v1180), ∀ a, (k0_off323 v1180) a + S1x1x1024.size a ≤ S50257x1x1024.size a := fun v1180 k0_hw108 => k0_hw108.1
theorem k0_off324_inb : ∀ (v1180 : BitVec 32) (k0_hw108 : k0_chk108 v1180), ∀ a, (k0_off324 v1180) a + S1x1x128.size a ≤ S50257x1x128.size a := fun v1180 k0_hw108 => k0_hw108.2.1
theorem k0_off492_inb : ∀ (v1180 : BitVec 32) (k0_hw108 : k0_chk108 v1180), ∀ a, (k0_off492 v1180) a + S1x1x1024.size a ≤ S50257x1x1024.size a := fun v1180 k0_hw108 => k0_hw108.2.2.1
theorem k0_off619_inb : ∀ (v1180 : BitVec 32) (k0_hw108 : k0_chk108 v1180), ∀ a, (k0_off619 v1180) a + S1x1x128.size a ≤ S50257x1x128.size a := fun v1180 k0_hw108 => k0_hw108.2.2.2

def k0_off620 (v1191 : BitVec 32) : Fin 3 → Nat :=
  let c0_i32_2463 : BitVec 32 := 0#32
  let c0_i32_2464 : BitVec 32 := 0#32
  ![v1191.toNat, 0, 0]

def k0_chk109 (v1191 : BitVec 32) : Prop :=
  (∀ a, (k0_off326 v1191) a + S1x1x1024.size a ≤ S50257x1x1024.size a) ∧
  (∀ a, (k0_off327 v1191) a + S1x1x128.size a ≤ S50257x1x128.size a) ∧
  (∀ a, (k0_off493 v1191) a + S1x1x1024.size a ≤ S50257x1x1024.size a) ∧
  (∀ a, (k0_off620 v1191) a + S1x1x128.size a ≤ S50257x1x128.size a)
instance k0_chk109.dec : ∀ (v1191 : BitVec 32), Decidable (k0_chk109 v1191) := fun v1191 => decidable_of_iff' _ (Iff.of_eq (k0_chk109.eq_1 v1191))
theorem k0_off326_inb : ∀ (v1191 : BitVec 32) (k0_hw109 : k0_chk109 v1191), ∀ a, (k0_off326 v1191) a + S1x1x1024.size a ≤ S50257x1x1024.size a := fun v1191 k0_hw109 => k0_hw109.1
theorem k0_off327_inb : ∀ (v1191 : BitVec 32) (k0_hw109 : k0_chk109 v1191), ∀ a, (k0_off327 v1191) a + S1x1x128.size a ≤ S50257x1x128.size a := fun v1191 k0_hw109 => k0_hw109.2.1
theorem k0_off493_inb : ∀ (v1191 : BitVec 32) (k0_hw109 : k0_chk109 v1191), ∀ a, (k0_off493 v1191) a + S1x1x1024.size a ≤ S50257x1x1024.size a := fun v1191 k0_hw109 => k0_hw109.2.2.1
theorem k0_off620_inb : ∀ (v1191 : BitVec 32) (k0_hw109 : k0_chk109 v1191), ∀ a, (k0_off620 v1191) a + S1x1x128.size a ≤ S50257x1x128.size a := fun v1191 k0_hw109 => k0_hw109.2.2.2

def k0_off621 (v1202 : BitVec 32) : Fin 3 → Nat :=
  let c0_i32_2468 : BitVec 32 := 0#32
  let c0_i32_2469 : BitVec 32 := 0#32
  ![v1202.toNat, 0, 0]

def k0_chk110 (v1202 : BitVec 32) : Prop :=
  (∀ a, (k0_off329 v1202) a + S1x1x1024.size a ≤ S50257x1x1024.size a) ∧
  (∀ a, (k0_off330 v1202) a + S1x1x128.size a ≤ S50257x1x128.size a) ∧
  (∀ a, (k0_off494 v1202) a + S1x1x1024.size a ≤ S50257x1x1024.size a) ∧
  (∀ a, (k0_off621 v1202) a + S1x1x128.size a ≤ S50257x1x128.size a)
instance k0_chk110.dec : ∀ (v1202 : BitVec 32), Decidable (k0_chk110 v1202) := fun v1202 => decidable_of_iff' _ (Iff.of_eq (k0_chk110.eq_1 v1202))
theorem k0_off329_inb : ∀ (v1202 : BitVec 32) (k0_hw110 : k0_chk110 v1202), ∀ a, (k0_off329 v1202) a + S1x1x1024.size a ≤ S50257x1x1024.size a := fun v1202 k0_hw110 => k0_hw110.1
theorem k0_off330_inb : ∀ (v1202 : BitVec 32) (k0_hw110 : k0_chk110 v1202), ∀ a, (k0_off330 v1202) a + S1x1x128.size a ≤ S50257x1x128.size a := fun v1202 k0_hw110 => k0_hw110.2.1
theorem k0_off494_inb : ∀ (v1202 : BitVec 32) (k0_hw110 : k0_chk110 v1202), ∀ a, (k0_off494 v1202) a + S1x1x1024.size a ≤ S50257x1x1024.size a := fun v1202 k0_hw110 => k0_hw110.2.2.1
theorem k0_off621_inb : ∀ (v1202 : BitVec 32) (k0_hw110 : k0_chk110 v1202), ∀ a, (k0_off621 v1202) a + S1x1x128.size a ≤ S50257x1x128.size a := fun v1202 k0_hw110 => k0_hw110.2.2.2

def k0_off622 (v1213 : BitVec 32) : Fin 3 → Nat :=
  let c0_i32_2473 : BitVec 32 := 0#32
  let c0_i32_2474 : BitVec 32 := 0#32
  ![v1213.toNat, 0, 0]

def k0_chk111 (v1213 : BitVec 32) : Prop :=
  (∀ a, (k0_off332 v1213) a + S1x1x1024.size a ≤ S50257x1x1024.size a) ∧
  (∀ a, (k0_off333 v1213) a + S1x1x128.size a ≤ S50257x1x128.size a) ∧
  (∀ a, (k0_off495 v1213) a + S1x1x1024.size a ≤ S50257x1x1024.size a) ∧
  (∀ a, (k0_off622 v1213) a + S1x1x128.size a ≤ S50257x1x128.size a)
instance k0_chk111.dec : ∀ (v1213 : BitVec 32), Decidable (k0_chk111 v1213) := fun v1213 => decidable_of_iff' _ (Iff.of_eq (k0_chk111.eq_1 v1213))
theorem k0_off332_inb : ∀ (v1213 : BitVec 32) (k0_hw111 : k0_chk111 v1213), ∀ a, (k0_off332 v1213) a + S1x1x1024.size a ≤ S50257x1x1024.size a := fun v1213 k0_hw111 => k0_hw111.1
theorem k0_off333_inb : ∀ (v1213 : BitVec 32) (k0_hw111 : k0_chk111 v1213), ∀ a, (k0_off333 v1213) a + S1x1x128.size a ≤ S50257x1x128.size a := fun v1213 k0_hw111 => k0_hw111.2.1
theorem k0_off495_inb : ∀ (v1213 : BitVec 32) (k0_hw111 : k0_chk111 v1213), ∀ a, (k0_off495 v1213) a + S1x1x1024.size a ≤ S50257x1x1024.size a := fun v1213 k0_hw111 => k0_hw111.2.2.1
theorem k0_off622_inb : ∀ (v1213 : BitVec 32) (k0_hw111 : k0_chk111 v1213), ∀ a, (k0_off622 v1213) a + S1x1x128.size a ≤ S50257x1x128.size a := fun v1213 k0_hw111 => k0_hw111.2.2.2

def k0_off623 (v1224 : BitVec 32) : Fin 3 → Nat :=
  let c0_i32_2478 : BitVec 32 := 0#32
  let c0_i32_2479 : BitVec 32 := 0#32
  ![v1224.toNat, 0, 0]

def k0_chk112 (v1224 : BitVec 32) : Prop :=
  (∀ a, (k0_off335 v1224) a + S1x1x1024.size a ≤ S50257x1x1024.size a) ∧
  (∀ a, (k0_off336 v1224) a + S1x1x128.size a ≤ S50257x1x128.size a) ∧
  (∀ a, (k0_off496 v1224) a + S1x1x1024.size a ≤ S50257x1x1024.size a) ∧
  (∀ a, (k0_off623 v1224) a + S1x1x128.size a ≤ S50257x1x128.size a)
instance k0_chk112.dec : ∀ (v1224 : BitVec 32), Decidable (k0_chk112 v1224) := fun v1224 => decidable_of_iff' _ (Iff.of_eq (k0_chk112.eq_1 v1224))
theorem k0_off335_inb : ∀ (v1224 : BitVec 32) (k0_hw112 : k0_chk112 v1224), ∀ a, (k0_off335 v1224) a + S1x1x1024.size a ≤ S50257x1x1024.size a := fun v1224 k0_hw112 => k0_hw112.1
theorem k0_off336_inb : ∀ (v1224 : BitVec 32) (k0_hw112 : k0_chk112 v1224), ∀ a, (k0_off336 v1224) a + S1x1x128.size a ≤ S50257x1x128.size a := fun v1224 k0_hw112 => k0_hw112.2.1
theorem k0_off496_inb : ∀ (v1224 : BitVec 32) (k0_hw112 : k0_chk112 v1224), ∀ a, (k0_off496 v1224) a + S1x1x1024.size a ≤ S50257x1x1024.size a := fun v1224 k0_hw112 => k0_hw112.2.2.1
theorem k0_off623_inb : ∀ (v1224 : BitVec 32) (k0_hw112 : k0_chk112 v1224), ∀ a, (k0_off623 v1224) a + S1x1x128.size a ≤ S50257x1x128.size a := fun v1224 k0_hw112 => k0_hw112.2.2.2

def k0_off624 (v1235 : BitVec 32) : Fin 3 → Nat :=
  let c0_i32_2483 : BitVec 32 := 0#32
  let c0_i32_2484 : BitVec 32 := 0#32
  ![v1235.toNat, 0, 0]

def k0_chk113 (v1235 : BitVec 32) : Prop :=
  (∀ a, (k0_off338 v1235) a + S1x1x1024.size a ≤ S50257x1x1024.size a) ∧
  (∀ a, (k0_off339 v1235) a + S1x1x128.size a ≤ S50257x1x128.size a) ∧
  (∀ a, (k0_off497 v1235) a + S1x1x1024.size a ≤ S50257x1x1024.size a) ∧
  (∀ a, (k0_off624 v1235) a + S1x1x128.size a ≤ S50257x1x128.size a)
instance k0_chk113.dec : ∀ (v1235 : BitVec 32), Decidable (k0_chk113 v1235) := fun v1235 => decidable_of_iff' _ (Iff.of_eq (k0_chk113.eq_1 v1235))
theorem k0_off338_inb : ∀ (v1235 : BitVec 32) (k0_hw113 : k0_chk113 v1235), ∀ a, (k0_off338 v1235) a + S1x1x1024.size a ≤ S50257x1x1024.size a := fun v1235 k0_hw113 => k0_hw113.1
theorem k0_off339_inb : ∀ (v1235 : BitVec 32) (k0_hw113 : k0_chk113 v1235), ∀ a, (k0_off339 v1235) a + S1x1x128.size a ≤ S50257x1x128.size a := fun v1235 k0_hw113 => k0_hw113.2.1
theorem k0_off497_inb : ∀ (v1235 : BitVec 32) (k0_hw113 : k0_chk113 v1235), ∀ a, (k0_off497 v1235) a + S1x1x1024.size a ≤ S50257x1x1024.size a := fun v1235 k0_hw113 => k0_hw113.2.2.1
theorem k0_off624_inb : ∀ (v1235 : BitVec 32) (k0_hw113 : k0_chk113 v1235), ∀ a, (k0_off624 v1235) a + S1x1x128.size a ≤ S50257x1x128.size a := fun v1235 k0_hw113 => k0_hw113.2.2.2

def k0_off625 (v1246 : BitVec 32) : Fin 3 → Nat :=
  let c0_i32_2488 : BitVec 32 := 0#32
  let c0_i32_2489 : BitVec 32 := 0#32
  ![v1246.toNat, 0, 0]

def k0_chk114 (v1246 : BitVec 32) : Prop :=
  (∀ a, (k0_off341 v1246) a + S1x1x1024.size a ≤ S50257x1x1024.size a) ∧
  (∀ a, (k0_off342 v1246) a + S1x1x128.size a ≤ S50257x1x128.size a) ∧
  (∀ a, (k0_off498 v1246) a + S1x1x1024.size a ≤ S50257x1x1024.size a) ∧
  (∀ a, (k0_off625 v1246) a + S1x1x128.size a ≤ S50257x1x128.size a)
instance k0_chk114.dec : ∀ (v1246 : BitVec 32), Decidable (k0_chk114 v1246) := fun v1246 => decidable_of_iff' _ (Iff.of_eq (k0_chk114.eq_1 v1246))
theorem k0_off341_inb : ∀ (v1246 : BitVec 32) (k0_hw114 : k0_chk114 v1246), ∀ a, (k0_off341 v1246) a + S1x1x1024.size a ≤ S50257x1x1024.size a := fun v1246 k0_hw114 => k0_hw114.1
theorem k0_off342_inb : ∀ (v1246 : BitVec 32) (k0_hw114 : k0_chk114 v1246), ∀ a, (k0_off342 v1246) a + S1x1x128.size a ≤ S50257x1x128.size a := fun v1246 k0_hw114 => k0_hw114.2.1
theorem k0_off498_inb : ∀ (v1246 : BitVec 32) (k0_hw114 : k0_chk114 v1246), ∀ a, (k0_off498 v1246) a + S1x1x1024.size a ≤ S50257x1x1024.size a := fun v1246 k0_hw114 => k0_hw114.2.2.1
theorem k0_off625_inb : ∀ (v1246 : BitVec 32) (k0_hw114 : k0_chk114 v1246), ∀ a, (k0_off625 v1246) a + S1x1x128.size a ≤ S50257x1x128.size a := fun v1246 k0_hw114 => k0_hw114.2.2.2

def k0_off626 (v1257 : BitVec 32) : Fin 3 → Nat :=
  let c0_i32_2493 : BitVec 32 := 0#32
  let c0_i32_2494 : BitVec 32 := 0#32
  ![v1257.toNat, 0, 0]

def k0_chk115 (v1257 : BitVec 32) : Prop :=
  (∀ a, (k0_off344 v1257) a + S1x1x1024.size a ≤ S50257x1x1024.size a) ∧
  (∀ a, (k0_off345 v1257) a + S1x1x128.size a ≤ S50257x1x128.size a) ∧
  (∀ a, (k0_off499 v1257) a + S1x1x1024.size a ≤ S50257x1x1024.size a) ∧
  (∀ a, (k0_off626 v1257) a + S1x1x128.size a ≤ S50257x1x128.size a)
instance k0_chk115.dec : ∀ (v1257 : BitVec 32), Decidable (k0_chk115 v1257) := fun v1257 => decidable_of_iff' _ (Iff.of_eq (k0_chk115.eq_1 v1257))
theorem k0_off344_inb : ∀ (v1257 : BitVec 32) (k0_hw115 : k0_chk115 v1257), ∀ a, (k0_off344 v1257) a + S1x1x1024.size a ≤ S50257x1x1024.size a := fun v1257 k0_hw115 => k0_hw115.1
theorem k0_off345_inb : ∀ (v1257 : BitVec 32) (k0_hw115 : k0_chk115 v1257), ∀ a, (k0_off345 v1257) a + S1x1x128.size a ≤ S50257x1x128.size a := fun v1257 k0_hw115 => k0_hw115.2.1
theorem k0_off499_inb : ∀ (v1257 : BitVec 32) (k0_hw115 : k0_chk115 v1257), ∀ a, (k0_off499 v1257) a + S1x1x1024.size a ≤ S50257x1x1024.size a := fun v1257 k0_hw115 => k0_hw115.2.2.1
theorem k0_off626_inb : ∀ (v1257 : BitVec 32) (k0_hw115 : k0_chk115 v1257), ∀ a, (k0_off626 v1257) a + S1x1x128.size a ≤ S50257x1x128.size a := fun v1257 k0_hw115 => k0_hw115.2.2.2

def k0_off627 (v1268 : BitVec 32) : Fin 3 → Nat :=
  let c0_i32_2498 : BitVec 32 := 0#32
  let c0_i32_2499 : BitVec 32 := 0#32
  ![v1268.toNat, 0, 0]

def k0_chk116 (v1268 : BitVec 32) : Prop :=
  (∀ a, (k0_off347 v1268) a + S1x1x1024.size a ≤ S50257x1x1024.size a) ∧
  (∀ a, (k0_off348 v1268) a + S1x1x128.size a ≤ S50257x1x128.size a) ∧
  (∀ a, (k0_off500 v1268) a + S1x1x1024.size a ≤ S50257x1x1024.size a) ∧
  (∀ a, (k0_off627 v1268) a + S1x1x128.size a ≤ S50257x1x128.size a)
instance k0_chk116.dec : ∀ (v1268 : BitVec 32), Decidable (k0_chk116 v1268) := fun v1268 => decidable_of_iff' _ (Iff.of_eq (k0_chk116.eq_1 v1268))
theorem k0_off347_inb : ∀ (v1268 : BitVec 32) (k0_hw116 : k0_chk116 v1268), ∀ a, (k0_off347 v1268) a + S1x1x1024.size a ≤ S50257x1x1024.size a := fun v1268 k0_hw116 => k0_hw116.1
theorem k0_off348_inb : ∀ (v1268 : BitVec 32) (k0_hw116 : k0_chk116 v1268), ∀ a, (k0_off348 v1268) a + S1x1x128.size a ≤ S50257x1x128.size a := fun v1268 k0_hw116 => k0_hw116.2.1
theorem k0_off500_inb : ∀ (v1268 : BitVec 32) (k0_hw116 : k0_chk116 v1268), ∀ a, (k0_off500 v1268) a + S1x1x1024.size a ≤ S50257x1x1024.size a := fun v1268 k0_hw116 => k0_hw116.2.2.1
theorem k0_off627_inb : ∀ (v1268 : BitVec 32) (k0_hw116 : k0_chk116 v1268), ∀ a, (k0_off627 v1268) a + S1x1x128.size a ≤ S50257x1x128.size a := fun v1268 k0_hw116 => k0_hw116.2.2.2

def k0_off628 (v1279 : BitVec 32) : Fin 3 → Nat :=
  let c0_i32_2503 : BitVec 32 := 0#32
  let c0_i32_2504 : BitVec 32 := 0#32
  ![v1279.toNat, 0, 0]

def k0_chk117 (v1279 : BitVec 32) : Prop :=
  (∀ a, (k0_off350 v1279) a + S1x1x1024.size a ≤ S50257x1x1024.size a) ∧
  (∀ a, (k0_off351 v1279) a + S1x1x128.size a ≤ S50257x1x128.size a) ∧
  (∀ a, (k0_off501 v1279) a + S1x1x1024.size a ≤ S50257x1x1024.size a) ∧
  (∀ a, (k0_off628 v1279) a + S1x1x128.size a ≤ S50257x1x128.size a)
instance k0_chk117.dec : ∀ (v1279 : BitVec 32), Decidable (k0_chk117 v1279) := fun v1279 => decidable_of_iff' _ (Iff.of_eq (k0_chk117.eq_1 v1279))
theorem k0_off350_inb : ∀ (v1279 : BitVec 32) (k0_hw117 : k0_chk117 v1279), ∀ a, (k0_off350 v1279) a + S1x1x1024.size a ≤ S50257x1x1024.size a := fun v1279 k0_hw117 => k0_hw117.1
theorem k0_off351_inb : ∀ (v1279 : BitVec 32) (k0_hw117 : k0_chk117 v1279), ∀ a, (k0_off351 v1279) a + S1x1x128.size a ≤ S50257x1x128.size a := fun v1279 k0_hw117 => k0_hw117.2.1
theorem k0_off501_inb : ∀ (v1279 : BitVec 32) (k0_hw117 : k0_chk117 v1279), ∀ a, (k0_off501 v1279) a + S1x1x1024.size a ≤ S50257x1x1024.size a := fun v1279 k0_hw117 => k0_hw117.2.2.1
theorem k0_off628_inb : ∀ (v1279 : BitVec 32) (k0_hw117 : k0_chk117 v1279), ∀ a, (k0_off628 v1279) a + S1x1x128.size a ≤ S50257x1x128.size a := fun v1279 k0_hw117 => k0_hw117.2.2.2

def k0_off629 (v1290 : BitVec 32) : Fin 3 → Nat :=
  let c0_i32_2508 : BitVec 32 := 0#32
  let c0_i32_2509 : BitVec 32 := 0#32
  ![v1290.toNat, 0, 0]

def k0_chk118 (v1290 : BitVec 32) : Prop :=
  (∀ a, (k0_off353 v1290) a + S1x1x1024.size a ≤ S50257x1x1024.size a) ∧
  (∀ a, (k0_off354 v1290) a + S1x1x128.size a ≤ S50257x1x128.size a) ∧
  (∀ a, (k0_off502 v1290) a + S1x1x1024.size a ≤ S50257x1x1024.size a) ∧
  (∀ a, (k0_off629 v1290) a + S1x1x128.size a ≤ S50257x1x128.size a)
instance k0_chk118.dec : ∀ (v1290 : BitVec 32), Decidable (k0_chk118 v1290) := fun v1290 => decidable_of_iff' _ (Iff.of_eq (k0_chk118.eq_1 v1290))
theorem k0_off353_inb : ∀ (v1290 : BitVec 32) (k0_hw118 : k0_chk118 v1290), ∀ a, (k0_off353 v1290) a + S1x1x1024.size a ≤ S50257x1x1024.size a := fun v1290 k0_hw118 => k0_hw118.1
theorem k0_off354_inb : ∀ (v1290 : BitVec 32) (k0_hw118 : k0_chk118 v1290), ∀ a, (k0_off354 v1290) a + S1x1x128.size a ≤ S50257x1x128.size a := fun v1290 k0_hw118 => k0_hw118.2.1
theorem k0_off502_inb : ∀ (v1290 : BitVec 32) (k0_hw118 : k0_chk118 v1290), ∀ a, (k0_off502 v1290) a + S1x1x1024.size a ≤ S50257x1x1024.size a := fun v1290 k0_hw118 => k0_hw118.2.2.1
theorem k0_off629_inb : ∀ (v1290 : BitVec 32) (k0_hw118 : k0_chk118 v1290), ∀ a, (k0_off629 v1290) a + S1x1x128.size a ≤ S50257x1x128.size a := fun v1290 k0_hw118 => k0_hw118.2.2.2

def k0_off630 (v1301 : BitVec 32) : Fin 3 → Nat :=
  let c0_i32_2513 : BitVec 32 := 0#32
  let c0_i32_2514 : BitVec 32 := 0#32
  ![v1301.toNat, 0, 0]

def k0_chk119 (v1301 : BitVec 32) : Prop :=
  (∀ a, (k0_off356 v1301) a + S1x1x1024.size a ≤ S50257x1x1024.size a) ∧
  (∀ a, (k0_off357 v1301) a + S1x1x128.size a ≤ S50257x1x128.size a) ∧
  (∀ a, (k0_off503 v1301) a + S1x1x1024.size a ≤ S50257x1x1024.size a) ∧
  (∀ a, (k0_off630 v1301) a + S1x1x128.size a ≤ S50257x1x128.size a)
instance k0_chk119.dec : ∀ (v1301 : BitVec 32), Decidable (k0_chk119 v1301) := fun v1301 => decidable_of_iff' _ (Iff.of_eq (k0_chk119.eq_1 v1301))
theorem k0_off356_inb : ∀ (v1301 : BitVec 32) (k0_hw119 : k0_chk119 v1301), ∀ a, (k0_off356 v1301) a + S1x1x1024.size a ≤ S50257x1x1024.size a := fun v1301 k0_hw119 => k0_hw119.1
theorem k0_off357_inb : ∀ (v1301 : BitVec 32) (k0_hw119 : k0_chk119 v1301), ∀ a, (k0_off357 v1301) a + S1x1x128.size a ≤ S50257x1x128.size a := fun v1301 k0_hw119 => k0_hw119.2.1
theorem k0_off503_inb : ∀ (v1301 : BitVec 32) (k0_hw119 : k0_chk119 v1301), ∀ a, (k0_off503 v1301) a + S1x1x1024.size a ≤ S50257x1x1024.size a := fun v1301 k0_hw119 => k0_hw119.2.2.1
theorem k0_off630_inb : ∀ (v1301 : BitVec 32) (k0_hw119 : k0_chk119 v1301), ∀ a, (k0_off630 v1301) a + S1x1x128.size a ≤ S50257x1x128.size a := fun v1301 k0_hw119 => k0_hw119.2.2.2

def k0_off631 (v1312 : BitVec 32) : Fin 3 → Nat :=
  let c0_i32_2518 : BitVec 32 := 0#32
  let c0_i32_2519 : BitVec 32 := 0#32
  ![v1312.toNat, 0, 0]

def k0_chk120 (v1312 : BitVec 32) : Prop :=
  (∀ a, (k0_off359 v1312) a + S1x1x1024.size a ≤ S50257x1x1024.size a) ∧
  (∀ a, (k0_off360 v1312) a + S1x1x128.size a ≤ S50257x1x128.size a) ∧
  (∀ a, (k0_off504 v1312) a + S1x1x1024.size a ≤ S50257x1x1024.size a) ∧
  (∀ a, (k0_off631 v1312) a + S1x1x128.size a ≤ S50257x1x128.size a)
instance k0_chk120.dec : ∀ (v1312 : BitVec 32), Decidable (k0_chk120 v1312) := fun v1312 => decidable_of_iff' _ (Iff.of_eq (k0_chk120.eq_1 v1312))
theorem k0_off359_inb : ∀ (v1312 : BitVec 32) (k0_hw120 : k0_chk120 v1312), ∀ a, (k0_off359 v1312) a + S1x1x1024.size a ≤ S50257x1x1024.size a := fun v1312 k0_hw120 => k0_hw120.1
theorem k0_off360_inb : ∀ (v1312 : BitVec 32) (k0_hw120 : k0_chk120 v1312), ∀ a, (k0_off360 v1312) a + S1x1x128.size a ≤ S50257x1x128.size a := fun v1312 k0_hw120 => k0_hw120.2.1
theorem k0_off504_inb : ∀ (v1312 : BitVec 32) (k0_hw120 : k0_chk120 v1312), ∀ a, (k0_off504 v1312) a + S1x1x1024.size a ≤ S50257x1x1024.size a := fun v1312 k0_hw120 => k0_hw120.2.2.1
theorem k0_off631_inb : ∀ (v1312 : BitVec 32) (k0_hw120 : k0_chk120 v1312), ∀ a, (k0_off631 v1312) a + S1x1x128.size a ≤ S50257x1x128.size a := fun v1312 k0_hw120 => k0_hw120.2.2.2

def k0_off632 (v1323 : BitVec 32) : Fin 3 → Nat :=
  let c0_i32_2523 : BitVec 32 := 0#32
  let c0_i32_2524 : BitVec 32 := 0#32
  ![v1323.toNat, 0, 0]

def k0_chk121 (v1323 : BitVec 32) : Prop :=
  (∀ a, (k0_off362 v1323) a + S1x1x1024.size a ≤ S50257x1x1024.size a) ∧
  (∀ a, (k0_off363 v1323) a + S1x1x128.size a ≤ S50257x1x128.size a) ∧
  (∀ a, (k0_off505 v1323) a + S1x1x1024.size a ≤ S50257x1x1024.size a) ∧
  (∀ a, (k0_off632 v1323) a + S1x1x128.size a ≤ S50257x1x128.size a)
instance k0_chk121.dec : ∀ (v1323 : BitVec 32), Decidable (k0_chk121 v1323) := fun v1323 => decidable_of_iff' _ (Iff.of_eq (k0_chk121.eq_1 v1323))
theorem k0_off362_inb : ∀ (v1323 : BitVec 32) (k0_hw121 : k0_chk121 v1323), ∀ a, (k0_off362 v1323) a + S1x1x1024.size a ≤ S50257x1x1024.size a := fun v1323 k0_hw121 => k0_hw121.1
theorem k0_off363_inb : ∀ (v1323 : BitVec 32) (k0_hw121 : k0_chk121 v1323), ∀ a, (k0_off363 v1323) a + S1x1x128.size a ≤ S50257x1x128.size a := fun v1323 k0_hw121 => k0_hw121.2.1
theorem k0_off505_inb : ∀ (v1323 : BitVec 32) (k0_hw121 : k0_chk121 v1323), ∀ a, (k0_off505 v1323) a + S1x1x1024.size a ≤ S50257x1x1024.size a := fun v1323 k0_hw121 => k0_hw121.2.2.1
theorem k0_off632_inb : ∀ (v1323 : BitVec 32) (k0_hw121 : k0_chk121 v1323), ∀ a, (k0_off632 v1323) a + S1x1x128.size a ≤ S50257x1x128.size a := fun v1323 k0_hw121 => k0_hw121.2.2.2

def k0_off633 (v1334 : BitVec 32) : Fin 3 → Nat :=
  let c0_i32_2528 : BitVec 32 := 0#32
  let c0_i32_2529 : BitVec 32 := 0#32
  ![v1334.toNat, 0, 0]

def k0_chk122 (v1334 : BitVec 32) : Prop :=
  (∀ a, (k0_off365 v1334) a + S1x1x1024.size a ≤ S50257x1x1024.size a) ∧
  (∀ a, (k0_off366 v1334) a + S1x1x128.size a ≤ S50257x1x128.size a) ∧
  (∀ a, (k0_off506 v1334) a + S1x1x1024.size a ≤ S50257x1x1024.size a) ∧
  (∀ a, (k0_off633 v1334) a + S1x1x128.size a ≤ S50257x1x128.size a)
instance k0_chk122.dec : ∀ (v1334 : BitVec 32), Decidable (k0_chk122 v1334) := fun v1334 => decidable_of_iff' _ (Iff.of_eq (k0_chk122.eq_1 v1334))
theorem k0_off365_inb : ∀ (v1334 : BitVec 32) (k0_hw122 : k0_chk122 v1334), ∀ a, (k0_off365 v1334) a + S1x1x1024.size a ≤ S50257x1x1024.size a := fun v1334 k0_hw122 => k0_hw122.1
theorem k0_off366_inb : ∀ (v1334 : BitVec 32) (k0_hw122 : k0_chk122 v1334), ∀ a, (k0_off366 v1334) a + S1x1x128.size a ≤ S50257x1x128.size a := fun v1334 k0_hw122 => k0_hw122.2.1
theorem k0_off506_inb : ∀ (v1334 : BitVec 32) (k0_hw122 : k0_chk122 v1334), ∀ a, (k0_off506 v1334) a + S1x1x1024.size a ≤ S50257x1x1024.size a := fun v1334 k0_hw122 => k0_hw122.2.2.1
theorem k0_off633_inb : ∀ (v1334 : BitVec 32) (k0_hw122 : k0_chk122 v1334), ∀ a, (k0_off633 v1334) a + S1x1x128.size a ≤ S50257x1x128.size a := fun v1334 k0_hw122 => k0_hw122.2.2.2

def k0_off634 (v1345 : BitVec 32) : Fin 3 → Nat :=
  let c0_i32_2533 : BitVec 32 := 0#32
  let c0_i32_2534 : BitVec 32 := 0#32
  ![v1345.toNat, 0, 0]

def k0_chk123 (v1345 : BitVec 32) : Prop :=
  (∀ a, (k0_off368 v1345) a + S1x1x1024.size a ≤ S50257x1x1024.size a) ∧
  (∀ a, (k0_off369 v1345) a + S1x1x128.size a ≤ S50257x1x128.size a) ∧
  (∀ a, (k0_off507 v1345) a + S1x1x1024.size a ≤ S50257x1x1024.size a) ∧
  (∀ a, (k0_off634 v1345) a + S1x1x128.size a ≤ S50257x1x128.size a)
instance k0_chk123.dec : ∀ (v1345 : BitVec 32), Decidable (k0_chk123 v1345) := fun v1345 => decidable_of_iff' _ (Iff.of_eq (k0_chk123.eq_1 v1345))
theorem k0_off368_inb : ∀ (v1345 : BitVec 32) (k0_hw123 : k0_chk123 v1345), ∀ a, (k0_off368 v1345) a + S1x1x1024.size a ≤ S50257x1x1024.size a := fun v1345 k0_hw123 => k0_hw123.1
theorem k0_off369_inb : ∀ (v1345 : BitVec 32) (k0_hw123 : k0_chk123 v1345), ∀ a, (k0_off369 v1345) a + S1x1x128.size a ≤ S50257x1x128.size a := fun v1345 k0_hw123 => k0_hw123.2.1
theorem k0_off507_inb : ∀ (v1345 : BitVec 32) (k0_hw123 : k0_chk123 v1345), ∀ a, (k0_off507 v1345) a + S1x1x1024.size a ≤ S50257x1x1024.size a := fun v1345 k0_hw123 => k0_hw123.2.2.1
theorem k0_off634_inb : ∀ (v1345 : BitVec 32) (k0_hw123 : k0_chk123 v1345), ∀ a, (k0_off634 v1345) a + S1x1x128.size a ≤ S50257x1x128.size a := fun v1345 k0_hw123 => k0_hw123.2.2.2

def k0_off635 (v1356 : BitVec 32) : Fin 3 → Nat :=
  let c0_i32_2538 : BitVec 32 := 0#32
  let c0_i32_2539 : BitVec 32 := 0#32
  ![v1356.toNat, 0, 0]

def k0_chk124 (v1356 : BitVec 32) : Prop :=
  (∀ a, (k0_off371 v1356) a + S1x1x1024.size a ≤ S50257x1x1024.size a) ∧
  (∀ a, (k0_off372 v1356) a + S1x1x128.size a ≤ S50257x1x128.size a) ∧
  (∀ a, (k0_off508 v1356) a + S1x1x1024.size a ≤ S50257x1x1024.size a) ∧
  (∀ a, (k0_off635 v1356) a + S1x1x128.size a ≤ S50257x1x128.size a)
instance k0_chk124.dec : ∀ (v1356 : BitVec 32), Decidable (k0_chk124 v1356) := fun v1356 => decidable_of_iff' _ (Iff.of_eq (k0_chk124.eq_1 v1356))
theorem k0_off371_inb : ∀ (v1356 : BitVec 32) (k0_hw124 : k0_chk124 v1356), ∀ a, (k0_off371 v1356) a + S1x1x1024.size a ≤ S50257x1x1024.size a := fun v1356 k0_hw124 => k0_hw124.1
theorem k0_off372_inb : ∀ (v1356 : BitVec 32) (k0_hw124 : k0_chk124 v1356), ∀ a, (k0_off372 v1356) a + S1x1x128.size a ≤ S50257x1x128.size a := fun v1356 k0_hw124 => k0_hw124.2.1
theorem k0_off508_inb : ∀ (v1356 : BitVec 32) (k0_hw124 : k0_chk124 v1356), ∀ a, (k0_off508 v1356) a + S1x1x1024.size a ≤ S50257x1x1024.size a := fun v1356 k0_hw124 => k0_hw124.2.2.1
theorem k0_off635_inb : ∀ (v1356 : BitVec 32) (k0_hw124 : k0_chk124 v1356), ∀ a, (k0_off635 v1356) a + S1x1x128.size a ≤ S50257x1x128.size a := fun v1356 k0_hw124 => k0_hw124.2.2.2

def k0_off636 (v1367 : BitVec 32) : Fin 3 → Nat :=
  let c0_i32_2543 : BitVec 32 := 0#32
  let c0_i32_2544 : BitVec 32 := 0#32
  ![v1367.toNat, 0, 0]

def k0_chk125 (v1367 : BitVec 32) : Prop :=
  (∀ a, (k0_off374 v1367) a + S1x1x1024.size a ≤ S50257x1x1024.size a) ∧
  (∀ a, (k0_off375 v1367) a + S1x1x128.size a ≤ S50257x1x128.size a) ∧
  (∀ a, (k0_off509 v1367) a + S1x1x1024.size a ≤ S50257x1x1024.size a) ∧
  (∀ a, (k0_off636 v1367) a + S1x1x128.size a ≤ S50257x1x128.size a)
instance k0_chk125.dec : ∀ (v1367 : BitVec 32), Decidable (k0_chk125 v1367) := fun v1367 => decidable_of_iff' _ (Iff.of_eq (k0_chk125.eq_1 v1367))
theorem k0_off374_inb : ∀ (v1367 : BitVec 32) (k0_hw125 : k0_chk125 v1367), ∀ a, (k0_off374 v1367) a + S1x1x1024.size a ≤ S50257x1x1024.size a := fun v1367 k0_hw125 => k0_hw125.1
theorem k0_off375_inb : ∀ (v1367 : BitVec 32) (k0_hw125 : k0_chk125 v1367), ∀ a, (k0_off375 v1367) a + S1x1x128.size a ≤ S50257x1x128.size a := fun v1367 k0_hw125 => k0_hw125.2.1
theorem k0_off509_inb : ∀ (v1367 : BitVec 32) (k0_hw125 : k0_chk125 v1367), ∀ a, (k0_off509 v1367) a + S1x1x1024.size a ≤ S50257x1x1024.size a := fun v1367 k0_hw125 => k0_hw125.2.2.1
theorem k0_off636_inb : ∀ (v1367 : BitVec 32) (k0_hw125 : k0_chk125 v1367), ∀ a, (k0_off636 v1367) a + S1x1x128.size a ≤ S50257x1x128.size a := fun v1367 k0_hw125 => k0_hw125.2.2.2

def k0_off637 (v1378 : BitVec 32) : Fin 3 → Nat :=
  let c0_i32_2548 : BitVec 32 := 0#32
  let c0_i32_2549 : BitVec 32 := 0#32
  ![v1378.toNat, 0, 0]

def k0_chk126 (v1378 : BitVec 32) : Prop :=
  (∀ a, (k0_off377 v1378) a + S1x1x1024.size a ≤ S50257x1x1024.size a) ∧
  (∀ a, (k0_off378 v1378) a + S1x1x128.size a ≤ S50257x1x128.size a) ∧
  (∀ a, (k0_off510 v1378) a + S1x1x1024.size a ≤ S50257x1x1024.size a) ∧
  (∀ a, (k0_off637 v1378) a + S1x1x128.size a ≤ S50257x1x128.size a)
instance k0_chk126.dec : ∀ (v1378 : BitVec 32), Decidable (k0_chk126 v1378) := fun v1378 => decidable_of_iff' _ (Iff.of_eq (k0_chk126.eq_1 v1378))
theorem k0_off377_inb : ∀ (v1378 : BitVec 32) (k0_hw126 : k0_chk126 v1378), ∀ a, (k0_off377 v1378) a + S1x1x1024.size a ≤ S50257x1x1024.size a := fun v1378 k0_hw126 => k0_hw126.1
theorem k0_off378_inb : ∀ (v1378 : BitVec 32) (k0_hw126 : k0_chk126 v1378), ∀ a, (k0_off378 v1378) a + S1x1x128.size a ≤ S50257x1x128.size a := fun v1378 k0_hw126 => k0_hw126.2.1
theorem k0_off510_inb : ∀ (v1378 : BitVec 32) (k0_hw126 : k0_chk126 v1378), ∀ a, (k0_off510 v1378) a + S1x1x1024.size a ≤ S50257x1x1024.size a := fun v1378 k0_hw126 => k0_hw126.2.2.1
theorem k0_off637_inb : ∀ (v1378 : BitVec 32) (k0_hw126 : k0_chk126 v1378), ∀ a, (k0_off637 v1378) a + S1x1x128.size a ≤ S50257x1x128.size a := fun v1378 k0_hw126 => k0_hw126.2.2.2

def k0_off638 (v1389 : BitVec 32) : Fin 3 → Nat :=
  let c0_i32_2553 : BitVec 32 := 0#32
  let c0_i32_2554 : BitVec 32 := 0#32
  ![v1389.toNat, 0, 0]

def k0_chk127 (v1389 : BitVec 32) : Prop :=
  (∀ a, (k0_off380 v1389) a + S1x1x1024.size a ≤ S50257x1x1024.size a) ∧
  (∀ a, (k0_off381 v1389) a + S1x1x128.size a ≤ S50257x1x128.size a) ∧
  (∀ a, (k0_off511 v1389) a + S1x1x1024.size a ≤ S50257x1x1024.size a) ∧
  (∀ a, (k0_off638 v1389) a + S1x1x128.size a ≤ S50257x1x128.size a)
instance k0_chk127.dec : ∀ (v1389 : BitVec 32), Decidable (k0_chk127 v1389) := fun v1389 => decidable_of_iff' _ (Iff.of_eq (k0_chk127.eq_1 v1389))
theorem k0_off380_inb : ∀ (v1389 : BitVec 32) (k0_hw127 : k0_chk127 v1389), ∀ a, (k0_off380 v1389) a + S1x1x1024.size a ≤ S50257x1x1024.size a := fun v1389 k0_hw127 => k0_hw127.1
theorem k0_off381_inb : ∀ (v1389 : BitVec 32) (k0_hw127 : k0_chk127 v1389), ∀ a, (k0_off381 v1389) a + S1x1x128.size a ≤ S50257x1x128.size a := fun v1389 k0_hw127 => k0_hw127.2.1
theorem k0_off511_inb : ∀ (v1389 : BitVec 32) (k0_hw127 : k0_chk127 v1389), ∀ a, (k0_off511 v1389) a + S1x1x1024.size a ≤ S50257x1x1024.size a := fun v1389 k0_hw127 => k0_hw127.2.2.1
theorem k0_off638_inb : ∀ (v1389 : BitVec 32) (k0_hw127 : k0_chk127 v1389), ∀ a, (k0_off638 v1389) a + S1x1x128.size a ≤ S50257x1x128.size a := fun v1389 k0_hw127 => k0_hw127.2.2.2

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S8x2048_S16384 : S8x2048.ShapeCasts S16384
  bcast_S_S16384 : S_.BroadcastsInDim S16384 (![] : Fin 0 → Fin S16384.rank)
  shapeCasts_S50257x1024_S50257x1x1024 : S50257x1024.ShapeCasts S50257x1x1024
  pads_S50257x8_S50257x128_000_01200 : S50257x8.Pads (![0, 0] : Fin 2 → Nat) ![0, 120] ![0, 0] S50257x128
  h_S_ : 0 < S_.numel
  shapeCasts_S50257x128_S50257x1x128 : S50257x128.ShapeCasts S50257x1x128
  numel1_S1 : S1.numel = 1
  inb_S128x1x1024_S1x1x1024_0_0_0 : ∀ a, (![0, 0, 0] : Fin 3 → Nat) a + S1x1x1024.size a ≤ S128x1x1024.size a
  squeezes_S1x1x1024_S1x1024 : S1x1x1024.Squeezes S1x1024
  inb_S128x1x128_S1x1x128_0_0_0 : ∀ a, (![0, 0, 0] : Fin 3 → Nat) a + S1x1x128.size a ≤ S128x1x128.size a
  squeezes_S1x1x128_S1x128 : S1x1x128.Squeezes S1x128
  inb_S128x1x1024_S1x1x1024_1_0_0 : ∀ a, (![1, 0, 0] : Fin 3 → Nat) a + S1x1x1024.size a ≤ S128x1x1024.size a
  inb_S128x1x128_S1x1x128_1_0_0 : ∀ a, (![1, 0, 0] : Fin 3 → Nat) a + S1x1x128.size a ≤ S128x1x128.size a
  inb_S128x1x1024_S1x1x1024_2_0_0 : ∀ a, (![2, 0, 0] : Fin 3 → Nat) a + S1x1x1024.size a ≤ S128x1x1024.size a
  inb_S128x1x128_S1x1x128_2_0_0 : ∀ a, (![2, 0, 0] : Fin 3 → Nat) a + S1x1x128.size a ≤ S128x1x128.size a
  inb_S128x1x1024_S1x1x1024_3_0_0 : ∀ a, (![3, 0, 0] : Fin 3 → Nat) a + S1x1x1024.size a ≤ S128x1x1024.size a
  inb_S128x1x128_S1x1x128_3_0_0 : ∀ a, (![3, 0, 0] : Fin 3 → Nat) a + S1x1x128.size a ≤ S128x1x128.size a
  inb_S128x1x1024_S1x1x1024_4_0_0 : ∀ a, (![4, 0, 0] : Fin 3 → Nat) a + S1x1x1024.size a ≤ S128x1x1024.size a
  inb_S128x1x128_S1x1x128_4_0_0 : ∀ a, (![4, 0, 0] : Fin 3 → Nat) a + S1x1x128.size a ≤ S128x1x128.size a
  inb_S128x1x1024_S1x1x1024_5_0_0 : ∀ a, (![5, 0, 0] : Fin 3 → Nat) a + S1x1x1024.size a ≤ S128x1x1024.size a
  inb_S128x1x128_S1x1x128_5_0_0 : ∀ a, (![5, 0, 0] : Fin 3 → Nat) a + S1x1x128.size a ≤ S128x1x128.size a
  inb_S128x1x1024_S1x1x1024_6_0_0 : ∀ a, (![6, 0, 0] : Fin 3 → Nat) a + S1x1x1024.size a ≤ S128x1x1024.size a
  inb_S128x1x128_S1x1x128_6_0_0 : ∀ a, (![6, 0, 0] : Fin 3 → Nat) a + S1x1x128.size a ≤ S128x1x128.size a
  inb_S128x1x1024_S1x1x1024_7_0_0 : ∀ a, (![7, 0, 0] : Fin 3 → Nat) a + S1x1x1024.size a ≤ S128x1x1024.size a
  inb_S128x1x128_S1x1x128_7_0_0 : ∀ a, (![7, 0, 0] : Fin 3 → Nat) a + S1x1x128.size a ≤ S128x1x128.size a
  inb_S128x1x1024_S1x1x1024_8_0_0 : ∀ a, (![8, 0, 0] : Fin 3 → Nat) a + S1x1x1024.size a ≤ S128x1x1024.size a
  inb_S128x1x128_S1x1x128_8_0_0 : ∀ a, (![8, 0, 0] : Fin 3 → Nat) a + S1x1x128.size a ≤ S128x1x128.size a
  inb_S128x1x1024_S1x1x1024_9_0_0 : ∀ a, (![9, 0, 0] : Fin 3 → Nat) a + S1x1x1024.size a ≤ S128x1x1024.size a
  inb_S128x1x128_S1x1x128_9_0_0 : ∀ a, (![9, 0, 0] : Fin 3 → Nat) a + S1x1x128.size a ≤ S128x1x128.size a
  inb_S128x1x1024_S1x1x1024_10_0_0 : ∀ a, (![10, 0, 0] : Fin 3 → Nat) a + S1x1x1024.size a ≤ S128x1x1024.size a
  inb_S128x1x128_S1x1x128_10_0_0 : ∀ a, (![10, 0, 0] : Fin 3 → Nat) a + S1x1x128.size a ≤ S128x1x128.size a
  inb_S128x1x1024_S1x1x1024_11_0_0 : ∀ a, (![11, 0, 0] : Fin 3 → Nat) a + S1x1x1024.size a ≤ S128x1x1024.size a
  inb_S128x1x128_S1x1x128_11_0_0 : ∀ a, (![11, 0, 0] : Fin 3 → Nat) a + S1x1x128.size a ≤ S128x1x128.size a
  inb_S128x1x1024_S1x1x1024_12_0_0 : ∀ a, (![12, 0, 0] : Fin 3 → Nat) a + S1x1x1024.size a ≤ S128x1x1024.size a
  inb_S128x1x128_S1x1x128_12_0_0 : ∀ a, (![12, 0, 0] : Fin 3 → Nat) a + S1x1x128.size a ≤ S128x1x128.size a
  inb_S128x1x1024_S1x1x1024_13_0_0 : ∀ a, (![13, 0, 0] : Fin 3 → Nat) a + S1x1x1024.size a ≤ S128x1x1024.size a
  inb_S128x1x128_S1x1x128_13_0_0 : ∀ a, (![13, 0, 0] : Fin 3 → Nat) a + S1x1x128.size a ≤ S128x1x128.size a
  inb_S128x1x1024_S1x1x1024_14_0_0 : ∀ a, (![14, 0, 0] : Fin 3 → Nat) a + S1x1x1024.size a ≤ S128x1x1024.size a
  inb_S128x1x128_S1x1x128_14_0_0 : ∀ a, (![14, 0, 0] : Fin 3 → Nat) a + S1x1x128.size a ≤ S128x1x128.size a
  inb_S128x1x1024_S1x1x1024_15_0_0 : ∀ a, (![15, 0, 0] : Fin 3 → Nat) a + S1x1x1024.size a ≤ S128x1x1024.size a
  inb_S128x1x128_S1x1x128_15_0_0 : ∀ a, (![15, 0, 0] : Fin 3 → Nat) a + S1x1x128.size a ≤ S128x1x128.size a
  inb_S128x1x1024_S1x1x1024_16_0_0 : ∀ a, (![16, 0, 0] : Fin 3 → Nat) a + S1x1x1024.size a ≤ S128x1x1024.size a
  inb_S128x1x128_S1x1x128_16_0_0 : ∀ a, (![16, 0, 0] : Fin 3 → Nat) a + S1x1x128.size a ≤ S128x1x128.size a
  inb_S128x1x1024_S1x1x1024_17_0_0 : ∀ a, (![17, 0, 0] : Fin 3 → Nat) a + S1x1x1024.size a ≤ S128x1x1024.size a
  inb_S128x1x128_S1x1x128_17_0_0 : ∀ a, (![17, 0, 0] : Fin 3 → Nat) a + S1x1x128.size a ≤ S128x1x128.size a
  inb_S128x1x1024_S1x1x1024_18_0_0 : ∀ a, (![18, 0, 0] : Fin 3 → Nat) a + S1x1x1024.size a ≤ S128x1x1024.size a
  inb_S128x1x128_S1x1x128_18_0_0 : ∀ a, (![18, 0, 0] : Fin 3 → Nat) a + S1x1x128.size a ≤ S128x1x128.size a
  inb_S128x1x1024_S1x1x1024_19_0_0 : ∀ a, (![19, 0, 0] : Fin 3 → Nat) a + S1x1x1024.size a ≤ S128x1x1024.size a
  inb_S128x1x128_S1x1x128_19_0_0 : ∀ a, (![19, 0, 0] : Fin 3 → Nat) a + S1x1x128.size a ≤ S128x1x128.size a
  inb_S128x1x1024_S1x1x1024_20_0_0 : ∀ a, (![20, 0, 0] : Fin 3 → Nat) a + S1x1x1024.size a ≤ S128x1x1024.size a
  inb_S128x1x128_S1x1x128_20_0_0 : ∀ a, (![20, 0, 0] : Fin 3 → Nat) a + S1x1x128.size a ≤ S128x1x128.size a
  inb_S128x1x1024_S1x1x1024_21_0_0 : ∀ a, (![21, 0, 0] : Fin 3 → Nat) a + S1x1x1024.size a ≤ S128x1x1024.size a
  inb_S128x1x128_S1x1x128_21_0_0 : ∀ a, (![21, 0, 0] : Fin 3 → Nat) a + S1x1x128.size a ≤ S128x1x128.size a
  inb_S128x1x1024_S1x1x1024_22_0_0 : ∀ a, (![22, 0, 0] : Fin 3 → Nat) a + S1x1x1024.size a ≤ S128x1x1024.size a
  inb_S128x1x128_S1x1x128_22_0_0 : ∀ a, (![22, 0, 0] : Fin 3 → Nat) a + S1x1x128.size a ≤ S128x1x128.size a
  inb_S128x1x1024_S1x1x1024_23_0_0 : ∀ a, (![23, 0, 0] : Fin 3 → Nat) a + S1x1x1024.size a ≤ S128x1x1024.size a
  inb_S128x1x128_S1x1x128_23_0_0 : ∀ a, (![23, 0, 0] : Fin 3 → Nat) a + S1x1x128.size a ≤ S128x1x128.size a
  inb_S128x1x1024_S1x1x1024_24_0_0 : ∀ a, (![24, 0, 0] : Fin 3 → Nat) a + S1x1x1024.size a ≤ S128x1x1024.size a
  inb_S128x1x128_S1x1x128_24_0_0 : ∀ a, (![24, 0, 0] : Fin 3 → Nat) a + S1x1x128.size a ≤ S128x1x128.size a
  inb_S128x1x1024_S1x1x1024_25_0_0 : ∀ a, (![25, 0, 0] : Fin 3 → Nat) a + S1x1x1024.size a ≤ S128x1x1024.size a
  inb_S128x1x128_S1x1x128_25_0_0 : ∀ a, (![25, 0, 0] : Fin 3 → Nat) a + S1x1x128.size a ≤ S128x1x128.size a
  inb_S128x1x1024_S1x1x1024_26_0_0 : ∀ a, (![26, 0, 0] : Fin 3 → Nat) a + S1x1x1024.size a ≤ S128x1x1024.size a
  inb_S128x1x128_S1x1x128_26_0_0 : ∀ a, (![26, 0, 0] : Fin 3 → Nat) a + S1x1x128.size a ≤ S128x1x128.size a
  inb_S128x1x1024_S1x1x1024_27_0_0 : ∀ a, (![27, 0, 0] : Fin 3 → Nat) a + S1x1x1024.size a ≤ S128x1x1024.size a
  inb_S128x1x128_S1x1x128_27_0_0 : ∀ a, (![27, 0, 0] : Fin 3 → Nat) a + S1x1x128.size a ≤ S128x1x128.size a
  inb_S128x1x1024_S1x1x1024_28_0_0 : ∀ a, (![28, 0, 0] : Fin 3 → Nat) a + S1x1x1024.size a ≤ S128x1x1024.size a
  inb_S128x1x128_S1x1x128_28_0_0 : ∀ a, (![28, 0, 0] : Fin 3 → Nat) a + S1x1x128.size a ≤ S128x1x128.size a
  inb_S128x1x1024_S1x1x1024_29_0_0 : ∀ a, (![29, 0, 0] : Fin 3 → Nat) a + S1x1x1024.size a ≤ S128x1x1024.size a
  inb_S128x1x128_S1x1x128_29_0_0 : ∀ a, (![29, 0, 0] : Fin 3 → Nat) a + S1x1x128.size a ≤ S128x1x128.size a
  inb_S128x1x1024_S1x1x1024_30_0_0 : ∀ a, (![30, 0, 0] : Fin 3 → Nat) a + S1x1x1024.size a ≤ S128x1x1024.size a
  inb_S128x1x128_S1x1x128_30_0_0 : ∀ a, (![30, 0, 0] : Fin 3 → Nat) a + S1x1x128.size a ≤ S128x1x128.size a
  inb_S128x1x1024_S1x1x1024_31_0_0 : ∀ a, (![31, 0, 0] : Fin 3 → Nat) a + S1x1x1024.size a ≤ S128x1x1024.size a
  inb_S128x1x128_S1x1x128_31_0_0 : ∀ a, (![31, 0, 0] : Fin 3 → Nat) a + S1x1x128.size a ≤ S128x1x128.size a
  inb_S128x1x1024_S1x1x1024_32_0_0 : ∀ a, (![32, 0, 0] : Fin 3 → Nat) a + S1x1x1024.size a ≤ S128x1x1024.size a
  inb_S128x1x128_S1x1x128_32_0_0 : ∀ a, (![32, 0, 0] : Fin 3 → Nat) a + S1x1x128.size a ≤ S128x1x128.size a
  inb_S128x1x1024_S1x1x1024_33_0_0 : ∀ a, (![33, 0, 0] : Fin 3 → Nat) a + S1x1x1024.size a ≤ S128x1x1024.size a
  inb_S128x1x128_S1x1x128_33_0_0 : ∀ a, (![33, 0, 0] : Fin 3 → Nat) a + S1x1x128.size a ≤ S128x1x128.size a
  inb_S128x1x1024_S1x1x1024_34_0_0 : ∀ a, (![34, 0, 0] : Fin 3 → Nat) a + S1x1x1024.size a ≤ S128x1x1024.size a
  inb_S128x1x128_S1x1x128_34_0_0 : ∀ a, (![34, 0, 0] : Fin 3 → Nat) a + S1x1x128.size a ≤ S128x1x128.size a
  inb_S128x1x1024_S1x1x1024_35_0_0 : ∀ a, (![35, 0, 0] : Fin 3 → Nat) a + S1x1x1024.size a ≤ S128x1x1024.size a
  inb_S128x1x128_S1x1x128_35_0_0 : ∀ a, (![35, 0, 0] : Fin 3 → Nat) a + S1x1x128.size a ≤ S128x1x128.size a
  inb_S128x1x1024_S1x1x1024_36_0_0 : ∀ a, (![36, 0, 0] : Fin 3 → Nat) a + S1x1x1024.size a ≤ S128x1x1024.size a
  inb_S128x1x128_S1x1x128_36_0_0 : ∀ a, (![36, 0, 0] : Fin 3 → Nat) a + S1x1x128.size a ≤ S128x1x128.size a
  inb_S128x1x1024_S1x1x1024_37_0_0 : ∀ a, (![37, 0, 0] : Fin 3 → Nat) a + S1x1x1024.size a ≤ S128x1x1024.size a
  inb_S128x1x128_S1x1x128_37_0_0 : ∀ a, (![37, 0, 0] : Fin 3 → Nat) a + S1x1x128.size a ≤ S128x1x128.size a
  inb_S128x1x1024_S1x1x1024_38_0_0 : ∀ a, (![38, 0, 0] : Fin 3 → Nat) a + S1x1x1024.size a ≤ S128x1x1024.size a
  inb_S128x1x128_S1x1x128_38_0_0 : ∀ a, (![38, 0, 0] : Fin 3 → Nat) a + S1x1x128.size a ≤ S128x1x128.size a
  inb_S128x1x1024_S1x1x1024_39_0_0 : ∀ a, (![39, 0, 0] : Fin 3 → Nat) a + S1x1x1024.size a ≤ S128x1x1024.size a
  inb_S128x1x128_S1x1x128_39_0_0 : ∀ a, (![39, 0, 0] : Fin 3 → Nat) a + S1x1x128.size a ≤ S128x1x128.size a
  inb_S128x1x1024_S1x1x1024_40_0_0 : ∀ a, (![40, 0, 0] : Fin 3 → Nat) a + S1x1x1024.size a ≤ S128x1x1024.size a
  inb_S128x1x128_S1x1x128_40_0_0 : ∀ a, (![40, 0, 0] : Fin 3 → Nat) a + S1x1x128.size a ≤ S128x1x128.size a
  inb_S128x1x1024_S1x1x1024_41_0_0 : ∀ a, (![41, 0, 0] : Fin 3 → Nat) a + S1x1x1024.size a ≤ S128x1x1024.size a
  inb_S128x1x128_S1x1x128_41_0_0 : ∀ a, (![41, 0, 0] : Fin 3 → Nat) a + S1x1x128.size a ≤ S128x1x128.size a
  inb_S128x1x1024_S1x1x1024_42_0_0 : ∀ a, (![42, 0, 0] : Fin 3 → Nat) a + S1x1x1024.size a ≤ S128x1x1024.size a
  inb_S128x1x128_S1x1x128_42_0_0 : ∀ a, (![42, 0, 0] : Fin 3 → Nat) a + S1x1x128.size a ≤ S128x1x128.size a
  inb_S128x1x1024_S1x1x1024_43_0_0 : ∀ a, (![43, 0, 0] : Fin 3 → Nat) a + S1x1x1024.size a ≤ S128x1x1024.size a
  inb_S128x1x128_S1x1x128_43_0_0 : ∀ a, (![43, 0, 0] : Fin 3 → Nat) a + S1x1x128.size a ≤ S128x1x128.size a
  inb_S128x1x1024_S1x1x1024_44_0_0 : ∀ a, (![44, 0, 0] : Fin 3 → Nat) a + S1x1x1024.size a ≤ S128x1x1024.size a
  inb_S128x1x128_S1x1x128_44_0_0 : ∀ a, (![44, 0, 0] : Fin 3 → Nat) a + S1x1x128.size a ≤ S128x1x128.size a
  inb_S128x1x1024_S1x1x1024_45_0_0 : ∀ a, (![45, 0, 0] : Fin 3 → Nat) a + S1x1x1024.size a ≤ S128x1x1024.size a
  inb_S128x1x128_S1x1x128_45_0_0 : ∀ a, (![45, 0, 0] : Fin 3 → Nat) a + S1x1x128.size a ≤ S128x1x128.size a
  inb_S128x1x1024_S1x1x1024_46_0_0 : ∀ a, (![46, 0, 0] : Fin 3 → Nat) a + S1x1x1024.size a ≤ S128x1x1024.size a
  inb_S128x1x128_S1x1x128_46_0_0 : ∀ a, (![46, 0, 0] : Fin 3 → Nat) a + S1x1x128.size a ≤ S128x1x128.size a
  inb_S128x1x1024_S1x1x1024_47_0_0 : ∀ a, (![47, 0, 0] : Fin 3 → Nat) a + S1x1x1024.size a ≤ S128x1x1024.size a
  inb_S128x1x128_S1x1x128_47_0_0 : ∀ a, (![47, 0, 0] : Fin 3 → Nat) a + S1x1x128.size a ≤ S128x1x128.size a
  inb_S128x1x1024_S1x1x1024_48_0_0 : ∀ a, (![48, 0, 0] : Fin 3 → Nat) a + S1x1x1024.size a ≤ S128x1x1024.size a
  inb_S128x1x128_S1x1x128_48_0_0 : ∀ a, (![48, 0, 0] : Fin 3 → Nat) a + S1x1x128.size a ≤ S128x1x128.size a
  inb_S128x1x1024_S1x1x1024_49_0_0 : ∀ a, (![49, 0, 0] : Fin 3 → Nat) a + S1x1x1024.size a ≤ S128x1x1024.size a
  inb_S128x1x128_S1x1x128_49_0_0 : ∀ a, (![49, 0, 0] : Fin 3 → Nat) a + S1x1x128.size a ≤ S128x1x128.size a
  inb_S128x1x1024_S1x1x1024_50_0_0 : ∀ a, (![50, 0, 0] : Fin 3 → Nat) a + S1x1x1024.size a ≤ S128x1x1024.size a
  inb_S128x1x128_S1x1x128_50_0_0 : ∀ a, (![50, 0, 0] : Fin 3 → Nat) a + S1x1x128.size a ≤ S128x1x128.size a
  inb_S128x1x1024_S1x1x1024_51_0_0 : ∀ a, (![51, 0, 0] : Fin 3 → Nat) a + S1x1x1024.size a ≤ S128x1x1024.size a
  inb_S128x1x128_S1x1x128_51_0_0 : ∀ a, (![51, 0, 0] : Fin 3 → Nat) a + S1x1x128.size a ≤ S128x1x128.size a
  inb_S128x1x1024_S1x1x1024_52_0_0 : ∀ a, (![52, 0, 0] : Fin 3 → Nat) a + S1x1x1024.size a ≤ S128x1x1024.size a
  inb_S128x1x128_S1x1x128_52_0_0 : ∀ a, (![52, 0, 0] : Fin 3 → Nat) a + S1x1x128.size a ≤ S128x1x128.size a
  inb_S128x1x1024_S1x1x1024_53_0_0 : ∀ a, (![53, 0, 0] : Fin 3 → Nat) a + S1x1x1024.size a ≤ S128x1x1024.size a
  inb_S128x1x128_S1x1x128_53_0_0 : ∀ a, (![53, 0, 0] : Fin 3 → Nat) a + S1x1x128.size a ≤ S128x1x128.size a
  inb_S128x1x1024_S1x1x1024_54_0_0 : ∀ a, (![54, 0, 0] : Fin 3 → Nat) a + S1x1x1024.size a ≤ S128x1x1024.size a
  inb_S128x1x128_S1x1x128_54_0_0 : ∀ a, (![54, 0, 0] : Fin 3 → Nat) a + S1x1x128.size a ≤ S128x1x128.size a
  inb_S128x1x1024_S1x1x1024_55_0_0 : ∀ a, (![55, 0, 0] : Fin 3 → Nat) a + S1x1x1024.size a ≤ S128x1x1024.size a
  inb_S128x1x128_S1x1x128_55_0_0 : ∀ a, (![55, 0, 0] : Fin 3 → Nat) a + S1x1x128.size a ≤ S128x1x128.size a
  inb_S128x1x1024_S1x1x1024_56_0_0 : ∀ a, (![56, 0, 0] : Fin 3 → Nat) a + S1x1x1024.size a ≤ S128x1x1024.size a
  inb_S128x1x128_S1x1x128_56_0_0 : ∀ a, (![56, 0, 0] : Fin 3 → Nat) a + S1x1x128.size a ≤ S128x1x128.size a
  inb_S128x1x1024_S1x1x1024_57_0_0 : ∀ a, (![57, 0, 0] : Fin 3 → Nat) a + S1x1x1024.size a ≤ S128x1x1024.size a
  inb_S128x1x128_S1x1x128_57_0_0 : ∀ a, (![57, 0, 0] : Fin 3 → Nat) a + S1x1x128.size a ≤ S128x1x128.size a
  inb_S128x1x1024_S1x1x1024_58_0_0 : ∀ a, (![58, 0, 0] : Fin 3 → Nat) a + S1x1x1024.size a ≤ S128x1x1024.size a
  inb_S128x1x128_S1x1x128_58_0_0 : ∀ a, (![58, 0, 0] : Fin 3 → Nat) a + S1x1x128.size a ≤ S128x1x128.size a
  inb_S128x1x1024_S1x1x1024_59_0_0 : ∀ a, (![59, 0, 0] : Fin 3 → Nat) a + S1x1x1024.size a ≤ S128x1x1024.size a
  inb_S128x1x128_S1x1x128_59_0_0 : ∀ a, (![59, 0, 0] : Fin 3 → Nat) a + S1x1x128.size a ≤ S128x1x128.size a
  inb_S128x1x1024_S1x1x1024_60_0_0 : ∀ a, (![60, 0, 0] : Fin 3 → Nat) a + S1x1x1024.size a ≤ S128x1x1024.size a
  inb_S128x1x128_S1x1x128_60_0_0 : ∀ a, (![60, 0, 0] : Fin 3 → Nat) a + S1x1x128.size a ≤ S128x1x128.size a
  inb_S128x1x1024_S1x1x1024_61_0_0 : ∀ a, (![61, 0, 0] : Fin 3 → Nat) a + S1x1x1024.size a ≤ S128x1x1024.size a
  inb_S128x1x128_S1x1x128_61_0_0 : ∀ a, (![61, 0, 0] : Fin 3 → Nat) a + S1x1x128.size a ≤ S128x1x128.size a
  inb_S128x1x1024_S1x1x1024_62_0_0 : ∀ a, (![62, 0, 0] : Fin 3 → Nat) a + S1x1x1024.size a ≤ S128x1x1024.size a
  inb_S128x1x128_S1x1x128_62_0_0 : ∀ a, (![62, 0, 0] : Fin 3 → Nat) a + S1x1x128.size a ≤ S128x1x128.size a
  inb_S128x1x1024_S1x1x1024_63_0_0 : ∀ a, (![63, 0, 0] : Fin 3 → Nat) a + S1x1x1024.size a ≤ S128x1x1024.size a
  inb_S128x1x128_S1x1x128_63_0_0 : ∀ a, (![63, 0, 0] : Fin 3 → Nat) a + S1x1x128.size a ≤ S128x1x128.size a
  inb_S128x1x1024_S1x1x1024_64_0_0 : ∀ a, (![64, 0, 0] : Fin 3 → Nat) a + S1x1x1024.size a ≤ S128x1x1024.size a
  inb_S128x1x128_S1x1x128_64_0_0 : ∀ a, (![64, 0, 0] : Fin 3 → Nat) a + S1x1x128.size a ≤ S128x1x128.size a
  inb_S128x1x1024_S1x1x1024_65_0_0 : ∀ a, (![65, 0, 0] : Fin 3 → Nat) a + S1x1x1024.size a ≤ S128x1x1024.size a
  inb_S128x1x128_S1x1x128_65_0_0 : ∀ a, (![65, 0, 0] : Fin 3 → Nat) a + S1x1x128.size a ≤ S128x1x128.size a
  inb_S128x1x1024_S1x1x1024_66_0_0 : ∀ a, (![66, 0, 0] : Fin 3 → Nat) a + S1x1x1024.size a ≤ S128x1x1024.size a
  inb_S128x1x128_S1x1x128_66_0_0 : ∀ a, (![66, 0, 0] : Fin 3 → Nat) a + S1x1x128.size a ≤ S128x1x128.size a
  inb_S128x1x1024_S1x1x1024_67_0_0 : ∀ a, (![67, 0, 0] : Fin 3 → Nat) a + S1x1x1024.size a ≤ S128x1x1024.size a
  inb_S128x1x128_S1x1x128_67_0_0 : ∀ a, (![67, 0, 0] : Fin 3 → Nat) a + S1x1x128.size a ≤ S128x1x128.size a
  inb_S128x1x1024_S1x1x1024_68_0_0 : ∀ a, (![68, 0, 0] : Fin 3 → Nat) a + S1x1x1024.size a ≤ S128x1x1024.size a
  inb_S128x1x128_S1x1x128_68_0_0 : ∀ a, (![68, 0, 0] : Fin 3 → Nat) a + S1x1x128.size a ≤ S128x1x128.size a
  inb_S128x1x1024_S1x1x1024_69_0_0 : ∀ a, (![69, 0, 0] : Fin 3 → Nat) a + S1x1x1024.size a ≤ S128x1x1024.size a
  inb_S128x1x128_S1x1x128_69_0_0 : ∀ a, (![69, 0, 0] : Fin 3 → Nat) a + S1x1x128.size a ≤ S128x1x128.size a
  inb_S128x1x1024_S1x1x1024_70_0_0 : ∀ a, (![70, 0, 0] : Fin 3 → Nat) a + S1x1x1024.size a ≤ S128x1x1024.size a
  inb_S128x1x128_S1x1x128_70_0_0 : ∀ a, (![70, 0, 0] : Fin 3 → Nat) a + S1x1x128.size a ≤ S128x1x128.size a
  inb_S128x1x1024_S1x1x1024_71_0_0 : ∀ a, (![71, 0, 0] : Fin 3 → Nat) a + S1x1x1024.size a ≤ S128x1x1024.size a
  inb_S128x1x128_S1x1x128_71_0_0 : ∀ a, (![71, 0, 0] : Fin 3 → Nat) a + S1x1x128.size a ≤ S128x1x128.size a
  inb_S128x1x1024_S1x1x1024_72_0_0 : ∀ a, (![72, 0, 0] : Fin 3 → Nat) a + S1x1x1024.size a ≤ S128x1x1024.size a
  inb_S128x1x128_S1x1x128_72_0_0 : ∀ a, (![72, 0, 0] : Fin 3 → Nat) a + S1x1x128.size a ≤ S128x1x128.size a
  inb_S128x1x1024_S1x1x1024_73_0_0 : ∀ a, (![73, 0, 0] : Fin 3 → Nat) a + S1x1x1024.size a ≤ S128x1x1024.size a
  inb_S128x1x128_S1x1x128_73_0_0 : ∀ a, (![73, 0, 0] : Fin 3 → Nat) a + S1x1x128.size a ≤ S128x1x128.size a
  inb_S128x1x1024_S1x1x1024_74_0_0 : ∀ a, (![74, 0, 0] : Fin 3 → Nat) a + S1x1x1024.size a ≤ S128x1x1024.size a
  inb_S128x1x128_S1x1x128_74_0_0 : ∀ a, (![74, 0, 0] : Fin 3 → Nat) a + S1x1x128.size a ≤ S128x1x128.size a
  inb_S128x1x1024_S1x1x1024_75_0_0 : ∀ a, (![75, 0, 0] : Fin 3 → Nat) a + S1x1x1024.size a ≤ S128x1x1024.size a
  inb_S128x1x128_S1x1x128_75_0_0 : ∀ a, (![75, 0, 0] : Fin 3 → Nat) a + S1x1x128.size a ≤ S128x1x128.size a
  inb_S128x1x1024_S1x1x1024_76_0_0 : ∀ a, (![76, 0, 0] : Fin 3 → Nat) a + S1x1x1024.size a ≤ S128x1x1024.size a
  inb_S128x1x128_S1x1x128_76_0_0 : ∀ a, (![76, 0, 0] : Fin 3 → Nat) a + S1x1x128.size a ≤ S128x1x128.size a
  inb_S128x1x1024_S1x1x1024_77_0_0 : ∀ a, (![77, 0, 0] : Fin 3 → Nat) a + S1x1x1024.size a ≤ S128x1x1024.size a
  inb_S128x1x128_S1x1x128_77_0_0 : ∀ a, (![77, 0, 0] : Fin 3 → Nat) a + S1x1x128.size a ≤ S128x1x128.size a
  inb_S128x1x1024_S1x1x1024_78_0_0 : ∀ a, (![78, 0, 0] : Fin 3 → Nat) a + S1x1x1024.size a ≤ S128x1x1024.size a
  inb_S128x1x128_S1x1x128_78_0_0 : ∀ a, (![78, 0, 0] : Fin 3 → Nat) a + S1x1x128.size a ≤ S128x1x128.size a
  inb_S128x1x1024_S1x1x1024_79_0_0 : ∀ a, (![79, 0, 0] : Fin 3 → Nat) a + S1x1x1024.size a ≤ S128x1x1024.size a
  inb_S128x1x128_S1x1x128_79_0_0 : ∀ a, (![79, 0, 0] : Fin 3 → Nat) a + S1x1x128.size a ≤ S128x1x128.size a
  inb_S128x1x1024_S1x1x1024_80_0_0 : ∀ a, (![80, 0, 0] : Fin 3 → Nat) a + S1x1x1024.size a ≤ S128x1x1024.size a
  inb_S128x1x128_S1x1x128_80_0_0 : ∀ a, (![80, 0, 0] : Fin 3 → Nat) a + S1x1x128.size a ≤ S128x1x128.size a
  inb_S128x1x1024_S1x1x1024_81_0_0 : ∀ a, (![81, 0, 0] : Fin 3 → Nat) a + S1x1x1024.size a ≤ S128x1x1024.size a
  inb_S128x1x128_S1x1x128_81_0_0 : ∀ a, (![81, 0, 0] : Fin 3 → Nat) a + S1x1x128.size a ≤ S128x1x128.size a
  inb_S128x1x1024_S1x1x1024_82_0_0 : ∀ a, (![82, 0, 0] : Fin 3 → Nat) a + S1x1x1024.size a ≤ S128x1x1024.size a
  inb_S128x1x128_S1x1x128_82_0_0 : ∀ a, (![82, 0, 0] : Fin 3 → Nat) a + S1x1x128.size a ≤ S128x1x128.size a
  inb_S128x1x1024_S1x1x1024_83_0_0 : ∀ a, (![83, 0, 0] : Fin 3 → Nat) a + S1x1x1024.size a ≤ S128x1x1024.size a
  inb_S128x1x128_S1x1x128_83_0_0 : ∀ a, (![83, 0, 0] : Fin 3 → Nat) a + S1x1x128.size a ≤ S128x1x128.size a
  inb_S128x1x1024_S1x1x1024_84_0_0 : ∀ a, (![84, 0, 0] : Fin 3 → Nat) a + S1x1x1024.size a ≤ S128x1x1024.size a
  inb_S128x1x128_S1x1x128_84_0_0 : ∀ a, (![84, 0, 0] : Fin 3 → Nat) a + S1x1x128.size a ≤ S128x1x128.size a
  inb_S128x1x1024_S1x1x1024_85_0_0 : ∀ a, (![85, 0, 0] : Fin 3 → Nat) a + S1x1x1024.size a ≤ S128x1x1024.size a
  inb_S128x1x128_S1x1x128_85_0_0 : ∀ a, (![85, 0, 0] : Fin 3 → Nat) a + S1x1x128.size a ≤ S128x1x128.size a
  inb_S128x1x1024_S1x1x1024_86_0_0 : ∀ a, (![86, 0, 0] : Fin 3 → Nat) a + S1x1x1024.size a ≤ S128x1x1024.size a
  inb_S128x1x128_S1x1x128_86_0_0 : ∀ a, (![86, 0, 0] : Fin 3 → Nat) a + S1x1x128.size a ≤ S128x1x128.size a
  inb_S128x1x1024_S1x1x1024_87_0_0 : ∀ a, (![87, 0, 0] : Fin 3 → Nat) a + S1x1x1024.size a ≤ S128x1x1024.size a
  inb_S128x1x128_S1x1x128_87_0_0 : ∀ a, (![87, 0, 0] : Fin 3 → Nat) a + S1x1x128.size a ≤ S128x1x128.size a
  inb_S128x1x1024_S1x1x1024_88_0_0 : ∀ a, (![88, 0, 0] : Fin 3 → Nat) a + S1x1x1024.size a ≤ S128x1x1024.size a
  inb_S128x1x128_S1x1x128_88_0_0 : ∀ a, (![88, 0, 0] : Fin 3 → Nat) a + S1x1x128.size a ≤ S128x1x128.size a
  inb_S128x1x1024_S1x1x1024_89_0_0 : ∀ a, (![89, 0, 0] : Fin 3 → Nat) a + S1x1x1024.size a ≤ S128x1x1024.size a
  inb_S128x1x128_S1x1x128_89_0_0 : ∀ a, (![89, 0, 0] : Fin 3 → Nat) a + S1x1x128.size a ≤ S128x1x128.size a
  inb_S128x1x1024_S1x1x1024_90_0_0 : ∀ a, (![90, 0, 0] : Fin 3 → Nat) a + S1x1x1024.size a ≤ S128x1x1024.size a
  inb_S128x1x128_S1x1x128_90_0_0 : ∀ a, (![90, 0, 0] : Fin 3 → Nat) a + S1x1x128.size a ≤ S128x1x128.size a
  inb_S128x1x1024_S1x1x1024_91_0_0 : ∀ a, (![91, 0, 0] : Fin 3 → Nat) a + S1x1x1024.size a ≤ S128x1x1024.size a
  inb_S128x1x128_S1x1x128_91_0_0 : ∀ a, (![91, 0, 0] : Fin 3 → Nat) a + S1x1x128.size a ≤ S128x1x128.size a
  inb_S128x1x1024_S1x1x1024_92_0_0 : ∀ a, (![92, 0, 0] : Fin 3 → Nat) a + S1x1x1024.size a ≤ S128x1x1024.size a
  inb_S128x1x128_S1x1x128_92_0_0 : ∀ a, (![92, 0, 0] : Fin 3 → Nat) a + S1x1x128.size a ≤ S128x1x128.size a
  inb_S128x1x1024_S1x1x1024_93_0_0 : ∀ a, (![93, 0, 0] : Fin 3 → Nat) a + S1x1x1024.size a ≤ S128x1x1024.size a
  inb_S128x1x128_S1x1x128_93_0_0 : ∀ a, (![93, 0, 0] : Fin 3 → Nat) a + S1x1x128.size a ≤ S128x1x128.size a
  inb_S128x1x1024_S1x1x1024_94_0_0 : ∀ a, (![94, 0, 0] : Fin 3 → Nat) a + S1x1x1024.size a ≤ S128x1x1024.size a
  inb_S128x1x128_S1x1x128_94_0_0 : ∀ a, (![94, 0, 0] : Fin 3 → Nat) a + S1x1x128.size a ≤ S128x1x128.size a
  inb_S128x1x1024_S1x1x1024_95_0_0 : ∀ a, (![95, 0, 0] : Fin 3 → Nat) a + S1x1x1024.size a ≤ S128x1x1024.size a
  inb_S128x1x128_S1x1x128_95_0_0 : ∀ a, (![95, 0, 0] : Fin 3 → Nat) a + S1x1x128.size a ≤ S128x1x128.size a
  inb_S128x1x1024_S1x1x1024_96_0_0 : ∀ a, (![96, 0, 0] : Fin 3 → Nat) a + S1x1x1024.size a ≤ S128x1x1024.size a
  inb_S128x1x128_S1x1x128_96_0_0 : ∀ a, (![96, 0, 0] : Fin 3 → Nat) a + S1x1x128.size a ≤ S128x1x128.size a
  inb_S128x1x1024_S1x1x1024_97_0_0 : ∀ a, (![97, 0, 0] : Fin 3 → Nat) a + S1x1x1024.size a ≤ S128x1x1024.size a
  inb_S128x1x128_S1x1x128_97_0_0 : ∀ a, (![97, 0, 0] : Fin 3 → Nat) a + S1x1x128.size a ≤ S128x1x128.size a
  inb_S128x1x1024_S1x1x1024_98_0_0 : ∀ a, (![98, 0, 0] : Fin 3 → Nat) a + S1x1x1024.size a ≤ S128x1x1024.size a
  inb_S128x1x128_S1x1x128_98_0_0 : ∀ a, (![98, 0, 0] : Fin 3 → Nat) a + S1x1x128.size a ≤ S128x1x128.size a
  inb_S128x1x1024_S1x1x1024_99_0_0 : ∀ a, (![99, 0, 0] : Fin 3 → Nat) a + S1x1x1024.size a ≤ S128x1x1024.size a
  inb_S128x1x128_S1x1x128_99_0_0 : ∀ a, (![99, 0, 0] : Fin 3 → Nat) a + S1x1x128.size a ≤ S128x1x128.size a
  inb_S128x1x1024_S1x1x1024_100_0_0 : ∀ a, (![100, 0, 0] : Fin 3 → Nat) a + S1x1x1024.size a ≤ S128x1x1024.size a
  inb_S128x1x128_S1x1x128_100_0_0 : ∀ a, (![100, 0, 0] : Fin 3 → Nat) a + S1x1x128.size a ≤ S128x1x128.size a
  inb_S128x1x1024_S1x1x1024_101_0_0 : ∀ a, (![101, 0, 0] : Fin 3 → Nat) a + S1x1x1024.size a ≤ S128x1x1024.size a
  inb_S128x1x128_S1x1x128_101_0_0 : ∀ a, (![101, 0, 0] : Fin 3 → Nat) a + S1x1x128.size a ≤ S128x1x128.size a
  inb_S128x1x1024_S1x1x1024_102_0_0 : ∀ a, (![102, 0, 0] : Fin 3 → Nat) a + S1x1x1024.size a ≤ S128x1x1024.size a
  inb_S128x1x128_S1x1x128_102_0_0 : ∀ a, (![102, 0, 0] : Fin 3 → Nat) a + S1x1x128.size a ≤ S128x1x128.size a
  inb_S128x1x1024_S1x1x1024_103_0_0 : ∀ a, (![103, 0, 0] : Fin 3 → Nat) a + S1x1x1024.size a ≤ S128x1x1024.size a
  inb_S128x1x128_S1x1x128_103_0_0 : ∀ a, (![103, 0, 0] : Fin 3 → Nat) a + S1x1x128.size a ≤ S128x1x128.size a
  inb_S128x1x1024_S1x1x1024_104_0_0 : ∀ a, (![104, 0, 0] : Fin 3 → Nat) a + S1x1x1024.size a ≤ S128x1x1024.size a
  inb_S128x1x128_S1x1x128_104_0_0 : ∀ a, (![104, 0, 0] : Fin 3 → Nat) a + S1x1x128.size a ≤ S128x1x128.size a
  inb_S128x1x1024_S1x1x1024_105_0_0 : ∀ a, (![105, 0, 0] : Fin 3 → Nat) a + S1x1x1024.size a ≤ S128x1x1024.size a
  inb_S128x1x128_S1x1x128_105_0_0 : ∀ a, (![105, 0, 0] : Fin 3 → Nat) a + S1x1x128.size a ≤ S128x1x128.size a
  inb_S128x1x1024_S1x1x1024_106_0_0 : ∀ a, (![106, 0, 0] : Fin 3 → Nat) a + S1x1x1024.size a ≤ S128x1x1024.size a
  inb_S128x1x128_S1x1x128_106_0_0 : ∀ a, (![106, 0, 0] : Fin 3 → Nat) a + S1x1x128.size a ≤ S128x1x128.size a
  inb_S128x1x1024_S1x1x1024_107_0_0 : ∀ a, (![107, 0, 0] : Fin 3 → Nat) a + S1x1x1024.size a ≤ S128x1x1024.size a
  inb_S128x1x128_S1x1x128_107_0_0 : ∀ a, (![107, 0, 0] : Fin 3 → Nat) a + S1x1x128.size a ≤ S128x1x128.size a
  inb_S128x1x1024_S1x1x1024_108_0_0 : ∀ a, (![108, 0, 0] : Fin 3 → Nat) a + S1x1x1024.size a ≤ S128x1x1024.size a
  inb_S128x1x128_S1x1x128_108_0_0 : ∀ a, (![108, 0, 0] : Fin 3 → Nat) a + S1x1x128.size a ≤ S128x1x128.size a
  inb_S128x1x1024_S1x1x1024_109_0_0 : ∀ a, (![109, 0, 0] : Fin 3 → Nat) a + S1x1x1024.size a ≤ S128x1x1024.size a
  inb_S128x1x128_S1x1x128_109_0_0 : ∀ a, (![109, 0, 0] : Fin 3 → Nat) a + S1x1x128.size a ≤ S128x1x128.size a
  inb_S128x1x1024_S1x1x1024_110_0_0 : ∀ a, (![110, 0, 0] : Fin 3 → Nat) a + S1x1x1024.size a ≤ S128x1x1024.size a
  inb_S128x1x128_S1x1x128_110_0_0 : ∀ a, (![110, 0, 0] : Fin 3 → Nat) a + S1x1x128.size a ≤ S128x1x128.size a
  inb_S128x1x1024_S1x1x1024_111_0_0 : ∀ a, (![111, 0, 0] : Fin 3 → Nat) a + S1x1x1024.size a ≤ S128x1x1024.size a
  inb_S128x1x128_S1x1x128_111_0_0 : ∀ a, (![111, 0, 0] : Fin 3 → Nat) a + S1x1x128.size a ≤ S128x1x128.size a
  inb_S128x1x1024_S1x1x1024_112_0_0 : ∀ a, (![112, 0, 0] : Fin 3 → Nat) a + S1x1x1024.size a ≤ S128x1x1024.size a
  inb_S128x1x128_S1x1x128_112_0_0 : ∀ a, (![112, 0, 0] : Fin 3 → Nat) a + S1x1x128.size a ≤ S128x1x128.size a
  inb_S128x1x1024_S1x1x1024_113_0_0 : ∀ a, (![113, 0, 0] : Fin 3 → Nat) a + S1x1x1024.size a ≤ S128x1x1024.size a
  inb_S128x1x128_S1x1x128_113_0_0 : ∀ a, (![113, 0, 0] : Fin 3 → Nat) a + S1x1x128.size a ≤ S128x1x128.size a
  inb_S128x1x1024_S1x1x1024_114_0_0 : ∀ a, (![114, 0, 0] : Fin 3 → Nat) a + S1x1x1024.size a ≤ S128x1x1024.size a
  inb_S128x1x128_S1x1x128_114_0_0 : ∀ a, (![114, 0, 0] : Fin 3 → Nat) a + S1x1x128.size a ≤ S128x1x128.size a
  inb_S128x1x1024_S1x1x1024_115_0_0 : ∀ a, (![115, 0, 0] : Fin 3 → Nat) a + S1x1x1024.size a ≤ S128x1x1024.size a
  inb_S128x1x128_S1x1x128_115_0_0 : ∀ a, (![115, 0, 0] : Fin 3 → Nat) a + S1x1x128.size a ≤ S128x1x128.size a
  inb_S128x1x1024_S1x1x1024_116_0_0 : ∀ a, (![116, 0, 0] : Fin 3 → Nat) a + S1x1x1024.size a ≤ S128x1x1024.size a
  inb_S128x1x128_S1x1x128_116_0_0 : ∀ a, (![116, 0, 0] : Fin 3 → Nat) a + S1x1x128.size a ≤ S128x1x128.size a
  inb_S128x1x1024_S1x1x1024_117_0_0 : ∀ a, (![117, 0, 0] : Fin 3 → Nat) a + S1x1x1024.size a ≤ S128x1x1024.size a
  inb_S128x1x128_S1x1x128_117_0_0 : ∀ a, (![117, 0, 0] : Fin 3 → Nat) a + S1x1x128.size a ≤ S128x1x128.size a
  inb_S128x1x1024_S1x1x1024_118_0_0 : ∀ a, (![118, 0, 0] : Fin 3 → Nat) a + S1x1x1024.size a ≤ S128x1x1024.size a
  inb_S128x1x128_S1x1x128_118_0_0 : ∀ a, (![118, 0, 0] : Fin 3 → Nat) a + S1x1x128.size a ≤ S128x1x128.size a
  inb_S128x1x1024_S1x1x1024_119_0_0 : ∀ a, (![119, 0, 0] : Fin 3 → Nat) a + S1x1x1024.size a ≤ S128x1x1024.size a
  inb_S128x1x128_S1x1x128_119_0_0 : ∀ a, (![119, 0, 0] : Fin 3 → Nat) a + S1x1x128.size a ≤ S128x1x128.size a
  inb_S128x1x1024_S1x1x1024_120_0_0 : ∀ a, (![120, 0, 0] : Fin 3 → Nat) a + S1x1x1024.size a ≤ S128x1x1024.size a
  inb_S128x1x128_S1x1x128_120_0_0 : ∀ a, (![120, 0, 0] : Fin 3 → Nat) a + S1x1x128.size a ≤ S128x1x128.size a
  inb_S128x1x1024_S1x1x1024_121_0_0 : ∀ a, (![121, 0, 0] : Fin 3 → Nat) a + S1x1x1024.size a ≤ S128x1x1024.size a
  inb_S128x1x128_S1x1x128_121_0_0 : ∀ a, (![121, 0, 0] : Fin 3 → Nat) a + S1x1x128.size a ≤ S128x1x128.size a
  inb_S128x1x1024_S1x1x1024_122_0_0 : ∀ a, (![122, 0, 0] : Fin 3 → Nat) a + S1x1x1024.size a ≤ S128x1x1024.size a
  inb_S128x1x128_S1x1x128_122_0_0 : ∀ a, (![122, 0, 0] : Fin 3 → Nat) a + S1x1x128.size a ≤ S128x1x128.size a
  inb_S128x1x1024_S1x1x1024_123_0_0 : ∀ a, (![123, 0, 0] : Fin 3 → Nat) a + S1x1x1024.size a ≤ S128x1x1024.size a
  inb_S128x1x128_S1x1x128_123_0_0 : ∀ a, (![123, 0, 0] : Fin 3 → Nat) a + S1x1x128.size a ≤ S128x1x128.size a
  inb_S128x1x1024_S1x1x1024_124_0_0 : ∀ a, (![124, 0, 0] : Fin 3 → Nat) a + S1x1x1024.size a ≤ S128x1x1024.size a
  inb_S128x1x128_S1x1x128_124_0_0 : ∀ a, (![124, 0, 0] : Fin 3 → Nat) a + S1x1x128.size a ≤ S128x1x128.size a
  inb_S128x1x1024_S1x1x1024_125_0_0 : ∀ a, (![125, 0, 0] : Fin 3 → Nat) a + S1x1x1024.size a ≤ S128x1x1024.size a
  inb_S128x1x128_S1x1x128_125_0_0 : ∀ a, (![125, 0, 0] : Fin 3 → Nat) a + S1x1x128.size a ≤ S128x1x128.size a
  inb_S128x1x1024_S1x1x1024_126_0_0 : ∀ a, (![126, 0, 0] : Fin 3 → Nat) a + S1x1x1024.size a ≤ S128x1x1024.size a
  inb_S128x1x128_S1x1x128_126_0_0 : ∀ a, (![126, 0, 0] : Fin 3 → Nat) a + S1x1x128.size a ≤ S128x1x128.size a
  inb_S128x1x1024_S1x1x1024_127_0_0 : ∀ a, (![127, 0, 0] : Fin 3 → Nat) a + S1x1x1024.size a ≤ S128x1x1024.size a
  inb_S128x1x128_S1x1x128_127_0_0 : ∀ a, (![127, 0, 0] : Fin 3 → Nat) a + S1x1x128.size a ≤ S128x1x128.size a
  inb_S128x1x1024_S128x1x1024_0_0_0 : ∀ a, (![0, 0, 0] : Fin 3 → Nat) a + S128x1x1024.size a ≤ S128x1x1024.size a
  h_S128x1x1024 : 0 < S128x1x1024.numel
  shapeCasts_S128x1x1024_S128x8x128 : S128x1x1024.ShapeCasts S128x8x128
  inb_S128x1x128_S128x1x128_0_0_0 : ∀ a, (![0, 0, 0] : Fin 3 → Nat) a + S128x1x128.size a ≤ S128x1x128.size a
  h_S128x1x128 : 0 < S128x1x128.numel
  shapeCasts_S128x1x128_S128x128 : S128x1x128.ShapeCasts S128x128
  slices_S128x128_o0_0_S128x8 : S128x128.Slices ![0, 0] S128x8
  shapeCasts_S128x8_S128x8x1 : S128x8.ShapeCasts S128x8x1
  shapeCasts_S128x8x1_S128x8x1 : S128x8x1.ShapeCasts S128x8x1
  broadcasts_S128x8x1_S128x8x128 : S128x8x1.Broadcasts S128x8x128
  shapeCasts_S128x8x128_S128x1024 : S128x8x128.ShapeCasts S128x1024
  inb_S128x1024_S128x1024_0_0 : ∀ a, (![0, 0] : Fin 2 → Nat) a + S128x1024.size a ≤ S128x1024.size a
  h_S128x1024 : 0 < S128x1024.numel
  shapeCasts_S16384x1024_S8x2048x1024 : S16384x1024.ShapeCasts S8x2048x1024
  hcc0_scratch2 : 2 + S_.numel ≤ 4
  hcc0_scratch3 : 3 + S_.numel ≤ 4
  hrank0 : 0 < grid0.rank
  k0_off1_inb : ∀ i : grid0.Coords, ∀ a, (k0_off1 i) a + S1.size a ≤ S16384.size a
  k0_off4_inb : ∀ i : grid0.Coords, ∀ a, (k0_off4 i) a + S1.size a ≤ S16384.size a
  k0_off7_inb : ∀ i : grid0.Coords, ∀ a, (k0_off7 i) a + S1.size a ≤ S16384.size a
  k0_off10_inb : ∀ i : grid0.Coords, ∀ a, (k0_off10 i) a + S1.size a ≤ S16384.size a
  k0_off13_inb : ∀ i : grid0.Coords, ∀ a, (k0_off13 i) a + S1.size a ≤ S16384.size a
  k0_off16_inb : ∀ i : grid0.Coords, ∀ a, (k0_off16 i) a + S1.size a ≤ S16384.size a
  k0_off19_inb : ∀ i : grid0.Coords, ∀ a, (k0_off19 i) a + S1.size a ≤ S16384.size a
  k0_off22_inb : ∀ i : grid0.Coords, ∀ a, (k0_off22 i) a + S1.size a ≤ S16384.size a
  k0_off25_inb : ∀ i : grid0.Coords, ∀ a, (k0_off25 i) a + S1.size a ≤ S16384.size a
  k0_off28_inb : ∀ i : grid0.Coords, ∀ a, (k0_off28 i) a + S1.size a ≤ S16384.size a
  k0_off31_inb : ∀ i : grid0.Coords, ∀ a, (k0_off31 i) a + S1.size a ≤ S16384.size a
  k0_off34_inb : ∀ i : grid0.Coords, ∀ a, (k0_off34 i) a + S1.size a ≤ S16384.size a
  k0_off37_inb : ∀ i : grid0.Coords, ∀ a, (k0_off37 i) a + S1.size a ≤ S16384.size a
  k0_off40_inb : ∀ i : grid0.Coords, ∀ a, (k0_off40 i) a + S1.size a ≤ S16384.size a
  k0_off43_inb : ∀ i : grid0.Coords, ∀ a, (k0_off43 i) a + S1.size a ≤ S16384.size a
  k0_off46_inb : ∀ i : grid0.Coords, ∀ a, (k0_off46 i) a + S1.size a ≤ S16384.size a
  k0_off49_inb : ∀ i : grid0.Coords, ∀ a, (k0_off49 i) a + S1.size a ≤ S16384.size a
  k0_off52_inb : ∀ i : grid0.Coords, ∀ a, (k0_off52 i) a + S1.size a ≤ S16384.size a
  k0_off55_inb : ∀ i : grid0.Coords, ∀ a, (k0_off55 i) a + S1.size a ≤ S16384.size a
  k0_off58_inb : ∀ i : grid0.Coords, ∀ a, (k0_off58 i) a + S1.size a ≤ S16384.size a
  k0_off61_inb : ∀ i : grid0.Coords, ∀ a, (k0_off61 i) a + S1.size a ≤ S16384.size a
  k0_off64_inb : ∀ i : grid0.Coords, ∀ a, (k0_off64 i) a + S1.size a ≤ S16384.size a
  k0_off67_inb : ∀ i : grid0.Coords, ∀ a, (k0_off67 i) a + S1.size a ≤ S16384.size a
  k0_off70_inb : ∀ i : grid0.Coords, ∀ a, (k0_off70 i) a + S1.size a ≤ S16384.size a
  k0_off73_inb : ∀ i : grid0.Coords, ∀ a, (k0_off73 i) a + S1.size a ≤ S16384.size a
  k0_off76_inb : ∀ i : grid0.Coords, ∀ a, (k0_off76 i) a + S1.size a ≤ S16384.size a
  k0_off79_inb : ∀ i : grid0.Coords, ∀ a, (k0_off79 i) a + S1.size a ≤ S16384.size a
  k0_off82_inb : ∀ i : grid0.Coords, ∀ a, (k0_off82 i) a + S1.size a ≤ S16384.size a
  k0_off85_inb : ∀ i : grid0.Coords, ∀ a, (k0_off85 i) a + S1.size a ≤ S16384.size a
  k0_off88_inb : ∀ i : grid0.Coords, ∀ a, (k0_off88 i) a + S1.size a ≤ S16384.size a
  k0_off91_inb : ∀ i : grid0.Coords, ∀ a, (k0_off91 i) a + S1.size a ≤ S16384.size a
  k0_off94_inb : ∀ i : grid0.Coords, ∀ a, (k0_off94 i) a + S1.size a ≤ S16384.size a
  k0_off97_inb : ∀ i : grid0.Coords, ∀ a, (k0_off97 i) a + S1.size a ≤ S16384.size a
  k0_off100_inb : ∀ i : grid0.Coords, ∀ a, (k0_off100 i) a + S1.size a ≤ S16384.size a
  k0_off103_inb : ∀ i : grid0.Coords, ∀ a, (k0_off103 i) a + S1.size a ≤ S16384.size a
  k0_off106_inb : ∀ i : grid0.Coords, ∀ a, (k0_off106 i) a + S1.size a ≤ S16384.size a
  k0_off109_inb : ∀ i : grid0.Coords, ∀ a, (k0_off109 i) a + S1.size a ≤ S16384.size a
  k0_off112_inb : ∀ i : grid0.Coords, ∀ a, (k0_off112 i) a + S1.size a ≤ S16384.size a
  k0_off115_inb : ∀ i : grid0.Coords, ∀ a, (k0_off115 i) a + S1.size a ≤ S16384.size a
  k0_off118_inb : ∀ i : grid0.Coords, ∀ a, (k0_off118 i) a + S1.size a ≤ S16384.size a
  k0_off121_inb : ∀ i : grid0.Coords, ∀ a, (k0_off121 i) a + S1.size a ≤ S16384.size a
  k0_off124_inb : ∀ i : grid0.Coords, ∀ a, (k0_off124 i) a + S1.size a ≤ S16384.size a
  k0_off127_inb : ∀ i : grid0.Coords, ∀ a, (k0_off127 i) a + S1.size a ≤ S16384.size a
  k0_off130_inb : ∀ i : grid0.Coords, ∀ a, (k0_off130 i) a + S1.size a ≤ S16384.size a
  k0_off133_inb : ∀ i : grid0.Coords, ∀ a, (k0_off133 i) a + S1.size a ≤ S16384.size a
  k0_off136_inb : ∀ i : grid0.Coords, ∀ a, (k0_off136 i) a + S1.size a ≤ S16384.size a
  k0_off139_inb : ∀ i : grid0.Coords, ∀ a, (k0_off139 i) a + S1.size a ≤ S16384.size a
  k0_off142_inb : ∀ i : grid0.Coords, ∀ a, (k0_off142 i) a + S1.size a ≤ S16384.size a
  k0_off145_inb : ∀ i : grid0.Coords, ∀ a, (k0_off145 i) a + S1.size a ≤ S16384.size a
  k0_off148_inb : ∀ i : grid0.Coords, ∀ a, (k0_off148 i) a + S1.size a ≤ S16384.size a
  k0_off151_inb : ∀ i : grid0.Coords, ∀ a, (k0_off151 i) a + S1.size a ≤ S16384.size a
  k0_off154_inb : ∀ i : grid0.Coords, ∀ a, (k0_off154 i) a + S1.size a ≤ S16384.size a
  k0_off157_inb : ∀ i : grid0.Coords, ∀ a, (k0_off157 i) a + S1.size a ≤ S16384.size a
  k0_off160_inb : ∀ i : grid0.Coords, ∀ a, (k0_off160 i) a + S1.size a ≤ S16384.size a
  k0_off163_inb : ∀ i : grid0.Coords, ∀ a, (k0_off163 i) a + S1.size a ≤ S16384.size a
  k0_off166_inb : ∀ i : grid0.Coords, ∀ a, (k0_off166 i) a + S1.size a ≤ S16384.size a
  k0_off169_inb : ∀ i : grid0.Coords, ∀ a, (k0_off169 i) a + S1.size a ≤ S16384.size a
  k0_off172_inb : ∀ i : grid0.Coords, ∀ a, (k0_off172 i) a + S1.size a ≤ S16384.size a
  k0_off175_inb : ∀ i : grid0.Coords, ∀ a, (k0_off175 i) a + S1.size a ≤ S16384.size a
  k0_off178_inb : ∀ i : grid0.Coords, ∀ a, (k0_off178 i) a + S1.size a ≤ S16384.size a
  k0_off181_inb : ∀ i : grid0.Coords, ∀ a, (k0_off181 i) a + S1.size a ≤ S16384.size a
  k0_off184_inb : ∀ i : grid0.Coords, ∀ a, (k0_off184 i) a + S1.size a ≤ S16384.size a
  k0_off187_inb : ∀ i : grid0.Coords, ∀ a, (k0_off187 i) a + S1.size a ≤ S16384.size a
  k0_off190_inb : ∀ i : grid0.Coords, ∀ a, (k0_off190 i) a + S1.size a ≤ S16384.size a
  k0_off193_inb : ∀ i : grid0.Coords, ∀ a, (k0_off193 i) a + S1.size a ≤ S16384.size a
  k0_off196_inb : ∀ i : grid0.Coords, ∀ a, (k0_off196 i) a + S1.size a ≤ S16384.size a
  k0_off199_inb : ∀ i : grid0.Coords, ∀ a, (k0_off199 i) a + S1.size a ≤ S16384.size a
  k0_off202_inb : ∀ i : grid0.Coords, ∀ a, (k0_off202 i) a + S1.size a ≤ S16384.size a
  k0_off205_inb : ∀ i : grid0.Coords, ∀ a, (k0_off205 i) a + S1.size a ≤ S16384.size a
  k0_off208_inb : ∀ i : grid0.Coords, ∀ a, (k0_off208 i) a + S1.size a ≤ S16384.size a
  k0_off211_inb : ∀ i : grid0.Coords, ∀ a, (k0_off211 i) a + S1.size a ≤ S16384.size a
  k0_off214_inb : ∀ i : grid0.Coords, ∀ a, (k0_off214 i) a + S1.size a ≤ S16384.size a
  k0_off217_inb : ∀ i : grid0.Coords, ∀ a, (k0_off217 i) a + S1.size a ≤ S16384.size a
  k0_off220_inb : ∀ i : grid0.Coords, ∀ a, (k0_off220 i) a + S1.size a ≤ S16384.size a
  k0_off223_inb : ∀ i : grid0.Coords, ∀ a, (k0_off223 i) a + S1.size a ≤ S16384.size a
  k0_off226_inb : ∀ i : grid0.Coords, ∀ a, (k0_off226 i) a + S1.size a ≤ S16384.size a
  k0_off229_inb : ∀ i : grid0.Coords, ∀ a, (k0_off229 i) a + S1.size a ≤ S16384.size a
  k0_off232_inb : ∀ i : grid0.Coords, ∀ a, (k0_off232 i) a + S1.size a ≤ S16384.size a
  k0_off235_inb : ∀ i : grid0.Coords, ∀ a, (k0_off235 i) a + S1.size a ≤ S16384.size a
  k0_off238_inb : ∀ i : grid0.Coords, ∀ a, (k0_off238 i) a + S1.size a ≤ S16384.size a
  k0_off241_inb : ∀ i : grid0.Coords, ∀ a, (k0_off241 i) a + S1.size a ≤ S16384.size a
  k0_off244_inb : ∀ i : grid0.Coords, ∀ a, (k0_off244 i) a + S1.size a ≤ S16384.size a
  k0_off247_inb : ∀ i : grid0.Coords, ∀ a, (k0_off247 i) a + S1.size a ≤ S16384.size a
  k0_off250_inb : ∀ i : grid0.Coords, ∀ a, (k0_off250 i) a + S1.size a ≤ S16384.size a
  k0_off253_inb : ∀ i : grid0.Coords, ∀ a, (k0_off253 i) a + S1.size a ≤ S16384.size a
  k0_off256_inb : ∀ i : grid0.Coords, ∀ a, (k0_off256 i) a + S1.size a ≤ S16384.size a
  k0_off259_inb : ∀ i : grid0.Coords, ∀ a, (k0_off259 i) a + S1.size a ≤ S16384.size a
  k0_off262_inb : ∀ i : grid0.Coords, ∀ a, (k0_off262 i) a + S1.size a ≤ S16384.size a
  k0_off265_inb : ∀ i : grid0.Coords, ∀ a, (k0_off265 i) a + S1.size a ≤ S16384.size a
  k0_off268_inb : ∀ i : grid0.Coords, ∀ a, (k0_off268 i) a + S1.size a ≤ S16384.size a
  k0_off271_inb : ∀ i : grid0.Coords, ∀ a, (k0_off271 i) a + S1.size a ≤ S16384.size a
  k0_off274_inb : ∀ i : grid0.Coords, ∀ a, (k0_off274 i) a + S1.size a ≤ S16384.size a
  k0_off277_inb : ∀ i : grid0.Coords, ∀ a, (k0_off277 i) a + S1.size a ≤ S16384.size a
  k0_off280_inb : ∀ i : grid0.Coords, ∀ a, (k0_off280 i) a + S1.size a ≤ S16384.size a
  k0_off283_inb : ∀ i : grid0.Coords, ∀ a, (k0_off283 i) a + S1.size a ≤ S16384.size a
  k0_off286_inb : ∀ i : grid0.Coords, ∀ a, (k0_off286 i) a + S1.size a ≤ S16384.size a
  k0_off289_inb : ∀ i : grid0.Coords, ∀ a, (k0_off289 i) a + S1.size a ≤ S16384.size a
  k0_off292_inb : ∀ i : grid0.Coords, ∀ a, (k0_off292 i) a + S1.size a ≤ S16384.size a
  k0_off295_inb : ∀ i : grid0.Coords, ∀ a, (k0_off295 i) a + S1.size a ≤ S16384.size a
  k0_off298_inb : ∀ i : grid0.Coords, ∀ a, (k0_off298 i) a + S1.size a ≤ S16384.size a
  k0_off301_inb : ∀ i : grid0.Coords, ∀ a, (k0_off301 i) a + S1.size a ≤ S16384.size a
  k0_off304_inb : ∀ i : grid0.Coords, ∀ a, (k0_off304 i) a + S1.size a ≤ S16384.size a
  k0_off307_inb : ∀ i : grid0.Coords, ∀ a, (k0_off307 i) a + S1.size a ≤ S16384.size a
  k0_off310_inb : ∀ i : grid0.Coords, ∀ a, (k0_off310 i) a + S1.size a ≤ S16384.size a
  k0_off313_inb : ∀ i : grid0.Coords, ∀ a, (k0_off313 i) a + S1.size a ≤ S16384.size a
  k0_off316_inb : ∀ i : grid0.Coords, ∀ a, (k0_off316 i) a + S1.size a ≤ S16384.size a
  k0_off319_inb : ∀ i : grid0.Coords, ∀ a, (k0_off319 i) a + S1.size a ≤ S16384.size a
  k0_off322_inb : ∀ i : grid0.Coords, ∀ a, (k0_off322 i) a + S1.size a ≤ S16384.size a
  k0_off325_inb : ∀ i : grid0.Coords, ∀ a, (k0_off325 i) a + S1.size a ≤ S16384.size a
  k0_off328_inb : ∀ i : grid0.Coords, ∀ a, (k0_off328 i) a + S1.size a ≤ S16384.size a
  k0_off331_inb : ∀ i : grid0.Coords, ∀ a, (k0_off331 i) a + S1.size a ≤ S16384.size a
  k0_off334_inb : ∀ i : grid0.Coords, ∀ a, (k0_off334 i) a + S1.size a ≤ S16384.size a
  k0_off337_inb : ∀ i : grid0.Coords, ∀ a, (k0_off337 i) a + S1.size a ≤ S16384.size a
  k0_off340_inb : ∀ i : grid0.Coords, ∀ a, (k0_off340 i) a + S1.size a ≤ S16384.size a
  k0_off343_inb : ∀ i : grid0.Coords, ∀ a, (k0_off343 i) a + S1.size a ≤ S16384.size a
  k0_off346_inb : ∀ i : grid0.Coords, ∀ a, (k0_off346 i) a + S1.size a ≤ S16384.size a
  k0_off349_inb : ∀ i : grid0.Coords, ∀ a, (k0_off349 i) a + S1.size a ≤ S16384.size a
  k0_off352_inb : ∀ i : grid0.Coords, ∀ a, (k0_off352 i) a + S1.size a ≤ S16384.size a
  k0_off355_inb : ∀ i : grid0.Coords, ∀ a, (k0_off355 i) a + S1.size a ≤ S16384.size a
  k0_off358_inb : ∀ i : grid0.Coords, ∀ a, (k0_off358 i) a + S1.size a ≤ S16384.size a
  k0_off361_inb : ∀ i : grid0.Coords, ∀ a, (k0_off361 i) a + S1.size a ≤ S16384.size a
  k0_off364_inb : ∀ i : grid0.Coords, ∀ a, (k0_off364 i) a + S1.size a ≤ S16384.size a
  k0_off367_inb : ∀ i : grid0.Coords, ∀ a, (k0_off367 i) a + S1.size a ≤ S16384.size a
  k0_off370_inb : ∀ i : grid0.Coords, ∀ a, (k0_off370 i) a + S1.size a ≤ S16384.size a
  k0_off373_inb : ∀ i : grid0.Coords, ∀ a, (k0_off373 i) a + S1.size a ≤ S16384.size a
  k0_off376_inb : ∀ i : grid0.Coords, ∀ a, (k0_off376 i) a + S1.size a ≤ S16384.size a
  k0_off379_inb : ∀ i : grid0.Coords, ∀ a, (k0_off379 i) a + S1.size a ≤ S16384.size a
  k0_off382_inb : ∀ i : grid0.Coords, ∀ a, (k0_off382 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_2 i = cc0_transform_2 i'
  hinb0_0 : ∀ (i : grid0.Coords) a, (cc0_transform_2 i a + 1) * S128x1024.size a ≤ S16384x1024.size a
  hwx0_0 : ∀ i : grid0.Coords, EltTy.bits .f32 = 32 ∨ (Rect.block (s := S16384x1024) S128x1024.size (cc0_transform_2 i) (hinb0_0 i)).WholeWords (EltTy.packing .f32)

variable [Facts₀]

abbrev cc0_scratch2 : DmaSems sig S_ := SemArray.consecutive 2 S_ hcc0_scratch2
abbrev cc0_scratch3 : DmaSems sig S_ := SemArray.consecutive 3 S_ hcc0_scratch3

abbrev spec0_0 : Pipeline.WinSpec sig grid0.rank :=
  Pipeline.WinSpec.ofSpec (Memref.whole main_v5) S128x1024.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_2 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S8x2048 : Shape := ⟨2, ![8, 2048]⟩
abbrev S50257x1024 : Shape := ⟨2, ![50257, 1024]⟩
abbrev S50257x8 : Shape := ⟨2, ![50257, 8]⟩
abbrev S50257x8x128 : Shape := ⟨3, ![50257, 8, 128]⟩
abbrev S_ : Shape := ⟨0, ![]⟩
abbrev S50257x8x1 : Shape := ⟨3, ![50257, 8, 1]⟩
abbrev S8x2048x1 : Shape := ⟨3, ![8, 2048, 1]⟩
abbrev S1 : Shape := ⟨1, ![1]⟩
abbrev S1x1x1 : Shape := ⟨3, ![1, 1, 1]⟩
abbrev S8x2048x1024 : Shape := ⟨3, ![8, 2048, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S50257x1024, .f32⟩
  | .hbm, ⟨2, _⟩ => ⟨S50257x8, .f32⟩
  | .hbm, ⟨3, _⟩ => ⟨S50257x8x128, .f32⟩
  | .hbm, ⟨4, _⟩ => ⟨S50257x8x128, .f32⟩
  | .hbm, ⟨5, _⟩ => ⟨S_, .f32⟩
  | .hbm, ⟨6, _⟩ => ⟨S50257x8x128, .f32⟩
  | .hbm, ⟨7, _⟩ => ⟨S50257x8x128, .i1⟩
  | .hbm, ⟨8, _⟩ => ⟨S_, .f32⟩
  | .hbm, ⟨9, _⟩ => ⟨S50257x8x128, .f32⟩
  | .hbm, ⟨10, _⟩ => ⟨S50257x8x128, .f32⟩
  | .hbm, ⟨11, _⟩ => ⟨S_, .f32⟩
  | .hbm, ⟨12, _⟩ => ⟨S50257x8, .f32⟩
  | .hbm, ⟨13, _⟩ => ⟨S50257x8, .f32⟩
  | .hbm, ⟨14, _⟩ => ⟨S50257x8x1, .f32⟩
  | .hbm, ⟨15, _⟩ => ⟨S50257x8x128, .f32⟩
  | .hbm, ⟨16, _⟩ => ⟨S50257x8x128, .f32⟩
  | .hbm, ⟨17, _⟩ => ⟨S50257x1024, .f32⟩
  | .hbm, ⟨18, _⟩ => ⟨S_, .i32⟩
  | .hbm, ⟨19, _⟩ => ⟨S8x2048, .i32⟩
  | .hbm, ⟨20, _⟩ => ⟨S8x2048, .i1⟩
  | .hbm, ⟨21, _⟩ => ⟨S_, .i32⟩
  | .hbm, ⟨22, _⟩ => ⟨S8x2048, .i32⟩
  | .hbm, ⟨23, _⟩ => ⟨S8x2048, .i32⟩
  | .hbm, ⟨24, _⟩ => ⟨S8x2048, .i32⟩
  | .hbm, ⟨25, _⟩ => ⟨S8x2048x1, .i32⟩
  | .hbm, ⟨26, _⟩ => ⟨S1, .i32⟩
  | .hbm, ⟨27, _⟩ => ⟨S_, .i32⟩
  | .hbm, ⟨28, _⟩ => ⟨S8x2048x1, .i32⟩
  | .hbm, ⟨29, _⟩ => ⟨S8x2048x1, .i1⟩
  | .hbm, ⟨30, _⟩ => ⟨S1x1x1, .i32⟩
  | .hbm, ⟨31, _⟩ => ⟨S8x2048x1, .i32⟩
  | .hbm, ⟨32, _⟩ => ⟨S8x2048x1, .i1⟩
  | .hbm, ⟨33, _⟩ => ⟨S8x2048x1, .i1⟩
  | .hbm, ⟨34, _⟩ => ⟨S_, .i1⟩
  | .hbm, ⟨35, _⟩ => ⟨S8x2048, .i1⟩
  | .hbm, ⟨36, _⟩ => ⟨S8x2048x1024, .f32⟩
  | .hbm, ⟨37, _⟩ => ⟨S8x2048x1024, .i1⟩
  | .hbm, ⟨38, _⟩ => ⟨S_, .f32⟩
  | .hbm, ⟨39, _⟩ => ⟨S8x2048x1024, .f32⟩
  | .hbm, ⟨40, _⟩ => ⟨S8x2048x1024, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v11 : Ref sig .tc := ⟨.hbm, 40, rfl⟩

abbrev nD : Nat := 1
abbrev τ : Topo := Topo.v7x

variable {F : FTy → Type} [FloatOps F]

class Facts₀ : Prop where
  shapeCasts_S50257x1024_S50257x8x128 : S50257x1024.ShapeCasts S50257x8x128
  bcast_S_S50257x8x128 : S_.BroadcastsInDim S50257x8x128 (![] : Fin 0 → Fin S50257x8x128.rank)
  bcast_S_S50257x8 : S_.BroadcastsInDim S50257x8 (![] : Fin 0 → Fin S50257x8.rank)
  bcast_S50257x8_S50257x8x1_0_1 : S50257x8.BroadcastsInDim S50257x8x1 (![0, 1] : Fin 2 → Fin S50257x8x1.rank)
  bcast_S50257x8x1_S50257x8x128_0_1_2 : S50257x8x1.BroadcastsInDim S50257x8x128 (![0, 1, 2] : Fin 3 → Fin S50257x8x128.rank)
  shapeCasts_S50257x8x128_S50257x1024 : S50257x8x128.ShapeCasts S50257x1024
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x1024_0_1 : S8x2048.BroadcastsInDim S8x2048x1024 (![0, 1] : Fin 2 → Fin S8x2048x1024.rank)
  bcast_S_S8x2048x1024 : S_.BroadcastsInDim S8x2048x1024 (![] : Fin 0 → Fin S8x2048x1024.rank)
  gather_S50257x1024_S8x2048x1_S8x2048x1024_2_0_n_n_0_2_11024_wf : GatherDims.WF S50257x1024 S8x2048x1 S8x2048x1024 [2] [0] [] [0] [] 2 ![1, 1024]

variable [Facts₀]

def gather_S50257x1024_S8x2048x1_S8x2048x1024_2_0_n_n_0_2_11024 : GatherDims S50257x1024 S8x2048x1 S8x2048x1024 where
  offsetDims := [2]
  collapsedSliceDims := [0]
  operandBatchingDims := []
  startIndicesBatchingDims := []
  startIndexMap := [0]
  indexVectorDim := 2
  sliceSizes := ![1, 1024]
  wf := gather_S50257x1024_S8x2048x1_S8x2048x1024_2_0_n_n_0_2_11024_wf

class Facts : Prop extends Facts₀ where

variable [Facts]
-- ==== Proof.PreIds.lean ====
/-
  The integer-range conjunct of the precondition, decoded. The precondition is the conjunction of
  three all-reductions into a scalar: both float tables finite, and every token id in [0, 50257)
  as a signed 32-bit integer. From the precondition being 1 this file reads off, at every index of
  the [8, 2048] id array: the two signed comparisons hold (`ids_cmp`), hence the id is below
  50257 read unsigned (`ids_range`) and is non-negative read signed, where both readings agree
  (`ids_toInt`). Nothing here depends on the float model: the statements are generic in it. The last
  three theorems restate the unsigned bound in the form each program's claim states the precondition:
  on every device, at the id array the launch memory holds.
-/
import proofs.«418394_j61838939127938_3_alg».proof.Pre_finite_inputs
import proofs.«418394_j61838939127938_3_alg».proof.Proof.Gen.Pre_finite_inputs
import proofs.«418394_j61838939127938_3_alg».proof.Defs
import Idealize.ShloMosaic.Lib.ReduceAll
import Idealize.ShloMosaic.Lib.ValueIdx
import Idealize.ShloMosaic.Lib.StableHlo.Predicate

noncomputable section

namespace Cert.Proof.PreIds

open Idealize.ShloMosaic

/-- The result shape is a scalar: it has exactly one index. -/
instance scalarIdx_subsingleton : Subsingleton Cert.Pre_finite_inputs.S_.Idx :=
  ⟨fun _ _ => funext fun d => d.elim0⟩

/-- A 32-bit word whose signed value lies in [0, n), with n below 2³¹, has unsigned value below n:
    a non-negative signed value means the top bit is clear, and then both readings agree. -/
theorem toNat_lt_of_signed_range (x : BitVec 32) (n : Nat) (hn : n < 2 ^ 31)
    (h0 : IntOp.cmpi .sge x 0#32 = 1#1) (h1 : IntOp.cmpi .slt x (BitVec.ofNat 32 n) = 1#1) :
    0 ≤ x.toInt ∧ x.toNat < n := by
  have g0 : (0#32).toInt ≤ x.toInt := IntOp.cmpi_sge.1 h0
  have g1 : x.toInt < (BitVec.ofNat 32 n).toInt := IntOp.cmpi_slt.1 h1
  rw [StableHlo.Predicate.toInt_ofNat_small n hn] at g1
  have z : (0#32).toInt = 0 := by decide
  rw [z] at g0
  have hx := x.isLt
  rw [BitVec.toInt_eq_toNat_cond] at g0 g1
  refine ⟨by rw [BitVec.toInt_eq_toNat_cond]; exact g0, ?_⟩
  split at g0 <;> omega

/-- The third conjunct of the precondition, read at one element: every token id is, as a signed
    32-bit integer, at least 0 and below 50257. The precondition is the conjunction of three
    all-reductions into a scalar; its being 1 makes the last reduction 1, an all-reduction by
    "and" that is 1 had a 1 at every element, and that element is the conjunction of the two
    signed comparisons of the id against the broadcast constants 0 and 50257. -/
theorem ids_cmp [Cert.Pre_finite_inputs.Facts] {F : FTy → Type} [FloatOps F]
    (ids : IVec Cert.Pre_finite_inputs.S8x2048 32)
    (w : FVec F Cert.Pre_finite_inputs.S50257x1024 .f32)
    (s : FVec F Cert.Pre_finite_inputs.S50257x8 .f32)
    (h : Cert.Pre_finite_inputs.fn (F := F) ids w s = fun _ => 1#1)
    (i : Cert.Pre_finite_inputs.S8x2048.Idx) :
    IntOp.cmpi .sge (ids i) 0#32 = 1#1 ∧ IntOp.cmpi .slt (ids i) 50257#32 = 1#1 := by
  have e := congrFun h ValueIdx.ix0
  dsimp only [Cert.Pre_finite_inputs.fn] at e
  have e3 := (IntOp.andi_eq_one.1 e).2
  have p := Host.reduce_andi_all _ _ _ _ _ e3 i
  exact IntOp.andi_eq_one.1 p

/-- Every token id the precondition admits is below the vocabulary size 50257, read unsigned. -/
theorem ids_range [Cert.Pre_finite_inputs.Facts] {F : FTy → Type} [FloatOps F]
    (ids : IVec Cert.Pre_finite_inputs.S8x2048 32)
    (w : FVec F Cert.Pre_finite_inputs.S50257x1024 .f32)
    (s : FVec F Cert.Pre_finite_inputs.S50257x8 .f32)
    (h : Cert.Pre_finite_inputs.fn (F := F) ids w s = fun _ => 1#1)
    (i : Cert.Pre_finite_inputs.S8x2048.Idx) : (ids i).toNat < 50257 :=
  have c := ids_cmp ids w s h i
  (toNat_lt_of_signed_range (ids i) 50257 (by decide) c.1 c.2).2

/-- The same id is non-negative read signed, and its signed and unsigned readings agree. -/
theorem ids_toInt [Cert.Pre_finite_inputs.Facts] {F : FTy → Type} [FloatOps F]
    (ids : IVec Cert.Pre_finite_inputs.S8x2048 32)
    (w : FVec F Cert.Pre_finite_inputs.S50257x1024 .f32)
    (s : FVec F Cert.Pre_finite_inputs.S50257x8 .f32)
    (h : Cert.Pre_finite_inputs.fn (F := F) ids w s = fun _ => 1#1)
    (i : Cert.Pre_finite_inputs.S8x2048.Idx) :
    0 ≤ (ids i).toInt ∧ (ids i).toInt = ((ids i).toNat : Int) := by
  have c := ids_cmp ids w s h i
  have r := toNat_lt_of_signed_range (ids i) 50257 (by decide) c.1 c.2
  exact ⟨r.1, StableHlo.Predicate.toInt_eq_toNat_of_lt (by have := r.2; omega)⟩

open Idealize.SL.Sem

/-- In the form the claim about `Kernel` states the precondition: on every device, every word of the id
    array the launch memory holds is below 50257 read unsigned. -/
theorem ids_range_Kernel [Cert.Pre_finite_inputs.Facts]
    (m : (ℓ : Loc Cert.Kernel.nD Cert.Kernel.τ Cert.Kernel.sig) → Buf (Elt Bits) ℓ) (h : Cert.Pre_Kernel m)
    (c : Dev Cert.Kernel.nD) (i : Cert.Pre_finite_inputs.S8x2048.Idx) :
    ((m ((c.tc : Thread Cert.Kernel.nD Cert.Kernel.τ).loc Cert.Kernel.main_arg0) :
      IVec Cert.Pre_finite_inputs.S8x2048 32) i).toNat < 50257 :=
  ids_range _ _ _ (h c) i

/-- In the form the claim about `KernelIdeal` states the precondition: on every device, every word of the id
    array the launch memory holds is below 50257 read unsigned. -/
theorem ids_range_KernelIdeal [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (i : Cert.Pre_finite_inputs.S8x2048.Idx) :
    ((m ((c.tc : Thread Cert.KernelIdeal.nD Cert.KernelIdeal.τ).loc Cert.KernelIdeal.main_arg0) :
      IVec Cert.Pre_finite_inputs.S8x2048 32) i).toNat < 50257 :=
  ids_range _ _ _ (h c) i

/-- In the form the claim about `ReferenceIdeal` states the precondition: on every device, every word of the id
    array the launch memory holds is below 50257 read unsigned. -/
theorem ids_range_ReferenceIdeal [Cert.Pre_finite_inputs.Facts]
    (m : (ℓ : Loc Cert.ReferenceIdeal.nD Cert.ReferenceIdeal.τ Cert.ReferenceIdeal.sig) → Buf (Elt Ideal) ℓ) (h : Cert.Pre_ReferenceIdeal m)
    (c : Dev Cert.ReferenceIdeal.nD) (i : Cert.Pre_finite_inputs.S8x2048.Idx) :
    ((m ((c.tc : Thread Cert.ReferenceIdeal.nD Cert.ReferenceIdeal.τ).loc Cert.ReferenceIdeal.main_arg0) :
      IVec Cert.Pre_finite_inputs.S8x2048 32) i).toNat < 50257 :=
  ids_range _ _ _ (h c) i

end Cert.Proof.PreIds

end
-- ==== Proof.Spec.lean ====
/-
  The specification of the quantized embedding lookup, index by index, at the ideal instance
  (floats are extended reals).

  For a weight entry `x` and a scale entry `s` one entry of the result is
      q(x) · max(s, ε),   q(x) = sign x, with q(0) = 1,   ε the f32 literal 0x322BCC77,
  and the whole result reads, at (b, t, d), that cell of row `ids[b, t]` of the two tables:
  the weight at column `d`, the scale at the column's group `d / 128`.
-/
import Idealize.ShloMosaic.PureOps.Ideal
import Idealize.ShloMosaic.PureOps.IdealRules
import Idealize.ShloMosaic.PureOps.Ideal.Laws
import Idealize.ShloMosaic.Lib.ValueIdx

noncomputable section

namespace Cert.Spec

open Idealize.ShloMosaic Idealize.ShloMosaic.ValueIdx

/-- The sign with zero sent to one, in the form `where(sign x == 0, 1, sign x)`. -/
def q (x : EReal) : EReal :=
  Scalar.select (Ideal.cmp .oeq (Ideal.sign x) (Ideal.ofBits .f32 0x00000000#32))
    (Ideal.ofBits .f32 0x3F800000#32) (Ideal.sign x)

/-- One entry of the result from the weight entry `x` and the scale entry `s`: `q x · max s ε`. -/
def cell (x s : EReal) : EReal :=
  q x * max s (Ideal.ofBits .f32 0x322BCC77#32)

/-- The same sign written with comparisons only:
    `where(x == 0, 1, where(|x| > 0, where(x < 0, -1, 1), x))`. -/
def q' (x : EReal) : EReal :=
  Scalar.select (Ideal.cmp .oeq x (Ideal.ofBits .f32 0x00000000#32)) (Ideal.ofBits .f32 0x3F800000#32)
    (Scalar.select (Ideal.cmp .ogt (max x (-x)) (Ideal.ofBits .f32 0x00000000#32))
      (Scalar.select (Ideal.cmp .olt x (Ideal.ofBits .f32 0x00000000#32))
        (Ideal.ofBits .f32 0xBF800000#32) (Ideal.ofBits .f32 0x3F800000#32))
      x)

theorem ofBits_one : Ideal.ofBits .f32 0x3F800000#32 = 1 := IdealRules.sign_bit.ideal_onePat .f32
theorem ofBits_negOne : Ideal.ofBits .f32 0xBF800000#32 = -1 := IdealRules.sign_bit.ideal_negOnePat .f32

/-- `q x` is `-1`, `1`, `1` for `x` below, at, above zero. -/
theorem q_eq (x : EReal) : q x = if x < 0 then -1 else 1 := by
  unfold q
  rw [Ideal.ofBits_zero_f32, ofBits_one]
  induction x using EReal.rec with
  | bot => simp [Ideal.cmp, Scalar.select]
  | top => simp [Ideal.cmp, Scalar.select]
  | coe r =>
    rcases lt_trichotomy r 0 with h | h | h
    · have : ((r : ℝ) : EReal) < 0 := by exact_mod_cast h
      simp [Ideal.cmp, Scalar.select, sign_neg h, this]
    · subst h
      have hs : Ideal.sign (0 : EReal) = 0 := by
        show Ideal.sign ((0 : ℝ) : EReal) = 0
        rw [Ideal.sign_coe]; simp
      simp [Ideal.cmp, Scalar.select, hs]
    · have : ¬ ((r : ℝ) : EReal) < 0 := by
        have : (0 : EReal) < (r : EReal) := by exact_mod_cast h
        exact not_lt.mpr this.le
      simp [Ideal.cmp, Scalar.select, sign_pos h, this]

/-- The comparison form is the same function. -/
theorem q'_eq (x : EReal) : q' x = if x < 0 then -1 else 1 := by
  unfold q'
  rw [Ideal.ofBits_zero_f32, ofBits_one, ofBits_negOne]
  by_cases h0 : x = 0
  · subst h0; simp [Ideal.cmp, Scalar.select]
  · have habs : (0 : EReal) < max x (-x) := by
      rcases lt_or_gt_of_ne h0 with h | h
      · exact lt_max_of_lt_right (by simpa using EReal.neg_lt_neg_iff.mpr h)
      · exact lt_max_of_lt_left h
    by_cases hn : x < 0 <;> simp [Ideal.cmp, Scalar.select, h0, habs, hn]

/-- The two spellings of the sign agree on every extended real. -/
theorem q'_eq_q (x : EReal) : q' x = q x := (q'_eq x).trans (q_eq x).symm

/-- The table row an id word selects: its value as a natural number, capped at the last row
    (an id in range selects its own row). -/
def row (ids : IVec ⟨2, ![8, 2048]⟩ 32) (b : Fin 8) (t : Fin 2048) : Fin 50257 :=
  ⟨min (ids (ix2 b t)).toNat 50256, by omega⟩

theorem row_val (ids : IVec ⟨2, ![8, 2048]⟩ 32) (b : Fin 8) (t : Fin 2048)
    (h : (ids (ix2 b t)).toNat < 50257) : (row ids b t).val = (ids (ix2 b t)).toNat := by
  show min (ids (ix2 b t)).toNat 50256 = _
  omega

/-- The group of 128 columns a column lies in. -/
def grp (d : Fin 1024) : Fin 8 := ⟨d.val / 128, by have := d.isLt; omega⟩

theorem grp_mk (g : Fin 8) (l : Fin 128) (h : g.val * 128 + l.val < 1024) : grp ⟨g.val * 128 + l.val, h⟩ = g := by
  refine Fin.ext ?_
  show (g.val * 128 + l.val) / 128 = g.val
  have := l.isLt
  omega

/-- The whole result: at (b, t, d) the cell of the looked-up row's weight at column `d` and its
    scale at the column's group. -/
def G (ids : IVec ⟨2, ![8, 2048]⟩ 32) (w : FVec Ideal ⟨2, ![50257, 1024]⟩ .f32)
    (s : FVec Ideal ⟨2, ![50257, 8]⟩ .f32) : FVec Ideal ⟨3, ![8, 2048, 1024]⟩ .f32 :=
  fun j => cell (w (ix2 (row ids (j 0) (j 1)) (j 2))) (s (ix2 (row ids (j 0) (j 1)) (grp (j 2))))

theorem G_apply (ids : IVec ⟨2, ![8, 2048]⟩ 32) (w : FVec Ideal ⟨2, ![50257, 1024]⟩ .f32)
    (s : FVec Ideal ⟨2, ![50257, 8]⟩ .f32) (b : Fin 8) (t : Fin 2048) (d : Fin 1024) :
    G ids w s (ix3 b t d) = cell (w (ix2 (row ids b t) d)) (s (ix2 (row ids b t) (grp d))) := rfl

end Cert.Spec

end
-- ==== Proof.RefRun.lean ====
/-
  The reference's run, and its result read index by index.

  The reference quantizes the WHOLE table — weights regrouped as 8 × 128 per row, their signs with zero
  sent to one, times the scales clamped from below by ε and spread over their groups, flattened back — and
  then looks rows up with `take` in fill mode: a negative id is moved up by the table's height, the row at the
  (clamped) start index is gathered, and the result is kept where `0 ≤ index ≤ 50256` and is the fill value
  elsewhere. When every id is a word in `[0, 50257)` the index is the id, the mask is set everywhere, and the
  result is the specification: at (b, t, d) the cell of row `ids[b, t]`.

  The program is a straight line of 38 host operations (two outlined functions inlined at their calls);
  its run is the fold of their results.
-/
import proofs.«418394_j61838939127938_3_alg».proof.ReferenceIdeal
import proofs.«418394_j61838939127938_3_alg».proof.Proof.Gen.ReferenceIdeal
import proofs.«418394_j61838939127938_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.Lib.KernelVsHost
import Idealize.ShloMosaic.PureOps.Reduce

noncomputable section

namespace Cert.Proof.RefRun

open Cert.ReferenceIdeal Idealize.ShloMosaic Idealize.ShloMosaic.TcCoe Idealize.SL.Sem Idealize.ShloMosaic.StableHlo
open Idealize.ShloMosaic.ValueIdx
open Cert.ReferenceIdeal.Facts₀

variable {F : FTy → Type} [FloatOps F] [Facts]

/-- The reference's operations in order: the quantization of the whole table (with the sign fix-up
    `where` inlined at its call), then the lookup `take` inlined at its call (with its own index
    fix-up `where`). -/
abbrev ops : List (HloOp τ sig (Elt F)) :=
  [ reshape main_arg1 main_v0 rfl shapeCasts_S50257x1024_S50257x8x128,
    unary main_v0 main_v1 (Host.sign : (⟨S50257x8x128, .f32⟩ : BufTy).Contents (Elt F) → (⟨S50257x8x128, .f32⟩ : BufTy).Contents (Elt F)),
    nullary main_cst (constant S_ .f32 0x00000000#32),
    unary main_cst main_v2 (broadcastInDim S50257x8x128 ![] bcast_S_S50257x8x128 : (⟨S_, .f32⟩ : BufTy).Contents (Elt F) → (⟨S50257x8x128, .f32⟩ : BufTy).Contents (Elt F)),
    binary main_v1 main_v2 main_v3 (cmpf .oeq : (⟨S50257x8x128, .f32⟩ : BufTy).Contents (Elt F) → (⟨S50257x8x128, .f32⟩ : BufTy).Contents (Elt F) → (⟨S50257x8x128, .i1⟩ : BufTy).Contents (Elt F)),
    nullary main_cst_0 (constant S_ .f32 0x3F800000#32),
    TRef.unary (.of main_cst_0 : TRef sig ⟨S_, .f32⟩) main_call0.v0 (broadcastInDim S50257x8x128 ![] bcast_S_S50257x8x128),
    TRef.ternary (.of main_v3 : TRef sig ⟨S50257x8x128, .i1⟩) main_call0.v0 (.of main_v1 : TRef sig ⟨S50257x8x128, .f32⟩) main_call0.v1 select,
    nullary main_cst_1 (constant S_ .f32 0x322BCC77#32),
    unary main_cst_1 main_v5 (broadcastInDim S50257x8 ![] bcast_S_S50257x8 : (⟨S_, .f32⟩ : BufTy).Contents (Elt F) → (⟨S50257x8, .f32⟩ : BufTy).Contents (Elt F)),
    binary main_arg2 main_v5 main_v6 (maximumf : (⟨S50257x8, .f32⟩ : BufTy).Contents (Elt F) → (⟨S50257x8, .f32⟩ : BufTy).Contents (Elt F) → (⟨S50257x8, .f32⟩ : BufTy).Contents (Elt F)),
    unary main_v6 main_v7 (broadcastInDim S50257x8x1 ![0, 1] bcast_S50257x8_S50257x8x1_0_1 : (⟨S50257x8, .f32⟩ : BufTy).Contents (Elt F) → (⟨S50257x8x1, .f32⟩ : BufTy).Contents (Elt F)),
    unary main_v7 main_v8 (broadcastInDim S50257x8x128 ![0, 1, 2] bcast_S50257x8x1_S50257x8x128_0_1_2 : (⟨S50257x8x1, .f32⟩ : BufTy).Contents (Elt F) → (⟨S50257x8x128, .f32⟩ : BufTy).Contents (Elt F)),
    binary main_v4 main_v8 main_v9 (mulf : (⟨S50257x8x128, .f32⟩ : BufTy).Contents (Elt F) → (⟨S50257x8x128, .f32⟩ : BufTy).Contents (Elt F) → (⟨S50257x8x128, .f32⟩ : BufTy).Contents (Elt F)),
    reshape main_v9 main_v10 rfl shapeCasts_S50257x8x128_S50257x1024,
    TRef.nullary main_call1.c (constantI S_ 32 0#32),
    TRef.unary main_call1.c main_call1.v0 (broadcastInDim S8x2048 ![] bcast_S_S8x2048),
    TRef.binary (.of main_arg0 : TRef sig ⟨S8x2048, .i32⟩) main_call1.v0 main_call1.v1 (cmpi .slt),
    TRef.nullary main_call1.c_0 (constantI S_ 32 50257#32),
    TRef.unary main_call1.c_0 main_call1.v2 (broadcastInDim S8x2048 ![] bcast_S_S8x2048),
    TRef.binary (.of main_arg0 : TRef sig ⟨S8x2048, .i32⟩) main_call1.v2 main_call1.v3 addi,
    TRef.ternary main_call1.v1 main_call1.v3 (.of main_arg0 : TRef sig ⟨S8x2048, .i32⟩) main_call1.call0.v0 select,
    TRef.unary main_call1.call0.v0 main_call1.v5 (broadcastInDim S8x2048x1 ![0, 1] bcast_S8x2048_S8x2048x1_0_1),
    TRef.nullary main_call1.c_1 (constantI S1 32 50256#32),
    TRef.nullary main_call1.c_2 (constantI S_ 32 0#32),
    TRef.unary main_call1.c_2 main_call1.v6 (broadcastInDim S8x2048x1 ![] bcast_S_S8x2048x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S8x2048x1 ![0, 1, 2] bcast_S1x1x1_S8x2048x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x2048x1_S8x2048_d2 h_S_),
    TRef.binary (.of main_v10 : TRef sig ⟨S50257x1024, .f32⟩) main_call1.v5 main_call1.v13 (fun x i => Host.gather gather_S50257x1024_S8x2048x1_S8x2048x1024_2_0_n_n_0_2_11024 x i),
    TRef.unary main_call1.v12 main_call1.v14 (broadcastInDim S8x2048x1024 ![0, 1] bcast_S8x2048_S8x2048x1024_0_1),
    TRef.nullary main_call1.cst (constant S_ .f32 0x7FC00000#32),
    TRef.unary main_call1.cst main_call1.v15 (broadcastInDim S8x2048x1024 ![] bcast_S_S8x2048x1024),
    TRef.ternary main_call1.v14 main_call1.v13 main_call1.v15 main_call1.v16 select ]

set_option maxRecDepth 1024 in
/-- The printed program is that straight line: the two outlined functions unfolded at their calls. -/
theorem main_eq (c : Dev nD) : main (F := F) c = seq ops := by
  simp only [main, fn_where.body, fn_where_0.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., nullary_bufs_sub .., unary_bufs_sub .., binary_bufs_sub .., nullary_bufs_sub ..,
    unary_bufs_sub .., ternary_bufs_sub .., nullary_bufs_sub .., unary_bufs_sub .., binary_bufs_sub .., unary_bufs_sub ..,
    unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The run read at every buffer: each holds the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one term of the arguments -/

/-- The quantized table: the weights regrouped as 8 × 128 per row, their signs with zero sent to one,
    times the scales clamped from below and spread over their groups, flattened back. -/
def table (w : FVec F S50257x1024 .f32) (s : FVec F S50257x8 .f32) : FVec F S50257x1024 .f32 :=
  shapeCast S50257x1024
    (mulf
      (select
        (cmpf .oeq (Host.sign (shapeCast S50257x8x128 w shapeCasts_S50257x1024_S50257x8x128))
          (broadcastInDim S50257x8x128 ![] bcast_S_S50257x8x128 (constant S_ .f32 0x00000000#32)))
        (broadcastInDim S50257x8x128 ![] bcast_S_S50257x8x128 (constant S_ .f32 0x3F800000#32))
        (Host.sign (shapeCast S50257x8x128 w shapeCasts_S50257x1024_S50257x8x128)))
      (broadcastInDim S50257x8x128 ![0, 1, 2] bcast_S50257x8x1_S50257x8x128_0_1_2
        (broadcastInDim S50257x8x1 ![0, 1] bcast_S50257x8_S50257x8x1_0_1
          (maximumf s (broadcastInDim S50257x8 ![] bcast_S_S50257x8 (constant S_ .f32 0x322BCC77#32))))))
    shapeCasts_S50257x8x128_S50257x1024

/-- The lookup's start indices: a negative id moved up by the table's height, a trailing unit axis added. -/
def index (ids : IVec S8x2048 32) : IVec S8x2048x1 32 :=
  broadcastInDim S8x2048x1 ![0, 1] bcast_S8x2048_S8x2048x1_0_1
    (select (cmpi .slt ids (broadcastInDim S8x2048 ![] bcast_S_S8x2048 (constantI S_ 32 0#32)))
      (addi ids (broadcastInDim S8x2048 ![] bcast_S_S8x2048 (constantI S_ 32 50257#32))) ids)

/-- The lookup's in-range mask: `0 ≤ index ≤ 50256`, folded over the unit axis and spread over the row. -/
def mask (ids : IVec S8x2048 32) : IVec S8x2048x1024 1 :=
  broadcastInDim S8x2048x1024 ![0, 1] bcast_S8x2048_S8x2048x1024_0_1
    (Host.reduce IntOp.andi
      (andi
        (cmpi .sge (index ids) (broadcastInDim S8x2048x1 ![] bcast_S_S8x2048x1 (constantI S_ 32 0#32)))
        (cmpi .sle (index ids)
          (broadcastInDim S8x2048x1 ![0, 1, 2] bcast_S1x1x1_S8x2048x1_0_1_2
            (broadcastInDim S1x1x1 ![2] bcast_S1_S1x1x1_2 (constantI S1 32 50256#32)))))
      (constantI S_ 1 1#1) reducesTo_S8x2048x1_S8x2048_d2 h_S_)

/-- The result: the gathered rows of the quantized table where the mask is set, the fill value elsewhere. -/
def out (ids : IVec S8x2048 32) (w : FVec F S50257x1024 .f32) (s : FVec F S50257x8 .f32) : FVec F S8x2048x1024 .f32 :=
  select (mask ids)
    (Host.gather gather_S50257x1024_S8x2048x1_S8x2048x1024_2_0_n_n_0_2_11024 (table w s) (index ids))
    (broadcastInDim S8x2048x1024 ![] bcast_S_S8x2048x1024 (constant S_ .f32 0x7FC00000#32))

attribute [local irreducible] Host.reduce Host.gather in
set_option maxRecDepth 8192 in
set_option maxHeartbeats 1600000 in
/-- The fold of the operations at the result buffer is that term of the three arguments. -/
theorem out_eq (V : Valuation τ sig (Elt F)) :
    after ops V (main_v11 : DevRef τ sig)
      = out (V (main_arg0 : DevRef τ sig)) (V (main_arg1 : DevRef τ sig)) (V (main_arg2 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-! ## The result read at an index, at the ideal instance -/

section Value
variable {α : Type}

/-- A fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduce by `and` from the constant 1 of an array of ones is 1 at every index. -/
theorem reduce_andi_ones {s t : Shape} {axes : List (Fin s.rank)} (x : s.Idx → BitVec 1) (h : s.ReducesTo axes t)
    (hu : 0 < S_.numel) (hx : ∀ i, x i = 1#1) (j : t.Idx) :
    Host.reduce IntOp.andi x (constantI S_ 1 1#1) h hu j = 1#1 := by
  rw [Host.reduce_eq_foldl]
  exact foldl_andi_ones x hx _

/-- The start indices at (b, t, 0): an id in range is its own start index. -/
theorem index_apply (ids : IVec S8x2048 32) (b : Fin 8) (t : Fin 2048) (u : Fin 1)
    (h : (ids (ix2 b t)).toNat < 50257) : index ids (ix3 b t u) = ids (ix2 b t) := by
  unfold index
  rw [broadcastInDim_apply _ _ _ (ix3 b t u) (ix2 b t) (fun a => by
    match a with
    | ⟨0, _⟩ => rfl
    | ⟨1, _⟩ => rfl)]
  rw [select_apply]
  have hc : cmpi .slt ids (broadcastInDim S8x2048 ![] bcast_S_S8x2048 (constantI S_ 32 0#32)) (ix2 b t) = 0#1 := by
    apply eq_zero_of_ne_one
    show ¬ IntOp.cmpi .slt (ids (ix2 b t)) (0#32) = 1#1
    rw [Predicate.slt_iff_toNat (by omega) (by decide)]
    simp
  rw [hc, select_zero]

/-- The in-range mask is set everywhere when every id is in range. -/
theorem mask_apply (ids : IVec S8x2048 32) (hids : ∀ i, (ids i).toNat < 50257)
    (b : Fin 8) (t : Fin 2048) (d : Fin 1024) : mask ids (ix3 b t d) = 1#1 := by
  unfold mask
  rw [broadcastInDim_apply _ _ _ (ix3 b t d) (ix2 b t) (fun a => by
    match a with
    | ⟨0, _⟩ => rfl
    | ⟨1, _⟩ => rfl)]
  refine reduce_andi_ones _ _ _ (fun i => ?_) _
  obtain ⟨b', t', u, rfl⟩ : ∃ (b' : Fin 8) (t' : Fin 2048) (u : Fin 1), i = ix3 b' t' u := ⟨i 0, i 1, i 2, eq_ix3 i⟩
  have hi := hids (ix2 b' t')
  show IntOp.andi (IntOp.cmpi .sge (index ids (ix3 b' t' u)) 0#32) (IntOp.cmpi .sle (index ids (ix3 b' t' u)) 50256#32) = 1#1
  rw [index_apply ids b' t' u hi, IntOp.andi_eq_one]
  exact ⟨(Predicate.sge_iff_toNat (by omega) (by decide)).mpr (Nat.zero_le _),
    (Predicate.sle_iff_toNat (by omega) (by decide)).mpr (by show _ ≤ 50256; omega)⟩

/-- The gather at (b, t, d): the operand's row at the start index read signed and capped at the last row,
    column `d`. On the row axis (collapsed, named by the start index map) the coordinate is the clamped
    start; on the column axis (the one offset axis) it is the result's last coordinate. -/
theorem gather_apply (x : S50257x1024.Idx → α) (idx : IVec S8x2048x1 32) (b : Fin 8) (t : Fin 2048) (d : Fin 1024) :
    Host.gather gather_S50257x1024_S8x2048x1_S8x2048x1024_2_0_n_n_0_2_11024 x idx (ix3 b t d)
      = x (ix2 (⟨min (idx (ix3 b t (0 : Fin 1))).toInt.toNat 50256, by omega⟩ : Fin 50257) d) := by
  unfold Host.gather
  congr 1
  funext a
  refine Fin.ext ?_
  match a with
  | ⟨0, _⟩ =>
    show gather_S50257x1024_S8x2048x1_S8x2048x1024_2_0_n_n_0_2_11024.start (ix3 b t d) idx 0
      + gather_S50257x1024_S8x2048x1_S8x2048x1024_2_0_n_n_0_2_11024.batchCoord (ix3 b t d) 0
      + gather_S50257x1024_S8x2048x1_S8x2048x1024_2_0_n_n_0_2_11024.offCoord (ix3 b t d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50257x1024_S8x2048x1_S8x2048x1024_2_0_n_n_0_2_11024.startIndexMap from
      List.mem_singleton.mpr rfl)]
    have hsi : gather_S50257x1024_S8x2048x1_S8x2048x1024_2_0_n_n_0_2_11024.siIdx (ix3 b t d)
        ⟨List.idxOf (0 : Fin 2) gather_S50257x1024_S8x2048x1_S8x2048x1024_2_0_n_n_0_2_11024.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S50257x1024_S8x2048x1_S8x2048x1024_2_0_n_n_0_2_11024.start (ix3 b t d) idx 1
      + gather_S50257x1024_S8x2048x1_S8x2048x1024_2_0_n_n_0_2_11024.batchCoord (ix3 b t d) 1
      + gather_S50257x1024_S8x2048x1_S8x2048x1024_2_0_n_n_0_2_11024.offCoord (ix3 b t d) 1 = d.val
    rw [GatherDims.batchCoord_eq_zero _ _ _ List.not_mem_nil]
    unfold GatherDims.start
    rw [dif_neg (show ¬ (1 : Fin 2) ∈ gather_S50257x1024_S8x2048x1_S8x2048x1024_2_0_n_n_0_2_11024.startIndexMap from by
      show ¬ (1 : Fin 2) ∈ [(0 : Fin 2)]; decide)]
    unfold GatherDims.offCoord
    rw [dif_pos (show (1 : Fin 2) ∈ gather_S50257x1024_S8x2048x1_S8x2048x1024_2_0_n_n_0_2_11024.sKept from by
      rw [GatherDims.mem_sKept]; exact ⟨by show ¬ (1 : Fin 2) ∈ [(0 : Fin 2)]; decide, List.not_mem_nil⟩)]
    simp only [Nat.zero_add]
    rfl

/-- The quantized table at row `v`, column `d`: the cell of the weight there and the row's scale of
    the column's group. The flattening and the regrouping keep row-major positions
    (`(v·8 + d/128)·128 + d%128 = v·1024 + d`); the scale's two broadcasts read `(v, d/128)`. -/
theorem table_apply (w : FVec Ideal S50257x1024 .f32) (s : FVec Ideal S50257x8 .f32) (v : Fin 50257) (d : Fin 1024) :
    table (F := Ideal) w s (ix2 v d) = Cert.Spec.cell (w (ix2 v d)) (s (ix2 v (Cert.Spec.grp d))) := by
  have hl : d.val % 128 < 128 := Nat.mod_lt _ (by decide)
  have hg : (Cert.Spec.grp d).val = d.val / 128 := rfl
  unfold table
  rw [shapeCast_apply _ _ (ix2 v d) (ix3 v (Cert.Spec.grp d) (⟨d.val % 128, hl⟩ : Fin 128)) (by
    rw [Shape.rowMajor_val_three, Shape.rowMajor_val_two]
    show (v.val * 8 + (Cert.Spec.grp d).val) * 128 + d.val % 128 = v.val * 1024 + d.val
    rw [hg]; omega)]
  rw [mulf_apply,
    broadcastInDim_apply _ _ _ (ix3 v (Cert.Spec.grp d) (⟨d.val % 128, hl⟩ : Fin 128)) (ix3 v (Cert.Spec.grp d) (0 : Fin 1)) (fun a => by
      match a with
      | ⟨0, _⟩ => rfl
      | ⟨1, _⟩ => rfl
      | ⟨2, _⟩ => rfl),
    broadcastInDim_apply _ _ _ (ix3 v (Cert.Spec.grp d) (0 : Fin 1)) (ix2 v (Cert.Spec.grp d)) (fun a => by
      match a with
      | ⟨0, _⟩ => rfl
      | ⟨1, _⟩ => rfl)]
  have e : shapeCast S50257x8x128 w shapeCasts_S50257x1024_S50257x8x128 (ix3 v (Cert.Spec.grp d) (⟨d.val % 128, hl⟩ : Fin 128))
      = w (ix2 v d) :=
    shapeCast_apply _ _ _ _ (by
      rw [Shape.rowMajor_val_three, Shape.rowMajor_val_two]
      show v.val * 1024 + d.val = (v.val * 8 + (Cert.Spec.grp d).val) * 128 + d.val % 128
      rw [hg]; omega)
  show Cert.Spec.cell (shapeCast S50257x8x128 w shapeCasts_S50257x1024_S50257x8x128 (ix3 v (Cert.Spec.grp d) (⟨d.val % 128, hl⟩ : Fin 128)))
      (s (ix2 v (Cert.Spec.grp d))) = _
  rw [e]

/-- The whole result at (b, t, d) when every id is in range: the mask is set, the start index is the id, the
    gathered row is the id's row of the quantized table. -/
theorem out_apply (ids : IVec S8x2048 32) (w : FVec Ideal S50257x1024 .f32) (s : FVec Ideal S50257x8 .f32)
    (hids : ∀ i, (ids i).toNat < 50257) (b : Fin 8) (t : Fin 2048) (d : Fin 1024) :
    out (F := Ideal) ids w s (ix3 b t d) = Cert.Spec.G ids w s (ix3 b t d) := by
  have hi := hids (ix2 b t)
  unfold out
  rw [select_apply, mask_apply ids hids b t d, select_one, gather_apply, Cert.Spec.G_apply]
  have hr : (⟨min (index ids (ix3 b t (0 : Fin 1))).toInt.toNat 50256, by omega⟩ : Fin 50257) = Cert.Spec.row ids b t := by
    refine Fin.ext ?_
    show min (index ids (ix3 b t (0 : Fin 1))).toInt.toNat 50256 = min (ids (ix2 b t)).toNat 50256
    rw [index_apply ids b t 0 hi, Predicate.toInt_eq_toNat_of_lt (by omega)]
    rfl
  rw [hr, table_apply]

/-- The operations' term is the specification when every id is in range. -/
theorem out_eq_G (ids : IVec S8x2048 32) (w : FVec Ideal S50257x1024 .f32) (s : FVec Ideal S50257x8 .f32)
    (hids : ∀ i, (ids i).toNat < 50257) : out (F := Ideal) ids w s = Cert.Spec.G ids w s := by
  funext j
  obtain ⟨b, t, d, rfl⟩ : ∃ (b : Fin 8) (t : Fin 2048) (d : Fin 1024), j = ix3 b t d := ⟨j 0, j 1, j 2, eq_ix3 j⟩
  exact out_apply ids w s hids b t d

end Value

/-! ## The run -/

/-- Every weakly fair execution of the reference terminates with the result at the operations' term of the
    three arguments and the arguments unchanged: no hypothesis on the ids. -/
theorem run_out (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v11)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v11).trans (out_eq _), (h c main_arg0).trans (arg0_eq _),
      (h c main_arg1).trans (arg1_eq _), (h c main_arg2).trans (arg2_eq _)⟩)
    (run_main m g)

/-- The reference runs and leaves its arguments unchanged. -/
theorem frame (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_out m g)

/-- At the ideal instance, when every id is a word in `[0, 50257)`, the reference ends with the specified
    result and unchanged arguments. -/
theorem run (m : (ℓ : Loc nD τ sig) → Buf (Elt Ideal) ℓ) (g : Dev nD → PrngReg)
    (hids : ∀ (c : Dev nD) (i : S8x2048.Idx), ((m ((c.tc : Thread nD τ).loc main_arg0) : IVec S8x2048 32) i).toNat < 50257) :
    θ_run (defs (F := Ideal)) (onTc (τ := τ) (main (F := Ideal))) ⟨m, fun _ => 0, g⟩ (fun r => ∀ c : Dev nD,
      r.2.mem ((c.tc : Thread nD τ).loc main_v11)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (out_eq_G _ _ _ (hids c)), (h c).2⟩) (run_out m g)

end Cert.Proof.RefRun

end
-- ==== Proof.BitsSetup.lean ====
/-
  The kernel's program around its one region: what every buffer holds when the region is entered, the
  table of clamped ids the region prefetches, the two semaphores and the two arrays the body gathers rows from, and
  the region's invariant spelled conjunct by conjunct.
-/
import proofs.«418394_j61838939127938_3_alg».proof.Proof.Gen.Kernel
import proofs.«418394_j61838939127938_3_alg».proof.Proof.Gen.Kernel.Skeleton
import proofs.«418394_j61838939127938_3_alg».proof.Proof.Gen.Kernel.Launch
import Idealize.ShloMosaic.Lib.Transfers
import Idealize.ShloMosaic.Lib.Batch
import Idealize.ShloMosaic.Lib.Writes
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The program around its one kernel region -/

/-- Core `c`'s buffer contents when the region is entered: the launch memory after the host operations that come
    before the region (the flattening and clamping of the ids, the reshape of the table, the padding of the scales). -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to its region continued by the final reshape, entered at the contents `V`. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-! ## The prefetched table of clamped ids -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Any contents are admissible: no window's index map reads the table. -/
abbrev adm : (pcfg0 (F := F)).Adm := ⟨tbl m, trivial⟩
abbrev cfgM : Pipeline.Cfg sig Λ₀ := cfg0 (adm m)

/-- The table, the two gathered arrays and the two row buffers as the body is handed them. -/
abbrev tbM : Memref sig .tc .smem S16384 .i32 := Memref.whole main_v1
abbrev wM : Memref sig .tc .hbm S50257x1x1024 .f32 := Memref.whole main_v2
abbrev sM : Memref sig .tc .hbm S50257x1x128 .f32 := Memref.whole main_v4
abbrev wbuf : Memref sig .tc .vmem S128x1x1024 .f32 := Memref.whole cc0_scratch0
abbrev sbuf : Memref sig .tc .vmem S128x1x128 .f32 := Memref.whole cc0_scratch1

abbrev BufOf (c : Dev nD) {sp : Space} {S : Shape} {e : EltTy} (M : Memref sig .tc sp S e) : Type := Buf (Elt F) (M.view.loc (c : Thread nD τ))
/-- A buffer held whole at share `q`. -/
abbrev ptAt (c : Dev nD) {sp : Space} {S : Shape} {e : EltTy} (M : Memref sig .tc sp S e) (q : PosShare TreeShare) (f : BufOf (F := F) c M) : sProp 𝕄 :=
  M.view.loc (c : Thread nD τ) ↦{q} f

/-- The half of the table the region hands the body (the pipeline keeps the other half). -/
theorem PhiT0_eq (c : Dev nD) : (Pipeline.ΦT pre0 (tbl m) c : sProp 𝕄) = iprop(ptAt c tbM fullShare.right (tbl m 0)) := by
  unfold Pipeline.ΦT Pipeline.prefHeld
  rw [show (Finset.univ : Finset (Fin 1)) = {(0 : Fin 1)} from by decide, bigSep_singleton]
  rfl

/-! ## The kernel's own cells and the arrays it gathers from -/

/-- The two DMA semaphores of the kernel's own: the weight rows' and the scale rows'. -/
abbrev osem0 : Fin 2 → SemLoc sig := fun j => (![SemLoc.dma 2, SemLoc.dma 3] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl
/-- The arrays left in HBM that the body reads rows of. -/
def H0 : Finset (Ref sig .tc) := {main_v2, main_v4}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(ptAt c wM fullShare (V m c main_v2) ∗ ptAt c sM fullShare (V m c main_v4)) := by
  rw [BI.bigSep_eq_bigSepL_of_eq [main_v2, main_v4] (by decide) (by decide)]; rfl

/-- The region's invariant, conjunct by conjunct: the two row buffers at some contents, the generator register, the two
    cells at zero, the two gathered arrays whole at their region-entry contents. -/
theorem PhiD0_eq (c : Dev nD) :
    (Pipeline.ΦD osem0 spec0 H0 (V m) c : sProp 𝕄)
      = iprop(iprop((∃ f, ptAt c wbuf fullShare f) ∗ (∃ f, ptAt c sbuf fullShare f)) ∗ (∃ r, prngReg c r)
          ∗ iprop(semVal ((c : Thread nD τ), SemLoc.dma 2) 0 ∗ semVal ((c : Thread nD τ), SemLoc.dma 3) 0)
          ∗ iprop(ptAt c wM fullShare (V m c main_v2) ∗ ptAt c sM fullShare (V m c main_v4))) := by
  rw [Pipeline.ΦD_eq, scopedRest0_eq, ownSems00_eq, hbmPts0_eq]

/-! ## The final reshape touches neither the table nor the gathered arrays -/

theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  refine Pipeline.sub_tailRefsBut pre0 spec0 H0 op ((List.forall_iff_forall_mem.mp hostOps1_sub) op hop) ?_ ?_
  all_goals
    simp only [hostOps1, List.mem_cons, List.mem_nil_iff, or_false] at hop
    rcases hop with rfl
  · intro k; fin_cases k; simp only [StableHlo.reshape_bufs]; decide
  · intro b hb; simp only [H0, Finset.mem_insert, Finset.mem_singleton] at hb
    rcases hb with rfl | rfl <;> simp only [StableHlo.reshape_bufs] <;> decide
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w
  simp only [StableHlo.reshape_writes, Finset.mem_singleton]
  exact StableHlo.devRef_ne_of_ne (by decide)

/-! ## The output window's staging buffer at a point -/

abbrev ms0_0 (t : Fin (cfgM m).N) : Memref sig .tc .vmem S128x1024 .f32 := spec0_0.stage ((cfgM m).slots t 0)
abbrev hs0_0 (t : Fin (cfgM m).N) : (ms0_0 m t).IsWhole := hstage0_0 (((cfgM m).slots t 0).cast nbuf0_0)

end Cert.Kernel.Fr

end
-- ==== Proof.BitsRows.lean ====
/-
  The two row buffers cut into their 128 rows.

  A buffer held whole is its rows held each by its own elements (the rows written out one by one, as the body names
  the destinations of its copies). Once the copy for slot `j` has landed, row `j` holds the row of the gathered
  array that the table's word for slot `j` names; restated at ONE function of the buffer's index, the 128 rows join
  back to the buffer held whole at that function.
-/
import proofs.«418394_j61838939127938_3_alg».proof.Proof.BitsSetup
import Idealize.ShloMosaic.Lib.ValueIdx
import Idealize.ShloMosaic.Lib.Pipeline.Value
import Idealize.ShloMosaic.Lib.Pipeline.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [BitOps F]

local notation "𝕄" => MT nD τ sig Unit (Elt F) ℕ (Pipeline.UD sig nD τ) ℕ

/-! ## Row `j` of the weight row buffer, uniformly in `j` -/

theorem inbRowW (j : Fin 128) : ∀ a, (![j.val, 0, 0] : Fin 3 → ℕ) a + S1x1x1024.size a ≤ S128x1x1024.size a := by
  intro a
  have := j.isLt
  match a with
  | ⟨0, _⟩ => show j.val + 1 ≤ 128; omega
  | ⟨1, _⟩ => show 0 + 1 ≤ 1; omega
  | ⟨2, _⟩ => show 0 + 1024 ≤ 1024; omega

/-- Row `j` as a memref: the one-row slice of the buffer at row `j`, its two unit axes squeezed to one. -/
abbrev rowW (j : Fin 128) : Memref sig .tc .vmem S1x1024 .f32 :=
  ((wbuf.slice (Rect.unit (s := S128x1x1024) ![j.val, 0, 0] S1x1x1024.size (inbRowW j)) (fun _ => rfl)).squeeze S1x1024 squeezes_S1x1x1024_S1x1024)

/-- Entry `d` of row `j` sits at (j, 0, d) of the buffer. -/
theorem rowW_emb (j : Fin 128) (d : Fin 1024) :
    (rowW j).view.emb (ix2 (0 : Fin 1) d) = (ix3 j (0 : Fin 1) d : S128x1x1024.Idx) := by
  show (Rect.unit (s := S128x1x1024) ![j.val, 0, 0] S1x1x1024.size (inbRowW j)).emb
      (Shape.reshapeEquiv (Shape.Squeezes.numel_eq squeezes_S1x1x1024_S1x1024) (ix2 (0 : Fin 1) d)) = _
  rw [Shape.reshapeEquiv_eq_of_rowMajor _ (x := ix2 (0 : Fin 1) d) (y := (ix3 (0 : Fin 1) (0 : Fin 1) d : S1x1x1024.Idx)) (by
    rw [Shape.rowMajor_val_three, Shape.rowMajor_val_two]; rfl)]
  funext a
  refine Fin.ext ?_
  match a with
  | ⟨0, _⟩ => rw [Rect.emb_apply]; show j.val + 1 * 0 = j.val; omega
  | ⟨1, _⟩ => rw [Rect.emb_apply]; show 0 + 1 * 0 = 0; omega
  | ⟨2, _⟩ => rw [Rect.emb_apply]; show 0 + 1 * d.val = d.val; omega

/-- The elements of row `j`, as a set of the buffer's indices. -/
def rowSetW (c : Dev nD) (j : Fin 128) : Finset (Idx (wbuf.view.loc (c : Thread nD τ))) := (rowW j).view.set

/-- An index of the buffer lies in row `j` exactly when its first coordinate is `j`. -/
theorem mem_rowSetW (c : Dev nD) (j : Fin 128) (x : S128x1x1024.Idx) : x ∈ rowSetW c j ↔ (x 0).val = j.val := by
  constructor
  · intro hm
    obtain ⟨y, -, hy⟩ := Finset.mem_map.mp hm
    obtain ⟨u, d, rfl⟩ : ∃ (u : Fin 1) (d : Fin 1024), y = ix2 u d := ⟨y 0, y 1, eq_ix2 y⟩
    obtain rfl : u = 0 := Subsingleton.elim _ _
    rw [rowW_emb j d] at hy
    exact (congrArg (fun i : S128x1x1024.Idx => (i 0).val) hy).symm
  · intro h
    have hx : x = (ix3 j (0 : Fin 1) (x 2) : S128x1x1024.Idx) := by
      funext a
      match a with
      | ⟨0, _⟩ => exact Fin.ext h
      | ⟨1, h1⟩ =>
        refine Fin.ext ?_
        have hlt : (x ⟨1, h1⟩).val < 1 := (x ⟨1, h1⟩).isLt
        show (x ⟨1, h1⟩).val = 0
        omega
      | ⟨2, _⟩ => rfl
    rw [hx, ← rowW_emb j (x 2)]
    exact Finset.mem_map_of_mem _ (Finset.mem_univ _)

theorem rowSetW_disjoint (c : Dev nD) (j j' : Fin 128) (h : j ≠ j') : Disjoint (rowSetW c j) (rowSetW c j') := by
  rw [Finset.disjoint_left]
  intro x hx hx'
  rw [mem_rowSetW] at hx hx'
  exact h (Fin.ext (hx.symm.trans hx'))

theorem rowSetW_cover (c : Dev nD) : (Finset.univ : Finset (Fin 128)).biUnion (rowSetW c) = Finset.univ := by
  ext x
  refine ⟨fun _ => Finset.mem_univ _, fun _ => ?_⟩
  exact Finset.mem_biUnion.mpr ⟨(x : S128x1x1024.Idx) 0, Finset.mem_univ _, (mem_rowSetW c _ x).mpr rfl⟩

/-- The buffer held whole is its 128 rows, each held by its own elements. -/
theorem wbuf_rows_big (c : Dev nD) (f : BufOf (F := F) c wbuf) :
    (ptAt c wbuf fullShare f : sProp 𝕄)
      = bigSep Finset.univ fun j : Fin 128 => (rowW j).view.loc (c : Thread nD τ) ↦[(rowW j).view.set]{fullShare} f := by
  show (wbuf.view.loc (c : Thread nD τ) ↦[Finset.univ]{fullShare} f : sProp 𝕄) = _
  rw [← rowSetW_cover c, pointsTo_biUnion Finset.univ (rowSetW c) (fun t _ t' _ h => rowSetW_disjoint c t t' h)]
  rfl

/-! ## Row `j` of the scale row buffer, uniformly in `j` -/

theorem inbRowS (j : Fin 128) : ∀ a, (![j.val, 0, 0] : Fin 3 → ℕ) a + S1x1x128.size a ≤ S128x1x128.size a := by
  intro a
  have := j.isLt
  match a with
  | ⟨0, _⟩ => show j.val + 1 ≤ 128; omega
  | ⟨1, _⟩ => show 0 + 1 ≤ 1; omega
  | ⟨2, _⟩ => show 0 + 128 ≤ 128; omega

/-- Row `j` as a memref: the one-row slice of the buffer at row `j`, its two unit axes squeezed to one. -/
abbrev rowS (j : Fin 128) : Memref sig .tc .vmem S1x128 .f32 :=
  ((sbuf.slice (Rect.unit (s := S128x1x128) ![j.val, 0, 0] S1x1x128.size (inbRowS j)) (fun _ => rfl)).squeeze S1x128 squeezes_S1x1x128_S1x128)

/-- Entry `d` of row `j` sits at (j, 0, d) of the buffer. -/
theorem rowS_emb (j : Fin 128) (d : Fin 128) :
    (rowS j).view.emb (ix2 (0 : Fin 1) d) = (ix3 j (0 : Fin 1) d : S128x1x128.Idx) := by
  show (Rect.unit (s := S128x1x128) ![j.val, 0, 0] S1x1x128.size (inbRowS j)).emb
      (Shape.reshapeEquiv (Shape.Squeezes.numel_eq squeezes_S1x1x128_S1x128) (ix2 (0 : Fin 1) d)) = _
  rw [Shape.reshapeEquiv_eq_of_rowMajor _ (x := ix2 (0 : Fin 1) d) (y := (ix3 (0 : Fin 1) (0 : Fin 1) d : S1x1x128.Idx)) (by
    rw [Shape.rowMajor_val_three, Shape.rowMajor_val_two]; rfl)]
  funext a
  refine Fin.ext ?_
  match a with
  | ⟨0, _⟩ => rw [Rect.emb_apply]; show j.val + 1 * 0 = j.val; omega
  | ⟨1, _⟩ => rw [Rect.emb_apply]; show 0 + 1 * 0 = 0; omega
  | ⟨2, _⟩ => rw [Rect.emb_apply]; show 0 + 1 * d.val = d.val; omega

/-- The elements of row `j`, as a set of the buffer's indices. -/
def rowSetS (c : Dev nD) (j : Fin 128) : Finset (Idx (sbuf.view.loc (c : Thread nD τ))) := (rowS j).view.set

/-- An index of the buffer lies in row `j` exactly when its first coordinate is `j`. -/
theorem mem_rowSetS (c : Dev nD) (j : Fin 128) (x : S128x1x128.Idx) : x ∈ rowSetS c j ↔ (x 0).val = j.val := by
  constructor
  · intro hm
    obtain ⟨y, -, hy⟩ := Finset.mem_map.mp hm
    obtain ⟨u, d, rfl⟩ : ∃ (u : Fin 1) (d : Fin 128), y = ix2 u d := ⟨y 0, y 1, eq_ix2 y⟩
    obtain rfl : u = 0 := Subsingleton.elim _ _
    rw [rowS_emb j d] at hy
    exact (congrArg (fun i : S128x1x128.Idx => (i 0).val) hy).symm
  · intro h
    have hx : x = (ix3 j (0 : Fin 1) (x 2) : S128x1x128.Idx) := by
      funext a
      match a with
      | ⟨0, _⟩ => exact Fin.ext h
      | ⟨1, h1⟩ =>
        refine Fin.ext ?_
        have hlt : (x ⟨1, h1⟩).val < 1 := (x ⟨1, h1⟩).isLt
        show (x ⟨1, h1⟩).val = 0
        omega
      | ⟨2, _⟩ => rfl
    rw [hx, ← rowS_emb j (x 2)]
    exact Finset.mem_map_of_mem _ (Finset.mem_univ _)

theorem rowSetS_disjoint (c : Dev nD) (j j' : Fin 128) (h : j ≠ j') : Disjoint (rowSetS c j) (rowSetS c j') := by
  rw [Finset.disjoint_left]
  intro x hx hx'
  rw [mem_rowSetS] at hx hx'
  exact h (Fin.ext (hx.symm.trans hx'))

theorem rowSetS_cover (c : Dev nD) : (Finset.univ : Finset (Fin 128)).biUnion (rowSetS c) = Finset.univ := by
  ext x
  refine ⟨fun _ => Finset.mem_univ _, fun _ => ?_⟩
  exact Finset.mem_biUnion.mpr ⟨(x : S128x1x128.Idx) 0, Finset.mem_univ _, (mem_rowSetS c _ x).mpr rfl⟩

/-- The buffer held whole is its 128 rows, each held by its own elements. -/
theorem sbuf_rows_big (c : Dev nD) (f : BufOf (F := F) c sbuf) :
    (ptAt c sbuf fullShare f : sProp 𝕄)
      = bigSep Finset.univ fun j : Fin 128 => (rowS j).view.loc (c : Thread nD τ) ↦[(rowS j).view.set]{fullShare} f := by
  show (sbuf.view.loc (c : Thread nD τ) ↦[Finset.univ]{fullShare} f : sProp 𝕄) = _
  rw [← rowSetS_cover c, pointsTo_biUnion Finset.univ (rowSetS c) (fun t _ t' _ h => rowSetS_disjoint c t t' h)]
  rfl

/-! ## The rows written out one by one -/

/-- Row `j` of the weight row buffer, as the body names the destination of copy `j`. -/
abbrev wrow : (j : Fin 128) → Memref sig .tc .vmem S1x1024 .f32
  | ⟨0, _⟩ => ((wbuf.slice (Rect.unit (s := S128x1x1024) ![0, 0, 0] S1x1x1024.size inb_S128x1x1024_S1x1x1024_0_0_0) (fun _ => rfl)).squeeze S1x1024 squeezes_S1x1x1024_S1x1024)
  | ⟨1, _⟩ => ((wbuf.slice (Rect.unit (s := S128x1x1024) ![1, 0, 0] S1x1x1024.size inb_S128x1x1024_S1x1x1024_1_0_0) (fun _ => rfl)).squeeze S1x1024 squeezes_S1x1x1024_S1x1024)
  | ⟨2, _⟩ => ((wbuf.slice (Rect.unit (s := S128x1x1024) ![2, 0, 0] S1x1x1024.size inb_S128x1x1024_S1x1x1024_2_0_0) (fun _ => rfl)).squeeze S1x1024 squeezes_S1x1x1024_S1x1024)
  | ⟨3, _⟩ => ((wbuf.slice (Rect.unit (s := S128x1x1024) ![3, 0, 0] S1x1x1024.size inb_S128x1x1024_S1x1x1024_3_0_0) (fun _ => rfl)).squeeze S1x1024 squeezes_S1x1x1024_S1x1024)
  | ⟨4, _⟩ => ((wbuf.slice (Rect.unit (s := S128x1x1024) ![4, 0, 0] S1x1x1024.size inb_S128x1x1024_S1x1x1024_4_0_0) (fun _ => rfl)).squeeze S1x1024 squeezes_S1x1x1024_S1x1024)
  | ⟨5, _⟩ => ((wbuf.slice (Rect.unit (s := S128x1x1024) ![5, 0, 0] S1x1x1024.size inb_S128x1x1024_S1x1x1024_5_0_0) (fun _ => rfl)).squeeze S1x1024 squeezes_S1x1x1024_S1x1024)
  | ⟨6, _⟩ => ((wbuf.slice (Rect.unit (s := S128x1x1024) ![6, 0, 0] S1x1x1024.size inb_S128x1x1024_S1x1x1024_6_0_0) (fun _ => rfl)).squeeze S1x1024 squeezes_S1x1x1024_S1x1024)
  | ⟨7, _⟩ => ((wbuf.slice (Rect.unit (s := S128x1x1024) ![7, 0, 0] S1x1x1024.size inb_S128x1x1024_S1x1x1024_7_0_0) (fun _ => rfl)).squeeze S1x1024 squeezes_S1x1x1024_S1x1024)
  | ⟨8, _⟩ => ((wbuf.slice (Rect.unit (s := S128x1x1024) ![8, 0, 0] S1x1x1024.size inb_S128x1x1024_S1x1x1024_8_0_0) (fun _ => rfl)).squeeze S1x1024 squeezes_S1x1x1024_S1x1024)
  | ⟨9, _⟩ => ((wbuf.slice (Rect.unit (s := S128x1x1024) ![9, 0, 0] S1x1x1024.size inb_S128x1x1024_S1x1x1024_9_0_0) (fun _ => rfl)).squeeze S1x1024 squeezes_S1x1x1024_S1x1024)
  | ⟨10, _⟩ => ((wbuf.slice (Rect.unit (s := S128x1x1024) ![10, 0, 0] S1x1x1024.size inb_S128x1x1024_S1x1x1024_10_0_0) (fun _ => rfl)).squeeze S1x1024 squeezes_S1x1x1024_S1x1024)
  | ⟨11, _⟩ => ((wbuf.slice (Rect.unit (s := S128x1x1024) ![11, 0, 0] S1x1x1024.size inb_S128x1x1024_S1x1x1024_11_0_0) (fun _ => rfl)).squeeze S1x1024 squeezes_S1x1x1024_S1x1024)
  | ⟨12, _⟩ => ((wbuf.slice (Rect.unit (s := S128x1x1024) ![12, 0, 0] S1x1x1024.size inb_S128x1x1024_S1x1x1024_12_0_0) (fun _ => rfl)).squeeze S1x1024 squeezes_S1x1x1024_S1x1024)
  | ⟨13, _⟩ => ((wbuf.slice (Rect.unit (s := S128x1x1024) ![13, 0, 0] S1x1x1024.size inb_S128x1x1024_S1x1x1024_13_0_0) (fun _ => rfl)).squeeze S1x1024 squeezes_S1x1x1024_S1x1024)
  | ⟨14, _⟩ => ((wbuf.slice (Rect.unit (s := S128x1x1024) ![14, 0, 0] S1x1x1024.size inb_S128x1x1024_S1x1x1024_14_0_0) (fun _ => rfl)).squeeze S1x1024 squeezes_S1x1x1024_S1x1024)
  | ⟨15, _⟩ => ((wbuf.slice (Rect.unit (s := S128x1x1024) ![15, 0, 0] S1x1x1024.size inb_S128x1x1024_S1x1x1024_15_0_0) (fun _ => rfl)).squeeze S1x1024 squeezes_S1x1x1024_S1x1024)
  | ⟨16, _⟩ => ((wbuf.slice (Rect.unit (s := S128x1x1024) ![16, 0, 0] S1x1x1024.size inb_S128x1x1024_S1x1x1024_16_0_0) (fun _ => rfl)).squeeze S1x1024 squeezes_S1x1x1024_S1x1024)
  | ⟨17, _⟩ => ((wbuf.slice (Rect.unit (s := S128x1x1024) ![17, 0, 0] S1x1x1024.size inb_S128x1x1024_S1x1x1024_17_0_0) (fun _ => rfl)).squeeze S1x1024 squeezes_S1x1x1024_S1x1024)
  | ⟨18, _⟩ => ((wbuf.slice (Rect.unit (s := S128x1x1024) ![18, 0, 0] S1x1x1024.size inb_S128x1x1024_S1x1x1024_18_0_0) (fun _ => rfl)).squeeze S1x1024 squeezes_S1x1x1024_S1x1024)
  | ⟨19, _⟩ => ((wbuf.slice (Rect.unit (s := S128x1x1024) ![19, 0, 0] S1x1x1024.size inb_S128x1x1024_S1x1x1024_19_0_0) (fun _ => rfl)).squeeze S1x1024 squeezes_S1x1x1024_S1x1024)
  | ⟨20, _⟩ => ((wbuf.slice (Rect.unit (s := S128x1x1024) ![20, 0, 0] S1x1x1024.size inb_S128x1x1024_S1x1x1024_20_0_0) (fun _ => rfl)).squeeze S1x1024 squeezes_S1x1x1024_S1x1024)
  | ⟨21, _⟩ => ((wbuf.slice (Rect.unit (s := S128x1x1024) ![21, 0, 0] S1x1x1024.size inb_S128x1x1024_S1x1x1024_21_0_0) (fun _ => rfl)).squeeze S1x1024 squeezes_S1x1x1024_S1x1024)
  | ⟨22, _⟩ => ((wbuf.slice (Rect.unit (s := S128x1x1024) ![22, 0, 0] S1x1x1024.size inb_S128x1x1024_S1x1x1024_22_0_0) (fun _ => rfl)).squeeze S1x1024 squeezes_S1x1x1024_S1x1024)
  | ⟨23, _⟩ => ((wbuf.slice (Rect.unit (s := S128x1x1024) ![23, 0, 0] S1x1x1024.size inb_S128x1x1024_S1x1x1024_23_0_0) (fun _ => rfl)).squeeze S1x1024 squeezes_S1x1x1024_S1x1024)
  | ⟨24, _⟩ => ((wbuf.slice (Rect.unit (s := S128x1x1024) ![24, 0, 0] S1x1x1024.size inb_S128x1x1024_S1x1x1024_24_0_0) (fun _ => rfl)).squeeze S1x1024 squeezes_S1x1x1024_S1x1024)
  | ⟨25, _⟩ => ((wbuf.slice (Rect.unit (s := S128x1x1024) ![25, 0, 0] S1x1x1024.size inb_S128x1x1024_S1x1x1024_25_0_0) (fun _ => rfl)).squeeze S1x1024 squeezes_S1x1x1024_S1x1024)
  | ⟨26, _⟩ => ((wbuf.slice (Rect.unit (s := S128x1x1024) ![26, 0, 0] S1x1x1024.size inb_S128x1x1024_S1x1x1024_26_0_0) (fun _ => rfl)).squeeze S1x1024 squeezes_S1x1x1024_S1x1024)
  | ⟨27, _⟩ => ((wbuf.slice (Rect.unit (s := S128x1x1024) ![27, 0, 0] S1x1x1024.size inb_S128x1x1024_S1x1x1024_27_0_0) (fun _ => rfl)).squeeze S1x1024 squeezes_S1x1x1024_S1x1024)
  | ⟨28, _⟩ => ((wbuf.slice (Rect.unit (s := S128x1x1024) ![28, 0, 0] S1x1x1024.size inb_S128x1x1024_S1x1x1024_28_0_0) (fun _ => rfl)).squeeze S1x1024 squeezes_S1x1x1024_S1x1024)
  | ⟨29, _⟩ => ((wbuf.slice (Rect.unit (s := S128x1x1024) ![29, 0, 0] S1x1x1024.size inb_S128x1x1024_S1x1x1024_29_0_0) (fun _ => rfl)).squeeze S1x1024 squeezes_S1x1x1024_S1x1024)
  | ⟨30, _⟩ => ((wbuf.slice (Rect.unit (s := S128x1x1024) ![30, 0, 0] S1x1x1024.size inb_S128x1x1024_S1x1x1024_30_0_0) (fun _ => rfl)).squeeze S1x1024 squeezes_S1x1x1024_S1x1024)
  | ⟨31, _⟩ => ((wbuf.slice (Rect.unit (s := S128x1x1024) ![31, 0, 0] S1x1x1024.size inb_S128x1x1024_S1x1x1024_31_0_0) (fun _ => rfl)).squeeze S1x1024 squeezes_S1x1x1024_S1x1024)
  | ⟨32, _⟩ => ((wbuf.slice (Rect.unit (s := S128x1x1024) ![32, 0, 0] S1x1x1024.size inb_S128x1x1024_S1x1x1024_32_0_0) (fun _ => rfl)).squeeze S1x1024 squeezes_S1x1x1024_S1x1024)
  | ⟨33, _⟩ => ((wbuf.slice (Rect.unit (s := S128x1x1024) ![33, 0, 0] S1x1x1024.size inb_S128x1x1024_S1x1x1024_33_0_0) (fun _ => rfl)).squeeze S1x1024 squeezes_S1x1x1024_S1x1024)
  | ⟨34, _⟩ => ((wbuf.slice (Rect.unit (s := S128x1x1024) ![34, 0, 0] S1x1x1024.size inb_S128x1x1024_S1x1x1024_34_0_0) (fun _ => rfl)).squeeze S1x1024 squeezes_S1x1x1024_S1x1024)
  | ⟨35, _⟩ => ((wbuf.slice (Rect.unit (s := S128x1x1024) ![35, 0, 0] S1x1x1024.size inb_S128x1x1024_S1x1x1024_35_0_0) (fun _ => rfl)).squeeze S1x1024 squeezes_S1x1x1024_S1x1024)
  | ⟨36, _⟩ => ((wbuf.slice (Rect.unit (s := S128x1x1024) ![36, 0, 0] S1x1x1024.size inb_S128x1x1024_S1x1x1024_36_0_0) (fun _ => rfl)).squeeze S1x1024 squeezes_S1x1x1024_S1x1024)
  | ⟨37, _⟩ => ((wbuf.slice (Rect.unit (s := S128x1x1024) ![37, 0, 0] S1x1x1024.size inb_S128x1x1024_S1x1x1024_37_0_0) (fun _ => rfl)).squeeze S1x1024 squeezes_S1x1x1024_S1x1024)
  | ⟨38, _⟩ => ((wbuf.slice (Rect.unit (s := S128x1x1024) ![38, 0, 0] S1x1x1024.size inb_S128x1x1024_S1x1x1024_38_0_0) (fun _ => rfl)).squeeze S1x1024 squeezes_S1x1x1024_S1x1024)
  | ⟨39, _⟩ => ((wbuf.slice (Rect.unit (s := S128x1x1024) ![39, 0, 0] S1x1x1024.size inb_S128x1x1024_S1x1x1024_39_0_0) (fun _ => rfl)).squeeze S1x1024 squeezes_S1x1x1024_S1x1024)
  | ⟨40, _⟩ => ((wbuf.slice (Rect.unit (s := S128x1x1024) ![40, 0, 0] S1x1x1024.size inb_S128x1x1024_S1x1x1024_40_0_0) (fun _ => rfl)).squeeze S1x1024 squeezes_S1x1x1024_S1x1024)
  | ⟨41, _⟩ => ((wbuf.slice (Rect.unit (s := S128x1x1024) ![41, 0, 0] S1x1x1024.size inb_S128x1x1024_S1x1x1024_41_0_0) (fun _ => rfl)).squeeze S1x1024 squeezes_S1x1x1024_S1x1024)
  | ⟨42, _⟩ => ((wbuf.slice (Rect.unit (s := S128x1x1024) ![42, 0, 0] S1x1x1024.size inb_S128x1x1024_S1x1x1024_42_0_0) (fun _ => rfl)).squeeze S1x1024 squeezes_S1x1x1024_S1x1024)
  | ⟨43, _⟩ => ((wbuf.slice (Rect.unit (s := S128x1x1024) ![43, 0, 0] S1x1x1024.size inb_S128x1x1024_S1x1x1024_43_0_0) (fun _ => rfl)).squeeze S1x1024 squeezes_S1x1x1024_S1x1024)
  | ⟨44, _⟩ => ((wbuf.slice (Rect.unit (s := S128x1x1024) ![44, 0, 0] S1x1x1024.size inb_S128x1x1024_S1x1x1024_44_0_0) (fun _ => rfl)).squeeze S1x1024 squeezes_S1x1x1024_S1x1024)
  | ⟨45, _⟩ => ((wbuf.slice (Rect.unit (s := S128x1x1024) ![45, 0, 0] S1x1x1024.size inb_S128x1x1024_S1x1x1024_45_0_0) (fun _ => rfl)).squeeze S1x1024 squeezes_S1x1x1024_S1x1024)
  | ⟨46, _⟩ => ((wbuf.slice (Rect.unit (s := S128x1x1024) ![46, 0, 0] S1x1x1024.size inb_S128x1x1024_S1x1x1024_46_0_0) (fun _ => rfl)).squeeze S1x1024 squeezes_S1x1x1024_S1x1024)
  | ⟨47, _⟩ => ((wbuf.slice (Rect.unit (s := S128x1x1024) ![47, 0, 0] S1x1x1024.size inb_S128x1x1024_S1x1x1024_47_0_0) (fun _ => rfl)).squeeze S1x1024 squeezes_S1x1x1024_S1x1024)
  | ⟨48, _⟩ => ((wbuf.slice (Rect.unit (s := S128x1x1024) ![48, 0, 0] S1x1x1024.size inb_S128x1x1024_S1x1x1024_48_0_0) (fun _ => rfl)).squeeze S1x1024 squeezes_S1x1x1024_S1x1024)
  | ⟨49, _⟩ => ((wbuf.slice (Rect.unit (s := S128x1x1024) ![49, 0, 0] S1x1x1024.size inb_S128x1x1024_S1x1x1024_49_0_0) (fun _ => rfl)).squeeze S1x1024 squeezes_S1x1x1024_S1x1024)
  | ⟨50, _⟩ => ((wbuf.slice (Rect.unit (s := S128x1x1024) ![50, 0, 0] S1x1x1024.size inb_S128x1x1024_S1x1x1024_50_0_0) (fun _ => rfl)).squeeze S1x1024 squeezes_S1x1x1024_S1x1024)
  | ⟨51, _⟩ => ((wbuf.slice (Rect.unit (s := S128x1x1024) ![51, 0, 0] S1x1x1024.size inb_S128x1x1024_S1x1x1024_51_0_0) (fun _ => rfl)).squeeze S1x1024 squeezes_S1x1x1024_S1x1024)
  | ⟨52, _⟩ => ((wbuf.slice (Rect.unit (s := S128x1x1024) ![52, 0, 0] S1x1x1024.size inb_S128x1x1024_S1x1x1024_52_0_0) (fun _ => rfl)).squeeze S1x1024 squeezes_S1x1x1024_S1x1024)
  | ⟨53, _⟩ => ((wbuf.slice (Rect.unit (s := S128x1x1024) ![53, 0, 0] S1x1x1024.size inb_S128x1x1024_S1x1x1024_53_0_0) (fun _ => rfl)).squeeze S1x1024 squeezes_S1x1x1024_S1x1024)
  | ⟨54, _⟩ => ((wbuf.slice (Rect.unit (s := S128x1x1024) ![54, 0, 0] S1x1x1024.size inb_S128x1x1024_S1x1x1024_54_0_0) (fun _ => rfl)).squeeze S1x1024 squeezes_S1x1x1024_S1x1024)
  | ⟨55, _⟩ => ((wbuf.slice (Rect.unit (s := S128x1x1024) ![55, 0, 0] S1x1x1024.size inb_S128x1x1024_S1x1x1024_55_0_0) (fun _ => rfl)).squeeze S1x1024 squeezes_S1x1x1024_S1x1024)
  | ⟨56, _⟩ => ((wbuf.slice (Rect.unit (s := S128x1x1024) ![56, 0, 0] S1x1x1024.size inb_S128x1x1024_S1x1x1024_56_0_0) (fun _ => rfl)).squeeze S1x1024 squeezes_S1x1x1024_S1x1024)
  | ⟨57, _⟩ => ((wbuf.slice (Rect.unit (s := S128x1x1024) ![57, 0, 0] S1x1x1024.size inb_S128x1x1024_S1x1x1024_57_0_0) (fun _ => rfl)).squeeze S1x1024 squeezes_S1x1x1024_S1x1024)
  | ⟨58, _⟩ => ((wbuf.slice (Rect.unit (s := S128x1x1024) ![58, 0, 0] S1x1x1024.size inb_S128x1x1024_S1x1x1024_58_0_0) (fun _ => rfl)).squeeze S1x1024 squeezes_S1x1x1024_S1x1024)
  | ⟨59, _⟩ => ((wbuf.slice (Rect.unit (s := S128x1x1024) ![59, 0, 0] S1x1x1024.size inb_S128x1x1024_S1x1x1024_59_0_0) (fun _ => rfl)).squeeze S1x1024 squeezes_S1x1x1024_S1x1024)
  | ⟨60, _⟩ => ((wbuf.slice (Rect.unit (s := S128x1x1024) ![60, 0, 0] S1x1x1024.size inb_S128x1x1024_S1x1x1024_60_0_0) (fun _ => rfl)).squeeze S1x1024 squeezes_S1x1x1024_S1x1024)
  | ⟨61, _⟩ => ((wbuf.slice (Rect.unit (s := S128x1x1024) ![61, 0, 0] S1x1x1024.size inb_S128x1x1024_S1x1x1024_61_0_0) (fun _ => rfl)).squeeze S1x1024 squeezes_S1x1x1024_S1x1024)
  | ⟨62, _⟩ => ((wbuf.slice (Rect.unit (s := S128x1x1024) ![62, 0, 0] S1x1x1024.size inb_S128x1x1024_S1x1x1024_62_0_0) (fun _ => rfl)).squeeze S1x1024 squeezes_S1x1x1024_S1x1024)
  | ⟨63, _⟩ => ((wbuf.slice (Rect.unit (s := S128x1x1024) ![63, 0, 0] S1x1x1024.size inb_S128x1x1024_S1x1x1024_63_0_0) (fun _ => rfl)).squeeze S1x1024 squeezes_S1x1x1024_S1x1024)
  | ⟨64, _⟩ => ((wbuf.slice (Rect.unit (s := S128x1x1024) ![64, 0, 0] S1x1x1024.size inb_S128x1x1024_S1x1x1024_64_0_0) (fun _ => rfl)).squeeze S1x1024 squeezes_S1x1x1024_S1x1024)
  | ⟨65, _⟩ => ((wbuf.slice (Rect.unit (s := S128x1x1024) ![65, 0, 0] S1x1x1024.size inb_S128x1x1024_S1x1x1024_65_0_0) (fun _ => rfl)).squeeze S1x1024 squeezes_S1x1x1024_S1x1024)
  | ⟨66, _⟩ => ((wbuf.slice (Rect.unit (s := S128x1x1024) ![66, 0, 0] S1x1x1024.size inb_S128x1x1024_S1x1x1024_66_0_0) (fun _ => rfl)).squeeze S1x1024 squeezes_S1x1x1024_S1x1024)
  | ⟨67, _⟩ => ((wbuf.slice (Rect.unit (s := S128x1x1024) ![67, 0, 0] S1x1x1024.size inb_S128x1x1024_S1x1x1024_67_0_0) (fun _ => rfl)).squeeze S1x1024 squeezes_S1x1x1024_S1x1024)
  | ⟨68, _⟩ => ((wbuf.slice (Rect.unit (s := S128x1x1024) ![68, 0, 0] S1x1x1024.size inb_S128x1x1024_S1x1x1024_68_0_0) (fun _ => rfl)).squeeze S1x1024 squeezes_S1x1x1024_S1x1024)
  | ⟨69, _⟩ => ((wbuf.slice (Rect.unit (s := S128x1x1024) ![69, 0, 0] S1x1x1024.size inb_S128x1x1024_S1x1x1024_69_0_0) (fun _ => rfl)).squeeze S1x1024 squeezes_S1x1x1024_S1x1024)
  | ⟨70, _⟩ => ((wbuf.slice (Rect.unit (s := S128x1x1024) ![70, 0, 0] S1x1x1024.size inb_S128x1x1024_S1x1x1024_70_0_0) (fun _ => rfl)).squeeze S1x1024 squeezes_S1x1x1024_S1x1024)
  | ⟨71, _⟩ => ((wbuf.slice (Rect.unit (s := S128x1x1024) ![71, 0, 0] S1x1x1024.size inb_S128x1x1024_S1x1x1024_71_0_0) (fun _ => rfl)).squeeze S1x1024 squeezes_S1x1x1024_S1x1024)
  | ⟨72, _⟩ => ((wbuf.slice (Rect.unit (s := S128x1x1024) ![72, 0, 0] S1x1x1024.size inb_S128x1x1024_S1x1x1024_72_0_0) (fun _ => rfl)).squeeze S1x1024 squeezes_S1x1x1024_S1x1024)
  | ⟨73, _⟩ => ((wbuf.slice (Rect.unit (s := S128x1x1024) ![73, 0, 0] S1x1x1024.size inb_S128x1x1024_S1x1x1024_73_0_0) (fun _ => rfl)).squeeze S1x1024 squeezes_S1x1x1024_S1x1024)
  | ⟨74, _⟩ => ((wbuf.slice (Rect.unit (s := S128x1x1024) ![74, 0, 0] S1x1x1024.size inb_S128x1x1024_S1x1x1024_74_0_0) (fun _ => rfl)).squeeze S1x1024 squeezes_S1x1x1024_S1x1024)
  | ⟨75, _⟩ => ((wbuf.slice (Rect.unit (s := S128x1x1024) ![75, 0, 0] S1x1x1024.size inb_S128x1x1024_S1x1x1024_75_0_0) (fun _ => rfl)).squeeze S1x1024 squeezes_S1x1x1024_S1x1024)
  | ⟨76, _⟩ => ((wbuf.slice (Rect.unit (s := S128x1x1024) ![76, 0, 0] S1x1x1024.size inb_S128x1x1024_S1x1x1024_76_0_0) (fun _ => rfl)).squeeze S1x1024 squeezes_S1x1x1024_S1x1024)
  | ⟨77, _⟩ => ((wbuf.slice (Rect.unit (s := S128x1x1024) ![77, 0, 0] S1x1x1024.size inb_S128x1x1024_S1x1x1024_77_0_0) (fun _ => rfl)).squeeze S1x1024 squeezes_S1x1x1024_S1x1024)
  | ⟨78, _⟩ => ((wbuf.slice (Rect.unit (s := S128x1x1024) ![78, 0, 0] S1x1x1024.size inb_S128x1x1024_S1x1x1024_78_0_0) (fun _ => rfl)).squeeze S1x1024 squeezes_S1x1x1024_S1x1024)
  | ⟨79, _⟩ => ((wbuf.slice (Rect.unit (s := S128x1x1024) ![79, 0, 0] S1x1x1024.size inb_S128x1x1024_S1x1x1024_79_0_0) (fun _ => rfl)).squeeze S1x1024 squeezes_S1x1x1024_S1x1024)
  | ⟨80, _⟩ => ((wbuf.slice (Rect.unit (s := S128x1x1024) ![80, 0, 0] S1x1x1024.size inb_S128x1x1024_S1x1x1024_80_0_0) (fun _ => rfl)).squeeze S1x1024 squeezes_S1x1x1024_S1x1024)
  | ⟨81, _⟩ => ((wbuf.slice (Rect.unit (s := S128x1x1024) ![81, 0, 0] S1x1x1024.size inb_S128x1x1024_S1x1x1024_81_0_0) (fun _ => rfl)).squeeze S1x1024 squeezes_S1x1x1024_S1x1024)
  | ⟨82, _⟩ => ((wbuf.slice (Rect.unit (s := S128x1x1024) ![82, 0, 0] S1x1x1024.size inb_S128x1x1024_S1x1x1024_82_0_0) (fun _ => rfl)).squeeze S1x1024 squeezes_S1x1x1024_S1x1024)
  | ⟨83, _⟩ => ((wbuf.slice (Rect.unit (s := S128x1x1024) ![83, 0, 0] S1x1x1024.size inb_S128x1x1024_S1x1x1024_83_0_0) (fun _ => rfl)).squeeze S1x1024 squeezes_S1x1x1024_S1x1024)
  | ⟨84, _⟩ => ((wbuf.slice (Rect.unit (s := S128x1x1024) ![84, 0, 0] S1x1x1024.size inb_S128x1x1024_S1x1x1024_84_0_0) (fun _ => rfl)).squeeze S1x1024 squeezes_S1x1x1024_S1x1024)
  | ⟨85, _⟩ => ((wbuf.slice (Rect.unit (s := S128x1x1024) ![85, 0, 0] S1x1x1024.size inb_S128x1x1024_S1x1x1024_85_0_0) (fun _ => rfl)).squeeze S1x1024 squeezes_S1x1x1024_S1x1024)
  | ⟨86, _⟩ => ((wbuf.slice (Rect.unit (s := S128x1x1024) ![86, 0, 0] S1x1x1024.size inb_S128x1x1024_S1x1x1024_86_0_0) (fun _ => rfl)).squeeze S1x1024 squeezes_S1x1x1024_S1x1024)
  | ⟨87, _⟩ => ((wbuf.slice (Rect.unit (s := S128x1x1024) ![87, 0, 0] S1x1x1024.size inb_S128x1x1024_S1x1x1024_87_0_0) (fun _ => rfl)).squeeze S1x1024 squeezes_S1x1x1024_S1x1024)
  | ⟨88, _⟩ => ((wbuf.slice (Rect.unit (s := S128x1x1024) ![88, 0, 0] S1x1x1024.size inb_S128x1x1024_S1x1x1024_88_0_0) (fun _ => rfl)).squeeze S1x1024 squeezes_S1x1x1024_S1x1024)
  | ⟨89, _⟩ => ((wbuf.slice (Rect.unit (s := S128x1x1024) ![89, 0, 0] S1x1x1024.size inb_S128x1x1024_S1x1x1024_89_0_0) (fun _ => rfl)).squeeze S1x1024 squeezes_S1x1x1024_S1x1024)
  | ⟨90, _⟩ => ((wbuf.slice (Rect.unit (s := S128x1x1024) ![90, 0, 0] S1x1x1024.size inb_S128x1x1024_S1x1x1024_90_0_0) (fun _ => rfl)).squeeze S1x1024 squeezes_S1x1x1024_S1x1024)
  | ⟨91, _⟩ => ((wbuf.slice (Rect.unit (s := S128x1x1024) ![91, 0, 0] S1x1x1024.size inb_S128x1x1024_S1x1x1024_91_0_0) (fun _ => rfl)).squeeze S1x1024 squeezes_S1x1x1024_S1x1024)
  | ⟨92, _⟩ => ((wbuf.slice (Rect.unit (s := S128x1x1024) ![92, 0, 0] S1x1x1024.size inb_S128x1x1024_S1x1x1024_92_0_0) (fun _ => rfl)).squeeze S1x1024 squeezes_S1x1x1024_S1x1024)
  | ⟨93, _⟩ => ((wbuf.slice (Rect.unit (s := S128x1x1024) ![93, 0, 0] S1x1x1024.size inb_S128x1x1024_S1x1x1024_93_0_0) (fun _ => rfl)).squeeze S1x1024 squeezes_S1x1x1024_S1x1024)
  | ⟨94, _⟩ => ((wbuf.slice (Rect.unit (s := S128x1x1024) ![94, 0, 0] S1x1x1024.size inb_S128x1x1024_S1x1x1024_94_0_0) (fun _ => rfl)).squeeze S1x1024 squeezes_S1x1x1024_S1x1024)
  | ⟨95, _⟩ => ((wbuf.slice (Rect.unit (s := S128x1x1024) ![95, 0, 0] S1x1x1024.size inb_S128x1x1024_S1x1x1024_95_0_0) (fun _ => rfl)).squeeze S1x1024 squeezes_S1x1x1024_S1x1024)
  | ⟨96, _⟩ => ((wbuf.slice (Rect.unit (s := S128x1x1024) ![96, 0, 0] S1x1x1024.size inb_S128x1x1024_S1x1x1024_96_0_0) (fun _ => rfl)).squeeze S1x1024 squeezes_S1x1x1024_S1x1024)
  | ⟨97, _⟩ => ((wbuf.slice (Rect.unit (s := S128x1x1024) ![97, 0, 0] S1x1x1024.size inb_S128x1x1024_S1x1x1024_97_0_0) (fun _ => rfl)).squeeze S1x1024 squeezes_S1x1x1024_S1x1024)
  | ⟨98, _⟩ => ((wbuf.slice (Rect.unit (s := S128x1x1024) ![98, 0, 0] S1x1x1024.size inb_S128x1x1024_S1x1x1024_98_0_0) (fun _ => rfl)).squeeze S1x1024 squeezes_S1x1x1024_S1x1024)
  | ⟨99, _⟩ => ((wbuf.slice (Rect.unit (s := S128x1x1024) ![99, 0, 0] S1x1x1024.size inb_S128x1x1024_S1x1x1024_99_0_0) (fun _ => rfl)).squeeze S1x1024 squeezes_S1x1x1024_S1x1024)
  | ⟨100, _⟩ => ((wbuf.slice (Rect.unit (s := S128x1x1024) ![100, 0, 0] S1x1x1024.size inb_S128x1x1024_S1x1x1024_100_0_0) (fun _ => rfl)).squeeze S1x1024 squeezes_S1x1x1024_S1x1024)
  | ⟨101, _⟩ => ((wbuf.slice (Rect.unit (s := S128x1x1024) ![101, 0, 0] S1x1x1024.size inb_S128x1x1024_S1x1x1024_101_0_0) (fun _ => rfl)).squeeze S1x1024 squeezes_S1x1x1024_S1x1024)
  | ⟨102, _⟩ => ((wbuf.slice (Rect.unit (s := S128x1x1024) ![102, 0, 0] S1x1x1024.size inb_S128x1x1024_S1x1x1024_102_0_0) (fun _ => rfl)).squeeze S1x1024 squeezes_S1x1x1024_S1x1024)
  | ⟨103, _⟩ => ((wbuf.slice (Rect.unit (s := S128x1x1024) ![103, 0, 0] S1x1x1024.size inb_S128x1x1024_S1x1x1024_103_0_0) (fun _ => rfl)).squeeze S1x1024 squeezes_S1x1x1024_S1x1024)
  | ⟨104, _⟩ => ((wbuf.slice (Rect.unit (s := S128x1x1024) ![104, 0, 0] S1x1x1024.size inb_S128x1x1024_S1x1x1024_104_0_0) (fun _ => rfl)).squeeze S1x1024 squeezes_S1x1x1024_S1x1024)
  | ⟨105, _⟩ => ((wbuf.slice (Rect.unit (s := S128x1x1024) ![105, 0, 0] S1x1x1024.size inb_S128x1x1024_S1x1x1024_105_0_0) (fun _ => rfl)).squeeze S1x1024 squeezes_S1x1x1024_S1x1024)
  | ⟨106, _⟩ => ((wbuf.slice (Rect.unit (s := S128x1x1024) ![106, 0, 0] S1x1x1024.size inb_S128x1x1024_S1x1x1024_106_0_0) (fun _ => rfl)).squeeze S1x1024 squeezes_S1x1x1024_S1x1024)
  | ⟨107, _⟩ => ((wbuf.slice (Rect.unit (s := S128x1x1024) ![107, 0, 0] S1x1x1024.size inb_S128x1x1024_S1x1x1024_107_0_0) (fun _ => rfl)).squeeze S1x1024 squeezes_S1x1x1024_S1x1024)
  | ⟨108, _⟩ => ((wbuf.slice (Rect.unit (s := S128x1x1024) ![108, 0, 0] S1x1x1024.size inb_S128x1x1024_S1x1x1024_108_0_0) (fun _ => rfl)).squeeze S1x1024 squeezes_S1x1x1024_S1x1024)
  | ⟨109, _⟩ => ((wbuf.slice (Rect.unit (s := S128x1x1024) ![109, 0, 0] S1x1x1024.size inb_S128x1x1024_S1x1x1024_109_0_0) (fun _ => rfl)).squeeze S1x1024 squeezes_S1x1x1024_S1x1024)
  | ⟨110, _⟩ => ((wbuf.slice (Rect.unit (s := S128x1x1024) ![110, 0, 0] S1x1x1024.size inb_S128x1x1024_S1x1x1024_110_0_0) (fun _ => rfl)).squeeze S1x1024 squeezes_S1x1x1024_S1x1024)
  | ⟨111, _⟩ => ((wbuf.slice (Rect.unit (s := S128x1x1024) ![111, 0, 0] S1x1x1024.size inb_S128x1x1024_S1x1x1024_111_0_0) (fun _ => rfl)).squeeze S1x1024 squeezes_S1x1x1024_S1x1024)
  | ⟨112, _⟩ => ((wbuf.slice (Rect.unit (s := S128x1x1024) ![112, 0, 0] S1x1x1024.size inb_S128x1x1024_S1x1x1024_112_0_0) (fun _ => rfl)).squeeze S1x1024 squeezes_S1x1x1024_S1x1024)
  | ⟨113, _⟩ => ((wbuf.slice (Rect.unit (s := S128x1x1024) ![113, 0, 0] S1x1x1024.size inb_S128x1x1024_S1x1x1024_113_0_0) (fun _ => rfl)).squeeze S1x1024 squeezes_S1x1x1024_S1x1024)
  | ⟨114, _⟩ => ((wbuf.slice (Rect.unit (s := S128x1x1024) ![114, 0, 0] S1x1x1024.size inb_S128x1x1024_S1x1x1024_114_0_0) (fun _ => rfl)).squeeze S1x1024 squeezes_S1x1x1024_S1x1024)
  | ⟨115, _⟩ => ((wbuf.slice (Rect.unit (s := S128x1x1024) ![115, 0, 0] S1x1x1024.size inb_S128x1x1024_S1x1x1024_115_0_0) (fun _ => rfl)).squeeze S1x1024 squeezes_S1x1x1024_S1x1024)
  | ⟨116, _⟩ => ((wbuf.slice (Rect.unit (s := S128x1x1024) ![116, 0, 0] S1x1x1024.size inb_S128x1x1024_S1x1x1024_116_0_0) (fun _ => rfl)).squeeze S1x1024 squeezes_S1x1x1024_S1x1024)
  | ⟨117, _⟩ => ((wbuf.slice (Rect.unit (s := S128x1x1024) ![117, 0, 0] S1x1x1024.size inb_S128x1x1024_S1x1x1024_117_0_0) (fun _ => rfl)).squeeze S1x1024 squeezes_S1x1x1024_S1x1024)
  | ⟨118, _⟩ => ((wbuf.slice (Rect.unit (s := S128x1x1024) ![118, 0, 0] S1x1x1024.size inb_S128x1x1024_S1x1x1024_118_0_0) (fun _ => rfl)).squeeze S1x1024 squeezes_S1x1x1024_S1x1024)
  | ⟨119, _⟩ => ((wbuf.slice (Rect.unit (s := S128x1x1024) ![119, 0, 0] S1x1x1024.size inb_S128x1x1024_S1x1x1024_119_0_0) (fun _ => rfl)).squeeze S1x1024 squeezes_S1x1x1024_S1x1024)
  | ⟨120, _⟩ => ((wbuf.slice (Rect.unit (s := S128x1x1024) ![120, 0, 0] S1x1x1024.size inb_S128x1x1024_S1x1x1024_120_0_0) (fun _ => rfl)).squeeze S1x1024 squeezes_S1x1x1024_S1x1024)
  | ⟨121, _⟩ => ((wbuf.slice (Rect.unit (s := S128x1x1024) ![121, 0, 0] S1x1x1024.size inb_S128x1x1024_S1x1x1024_121_0_0) (fun _ => rfl)).squeeze S1x1024 squeezes_S1x1x1024_S1x1024)
  | ⟨122, _⟩ => ((wbuf.slice (Rect.unit (s := S128x1x1024) ![122, 0, 0] S1x1x1024.size inb_S128x1x1024_S1x1x1024_122_0_0) (fun _ => rfl)).squeeze S1x1024 squeezes_S1x1x1024_S1x1024)
  | ⟨123, _⟩ => ((wbuf.slice (Rect.unit (s := S128x1x1024) ![123, 0, 0] S1x1x1024.size inb_S128x1x1024_S1x1x1024_123_0_0) (fun _ => rfl)).squeeze S1x1024 squeezes_S1x1x1024_S1x1024)
  | ⟨124, _⟩ => ((wbuf.slice (Rect.unit (s := S128x1x1024) ![124, 0, 0] S1x1x1024.size inb_S128x1x1024_S1x1x1024_124_0_0) (fun _ => rfl)).squeeze S1x1024 squeezes_S1x1x1024_S1x1024)
  | ⟨125, _⟩ => ((wbuf.slice (Rect.unit (s := S128x1x1024) ![125, 0, 0] S1x1x1024.size inb_S128x1x1024_S1x1x1024_125_0_0) (fun _ => rfl)).squeeze S1x1024 squeezes_S1x1x1024_S1x1024)
  | ⟨126, _⟩ => ((wbuf.slice (Rect.unit (s := S128x1x1024) ![126, 0, 0] S1x1x1024.size inb_S128x1x1024_S1x1x1024_126_0_0) (fun _ => rfl)).squeeze S1x1024 squeezes_S1x1x1024_S1x1024)
  | ⟨127, _⟩ => ((wbuf.slice (Rect.unit (s := S128x1x1024) ![127, 0, 0] S1x1x1024.size inb_S128x1x1024_S1x1x1024_127_0_0) (fun _ => rfl)).squeeze S1x1024 squeezes_S1x1x1024_S1x1024)
  | ⟨_ + 128, h⟩ => absurd h (by omega)
/-- Row `j` of the scale row buffer. -/
abbrev srow : (j : Fin 128) → Memref sig .tc .vmem S1x128 .f32
  | ⟨0, _⟩ => ((sbuf.slice (Rect.unit (s := S128x1x128) ![0, 0, 0] S1x1x128.size inb_S128x1x128_S1x1x128_0_0_0) (fun _ => rfl)).squeeze S1x128 squeezes_S1x1x128_S1x128)
  | ⟨1, _⟩ => ((sbuf.slice (Rect.unit (s := S128x1x128) ![1, 0, 0] S1x1x128.size inb_S128x1x128_S1x1x128_1_0_0) (fun _ => rfl)).squeeze S1x128 squeezes_S1x1x128_S1x128)
  | ⟨2, _⟩ => ((sbuf.slice (Rect.unit (s := S128x1x128) ![2, 0, 0] S1x1x128.size inb_S128x1x128_S1x1x128_2_0_0) (fun _ => rfl)).squeeze S1x128 squeezes_S1x1x128_S1x128)
  | ⟨3, _⟩ => ((sbuf.slice (Rect.unit (s := S128x1x128) ![3, 0, 0] S1x1x128.size inb_S128x1x128_S1x1x128_3_0_0) (fun _ => rfl)).squeeze S1x128 squeezes_S1x1x128_S1x128)
  | ⟨4, _⟩ => ((sbuf.slice (Rect.unit (s := S128x1x128) ![4, 0, 0] S1x1x128.size inb_S128x1x128_S1x1x128_4_0_0) (fun _ => rfl)).squeeze S1x128 squeezes_S1x1x128_S1x128)
  | ⟨5, _⟩ => ((sbuf.slice (Rect.unit (s := S128x1x128) ![5, 0, 0] S1x1x128.size inb_S128x1x128_S1x1x128_5_0_0) (fun _ => rfl)).squeeze S1x128 squeezes_S1x1x128_S1x128)
  | ⟨6, _⟩ => ((sbuf.slice (Rect.unit (s := S128x1x128) ![6, 0, 0] S1x1x128.size inb_S128x1x128_S1x1x128_6_0_0) (fun _ => rfl)).squeeze S1x128 squeezes_S1x1x128_S1x128)
  | ⟨7, _⟩ => ((sbuf.slice (Rect.unit (s := S128x1x128) ![7, 0, 0] S1x1x128.size inb_S128x1x128_S1x1x128_7_0_0) (fun _ => rfl)).squeeze S1x128 squeezes_S1x1x128_S1x128)
  | ⟨8, _⟩ => ((sbuf.slice (Rect.unit (s := S128x1x128) ![8, 0, 0] S1x1x128.size inb_S128x1x128_S1x1x128_8_0_0) (fun _ => rfl)).squeeze S1x128 squeezes_S1x1x128_S1x128)
  | ⟨9, _⟩ => ((sbuf.slice (Rect.unit (s := S128x1x128) ![9, 0, 0] S1x1x128.size inb_S128x1x128_S1x1x128_9_0_0) (fun _ => rfl)).squeeze S1x128 squeezes_S1x1x128_S1x128)
  | ⟨10, _⟩ => ((sbuf.slice (Rect.unit (s := S128x1x128) ![10, 0, 0] S1x1x128.size inb_S128x1x128_S1x1x128_10_0_0) (fun _ => rfl)).squeeze S1x128 squeezes_S1x1x128_S1x128)
  | ⟨11, _⟩ => ((sbuf.slice (Rect.unit (s := S128x1x128) ![11, 0, 0] S1x1x128.size inb_S128x1x128_S1x1x128_11_0_0) (fun _ => rfl)).squeeze S1x128 squeezes_S1x1x128_S1x128)
  | ⟨12, _⟩ => ((sbuf.slice (Rect.unit (s := S128x1x128) ![12, 0, 0] S1x1x128.size inb_S128x1x128_S1x1x128_12_0_0) (fun _ => rfl)).squeeze S1x128 squeezes_S1x1x128_S1x128)
  | ⟨13, _⟩ => ((sbuf.slice (Rect.unit (s := S128x1x128) ![13, 0, 0] S1x1x128.size inb_S128x1x128_S1x1x128_13_0_0) (fun _ => rfl)).squeeze S1x128 squeezes_S1x1x128_S1x128)
  | ⟨14, _⟩ => ((sbuf.slice (Rect.unit (s := S128x1x128) ![14, 0, 0] S1x1x128.size inb_S128x1x128_S1x1x128_14_0_0) (fun _ => rfl)).squeeze S1x128 squeezes_S1x1x128_S1x128)
  | ⟨15, _⟩ => ((sbuf.slice (Rect.unit (s := S128x1x128) ![15, 0, 0] S1x1x128.size inb_S128x1x128_S1x1x128_15_0_0) (fun _ => rfl)).squeeze S1x128 squeezes_S1x1x128_S1x128)
  | ⟨16, _⟩ => ((sbuf.slice (Rect.unit (s := S128x1x128) ![16, 0, 0] S1x1x128.size inb_S128x1x128_S1x1x128_16_0_0) (fun _ => rfl)).squeeze S1x128 squeezes_S1x1x128_S1x128)
  | ⟨17, _⟩ => ((sbuf.slice (Rect.unit (s := S128x1x128) ![17, 0, 0] S1x1x128.size inb_S128x1x128_S1x1x128_17_0_0) (fun _ => rfl)).squeeze S1x128 squeezes_S1x1x128_S1x128)
  | ⟨18, _⟩ => ((sbuf.slice (Rect.unit (s := S128x1x128) ![18, 0, 0] S1x1x128.size inb_S128x1x128_S1x1x128_18_0_0) (fun _ => rfl)).squeeze S1x128 squeezes_S1x1x128_S1x128)
  | ⟨19, _⟩ => ((sbuf.slice (Rect.unit (s := S128x1x128) ![19, 0, 0] S1x1x128.size inb_S128x1x128_S1x1x128_19_0_0) (fun _ => rfl)).squeeze S1x128 squeezes_S1x1x128_S1x128)
  | ⟨20, _⟩ => ((sbuf.slice (Rect.unit (s := S128x1x128) ![20, 0, 0] S1x1x128.size inb_S128x1x128_S1x1x128_20_0_0) (fun _ => rfl)).squeeze S1x128 squeezes_S1x1x128_S1x128)
  | ⟨21, _⟩ => ((sbuf.slice (Rect.unit (s := S128x1x128) ![21, 0, 0] S1x1x128.size inb_S128x1x128_S1x1x128_21_0_0) (fun _ => rfl)).squeeze S1x128 squeezes_S1x1x128_S1x128)
  | ⟨22, _⟩ => ((sbuf.slice (Rect.unit (s := S128x1x128) ![22, 0, 0] S1x1x128.size inb_S128x1x128_S1x1x128_22_0_0) (fun _ => rfl)).squeeze S1x128 squeezes_S1x1x128_S1x128)
  | ⟨23, _⟩ => ((sbuf.slice (Rect.unit (s := S128x1x128) ![23, 0, 0] S1x1x128.size inb_S128x1x128_S1x1x128_23_0_0) (fun _ => rfl)).squeeze S1x128 squeezes_S1x1x128_S1x128)
  | ⟨24, _⟩ => ((sbuf.slice (Rect.unit (s := S128x1x128) ![24, 0, 0] S1x1x128.size inb_S128x1x128_S1x1x128_24_0_0) (fun _ => rfl)).squeeze S1x128 squeezes_S1x1x128_S1x128)
  | ⟨25, _⟩ => ((sbuf.slice (Rect.unit (s := S128x1x128) ![25, 0, 0] S1x1x128.size inb_S128x1x128_S1x1x128_25_0_0) (fun _ => rfl)).squeeze S1x128 squeezes_S1x1x128_S1x128)
  | ⟨26, _⟩ => ((sbuf.slice (Rect.unit (s := S128x1x128) ![26, 0, 0] S1x1x128.size inb_S128x1x128_S1x1x128_26_0_0) (fun _ => rfl)).squeeze S1x128 squeezes_S1x1x128_S1x128)
  | ⟨27, _⟩ => ((sbuf.slice (Rect.unit (s := S128x1x128) ![27, 0, 0] S1x1x128.size inb_S128x1x128_S1x1x128_27_0_0) (fun _ => rfl)).squeeze S1x128 squeezes_S1x1x128_S1x128)
  | ⟨28, _⟩ => ((sbuf.slice (Rect.unit (s := S128x1x128) ![28, 0, 0] S1x1x128.size inb_S128x1x128_S1x1x128_28_0_0) (fun _ => rfl)).squeeze S1x128 squeezes_S1x1x128_S1x128)
  | ⟨29, _⟩ => ((sbuf.slice (Rect.unit (s := S128x1x128) ![29, 0, 0] S1x1x128.size inb_S128x1x128_S1x1x128_29_0_0) (fun _ => rfl)).squeeze S1x128 squeezes_S1x1x128_S1x128)
  | ⟨30, _⟩ => ((sbuf.slice (Rect.unit (s := S128x1x128) ![30, 0, 0] S1x1x128.size inb_S128x1x128_S1x1x128_30_0_0) (fun _ => rfl)).squeeze S1x128 squeezes_S1x1x128_S1x128)
  | ⟨31, _⟩ => ((sbuf.slice (Rect.unit (s := S128x1x128) ![31, 0, 0] S1x1x128.size inb_S128x1x128_S1x1x128_31_0_0) (fun _ => rfl)).squeeze S1x128 squeezes_S1x1x128_S1x128)
  | ⟨32, _⟩ => ((sbuf.slice (Rect.unit (s := S128x1x128) ![32, 0, 0] S1x1x128.size inb_S128x1x128_S1x1x128_32_0_0) (fun _ => rfl)).squeeze S1x128 squeezes_S1x1x128_S1x128)
  | ⟨33, _⟩ => ((sbuf.slice (Rect.unit (s := S128x1x128) ![33, 0, 0] S1x1x128.size inb_S128x1x128_S1x1x128_33_0_0) (fun _ => rfl)).squeeze S1x128 squeezes_S1x1x128_S1x128)
  | ⟨34, _⟩ => ((sbuf.slice (Rect.unit (s := S128x1x128) ![34, 0, 0] S1x1x128.size inb_S128x1x128_S1x1x128_34_0_0) (fun _ => rfl)).squeeze S1x128 squeezes_S1x1x128_S1x128)
  | ⟨35, _⟩ => ((sbuf.slice (Rect.unit (s := S128x1x128) ![35, 0, 0] S1x1x128.size inb_S128x1x128_S1x1x128_35_0_0) (fun _ => rfl)).squeeze S1x128 squeezes_S1x1x128_S1x128)
  | ⟨36, _⟩ => ((sbuf.slice (Rect.unit (s := S128x1x128) ![36, 0, 0] S1x1x128.size inb_S128x1x128_S1x1x128_36_0_0) (fun _ => rfl)).squeeze S1x128 squeezes_S1x1x128_S1x128)
  | ⟨37, _⟩ => ((sbuf.slice (Rect.unit (s := S128x1x128) ![37, 0, 0] S1x1x128.size inb_S128x1x128_S1x1x128_37_0_0) (fun _ => rfl)).squeeze S1x128 squeezes_S1x1x128_S1x128)
  | ⟨38, _⟩ => ((sbuf.slice (Rect.unit (s := S128x1x128) ![38, 0, 0] S1x1x128.size inb_S128x1x128_S1x1x128_38_0_0) (fun _ => rfl)).squeeze S1x128 squeezes_S1x1x128_S1x128)
  | ⟨39, _⟩ => ((sbuf.slice (Rect.unit (s := S128x1x128) ![39, 0, 0] S1x1x128.size inb_S128x1x128_S1x1x128_39_0_0) (fun _ => rfl)).squeeze S1x128 squeezes_S1x1x128_S1x128)
  | ⟨40, _⟩ => ((sbuf.slice (Rect.unit (s := S128x1x128) ![40, 0, 0] S1x1x128.size inb_S128x1x128_S1x1x128_40_0_0) (fun _ => rfl)).squeeze S1x128 squeezes_S1x1x128_S1x128)
  | ⟨41, _⟩ => ((sbuf.slice (Rect.unit (s := S128x1x128) ![41, 0, 0] S1x1x128.size inb_S128x1x128_S1x1x128_41_0_0) (fun _ => rfl)).squeeze S1x128 squeezes_S1x1x128_S1x128)
  | ⟨42, _⟩ => ((sbuf.slice (Rect.unit (s := S128x1x128) ![42, 0, 0] S1x1x128.size inb_S128x1x128_S1x1x128_42_0_0) (fun _ => rfl)).squeeze S1x128 squeezes_S1x1x128_S1x128)
  | ⟨43, _⟩ => ((sbuf.slice (Rect.unit (s := S128x1x128) ![43, 0, 0] S1x1x128.size inb_S128x1x128_S1x1x128_43_0_0) (fun _ => rfl)).squeeze S1x128 squeezes_S1x1x128_S1x128)
  | ⟨44, _⟩ => ((sbuf.slice (Rect.unit (s := S128x1x128) ![44, 0, 0] S1x1x128.size inb_S128x1x128_S1x1x128_44_0_0) (fun _ => rfl)).squeeze S1x128 squeezes_S1x1x128_S1x128)
  | ⟨45, _⟩ => ((sbuf.slice (Rect.unit (s := S128x1x128) ![45, 0, 0] S1x1x128.size inb_S128x1x128_S1x1x128_45_0_0) (fun _ => rfl)).squeeze S1x128 squeezes_S1x1x128_S1x128)
  | ⟨46, _⟩ => ((sbuf.slice (Rect.unit (s := S128x1x128) ![46, 0, 0] S1x1x128.size inb_S128x1x128_S1x1x128_46_0_0) (fun _ => rfl)).squeeze S1x128 squeezes_S1x1x128_S1x128)
  | ⟨47, _⟩ => ((sbuf.slice (Rect.unit (s := S128x1x128) ![47, 0, 0] S1x1x128.size inb_S128x1x128_S1x1x128_47_0_0) (fun _ => rfl)).squeeze S1x128 squeezes_S1x1x128_S1x128)
  | ⟨48, _⟩ => ((sbuf.slice (Rect.unit (s := S128x1x128) ![48, 0, 0] S1x1x128.size inb_S128x1x128_S1x1x128_48_0_0) (fun _ => rfl)).squeeze S1x128 squeezes_S1x1x128_S1x128)
  | ⟨49, _⟩ => ((sbuf.slice (Rect.unit (s := S128x1x128) ![49, 0, 0] S1x1x128.size inb_S128x1x128_S1x1x128_49_0_0) (fun _ => rfl)).squeeze S1x128 squeezes_S1x1x128_S1x128)
  | ⟨50, _⟩ => ((sbuf.slice (Rect.unit (s := S128x1x128) ![50, 0, 0] S1x1x128.size inb_S128x1x128_S1x1x128_50_0_0) (fun _ => rfl)).squeeze S1x128 squeezes_S1x1x128_S1x128)
  | ⟨51, _⟩ => ((sbuf.slice (Rect.unit (s := S128x1x128) ![51, 0, 0] S1x1x128.size inb_S128x1x128_S1x1x128_51_0_0) (fun _ => rfl)).squeeze S1x128 squeezes_S1x1x128_S1x128)
  | ⟨52, _⟩ => ((sbuf.slice (Rect.unit (s := S128x1x128) ![52, 0, 0] S1x1x128.size inb_S128x1x128_S1x1x128_52_0_0) (fun _ => rfl)).squeeze S1x128 squeezes_S1x1x128_S1x128)
  | ⟨53, _⟩ => ((sbuf.slice (Rect.unit (s := S128x1x128) ![53, 0, 0] S1x1x128.size inb_S128x1x128_S1x1x128_53_0_0) (fun _ => rfl)).squeeze S1x128 squeezes_S1x1x128_S1x128)
  | ⟨54, _⟩ => ((sbuf.slice (Rect.unit (s := S128x1x128) ![54, 0, 0] S1x1x128.size inb_S128x1x128_S1x1x128_54_0_0) (fun _ => rfl)).squeeze S1x128 squeezes_S1x1x128_S1x128)
  | ⟨55, _⟩ => ((sbuf.slice (Rect.unit (s := S128x1x128) ![55, 0, 0] S1x1x128.size inb_S128x1x128_S1x1x128_55_0_0) (fun _ => rfl)).squeeze S1x128 squeezes_S1x1x128_S1x128)
  | ⟨56, _⟩ => ((sbuf.slice (Rect.unit (s := S128x1x128) ![56, 0, 0] S1x1x128.size inb_S128x1x128_S1x1x128_56_0_0) (fun _ => rfl)).squeeze S1x128 squeezes_S1x1x128_S1x128)
  | ⟨57, _⟩ => ((sbuf.slice (Rect.unit (s := S128x1x128) ![57, 0, 0] S1x1x128.size inb_S128x1x128_S1x1x128_57_0_0) (fun _ => rfl)).squeeze S1x128 squeezes_S1x1x128_S1x128)
  | ⟨58, _⟩ => ((sbuf.slice (Rect.unit (s := S128x1x128) ![58, 0, 0] S1x1x128.size inb_S128x1x128_S1x1x128_58_0_0) (fun _ => rfl)).squeeze S1x128 squeezes_S1x1x128_S1x128)
  | ⟨59, _⟩ => ((sbuf.slice (Rect.unit (s := S128x1x128) ![59, 0, 0] S1x1x128.size inb_S128x1x128_S1x1x128_59_0_0) (fun _ => rfl)).squeeze S1x128 squeezes_S1x1x128_S1x128)
  | ⟨60, _⟩ => ((sbuf.slice (Rect.unit (s := S128x1x128) ![60, 0, 0] S1x1x128.size inb_S128x1x128_S1x1x128_60_0_0) (fun _ => rfl)).squeeze S1x128 squeezes_S1x1x128_S1x128)
  | ⟨61, _⟩ => ((sbuf.slice (Rect.unit (s := S128x1x128) ![61, 0, 0] S1x1x128.size inb_S128x1x128_S1x1x128_61_0_0) (fun _ => rfl)).squeeze S1x128 squeezes_S1x1x128_S1x128)
  | ⟨62, _⟩ => ((sbuf.slice (Rect.unit (s := S128x1x128) ![62, 0, 0] S1x1x128.size inb_S128x1x128_S1x1x128_62_0_0) (fun _ => rfl)).squeeze S1x128 squeezes_S1x1x128_S1x128)
  | ⟨63, _⟩ => ((sbuf.slice (Rect.unit (s := S128x1x128) ![63, 0, 0] S1x1x128.size inb_S128x1x128_S1x1x128_63_0_0) (fun _ => rfl)).squeeze S1x128 squeezes_S1x1x128_S1x128)
  | ⟨64, _⟩ => ((sbuf.slice (Rect.unit (s := S128x1x128) ![64, 0, 0] S1x1x128.size inb_S128x1x128_S1x1x128_64_0_0) (fun _ => rfl)).squeeze S1x128 squeezes_S1x1x128_S1x128)
  | ⟨65, _⟩ => ((sbuf.slice (Rect.unit (s := S128x1x128) ![65, 0, 0] S1x1x128.size inb_S128x1x128_S1x1x128_65_0_0) (fun _ => rfl)).squeeze S1x128 squeezes_S1x1x128_S1x128)
  | ⟨66, _⟩ => ((sbuf.slice (Rect.unit (s := S128x1x128) ![66, 0, 0] S1x1x128.size inb_S128x1x128_S1x1x128_66_0_0) (fun _ => rfl)).squeeze S1x128 squeezes_S1x1x128_S1x128)
  | ⟨67, _⟩ => ((sbuf.slice (Rect.unit (s := S128x1x128) ![67, 0, 0] S1x1x128.size inb_S128x1x128_S1x1x128_67_0_0) (fun _ => rfl)).squeeze S1x128 squeezes_S1x1x128_S1x128)
  | ⟨68, _⟩ => ((sbuf.slice (Rect.unit (s := S128x1x128) ![68, 0, 0] S1x1x128.size inb_S128x1x128_S1x1x128_68_0_0) (fun _ => rfl)).squeeze S1x128 squeezes_S1x1x128_S1x128)
  | ⟨69, _⟩ => ((sbuf.slice (Rect.unit (s := S128x1x128) ![69, 0, 0] S1x1x128.size inb_S128x1x128_S1x1x128_69_0_0) (fun _ => rfl)).squeeze S1x128 squeezes_S1x1x128_S1x128)
  | ⟨70, _⟩ => ((sbuf.slice (Rect.unit (s := S128x1x128) ![70, 0, 0] S1x1x128.size inb_S128x1x128_S1x1x128_70_0_0) (fun _ => rfl)).squeeze S1x128 squeezes_S1x1x128_S1x128)
  | ⟨71, _⟩ => ((sbuf.slice (Rect.unit (s := S128x1x128) ![71, 0, 0] S1x1x128.size inb_S128x1x128_S1x1x128_71_0_0) (fun _ => rfl)).squeeze S1x128 squeezes_S1x1x128_S1x128)
  | ⟨72, _⟩ => ((sbuf.slice (Rect.unit (s := S128x1x128) ![72, 0, 0] S1x1x128.size inb_S128x1x128_S1x1x128_72_0_0) (fun _ => rfl)).squeeze S1x128 squeezes_S1x1x128_S1x128)
  | ⟨73, _⟩ => ((sbuf.slice (Rect.unit (s := S128x1x128) ![73, 0, 0] S1x1x128.size inb_S128x1x128_S1x1x128_73_0_0) (fun _ => rfl)).squeeze S1x128 squeezes_S1x1x128_S1x128)
  | ⟨74, _⟩ => ((sbuf.slice (Rect.unit (s := S128x1x128) ![74, 0, 0] S1x1x128.size inb_S128x1x128_S1x1x128_74_0_0) (fun _ => rfl)).squeeze S1x128 squeezes_S1x1x128_S1x128)
  | ⟨75, _⟩ => ((sbuf.slice (Rect.unit (s := S128x1x128) ![75, 0, 0] S1x1x128.size inb_S128x1x128_S1x1x128_75_0_0) (fun _ => rfl)).squeeze S1x128 squeezes_S1x1x128_S1x128)
  | ⟨76, _⟩ => ((sbuf.slice (Rect.unit (s := S128x1x128) ![76, 0, 0] S1x1x128.size inb_S128x1x128_S1x1x128_76_0_0) (fun _ => rfl)).squeeze S1x128 squeezes_S1x1x128_S1x128)
  | ⟨77, _⟩ => ((sbuf.slice (Rect.unit (s := S128x1x128) ![77, 0, 0] S1x1x128.size inb_S128x1x128_S1x1x128_77_0_0) (fun _ => rfl)).squeeze S1x128 squeezes_S1x1x128_S1x128)
  | ⟨78, _⟩ => ((sbuf.slice (Rect.unit (s := S128x1x128) ![78, 0, 0] S1x1x128.size inb_S128x1x128_S1x1x128_78_0_0) (fun _ => rfl)).squeeze S1x128 squeezes_S1x1x128_S1x128)
  | ⟨79, _⟩ => ((sbuf.slice (Rect.unit (s := S128x1x128) ![79, 0, 0] S1x1x128.size inb_S128x1x128_S1x1x128_79_0_0) (fun _ => rfl)).squeeze S1x128 squeezes_S1x1x128_S1x128)
  | ⟨80, _⟩ => ((sbuf.slice (Rect.unit (s := S128x1x128) ![80, 0, 0] S1x1x128.size inb_S128x1x128_S1x1x128_80_0_0) (fun _ => rfl)).squeeze S1x128 squeezes_S1x1x128_S1x128)
  | ⟨81, _⟩ => ((sbuf.slice (Rect.unit (s := S128x1x128) ![81, 0, 0] S1x1x128.size inb_S128x1x128_S1x1x128_81_0_0) (fun _ => rfl)).squeeze S1x128 squeezes_S1x1x128_S1x128)
  | ⟨82, _⟩ => ((sbuf.slice (Rect.unit (s := S128x1x128) ![82, 0, 0] S1x1x128.size inb_S128x1x128_S1x1x128_82_0_0) (fun _ => rfl)).squeeze S1x128 squeezes_S1x1x128_S1x128)
  | ⟨83, _⟩ => ((sbuf.slice (Rect.unit (s := S128x1x128) ![83, 0, 0] S1x1x128.size inb_S128x1x128_S1x1x128_83_0_0) (fun _ => rfl)).squeeze S1x128 squeezes_S1x1x128_S1x128)
  | ⟨84, _⟩ => ((sbuf.slice (Rect.unit (s := S128x1x128) ![84, 0, 0] S1x1x128.size inb_S128x1x128_S1x1x128_84_0_0) (fun _ => rfl)).squeeze S1x128 squeezes_S1x1x128_S1x128)
  | ⟨85, _⟩ => ((sbuf.slice (Rect.unit (s := S128x1x128) ![85, 0, 0] S1x1x128.size inb_S128x1x128_S1x1x128_85_0_0) (fun _ => rfl)).squeeze S1x128 squeezes_S1x1x128_S1x128)
  | ⟨86, _⟩ => ((sbuf.slice (Rect.unit (s := S128x1x128) ![86, 0, 0] S1x1x128.size inb_S128x1x128_S1x1x128_86_0_0) (fun _ => rfl)).squeeze S1x128 squeezes_S1x1x128_S1x128)
  | ⟨87, _⟩ => ((sbuf.slice (Rect.unit (s := S128x1x128) ![87, 0, 0] S1x1x128.size inb_S128x1x128_S1x1x128_87_0_0) (fun _ => rfl)).squeeze S1x128 squeezes_S1x1x128_S1x128)
  | ⟨88, _⟩ => ((sbuf.slice (Rect.unit (s := S128x1x128) ![88, 0, 0] S1x1x128.size inb_S128x1x128_S1x1x128_88_0_0) (fun _ => rfl)).squeeze S1x128 squeezes_S1x1x128_S1x128)
  | ⟨89, _⟩ => ((sbuf.slice (Rect.unit (s := S128x1x128) ![89, 0, 0] S1x1x128.size inb_S128x1x128_S1x1x128_89_0_0) (fun _ => rfl)).squeeze S1x128 squeezes_S1x1x128_S1x128)
  | ⟨90, _⟩ => ((sbuf.slice (Rect.unit (s := S128x1x128) ![90, 0, 0] S1x1x128.size inb_S128x1x128_S1x1x128_90_0_0) (fun _ => rfl)).squeeze S1x128 squeezes_S1x1x128_S1x128)
  | ⟨91, _⟩ => ((sbuf.slice (Rect.unit (s := S128x1x128) ![91, 0, 0] S1x1x128.size inb_S128x1x128_S1x1x128_91_0_0) (fun _ => rfl)).squeeze S1x128 squeezes_S1x1x128_S1x128)
  | ⟨92, _⟩ => ((sbuf.slice (Rect.unit (s := S128x1x128) ![92, 0, 0] S1x1x128.size inb_S128x1x128_S1x1x128_92_0_0) (fun _ => rfl)).squeeze S1x128 squeezes_S1x1x128_S1x128)
  | ⟨93, _⟩ => ((sbuf.slice (Rect.unit (s := S128x1x128) ![93, 0, 0] S1x1x128.size inb_S128x1x128_S1x1x128_93_0_0) (fun _ => rfl)).squeeze S1x128 squeezes_S1x1x128_S1x128)
  | ⟨94, _⟩ => ((sbuf.slice (Rect.unit (s := S128x1x128) ![94, 0, 0] S1x1x128.size inb_S128x1x128_S1x1x128_94_0_0) (fun _ => rfl)).squeeze S1x128 squeezes_S1x1x128_S1x128)
  | ⟨95, _⟩ => ((sbuf.slice (Rect.unit (s := S128x1x128) ![95, 0, 0] S1x1x128.size inb_S128x1x128_S1x1x128_95_0_0) (fun _ => rfl)).squeeze S1x128 squeezes_S1x1x128_S1x128)
  | ⟨96, _⟩ => ((sbuf.slice (Rect.unit (s := S128x1x128) ![96, 0, 0] S1x1x128.size inb_S128x1x128_S1x1x128_96_0_0) (fun _ => rfl)).squeeze S1x128 squeezes_S1x1x128_S1x128)
  | ⟨97, _⟩ => ((sbuf.slice (Rect.unit (s := S128x1x128) ![97, 0, 0] S1x1x128.size inb_S128x1x128_S1x1x128_97_0_0) (fun _ => rfl)).squeeze S1x128 squeezes_S1x1x128_S1x128)
  | ⟨98, _⟩ => ((sbuf.slice (Rect.unit (s := S128x1x128) ![98, 0, 0] S1x1x128.size inb_S128x1x128_S1x1x128_98_0_0) (fun _ => rfl)).squeeze S1x128 squeezes_S1x1x128_S1x128)
  | ⟨99, _⟩ => ((sbuf.slice (Rect.unit (s := S128x1x128) ![99, 0, 0] S1x1x128.size inb_S128x1x128_S1x1x128_99_0_0) (fun _ => rfl)).squeeze S1x128 squeezes_S1x1x128_S1x128)
  | ⟨100, _⟩ => ((sbuf.slice (Rect.unit (s := S128x1x128) ![100, 0, 0] S1x1x128.size inb_S128x1x128_S1x1x128_100_0_0) (fun _ => rfl)).squeeze S1x128 squeezes_S1x1x128_S1x128)
  | ⟨101, _⟩ => ((sbuf.slice (Rect.unit (s := S128x1x128) ![101, 0, 0] S1x1x128.size inb_S128x1x128_S1x1x128_101_0_0) (fun _ => rfl)).squeeze S1x128 squeezes_S1x1x128_S1x128)
  | ⟨102, _⟩ => ((sbuf.slice (Rect.unit (s := S128x1x128) ![102, 0, 0] S1x1x128.size inb_S128x1x128_S1x1x128_102_0_0) (fun _ => rfl)).squeeze S1x128 squeezes_S1x1x128_S1x128)
  | ⟨103, _⟩ => ((sbuf.slice (Rect.unit (s := S128x1x128) ![103, 0, 0] S1x1x128.size inb_S128x1x128_S1x1x128_103_0_0) (fun _ => rfl)).squeeze S1x128 squeezes_S1x1x128_S1x128)
  | ⟨104, _⟩ => ((sbuf.slice (Rect.unit (s := S128x1x128) ![104, 0, 0] S1x1x128.size inb_S128x1x128_S1x1x128_104_0_0) (fun _ => rfl)).squeeze S1x128 squeezes_S1x1x128_S1x128)
  | ⟨105, _⟩ => ((sbuf.slice (Rect.unit (s := S128x1x128) ![105, 0, 0] S1x1x128.size inb_S128x1x128_S1x1x128_105_0_0) (fun _ => rfl)).squeeze S1x128 squeezes_S1x1x128_S1x128)
  | ⟨106, _⟩ => ((sbuf.slice (Rect.unit (s := S128x1x128) ![106, 0, 0] S1x1x128.size inb_S128x1x128_S1x1x128_106_0_0) (fun _ => rfl)).squeeze S1x128 squeezes_S1x1x128_S1x128)
  | ⟨107, _⟩ => ((sbuf.slice (Rect.unit (s := S128x1x128) ![107, 0, 0] S1x1x128.size inb_S128x1x128_S1x1x128_107_0_0) (fun _ => rfl)).squeeze S1x128 squeezes_S1x1x128_S1x128)
  | ⟨108, _⟩ => ((sbuf.slice (Rect.unit (s := S128x1x128) ![108, 0, 0] S1x1x128.size inb_S128x1x128_S1x1x128_108_0_0) (fun _ => rfl)).squeeze S1x128 squeezes_S1x1x128_S1x128)
  | ⟨109, _⟩ => ((sbuf.slice (Rect.unit (s := S128x1x128) ![109, 0, 0] S1x1x128.size inb_S128x1x128_S1x1x128_109_0_0) (fun _ => rfl)).squeeze S1x128 squeezes_S1x1x128_S1x128)
  | ⟨110, _⟩ => ((sbuf.slice (Rect.unit (s := S128x1x128) ![110, 0, 0] S1x1x128.size inb_S128x1x128_S1x1x128_110_0_0) (fun _ => rfl)).squeeze S1x128 squeezes_S1x1x128_S1x128)
  | ⟨111, _⟩ => ((sbuf.slice (Rect.unit (s := S128x1x128) ![111, 0, 0] S1x1x128.size inb_S128x1x128_S1x1x128_111_0_0) (fun _ => rfl)).squeeze S1x128 squeezes_S1x1x128_S1x128)
  | ⟨112, _⟩ => ((sbuf.slice (Rect.unit (s := S128x1x128) ![112, 0, 0] S1x1x128.size inb_S128x1x128_S1x1x128_112_0_0) (fun _ => rfl)).squeeze S1x128 squeezes_S1x1x128_S1x128)
  | ⟨113, _⟩ => ((sbuf.slice (Rect.unit (s := S128x1x128) ![113, 0, 0] S1x1x128.size inb_S128x1x128_S1x1x128_113_0_0) (fun _ => rfl)).squeeze S1x128 squeezes_S1x1x128_S1x128)
  | ⟨114, _⟩ => ((sbuf.slice (Rect.unit (s := S128x1x128) ![114, 0, 0] S1x1x128.size inb_S128x1x128_S1x1x128_114_0_0) (fun _ => rfl)).squeeze S1x128 squeezes_S1x1x128_S1x128)
  | ⟨115, _⟩ => ((sbuf.slice (Rect.unit (s := S128x1x128) ![115, 0, 0] S1x1x128.size inb_S128x1x128_S1x1x128_115_0_0) (fun _ => rfl)).squeeze S1x128 squeezes_S1x1x128_S1x128)
  | ⟨116, _⟩ => ((sbuf.slice (Rect.unit (s := S128x1x128) ![116, 0, 0] S1x1x128.size inb_S128x1x128_S1x1x128_116_0_0) (fun _ => rfl)).squeeze S1x128 squeezes_S1x1x128_S1x128)
  | ⟨117, _⟩ => ((sbuf.slice (Rect.unit (s := S128x1x128) ![117, 0, 0] S1x1x128.size inb_S128x1x128_S1x1x128_117_0_0) (fun _ => rfl)).squeeze S1x128 squeezes_S1x1x128_S1x128)
  | ⟨118, _⟩ => ((sbuf.slice (Rect.unit (s := S128x1x128) ![118, 0, 0] S1x1x128.size inb_S128x1x128_S1x1x128_118_0_0) (fun _ => rfl)).squeeze S1x128 squeezes_S1x1x128_S1x128)
  | ⟨119, _⟩ => ((sbuf.slice (Rect.unit (s := S128x1x128) ![119, 0, 0] S1x1x128.size inb_S128x1x128_S1x1x128_119_0_0) (fun _ => rfl)).squeeze S1x128 squeezes_S1x1x128_S1x128)
  | ⟨120, _⟩ => ((sbuf.slice (Rect.unit (s := S128x1x128) ![120, 0, 0] S1x1x128.size inb_S128x1x128_S1x1x128_120_0_0) (fun _ => rfl)).squeeze S1x128 squeezes_S1x1x128_S1x128)
  | ⟨121, _⟩ => ((sbuf.slice (Rect.unit (s := S128x1x128) ![121, 0, 0] S1x1x128.size inb_S128x1x128_S1x1x128_121_0_0) (fun _ => rfl)).squeeze S1x128 squeezes_S1x1x128_S1x128)
  | ⟨122, _⟩ => ((sbuf.slice (Rect.unit (s := S128x1x128) ![122, 0, 0] S1x1x128.size inb_S128x1x128_S1x1x128_122_0_0) (fun _ => rfl)).squeeze S1x128 squeezes_S1x1x128_S1x128)
  | ⟨123, _⟩ => ((sbuf.slice (Rect.unit (s := S128x1x128) ![123, 0, 0] S1x1x128.size inb_S128x1x128_S1x1x128_123_0_0) (fun _ => rfl)).squeeze S1x128 squeezes_S1x1x128_S1x128)
  | ⟨124, _⟩ => ((sbuf.slice (Rect.unit (s := S128x1x128) ![124, 0, 0] S1x1x128.size inb_S128x1x128_S1x1x128_124_0_0) (fun _ => rfl)).squeeze S1x128 squeezes_S1x1x128_S1x128)
  | ⟨125, _⟩ => ((sbuf.slice (Rect.unit (s := S128x1x128) ![125, 0, 0] S1x1x128.size inb_S128x1x128_S1x1x128_125_0_0) (fun _ => rfl)).squeeze S1x128 squeezes_S1x1x128_S1x128)
  | ⟨126, _⟩ => ((sbuf.slice (Rect.unit (s := S128x1x128) ![126, 0, 0] S1x1x128.size inb_S128x1x128_S1x1x128_126_0_0) (fun _ => rfl)).squeeze S1x128 squeezes_S1x1x128_S1x128)
  | ⟨127, _⟩ => ((sbuf.slice (Rect.unit (s := S128x1x128) ![127, 0, 0] S1x1x128.size inb_S128x1x128_S1x1x128_127_0_0) (fun _ => rfl)).squeeze S1x128 squeezes_S1x1x128_S1x128)
  | ⟨_ + 128, h⟩ => absurd h (by omega)

set_option maxHeartbeats 8000000 in
/-- The weight row buffer held whole is its 128 rows, each held by its own elements (the rows written out one by one,
    as the body names the copies' destinations). -/
theorem wbuf_rows (c : Dev nD) (f : BufOf (F := F) c wbuf) :
    (ptAt c wbuf fullShare f : sProp 𝕄) ⊣⊢ iprop(
      (((wbuf.slice (Rect.unit (s := S128x1x1024) ![0, 0, 0] S1x1x1024.size inb_S128x1x1024_S1x1x1024_0_0_0) (fun _ => rfl)).squeeze S1x1024 squeezes_S1x1x1024_S1x1024).view.loc (c : Thread nD τ) ↦[((wbuf.slice (Rect.unit (s := S128x1x1024) ![0, 0, 0] S1x1x1024.size inb_S128x1x1024_S1x1x1024_0_0_0) (fun _ => rfl)).squeeze S1x1024 squeezes_S1x1x1024_S1x1024).view.set]{fullShare} f)
      ∗ (((wbuf.slice (Rect.unit (s := S128x1x1024) ![1, 0, 0] S1x1x1024.size inb_S128x1x1024_S1x1x1024_1_0_0) (fun _ => rfl)).squeeze S1x1024 squeezes_S1x1x1024_S1x1024).view.loc (c : Thread nD τ) ↦[((wbuf.slice (Rect.unit (s := S128x1x1024) ![1, 0, 0] S1x1x1024.size inb_S128x1x1024_S1x1x1024_1_0_0) (fun _ => rfl)).squeeze S1x1024 squeezes_S1x1x1024_S1x1024).view.set]{fullShare} f)
      ∗ (((wbuf.slice (Rect.unit (s := S128x1x1024) ![2, 0, 0] S1x1x1024.size inb_S128x1x1024_S1x1x1024_2_0_0) (fun _ => rfl)).squeeze S1x1024 squeezes_S1x1x1024_S1x1024).view.loc (c : Thread nD τ) ↦[((wbuf.slice (Rect.unit (s := S128x1x1024) ![2, 0, 0] S1x1x1024.size inb_S128x1x1024_S1x1x1024_2_0_0) (fun _ => rfl)).squeeze S1x1024 squeezes_S1x1x1024_S1x1024).view.set]{fullShare} f)
      ∗ (((wbuf.slice (Rect.unit (s := S128x1x1024) ![3, 0, 0] S1x1x1024.size inb_S128x1x1024_S1x1x1024_3_0_0) (fun _ => rfl)).squeeze S1x1024 squeezes_S1x1x1024_S1x1024).view.loc (c : Thread nD τ) ↦[((wbuf.slice (Rect.unit (s := S128x1x1024) ![3, 0, 0] S1x1x1024.size inb_S128x1x1024_S1x1x1024_3_0_0) (fun _ => rfl)).squeeze S1x1024 squeezes_S1x1x1024_S1x1024).view.set]{fullShare} f)
      ∗ (((wbuf.slice (Rect.unit (s := S128x1x1024) ![4, 0, 0] S1x1x1024.size inb_S128x1x1024_S1x1x1024_4_0_0) (fun _ => rfl)).squeeze S1x1024 squeezes_S1x1x1024_S1x1024).view.loc (c : Thread nD τ) ↦[((wbuf.slice (Rect.unit (s := S128x1x1024) ![4, 0, 0] S1x1x1024.size inb_S128x1x1024_S1x1x1024_4_0_0) (fun _ => rfl)).squeeze S1x1024 squeezes_S1x1x1024_S1x1024).view.set]{fullShare} f)
      ∗ (((wbuf.slice (Rect.unit (s := S128x1x1024) ![5, 0, 0] S1x1x1024.size inb_S128x1x1024_S1x1x1024_5_0_0) (fun _ => rfl)).squeeze S1x1024 squeezes_S1x1x1024_S1x1024).view.loc (c : Thread nD τ) ↦[((wbuf.slice (Rect.unit (s := S128x1x1024) ![5, 0, 0] S1x1x1024.size inb_S128x1x1024_S1x1x1024_5_0_0) (fun _ => rfl)).squeeze S1x1024 squeezes_S1x1x1024_S1x1024).view.set]{fullShare} f)
      ∗ (((wbuf.slice (Rect.unit (s := S128x1x1024) ![6, 0, 0] S1x1x1024.size inb_S128x1x1024_S1x1x1024_6_0_0) (fun _ => rfl)).squeeze S1x1024 squeezes_S1x1x1024_S1x1024).view.loc (c : Thread nD τ) ↦[((wbuf.slice (Rect.unit (s := S128x1x1024) ![6, 0, 0] S1x1x1024.size inb_S128x1x1024_S1x1x1024_6_0_0) (fun _ => rfl)).squeeze S1x1024 squeezes_S1x1x1024_S1x1024).view.set]{fullShare} f)
      ∗ (((wbuf.slice (Rect.unit (s := S128x1x1024) ![7, 0, 0] S1x1x1024.size inb_S128x1x1024_S1x1x1024_7_0_0) (fun _ => rfl)).squeeze S1x1024 squeezes_S1x1x1024_S1x1024).view.loc (c : Thread nD τ) ↦[((wbuf.slice (Rect.unit (s := S128x1x1024) ![7, 0, 0] S1x1x1024.size inb_S128x1x1024_S1x1x1024_7_0_0) (fun _ => rfl)).squeeze S1x1024 squeezes_S1x1x1024_S1x1024).view.set]{fullShare} f)
      ∗ (((wbuf.slice (Rect.unit (s := S128x1x1024) ![8, 0, 0] S1x1x1024.size inb_S128x1x1024_S1x1x1024_8_0_0) (fun _ => rfl)).squeeze S1x1024 squeezes_S1x1x1024_S1x1024).view.loc (c : Thread nD τ) ↦[((wbuf.slice (Rect.unit (s := S128x1x1024) ![8, 0, 0] S1x1x1024.size inb_S128x1x1024_S1x1x1024_8_0_0) (fun _ => rfl)).squeeze S1x1024 squeezes_S1x1x1024_S1x1024).view.set]{fullShare} f)
      ∗ (((wbuf.slice (Rect.unit (s := S128x1x1024) ![9, 0, 0] S1x1x1024.size inb_S128x1x1024_S1x1x1024_9_0_0) (fun _ => rfl)).squeeze S1x1024 squeezes_S1x1x1024_S1x1024).view.loc (c : Thread nD τ) ↦[((wbuf.slice (Rect.unit (s := S128x1x1024) ![9, 0, 0] S1x1x1024.size inb_S128x1x1024_S1x1x1024_9_0_0) (fun _ => rfl)).squeeze S1x1024 squeezes_S1x1x1024_S1x1024).view.set]{fullShare} f)
      ∗ (((wbuf.slice (Rect.unit (s := S128x1x1024) ![10, 0, 0] S1x1x1024.size inb_S128x1x1024_S1x1x1024_10_0_0) (fun _ => rfl)).squeeze S1x1024 squeezes_S1x1x1024_S1x1024).view.loc (c : Thread nD τ) ↦[((wbuf.slice (Rect.unit (s := S128x1x1024) ![10, 0, 0] S1x1x1024.size inb_S128x1x1024_S1x1x1024_10_0_0) (fun _ => rfl)).squeeze S1x1024 squeezes_S1x1x1024_S1x1024).view.set]{fullShare} f)
      ∗ (((wbuf.slice (Rect.unit (s := S128x1x1024) ![11, 0, 0] S1x1x1024.size inb_S128x1x1024_S1x1x1024_11_0_0) (fun _ => rfl)).squeeze S1x1024 squeezes_S1x1x1024_S1x1024).view.loc (c : Thread nD τ) ↦[((wbuf.slice (Rect.unit (s := S128x1x1024) ![11, 0, 0] S1x1x1024.size inb_S128x1x1024_S1x1x1024_11_0_0) (fun _ => rfl)).squeeze S1x1024 squeezes_S1x1x1024_S1x1024).view.set]{fullShare} f)
      ∗ (((wbuf.slice (Rect.unit (s := S128x1x1024) ![12, 0, 0] S1x1x1024.size inb_S128x1x1024_S1x1x1024_12_0_0) (fun _ => rfl)).squeeze S1x1024 squeezes_S1x1x1024_S1x1024).view.loc (c : Thread nD τ) ↦[((wbuf.slice (Rect.unit (s := S128x1x1024) ![12, 0, 0] S1x1x1024.size inb_S128x1x1024_S1x1x1024_12_0_0) (fun _ => rfl)).squeeze S1x1024 squeezes_S1x1x1024_S1x1024).view.set]{fullShare} f)
      ∗ (((wbuf.slice (Rect.unit (s := S128x1x1024) ![13, 0, 0] S1x1x1024.size inb_S128x1x1024_S1x1x1024_13_0_0) (fun _ => rfl)).squeeze S1x1024 squeezes_S1x1x1024_S1x1024).view.loc (c : Thread nD τ) ↦[((wbuf.slice (Rect.unit (s := S128x1x1024) ![13, 0, 0] S1x1x1024.size inb_S128x1x1024_S1x1x1024_13_0_0) (fun _ => rfl)).squeeze S1x1024 squeezes_S1x1x1024_S1x1024).view.set]{fullShare} f)
      ∗ (((wbuf.slice (Rect.unit (s := S128x1x1024) ![14, 0, 0] S1x1x1024.size inb_S128x1x1024_S1x1x1024_14_0_0) (fun _ => rfl)).squeeze S1x1024 squeezes_S1x1x1024_S1x1024).view.loc (c : Thread nD τ) ↦[((wbuf.slice (Rect.unit (s := S128x1x1024) ![14, 0, 0] S1x1x1024.size inb_S128x1x1024_S1x1x1024_14_0_0) (fun _ => rfl)).squeeze S1x1024 squeezes_S1x1x1024_S1x1024).view.set]{fullShare} f)
      ∗ (((wbuf.slice (Rect.unit (s := S128x1x1024) ![15, 0, 0] S1x1x1024.size inb_S128x1x1024_S1x1x1024_15_0_0) (fun _ => rfl)).squeeze S1x1024 squeezes_S1x1x1024_S1x1024).view.loc (c : Thread nD τ) ↦[((wbuf.slice (Rect.unit (s := S128x1x1024) ![15, 0, 0] S1x1x1024.size inb_S128x1x1024_S1x1x1024_15_0_0) (fun _ => rfl)).squeeze S1x1024 squeezes_S1x1x1024_S1x1024).view.set]{fullShare} f)
      ∗ (((wbuf.slice (Rect.unit (s := S128x1x1024) ![16, 0, 0] S1x1x1024.size inb_S128x1x1024_S1x1x1024_16_0_0) (fun _ => rfl)).squeeze S1x1024 squeezes_S1x1x1024_S1x1024).view.loc (c : Thread nD τ) ↦[((wbuf.slice (Rect.unit (s := S128x1x1024) ![16, 0, 0] S1x1x1024.size inb_S128x1x1024_S1x1x1024_16_0_0) (fun _ => rfl)).squeeze S1x1024 squeezes_S1x1x1024_S1x1024).view.set]{fullShare} f)
      ∗ (((wbuf.slice (Rect.unit (s := S128x1x1024) ![17, 0, 0] S1x1x1024.size inb_S128x1x1024_S1x1x1024_17_0_0) (fun _ => rfl)).squeeze S1x1024 squeezes_S1x1x1024_S1x1024).view.loc (c : Thread nD τ) ↦[((wbuf.slice (Rect.unit (s := S128x1x1024) ![17, 0, 0] S1x1x1024.size inb_S128x1x1024_S1x1x1024_17_0_0) (fun _ => rfl)).squeeze S1x1024 squeezes_S1x1x1024_S1x1024).view.set]{fullShare} f)
      ∗ (((wbuf.slice (Rect.unit (s := S128x1x1024) ![18, 0, 0] S1x1x1024.size inb_S128x1x1024_S1x1x1024_18_0_0) (fun _ => rfl)).squeeze S1x1024 squeezes_S1x1x1024_S1x1024).view.loc (c : Thread nD τ) ↦[((wbuf.slice (Rect.unit (s := S128x1x1024) ![18, 0, 0] S1x1x1024.size inb_S128x1x1024_S1x1x1024_18_0_0) (fun _ => rfl)).squeeze S1x1024 squeezes_S1x1x1024_S1x1024).view.set]{fullShare} f)
      ∗ (((wbuf.slice (Rect.unit (s := S128x1x1024) ![19, 0, 0] S1x1x1024.size inb_S128x1x1024_S1x1x1024_19_0_0) (fun _ => rfl)).squeeze S1x1024 squeezes_S1x1x1024_S1x1024).view.loc (c : Thread nD τ) ↦[((wbuf.slice (Rect.unit (s := S128x1x1024) ![19, 0, 0] S1x1x1024.size inb_S128x1x1024_S1x1x1024_19_0_0) (fun _ => rfl)).squeeze S1x1024 squeezes_S1x1x1024_S1x1024).view.set]{fullShare} f)
      ∗ (((wbuf.slice (Rect.unit (s := S128x1x1024) ![20, 0, 0] S1x1x1024.size inb_S128x1x1024_S1x1x1024_20_0_0) (fun _ => rfl)).squeeze S1x1024 squeezes_S1x1x1024_S1x1024).view.loc (c : Thread nD τ) ↦[((wbuf.slice (Rect.unit (s := S128x1x1024) ![20, 0, 0] S1x1x1024.size inb_S128x1x1024_S1x1x1024_20_0_0) (fun _ => rfl)).squeeze S1x1024 squeezes_S1x1x1024_S1x1024).view.set]{fullShare} f)
      ∗ (((wbuf.slice (Rect.unit (s := S128x1x1024) ![21, 0, 0] S1x1x1024.size inb_S128x1x1024_S1x1x1024_21_0_0) (fun _ => rfl)).squeeze S1x1024 squeezes_S1x1x1024_S1x1024).view.loc (c : Thread nD τ) ↦[((wbuf.slice (Rect.unit (s := S128x1x1024) ![21, 0, 0] S1x1x1024.size inb_S128x1x1024_S1x1x1024_21_0_0) (fun _ => rfl)).squeeze S1x1024 squeezes_S1x1x1024_S1x1024).view.set]{fullShare} f)
      ∗ (((wbuf.slice (Rect.unit (s := S128x1x1024) ![22, 0, 0] S1x1x1024.size inb_S128x1x1024_S1x1x1024_22_0_0) (fun _ => rfl)).squeeze S1x1024 squeezes_S1x1x1024_S1x1024).view.loc (c : Thread nD τ) ↦[((wbuf.slice (Rect.unit (s := S128x1x1024) ![22, 0, 0] S1x1x1024.size inb_S128x1x1024_S1x1x1024_22_0_0) (fun _ => rfl)).squeeze S1x1024 squeezes_S1x1x1024_S1x1024).view.set]{fullShare} f)
      ∗ (((wbuf.slice (Rect.unit (s := S128x1x1024) ![23, 0, 0] S1x1x1024.size inb_S128x1x1024_S1x1x1024_23_0_0) (fun _ => rfl)).squeeze S1x1024 squeezes_S1x1x1024_S1x1024).view.loc (c : Thread nD τ) ↦[((wbuf.slice (Rect.unit (s := S128x1x1024) ![23, 0, 0] S1x1x1024.size inb_S128x1x1024_S1x1x1024_23_0_0) (fun _ => rfl)).squeeze S1x1024 squeezes_S1x1x1024_S1x1024).view.set]{fullShare} f)
      ∗ (((wbuf.slice (Rect.unit (s := S128x1x1024) ![24, 0, 0] S1x1x1024.size inb_S128x1x1024_S1x1x1024_24_0_0) (fun _ => rfl)).squeeze S1x1024 squeezes_S1x1x1024_S1x1024).view.loc (c : Thread nD τ) ↦[((wbuf.slice (Rect.unit (s := S128x1x1024) ![24, 0, 0] S1x1x1024.size inb_S128x1x1024_S1x1x1024_24_0_0) (fun _ => rfl)).squeeze S1x1024 squeezes_S1x1x1024_S1x1024).view.set]{fullShare} f)
      ∗ (((wbuf.slice (Rect.unit (s := S128x1x1024) ![25, 0, 0] S1x1x1024.size inb_S128x1x1024_S1x1x1024_25_0_0) (fun _ => rfl)).squeeze S1x1024 squeezes_S1x1x1024_S1x1024).view.loc (c : Thread nD τ) ↦[((wbuf.slice (Rect.unit (s := S128x1x1024) ![25, 0, 0] S1x1x1024.size inb_S128x1x1024_S1x1x1024_25_0_0) (fun _ => rfl)).squeeze S1x1024 squeezes_S1x1x1024_S1x1024).view.set]{fullShare} f)
      ∗ (((wbuf.slice (Rect.unit (s := S128x1x1024) ![26, 0, 0] S1x1x1024.size inb_S128x1x1024_S1x1x1024_26_0_0) (fun _ => rfl)).squeeze S1x1024 squeezes_S1x1x1024_S1x1024).view.loc (c : Thread nD τ) ↦[((wbuf.slice (Rect.unit (s := S128x1x1024) ![26, 0, 0] S1x1x1024.size inb_S128x1x1024_S1x1x1024_26_0_0) (fun _ => rfl)).squeeze S1x1024 squeezes_S1x1x1024_S1x1024).view.set]{fullShare} f)
      ∗ (((wbuf.slice (Rect.unit (s := S128x1x1024) ![27, 0, 0] S1x1x1024.size inb_S128x1x1024_S1x1x1024_27_0_0) (fun _ => rfl)).squeeze S1x1024 squeezes_S1x1x1024_S1x1024).view.loc (c : Thread nD τ) ↦[((wbuf.slice (Rect.unit (s := S128x1x1024) ![27, 0, 0] S1x1x1024.size inb_S128x1x1024_S1x1x1024_27_0_0) (fun _ => rfl)).squeeze S1x1024 squeezes_S1x1x1024_S1x1024).view.set]{fullShare} f)
      ∗ (((wbuf.slice (Rect.unit (s := S128x1x1024) ![28, 0, 0] S1x1x1024.size inb_S128x1x1024_S1x1x1024_28_0_0) (fun _ => rfl)).squeeze S1x1024 squeezes_S1x1x1024_S1x1024).view.loc (c : Thread nD τ) ↦[((wbuf.slice (Rect.unit (s := S128x1x1024) ![28, 0, 0] S1x1x1024.size inb_S128x1x1024_S1x1x1024_28_0_0) (fun _ => rfl)).squeeze S1x1024 squeezes_S1x1x1024_S1x1024).view.set]{fullShare} f)
      ∗ (((wbuf.slice (Rect.unit (s := S128x1x1024) ![29, 0, 0] S1x1x1024.size inb_S128x1x1024_S1x1x1024_29_0_0) (fun _ => rfl)).squeeze S1x1024 squeezes_S1x1x1024_S1x1024).view.loc (c : Thread nD τ) ↦[((wbuf.slice (Rect.unit (s := S128x1x1024) ![29, 0, 0] S1x1x1024.size inb_S128x1x1024_S1x1x1024_29_0_0) (fun _ => rfl)).squeeze S1x1024 squeezes_S1x1x1024_S1x1024).view.set]{fullShare} f)
      ∗ (((wbuf.slice (Rect.unit (s := S128x1x1024) ![30, 0, 0] S1x1x1024.size inb_S128x1x1024_S1x1x1024_30_0_0) (fun _ => rfl)).squeeze S1x1024 squeezes_S1x1x1024_S1x1024).view.loc (c : Thread nD τ) ↦[((wbuf.slice (Rect.unit (s := S128x1x1024) ![30, 0, 0] S1x1x1024.size inb_S128x1x1024_S1x1x1024_30_0_0) (fun _ => rfl)).squeeze S1x1024 squeezes_S1x1x1024_S1x1024).view.set]{fullShare} f)
      ∗ (((wbuf.slice (Rect.unit (s := S128x1x1024) ![31, 0, 0] S1x1x1024.size inb_S128x1x1024_S1x1x1024_31_0_0) (fun _ => rfl)).squeeze S1x1024 squeezes_S1x1x1024_S1x1024).view.loc (c : Thread nD τ) ↦[((wbuf.slice (Rect.unit (s := S128x1x1024) ![31, 0, 0] S1x1x1024.size inb_S128x1x1024_S1x1x1024_31_0_0) (fun _ => rfl)).squeeze S1x1024 squeezes_S1x1x1024_S1x1024).view.set]{fullShare} f)
      ∗ (((wbuf.slice (Rect.unit (s := S128x1x1024) ![32, 0, 0] S1x1x1024.size inb_S128x1x1024_S1x1x1024_32_0_0) (fun _ => rfl)).squeeze S1x1024 squeezes_S1x1x1024_S1x1024).view.loc (c : Thread nD τ) ↦[((wbuf.slice (Rect.unit (s := S128x1x1024) ![32, 0, 0] S1x1x1024.size inb_S128x1x1024_S1x1x1024_32_0_0) (fun _ => rfl)).squeeze S1x1024 squeezes_S1x1x1024_S1x1024).view.set]{fullShare} f)
      ∗ (((wbuf.slice (Rect.unit (s := S128x1x1024) ![33, 0, 0] S1x1x1024.size inb_S128x1x1024_S1x1x1024_33_0_0) (fun _ => rfl)).squeeze S1x1024 squeezes_S1x1x1024_S1x1024).view.loc (c : Thread nD τ) ↦[((wbuf.slice (Rect.unit (s := S128x1x1024) ![33, 0, 0] S1x1x1024.size inb_S128x1x1024_S1x1x1024_33_0_0) (fun _ => rfl)).squeeze S1x1024 squeezes_S1x1x1024_S1x1024).view.set]{fullShare} f)
      ∗ (((wbuf.slice (Rect.unit (s := S128x1x1024) ![34, 0, 0] S1x1x1024.size inb_S128x1x1024_S1x1x1024_34_0_0) (fun _ => rfl)).squeeze S1x1024 squeezes_S1x1x1024_S1x1024).view.loc (c : Thread nD τ) ↦[((wbuf.slice (Rect.unit (s := S128x1x1024) ![34, 0, 0] S1x1x1024.size inb_S128x1x1024_S1x1x1024_34_0_0) (fun _ => rfl)).squeeze S1x1024 squeezes_S1x1x1024_S1x1024).view.set]{fullShare} f)
      ∗ (((wbuf.slice (Rect.unit (s := S128x1x1024) ![35, 0, 0] S1x1x1024.size inb_S128x1x1024_S1x1x1024_35_0_0) (fun _ => rfl)).squeeze S1x1024 squeezes_S1x1x1024_S1x1024).view.loc (c : Thread nD τ) ↦[((wbuf.slice (Rect.unit (s := S128x1x1024) ![35, 0, 0] S1x1x1024.size inb_S128x1x1024_S1x1x1024_35_0_0) (fun _ => rfl)).squeeze S1x1024 squeezes_S1x1x1024_S1x1024).view.set]{fullShare} f)
      ∗ (((wbuf.slice (Rect.unit (s := S128x1x1024) ![36, 0, 0] S1x1x1024.size inb_S128x1x1024_S1x1x1024_36_0_0) (fun _ => rfl)).squeeze S1x1024 squeezes_S1x1x1024_S1x1024).view.loc (c : Thread nD τ) ↦[((wbuf.slice (Rect.unit (s := S128x1x1024) ![36, 0, 0] S1x1x1024.size inb_S128x1x1024_S1x1x1024_36_0_0) (fun _ => rfl)).squeeze S1x1024 squeezes_S1x1x1024_S1x1024).view.set]{fullShare} f)
      ∗ (((wbuf.slice (Rect.unit (s := S128x1x1024) ![37, 0, 0] S1x1x1024.size inb_S128x1x1024_S1x1x1024_37_0_0) (fun _ => rfl)).squeeze S1x1024 squeezes_S1x1x1024_S1x1024).view.loc (c : Thread nD τ) ↦[((wbuf.slice (Rect.unit (s := S128x1x1024) ![37, 0, 0] S1x1x1024.size inb_S128x1x1024_S1x1x1024_37_0_0) (fun _ => rfl)).squeeze S1x1024 squeezes_S1x1x1024_S1x1024).view.set]{fullShare} f)
      ∗ (((wbuf.slice (Rect.unit (s := S128x1x1024) ![38, 0, 0] S1x1x1024.size inb_S128x1x1024_S1x1x1024_38_0_0) (fun _ => rfl)).squeeze S1x1024 squeezes_S1x1x1024_S1x1024).view.loc (c : Thread nD τ) ↦[((wbuf.slice (Rect.unit (s := S128x1x1024) ![38, 0, 0] S1x1x1024.size inb_S128x1x1024_S1x1x1024_38_0_0) (fun _ => rfl)).squeeze S1x1024 squeezes_S1x1x1024_S1x1024).view.set]{fullShare} f)
      ∗ (((wbuf.slice (Rect.unit (s := S128x1x1024) ![39, 0, 0] S1x1x1024.size inb_S128x1x1024_S1x1x1024_39_0_0) (fun _ => rfl)).squeeze S1x1024 squeezes_S1x1x1024_S1x1024).view.loc (c : Thread nD τ) ↦[((wbuf.slice (Rect.unit (s := S128x1x1024) ![39, 0, 0] S1x1x1024.size inb_S128x1x1024_S1x1x1024_39_0_0) (fun _ => rfl)).squeeze S1x1024 squeezes_S1x1x1024_S1x1024).view.set]{fullShare} f)
      ∗ (((wbuf.slice (Rect.unit (s := S128x1x1024) ![40, 0, 0] S1x1x1024.size inb_S128x1x1024_S1x1x1024_40_0_0) (fun _ => rfl)).squeeze S1x1024 squeezes_S1x1x1024_S1x1024).view.loc (c : Thread nD τ) ↦[((wbuf.slice (Rect.unit (s := S128x1x1024) ![40, 0, 0] S1x1x1024.size inb_S128x1x1024_S1x1x1024_40_0_0) (fun _ => rfl)).squeeze S1x1024 squeezes_S1x1x1024_S1x1024).view.set]{fullShare} f)
      ∗ (((wbuf.slice (Rect.unit (s := S128x1x1024) ![41, 0, 0] S1x1x1024.size inb_S128x1x1024_S1x1x1024_41_0_0) (fun _ => rfl)).squeeze S1x1024 squeezes_S1x1x1024_S1x1024).view.loc (c : Thread nD τ) ↦[((wbuf.slice (Rect.unit (s := S128x1x1024) ![41, 0, 0] S1x1x1024.size inb_S128x1x1024_S1x1x1024_41_0_0) (fun _ => rfl)).squeeze S1x1024 squeezes_S1x1x1024_S1x1024).view.set]{fullShare} f)
      ∗ (((wbuf.slice (Rect.unit (s := S128x1x1024) ![42, 0, 0] S1x1x1024.size inb_S128x1x1024_S1x1x1024_42_0_0) (fun _ => rfl)).squeeze S1x1024 squeezes_S1x1x1024_S1x1024).view.loc (c : Thread nD τ) ↦[((wbuf.slice (Rect.unit (s := S128x1x1024) ![42, 0, 0] S1x1x1024.size inb_S128x1x1024_S1x1x1024_42_0_0) (fun _ => rfl)).squeeze S1x1024 squeezes_S1x1x1024_S1x1024).view.set]{fullShare} f)
      ∗ (((wbuf.slice (Rect.unit (s := S128x1x1024) ![43, 0, 0] S1x1x1024.size inb_S128x1x1024_S1x1x1024_43_0_0) (fun _ => rfl)).squeeze S1x1024 squeezes_S1x1x1024_S1x1024).view.loc (c : Thread nD τ) ↦[((wbuf.slice (Rect.unit (s := S128x1x1024) ![43, 0, 0] S1x1x1024.size inb_S128x1x1024_S1x1x1024_43_0_0) (fun _ => rfl)).squeeze S1x1024 squeezes_S1x1x1024_S1x1024).view.set]{fullShare} f)
      ∗ (((wbuf.slice (Rect.unit (s := S128x1x1024) ![44, 0, 0] S1x1x1024.size inb_S128x1x1024_S1x1x1024_44_0_0) (fun _ => rfl)).squeeze S1x1024 squeezes_S1x1x1024_S1x1024).view.loc (c : Thread nD τ) ↦[((wbuf.slice (Rect.unit (s := S128x1x1024) ![44, 0, 0] S1x1x1024.size inb_S128x1x1024_S1x1x1024_44_0_0) (fun _ => rfl)).squeeze S1x1024 squeezes_S1x1x1024_S1x1024).view.set]{fullShare} f)
      ∗ (((wbuf.slice (Rect.unit (s := S128x1x1024) ![45, 0, 0] S1x1x1024.size inb_S128x1x1024_S1x1x1024_45_0_0) (fun _ => rfl)).squeeze S1x1024 squeezes_S1x1x1024_S1x1024).view.loc (c : Thread nD τ) ↦[((wbuf.slice (Rect.unit (s := S128x1x1024) ![45, 0, 0] S1x1x1024.size inb_S128x1x1024_S1x1x1024_45_0_0) (fun _ => rfl)).squeeze S1x1024 squeezes_S1x1x1024_S1x1024).view.set]{fullShare} f)
      ∗ (((wbuf.slice (Rect.unit (s := S128x1x1024) ![46, 0, 0] S1x1x1024.size inb_S128x1x1024_S1x1x1024_46_0_0) (fun _ => rfl)).squeeze S1x1024 squeezes_S1x1x1024_S1x1024).view.loc (c : Thread nD τ) ↦[((wbuf.slice (Rect.unit (s := S128x1x1024) ![46, 0, 0] S1x1x1024.size inb_S128x1x1024_S1x1x1024_46_0_0) (fun _ => rfl)).squeeze S1x1024 squeezes_S1x1x1024_S1x1024).view.set]{fullShare} f)
      ∗ (((wbuf.slice (Rect.unit (s := S128x1x1024) ![47, 0, 0] S1x1x1024.size inb_S128x1x1024_S1x1x1024_47_0_0) (fun _ => rfl)).squeeze S1x1024 squeezes_S1x1x1024_S1x1024).view.loc (c : Thread nD τ) ↦[((wbuf.slice (Rect.unit (s := S128x1x1024) ![47, 0, 0] S1x1x1024.size inb_S128x1x1024_S1x1x1024_47_0_0) (fun _ => rfl)).squeeze S1x1024 squeezes_S1x1x1024_S1x1024).view.set]{fullShare} f)
      ∗ (((wbuf.slice (Rect.unit (s := S128x1x1024) ![48, 0, 0] S1x1x1024.size inb_S128x1x1024_S1x1x1024_48_0_0) (fun _ => rfl)).squeeze S1x1024 squeezes_S1x1x1024_S1x1024).view.loc (c : Thread nD τ) ↦[((wbuf.slice (Rect.unit (s := S128x1x1024) ![48, 0, 0] S1x1x1024.size inb_S128x1x1024_S1x1x1024_48_0_0) (fun _ => rfl)).squeeze S1x1024 squeezes_S1x1x1024_S1x1024).view.set]{fullShare} f)
      ∗ (((wbuf.slice (Rect.unit (s := S128x1x1024) ![49, 0, 0] S1x1x1024.size inb_S128x1x1024_S1x1x1024_49_0_0) (fun _ => rfl)).squeeze S1x1024 squeezes_S1x1x1024_S1x1024).view.loc (c : Thread nD τ) ↦[((wbuf.slice (Rect.unit (s := S128x1x1024) ![49, 0, 0] S1x1x1024.size inb_S128x1x1024_S1x1x1024_49_0_0) (fun _ => rfl)).squeeze S1x1024 squeezes_S1x1x1024_S1x1024).view.set]{fullShare} f)
      ∗ (((wbuf.slice (Rect.unit (s := S128x1x1024) ![50, 0, 0] S1x1x1024.size inb_S128x1x1024_S1x1x1024_50_0_0) (fun _ => rfl)).squeeze S1x1024 squeezes_S1x1x1024_S1x1024).view.loc (c : Thread nD τ) ↦[((wbuf.slice (Rect.unit (s := S128x1x1024) ![50, 0, 0] S1x1x1024.size inb_S128x1x1024_S1x1x1024_50_0_0) (fun _ => rfl)).squeeze S1x1024 squeezes_S1x1x1024_S1x1024).view.set]{fullShare} f)
      ∗ (((wbuf.slice (Rect.unit (s := S128x1x1024) ![51, 0, 0] S1x1x1024.size inb_S128x1x1024_S1x1x1024_51_0_0) (fun _ => rfl)).squeeze S1x1024 squeezes_S1x1x1024_S1x1024).view.loc (c : Thread nD τ) ↦[((wbuf.slice (Rect.unit (s := S128x1x1024) ![51, 0, 0] S1x1x1024.size inb_S128x1x1024_S1x1x1024_51_0_0) (fun _ => rfl)).squeeze S1x1024 squeezes_S1x1x1024_S1x1024).view.set]{fullShare} f)
      ∗ (((wbuf.slice (Rect.unit (s := S128x1x1024) ![52, 0, 0] S1x1x1024.size inb_S128x1x1024_S1x1x1024_52_0_0) (fun _ => rfl)).squeeze S1x1024 squeezes_S1x1x1024_S1x1024).view.loc (c : Thread nD τ) ↦[((wbuf.slice (Rect.unit (s := S128x1x1024) ![52, 0, 0] S1x1x1024.size inb_S128x1x1024_S1x1x1024_52_0_0) (fun _ => rfl)).squeeze S1x1024 squeezes_S1x1x1024_S1x1024).view.set]{fullShare} f)
      ∗ (((wbuf.slice (Rect.unit (s := S128x1x1024) ![53, 0, 0] S1x1x1024.size inb_S128x1x1024_S1x1x1024_53_0_0) (fun _ => rfl)).squeeze S1x1024 squeezes_S1x1x1024_S1x1024).view.loc (c : Thread nD τ) ↦[((wbuf.slice (Rect.unit (s := S128x1x1024) ![53, 0, 0] S1x1x1024.size inb_S128x1x1024_S1x1x1024_53_0_0) (fun _ => rfl)).squeeze S1x1024 squeezes_S1x1x1024_S1x1024).view.set]{fullShare} f)
      ∗ (((wbuf.slice (Rect.unit (s := S128x1x1024) ![54, 0, 0] S1x1x1024.size inb_S128x1x1024_S1x1x1024_54_0_0) (fun _ => rfl)).squeeze S1x1024 squeezes_S1x1x1024_S1x1024).view.loc (c : Thread nD τ) ↦[((wbuf.slice (Rect.unit (s := S128x1x1024) ![54, 0, 0] S1x1x1024.size inb_S128x1x1024_S1x1x1024_54_0_0) (fun _ => rfl)).squeeze S1x1024 squeezes_S1x1x1024_S1x1024).view.set]{fullShare} f)
      ∗ (((wbuf.slice (Rect.unit (s := S128x1x1024) ![55, 0, 0] S1x1x1024.size inb_S128x1x1024_S1x1x1024_55_0_0) (fun _ => rfl)).squeeze S1x1024 squeezes_S1x1x1024_S1x1024).view.loc (c : Thread nD τ) ↦[((wbuf.slice (Rect.unit (s := S128x1x1024) ![55, 0, 0] S1x1x1024.size inb_S128x1x1024_S1x1x1024_55_0_0) (fun _ => rfl)).squeeze S1x1024 squeezes_S1x1x1024_S1x1024).view.set]{fullShare} f)
      ∗ (((wbuf.slice (Rect.unit (s := S128x1x1024) ![56, 0, 0] S1x1x1024.size inb_S128x1x1024_S1x1x1024_56_0_0) (fun _ => rfl)).squeeze S1x1024 squeezes_S1x1x1024_S1x1024).view.loc (c : Thread nD τ) ↦[((wbuf.slice (Rect.unit (s := S128x1x1024) ![56, 0, 0] S1x1x1024.size inb_S128x1x1024_S1x1x1024_56_0_0) (fun _ => rfl)).squeeze S1x1024 squeezes_S1x1x1024_S1x1024).view.set]{fullShare} f)
      ∗ (((wbuf.slice (Rect.unit (s := S128x1x1024) ![57, 0, 0] S1x1x1024.size inb_S128x1x1024_S1x1x1024_57_0_0) (fun _ => rfl)).squeeze S1x1024 squeezes_S1x1x1024_S1x1024).view.loc (c : Thread nD τ) ↦[((wbuf.slice (Rect.unit (s := S128x1x1024) ![57, 0, 0] S1x1x1024.size inb_S128x1x1024_S1x1x1024_57_0_0) (fun _ => rfl)).squeeze S1x1024 squeezes_S1x1x1024_S1x1024).view.set]{fullShare} f)
      ∗ (((wbuf.slice (Rect.unit (s := S128x1x1024) ![58, 0, 0] S1x1x1024.size inb_S128x1x1024_S1x1x1024_58_0_0) (fun _ => rfl)).squeeze S1x1024 squeezes_S1x1x1024_S1x1024).view.loc (c : Thread nD τ) ↦[((wbuf.slice (Rect.unit (s := S128x1x1024) ![58, 0, 0] S1x1x1024.size inb_S128x1x1024_S1x1x1024_58_0_0) (fun _ => rfl)).squeeze S1x1024 squeezes_S1x1x1024_S1x1024).view.set]{fullShare} f)
      ∗ (((wbuf.slice (Rect.unit (s := S128x1x1024) ![59, 0, 0] S1x1x1024.size inb_S128x1x1024_S1x1x1024_59_0_0) (fun _ => rfl)).squeeze S1x1024 squeezes_S1x1x1024_S1x1024).view.loc (c : Thread nD τ) ↦[((wbuf.slice (Rect.unit (s := S128x1x1024) ![59, 0, 0] S1x1x1024.size inb_S128x1x1024_S1x1x1024_59_0_0) (fun _ => rfl)).squeeze S1x1024 squeezes_S1x1x1024_S1x1024).view.set]{fullShare} f)
      ∗ (((wbuf.slice (Rect.unit (s := S128x1x1024) ![60, 0, 0] S1x1x1024.size inb_S128x1x1024_S1x1x1024_60_0_0) (fun _ => rfl)).squeeze S1x1024 squeezes_S1x1x1024_S1x1024).view.loc (c : Thread nD τ) ↦[((wbuf.slice (Rect.unit (s := S128x1x1024) ![60, 0, 0] S1x1x1024.size inb_S128x1x1024_S1x1x1024_60_0_0) (fun _ => rfl)).squeeze S1x1024 squeezes_S1x1x1024_S1x1024).view.set]{fullShare} f)
      ∗ (((wbuf.slice (Rect.unit (s := S128x1x1024) ![61, 0, 0] S1x1x1024.size inb_S128x1x1024_S1x1x1024_61_0_0) (fun _ => rfl)).squeeze S1x1024 squeezes_S1x1x1024_S1x1024).view.loc (c : Thread nD τ) ↦[((wbuf.slice (Rect.unit (s := S128x1x1024) ![61, 0, 0] S1x1x1024.size inb_S128x1x1024_S1x1x1024_61_0_0) (fun _ => rfl)).squeeze S1x1024 squeezes_S1x1x1024_S1x1024).view.set]{fullShare} f)
      ∗ (((wbuf.slice (Rect.unit (s := S128x1x1024) ![62, 0, 0] S1x1x1024.size inb_S128x1x1024_S1x1x1024_62_0_0) (fun _ => rfl)).squeeze S1x1024 squeezes_S1x1x1024_S1x1024).view.loc (c : Thread nD τ) ↦[((wbuf.slice (Rect.unit (s := S128x1x1024) ![62, 0, 0] S1x1x1024.size inb_S128x1x1024_S1x1x1024_62_0_0) (fun _ => rfl)).squeeze S1x1024 squeezes_S1x1x1024_S1x1024).view.set]{fullShare} f)
      ∗ (((wbuf.slice (Rect.unit (s := S128x1x1024) ![63, 0, 0] S1x1x1024.size inb_S128x1x1024_S1x1x1024_63_0_0) (fun _ => rfl)).squeeze S1x1024 squeezes_S1x1x1024_S1x1024).view.loc (c : Thread nD τ) ↦[((wbuf.slice (Rect.unit (s := S128x1x1024) ![63, 0, 0] S1x1x1024.size inb_S128x1x1024_S1x1x1024_63_0_0) (fun _ => rfl)).squeeze S1x1024 squeezes_S1x1x1024_S1x1024).view.set]{fullShare} f)
      ∗ (((wbuf.slice (Rect.unit (s := S128x1x1024) ![64, 0, 0] S1x1x1024.size inb_S128x1x1024_S1x1x1024_64_0_0) (fun _ => rfl)).squeeze S1x1024 squeezes_S1x1x1024_S1x1024).view.loc (c : Thread nD τ) ↦[((wbuf.slice (Rect.unit (s := S128x1x1024) ![64, 0, 0] S1x1x1024.size inb_S128x1x1024_S1x1x1024_64_0_0) (fun _ => rfl)).squeeze S1x1024 squeezes_S1x1x1024_S1x1024).view.set]{fullShare} f)
      ∗ (((wbuf.slice (Rect.unit (s := S128x1x1024) ![65, 0, 0] S1x1x1024.size inb_S128x1x1024_S1x1x1024_65_0_0) (fun _ => rfl)).squeeze S1x1024 squeezes_S1x1x1024_S1x1024).view.loc (c : Thread nD τ) ↦[((wbuf.slice (Rect.unit (s := S128x1x1024) ![65, 0, 0] S1x1x1024.size inb_S128x1x1024_S1x1x1024_65_0_0) (fun _ => rfl)).squeeze S1x1024 squeezes_S1x1x1024_S1x1024).view.set]{fullShare} f)
      ∗ (((wbuf.slice (Rect.unit (s := S128x1x1024) ![66, 0, 0] S1x1x1024.size inb_S128x1x1024_S1x1x1024_66_0_0) (fun _ => rfl)).squeeze S1x1024 squeezes_S1x1x1024_S1x1024).view.loc (c : Thread nD τ) ↦[((wbuf.slice (Rect.unit (s := S128x1x1024) ![66, 0, 0] S1x1x1024.size inb_S128x1x1024_S1x1x1024_66_0_0) (fun _ => rfl)).squeeze S1x1024 squeezes_S1x1x1024_S1x1024).view.set]{fullShare} f)
      ∗ (((wbuf.slice (Rect.unit (s := S128x1x1024) ![67, 0, 0] S1x1x1024.size inb_S128x1x1024_S1x1x1024_67_0_0) (fun _ => rfl)).squeeze S1x1024 squeezes_S1x1x1024_S1x1024).view.loc (c : Thread nD τ) ↦[((wbuf.slice (Rect.unit (s := S128x1x1024) ![67, 0, 0] S1x1x1024.size inb_S128x1x1024_S1x1x1024_67_0_0) (fun _ => rfl)).squeeze S1x1024 squeezes_S1x1x1024_S1x1024).view.set]{fullShare} f)
      ∗ (((wbuf.slice (Rect.unit (s := S128x1x1024) ![68, 0, 0] S1x1x1024.size inb_S128x1x1024_S1x1x1024_68_0_0) (fun _ => rfl)).squeeze S1x1024 squeezes_S1x1x1024_S1x1024).view.loc (c : Thread nD τ) ↦[((wbuf.slice (Rect.unit (s := S128x1x1024) ![68, 0, 0] S1x1x1024.size inb_S128x1x1024_S1x1x1024_68_0_0) (fun _ => rfl)).squeeze S1x1024 squeezes_S1x1x1024_S1x1024).view.set]{fullShare} f)
      ∗ (((wbuf.slice (Rect.unit (s := S128x1x1024) ![69, 0, 0] S1x1x1024.size inb_S128x1x1024_S1x1x1024_69_0_0) (fun _ => rfl)).squeeze S1x1024 squeezes_S1x1x1024_S1x1024).view.loc (c : Thread nD τ) ↦[((wbuf.slice (Rect.unit (s := S128x1x1024) ![69, 0, 0] S1x1x1024.size inb_S128x1x1024_S1x1x1024_69_0_0) (fun _ => rfl)).squeeze S1x1024 squeezes_S1x1x1024_S1x1024).view.set]{fullShare} f)
      ∗ (((wbuf.slice (Rect.unit (s := S128x1x1024) ![70, 0, 0] S1x1x1024.size inb_S128x1x1024_S1x1x1024_70_0_0) (fun _ => rfl)).squeeze S1x1024 squeezes_S1x1x1024_S1x1024).view.loc (c : Thread nD τ) ↦[((wbuf.slice (Rect.unit (s := S128x1x1024) ![70, 0, 0] S1x1x1024.size inb_S128x1x1024_S1x1x1024_70_0_0) (fun _ => rfl)).squeeze S1x1024 squeezes_S1x1x1024_S1x1024).view.set]{fullShare} f)
      ∗ (((wbuf.slice (Rect.unit (s := S128x1x1024) ![71, 0, 0] S1x1x1024.size inb_S128x1x1024_S1x1x1024_71_0_0) (fun _ => rfl)).squeeze S1x1024 squeezes_S1x1x1024_S1x1024).view.loc (c : Thread nD τ) ↦[((wbuf.slice (Rect.unit (s := S128x1x1024) ![71, 0, 0] S1x1x1024.size inb_S128x1x1024_S1x1x1024_71_0_0) (fun _ => rfl)).squeeze S1x1024 squeezes_S1x1x1024_S1x1024).view.set]{fullShare} f)
      ∗ (((wbuf.slice (Rect.unit (s := S128x1x1024) ![72, 0, 0] S1x1x1024.size inb_S128x1x1024_S1x1x1024_72_0_0) (fun _ => rfl)).squeeze S1x1024 squeezes_S1x1x1024_S1x1024).view.loc (c : Thread nD τ) ↦[((wbuf.slice (Rect.unit (s := S128x1x1024) ![72, 0, 0] S1x1x1024.size inb_S128x1x1024_S1x1x1024_72_0_0) (fun _ => rfl)).squeeze S1x1024 squeezes_S1x1x1024_S1x1024).view.set]{fullShare} f)
      ∗ (((wbuf.slice (Rect.unit (s := S128x1x1024) ![73, 0, 0] S1x1x1024.size inb_S128x1x1024_S1x1x1024_73_0_0) (fun _ => rfl)).squeeze S1x1024 squeezes_S1x1x1024_S1x1024).view.loc (c : Thread nD τ) ↦[((wbuf.slice (Rect.unit (s := S128x1x1024) ![73, 0, 0] S1x1x1024.size inb_S128x1x1024_S1x1x1024_73_0_0) (fun _ => rfl)).squeeze S1x1024 squeezes_S1x1x1024_S1x1024).view.set]{fullShare} f)
      ∗ (((wbuf.slice (Rect.unit (s := S128x1x1024) ![74, 0, 0] S1x1x1024.size inb_S128x1x1024_S1x1x1024_74_0_0) (fun _ => rfl)).squeeze S1x1024 squeezes_S1x1x1024_S1x1024).view.loc (c : Thread nD τ) ↦[((wbuf.slice (Rect.unit (s := S128x1x1024) ![74, 0, 0] S1x1x1024.size inb_S128x1x1024_S1x1x1024_74_0_0) (fun _ => rfl)).squeeze S1x1024 squeezes_S1x1x1024_S1x1024).view.set]{fullShare} f)
      ∗ (((wbuf.slice (Rect.unit (s := S128x1x1024) ![75, 0, 0] S1x1x1024.size inb_S128x1x1024_S1x1x1024_75_0_0) (fun _ => rfl)).squeeze S1x1024 squeezes_S1x1x1024_S1x1024).view.loc (c : Thread nD τ) ↦[((wbuf.slice (Rect.unit (s := S128x1x1024) ![75, 0, 0] S1x1x1024.size inb_S128x1x1024_S1x1x1024_75_0_0) (fun _ => rfl)).squeeze S1x1024 squeezes_S1x1x1024_S1x1024).view.set]{fullShare} f)
      ∗ (((wbuf.slice (Rect.unit (s := S128x1x1024) ![76, 0, 0] S1x1x1024.size inb_S128x1x1024_S1x1x1024_76_0_0) (fun _ => rfl)).squeeze S1x1024 squeezes_S1x1x1024_S1x1024).view.loc (c : Thread nD τ) ↦[((wbuf.slice (Rect.unit (s := S128x1x1024) ![76, 0, 0] S1x1x1024.size inb_S128x1x1024_S1x1x1024_76_0_0) (fun _ => rfl)).squeeze S1x1024 squeezes_S1x1x1024_S1x1024).view.set]{fullShare} f)
      ∗ (((wbuf.slice (Rect.unit (s := S128x1x1024) ![77, 0, 0] S1x1x1024.size inb_S128x1x1024_S1x1x1024_77_0_0) (fun _ => rfl)).squeeze S1x1024 squeezes_S1x1x1024_S1x1024).view.loc (c : Thread nD τ) ↦[((wbuf.slice (Rect.unit (s := S128x1x1024) ![77, 0, 0] S1x1x1024.size inb_S128x1x1024_S1x1x1024_77_0_0) (fun _ => rfl)).squeeze S1x1024 squeezes_S1x1x1024_S1x1024).view.set]{fullShare} f)
      ∗ (((wbuf.slice (Rect.unit (s := S128x1x1024) ![78, 0, 0] S1x1x1024.size inb_S128x1x1024_S1x1x1024_78_0_0) (fun _ => rfl)).squeeze S1x1024 squeezes_S1x1x1024_S1x1024).view.loc (c : Thread nD τ) ↦[((wbuf.slice (Rect.unit (s := S128x1x1024) ![78, 0, 0] S1x1x1024.size inb_S128x1x1024_S1x1x1024_78_0_0) (fun _ => rfl)).squeeze S1x1024 squeezes_S1x1x1024_S1x1024).view.set]{fullShare} f)
      ∗ (((wbuf.slice (Rect.unit (s := S128x1x1024) ![79, 0, 0] S1x1x1024.size inb_S128x1x1024_S1x1x1024_79_0_0) (fun _ => rfl)).squeeze S1x1024 squeezes_S1x1x1024_S1x1024).view.loc (c : Thread nD τ) ↦[((wbuf.slice (Rect.unit (s := S128x1x1024) ![79, 0, 0] S1x1x1024.size inb_S128x1x1024_S1x1x1024_79_0_0) (fun _ => rfl)).squeeze S1x1024 squeezes_S1x1x1024_S1x1024).view.set]{fullShare} f)
      ∗ (((wbuf.slice (Rect.unit (s := S128x1x1024) ![80, 0, 0] S1x1x1024.size inb_S128x1x1024_S1x1x1024_80_0_0) (fun _ => rfl)).squeeze S1x1024 squeezes_S1x1x1024_S1x1024).view.loc (c : Thread nD τ) ↦[((wbuf.slice (Rect.unit (s := S128x1x1024) ![80, 0, 0] S1x1x1024.size inb_S128x1x1024_S1x1x1024_80_0_0) (fun _ => rfl)).squeeze S1x1024 squeezes_S1x1x1024_S1x1024).view.set]{fullShare} f)
      ∗ (((wbuf.slice (Rect.unit (s := S128x1x1024) ![81, 0, 0] S1x1x1024.size inb_S128x1x1024_S1x1x1024_81_0_0) (fun _ => rfl)).squeeze S1x1024 squeezes_S1x1x1024_S1x1024).view.loc (c : Thread nD τ) ↦[((wbuf.slice (Rect.unit (s := S128x1x1024) ![81, 0, 0] S1x1x1024.size inb_S128x1x1024_S1x1x1024_81_0_0) (fun _ => rfl)).squeeze S1x1024 squeezes_S1x1x1024_S1x1024).view.set]{fullShare} f)
      ∗ (((wbuf.slice (Rect.unit (s := S128x1x1024) ![82, 0, 0] S1x1x1024.size inb_S128x1x1024_S1x1x1024_82_0_0) (fun _ => rfl)).squeeze S1x1024 squeezes_S1x1x1024_S1x1024).view.loc (c : Thread nD τ) ↦[((wbuf.slice (Rect.unit (s := S128x1x1024) ![82, 0, 0] S1x1x1024.size inb_S128x1x1024_S1x1x1024_82_0_0) (fun _ => rfl)).squeeze S1x1024 squeezes_S1x1x1024_S1x1024).view.set]{fullShare} f)
      ∗ (((wbuf.slice (Rect.unit (s := S128x1x1024) ![83, 0, 0] S1x1x1024.size inb_S128x1x1024_S1x1x1024_83_0_0) (fun _ => rfl)).squeeze S1x1024 squeezes_S1x1x1024_S1x1024).view.loc (c : Thread nD τ) ↦[((wbuf.slice (Rect.unit (s := S128x1x1024) ![83, 0, 0] S1x1x1024.size inb_S128x1x1024_S1x1x1024_83_0_0) (fun _ => rfl)).squeeze S1x1024 squeezes_S1x1x1024_S1x1024).view.set]{fullShare} f)
      ∗ (((wbuf.slice (Rect.unit (s := S128x1x1024) ![84, 0, 0] S1x1x1024.size inb_S128x1x1024_S1x1x1024_84_0_0) (fun _ => rfl)).squeeze S1x1024 squeezes_S1x1x1024_S1x1024).view.loc (c : Thread nD τ) ↦[((wbuf.slice (Rect.unit (s := S128x1x1024) ![84, 0, 0] S1x1x1024.size inb_S128x1x1024_S1x1x1024_84_0_0) (fun _ => rfl)).squeeze S1x1024 squeezes_S1x1x1024_S1x1024).view.set]{fullShare} f)
      ∗ (((wbuf.slice (Rect.unit (s := S128x1x1024) ![85, 0, 0] S1x1x1024.size inb_S128x1x1024_S1x1x1024_85_0_0) (fun _ => rfl)).squeeze S1x1024 squeezes_S1x1x1024_S1x1024).view.loc (c : Thread nD τ) ↦[((wbuf.slice (Rect.unit (s := S128x1x1024) ![85, 0, 0] S1x1x1024.size inb_S128x1x1024_S1x1x1024_85_0_0) (fun _ => rfl)).squeeze S1x1024 squeezes_S1x1x1024_S1x1024).view.set]{fullShare} f)
      ∗ (((wbuf.slice (Rect.unit (s := S128x1x1024) ![86, 0, 0] S1x1x1024.size inb_S128x1x1024_S1x1x1024_86_0_0) (fun _ => rfl)).squeeze S1x1024 squeezes_S1x1x1024_S1x1024).view.loc (c : Thread nD τ) ↦[((wbuf.slice (Rect.unit (s := S128x1x1024) ![86, 0, 0] S1x1x1024.size inb_S128x1x1024_S1x1x1024_86_0_0) (fun _ => rfl)).squeeze S1x1024 squeezes_S1x1x1024_S1x1024).view.set]{fullShare} f)
      ∗ (((wbuf.slice (Rect.unit (s := S128x1x1024) ![87, 0, 0] S1x1x1024.size inb_S128x1x1024_S1x1x1024_87_0_0) (fun _ => rfl)).squeeze S1x1024 squeezes_S1x1x1024_S1x1024).view.loc (c : Thread nD τ) ↦[((wbuf.slice (Rect.unit (s := S128x1x1024) ![87, 0, 0] S1x1x1024.size inb_S128x1x1024_S1x1x1024_87_0_0) (fun _ => rfl)).squeeze S1x1024 squeezes_S1x1x1024_S1x1024).view.set]{fullShare} f)
      ∗ (((wbuf.slice (Rect.unit (s := S128x1x1024) ![88, 0, 0] S1x1x1024.size inb_S128x1x1024_S1x1x1024_88_0_0) (fun _ => rfl)).squeeze S1x1024 squeezes_S1x1x1024_S1x1024).view.loc (c : Thread nD τ) ↦[((wbuf.slice (Rect.unit (s := S128x1x1024) ![88, 0, 0] S1x1x1024.size inb_S128x1x1024_S1x1x1024_88_0_0) (fun _ => rfl)).squeeze S1x1024 squeezes_S1x1x1024_S1x1024).view.set]{fullShare} f)
      ∗ (((wbuf.slice (Rect.unit (s := S128x1x1024) ![89, 0, 0] S1x1x1024.size inb_S128x1x1024_S1x1x1024_89_0_0) (fun _ => rfl)).squeeze S1x1024 squeezes_S1x1x1024_S1x1024).view.loc (c : Thread nD τ) ↦[((wbuf.slice (Rect.unit (s := S128x1x1024) ![89, 0, 0] S1x1x1024.size inb_S128x1x1024_S1x1x1024_89_0_0) (fun _ => rfl)).squeeze S1x1024 squeezes_S1x1x1024_S1x1024).view.set]{fullShare} f)
      ∗ (((wbuf.slice (Rect.unit (s := S128x1x1024) ![90, 0, 0] S1x1x1024.size inb_S128x1x1024_S1x1x1024_90_0_0) (fun _ => rfl)).squeeze S1x1024 squeezes_S1x1x1024_S1x1024).view.loc (c : Thread nD τ) ↦[((wbuf.slice (Rect.unit (s := S128x1x1024) ![90, 0, 0] S1x1x1024.size inb_S128x1x1024_S1x1x1024_90_0_0) (fun _ => rfl)).squeeze S1x1024 squeezes_S1x1x1024_S1x1024).view.set]{fullShare} f)
      ∗ (((wbuf.slice (Rect.unit (s := S128x1x1024) ![91, 0, 0] S1x1x1024.size inb_S128x1x1024_S1x1x1024_91_0_0) (fun _ => rfl)).squeeze S1x1024 squeezes_S1x1x1024_S1x1024).view.loc (c : Thread nD τ) ↦[((wbuf.slice (Rect.unit (s := S128x1x1024) ![91, 0, 0] S1x1x1024.size inb_S128x1x1024_S1x1x1024_91_0_0) (fun _ => rfl)).squeeze S1x1024 squeezes_S1x1x1024_S1x1024).view.set]{fullShare} f)
      ∗ (((wbuf.slice (Rect.unit (s := S128x1x1024) ![92, 0, 0] S1x1x1024.size inb_S128x1x1024_S1x1x1024_92_0_0) (fun _ => rfl)).squeeze S1x1024 squeezes_S1x1x1024_S1x1024).view.loc (c : Thread nD τ) ↦[((wbuf.slice (Rect.unit (s := S128x1x1024) ![92, 0, 0] S1x1x1024.size inb_S128x1x1024_S1x1x1024_92_0_0) (fun _ => rfl)).squeeze S1x1024 squeezes_S1x1x1024_S1x1024).view.set]{fullShare} f)
      ∗ (((wbuf.slice (Rect.unit (s := S128x1x1024) ![93, 0, 0] S1x1x1024.size inb_S128x1x1024_S1x1x1024_93_0_0) (fun _ => rfl)).squeeze S1x1024 squeezes_S1x1x1024_S1x1024).view.loc (c : Thread nD τ) ↦[((wbuf.slice (Rect.unit (s := S128x1x1024) ![93, 0, 0] S1x1x1024.size inb_S128x1x1024_S1x1x1024_93_0_0) (fun _ => rfl)).squeeze S1x1024 squeezes_S1x1x1024_S1x1024).view.set]{fullShare} f)
      ∗ (((wbuf.slice (Rect.unit (s := S128x1x1024) ![94, 0, 0] S1x1x1024.size inb_S128x1x1024_S1x1x1024_94_0_0) (fun _ => rfl)).squeeze S1x1024 squeezes_S1x1x1024_S1x1024).view.loc (c : Thread nD τ) ↦[((wbuf.slice (Rect.unit (s := S128x1x1024) ![94, 0, 0] S1x1x1024.size inb_S128x1x1024_S1x1x1024_94_0_0) (fun _ => rfl)).squeeze S1x1024 squeezes_S1x1x1024_S1x1024).view.set]{fullShare} f)
      ∗ (((wbuf.slice (Rect.unit (s := S128x1x1024) ![95, 0, 0] S1x1x1024.size inb_S128x1x1024_S1x1x1024_95_0_0) (fun _ => rfl)).squeeze S1x1024 squeezes_S1x1x1024_S1x1024).view.loc (c : Thread nD τ) ↦[((wbuf.slice (Rect.unit (s := S128x1x1024) ![95, 0, 0] S1x1x1024.size inb_S128x1x1024_S1x1x1024_95_0_0) (fun _ => rfl)).squeeze S1x1024 squeezes_S1x1x1024_S1x1024).view.set]{fullShare} f)
      ∗ (((wbuf.slice (Rect.unit (s := S128x1x1024) ![96, 0, 0] S1x1x1024.size inb_S128x1x1024_S1x1x1024_96_0_0) (fun _ => rfl)).squeeze S1x1024 squeezes_S1x1x1024_S1x1024).view.loc (c : Thread nD τ) ↦[((wbuf.slice (Rect.unit (s := S128x1x1024) ![96, 0, 0] S1x1x1024.size inb_S128x1x1024_S1x1x1024_96_0_0) (fun _ => rfl)).squeeze S1x1024 squeezes_S1x1x1024_S1x1024).view.set]{fullShare} f)
      ∗ (((wbuf.slice (Rect.unit (s := S128x1x1024) ![97, 0, 0] S1x1x1024.size inb_S128x1x1024_S1x1x1024_97_0_0) (fun _ => rfl)).squeeze S1x1024 squeezes_S1x1x1024_S1x1024).view.loc (c : Thread nD τ) ↦[((wbuf.slice (Rect.unit (s := S128x1x1024) ![97, 0, 0] S1x1x1024.size inb_S128x1x1024_S1x1x1024_97_0_0) (fun _ => rfl)).squeeze S1x1024 squeezes_S1x1x1024_S1x1024).view.set]{fullShare} f)
      ∗ (((wbuf.slice (Rect.unit (s := S128x1x1024) ![98, 0, 0] S1x1x1024.size inb_S128x1x1024_S1x1x1024_98_0_0) (fun _ => rfl)).squeeze S1x1024 squeezes_S1x1x1024_S1x1024).view.loc (c : Thread nD τ) ↦[((wbuf.slice (Rect.unit (s := S128x1x1024) ![98, 0, 0] S1x1x1024.size inb_S128x1x1024_S1x1x1024_98_0_0) (fun _ => rfl)).squeeze S1x1024 squeezes_S1x1x1024_S1x1024).view.set]{fullShare} f)
      ∗ (((wbuf.slice (Rect.unit (s := S128x1x1024) ![99, 0, 0] S1x1x1024.size inb_S128x1x1024_S1x1x1024_99_0_0) (fun _ => rfl)).squeeze S1x1024 squeezes_S1x1x1024_S1x1024).view.loc (c : Thread nD τ) ↦[((wbuf.slice (Rect.unit (s := S128x1x1024) ![99, 0, 0] S1x1x1024.size inb_S128x1x1024_S1x1x1024_99_0_0) (fun _ => rfl)).squeeze S1x1024 squeezes_S1x1x1024_S1x1024).view.set]{fullShare} f)
      ∗ (((wbuf.slice (Rect.unit (s := S128x1x1024) ![100, 0, 0] S1x1x1024.size inb_S128x1x1024_S1x1x1024_100_0_0) (fun _ => rfl)).squeeze S1x1024 squeezes_S1x1x1024_S1x1024).view.loc (c : Thread nD τ) ↦[((wbuf.slice (Rect.unit (s := S128x1x1024) ![100, 0, 0] S1x1x1024.size inb_S128x1x1024_S1x1x1024_100_0_0) (fun _ => rfl)).squeeze S1x1024 squeezes_S1x1x1024_S1x1024).view.set]{fullShare} f)
      ∗ (((wbuf.slice (Rect.unit (s := S128x1x1024) ![101, 0, 0] S1x1x1024.size inb_S128x1x1024_S1x1x1024_101_0_0) (fun _ => rfl)).squeeze S1x1024 squeezes_S1x1x1024_S1x1024).view.loc (c : Thread nD τ) ↦[((wbuf.slice (Rect.unit (s := S128x1x1024) ![101, 0, 0] S1x1x1024.size inb_S128x1x1024_S1x1x1024_101_0_0) (fun _ => rfl)).squeeze S1x1024 squeezes_S1x1x1024_S1x1024).view.set]{fullShare} f)
      ∗ (((wbuf.slice (Rect.unit (s := S128x1x1024) ![102, 0, 0] S1x1x1024.size inb_S128x1x1024_S1x1x1024_102_0_0) (fun _ => rfl)).squeeze S1x1024 squeezes_S1x1x1024_S1x1024).view.loc (c : Thread nD τ) ↦[((wbuf.slice (Rect.unit (s := S128x1x1024) ![102, 0, 0] S1x1x1024.size inb_S128x1x1024_S1x1x1024_102_0_0) (fun _ => rfl)).squeeze S1x1024 squeezes_S1x1x1024_S1x1024).view.set]{fullShare} f)
      ∗ (((wbuf.slice (Rect.unit (s := S128x1x1024) ![103, 0, 0] S1x1x1024.size inb_S128x1x1024_S1x1x1024_103_0_0) (fun _ => rfl)).squeeze S1x1024 squeezes_S1x1x1024_S1x1024).view.loc (c : Thread nD τ) ↦[((wbuf.slice (Rect.unit (s := S128x1x1024) ![103, 0, 0] S1x1x1024.size inb_S128x1x1024_S1x1x1024_103_0_0) (fun _ => rfl)).squeeze S1x1024 squeezes_S1x1x1024_S1x1024).view.set]{fullShare} f)
      ∗ (((wbuf.slice (Rect.unit (s := S128x1x1024) ![104, 0, 0] S1x1x1024.size inb_S128x1x1024_S1x1x1024_104_0_0) (fun _ => rfl)).squeeze S1x1024 squeezes_S1x1x1024_S1x1024).view.loc (c : Thread nD τ) ↦[((wbuf.slice (Rect.unit (s := S128x1x1024) ![104, 0, 0] S1x1x1024.size inb_S128x1x1024_S1x1x1024_104_0_0) (fun _ => rfl)).squeeze S1x1024 squeezes_S1x1x1024_S1x1024).view.set]{fullShare} f)
      ∗ (((wbuf.slice (Rect.unit (s := S128x1x1024) ![105, 0, 0] S1x1x1024.size inb_S128x1x1024_S1x1x1024_105_0_0) (fun _ => rfl)).squeeze S1x1024 squeezes_S1x1x1024_S1x1024).view.loc (c : Thread nD τ) ↦[((wbuf.slice (Rect.unit (s := S128x1x1024) ![105, 0, 0] S1x1x1024.size inb_S128x1x1024_S1x1x1024_105_0_0) (fun _ => rfl)).squeeze S1x1024 squeezes_S1x1x1024_S1x1024).view.set]{fullShare} f)
      ∗ (((wbuf.slice (Rect.unit (s := S128x1x1024) ![106, 0, 0] S1x1x1024.size inb_S128x1x1024_S1x1x1024_106_0_0) (fun _ => rfl)).squeeze S1x1024 squeezes_S1x1x1024_S1x1024).view.loc (c : Thread nD τ) ↦[((wbuf.slice (Rect.unit (s := S128x1x1024) ![106, 0, 0] S1x1x1024.size inb_S128x1x1024_S1x1x1024_106_0_0) (fun _ => rfl)).squeeze S1x1024 squeezes_S1x1x1024_S1x1024).view.set]{fullShare} f)
      ∗ (((wbuf.slice (Rect.unit (s := S128x1x1024) ![107, 0, 0] S1x1x1024.size inb_S128x1x1024_S1x1x1024_107_0_0) (fun _ => rfl)).squeeze S1x1024 squeezes_S1x1x1024_S1x1024).view.loc (c : Thread nD τ) ↦[((wbuf.slice (Rect.unit (s := S128x1x1024) ![107, 0, 0] S1x1x1024.size inb_S128x1x1024_S1x1x1024_107_0_0) (fun _ => rfl)).squeeze S1x1024 squeezes_S1x1x1024_S1x1024).view.set]{fullShare} f)
      ∗ (((wbuf.slice (Rect.unit (s := S128x1x1024) ![108, 0, 0] S1x1x1024.size inb_S128x1x1024_S1x1x1024_108_0_0) (fun _ => rfl)).squeeze S1x1024 squeezes_S1x1x1024_S1x1024).view.loc (c : Thread nD τ) ↦[((wbuf.slice (Rect.unit (s := S128x1x1024) ![108, 0, 0] S1x1x1024.size inb_S128x1x1024_S1x1x1024_108_0_0) (fun _ => rfl)).squeeze S1x1024 squeezes_S1x1x1024_S1x1024).view.set]{fullShare} f)
      ∗ (((wbuf.slice (Rect.unit (s := S128x1x1024) ![109, 0, 0] S1x1x1024.size inb_S128x1x1024_S1x1x1024_109_0_0) (fun _ => rfl)).squeeze S1x1024 squeezes_S1x1x1024_S1x1024).view.loc (c : Thread nD τ) ↦[((wbuf.slice (Rect.unit (s := S128x1x1024) ![109, 0, 0] S1x1x1024.size inb_S128x1x1024_S1x1x1024_109_0_0) (fun _ => rfl)).squeeze S1x1024 squeezes_S1x1x1024_S1x1024).view.set]{fullShare} f)
      ∗ (((wbuf.slice (Rect.unit (s := S128x1x1024) ![110, 0, 0] S1x1x1024.size inb_S128x1x1024_S1x1x1024_110_0_0) (fun _ => rfl)).squeeze S1x1024 squeezes_S1x1x1024_S1x1024).view.loc (c : Thread nD τ) ↦[((wbuf.slice (Rect.unit (s := S128x1x1024) ![110, 0, 0] S1x1x1024.size inb_S128x1x1024_S1x1x1024_110_0_0) (fun _ => rfl)).squeeze S1x1024 squeezes_S1x1x1024_S1x1024).view.set]{fullShare} f)
      ∗ (((wbuf.slice (Rect.unit (s := S128x1x1024) ![111, 0, 0] S1x1x1024.size inb_S128x1x1024_S1x1x1024_111_0_0) (fun _ => rfl)).squeeze S1x1024 squeezes_S1x1x1024_S1x1024).view.loc (c : Thread nD τ) ↦[((wbuf.slice (Rect.unit (s := S128x1x1024) ![111, 0, 0] S1x1x1024.size inb_S128x1x1024_S1x1x1024_111_0_0) (fun _ => rfl)).squeeze S1x1024 squeezes_S1x1x1024_S1x1024).view.set]{fullShare} f)
      ∗ (((wbuf.slice (Rect.unit (s := S128x1x1024) ![112, 0, 0] S1x1x1024.size inb_S128x1x1024_S1x1x1024_112_0_0) (fun _ => rfl)).squeeze S1x1024 squeezes_S1x1x1024_S1x1024).view.loc (c : Thread nD τ) ↦[((wbuf.slice (Rect.unit (s := S128x1x1024) ![112, 0, 0] S1x1x1024.size inb_S128x1x1024_S1x1x1024_112_0_0) (fun _ => rfl)).squeeze S1x1024 squeezes_S1x1x1024_S1x1024).view.set]{fullShare} f)
      ∗ (((wbuf.slice (Rect.unit (s := S128x1x1024) ![113, 0, 0] S1x1x1024.size inb_S128x1x1024_S1x1x1024_113_0_0) (fun _ => rfl)).squeeze S1x1024 squeezes_S1x1x1024_S1x1024).view.loc (c : Thread nD τ) ↦[((wbuf.slice (Rect.unit (s := S128x1x1024) ![113, 0, 0] S1x1x1024.size inb_S128x1x1024_S1x1x1024_113_0_0) (fun _ => rfl)).squeeze S1x1024 squeezes_S1x1x1024_S1x1024).view.set]{fullShare} f)
      ∗ (((wbuf.slice (Rect.unit (s := S128x1x1024) ![114, 0, 0] S1x1x1024.size inb_S128x1x1024_S1x1x1024_114_0_0) (fun _ => rfl)).squeeze S1x1024 squeezes_S1x1x1024_S1x1024).view.loc (c : Thread nD τ) ↦[((wbuf.slice (Rect.unit (s := S128x1x1024) ![114, 0, 0] S1x1x1024.size inb_S128x1x1024_S1x1x1024_114_0_0) (fun _ => rfl)).squeeze S1x1024 squeezes_S1x1x1024_S1x1024).view.set]{fullShare} f)
      ∗ (((wbuf.slice (Rect.unit (s := S128x1x1024) ![115, 0, 0] S1x1x1024.size inb_S128x1x1024_S1x1x1024_115_0_0) (fun _ => rfl)).squeeze S1x1024 squeezes_S1x1x1024_S1x1024).view.loc (c : Thread nD τ) ↦[((wbuf.slice (Rect.unit (s := S128x1x1024) ![115, 0, 0] S1x1x1024.size inb_S128x1x1024_S1x1x1024_115_0_0) (fun _ => rfl)).squeeze S1x1024 squeezes_S1x1x1024_S1x1024).view.set]{fullShare} f)
      ∗ (((wbuf.slice (Rect.unit (s := S128x1x1024) ![116, 0, 0] S1x1x1024.size inb_S128x1x1024_S1x1x1024_116_0_0) (fun _ => rfl)).squeeze S1x1024 squeezes_S1x1x1024_S1x1024).view.loc (c : Thread nD τ) ↦[((wbuf.slice (Rect.unit (s := S128x1x1024) ![116, 0, 0] S1x1x1024.size inb_S128x1x1024_S1x1x1024_116_0_0) (fun _ => rfl)).squeeze S1x1024 squeezes_S1x1x1024_S1x1024).view.set]{fullShare} f)
      ∗ (((wbuf.slice (Rect.unit (s := S128x1x1024) ![117, 0, 0] S1x1x1024.size inb_S128x1x1024_S1x1x1024_117_0_0) (fun _ => rfl)).squeeze S1x1024 squeezes_S1x1x1024_S1x1024).view.loc (c : Thread nD τ) ↦[((wbuf.slice (Rect.unit (s := S128x1x1024) ![117, 0, 0] S1x1x1024.size inb_S128x1x1024_S1x1x1024_117_0_0) (fun _ => rfl)).squeeze S1x1024 squeezes_S1x1x1024_S1x1024).view.set]{fullShare} f)
      ∗ (((wbuf.slice (Rect.unit (s := S128x1x1024) ![118, 0, 0] S1x1x1024.size inb_S128x1x1024_S1x1x1024_118_0_0) (fun _ => rfl)).squeeze S1x1024 squeezes_S1x1x1024_S1x1024).view.loc (c : Thread nD τ) ↦[((wbuf.slice (Rect.unit (s := S128x1x1024) ![118, 0, 0] S1x1x1024.size inb_S128x1x1024_S1x1x1024_118_0_0) (fun _ => rfl)).squeeze S1x1024 squeezes_S1x1x1024_S1x1024).view.set]{fullShare} f)
      ∗ (((wbuf.slice (Rect.unit (s := S128x1x1024) ![119, 0, 0] S1x1x1024.size inb_S128x1x1024_S1x1x1024_119_0_0) (fun _ => rfl)).squeeze S1x1024 squeezes_S1x1x1024_S1x1024).view.loc (c : Thread nD τ) ↦[((wbuf.slice (Rect.unit (s := S128x1x1024) ![119, 0, 0] S1x1x1024.size inb_S128x1x1024_S1x1x1024_119_0_0) (fun _ => rfl)).squeeze S1x1024 squeezes_S1x1x1024_S1x1024).view.set]{fullShare} f)
      ∗ (((wbuf.slice (Rect.unit (s := S128x1x1024) ![120, 0, 0] S1x1x1024.size inb_S128x1x1024_S1x1x1024_120_0_0) (fun _ => rfl)).squeeze S1x1024 squeezes_S1x1x1024_S1x1024).view.loc (c : Thread nD τ) ↦[((wbuf.slice (Rect.unit (s := S128x1x1024) ![120, 0, 0] S1x1x1024.size inb_S128x1x1024_S1x1x1024_120_0_0) (fun _ => rfl)).squeeze S1x1024 squeezes_S1x1x1024_S1x1024).view.set]{fullShare} f)
      ∗ (((wbuf.slice (Rect.unit (s := S128x1x1024) ![121, 0, 0] S1x1x1024.size inb_S128x1x1024_S1x1x1024_121_0_0) (fun _ => rfl)).squeeze S1x1024 squeezes_S1x1x1024_S1x1024).view.loc (c : Thread nD τ) ↦[((wbuf.slice (Rect.unit (s := S128x1x1024) ![121, 0, 0] S1x1x1024.size inb_S128x1x1024_S1x1x1024_121_0_0) (fun _ => rfl)).squeeze S1x1024 squeezes_S1x1x1024_S1x1024).view.set]{fullShare} f)
      ∗ (((wbuf.slice (Rect.unit (s := S128x1x1024) ![122, 0, 0] S1x1x1024.size inb_S128x1x1024_S1x1x1024_122_0_0) (fun _ => rfl)).squeeze S1x1024 squeezes_S1x1x1024_S1x1024).view.loc (c : Thread nD τ) ↦[((wbuf.slice (Rect.unit (s := S128x1x1024) ![122, 0, 0] S1x1x1024.size inb_S128x1x1024_S1x1x1024_122_0_0) (fun _ => rfl)).squeeze S1x1024 squeezes_S1x1x1024_S1x1024).view.set]{fullShare} f)
      ∗ (((wbuf.slice (Rect.unit (s := S128x1x1024) ![123, 0, 0] S1x1x1024.size inb_S128x1x1024_S1x1x1024_123_0_0) (fun _ => rfl)).squeeze S1x1024 squeezes_S1x1x1024_S1x1024).view.loc (c : Thread nD τ) ↦[((wbuf.slice (Rect.unit (s := S128x1x1024) ![123, 0, 0] S1x1x1024.size inb_S128x1x1024_S1x1x1024_123_0_0) (fun _ => rfl)).squeeze S1x1024 squeezes_S1x1x1024_S1x1024).view.set]{fullShare} f)
      ∗ (((wbuf.slice (Rect.unit (s := S128x1x1024) ![124, 0, 0] S1x1x1024.size inb_S128x1x1024_S1x1x1024_124_0_0) (fun _ => rfl)).squeeze S1x1024 squeezes_S1x1x1024_S1x1024).view.loc (c : Thread nD τ) ↦[((wbuf.slice (Rect.unit (s := S128x1x1024) ![124, 0, 0] S1x1x1024.size inb_S128x1x1024_S1x1x1024_124_0_0) (fun _ => rfl)).squeeze S1x1024 squeezes_S1x1x1024_S1x1024).view.set]{fullShare} f)
      ∗ (((wbuf.slice (Rect.unit (s := S128x1x1024) ![125, 0, 0] S1x1x1024.size inb_S128x1x1024_S1x1x1024_125_0_0) (fun _ => rfl)).squeeze S1x1024 squeezes_S1x1x1024_S1x1024).view.loc (c : Thread nD τ) ↦[((wbuf.slice (Rect.unit (s := S128x1x1024) ![125, 0, 0] S1x1x1024.size inb_S128x1x1024_S1x1x1024_125_0_0) (fun _ => rfl)).squeeze S1x1024 squeezes_S1x1x1024_S1x1024).view.set]{fullShare} f)
      ∗ (((wbuf.slice (Rect.unit (s := S128x1x1024) ![126, 0, 0] S1x1x1024.size inb_S128x1x1024_S1x1x1024_126_0_0) (fun _ => rfl)).squeeze S1x1024 squeezes_S1x1x1024_S1x1024).view.loc (c : Thread nD τ) ↦[((wbuf.slice (Rect.unit (s := S128x1x1024) ![126, 0, 0] S1x1x1024.size inb_S128x1x1024_S1x1x1024_126_0_0) (fun _ => rfl)).squeeze S1x1024 squeezes_S1x1x1024_S1x1024).view.set]{fullShare} f)
      ∗ (((wbuf.slice (Rect.unit (s := S128x1x1024) ![127, 0, 0] S1x1x1024.size inb_S128x1x1024_S1x1x1024_127_0_0) (fun _ => rfl)).squeeze S1x1024 squeezes_S1x1x1024_S1x1024).view.loc (c : Thread nD τ) ↦[((wbuf.slice (Rect.unit (s := S128x1x1024) ![127, 0, 0] S1x1x1024.size inb_S128x1x1024_S1x1x1024_127_0_0) (fun _ => rfl)).squeeze S1x1024 squeezes_S1x1x1024_S1x1024).view.set]{fullShare} f)) := by
  have h := (wbuf_rows_big c f).trans
    (bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List (Fin 128)) (by decide +kernel) (by decide +kernel)
      (fun j : Fin 128 => ((rowW j).view.loc (c : Thread nD τ) ↦[(rowW j).view.set]{fullShare} f : sProp 𝕄)))
  exact ⟨Entails.of_eq h, Entails.of_eq h.symm⟩

set_option maxHeartbeats 8000000 in
/-- The scale row buffer likewise. -/
theorem sbuf_rows (c : Dev nD) (f : BufOf (F := F) c sbuf) :
    (ptAt c sbuf fullShare f : sProp 𝕄) ⊣⊢ iprop(
      (((sbuf.slice (Rect.unit (s := S128x1x128) ![0, 0, 0] S1x1x128.size inb_S128x1x128_S1x1x128_0_0_0) (fun _ => rfl)).squeeze S1x128 squeezes_S1x1x128_S1x128).view.loc (c : Thread nD τ) ↦[((sbuf.slice (Rect.unit (s := S128x1x128) ![0, 0, 0] S1x1x128.size inb_S128x1x128_S1x1x128_0_0_0) (fun _ => rfl)).squeeze S1x128 squeezes_S1x1x128_S1x128).view.set]{fullShare} f)
      ∗ (((sbuf.slice (Rect.unit (s := S128x1x128) ![1, 0, 0] S1x1x128.size inb_S128x1x128_S1x1x128_1_0_0) (fun _ => rfl)).squeeze S1x128 squeezes_S1x1x128_S1x128).view.loc (c : Thread nD τ) ↦[((sbuf.slice (Rect.unit (s := S128x1x128) ![1, 0, 0] S1x1x128.size inb_S128x1x128_S1x1x128_1_0_0) (fun _ => rfl)).squeeze S1x128 squeezes_S1x1x128_S1x128).view.set]{fullShare} f)
      ∗ (((sbuf.slice (Rect.unit (s := S128x1x128) ![2, 0, 0] S1x1x128.size inb_S128x1x128_S1x1x128_2_0_0) (fun _ => rfl)).squeeze S1x128 squeezes_S1x1x128_S1x128).view.loc (c : Thread nD τ) ↦[((sbuf.slice (Rect.unit (s := S128x1x128) ![2, 0, 0] S1x1x128.size inb_S128x1x128_S1x1x128_2_0_0) (fun _ => rfl)).squeeze S1x128 squeezes_S1x1x128_S1x128).view.set]{fullShare} f)
      ∗ (((sbuf.slice (Rect.unit (s := S128x1x128) ![3, 0, 0] S1x1x128.size inb_S128x1x128_S1x1x128_3_0_0) (fun _ => rfl)).squeeze S1x128 squeezes_S1x1x128_S1x128).view.loc (c : Thread nD τ) ↦[((sbuf.slice (Rect.unit (s := S128x1x128) ![3, 0, 0] S1x1x128.size inb_S128x1x128_S1x1x128_3_0_0) (fun _ => rfl)).squeeze S1x128 squeezes_S1x1x128_S1x128).view.set]{fullShare} f)
      ∗ (((sbuf.slice (Rect.unit (s := S128x1x128) ![4, 0, 0] S1x1x128.size inb_S128x1x128_S1x1x128_4_0_0) (fun _ => rfl)).squeeze S1x128 squeezes_S1x1x128_S1x128).view.loc (c : Thread nD τ) ↦[((sbuf.slice (Rect.unit (s := S128x1x128) ![4, 0, 0] S1x1x128.size inb_S128x1x128_S1x1x128_4_0_0) (fun _ => rfl)).squeeze S1x128 squeezes_S1x1x128_S1x128).view.set]{fullShare} f)
      ∗ (((sbuf.slice (Rect.unit (s := S128x1x128) ![5, 0, 0] S1x1x128.size inb_S128x1x128_S1x1x128_5_0_0) (fun _ => rfl)).squeeze S1x128 squeezes_S1x1x128_S1x128).view.loc (c : Thread nD τ) ↦[((sbuf.slice (Rect.unit (s := S128x1x128) ![5, 0, 0] S1x1x128.size inb_S128x1x128_S1x1x128_5_0_0) (fun _ => rfl)).squeeze S1x128 squeezes_S1x1x128_S1x128).view.set]{fullShare} f)
      ∗ (((sbuf.slice (Rect.unit (s := S128x1x128) ![6, 0, 0] S1x1x128.size inb_S128x1x128_S1x1x128_6_0_0) (fun _ => rfl)).squeeze S1x128 squeezes_S1x1x128_S1x128).view.loc (c : Thread nD τ) ↦[((sbuf.slice (Rect.unit (s := S128x1x128) ![6, 0, 0] S1x1x128.size inb_S128x1x128_S1x1x128_6_0_0) (fun _ => rfl)).squeeze S1x128 squeezes_S1x1x128_S1x128).view.set]{fullShare} f)
      ∗ (((sbuf.slice (Rect.unit (s := S128x1x128) ![7, 0, 0] S1x1x128.size inb_S128x1x128_S1x1x128_7_0_0) (fun _ => rfl)).squeeze S1x128 squeezes_S1x1x128_S1x128).view.loc (c : Thread nD τ) ↦[((sbuf.slice (Rect.unit (s := S128x1x128) ![7, 0, 0] S1x1x128.size inb_S128x1x128_S1x1x128_7_0_0) (fun _ => rfl)).squeeze S1x128 squeezes_S1x1x128_S1x128).view.set]{fullShare} f)
      ∗ (((sbuf.slice (Rect.unit (s := S128x1x128) ![8, 0, 0] S1x1x128.size inb_S128x1x128_S1x1x128_8_0_0) (fun _ => rfl)).squeeze S1x128 squeezes_S1x1x128_S1x128).view.loc (c : Thread nD τ) ↦[((sbuf.slice (Rect.unit (s := S128x1x128) ![8, 0, 0] S1x1x128.size inb_S128x1x128_S1x1x128_8_0_0) (fun _ => rfl)).squeeze S1x128 squeezes_S1x1x128_S1x128).view.set]{fullShare} f)
      ∗ (((sbuf.slice (Rect.unit (s := S128x1x128) ![9, 0, 0] S1x1x128.size inb_S128x1x128_S1x1x128_9_0_0) (fun _ => rfl)).squeeze S1x128 squeezes_S1x1x128_S1x128).view.loc (c : Thread nD τ) ↦[((sbuf.slice (Rect.unit (s := S128x1x128) ![9, 0, 0] S1x1x128.size inb_S128x1x128_S1x1x128_9_0_0) (fun _ => rfl)).squeeze S1x128 squeezes_S1x1x128_S1x128).view.set]{fullShare} f)
      ∗ (((sbuf.slice (Rect.unit (s := S128x1x128) ![10, 0, 0] S1x1x128.size inb_S128x1x128_S1x1x128_10_0_0) (fun _ => rfl)).squeeze S1x128 squeezes_S1x1x128_S1x128).view.loc (c : Thread nD τ) ↦[((sbuf.slice (Rect.unit (s := S128x1x128) ![10, 0, 0] S1x1x128.size inb_S128x1x128_S1x1x128_10_0_0) (fun _ => rfl)).squeeze S1x128 squeezes_S1x1x128_S1x128).view.set]{fullShare} f)
      ∗ (((sbuf.slice (Rect.unit (s := S128x1x128) ![11, 0, 0] S1x1x128.size inb_S128x1x128_S1x1x128_11_0_0) (fun _ => rfl)).squeeze S1x128 squeezes_S1x1x128_S1x128).view.loc (c : Thread nD τ) ↦[((sbuf.slice (Rect.unit (s := S128x1x128) ![11, 0, 0] S1x1x128.size inb_S128x1x128_S1x1x128_11_0_0) (fun _ => rfl)).squeeze S1x128 squeezes_S1x1x128_S1x128).view.set]{fullShare} f)
      ∗ (((sbuf.slice (Rect.unit (s := S128x1x128) ![12, 0, 0] S1x1x128.size inb_S128x1x128_S1x1x128_12_0_0) (fun _ => rfl)).squeeze S1x128 squeezes_S1x1x128_S1x128).view.loc (c : Thread nD τ) ↦[((sbuf.slice (Rect.unit (s := S128x1x128) ![12, 0, 0] S1x1x128.size inb_S128x1x128_S1x1x128_12_0_0) (fun _ => rfl)).squeeze S1x128 squeezes_S1x1x128_S1x128).view.set]{fullShare} f)
      ∗ (((sbuf.slice (Rect.unit (s := S128x1x128) ![13, 0, 0] S1x1x128.size inb_S128x1x128_S1x1x128_13_0_0) (fun _ => rfl)).squeeze S1x128 squeezes_S1x1x128_S1x128).view.loc (c : Thread nD τ) ↦[((sbuf.slice (Rect.unit (s := S128x1x128) ![13, 0, 0] S1x1x128.size inb_S128x1x128_S1x1x128_13_0_0) (fun _ => rfl)).squeeze S1x128 squeezes_S1x1x128_S1x128).view.set]{fullShare} f)
      ∗ (((sbuf.slice (Rect.unit (s := S128x1x128) ![14, 0, 0] S1x1x128.size inb_S128x1x128_S1x1x128_14_0_0) (fun _ => rfl)).squeeze S1x128 squeezes_S1x1x128_S1x128).view.loc (c : Thread nD τ) ↦[((sbuf.slice (Rect.unit (s := S128x1x128) ![14, 0, 0] S1x1x128.size inb_S128x1x128_S1x1x128_14_0_0) (fun _ => rfl)).squeeze S1x128 squeezes_S1x1x128_S1x128).view.set]{fullShare} f)
      ∗ (((sbuf.slice (Rect.unit (s := S128x1x128) ![15, 0, 0] S1x1x128.size inb_S128x1x128_S1x1x128_15_0_0) (fun _ => rfl)).squeeze S1x128 squeezes_S1x1x128_S1x128).view.loc (c : Thread nD τ) ↦[((sbuf.slice (Rect.unit (s := S128x1x128) ![15, 0, 0] S1x1x128.size inb_S128x1x128_S1x1x128_15_0_0) (fun _ => rfl)).squeeze S1x128 squeezes_S1x1x128_S1x128).view.set]{fullShare} f)
      ∗ (((sbuf.slice (Rect.unit (s := S128x1x128) ![16, 0, 0] S1x1x128.size inb_S128x1x128_S1x1x128_16_0_0) (fun _ => rfl)).squeeze S1x128 squeezes_S1x1x128_S1x128).view.loc (c : Thread nD τ) ↦[((sbuf.slice (Rect.unit (s := S128x1x128) ![16, 0, 0] S1x1x128.size inb_S128x1x128_S1x1x128_16_0_0) (fun _ => rfl)).squeeze S1x128 squeezes_S1x1x128_S1x128).view.set]{fullShare} f)
      ∗ (((sbuf.slice (Rect.unit (s := S128x1x128) ![17, 0, 0] S1x1x128.size inb_S128x1x128_S1x1x128_17_0_0) (fun _ => rfl)).squeeze S1x128 squeezes_S1x1x128_S1x128).view.loc (c : Thread nD τ) ↦[((sbuf.slice (Rect.unit (s := S128x1x128) ![17, 0, 0] S1x1x128.size inb_S128x1x128_S1x1x128_17_0_0) (fun _ => rfl)).squeeze S1x128 squeezes_S1x1x128_S1x128).view.set]{fullShare} f)
      ∗ (((sbuf.slice (Rect.unit (s := S128x1x128) ![18, 0, 0] S1x1x128.size inb_S128x1x128_S1x1x128_18_0_0) (fun _ => rfl)).squeeze S1x128 squeezes_S1x1x128_S1x128).view.loc (c : Thread nD τ) ↦[((sbuf.slice (Rect.unit (s := S128x1x128) ![18, 0, 0] S1x1x128.size inb_S128x1x128_S1x1x128_18_0_0) (fun _ => rfl)).squeeze S1x128 squeezes_S1x1x128_S1x128).view.set]{fullShare} f)
      ∗ (((sbuf.slice (Rect.unit (s := S128x1x128) ![19, 0, 0] S1x1x128.size inb_S128x1x128_S1x1x128_19_0_0) (fun _ => rfl)).squeeze S1x128 squeezes_S1x1x128_S1x128).view.loc (c : Thread nD τ) ↦[((sbuf.slice (Rect.unit (s := S128x1x128) ![19, 0, 0] S1x1x128.size inb_S128x1x128_S1x1x128_19_0_0) (fun _ => rfl)).squeeze S1x128 squeezes_S1x1x128_S1x128).view.set]{fullShare} f)
      ∗ (((sbuf.slice (Rect.unit (s := S128x1x128) ![20, 0, 0] S1x1x128.size inb_S128x1x128_S1x1x128_20_0_0) (fun _ => rfl)).squeeze S1x128 squeezes_S1x1x128_S1x128).view.loc (c : Thread nD τ) ↦[((sbuf.slice (Rect.unit (s := S128x1x128) ![20, 0, 0] S1x1x128.size inb_S128x1x128_S1x1x128_20_0_0) (fun _ => rfl)).squeeze S1x128 squeezes_S1x1x128_S1x128).view.set]{fullShare} f)
      ∗ (((sbuf.slice (Rect.unit (s := S128x1x128) ![21, 0, 0] S1x1x128.size inb_S128x1x128_S1x1x128_21_0_0) (fun _ => rfl)).squeeze S1x128 squeezes_S1x1x128_S1x128).view.loc (c : Thread nD τ) ↦[((sbuf.slice (Rect.unit (s := S128x1x128) ![21, 0, 0] S1x1x128.size inb_S128x1x128_S1x1x128_21_0_0) (fun _ => rfl)).squeeze S1x128 squeezes_S1x1x128_S1x128).view.set]{fullShare} f)
      ∗ (((sbuf.slice (Rect.unit (s := S128x1x128) ![22, 0, 0] S1x1x128.size inb_S128x1x128_S1x1x128_22_0_0) (fun _ => rfl)).squeeze S1x128 squeezes_S1x1x128_S1x128).view.loc (c : Thread nD τ) ↦[((sbuf.slice (Rect.unit (s := S128x1x128) ![22, 0, 0] S1x1x128.size inb_S128x1x128_S1x1x128_22_0_0) (fun _ => rfl)).squeeze S1x128 squeezes_S1x1x128_S1x128).view.set]{fullShare} f)
      ∗ (((sbuf.slice (Rect.unit (s := S128x1x128) ![23, 0, 0] S1x1x128.size inb_S128x1x128_S1x1x128_23_0_0) (fun _ => rfl)).squeeze S1x128 squeezes_S1x1x128_S1x128).view.loc (c : Thread nD τ) ↦[((sbuf.slice (Rect.unit (s := S128x1x128) ![23, 0, 0] S1x1x128.size inb_S128x1x128_S1x1x128_23_0_0) (fun _ => rfl)).squeeze S1x128 squeezes_S1x1x128_S1x128).view.set]{fullShare} f)
      ∗ (((sbuf.slice (Rect.unit (s := S128x1x128) ![24, 0, 0] S1x1x128.size inb_S128x1x128_S1x1x128_24_0_0) (fun _ => rfl)).squeeze S1x128 squeezes_S1x1x128_S1x128).view.loc (c : Thread nD τ) ↦[((sbuf.slice (Rect.unit (s := S128x1x128) ![24, 0, 0] S1x1x128.size inb_S128x1x128_S1x1x128_24_0_0) (fun _ => rfl)).squeeze S1x128 squeezes_S1x1x128_S1x128).view.set]{fullShare} f)
      ∗ (((sbuf.slice (Rect.unit (s := S128x1x128) ![25, 0, 0] S1x1x128.size inb_S128x1x128_S1x1x128_25_0_0) (fun _ => rfl)).squeeze S1x128 squeezes_S1x1x128_S1x128).view.loc (c : Thread nD τ) ↦[((sbuf.slice (Rect.unit (s := S128x1x128) ![25, 0, 0] S1x1x128.size inb_S128x1x128_S1x1x128_25_0_0) (fun _ => rfl)).squeeze S1x128 squeezes_S1x1x128_S1x128).view.set]{fullShare} f)
      ∗ (((sbuf.slice (Rect.unit (s := S128x1x128) ![26, 0, 0] S1x1x128.size inb_S128x1x128_S1x1x128_26_0_0) (fun _ => rfl)).squeeze S1x128 squeezes_S1x1x128_S1x128).view.loc (c : Thread nD τ) ↦[((sbuf.slice (Rect.unit (s := S128x1x128) ![26, 0, 0] S1x1x128.size inb_S128x1x128_S1x1x128_26_0_0) (fun _ => rfl)).squeeze S1x128 squeezes_S1x1x128_S1x128).view.set]{fullShare} f)
      ∗ (((sbuf.slice (Rect.unit (s := S128x1x128) ![27, 0, 0] S1x1x128.size inb_S128x1x128_S1x1x128_27_0_0) (fun _ => rfl)).squeeze S1x128 squeezes_S1x1x128_S1x128).view.loc (c : Thread nD τ) ↦[((sbuf.slice (Rect.unit (s := S128x1x128) ![27, 0, 0] S1x1x128.size inb_S128x1x128_S1x1x128_27_0_0) (fun _ => rfl)).squeeze S1x128 squeezes_S1x1x128_S1x128).view.set]{fullShare} f)
      ∗ (((sbuf.slice (Rect.unit (s := S128x1x128) ![28, 0, 0] S1x1x128.size inb_S128x1x128_S1x1x128_28_0_0) (fun _ => rfl)).squeeze S1x128 squeezes_S1x1x128_S1x128).view.loc (c : Thread nD τ) ↦[((sbuf.slice (Rect.unit (s := S128x1x128) ![28, 0, 0] S1x1x128.size inb_S128x1x128_S1x1x128_28_0_0) (fun _ => rfl)).squeeze S1x128 squeezes_S1x1x128_S1x128).view.set]{fullShare} f)
      ∗ (((sbuf.slice (Rect.unit (s := S128x1x128) ![29, 0, 0] S1x1x128.size inb_S128x1x128_S1x1x128_29_0_0) (fun _ => rfl)).squeeze S1x128 squeezes_S1x1x128_S1x128).view.loc (c : Thread nD τ) ↦[((sbuf.slice (Rect.unit (s := S128x1x128) ![29, 0, 0] S1x1x128.size inb_S128x1x128_S1x1x128_29_0_0) (fun _ => rfl)).squeeze S1x128 squeezes_S1x1x128_S1x128).view.set]{fullShare} f)
      ∗ (((sbuf.slice (Rect.unit (s := S128x1x128) ![30, 0, 0] S1x1x128.size inb_S128x1x128_S1x1x128_30_0_0) (fun _ => rfl)).squeeze S1x128 squeezes_S1x1x128_S1x128).view.loc (c : Thread nD τ) ↦[((sbuf.slice (Rect.unit (s := S128x1x128) ![30, 0, 0] S1x1x128.size inb_S128x1x128_S1x1x128_30_0_0) (fun _ => rfl)).squeeze S1x128 squeezes_S1x1x128_S1x128).view.set]{fullShare} f)
      ∗ (((sbuf.slice (Rect.unit (s := S128x1x128) ![31, 0, 0] S1x1x128.size inb_S128x1x128_S1x1x128_31_0_0) (fun _ => rfl)).squeeze S1x128 squeezes_S1x1x128_S1x128).view.loc (c : Thread nD τ) ↦[((sbuf.slice (Rect.unit (s := S128x1x128) ![31, 0, 0] S1x1x128.size inb_S128x1x128_S1x1x128_31_0_0) (fun _ => rfl)).squeeze S1x128 squeezes_S1x1x128_S1x128).view.set]{fullShare} f)
      ∗ (((sbuf.slice (Rect.unit (s := S128x1x128) ![32, 0, 0] S1x1x128.size inb_S128x1x128_S1x1x128_32_0_0) (fun _ => rfl)).squeeze S1x128 squeezes_S1x1x128_S1x128).view.loc (c : Thread nD τ) ↦[((sbuf.slice (Rect.unit (s := S128x1x128) ![32, 0, 0] S1x1x128.size inb_S128x1x128_S1x1x128_32_0_0) (fun _ => rfl)).squeeze S1x128 squeezes_S1x1x128_S1x128).view.set]{fullShare} f)
      ∗ (((sbuf.slice (Rect.unit (s := S128x1x128) ![33, 0, 0] S1x1x128.size inb_S128x1x128_S1x1x128_33_0_0) (fun _ => rfl)).squeeze S1x128 squeezes_S1x1x128_S1x128).view.loc (c : Thread nD τ) ↦[((sbuf.slice (Rect.unit (s := S128x1x128) ![33, 0, 0] S1x1x128.size inb_S128x1x128_S1x1x128_33_0_0) (fun _ => rfl)).squeeze S1x128 squeezes_S1x1x128_S1x128).view.set]{fullShare} f)
      ∗ (((sbuf.slice (Rect.unit (s := S128x1x128) ![34, 0, 0] S1x1x128.size inb_S128x1x128_S1x1x128_34_0_0) (fun _ => rfl)).squeeze S1x128 squeezes_S1x1x128_S1x128).view.loc (c : Thread nD τ) ↦[((sbuf.slice (Rect.unit (s := S128x1x128) ![34, 0, 0] S1x1x128.size inb_S128x1x128_S1x1x128_34_0_0) (fun _ => rfl)).squeeze S1x128 squeezes_S1x1x128_S1x128).view.set]{fullShare} f)
      ∗ (((sbuf.slice (Rect.unit (s := S128x1x128) ![35, 0, 0] S1x1x128.size inb_S128x1x128_S1x1x128_35_0_0) (fun _ => rfl)).squeeze S1x128 squeezes_S1x1x128_S1x128).view.loc (c : Thread nD τ) ↦[((sbuf.slice (Rect.unit (s := S128x1x128) ![35, 0, 0] S1x1x128.size inb_S128x1x128_S1x1x128_35_0_0) (fun _ => rfl)).squeeze S1x128 squeezes_S1x1x128_S1x128).view.set]{fullShare} f)
      ∗ (((sbuf.slice (Rect.unit (s := S128x1x128) ![36, 0, 0] S1x1x128.size inb_S128x1x128_S1x1x128_36_0_0) (fun _ => rfl)).squeeze S1x128 squeezes_S1x1x128_S1x128).view.loc (c : Thread nD τ) ↦[((sbuf.slice (Rect.unit (s := S128x1x128) ![36, 0, 0] S1x1x128.size inb_S128x1x128_S1x1x128_36_0_0) (fun _ => rfl)).squeeze S1x128 squeezes_S1x1x128_S1x128).view.set]{fullShare} f)
      ∗ (((sbuf.slice (Rect.unit (s := S128x1x128) ![37, 0, 0] S1x1x128.size inb_S128x1x128_S1x1x128_37_0_0) (fun _ => rfl)).squeeze S1x128 squeezes_S1x1x128_S1x128).view.loc (c : Thread nD τ) ↦[((sbuf.slice (Rect.unit (s := S128x1x128) ![37, 0, 0] S1x1x128.size inb_S128x1x128_S1x1x128_37_0_0) (fun _ => rfl)).squeeze S1x128 squeezes_S1x1x128_S1x128).view.set]{fullShare} f)
      ∗ (((sbuf.slice (Rect.unit (s := S128x1x128) ![38, 0, 0] S1x1x128.size inb_S128x1x128_S1x1x128_38_0_0) (fun _ => rfl)).squeeze S1x128 squeezes_S1x1x128_S1x128).view.loc (c : Thread nD τ) ↦[((sbuf.slice (Rect.unit (s := S128x1x128) ![38, 0, 0] S1x1x128.size inb_S128x1x128_S1x1x128_38_0_0) (fun _ => rfl)).squeeze S1x128 squeezes_S1x1x128_S1x128).view.set]{fullShare} f)
      ∗ (((sbuf.slice (Rect.unit (s := S128x1x128) ![39, 0, 0] S1x1x128.size inb_S128x1x128_S1x1x128_39_0_0) (fun _ => rfl)).squeeze S1x128 squeezes_S1x1x128_S1x128).view.loc (c : Thread nD τ) ↦[((sbuf.slice (Rect.unit (s := S128x1x128) ![39, 0, 0] S1x1x128.size inb_S128x1x128_S1x1x128_39_0_0) (fun _ => rfl)).squeeze S1x128 squeezes_S1x1x128_S1x128).view.set]{fullShare} f)
      ∗ (((sbuf.slice (Rect.unit (s := S128x1x128) ![40, 0, 0] S1x1x128.size inb_S128x1x128_S1x1x128_40_0_0) (fun _ => rfl)).squeeze S1x128 squeezes_S1x1x128_S1x128).view.loc (c : Thread nD τ) ↦[((sbuf.slice (Rect.unit (s := S128x1x128) ![40, 0, 0] S1x1x128.size inb_S128x1x128_S1x1x128_40_0_0) (fun _ => rfl)).squeeze S1x128 squeezes_S1x1x128_S1x128).view.set]{fullShare} f)
      ∗ (((sbuf.slice (Rect.unit (s := S128x1x128) ![41, 0, 0] S1x1x128.size inb_S128x1x128_S1x1x128_41_0_0) (fun _ => rfl)).squeeze S1x128 squeezes_S1x1x128_S1x128).view.loc (c : Thread nD τ) ↦[((sbuf.slice (Rect.unit (s := S128x1x128) ![41, 0, 0] S1x1x128.size inb_S128x1x128_S1x1x128_41_0_0) (fun _ => rfl)).squeeze S1x128 squeezes_S1x1x128_S1x128).view.set]{fullShare} f)
      ∗ (((sbuf.slice (Rect.unit (s := S128x1x128) ![42, 0, 0] S1x1x128.size inb_S128x1x128_S1x1x128_42_0_0) (fun _ => rfl)).squeeze S1x128 squeezes_S1x1x128_S1x128).view.loc (c : Thread nD τ) ↦[((sbuf.slice (Rect.unit (s := S128x1x128) ![42, 0, 0] S1x1x128.size inb_S128x1x128_S1x1x128_42_0_0) (fun _ => rfl)).squeeze S1x128 squeezes_S1x1x128_S1x128).view.set]{fullShare} f)
      ∗ (((sbuf.slice (Rect.unit (s := S128x1x128) ![43, 0, 0] S1x1x128.size inb_S128x1x128_S1x1x128_43_0_0) (fun _ => rfl)).squeeze S1x128 squeezes_S1x1x128_S1x128).view.loc (c : Thread nD τ) ↦[((sbuf.slice (Rect.unit (s := S128x1x128) ![43, 0, 0] S1x1x128.size inb_S128x1x128_S1x1x128_43_0_0) (fun _ => rfl)).squeeze S1x128 squeezes_S1x1x128_S1x128).view.set]{fullShare} f)
      ∗ (((sbuf.slice (Rect.unit (s := S128x1x128) ![44, 0, 0] S1x1x128.size inb_S128x1x128_S1x1x128_44_0_0) (fun _ => rfl)).squeeze S1x128 squeezes_S1x1x128_S1x128).view.loc (c : Thread nD τ) ↦[((sbuf.slice (Rect.unit (s := S128x1x128) ![44, 0, 0] S1x1x128.size inb_S128x1x128_S1x1x128_44_0_0) (fun _ => rfl)).squeeze S1x128 squeezes_S1x1x128_S1x128).view.set]{fullShare} f)
      ∗ (((sbuf.slice (Rect.unit (s := S128x1x128) ![45, 0, 0] S1x1x128.size inb_S128x1x128_S1x1x128_45_0_0) (fun _ => rfl)).squeeze S1x128 squeezes_S1x1x128_S1x128).view.loc (c : Thread nD τ) ↦[((sbuf.slice (Rect.unit (s := S128x1x128) ![45, 0, 0] S1x1x128.size inb_S128x1x128_S1x1x128_45_0_0) (fun _ => rfl)).squeeze S1x128 squeezes_S1x1x128_S1x128).view.set]{fullShare} f)
      ∗ (((sbuf.slice (Rect.unit (s := S128x1x128) ![46, 0, 0] S1x1x128.size inb_S128x1x128_S1x1x128_46_0_0) (fun _ => rfl)).squeeze S1x128 squeezes_S1x1x128_S1x128).view.loc (c : Thread nD τ) ↦[((sbuf.slice (Rect.unit (s := S128x1x128) ![46, 0, 0] S1x1x128.size inb_S128x1x128_S1x1x128_46_0_0) (fun _ => rfl)).squeeze S1x128 squeezes_S1x1x128_S1x128).view.set]{fullShare} f)
      ∗ (((sbuf.slice (Rect.unit (s := S128x1x128) ![47, 0, 0] S1x1x128.size inb_S128x1x128_S1x1x128_47_0_0) (fun _ => rfl)).squeeze S1x128 squeezes_S1x1x128_S1x128).view.loc (c : Thread nD τ) ↦[((sbuf.slice (Rect.unit (s := S128x1x128) ![47, 0, 0] S1x1x128.size inb_S128x1x128_S1x1x128_47_0_0) (fun _ => rfl)).squeeze S1x128 squeezes_S1x1x128_S1x128).view.set]{fullShare} f)
      ∗ (((sbuf.slice (Rect.unit (s := S128x1x128) ![48, 0, 0] S1x1x128.size inb_S128x1x128_S1x1x128_48_0_0) (fun _ => rfl)).squeeze S1x128 squeezes_S1x1x128_S1x128).view.loc (c : Thread nD τ) ↦[((sbuf.slice (Rect.unit (s := S128x1x128) ![48, 0, 0] S1x1x128.size inb_S128x1x128_S1x1x128_48_0_0) (fun _ => rfl)).squeeze S1x128 squeezes_S1x1x128_S1x128).view.set]{fullShare} f)
      ∗ (((sbuf.slice (Rect.unit (s := S128x1x128) ![49, 0, 0] S1x1x128.size inb_S128x1x128_S1x1x128_49_0_0) (fun _ => rfl)).squeeze S1x128 squeezes_S1x1x128_S1x128).view.loc (c : Thread nD τ) ↦[((sbuf.slice (Rect.unit (s := S128x1x128) ![49, 0, 0] S1x1x128.size inb_S128x1x128_S1x1x128_49_0_0) (fun _ => rfl)).squeeze S1x128 squeezes_S1x1x128_S1x128).view.set]{fullShare} f)
      ∗ (((sbuf.slice (Rect.unit (s := S128x1x128) ![50, 0, 0] S1x1x128.size inb_S128x1x128_S1x1x128_50_0_0) (fun _ => rfl)).squeeze S1x128 squeezes_S1x1x128_S1x128).view.loc (c : Thread nD τ) ↦[((sbuf.slice (Rect.unit (s := S128x1x128) ![50, 0, 0] S1x1x128.size inb_S128x1x128_S1x1x128_50_0_0) (fun _ => rfl)).squeeze S1x128 squeezes_S1x1x128_S1x128).view.set]{fullShare} f)
      ∗ (((sbuf.slice (Rect.unit (s := S128x1x128) ![51, 0, 0] S1x1x128.size inb_S128x1x128_S1x1x128_51_0_0) (fun _ => rfl)).squeeze S1x128 squeezes_S1x1x128_S1x128).view.loc (c : Thread nD τ) ↦[((sbuf.slice (Rect.unit (s := S128x1x128) ![51, 0, 0] S1x1x128.size inb_S128x1x128_S1x1x128_51_0_0) (fun _ => rfl)).squeeze S1x128 squeezes_S1x1x128_S1x128).view.set]{fullShare} f)
      ∗ (((sbuf.slice (Rect.unit (s := S128x1x128) ![52, 0, 0] S1x1x128.size inb_S128x1x128_S1x1x128_52_0_0) (fun _ => rfl)).squeeze S1x128 squeezes_S1x1x128_S1x128).view.loc (c : Thread nD τ) ↦[((sbuf.slice (Rect.unit (s := S128x1x128) ![52, 0, 0] S1x1x128.size inb_S128x1x128_S1x1x128_52_0_0) (fun _ => rfl)).squeeze S1x128 squeezes_S1x1x128_S1x128).view.set]{fullShare} f)
      ∗ (((sbuf.slice (Rect.unit (s := S128x1x128) ![53, 0, 0] S1x1x128.size inb_S128x1x128_S1x1x128_53_0_0) (fun _ => rfl)).squeeze S1x128 squeezes_S1x1x128_S1x128).view.loc (c : Thread nD τ) ↦[((sbuf.slice (Rect.unit (s := S128x1x128) ![53, 0, 0] S1x1x128.size inb_S128x1x128_S1x1x128_53_0_0) (fun _ => rfl)).squeeze S1x128 squeezes_S1x1x128_S1x128).view.set]{fullShare} f)
      ∗ (((sbuf.slice (Rect.unit (s := S128x1x128) ![54, 0, 0] S1x1x128.size inb_S128x1x128_S1x1x128_54_0_0) (fun _ => rfl)).squeeze S1x128 squeezes_S1x1x128_S1x128).view.loc (c : Thread nD τ) ↦[((sbuf.slice (Rect.unit (s := S128x1x128) ![54, 0, 0] S1x1x128.size inb_S128x1x128_S1x1x128_54_0_0) (fun _ => rfl)).squeeze S1x128 squeezes_S1x1x128_S1x128).view.set]{fullShare} f)
      ∗ (((sbuf.slice (Rect.unit (s := S128x1x128) ![55, 0, 0] S1x1x128.size inb_S128x1x128_S1x1x128_55_0_0) (fun _ => rfl)).squeeze S1x128 squeezes_S1x1x128_S1x128).view.loc (c : Thread nD τ) ↦[((sbuf.slice (Rect.unit (s := S128x1x128) ![55, 0, 0] S1x1x128.size inb_S128x1x128_S1x1x128_55_0_0) (fun _ => rfl)).squeeze S1x128 squeezes_S1x1x128_S1x128).view.set]{fullShare} f)
      ∗ (((sbuf.slice (Rect.unit (s := S128x1x128) ![56, 0, 0] S1x1x128.size inb_S128x1x128_S1x1x128_56_0_0) (fun _ => rfl)).squeeze S1x128 squeezes_S1x1x128_S1x128).view.loc (c : Thread nD τ) ↦[((sbuf.slice (Rect.unit (s := S128x1x128) ![56, 0, 0] S1x1x128.size inb_S128x1x128_S1x1x128_56_0_0) (fun _ => rfl)).squeeze S1x128 squeezes_S1x1x128_S1x128).view.set]{fullShare} f)
      ∗ (((sbuf.slice (Rect.unit (s := S128x1x128) ![57, 0, 0] S1x1x128.size inb_S128x1x128_S1x1x128_57_0_0) (fun _ => rfl)).squeeze S1x128 squeezes_S1x1x128_S1x128).view.loc (c : Thread nD τ) ↦[((sbuf.slice (Rect.unit (s := S128x1x128) ![57, 0, 0] S1x1x128.size inb_S128x1x128_S1x1x128_57_0_0) (fun _ => rfl)).squeeze S1x128 squeezes_S1x1x128_S1x128).view.set]{fullShare} f)
      ∗ (((sbuf.slice (Rect.unit (s := S128x1x128) ![58, 0, 0] S1x1x128.size inb_S128x1x128_S1x1x128_58_0_0) (fun _ => rfl)).squeeze S1x128 squeezes_S1x1x128_S1x128).view.loc (c : Thread nD τ) ↦[((sbuf.slice (Rect.unit (s := S128x1x128) ![58, 0, 0] S1x1x128.size inb_S128x1x128_S1x1x128_58_0_0) (fun _ => rfl)).squeeze S1x128 squeezes_S1x1x128_S1x128).view.set]{fullShare} f)
      ∗ (((sbuf.slice (Rect.unit (s := S128x1x128) ![59, 0, 0] S1x1x128.size inb_S128x1x128_S1x1x128_59_0_0) (fun _ => rfl)).squeeze S1x128 squeezes_S1x1x128_S1x128).view.loc (c : Thread nD τ) ↦[((sbuf.slice (Rect.unit (s := S128x1x128) ![59, 0, 0] S1x1x128.size inb_S128x1x128_S1x1x128_59_0_0) (fun _ => rfl)).squeeze S1x128 squeezes_S1x1x128_S1x128).view.set]{fullShare} f)
      ∗ (((sbuf.slice (Rect.unit (s := S128x1x128) ![60, 0, 0] S1x1x128.size inb_S128x1x128_S1x1x128_60_0_0) (fun _ => rfl)).squeeze S1x128 squeezes_S1x1x128_S1x128).view.loc (c : Thread nD τ) ↦[((sbuf.slice (Rect.unit (s := S128x1x128) ![60, 0, 0] S1x1x128.size inb_S128x1x128_S1x1x128_60_0_0) (fun _ => rfl)).squeeze S1x128 squeezes_S1x1x128_S1x128).view.set]{fullShare} f)
      ∗ (((sbuf.slice (Rect.unit (s := S128x1x128) ![61, 0, 0] S1x1x128.size inb_S128x1x128_S1x1x128_61_0_0) (fun _ => rfl)).squeeze S1x128 squeezes_S1x1x128_S1x128).view.loc (c : Thread nD τ) ↦[((sbuf.slice (Rect.unit (s := S128x1x128) ![61, 0, 0] S1x1x128.size inb_S128x1x128_S1x1x128_61_0_0) (fun _ => rfl)).squeeze S1x128 squeezes_S1x1x128_S1x128).view.set]{fullShare} f)
      ∗ (((sbuf.slice (Rect.unit (s := S128x1x128) ![62, 0, 0] S1x1x128.size inb_S128x1x128_S1x1x128_62_0_0) (fun _ => rfl)).squeeze S1x128 squeezes_S1x1x128_S1x128).view.loc (c : Thread nD τ) ↦[((sbuf.slice (Rect.unit (s := S128x1x128) ![62, 0, 0] S1x1x128.size inb_S128x1x128_S1x1x128_62_0_0) (fun _ => rfl)).squeeze S1x128 squeezes_S1x1x128_S1x128).view.set]{fullShare} f)
      ∗ (((sbuf.slice (Rect.unit (s := S128x1x128) ![63, 0, 0] S1x1x128.size inb_S128x1x128_S1x1x128_63_0_0) (fun _ => rfl)).squeeze S1x128 squeezes_S1x1x128_S1x128).view.loc (c : Thread nD τ) ↦[((sbuf.slice (Rect.unit (s := S128x1x128) ![63, 0, 0] S1x1x128.size inb_S128x1x128_S1x1x128_63_0_0) (fun _ => rfl)).squeeze S1x128 squeezes_S1x1x128_S1x128).view.set]{fullShare} f)
      ∗ (((sbuf.slice (Rect.unit (s := S128x1x128) ![64, 0, 0] S1x1x128.size inb_S128x1x128_S1x1x128_64_0_0) (fun _ => rfl)).squeeze S1x128 squeezes_S1x1x128_S1x128).view.loc (c : Thread nD τ) ↦[((sbuf.slice (Rect.unit (s := S128x1x128) ![64, 0, 0] S1x1x128.size inb_S128x1x128_S1x1x128_64_0_0) (fun _ => rfl)).squeeze S1x128 squeezes_S1x1x128_S1x128).view.set]{fullShare} f)
      ∗ (((sbuf.slice (Rect.unit (s := S128x1x128) ![65, 0, 0] S1x1x128.size inb_S128x1x128_S1x1x128_65_0_0) (fun _ => rfl)).squeeze S1x128 squeezes_S1x1x128_S1x128).view.loc (c : Thread nD τ) ↦[((sbuf.slice (Rect.unit (s := S128x1x128) ![65, 0, 0] S1x1x128.size inb_S128x1x128_S1x1x128_65_0_0) (fun _ => rfl)).squeeze S1x128 squeezes_S1x1x128_S1x128).view.set]{fullShare} f)
      ∗ (((sbuf.slice (Rect.unit (s := S128x1x128) ![66, 0, 0] S1x1x128.size inb_S128x1x128_S1x1x128_66_0_0) (fun _ => rfl)).squeeze S1x128 squeezes_S1x1x128_S1x128).view.loc (c : Thread nD τ) ↦[((sbuf.slice (Rect.unit (s := S128x1x128) ![66, 0, 0] S1x1x128.size inb_S128x1x128_S1x1x128_66_0_0) (fun _ => rfl)).squeeze S1x128 squeezes_S1x1x128_S1x128).view.set]{fullShare} f)
      ∗ (((sbuf.slice (Rect.unit (s := S128x1x128) ![67, 0, 0] S1x1x128.size inb_S128x1x128_S1x1x128_67_0_0) (fun _ => rfl)).squeeze S1x128 squeezes_S1x1x128_S1x128).view.loc (c : Thread nD τ) ↦[((sbuf.slice (Rect.unit (s := S128x1x128) ![67, 0, 0] S1x1x128.size inb_S128x1x128_S1x1x128_67_0_0) (fun _ => rfl)).squeeze S1x128 squeezes_S1x1x128_S1x128).view.set]{fullShare} f)
      ∗ (((sbuf.slice (Rect.unit (s := S128x1x128) ![68, 0, 0] S1x1x128.size inb_S128x1x128_S1x1x128_68_0_0) (fun _ => rfl)).squeeze S1x128 squeezes_S1x1x128_S1x128).view.loc (c : Thread nD τ) ↦[((sbuf.slice (Rect.unit (s := S128x1x128) ![68, 0, 0] S1x1x128.size inb_S128x1x128_S1x1x128_68_0_0) (fun _ => rfl)).squeeze S1x128 squeezes_S1x1x128_S1x128).view.set]{fullShare} f)
      ∗ (((sbuf.slice (Rect.unit (s := S128x1x128) ![69, 0, 0] S1x1x128.size inb_S128x1x128_S1x1x128_69_0_0) (fun _ => rfl)).squeeze S1x128 squeezes_S1x1x128_S1x128).view.loc (c : Thread nD τ) ↦[((sbuf.slice (Rect.unit (s := S128x1x128) ![69, 0, 0] S1x1x128.size inb_S128x1x128_S1x1x128_69_0_0) (fun _ => rfl)).squeeze S1x128 squeezes_S1x1x128_S1x128).view.set]{fullShare} f)
      ∗ (((sbuf.slice (Rect.unit (s := S128x1x128) ![70, 0, 0] S1x1x128.size inb_S128x1x128_S1x1x128_70_0_0) (fun _ => rfl)).squeeze S1x128 squeezes_S1x1x128_S1x128).view.loc (c : Thread nD τ) ↦[((sbuf.slice (Rect.unit (s := S128x1x128) ![70, 0, 0] S1x1x128.size inb_S128x1x128_S1x1x128_70_0_0) (fun _ => rfl)).squeeze S1x128 squeezes_S1x1x128_S1x128).view.set]{fullShare} f)
      ∗ (((sbuf.slice (Rect.unit (s := S128x1x128) ![71, 0, 0] S1x1x128.size inb_S128x1x128_S1x1x128_71_0_0) (fun _ => rfl)).squeeze S1x128 squeezes_S1x1x128_S1x128).view.loc (c : Thread nD τ) ↦[((sbuf.slice (Rect.unit (s := S128x1x128) ![71, 0, 0] S1x1x128.size inb_S128x1x128_S1x1x128_71_0_0) (fun _ => rfl)).squeeze S1x128 squeezes_S1x1x128_S1x128).view.set]{fullShare} f)
      ∗ (((sbuf.slice (Rect.unit (s := S128x1x128) ![72, 0, 0] S1x1x128.size inb_S128x1x128_S1x1x128_72_0_0) (fun _ => rfl)).squeeze S1x128 squeezes_S1x1x128_S1x128).view.loc (c : Thread nD τ) ↦[((sbuf.slice (Rect.unit (s := S128x1x128) ![72, 0, 0] S1x1x128.size inb_S128x1x128_S1x1x128_72_0_0) (fun _ => rfl)).squeeze S1x128 squeezes_S1x1x128_S1x128).view.set]{fullShare} f)
      ∗ (((sbuf.slice (Rect.unit (s := S128x1x128) ![73, 0, 0] S1x1x128.size inb_S128x1x128_S1x1x128_73_0_0) (fun _ => rfl)).squeeze S1x128 squeezes_S1x1x128_S1x128).view.loc (c : Thread nD τ) ↦[((sbuf.slice (Rect.unit (s := S128x1x128) ![73, 0, 0] S1x1x128.size inb_S128x1x128_S1x1x128_73_0_0) (fun _ => rfl)).squeeze S1x128 squeezes_S1x1x128_S1x128).view.set]{fullShare} f)
      ∗ (((sbuf.slice (Rect.unit (s := S128x1x128) ![74, 0, 0] S1x1x128.size inb_S128x1x128_S1x1x128_74_0_0) (fun _ => rfl)).squeeze S1x128 squeezes_S1x1x128_S1x128).view.loc (c : Thread nD τ) ↦[((sbuf.slice (Rect.unit (s := S128x1x128) ![74, 0, 0] S1x1x128.size inb_S128x1x128_S1x1x128_74_0_0) (fun _ => rfl)).squeeze S1x128 squeezes_S1x1x128_S1x128).view.set]{fullShare} f)
      ∗ (((sbuf.slice (Rect.unit (s := S128x1x128) ![75, 0, 0] S1x1x128.size inb_S128x1x128_S1x1x128_75_0_0) (fun _ => rfl)).squeeze S1x128 squeezes_S1x1x128_S1x128).view.loc (c : Thread nD τ) ↦[((sbuf.slice (Rect.unit (s := S128x1x128) ![75, 0, 0] S1x1x128.size inb_S128x1x128_S1x1x128_75_0_0) (fun _ => rfl)).squeeze S1x128 squeezes_S1x1x128_S1x128).view.set]{fullShare} f)
      ∗ (((sbuf.slice (Rect.unit (s := S128x1x128) ![76, 0, 0] S1x1x128.size inb_S128x1x128_S1x1x128_76_0_0) (fun _ => rfl)).squeeze S1x128 squeezes_S1x1x128_S1x128).view.loc (c : Thread nD τ) ↦[((sbuf.slice (Rect.unit (s := S128x1x128) ![76, 0, 0] S1x1x128.size inb_S128x1x128_S1x1x128_76_0_0) (fun _ => rfl)).squeeze S1x128 squeezes_S1x1x128_S1x128).view.set]{fullShare} f)
      ∗ (((sbuf.slice (Rect.unit (s := S128x1x128) ![77, 0, 0] S1x1x128.size inb_S128x1x128_S1x1x128_77_0_0) (fun _ => rfl)).squeeze S1x128 squeezes_S1x1x128_S1x128).view.loc (c : Thread nD τ) ↦[((sbuf.slice (Rect.unit (s := S128x1x128) ![77, 0, 0] S1x1x128.size inb_S128x1x128_S1x1x128_77_0_0) (fun _ => rfl)).squeeze S1x128 squeezes_S1x1x128_S1x128).view.set]{fullShare} f)
      ∗ (((sbuf.slice (Rect.unit (s := S128x1x128) ![78, 0, 0] S1x1x128.size inb_S128x1x128_S1x1x128_78_0_0) (fun _ => rfl)).squeeze S1x128 squeezes_S1x1x128_S1x128).view.loc (c : Thread nD τ) ↦[((sbuf.slice (Rect.unit (s := S128x1x128) ![78, 0, 0] S1x1x128.size inb_S128x1x128_S1x1x128_78_0_0) (fun _ => rfl)).squeeze S1x128 squeezes_S1x1x128_S1x128).view.set]{fullShare} f)
      ∗ (((sbuf.slice (Rect.unit (s := S128x1x128) ![79, 0, 0] S1x1x128.size inb_S128x1x128_S1x1x128_79_0_0) (fun _ => rfl)).squeeze S1x128 squeezes_S1x1x128_S1x128).view.loc (c : Thread nD τ) ↦[((sbuf.slice (Rect.unit (s := S128x1x128) ![79, 0, 0] S1x1x128.size inb_S128x1x128_S1x1x128_79_0_0) (fun _ => rfl)).squeeze S1x128 squeezes_S1x1x128_S1x128).view.set]{fullShare} f)
      ∗ (((sbuf.slice (Rect.unit (s := S128x1x128) ![80, 0, 0] S1x1x128.size inb_S128x1x128_S1x1x128_80_0_0) (fun _ => rfl)).squeeze S1x128 squeezes_S1x1x128_S1x128).view.loc (c : Thread nD τ) ↦[((sbuf.slice (Rect.unit (s := S128x1x128) ![80, 0, 0] S1x1x128.size inb_S128x1x128_S1x1x128_80_0_0) (fun _ => rfl)).squeeze S1x128 squeezes_S1x1x128_S1x128).view.set]{fullShare} f)
      ∗ (((sbuf.slice (Rect.unit (s := S128x1x128) ![81, 0, 0] S1x1x128.size inb_S128x1x128_S1x1x128_81_0_0) (fun _ => rfl)).squeeze S1x128 squeezes_S1x1x128_S1x128).view.loc (c : Thread nD τ) ↦[((sbuf.slice (Rect.unit (s := S128x1x128) ![81, 0, 0] S1x1x128.size inb_S128x1x128_S1x1x128_81_0_0) (fun _ => rfl)).squeeze S1x128 squeezes_S1x1x128_S1x128).view.set]{fullShare} f)
      ∗ (((sbuf.slice (Rect.unit (s := S128x1x128) ![82, 0, 0] S1x1x128.size inb_S128x1x128_S1x1x128_82_0_0) (fun _ => rfl)).squeeze S1x128 squeezes_S1x1x128_S1x128).view.loc (c : Thread nD τ) ↦[((sbuf.slice (Rect.unit (s := S128x1x128) ![82, 0, 0] S1x1x128.size inb_S128x1x128_S1x1x128_82_0_0) (fun _ => rfl)).squeeze S1x128 squeezes_S1x1x128_S1x128).view.set]{fullShare} f)
      ∗ (((sbuf.slice (Rect.unit (s := S128x1x128) ![83, 0, 0] S1x1x128.size inb_S128x1x128_S1x1x128_83_0_0) (fun _ => rfl)).squeeze S1x128 squeezes_S1x1x128_S1x128).view.loc (c : Thread nD τ) ↦[((sbuf.slice (Rect.unit (s := S128x1x128) ![83, 0, 0] S1x1x128.size inb_S128x1x128_S1x1x128_83_0_0) (fun _ => rfl)).squeeze S1x128 squeezes_S1x1x128_S1x128).view.set]{fullShare} f)
      ∗ (((sbuf.slice (Rect.unit (s := S128x1x128) ![84, 0, 0] S1x1x128.size inb_S128x1x128_S1x1x128_84_0_0) (fun _ => rfl)).squeeze S1x128 squeezes_S1x1x128_S1x128).view.loc (c : Thread nD τ) ↦[((sbuf.slice (Rect.unit (s := S128x1x128) ![84, 0, 0] S1x1x128.size inb_S128x1x128_S1x1x128_84_0_0) (fun _ => rfl)).squeeze S1x128 squeezes_S1x1x128_S1x128).view.set]{fullShare} f)
      ∗ (((sbuf.slice (Rect.unit (s := S128x1x128) ![85, 0, 0] S1x1x128.size inb_S128x1x128_S1x1x128_85_0_0) (fun _ => rfl)).squeeze S1x128 squeezes_S1x1x128_S1x128).view.loc (c : Thread nD τ) ↦[((sbuf.slice (Rect.unit (s := S128x1x128) ![85, 0, 0] S1x1x128.size inb_S128x1x128_S1x1x128_85_0_0) (fun _ => rfl)).squeeze S1x128 squeezes_S1x1x128_S1x128).view.set]{fullShare} f)
      ∗ (((sbuf.slice (Rect.unit (s := S128x1x128) ![86, 0, 0] S1x1x128.size inb_S128x1x128_S1x1x128_86_0_0) (fun _ => rfl)).squeeze S1x128 squeezes_S1x1x128_S1x128).view.loc (c : Thread nD τ) ↦[((sbuf.slice (Rect.unit (s := S128x1x128) ![86, 0, 0] S1x1x128.size inb_S128x1x128_S1x1x128_86_0_0) (fun _ => rfl)).squeeze S1x128 squeezes_S1x1x128_S1x128).view.set]{fullShare} f)
      ∗ (((sbuf.slice (Rect.unit (s := S128x1x128) ![87, 0, 0] S1x1x128.size inb_S128x1x128_S1x1x128_87_0_0) (fun _ => rfl)).squeeze S1x128 squeezes_S1x1x128_S1x128).view.loc (c : Thread nD τ) ↦[((sbuf.slice (Rect.unit (s := S128x1x128) ![87, 0, 0] S1x1x128.size inb_S128x1x128_S1x1x128_87_0_0) (fun _ => rfl)).squeeze S1x128 squeezes_S1x1x128_S1x128).view.set]{fullShare} f)
      ∗ (((sbuf.slice (Rect.unit (s := S128x1x128) ![88, 0, 0] S1x1x128.size inb_S128x1x128_S1x1x128_88_0_0) (fun _ => rfl)).squeeze S1x128 squeezes_S1x1x128_S1x128).view.loc (c : Thread nD τ) ↦[((sbuf.slice (Rect.unit (s := S128x1x128) ![88, 0, 0] S1x1x128.size inb_S128x1x128_S1x1x128_88_0_0) (fun _ => rfl)).squeeze S1x128 squeezes_S1x1x128_S1x128).view.set]{fullShare} f)
      ∗ (((sbuf.slice (Rect.unit (s := S128x1x128) ![89, 0, 0] S1x1x128.size inb_S128x1x128_S1x1x128_89_0_0) (fun _ => rfl)).squeeze S1x128 squeezes_S1x1x128_S1x128).view.loc (c : Thread nD τ) ↦[((sbuf.slice (Rect.unit (s := S128x1x128) ![89, 0, 0] S1x1x128.size inb_S128x1x128_S1x1x128_89_0_0) (fun _ => rfl)).squeeze S1x128 squeezes_S1x1x128_S1x128).view.set]{fullShare} f)
      ∗ (((sbuf.slice (Rect.unit (s := S128x1x128) ![90, 0, 0] S1x1x128.size inb_S128x1x128_S1x1x128_90_0_0) (fun _ => rfl)).squeeze S1x128 squeezes_S1x1x128_S1x128).view.loc (c : Thread nD τ) ↦[((sbuf.slice (Rect.unit (s := S128x1x128) ![90, 0, 0] S1x1x128.size inb_S128x1x128_S1x1x128_90_0_0) (fun _ => rfl)).squeeze S1x128 squeezes_S1x1x128_S1x128).view.set]{fullShare} f)
      ∗ (((sbuf.slice (Rect.unit (s := S128x1x128) ![91, 0, 0] S1x1x128.size inb_S128x1x128_S1x1x128_91_0_0) (fun _ => rfl)).squeeze S1x128 squeezes_S1x1x128_S1x128).view.loc (c : Thread nD τ) ↦[((sbuf.slice (Rect.unit (s := S128x1x128) ![91, 0, 0] S1x1x128.size inb_S128x1x128_S1x1x128_91_0_0) (fun _ => rfl)).squeeze S1x128 squeezes_S1x1x128_S1x128).view.set]{fullShare} f)
      ∗ (((sbuf.slice (Rect.unit (s := S128x1x128) ![92, 0, 0] S1x1x128.size inb_S128x1x128_S1x1x128_92_0_0) (fun _ => rfl)).squeeze S1x128 squeezes_S1x1x128_S1x128).view.loc (c : Thread nD τ) ↦[((sbuf.slice (Rect.unit (s := S128x1x128) ![92, 0, 0] S1x1x128.size inb_S128x1x128_S1x1x128_92_0_0) (fun _ => rfl)).squeeze S1x128 squeezes_S1x1x128_S1x128).view.set]{fullShare} f)
      ∗ (((sbuf.slice (Rect.unit (s := S128x1x128) ![93, 0, 0] S1x1x128.size inb_S128x1x128_S1x1x128_93_0_0) (fun _ => rfl)).squeeze S1x128 squeezes_S1x1x128_S1x128).view.loc (c : Thread nD τ) ↦[((sbuf.slice (Rect.unit (s := S128x1x128) ![93, 0, 0] S1x1x128.size inb_S128x1x128_S1x1x128_93_0_0) (fun _ => rfl)).squeeze S1x128 squeezes_S1x1x128_S1x128).view.set]{fullShare} f)
      ∗ (((sbuf.slice (Rect.unit (s := S128x1x128) ![94, 0, 0] S1x1x128.size inb_S128x1x128_S1x1x128_94_0_0) (fun _ => rfl)).squeeze S1x128 squeezes_S1x1x128_S1x128).view.loc (c : Thread nD τ) ↦[((sbuf.slice (Rect.unit (s := S128x1x128) ![94, 0, 0] S1x1x128.size inb_S128x1x128_S1x1x128_94_0_0) (fun _ => rfl)).squeeze S1x128 squeezes_S1x1x128_S1x128).view.set]{fullShare} f)
      ∗ (((sbuf.slice (Rect.unit (s := S128x1x128) ![95, 0, 0] S1x1x128.size inb_S128x1x128_S1x1x128_95_0_0) (fun _ => rfl)).squeeze S1x128 squeezes_S1x1x128_S1x128).view.loc (c : Thread nD τ) ↦[((sbuf.slice (Rect.unit (s := S128x1x128) ![95, 0, 0] S1x1x128.size inb_S128x1x128_S1x1x128_95_0_0) (fun _ => rfl)).squeeze S1x128 squeezes_S1x1x128_S1x128).view.set]{fullShare} f)
      ∗ (((sbuf.slice (Rect.unit (s := S128x1x128) ![96, 0, 0] S1x1x128.size inb_S128x1x128_S1x1x128_96_0_0) (fun _ => rfl)).squeeze S1x128 squeezes_S1x1x128_S1x128).view.loc (c : Thread nD τ) ↦[((sbuf.slice (Rect.unit (s := S128x1x128) ![96, 0, 0] S1x1x128.size inb_S128x1x128_S1x1x128_96_0_0) (fun _ => rfl)).squeeze S1x128 squeezes_S1x1x128_S1x128).view.set]{fullShare} f)
      ∗ (((sbuf.slice (Rect.unit (s := S128x1x128) ![97, 0, 0] S1x1x128.size inb_S128x1x128_S1x1x128_97_0_0) (fun _ => rfl)).squeeze S1x128 squeezes_S1x1x128_S1x128).view.loc (c : Thread nD τ) ↦[((sbuf.slice (Rect.unit (s := S128x1x128) ![97, 0, 0] S1x1x128.size inb_S128x1x128_S1x1x128_97_0_0) (fun _ => rfl)).squeeze S1x128 squeezes_S1x1x128_S1x128).view.set]{fullShare} f)
      ∗ (((sbuf.slice (Rect.unit (s := S128x1x128) ![98, 0, 0] S1x1x128.size inb_S128x1x128_S1x1x128_98_0_0) (fun _ => rfl)).squeeze S1x128 squeezes_S1x1x128_S1x128).view.loc (c : Thread nD τ) ↦[((sbuf.slice (Rect.unit (s := S128x1x128) ![98, 0, 0] S1x1x128.size inb_S128x1x128_S1x1x128_98_0_0) (fun _ => rfl)).squeeze S1x128 squeezes_S1x1x128_S1x128).view.set]{fullShare} f)
      ∗ (((sbuf.slice (Rect.unit (s := S128x1x128) ![99, 0, 0] S1x1x128.size inb_S128x1x128_S1x1x128_99_0_0) (fun _ => rfl)).squeeze S1x128 squeezes_S1x1x128_S1x128).view.loc (c : Thread nD τ) ↦[((sbuf.slice (Rect.unit (s := S128x1x128) ![99, 0, 0] S1x1x128.size inb_S128x1x128_S1x1x128_99_0_0) (fun _ => rfl)).squeeze S1x128 squeezes_S1x1x128_S1x128).view.set]{fullShare} f)
      ∗ (((sbuf.slice (Rect.unit (s := S128x1x128) ![100, 0, 0] S1x1x128.size inb_S128x1x128_S1x1x128_100_0_0) (fun _ => rfl)).squeeze S1x128 squeezes_S1x1x128_S1x128).view.loc (c : Thread nD τ) ↦[((sbuf.slice (Rect.unit (s := S128x1x128) ![100, 0, 0] S1x1x128.size inb_S128x1x128_S1x1x128_100_0_0) (fun _ => rfl)).squeeze S1x128 squeezes_S1x1x128_S1x128).view.set]{fullShare} f)
      ∗ (((sbuf.slice (Rect.unit (s := S128x1x128) ![101, 0, 0] S1x1x128.size inb_S128x1x128_S1x1x128_101_0_0) (fun _ => rfl)).squeeze S1x128 squeezes_S1x1x128_S1x128).view.loc (c : Thread nD τ) ↦[((sbuf.slice (Rect.unit (s := S128x1x128) ![101, 0, 0] S1x1x128.size inb_S128x1x128_S1x1x128_101_0_0) (fun _ => rfl)).squeeze S1x128 squeezes_S1x1x128_S1x128).view.set]{fullShare} f)
      ∗ (((sbuf.slice (Rect.unit (s := S128x1x128) ![102, 0, 0] S1x1x128.size inb_S128x1x128_S1x1x128_102_0_0) (fun _ => rfl)).squeeze S1x128 squeezes_S1x1x128_S1x128).view.loc (c : Thread nD τ) ↦[((sbuf.slice (Rect.unit (s := S128x1x128) ![102, 0, 0] S1x1x128.size inb_S128x1x128_S1x1x128_102_0_0) (fun _ => rfl)).squeeze S1x128 squeezes_S1x1x128_S1x128).view.set]{fullShare} f)
      ∗ (((sbuf.slice (Rect.unit (s := S128x1x128) ![103, 0, 0] S1x1x128.size inb_S128x1x128_S1x1x128_103_0_0) (fun _ => rfl)).squeeze S1x128 squeezes_S1x1x128_S1x128).view.loc (c : Thread nD τ) ↦[((sbuf.slice (Rect.unit (s := S128x1x128) ![103, 0, 0] S1x1x128.size inb_S128x1x128_S1x1x128_103_0_0) (fun _ => rfl)).squeeze S1x128 squeezes_S1x1x128_S1x128).view.set]{fullShare} f)
      ∗ (((sbuf.slice (Rect.unit (s := S128x1x128) ![104, 0, 0] S1x1x128.size inb_S128x1x128_S1x1x128_104_0_0) (fun _ => rfl)).squeeze S1x128 squeezes_S1x1x128_S1x128).view.loc (c : Thread nD τ) ↦[((sbuf.slice (Rect.unit (s := S128x1x128) ![104, 0, 0] S1x1x128.size inb_S128x1x128_S1x1x128_104_0_0) (fun _ => rfl)).squeeze S1x128 squeezes_S1x1x128_S1x128).view.set]{fullShare} f)
      ∗ (((sbuf.slice (Rect.unit (s := S128x1x128) ![105, 0, 0] S1x1x128.size inb_S128x1x128_S1x1x128_105_0_0) (fun _ => rfl)).squeeze S1x128 squeezes_S1x1x128_S1x128).view.loc (c : Thread nD τ) ↦[((sbuf.slice (Rect.unit (s := S128x1x128) ![105, 0, 0] S1x1x128.size inb_S128x1x128_S1x1x128_105_0_0) (fun _ => rfl)).squeeze S1x128 squeezes_S1x1x128_S1x128).view.set]{fullShare} f)
      ∗ (((sbuf.slice (Rect.unit (s := S128x1x128) ![106, 0, 0] S1x1x128.size inb_S128x1x128_S1x1x128_106_0_0) (fun _ => rfl)).squeeze S1x128 squeezes_S1x1x128_S1x128).view.loc (c : Thread nD τ) ↦[((sbuf.slice (Rect.unit (s := S128x1x128) ![106, 0, 0] S1x1x128.size inb_S128x1x128_S1x1x128_106_0_0) (fun _ => rfl)).squeeze S1x128 squeezes_S1x1x128_S1x128).view.set]{fullShare} f)
      ∗ (((sbuf.slice (Rect.unit (s := S128x1x128) ![107, 0, 0] S1x1x128.size inb_S128x1x128_S1x1x128_107_0_0) (fun _ => rfl)).squeeze S1x128 squeezes_S1x1x128_S1x128).view.loc (c : Thread nD τ) ↦[((sbuf.slice (Rect.unit (s := S128x1x128) ![107, 0, 0] S1x1x128.size inb_S128x1x128_S1x1x128_107_0_0) (fun _ => rfl)).squeeze S1x128 squeezes_S1x1x128_S1x128).view.set]{fullShare} f)
      ∗ (((sbuf.slice (Rect.unit (s := S128x1x128) ![108, 0, 0] S1x1x128.size inb_S128x1x128_S1x1x128_108_0_0) (fun _ => rfl)).squeeze S1x128 squeezes_S1x1x128_S1x128).view.loc (c : Thread nD τ) ↦[((sbuf.slice (Rect.unit (s := S128x1x128) ![108, 0, 0] S1x1x128.size inb_S128x1x128_S1x1x128_108_0_0) (fun _ => rfl)).squeeze S1x128 squeezes_S1x1x128_S1x128).view.set]{fullShare} f)
      ∗ (((sbuf.slice (Rect.unit (s := S128x1x128) ![109, 0, 0] S1x1x128.size inb_S128x1x128_S1x1x128_109_0_0) (fun _ => rfl)).squeeze S1x128 squeezes_S1x1x128_S1x128).view.loc (c : Thread nD τ) ↦[((sbuf.slice (Rect.unit (s := S128x1x128) ![109, 0, 0] S1x1x128.size inb_S128x1x128_S1x1x128_109_0_0) (fun _ => rfl)).squeeze S1x128 squeezes_S1x1x128_S1x128).view.set]{fullShare} f)
      ∗ (((sbuf.slice (Rect.unit (s := S128x1x128) ![110, 0, 0] S1x1x128.size inb_S128x1x128_S1x1x128_110_0_0) (fun _ => rfl)).squeeze S1x128 squeezes_S1x1x128_S1x128).view.loc (c : Thread nD τ) ↦[((sbuf.slice (Rect.unit (s := S128x1x128) ![110, 0, 0] S1x1x128.size inb_S128x1x128_S1x1x128_110_0_0) (fun _ => rfl)).squeeze S1x128 squeezes_S1x1x128_S1x128).view.set]{fullShare} f)
      ∗ (((sbuf.slice (Rect.unit (s := S128x1x128) ![111, 0, 0] S1x1x128.size inb_S128x1x128_S1x1x128_111_0_0) (fun _ => rfl)).squeeze S1x128 squeezes_S1x1x128_S1x128).view.loc (c : Thread nD τ) ↦[((sbuf.slice (Rect.unit (s := S128x1x128) ![111, 0, 0] S1x1x128.size inb_S128x1x128_S1x1x128_111_0_0) (fun _ => rfl)).squeeze S1x128 squeezes_S1x1x128_S1x128).view.set]{fullShare} f)
      ∗ (((sbuf.slice (Rect.unit (s := S128x1x128) ![112, 0, 0] S1x1x128.size inb_S128x1x128_S1x1x128_112_0_0) (fun _ => rfl)).squeeze S1x128 squeezes_S1x1x128_S1x128).view.loc (c : Thread nD τ) ↦[((sbuf.slice (Rect.unit (s := S128x1x128) ![112, 0, 0] S1x1x128.size inb_S128x1x128_S1x1x128_112_0_0) (fun _ => rfl)).squeeze S1x128 squeezes_S1x1x128_S1x128).view.set]{fullShare} f)
      ∗ (((sbuf.slice (Rect.unit (s := S128x1x128) ![113, 0, 0] S1x1x128.size inb_S128x1x128_S1x1x128_113_0_0) (fun _ => rfl)).squeeze S1x128 squeezes_S1x1x128_S1x128).view.loc (c : Thread nD τ) ↦[((sbuf.slice (Rect.unit (s := S128x1x128) ![113, 0, 0] S1x1x128.size inb_S128x1x128_S1x1x128_113_0_0) (fun _ => rfl)).squeeze S1x128 squeezes_S1x1x128_S1x128).view.set]{fullShare} f)
      ∗ (((sbuf.slice (Rect.unit (s := S128x1x128) ![114, 0, 0] S1x1x128.size inb_S128x1x128_S1x1x128_114_0_0) (fun _ => rfl)).squeeze S1x128 squeezes_S1x1x128_S1x128).view.loc (c : Thread nD τ) ↦[((sbuf.slice (Rect.unit (s := S128x1x128) ![114, 0, 0] S1x1x128.size inb_S128x1x128_S1x1x128_114_0_0) (fun _ => rfl)).squeeze S1x128 squeezes_S1x1x128_S1x128).view.set]{fullShare} f)
      ∗ (((sbuf.slice (Rect.unit (s := S128x1x128) ![115, 0, 0] S1x1x128.size inb_S128x1x128_S1x1x128_115_0_0) (fun _ => rfl)).squeeze S1x128 squeezes_S1x1x128_S1x128).view.loc (c : Thread nD τ) ↦[((sbuf.slice (Rect.unit (s := S128x1x128) ![115, 0, 0] S1x1x128.size inb_S128x1x128_S1x1x128_115_0_0) (fun _ => rfl)).squeeze S1x128 squeezes_S1x1x128_S1x128).view.set]{fullShare} f)
      ∗ (((sbuf.slice (Rect.unit (s := S128x1x128) ![116, 0, 0] S1x1x128.size inb_S128x1x128_S1x1x128_116_0_0) (fun _ => rfl)).squeeze S1x128 squeezes_S1x1x128_S1x128).view.loc (c : Thread nD τ) ↦[((sbuf.slice (Rect.unit (s := S128x1x128) ![116, 0, 0] S1x1x128.size inb_S128x1x128_S1x1x128_116_0_0) (fun _ => rfl)).squeeze S1x128 squeezes_S1x1x128_S1x128).view.set]{fullShare} f)
      ∗ (((sbuf.slice (Rect.unit (s := S128x1x128) ![117, 0, 0] S1x1x128.size inb_S128x1x128_S1x1x128_117_0_0) (fun _ => rfl)).squeeze S1x128 squeezes_S1x1x128_S1x128).view.loc (c : Thread nD τ) ↦[((sbuf.slice (Rect.unit (s := S128x1x128) ![117, 0, 0] S1x1x128.size inb_S128x1x128_S1x1x128_117_0_0) (fun _ => rfl)).squeeze S1x128 squeezes_S1x1x128_S1x128).view.set]{fullShare} f)
      ∗ (((sbuf.slice (Rect.unit (s := S128x1x128) ![118, 0, 0] S1x1x128.size inb_S128x1x128_S1x1x128_118_0_0) (fun _ => rfl)).squeeze S1x128 squeezes_S1x1x128_S1x128).view.loc (c : Thread nD τ) ↦[((sbuf.slice (Rect.unit (s := S128x1x128) ![118, 0, 0] S1x1x128.size inb_S128x1x128_S1x1x128_118_0_0) (fun _ => rfl)).squeeze S1x128 squeezes_S1x1x128_S1x128).view.set]{fullShare} f)
      ∗ (((sbuf.slice (Rect.unit (s := S128x1x128) ![119, 0, 0] S1x1x128.size inb_S128x1x128_S1x1x128_119_0_0) (fun _ => rfl)).squeeze S1x128 squeezes_S1x1x128_S1x128).view.loc (c : Thread nD τ) ↦[((sbuf.slice (Rect.unit (s := S128x1x128) ![119, 0, 0] S1x1x128.size inb_S128x1x128_S1x1x128_119_0_0) (fun _ => rfl)).squeeze S1x128 squeezes_S1x1x128_S1x128).view.set]{fullShare} f)
      ∗ (((sbuf.slice (Rect.unit (s := S128x1x128) ![120, 0, 0] S1x1x128.size inb_S128x1x128_S1x1x128_120_0_0) (fun _ => rfl)).squeeze S1x128 squeezes_S1x1x128_S1x128).view.loc (c : Thread nD τ) ↦[((sbuf.slice (Rect.unit (s := S128x1x128) ![120, 0, 0] S1x1x128.size inb_S128x1x128_S1x1x128_120_0_0) (fun _ => rfl)).squeeze S1x128 squeezes_S1x1x128_S1x128).view.set]{fullShare} f)
      ∗ (((sbuf.slice (Rect.unit (s := S128x1x128) ![121, 0, 0] S1x1x128.size inb_S128x1x128_S1x1x128_121_0_0) (fun _ => rfl)).squeeze S1x128 squeezes_S1x1x128_S1x128).view.loc (c : Thread nD τ) ↦[((sbuf.slice (Rect.unit (s := S128x1x128) ![121, 0, 0] S1x1x128.size inb_S128x1x128_S1x1x128_121_0_0) (fun _ => rfl)).squeeze S1x128 squeezes_S1x1x128_S1x128).view.set]{fullShare} f)
      ∗ (((sbuf.slice (Rect.unit (s := S128x1x128) ![122, 0, 0] S1x1x128.size inb_S128x1x128_S1x1x128_122_0_0) (fun _ => rfl)).squeeze S1x128 squeezes_S1x1x128_S1x128).view.loc (c : Thread nD τ) ↦[((sbuf.slice (Rect.unit (s := S128x1x128) ![122, 0, 0] S1x1x128.size inb_S128x1x128_S1x1x128_122_0_0) (fun _ => rfl)).squeeze S1x128 squeezes_S1x1x128_S1x128).view.set]{fullShare} f)
      ∗ (((sbuf.slice (Rect.unit (s := S128x1x128) ![123, 0, 0] S1x1x128.size inb_S128x1x128_S1x1x128_123_0_0) (fun _ => rfl)).squeeze S1x128 squeezes_S1x1x128_S1x128).view.loc (c : Thread nD τ) ↦[((sbuf.slice (Rect.unit (s := S128x1x128) ![123, 0, 0] S1x1x128.size inb_S128x1x128_S1x1x128_123_0_0) (fun _ => rfl)).squeeze S1x128 squeezes_S1x1x128_S1x128).view.set]{fullShare} f)
      ∗ (((sbuf.slice (Rect.unit (s := S128x1x128) ![124, 0, 0] S1x1x128.size inb_S128x1x128_S1x1x128_124_0_0) (fun _ => rfl)).squeeze S1x128 squeezes_S1x1x128_S1x128).view.loc (c : Thread nD τ) ↦[((sbuf.slice (Rect.unit (s := S128x1x128) ![124, 0, 0] S1x1x128.size inb_S128x1x128_S1x1x128_124_0_0) (fun _ => rfl)).squeeze S1x128 squeezes_S1x1x128_S1x128).view.set]{fullShare} f)
      ∗ (((sbuf.slice (Rect.unit (s := S128x1x128) ![125, 0, 0] S1x1x128.size inb_S128x1x128_S1x1x128_125_0_0) (fun _ => rfl)).squeeze S1x128 squeezes_S1x1x128_S1x128).view.loc (c : Thread nD τ) ↦[((sbuf.slice (Rect.unit (s := S128x1x128) ![125, 0, 0] S1x1x128.size inb_S128x1x128_S1x1x128_125_0_0) (fun _ => rfl)).squeeze S1x128 squeezes_S1x1x128_S1x128).view.set]{fullShare} f)
      ∗ (((sbuf.slice (Rect.unit (s := S128x1x128) ![126, 0, 0] S1x1x128.size inb_S128x1x128_S1x1x128_126_0_0) (fun _ => rfl)).squeeze S1x128 squeezes_S1x1x128_S1x128).view.loc (c : Thread nD τ) ↦[((sbuf.slice (Rect.unit (s := S128x1x128) ![126, 0, 0] S1x1x128.size inb_S128x1x128_S1x1x128_126_0_0) (fun _ => rfl)).squeeze S1x128 squeezes_S1x1x128_S1x128).view.set]{fullShare} f)
      ∗ (((sbuf.slice (Rect.unit (s := S128x1x128) ![127, 0, 0] S1x1x128.size inb_S128x1x128_S1x1x128_127_0_0) (fun _ => rfl)).squeeze S1x128 squeezes_S1x1x128_S1x128).view.loc (c : Thread nD τ) ↦[((sbuf.slice (Rect.unit (s := S128x1x128) ![127, 0, 0] S1x1x128.size inb_S128x1x128_S1x1x128_127_0_0) (fun _ => rfl)).squeeze S1x128 squeezes_S1x1x128_S1x128).view.set]{fullShare} f)) := by
  have h := (sbuf_rows_big c f).trans
    (bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List (Fin 128)) (by decide +kernel) (by decide +kernel)
      (fun j : Fin 128 => ((rowS j).view.loc (c : Thread nD τ) ↦[(rowS j).view.set]{fullShare} f : sProp 𝕄)))
  exact ⟨Entails.of_eq h, Entails.of_eq h.symm⟩

/-! ## The table's words, and what the two row buffers hold once every copy has landed -/

/-- A one-word load of the table at offset `n` reads the table's word `n`. -/
theorem tbl_read (c : Dev nD) (xt : BufOf (F := F) c tbM) (off : Fin 1 → ℕ) (n : ℕ) (hn : n < 16384)
    (hoff : off 0 = n) (inb : ∀ a, off a + S1.size a ≤ S16384.size a) (j : S1.Idx) :
    tbM.view.readAt (Elt F) (Rect.unit (s := S16384) off S1.size inb).toLoadRect xt j = (xt : IVec S16384 32) (ix1 ⟨n, hn⟩) := by
  show (xt : IVec S16384 32) ((Rect.unit (s := S16384) off S1.size inb).emb j) = _
  congr 1
  funext a
  refine Fin.ext ?_
  match a with
  | ⟨0, _⟩ =>
    rw [Rect.emb_apply]
    show off 0 + 1 * (j 0).val = n
    have : (j 0).val < 1 := (j 0).isLt
    omega

/-- Every word of a table all of whose loads are in range is in range. -/
theorem xt_lt (c : Dev nD) (xt : BufOf (F := F) c tbM)
    (hr : ∀ (r : LoadRect S16384) (j : r.shape.Idx), ((tbM.view.readAt (Elt F) r xt j : Elt F .i32) : BitVec 32).toNat < 50257)
    (n : Fin 16384) : ((xt : IVec S16384 32) (ix1 n)).toNat < 50257 := by
  have inb : ∀ a, (![n.val] : Fin 1 → ℕ) a + S1.size a ≤ S16384.size a := by
    intro a
    match a with
    | ⟨0, _⟩ => show n.val + 1 ≤ 16384; have := n.isLt; omega
  have h := hr (Rect.unit (s := S16384) ![n.val] S1.size inb).toLoadRect (show S1.Idx from ix1 (0 : Fin 1))
  rw [tbl_read c xt ![n.val] n.val n.isLt rfl inb] at h
  exact h

/-- The table's word for slot `r` of grid point `i`: word `i·128 + r`. -/
def word (c : Dev nD) (xt : BufOf (F := F) c tbM) (i : grid0.Coords) (r : Fin 128) : BitVec 32 :=
  (xt : IVec S16384 32) (ix1 ⟨(i 0).val * 128 + r.val, by
    have h0 : (i 0).val < 128 := (i 0).isLt
    have := r.isLt
    omega⟩)

theorem word_lt (c : Dev nD) (xt : BufOf (F := F) c tbM)
    (hr : ∀ (r : LoadRect S16384) (j : r.shape.Idx), ((tbM.view.readAt (Elt F) r xt j : Elt F .i32) : BitVec 32).toNat < 50257)
    (i : grid0.Coords) (r : Fin 128) : (word c xt i r).toNat < 50257 := xt_lt c xt hr _

/-- The word index the kernel computes for slot `j` of point `i0`: `i0·128 + j`, without wrap-around. -/
theorem word_idx (i0 j : ℕ) (h0 : i0 < 128) (hj : j < 128) :
    (Scalar.indexCast (Scalar.addi (Scalar.muli (BitVec.ofNat 32 i0) 128#32) (BitVec.ofNat 32 j))).toNat = i0 * 128 + j := by
  show ((BitVec.ofNat 32 i0 * 128#32) + BitVec.ofNat 32 j).toNat = _
  rw [BitVec.toNat_add, BitVec.toNat_mul, BitVec.toNat_ofNat, BitVec.toNat_ofNat]
  show ((i0 % 2 ^ 32) * 128 % 2 ^ 32 + j % 2 ^ 32) % 2 ^ 32 = _
  omega

/-- A one-word load of the table at the offset the kernel computes for slot `r` is `word … r`. -/
theorem word_read (c : Dev nD) (xt : BufOf (F := F) c tbM) (i : grid0.Coords) (r : Fin 128) (off : Fin 1 → ℕ)
    (hoff : off 0 = (Scalar.indexCast (Scalar.addi (Scalar.muli (BitVec.ofNat 32 (i 0).val) 128#32) (BitVec.ofNat 32 r.val))).toNat)
    (inb : ∀ a, off a + S1.size a ≤ S16384.size a) (j : S1.Idx) :
    tbM.view.readAt (Elt F) (Rect.unit (s := S16384) off S1.size inb).toLoadRect xt j = word c xt i r := by
  have h0 : (i 0).val < 128 := (i 0).isLt
  have hn : (i 0).val * 128 + r.val < 16384 := by have := r.isLt; omega
  exact tbl_read c xt off ((i 0).val * 128 + r.val) hn (hoff.trans (word_idx _ _ h0 r.isLt)) inb j

/-- The weight row buffer once every copy has landed: row `r` is the weight array's row that the word of slot `r` names. -/
def Gw (c : Dev nD) (i : grid0.Coords) (xt : BufOf (F := F) c tbM) (fw : BufOf (F := F) c wM)
    (hr : ∀ (r : LoadRect S16384) (j : r.shape.Idx), ((tbM.view.readAt (Elt F) r xt j : Elt F .i32) : BitVec 32).toNat < 50257) :
    BufOf (F := F) c wbuf :=
  fun x : S128x1x1024.Idx => (fw : FVec F S50257x1x1024 .f32) (ix3 (⟨(word c xt i (x 0)).toNat, word_lt c xt hr i (x 0)⟩ : Fin 50257) (0 : Fin 1) (x 2))

/-- The scale row buffer once every copy has landed. -/
def Gs (c : Dev nD) (i : grid0.Coords) (xt : BufOf (F := F) c tbM) (fs : BufOf (F := F) c sM)
    (hr : ∀ (r : LoadRect S16384) (j : r.shape.Idx), ((tbM.view.readAt (Elt F) r xt j : Elt F .i32) : BitVec 32).toNat < 50257) :
    BufOf (F := F) c sbuf :=
  fun x : S128x1x128.Idx => (fs : FVec F S50257x1x128 .f32) (ix3 (⟨(word c xt i (x 0)).toNat, word_lt c xt hr i (x 0)⟩ : Fin 50257) (0 : Fin 1) (x 2))

theorem Gw_apply (c : Dev nD) (i : grid0.Coords) (xt : BufOf (F := F) c tbM) (fw : BufOf (F := F) c wM) (hr) (r : Fin 128) (d : Fin 1024) :
    (Gw c i xt fw hr : FVec F S128x1x1024 .f32) (ix3 r (0 : Fin 1) d)
      = (fw : FVec F S50257x1x1024 .f32) (ix3 (⟨(word c xt i r).toNat, word_lt c xt hr i r⟩ : Fin 50257) (0 : Fin 1) d) := rfl

theorem Gs_apply (c : Dev nD) (i : grid0.Coords) (xt : BufOf (F := F) c tbM) (fs : BufOf (F := F) c sM) (hr) (r : Fin 128) (d : Fin 128) :
    (Gs c i xt fs hr : FVec F S128x1x128 .f32) (ix3 r (0 : Fin 1) d)
      = (fs : FVec F S50257x1x128 .f32) (ix3 (⟨(word c xt i r).toNat, word_lt c xt hr i r⟩ : Fin 50257) (0 : Fin 1) d) := rfl

/-! ## One weight row restated -/

/-- Row `j` held at contents that agree with `G` on the row is row `j` held at `G`. -/
theorem rowW_congr (c : Dev nD) (j : Fin 128) (X G : BufOf (F := F) c wbuf)
    (h : ∀ d : Fin 1024, (X : FVec F S128x1x1024 .f32) (ix3 j (0 : Fin 1) d) = (G : FVec F S128x1x1024 .f32) (ix3 j (0 : Fin 1) d)) :
    ((rowW j).view.loc (c : Thread nD τ) ↦[(rowW j).view.set]{fullShare} X : sProp 𝕄)
      = ((rowW j).view.loc (c : Thread nD τ) ↦[(rowW j).view.set]{fullShare} G) := by
  refine pointsTo_congr (fun x hx => ?_)
  have hx' : (x : S128x1x1024.Idx) ∈ rowSetW c j := hx
  rw [mem_rowSetW] at hx'
  have e : (x : S128x1x1024.Idx) = ix3 j (0 : Fin 1) ((x : S128x1x1024.Idx) 2) := by
    funext a
    match a with
    | ⟨0, _⟩ => exact Fin.ext hx'
    | ⟨1, h1⟩ =>
      refine Fin.ext ?_
      have hlt : ((x : S128x1x1024.Idx) ⟨1, h1⟩).val < 1 := ((x : S128x1x1024.Idx) ⟨1, h1⟩).isLt
      show ((x : S128x1x1024.Idx) ⟨1, h1⟩).val = 0
      omega
    | ⟨2, _⟩ => rfl
  have hh := h ((x : S128x1x1024.Idx) 2)
  exact (congrArg (fun y => X y) e).trans (hh.trans (congrArg (fun y => G y) e).symm)

/-- What one landed copy leaves in row `j`, at the row's entries: the payload. -/
theorem rowW_writes_apply (c : Dev nD) (j : Fin 128) (fb : BufOf (F := F) c wbuf) (p : S1x1024.Idx → Elt F .f32) (d : Fin 1024) :
    ((rowW j).view.writes (Elt F) fb [⟨Rect.whole S1x1024, p⟩] : FVec F S128x1x1024 .f32) (ix3 j (0 : Fin 1) d) = p (ix2 (0 : Fin 1) d) := by
  show (((rowW j).view.slice (Rect.whole S1x1024)).write (Elt F) fb p Finset.univ : FVec F S128x1x1024 .f32) (ix3 j (0 : Fin 1) d) = _
  have he : ((rowW j).view.slice (Rect.whole S1x1024)).emb (ix2 (0 : Fin 1) d) = (ix3 j (0 : Fin 1) d : S128x1x1024.Idx) := by
    show (rowW j).view.emb ((Rect.whole S1x1024).emb (ix2 (0 : Fin 1) d)) = _
    rw [Rect.emb_whole_apply, rowW_emb]
  rw [← he]
  exact View.write_emb_of_mem _ _ (Finset.mem_univ _)

/-- Row `j` after its copy has landed, restated at the one function of the buffer's index: the payload's entries are
    the weight array's at the row the word of slot `j` names (`hp`). -/
theorem wrow_fix (c : Dev nD) (i : grid0.Coords) (xt : BufOf (F := F) c tbM) (fw : BufOf (F := F) c wM)
    (hr : ∀ (r : LoadRect S16384) (j : r.shape.Idx), ((tbM.view.readAt (Elt F) r xt j : Elt F .i32) : BitVec 32).toNat < 50257)
    (j : Fin 128) (fb : BufOf (F := F) c wbuf) (p : S1x1024.Idx → Elt F .f32)
    (hp : ∀ d : Fin 1024, p (ix2 (0 : Fin 1) d)
      = (fw : FVec F S50257x1x1024 .f32) (ix3 (⟨(word c xt i j).toNat, word_lt c xt hr i j⟩ : Fin 50257) (0 : Fin 1) d)) :
    ((rowW j).view.loc (c : Thread nD τ) ↦[(rowW j).view.set]{fullShare} (rowW j).view.writes (Elt F) fb [⟨Rect.whole S1x1024, p⟩] : sProp 𝕄)
      ⊢ ((rowW j).view.loc (c : Thread nD τ) ↦[(rowW j).view.set]{fullShare} Gw c i xt fw hr) :=
  Entails.of_eq (rowW_congr c j _ _ (fun d => (rowW_writes_apply c j fb p d).trans (hp d)))

/-- The payload of the copy for slot `j`, entry by entry: the source is the one-row slice of the weight array at the
    row the slot's word names. (`w` is the word as the run names it; `hw` identifies it.) -/
theorem wpay_fact (c : Dev nD) (i : grid0.Coords) (xt : BufOf (F := F) c tbM) (fw : BufOf (F := F) c wM)
    (hr : ∀ (r : LoadRect S16384) (j : r.shape.Idx), ((tbM.view.readAt (Elt F) r xt j : Elt F .i32) : BitVec 32).toNat < 50257)
    (j : Fin 128) (w : BitVec 32) (hw : w = word c xt i j)
    (inb : ∀ a, (![w.toNat, 0, 0] : Fin 3 → ℕ) a + S1x1x1024.size a ≤ S50257x1x1024.size a) (hst) (hsq) (d : Fin 1024) :
    ReadAs.same.apply (((wM.slice (Rect.unit ![w.toNat, 0, 0] S1x1x1024.size inb) hst).squeeze S1x1024 hsq).view.read (Elt F) fw) (ix2 (0 : Fin 1) d)
      = (fw : FVec F S50257x1x1024 .f32) (ix3 (⟨(word c xt i j).toNat, word_lt c xt hr i j⟩ : Fin 50257) (0 : Fin 1) d) := by
  subst hw
  have hc : (Rect.unit (s := S50257x1x1024) ![(word c xt i j).toNat, 0, 0] S1x1x1024.size inb).shape.ShapeCasts S1x1024 :=
    (by decide : S1x1x1024.ShapeCasts S1x1024)
  show ((wM.slice (Rect.unit ![(word c xt i j).toNat, 0, 0] S1x1x1024.size inb) hst).squeeze S1x1024 hsq).view.read (Elt F) fw (ix2 (0 : Fin 1) d) = _
  rw [Memref.read_squeeze_slice wM _ hst hsq hc fw]
  rw [shapeCast_apply _ hc (ix2 (0 : Fin 1) d) (ix3 (0 : Fin 1) (0 : Fin 1) d) (by
    rw [Shape.rowMajor_val_three, Shape.rowMajor_val_two]; rfl)]
  show (fw : FVec F S50257x1x1024 .f32) ((Rect.unit (s := S50257x1x1024) ![(word c xt i j).toNat, 0, 0] S1x1x1024.size inb).emb (ix3 (0 : Fin 1) (0 : Fin 1) d)) = _
  congr 1
  funext a
  refine Fin.ext ?_
  match a with
  | ⟨0, _⟩ => rw [Rect.emb_apply]; show (word c xt i j).toNat + 1 * 0 = (word c xt i j).toNat; omega
  | ⟨1, _⟩ => rw [Rect.emb_apply]; show 0 + 1 * 0 = 0; omega
  | ⟨2, _⟩ => rw [Rect.emb_apply]; show 0 + 1 * d.val = d.val; omega

/-- `wrow_fix` with the row given by its number and the memref's proofs left free, so that it applies to the
    row as the body spells it. -/
theorem wrow_fix_nat (c : Dev nD) (i : grid0.Coords) (xt : BufOf (F := F) c tbM) (fw : BufOf (F := F) c wM)
    (hr : ∀ (r : LoadRect S16384) (j : r.shape.Idx), ((tbM.view.readAt (Elt F) r xt j : Elt F .i32) : BitVec 32).toNat < 50257)
    (j : ℕ) (hj : j < 128) (inb : ∀ a, (![j, 0, 0] : Fin 3 → ℕ) a + S1x1x1024.size a ≤ S128x1x1024.size a)
    (hst : ∀ a, (Rect.unit (s := S128x1x1024) ![j, 0, 0] S1x1x1024.size inb).stride a = 1)
    (hsq : (Rect.unit (s := S128x1x1024) ![j, 0, 0] S1x1x1024.size inb).shape.Squeezes S1x1024)
    (fb : BufOf (F := F) c wbuf) (p : S1x1024.Idx → Elt F .f32)
    (hp : ∀ d : Fin 1024, p (ix2 (0 : Fin 1) d)
      = (fw : FVec F S50257x1x1024 .f32) (ix3 (⟨(word c xt i ⟨j, hj⟩).toNat, word_lt c xt hr i ⟨j, hj⟩⟩ : Fin 50257) (0 : Fin 1) d)) :
    (((wbuf.slice (Rect.unit (s := S128x1x1024) ![j, 0, 0] S1x1x1024.size inb) hst).squeeze S1x1024 hsq).view.loc (c : Thread nD τ)
        ↦[((wbuf.slice (Rect.unit (s := S128x1x1024) ![j, 0, 0] S1x1x1024.size inb) hst).squeeze S1x1024 hsq).view.set]{fullShare}
        ((wbuf.slice (Rect.unit (s := S128x1x1024) ![j, 0, 0] S1x1x1024.size inb) hst).squeeze S1x1024 hsq).view.writes (Elt F) fb [⟨Rect.whole S1x1024, p⟩] : sProp 𝕄)
      ⊢ (((wbuf.slice (Rect.unit (s := S128x1x1024) ![j, 0, 0] S1x1x1024.size inb) hst).squeeze S1x1024 hsq).view.loc (c : Thread nD τ)
        ↦[((wbuf.slice (Rect.unit (s := S128x1x1024) ![j, 0, 0] S1x1x1024.size inb) hst).squeeze S1x1024 hsq).view.set]{fullShare} Gw c i xt fw hr) :=
  wrow_fix c i xt fw hr ⟨j, hj⟩ fb p hp

/-! ## One scale row restated -/

/-- Row `j` held at contents that agree with `G` on the row is row `j` held at `G`. -/
theorem rowS_congr (c : Dev nD) (j : Fin 128) (X G : BufOf (F := F) c sbuf)
    (h : ∀ d : Fin 128, (X : FVec F S128x1x128 .f32) (ix3 j (0 : Fin 1) d) = (G : FVec F S128x1x128 .f32) (ix3 j (0 : Fin 1) d)) :
    ((rowS j).view.loc (c : Thread nD τ) ↦[(rowS j).view.set]{fullShare} X : sProp 𝕄)
      = ((rowS j).view.loc (c : Thread nD τ) ↦[(rowS j).view.set]{fullShare} G) := by
  refine pointsTo_congr (fun x hx => ?_)
  have hx' : (x : S128x1x128.Idx) ∈ rowSetS c j := hx
  rw [mem_rowSetS] at hx'
  have e : (x : S128x1x128.Idx) = ix3 j (0 : Fin 1) ((x : S128x1x128.Idx) 2) := by
    funext a
    match a with
    | ⟨0, _⟩ => exact Fin.ext hx'
    | ⟨1, h1⟩ =>
      refine Fin.ext ?_
      have hlt : ((x : S128x1x128.Idx) ⟨1, h1⟩).val < 1 := ((x : S128x1x128.Idx) ⟨1, h1⟩).isLt
      show ((x : S128x1x128.Idx) ⟨1, h1⟩).val = 0
      omega
    | ⟨2, _⟩ => rfl
  have hh := h ((x : S128x1x128.Idx) 2)
  exact (congrArg (fun y => X y) e).trans (hh.trans (congrArg (fun y => G y) e).symm)

/-- What one landed copy leaves in row `j`, at the row's entries: the payload. -/
theorem rowS_writes_apply (c : Dev nD) (j : Fin 128) (fb : BufOf (F := F) c sbuf) (p : S1x128.Idx → Elt F .f32) (d : Fin 128) :
    ((rowS j).view.writes (Elt F) fb [⟨Rect.whole S1x128, p⟩] : FVec F S128x1x128 .f32) (ix3 j (0 : Fin 1) d) = p (ix2 (0 : Fin 1) d) := by
  show (((rowS j).view.slice (Rect.whole S1x128)).write (Elt F) fb p Finset.univ : FVec F S128x1x128 .f32) (ix3 j (0 : Fin 1) d) = _
  have he : ((rowS j).view.slice (Rect.whole S1x128)).emb (ix2 (0 : Fin 1) d) = (ix3 j (0 : Fin 1) d : S128x1x128.Idx) := by
    show (rowS j).view.emb ((Rect.whole S1x128).emb (ix2 (0 : Fin 1) d)) = _
    rw [Rect.emb_whole_apply, rowS_emb]
  rw [← he]
  exact View.write_emb_of_mem _ _ (Finset.mem_univ _)

/-- Row `j` after its copy has landed, restated at the one function of the buffer's index: the payload's entries are
    the padded scale array's at the row the word of slot `j` names (`hp`). -/
theorem srow_fix (c : Dev nD) (i : grid0.Coords) (xt : BufOf (F := F) c tbM) (fs : BufOf (F := F) c sM)
    (hr : ∀ (r : LoadRect S16384) (j : r.shape.Idx), ((tbM.view.readAt (Elt F) r xt j : Elt F .i32) : BitVec 32).toNat < 50257)
    (j : Fin 128) (fb : BufOf (F := F) c sbuf) (p : S1x128.Idx → Elt F .f32)
    (hp : ∀ d : Fin 128, p (ix2 (0 : Fin 1) d)
      = (fs : FVec F S50257x1x128 .f32) (ix3 (⟨(word c xt i j).toNat, word_lt c xt hr i j⟩ : Fin 50257) (0 : Fin 1) d)) :
    ((rowS j).view.loc (c : Thread nD τ) ↦[(rowS j).view.set]{fullShare} (rowS j).view.writes (Elt F) fb [⟨Rect.whole S1x128, p⟩] : sProp 𝕄)
      ⊢ ((rowS j).view.loc (c : Thread nD τ) ↦[(rowS j).view.set]{fullShare} Gs c i xt fs hr) :=
  Entails.of_eq (rowS_congr c j _ _ (fun d => (rowS_writes_apply c j fb p d).trans (hp d)))

/-- The payload of the copy for slot `j`, entry by entry: the source is the one-row slice of the padded scale array at the
    row the slot's word names. (`w` is the word as the run names it; `hw` identifies it.) -/
theorem spay_fact (c : Dev nD) (i : grid0.Coords) (xt : BufOf (F := F) c tbM) (fs : BufOf (F := F) c sM)
    (hr : ∀ (r : LoadRect S16384) (j : r.shape.Idx), ((tbM.view.readAt (Elt F) r xt j : Elt F .i32) : BitVec 32).toNat < 50257)
    (j : Fin 128) (w : BitVec 32) (hw : w = word c xt i j)
    (inb : ∀ a, (![w.toNat, 0, 0] : Fin 3 → ℕ) a + S1x1x128.size a ≤ S50257x1x128.size a) (hst) (hsq) (d : Fin 128) :
    ReadAs.same.apply (((sM.slice (Rect.unit ![w.toNat, 0, 0] S1x1x128.size inb) hst).squeeze S1x128 hsq).view.read (Elt F) fs) (ix2 (0 : Fin 1) d)
      = (fs : FVec F S50257x1x128 .f32) (ix3 (⟨(word c xt i j).toNat, word_lt c xt hr i j⟩ : Fin 50257) (0 : Fin 1) d) := by
  subst hw
  have hc : (Rect.unit (s := S50257x1x128) ![(word c xt i j).toNat, 0, 0] S1x1x128.size inb).shape.ShapeCasts S1x128 :=
    (by decide : S1x1x128.ShapeCasts S1x128)
  show ((sM.slice (Rect.unit ![(word c xt i j).toNat, 0, 0] S1x1x128.size inb) hst).squeeze S1x128 hsq).view.read (Elt F) fs (ix2 (0 : Fin 1) d) = _
  rw [Memref.read_squeeze_slice sM _ hst hsq hc fs]
  rw [shapeCast_apply _ hc (ix2 (0 : Fin 1) d) (ix3 (0 : Fin 1) (0 : Fin 1) d) (by
    rw [Shape.rowMajor_val_three, Shape.rowMajor_val_two]; rfl)]
  show (fs : FVec F S50257x1x128 .f32) ((Rect.unit (s := S50257x1x128) ![(word c xt i j).toNat, 0, 0] S1x1x128.size inb).emb (ix3 (0 : Fin 1) (0 : Fin 1) d)) = _
  congr 1
  funext a
  refine Fin.ext ?_
  match a with
  | ⟨0, _⟩ => rw [Rect.emb_apply]; show (word c xt i j).toNat + 1 * 0 = (word c xt i j).toNat; omega
  | ⟨1, _⟩ => rw [Rect.emb_apply]; show 0 + 1 * 0 = 0; omega
  | ⟨2, _⟩ => rw [Rect.emb_apply]; show 0 + 1 * d.val = d.val; omega

/-- `srow_fix` with the row given by its number and the memref's proofs left free, so that it applies to the
    row as the body spells it. -/
theorem srow_fix_nat (c : Dev nD) (i : grid0.Coords) (xt : BufOf (F := F) c tbM) (fs : BufOf (F := F) c sM)
    (hr : ∀ (r : LoadRect S16384) (j : r.shape.Idx), ((tbM.view.readAt (Elt F) r xt j : Elt F .i32) : BitVec 32).toNat < 50257)
    (j : ℕ) (hj : j < 128) (inb : ∀ a, (![j, 0, 0] : Fin 3 → ℕ) a + S1x1x128.size a ≤ S128x1x128.size a)
    (hst : ∀ a, (Rect.unit (s := S128x1x128) ![j, 0, 0] S1x1x128.size inb).stride a = 1)
    (hsq : (Rect.unit (s := S128x1x128) ![j, 0, 0] S1x1x128.size inb).shape.Squeezes S1x128)
    (fb : BufOf (F := F) c sbuf) (p : S1x128.Idx → Elt F .f32)
    (hp : ∀ d : Fin 128, p (ix2 (0 : Fin 1) d)
      = (fs : FVec F S50257x1x128 .f32) (ix3 (⟨(word c xt i ⟨j, hj⟩).toNat, word_lt c xt hr i ⟨j, hj⟩⟩ : Fin 50257) (0 : Fin 1) d)) :
    (((sbuf.slice (Rect.unit (s := S128x1x128) ![j, 0, 0] S1x1x128.size inb) hst).squeeze S1x128 hsq).view.loc (c : Thread nD τ)
        ↦[((sbuf.slice (Rect.unit (s := S128x1x128) ![j, 0, 0] S1x1x128.size inb) hst).squeeze S1x128 hsq).view.set]{fullShare}
        ((sbuf.slice (Rect.unit (s := S128x1x128) ![j, 0, 0] S1x1x128.size inb) hst).squeeze S1x128 hsq).view.writes (Elt F) fb [⟨Rect.whole S1x128, p⟩] : sProp 𝕄)
      ⊢ (((sbuf.slice (Rect.unit (s := S128x1x128) ![j, 0, 0] S1x1x128.size inb) hst).squeeze S1x128 hsq).view.loc (c : Thread nD τ)
        ↦[((sbuf.slice (Rect.unit (s := S128x1x128) ![j, 0, 0] S1x1x128.size inb) hst).squeeze S1x128 hsq).view.set]{fullShare} Gs c i xt fs hr) :=
  srow_fix c i xt fs hr ⟨j, hj⟩ fb p hp

end Cert.Kernel.Fr

end
-- ==== Proof.BitsRun.lean ====
/-
  The body's run at a grid point.  Each of the two gathered arrays is held as 128 read shares, one for each of the
  128 row copies that read it at once, and each row buffer as its 128 rows, one for each copy that lands in it; the
  copies of a block land on one semaphore per array and are recorded as one batch per semaphore; every copy is waited
  for before anything is read.  After the last wait every row holds the row of the gathered array that the table's
  word for its slot names; the rows join back to the two row buffers at that one function of the index, and the rest
  of the body — the loads, the quantization, the one store — runs on from there.
-/
import proofs.«418394_j61838939127938_3_alg».proof.Proof.BitsRows

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Reading one array by 128 transfers at once -/

/-- Read share number `j` of the full share: what is cut off at the `j`-th halving. -/
def rtok (j : ℕ) : PosShare TreeShare := Transfers.shareTokN fullShare j

/-- A buffer held whole is 128 read shares of it and what remains after 128 halvings; and back. -/
theorem split128 {ℓ : Loc nD τ sig} (f : Buf (Elt F) ℓ) :
    (ℓ ↦{fullShare} f : sProp 𝕄) ⊣⊢ iprop((ℓ ↦{Transfers.shareDrop fullShare 128} f) ∗ (ℓ ↦{rtok 0} f) ∗ (ℓ ↦{rtok 1} f) ∗ (ℓ ↦{rtok 2} f) ∗ (ℓ ↦{rtok 3} f) ∗ (ℓ ↦{rtok 4} f) ∗ (ℓ ↦{rtok 5} f) ∗ (ℓ ↦{rtok 6} f) ∗ (ℓ ↦{rtok 7} f) ∗ (ℓ ↦{rtok 8} f) ∗ (ℓ ↦{rtok 9} f) ∗ (ℓ ↦{rtok 10} f) ∗ (ℓ ↦{rtok 11} f) ∗ (ℓ ↦{rtok 12} f) ∗ (ℓ ↦{rtok 13} f) ∗ (ℓ ↦{rtok 14} f) ∗ (ℓ ↦{rtok 15} f) ∗ (ℓ ↦{rtok 16} f) ∗ (ℓ ↦{rtok 17} f) ∗ (ℓ ↦{rtok 18} f) ∗ (ℓ ↦{rtok 19} f) ∗ (ℓ ↦{rtok 20} f) ∗ (ℓ ↦{rtok 21} f) ∗ (ℓ ↦{rtok 22} f) ∗ (ℓ ↦{rtok 23} f) ∗ (ℓ ↦{rtok 24} f) ∗ (ℓ ↦{rtok 25} f) ∗ (ℓ ↦{rtok 26} f) ∗ (ℓ ↦{rtok 27} f) ∗ (ℓ ↦{rtok 28} f) ∗ (ℓ ↦{rtok 29} f) ∗ (ℓ ↦{rtok 30} f) ∗ (ℓ ↦{rtok 31} f) ∗ (ℓ ↦{rtok 32} f) ∗ (ℓ ↦{rtok 33} f) ∗ (ℓ ↦{rtok 34} f) ∗ (ℓ ↦{rtok 35} f) ∗ (ℓ ↦{rtok 36} f) ∗ (ℓ ↦{rtok 37} f) ∗ (ℓ ↦{rtok 38} f) ∗ (ℓ ↦{rtok 39} f) ∗ (ℓ ↦{rtok 40} f) ∗ (ℓ ↦{rtok 41} f) ∗ (ℓ ↦{rtok 42} f) ∗ (ℓ ↦{rtok 43} f) ∗ (ℓ ↦{rtok 44} f) ∗ (ℓ ↦{rtok 45} f) ∗ (ℓ ↦{rtok 46} f) ∗ (ℓ ↦{rtok 47} f) ∗ (ℓ ↦{rtok 48} f) ∗ (ℓ ↦{rtok 49} f) ∗ (ℓ ↦{rtok 50} f) ∗ (ℓ ↦{rtok 51} f) ∗ (ℓ ↦{rtok 52} f) ∗ (ℓ ↦{rtok 53} f) ∗ (ℓ ↦{rtok 54} f) ∗ (ℓ ↦{rtok 55} f) ∗ (ℓ ↦{rtok 56} f) ∗ (ℓ ↦{rtok 57} f) ∗ (ℓ ↦{rtok 58} f) ∗ (ℓ ↦{rtok 59} f) ∗ (ℓ ↦{rtok 60} f) ∗ (ℓ ↦{rtok 61} f) ∗ (ℓ ↦{rtok 62} f) ∗ (ℓ ↦{rtok 63} f) ∗ (ℓ ↦{rtok 64} f) ∗ (ℓ ↦{rtok 65} f) ∗ (ℓ ↦{rtok 66} f) ∗ (ℓ ↦{rtok 67} f) ∗ (ℓ ↦{rtok 68} f) ∗ (ℓ ↦{rtok 69} f) ∗ (ℓ ↦{rtok 70} f) ∗ (ℓ ↦{rtok 71} f) ∗ (ℓ ↦{rtok 72} f) ∗ (ℓ ↦{rtok 73} f) ∗ (ℓ ↦{rtok 74} f) ∗ (ℓ ↦{rtok 75} f) ∗ (ℓ ↦{rtok 76} f) ∗ (ℓ ↦{rtok 77} f) ∗ (ℓ ↦{rtok 78} f) ∗ (ℓ ↦{rtok 79} f) ∗ (ℓ ↦{rtok 80} f) ∗ (ℓ ↦{rtok 81} f) ∗ (ℓ ↦{rtok 82} f) ∗ (ℓ ↦{rtok 83} f) ∗ (ℓ ↦{rtok 84} f) ∗ (ℓ ↦{rtok 85} f) ∗ (ℓ ↦{rtok 86} f) ∗ (ℓ ↦{rtok 87} f) ∗ (ℓ ↦{rtok 88} f) ∗ (ℓ ↦{rtok 89} f) ∗ (ℓ ↦{rtok 90} f) ∗ (ℓ ↦{rtok 91} f) ∗ (ℓ ↦{rtok 92} f) ∗ (ℓ ↦{rtok 93} f) ∗ (ℓ ↦{rtok 94} f) ∗ (ℓ ↦{rtok 95} f) ∗ (ℓ ↦{rtok 96} f) ∗ (ℓ ↦{rtok 97} f) ∗ (ℓ ↦{rtok 98} f) ∗ (ℓ ↦{rtok 99} f) ∗ (ℓ ↦{rtok 100} f) ∗ (ℓ ↦{rtok 101} f) ∗ (ℓ ↦{rtok 102} f) ∗ (ℓ ↦{rtok 103} f) ∗ (ℓ ↦{rtok 104} f) ∗ (ℓ ↦{rtok 105} f) ∗ (ℓ ↦{rtok 106} f) ∗ (ℓ ↦{rtok 107} f) ∗ (ℓ ↦{rtok 108} f) ∗ (ℓ ↦{rtok 109} f) ∗ (ℓ ↦{rtok 110} f) ∗ (ℓ ↦{rtok 111} f) ∗ (ℓ ↦{rtok 112} f) ∗ (ℓ ↦{rtok 113} f) ∗ (ℓ ↦{rtok 114} f) ∗ (ℓ ↦{rtok 115} f) ∗ (ℓ ↦{rtok 116} f) ∗ (ℓ ↦{rtok 117} f) ∗ (ℓ ↦{rtok 118} f) ∗ (ℓ ↦{rtok 119} f) ∗ (ℓ ↦{rtok 120} f) ∗ (ℓ ↦{rtok 121} f) ∗ (ℓ ↦{rtok 122} f) ∗ (ℓ ↦{rtok 123} f) ∗ (ℓ ↦{rtok 124} f) ∗ (ℓ ↦{rtok 125} f) ∗ (ℓ ↦{rtok 126} f) ∗ (ℓ ↦{rtok 127} f)) := by
  have h := Transfers.pointsTo_toks_range (Ix := Unit) (Name := ℕ) (U := Pipeline.UD sig nD τ) (Lvl := ℕ) (Val := Elt F) (ℓ := ℓ) (S := Finset.univ) (f := f) fullShare 128
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] (by decide) (by decide)] at h
  exact h

/-- An id in the table's range names a row inside the weight array and inside the padded scale array. -/
theorem inbW (v : BitVec 32) (h : v.toNat < 50257) : ∀ a, (![v.toNat, 0, 0] : Fin 3 → Nat) a + S1x1x1024.size a ≤ S50257x1x1024.size a := by
  intro a; fin_cases a <;> simp [Shape.size] <;> omega
theorem inbS (v : BitVec 32) (h : v.toNat < 50257) : ∀ a, (![v.toNat, 0, 0] : Fin 3 → Nat) a + S1x1x128.size a ≤ S50257x1x128.size a := by
  intro a; fin_cases a <;> simp [Shape.size] <;> omega

set_option maxHeartbeats 0 in
/-- What the body's one store leaves in the output's staging buffer, as a list of pieces, WITH the proof that from the
    staging buffer at anything, the two row buffers at anything, the table's half, the two cells at zero, the two
    gathered arrays whole and the core owing nothing, the body runs to its end holding all of them again — the rows of
    the two arrays named by the table's words copied into the row buffers, every copy waited for before anything is read. -/
noncomputable def kernelRun0 (c : Dev nD) (i : grid0.Coords) (arg4 : Memref sig .tc .vmem S128x1024 .f32) (harg4 : arg4.IsWhole)
    (xt : BufOf (F := F) c tbM) (fw : BufOf (F := F) c wM) (fs : BufOf (F := F) c sM)
    (hr : ∀ (r : LoadRect S16384) (j : r.shape.Idx), (tbM.view.readAt (Elt F) r xt j).toNat < 50257) :
    { L1 : List (View.Piece (Elt F) S128x1024 .f32) //
      ∀ (W : Waits sig Unit) (K : PUnit → sProp 𝕄),
        iprop((∃ d, owns (c : Thread nD τ) arg4 fullShare d) ∗ (∃ f, ptAt c wbuf fullShare f) ∗ (∃ f, ptAt c sbuf fullShare f)
            ∗ ptAt c tbM fullShare.right xt
            ∗ semVal ((c : Thread nD τ), SemLoc.dma 2) 0 ∗ semVal ((c : Thread nD τ), SemLoc.dma 3) 0
            ∗ ptAt c wM fullShare fw ∗ ptAt c sM fullShare fs ∗ owes (c : Thread nD τ) 0 W
            ∗ (iprop((∃ f, arg4.view.loc (c : Thread nD τ) ↦[arg4.view.set]{fullShare} arg4.view.writes (Elt F) f L1)
                ∗ (∃ f, ptAt c wbuf fullShare f) ∗ (∃ f, ptAt c sbuf fullShare f) ∗ ptAt c tbM fullShare.right xt
                ∗ semVal ((c : Thread nD τ), SemLoc.dma 2) 0 ∗ semVal ((c : Thread nD τ), SemLoc.dma 3) 0
                ∗ (∃ W', owes (c : Thread nD τ) 0 W') ∗ ptAt c wM fullShare fw ∗ ptAt c sM fullShare fs) -∗ K ⟨⟩))
          ⊢ wp frame (wpE (defs₀ (F := F)) Variants.none c none) Set.univ
              (cc0__gather_quant_kernel i tbM (Memref.isWhole_whole _) wM (Memref.isWhole_whole _) sM (Memref.isWhole_whole _) arg4 harg4
                wbuf (Memref.isWhole_whole _) sbuf (Memref.isWhole_whole _) cc0_scratch2 cc0_scratch3) K } := by
  refine ⟨?_, fun W K => ?run⟩
  case run =>
    have _pw : Transfers.BatchOf (c : Thread nD τ) (SemLoc.dma (sig := sig) 2) 128 := trivial
    have _ps : Transfers.BatchOf (c : Thread nD τ) (SemLoc.dma (sig := sig) 3) 128 := trivial
    unfold owns
    iintro ⟨⟨%d4, %f4, -, H4⟩, ⟨%fwb, HW⟩, ⟨%fsb, HS⟩, HT, Hq2, Hq3, HwM, HsM, HO, Hk⟩
    ihave HwM' := (split128 (F := F) fw).1 $$ HwM
    icases HwM' with ⟨HdW, A0, A1, A2, A3, A4, A5, A6, A7, A8, A9, A10, A11, A12, A13, A14, A15, A16, A17, A18, A19, A20, A21, A22, A23, A24, A25, A26, A27, A28, A29, A30, A31, A32, A33, A34, A35, A36, A37, A38, A39, A40, A41, A42, A43, A44, A45, A46, A47, A48, A49, A50, A51, A52, A53, A54, A55, A56, A57, A58, A59, A60, A61, A62, A63, A64, A65, A66, A67, A68, A69, A70, A71, A72, A73, A74, A75, A76, A77, A78, A79, A80, A81, A82, A83, A84, A85, A86, A87, A88, A89, A90, A91, A92, A93, A94, A95, A96, A97, A98, A99, A100, A101, A102, A103, A104, A105, A106, A107, A108, A109, A110, A111, A112, A113, A114, A115, A116, A117, A118, A119, A120, A121, A122, A123, A124, A125, A126, A127⟩
    ihave HsM' := (split128 (F := F) fs).1 $$ HsM
    icases HsM' with ⟨HdS, B0, B1, B2, B3, B4, B5, B6, B7, B8, B9, B10, B11, B12, B13, B14, B15, B16, B17, B18, B19, B20, B21, B22, B23, B24, B25, B26, B27, B28, B29, B30, B31, B32, B33, B34, B35, B36, B37, B38, B39, B40, B41, B42, B43, B44, B45, B46, B47, B48, B49, B50, B51, B52, B53, B54, B55, B56, B57, B58, B59, B60, B61, B62, B63, B64, B65, B66, B67, B68, B69, B70, B71, B72, B73, B74, B75, B76, B77, B78, B79, B80, B81, B82, B83, B84, B85, B86, B87, B88, B89, B90, B91, B92, B93, B94, B95, B96, B97, B98, B99, B100, B101, B102, B103, B104, B105, B106, B107, B108, B109, B110, B111, B112, B113, B114, B115, B116, B117, B118, B119, B120, B121, B122, B123, B124, B125, B126, B127⟩
    ihave HW' := (wbuf_rows c fwb).1 $$ HW
    icases HW' with ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127⟩
    ihave HS' := (sbuf_rows c fsb).1 $$ HS
    icases HS' with ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127⟩
    set_option sl_exec.stepHeartbeats 5000000 in
    sl_exec_parts (disch := first | exact ⟨inbW _ (hr _ _), inbS _ (hr _ _), inbW _ (hr _ _), inbS _ (hr _ _)⟩ | exact ⟨inbW _ (hr _ _), inbS _ (hr _ _)⟩)
    ihave R0 := (wrow_fix_nat c i xt fw hr 0 (by decide) _ _ _ _ _ ?_) $$ R0
    · exact (fun d => wpay_fact c i xt fw hr _ _ (word_read c xt i _ _ rfl _ _) _ _ _ d)
    ihave R1 := (wrow_fix_nat c i xt fw hr 1 (by decide) _ _ _ _ _ ?_) $$ R1
    · exact (fun d => wpay_fact c i xt fw hr _ _ (word_read c xt i _ _ rfl _ _) _ _ _ d)
    ihave R2 := (wrow_fix_nat c i xt fw hr 2 (by decide) _ _ _ _ _ ?_) $$ R2
    · exact (fun d => wpay_fact c i xt fw hr _ _ (word_read c xt i _ _ rfl _ _) _ _ _ d)
    ihave R3 := (wrow_fix_nat c i xt fw hr 3 (by decide) _ _ _ _ _ ?_) $$ R3
    · exact (fun d => wpay_fact c i xt fw hr _ _ (word_read c xt i _ _ rfl _ _) _ _ _ d)
    ihave R4 := (wrow_fix_nat c i xt fw hr 4 (by decide) _ _ _ _ _ ?_) $$ R4
    · exact (fun d => wpay_fact c i xt fw hr _ _ (word_read c xt i _ _ rfl _ _) _ _ _ d)
    ihave R5 := (wrow_fix_nat c i xt fw hr 5 (by decide) _ _ _ _ _ ?_) $$ R5
    · exact (fun d => wpay_fact c i xt fw hr _ _ (word_read c xt i _ _ rfl _ _) _ _ _ d)
    ihave R6 := (wrow_fix_nat c i xt fw hr 6 (by decide) _ _ _ _ _ ?_) $$ R6
    · exact (fun d => wpay_fact c i xt fw hr _ _ (word_read c xt i _ _ rfl _ _) _ _ _ d)
    ihave R7 := (wrow_fix_nat c i xt fw hr 7 (by decide) _ _ _ _ _ ?_) $$ R7
    · exact (fun d => wpay_fact c i xt fw hr _ _ (word_read c xt i _ _ rfl _ _) _ _ _ d)
    ihave R8 := (wrow_fix_nat c i xt fw hr 8 (by decide) _ _ _ _ _ ?_) $$ R8
    · exact (fun d => wpay_fact c i xt fw hr _ _ (word_read c xt i _ _ rfl _ _) _ _ _ d)
    ihave R9 := (wrow_fix_nat c i xt fw hr 9 (by decide) _ _ _ _ _ ?_) $$ R9
    · exact (fun d => wpay_fact c i xt fw hr _ _ (word_read c xt i _ _ rfl _ _) _ _ _ d)
    ihave R10 := (wrow_fix_nat c i xt fw hr 10 (by decide) _ _ _ _ _ ?_) $$ R10
    · exact (fun d => wpay_fact c i xt fw hr _ _ (word_read c xt i _ _ rfl _ _) _ _ _ d)
    ihave R11 := (wrow_fix_nat c i xt fw hr 11 (by decide) _ _ _ _ _ ?_) $$ R11
    · exact (fun d => wpay_fact c i xt fw hr _ _ (word_read c xt i _ _ rfl _ _) _ _ _ d)
    ihave R12 := (wrow_fix_nat c i xt fw hr 12 (by decide) _ _ _ _ _ ?_) $$ R12
    · exact (fun d => wpay_fact c i xt fw hr _ _ (word_read c xt i _ _ rfl _ _) _ _ _ d)
    ihave R13 := (wrow_fix_nat c i xt fw hr 13 (by decide) _ _ _ _ _ ?_) $$ R13
    · exact (fun d => wpay_fact c i xt fw hr _ _ (word_read c xt i _ _ rfl _ _) _ _ _ d)
    ihave R14 := (wrow_fix_nat c i xt fw hr 14 (by decide) _ _ _ _ _ ?_) $$ R14
    · exact (fun d => wpay_fact c i xt fw hr _ _ (word_read c xt i _ _ rfl _ _) _ _ _ d)
    ihave R15 := (wrow_fix_nat c i xt fw hr 15 (by decide) _ _ _ _ _ ?_) $$ R15
    · exact (fun d => wpay_fact c i xt fw hr _ _ (word_read c xt i _ _ rfl _ _) _ _ _ d)
    ihave R16 := (wrow_fix_nat c i xt fw hr 16 (by decide) _ _ _ _ _ ?_) $$ R16
    · exact (fun d => wpay_fact c i xt fw hr _ _ (word_read c xt i _ _ rfl _ _) _ _ _ d)
    ihave R17 := (wrow_fix_nat c i xt fw hr 17 (by decide) _ _ _ _ _ ?_) $$ R17
    · exact (fun d => wpay_fact c i xt fw hr _ _ (word_read c xt i _ _ rfl _ _) _ _ _ d)
    ihave R18 := (wrow_fix_nat c i xt fw hr 18 (by decide) _ _ _ _ _ ?_) $$ R18
    · exact (fun d => wpay_fact c i xt fw hr _ _ (word_read c xt i _ _ rfl _ _) _ _ _ d)
    ihave R19 := (wrow_fix_nat c i xt fw hr 19 (by decide) _ _ _ _ _ ?_) $$ R19
    · exact (fun d => wpay_fact c i xt fw hr _ _ (word_read c xt i _ _ rfl _ _) _ _ _ d)
    ihave R20 := (wrow_fix_nat c i xt fw hr 20 (by decide) _ _ _ _ _ ?_) $$ R20
    · exact (fun d => wpay_fact c i xt fw hr _ _ (word_read c xt i _ _ rfl _ _) _ _ _ d)
    ihave R21 := (wrow_fix_nat c i xt fw hr 21 (by decide) _ _ _ _ _ ?_) $$ R21
    · exact (fun d => wpay_fact c i xt fw hr _ _ (word_read c xt i _ _ rfl _ _) _ _ _ d)
    ihave R22 := (wrow_fix_nat c i xt fw hr 22 (by decide) _ _ _ _ _ ?_) $$ R22
    · exact (fun d => wpay_fact c i xt fw hr _ _ (word_read c xt i _ _ rfl _ _) _ _ _ d)
    ihave R23 := (wrow_fix_nat c i xt fw hr 23 (by decide) _ _ _ _ _ ?_) $$ R23
    · exact (fun d => wpay_fact c i xt fw hr _ _ (word_read c xt i _ _ rfl _ _) _ _ _ d)
    ihave R24 := (wrow_fix_nat c i xt fw hr 24 (by decide) _ _ _ _ _ ?_) $$ R24
    · exact (fun d => wpay_fact c i xt fw hr _ _ (word_read c xt i _ _ rfl _ _) _ _ _ d)
    ihave R25 := (wrow_fix_nat c i xt fw hr 25 (by decide) _ _ _ _ _ ?_) $$ R25
    · exact (fun d => wpay_fact c i xt fw hr _ _ (word_read c xt i _ _ rfl _ _) _ _ _ d)
    ihave R26 := (wrow_fix_nat c i xt fw hr 26 (by decide) _ _ _ _ _ ?_) $$ R26
    · exact (fun d => wpay_fact c i xt fw hr _ _ (word_read c xt i _ _ rfl _ _) _ _ _ d)
    ihave R27 := (wrow_fix_nat c i xt fw hr 27 (by decide) _ _ _ _ _ ?_) $$ R27
    · exact (fun d => wpay_fact c i xt fw hr _ _ (word_read c xt i _ _ rfl _ _) _ _ _ d)
    ihave R28 := (wrow_fix_nat c i xt fw hr 28 (by decide) _ _ _ _ _ ?_) $$ R28
    · exact (fun d => wpay_fact c i xt fw hr _ _ (word_read c xt i _ _ rfl _ _) _ _ _ d)
    ihave R29 := (wrow_fix_nat c i xt fw hr 29 (by decide) _ _ _ _ _ ?_) $$ R29
    · exact (fun d => wpay_fact c i xt fw hr _ _ (word_read c xt i _ _ rfl _ _) _ _ _ d)
    ihave R30 := (wrow_fix_nat c i xt fw hr 30 (by decide) _ _ _ _ _ ?_) $$ R30
    · exact (fun d => wpay_fact c i xt fw hr _ _ (word_read c xt i _ _ rfl _ _) _ _ _ d)
    ihave R31 := (wrow_fix_nat c i xt fw hr 31 (by decide) _ _ _ _ _ ?_) $$ R31
    · exact (fun d => wpay_fact c i xt fw hr _ _ (word_read c xt i _ _ rfl _ _) _ _ _ d)
    ihave R32 := (wrow_fix_nat c i xt fw hr 32 (by decide) _ _ _ _ _ ?_) $$ R32
    · exact (fun d => wpay_fact c i xt fw hr _ _ (word_read c xt i _ _ rfl _ _) _ _ _ d)
    ihave R33 := (wrow_fix_nat c i xt fw hr 33 (by decide) _ _ _ _ _ ?_) $$ R33
    · exact (fun d => wpay_fact c i xt fw hr _ _ (word_read c xt i _ _ rfl _ _) _ _ _ d)
    ihave R34 := (wrow_fix_nat c i xt fw hr 34 (by decide) _ _ _ _ _ ?_) $$ R34
    · exact (fun d => wpay_fact c i xt fw hr _ _ (word_read c xt i _ _ rfl _ _) _ _ _ d)
    ihave R35 := (wrow_fix_nat c i xt fw hr 35 (by decide) _ _ _ _ _ ?_) $$ R35
    · exact (fun d => wpay_fact c i xt fw hr _ _ (word_read c xt i _ _ rfl _ _) _ _ _ d)
    ihave R36 := (wrow_fix_nat c i xt fw hr 36 (by decide) _ _ _ _ _ ?_) $$ R36
    · exact (fun d => wpay_fact c i xt fw hr _ _ (word_read c xt i _ _ rfl _ _) _ _ _ d)
    ihave R37 := (wrow_fix_nat c i xt fw hr 37 (by decide) _ _ _ _ _ ?_) $$ R37
    · exact (fun d => wpay_fact c i xt fw hr _ _ (word_read c xt i _ _ rfl _ _) _ _ _ d)
    ihave R38 := (wrow_fix_nat c i xt fw hr 38 (by decide) _ _ _ _ _ ?_) $$ R38
    · exact (fun d => wpay_fact c i xt fw hr _ _ (word_read c xt i _ _ rfl _ _) _ _ _ d)
    ihave R39 := (wrow_fix_nat c i xt fw hr 39 (by decide) _ _ _ _ _ ?_) $$ R39
    · exact (fun d => wpay_fact c i xt fw hr _ _ (word_read c xt i _ _ rfl _ _) _ _ _ d)
    ihave R40 := (wrow_fix_nat c i xt fw hr 40 (by decide) _ _ _ _ _ ?_) $$ R40
    · exact (fun d => wpay_fact c i xt fw hr _ _ (word_read c xt i _ _ rfl _ _) _ _ _ d)
    ihave R41 := (wrow_fix_nat c i xt fw hr 41 (by decide) _ _ _ _ _ ?_) $$ R41
    · exact (fun d => wpay_fact c i xt fw hr _ _ (word_read c xt i _ _ rfl _ _) _ _ _ d)
    ihave R42 := (wrow_fix_nat c i xt fw hr 42 (by decide) _ _ _ _ _ ?_) $$ R42
    · exact (fun d => wpay_fact c i xt fw hr _ _ (word_read c xt i _ _ rfl _ _) _ _ _ d)
    ihave R43 := (wrow_fix_nat c i xt fw hr 43 (by decide) _ _ _ _ _ ?_) $$ R43
    · exact (fun d => wpay_fact c i xt fw hr _ _ (word_read c xt i _ _ rfl _ _) _ _ _ d)
    ihave R44 := (wrow_fix_nat c i xt fw hr 44 (by decide) _ _ _ _ _ ?_) $$ R44
    · exact (fun d => wpay_fact c i xt fw hr _ _ (word_read c xt i _ _ rfl _ _) _ _ _ d)
    ihave R45 := (wrow_fix_nat c i xt fw hr 45 (by decide) _ _ _ _ _ ?_) $$ R45
    · exact (fun d => wpay_fact c i xt fw hr _ _ (word_read c xt i _ _ rfl _ _) _ _ _ d)
    ihave R46 := (wrow_fix_nat c i xt fw hr 46 (by decide) _ _ _ _ _ ?_) $$ R46
    · exact (fun d => wpay_fact c i xt fw hr _ _ (word_read c xt i _ _ rfl _ _) _ _ _ d)
    ihave R47 := (wrow_fix_nat c i xt fw hr 47 (by decide) _ _ _ _ _ ?_) $$ R47
    · exact (fun d => wpay_fact c i xt fw hr _ _ (word_read c xt i _ _ rfl _ _) _ _ _ d)
    ihave R48 := (wrow_fix_nat c i xt fw hr 48 (by decide) _ _ _ _ _ ?_) $$ R48
    · exact (fun d => wpay_fact c i xt fw hr _ _ (word_read c xt i _ _ rfl _ _) _ _ _ d)
    ihave R49 := (wrow_fix_nat c i xt fw hr 49 (by decide) _ _ _ _ _ ?_) $$ R49
    · exact (fun d => wpay_fact c i xt fw hr _ _ (word_read c xt i _ _ rfl _ _) _ _ _ d)
    ihave R50 := (wrow_fix_nat c i xt fw hr 50 (by decide) _ _ _ _ _ ?_) $$ R50
    · exact (fun d => wpay_fact c i xt fw hr _ _ (word_read c xt i _ _ rfl _ _) _ _ _ d)
    ihave R51 := (wrow_fix_nat c i xt fw hr 51 (by decide) _ _ _ _ _ ?_) $$ R51
    · exact (fun d => wpay_fact c i xt fw hr _ _ (word_read c xt i _ _ rfl _ _) _ _ _ d)
    ihave R52 := (wrow_fix_nat c i xt fw hr 52 (by decide) _ _ _ _ _ ?_) $$ R52
    · exact (fun d => wpay_fact c i xt fw hr _ _ (word_read c xt i _ _ rfl _ _) _ _ _ d)
    ihave R53 := (wrow_fix_nat c i xt fw hr 53 (by decide) _ _ _ _ _ ?_) $$ R53
    · exact (fun d => wpay_fact c i xt fw hr _ _ (word_read c xt i _ _ rfl _ _) _ _ _ d)
    ihave R54 := (wrow_fix_nat c i xt fw hr 54 (by decide) _ _ _ _ _ ?_) $$ R54
    · exact (fun d => wpay_fact c i xt fw hr _ _ (word_read c xt i _ _ rfl _ _) _ _ _ d)
    ihave R55 := (wrow_fix_nat c i xt fw hr 55 (by decide) _ _ _ _ _ ?_) $$ R55
    · exact (fun d => wpay_fact c i xt fw hr _ _ (word_read c xt i _ _ rfl _ _) _ _ _ d)
    ihave R56 := (wrow_fix_nat c i xt fw hr 56 (by decide) _ _ _ _ _ ?_) $$ R56
    · exact (fun d => wpay_fact c i xt fw hr _ _ (word_read c xt i _ _ rfl _ _) _ _ _ d)
    ihave R57 := (wrow_fix_nat c i xt fw hr 57 (by decide) _ _ _ _ _ ?_) $$ R57
    · exact (fun d => wpay_fact c i xt fw hr _ _ (word_read c xt i _ _ rfl _ _) _ _ _ d)
    ihave R58 := (wrow_fix_nat c i xt fw hr 58 (by decide) _ _ _ _ _ ?_) $$ R58
    · exact (fun d => wpay_fact c i xt fw hr _ _ (word_read c xt i _ _ rfl _ _) _ _ _ d)
    ihave R59 := (wrow_fix_nat c i xt fw hr 59 (by decide) _ _ _ _ _ ?_) $$ R59
    · exact (fun d => wpay_fact c i xt fw hr _ _ (word_read c xt i _ _ rfl _ _) _ _ _ d)
    ihave R60 := (wrow_fix_nat c i xt fw hr 60 (by decide) _ _ _ _ _ ?_) $$ R60
    · exact (fun d => wpay_fact c i xt fw hr _ _ (word_read c xt i _ _ rfl _ _) _ _ _ d)
    ihave R61 := (wrow_fix_nat c i xt fw hr 61 (by decide) _ _ _ _ _ ?_) $$ R61
    · exact (fun d => wpay_fact c i xt fw hr _ _ (word_read c xt i _ _ rfl _ _) _ _ _ d)
    ihave R62 := (wrow_fix_nat c i xt fw hr 62 (by decide) _ _ _ _ _ ?_) $$ R62
    · exact (fun d => wpay_fact c i xt fw hr _ _ (word_read c xt i _ _ rfl _ _) _ _ _ d)
    ihave R63 := (wrow_fix_nat c i xt fw hr 63 (by decide) _ _ _ _ _ ?_) $$ R63
    · exact (fun d => wpay_fact c i xt fw hr _ _ (word_read c xt i _ _ rfl _ _) _ _ _ d)
    ihave R64 := (wrow_fix_nat c i xt fw hr 64 (by decide) _ _ _ _ _ ?_) $$ R64
    · exact (fun d => wpay_fact c i xt fw hr _ _ (word_read c xt i _ _ rfl _ _) _ _ _ d)
    ihave R65 := (wrow_fix_nat c i xt fw hr 65 (by decide) _ _ _ _ _ ?_) $$ R65
    · exact (fun d => wpay_fact c i xt fw hr _ _ (word_read c xt i _ _ rfl _ _) _ _ _ d)
    ihave R66 := (wrow_fix_nat c i xt fw hr 66 (by decide) _ _ _ _ _ ?_) $$ R66
    · exact (fun d => wpay_fact c i xt fw hr _ _ (word_read c xt i _ _ rfl _ _) _ _ _ d)
    ihave R67 := (wrow_fix_nat c i xt fw hr 67 (by decide) _ _ _ _ _ ?_) $$ R67
    · exact (fun d => wpay_fact c i xt fw hr _ _ (word_read c xt i _ _ rfl _ _) _ _ _ d)
    ihave R68 := (wrow_fix_nat c i xt fw hr 68 (by decide) _ _ _ _ _ ?_) $$ R68
    · exact (fun d => wpay_fact c i xt fw hr _ _ (word_read c xt i _ _ rfl _ _) _ _ _ d)
    ihave R69 := (wrow_fix_nat c i xt fw hr 69 (by decide) _ _ _ _ _ ?_) $$ R69
    · exact (fun d => wpay_fact c i xt fw hr _ _ (word_read c xt i _ _ rfl _ _) _ _ _ d)
    ihave R70 := (wrow_fix_nat c i xt fw hr 70 (by decide) _ _ _ _ _ ?_) $$ R70
    · exact (fun d => wpay_fact c i xt fw hr _ _ (word_read c xt i _ _ rfl _ _) _ _ _ d)
    ihave R71 := (wrow_fix_nat c i xt fw hr 71 (by decide) _ _ _ _ _ ?_) $$ R71
    · exact (fun d => wpay_fact c i xt fw hr _ _ (word_read c xt i _ _ rfl _ _) _ _ _ d)
    ihave R72 := (wrow_fix_nat c i xt fw hr 72 (by decide) _ _ _ _ _ ?_) $$ R72
    · exact (fun d => wpay_fact c i xt fw hr _ _ (word_read c xt i _ _ rfl _ _) _ _ _ d)
    ihave R73 := (wrow_fix_nat c i xt fw hr 73 (by decide) _ _ _ _ _ ?_) $$ R73
    · exact (fun d => wpay_fact c i xt fw hr _ _ (word_read c xt i _ _ rfl _ _) _ _ _ d)
    ihave R74 := (wrow_fix_nat c i xt fw hr 74 (by decide) _ _ _ _ _ ?_) $$ R74
    · exact (fun d => wpay_fact c i xt fw hr _ _ (word_read c xt i _ _ rfl _ _) _ _ _ d)
    ihave R75 := (wrow_fix_nat c i xt fw hr 75 (by decide) _ _ _ _ _ ?_) $$ R75
    · exact (fun d => wpay_fact c i xt fw hr _ _ (word_read c xt i _ _ rfl _ _) _ _ _ d)
    ihave R76 := (wrow_fix_nat c i xt fw hr 76 (by decide) _ _ _ _ _ ?_) $$ R76
    · exact (fun d => wpay_fact c i xt fw hr _ _ (word_read c xt i _ _ rfl _ _) _ _ _ d)
    ihave R77 := (wrow_fix_nat c i xt fw hr 77 (by decide) _ _ _ _ _ ?_) $$ R77
    · exact (fun d => wpay_fact c i xt fw hr _ _ (word_read c xt i _ _ rfl _ _) _ _ _ d)
    ihave R78 := (wrow_fix_nat c i xt fw hr 78 (by decide) _ _ _ _ _ ?_) $$ R78
    · exact (fun d => wpay_fact c i xt fw hr _ _ (word_read c xt i _ _ rfl _ _) _ _ _ d)
    ihave R79 := (wrow_fix_nat c i xt fw hr 79 (by decide) _ _ _ _ _ ?_) $$ R79
    · exact (fun d => wpay_fact c i xt fw hr _ _ (word_read c xt i _ _ rfl _ _) _ _ _ d)
    ihave R80 := (wrow_fix_nat c i xt fw hr 80 (by decide) _ _ _ _ _ ?_) $$ R80
    · exact (fun d => wpay_fact c i xt fw hr _ _ (word_read c xt i _ _ rfl _ _) _ _ _ d)
    ihave R81 := (wrow_fix_nat c i xt fw hr 81 (by decide) _ _ _ _ _ ?_) $$ R81
    · exact (fun d => wpay_fact c i xt fw hr _ _ (word_read c xt i _ _ rfl _ _) _ _ _ d)
    ihave R82 := (wrow_fix_nat c i xt fw hr 82 (by decide) _ _ _ _ _ ?_) $$ R82
    · exact (fun d => wpay_fact c i xt fw hr _ _ (word_read c xt i _ _ rfl _ _) _ _ _ d)
    ihave R83 := (wrow_fix_nat c i xt fw hr 83 (by decide) _ _ _ _ _ ?_) $$ R83
    · exact (fun d => wpay_fact c i xt fw hr _ _ (word_read c xt i _ _ rfl _ _) _ _ _ d)
    ihave R84 := (wrow_fix_nat c i xt fw hr 84 (by decide) _ _ _ _ _ ?_) $$ R84
    · exact (fun d => wpay_fact c i xt fw hr _ _ (word_read c xt i _ _ rfl _ _) _ _ _ d)
    ihave R85 := (wrow_fix_nat c i xt fw hr 85 (by decide) _ _ _ _ _ ?_) $$ R85
    · exact (fun d => wpay_fact c i xt fw hr _ _ (word_read c xt i _ _ rfl _ _) _ _ _ d)
    ihave R86 := (wrow_fix_nat c i xt fw hr 86 (by decide) _ _ _ _ _ ?_) $$ R86
    · exact (fun d => wpay_fact c i xt fw hr _ _ (word_read c xt i _ _ rfl _ _) _ _ _ d)
    ihave R87 := (wrow_fix_nat c i xt fw hr 87 (by decide) _ _ _ _ _ ?_) $$ R87
    · exact (fun d => wpay_fact c i xt fw hr _ _ (word_read c xt i _ _ rfl _ _) _ _ _ d)
    ihave R88 := (wrow_fix_nat c i xt fw hr 88 (by decide) _ _ _ _ _ ?_) $$ R88
    · exact (fun d => wpay_fact c i xt fw hr _ _ (word_read c xt i _ _ rfl _ _) _ _ _ d)
    ihave R89 := (wrow_fix_nat c i xt fw hr 89 (by decide) _ _ _ _ _ ?_) $$ R89
    · exact (fun d => wpay_fact c i xt fw hr _ _ (word_read c xt i _ _ rfl _ _) _ _ _ d)
    ihave R90 := (wrow_fix_nat c i xt fw hr 90 (by decide) _ _ _ _ _ ?_) $$ R90
    · exact (fun d => wpay_fact c i xt fw hr _ _ (word_read c xt i _ _ rfl _ _) _ _ _ d)
    ihave R91 := (wrow_fix_nat c i xt fw hr 91 (by decide) _ _ _ _ _ ?_) $$ R91
    · exact (fun d => wpay_fact c i xt fw hr _ _ (word_read c xt i _ _ rfl _ _) _ _ _ d)
    ihave R92 := (wrow_fix_nat c i xt fw hr 92 (by decide) _ _ _ _ _ ?_) $$ R92
    · exact (fun d => wpay_fact c i xt fw hr _ _ (word_read c xt i _ _ rfl _ _) _ _ _ d)
    ihave R93 := (wrow_fix_nat c i xt fw hr 93 (by decide) _ _ _ _ _ ?_) $$ R93
    · exact (fun d => wpay_fact c i xt fw hr _ _ (word_read c xt i _ _ rfl _ _) _ _ _ d)
    ihave R94 := (wrow_fix_nat c i xt fw hr 94 (by decide) _ _ _ _ _ ?_) $$ R94
    · exact (fun d => wpay_fact c i xt fw hr _ _ (word_read c xt i _ _ rfl _ _) _ _ _ d)
    ihave R95 := (wrow_fix_nat c i xt fw hr 95 (by decide) _ _ _ _ _ ?_) $$ R95
    · exact (fun d => wpay_fact c i xt fw hr _ _ (word_read c xt i _ _ rfl _ _) _ _ _ d)
    ihave R96 := (wrow_fix_nat c i xt fw hr 96 (by decide) _ _ _ _ _ ?_) $$ R96
    · exact (fun d => wpay_fact c i xt fw hr _ _ (word_read c xt i _ _ rfl _ _) _ _ _ d)
    ihave R97 := (wrow_fix_nat c i xt fw hr 97 (by decide) _ _ _ _ _ ?_) $$ R97
    · exact (fun d => wpay_fact c i xt fw hr _ _ (word_read c xt i _ _ rfl _ _) _ _ _ d)
    ihave R98 := (wrow_fix_nat c i xt fw hr 98 (by decide) _ _ _ _ _ ?_) $$ R98
    · exact (fun d => wpay_fact c i xt fw hr _ _ (word_read c xt i _ _ rfl _ _) _ _ _ d)
    ihave R99 := (wrow_fix_nat c i xt fw hr 99 (by decide) _ _ _ _ _ ?_) $$ R99
    · exact (fun d => wpay_fact c i xt fw hr _ _ (word_read c xt i _ _ rfl _ _) _ _ _ d)
    ihave R100 := (wrow_fix_nat c i xt fw hr 100 (by decide) _ _ _ _ _ ?_) $$ R100
    · exact (fun d => wpay_fact c i xt fw hr _ _ (word_read c xt i _ _ rfl _ _) _ _ _ d)
    ihave R101 := (wrow_fix_nat c i xt fw hr 101 (by decide) _ _ _ _ _ ?_) $$ R101
    · exact (fun d => wpay_fact c i xt fw hr _ _ (word_read c xt i _ _ rfl _ _) _ _ _ d)
    ihave R102 := (wrow_fix_nat c i xt fw hr 102 (by decide) _ _ _ _ _ ?_) $$ R102
    · exact (fun d => wpay_fact c i xt fw hr _ _ (word_read c xt i _ _ rfl _ _) _ _ _ d)
    ihave R103 := (wrow_fix_nat c i xt fw hr 103 (by decide) _ _ _ _ _ ?_) $$ R103
    · exact (fun d => wpay_fact c i xt fw hr _ _ (word_read c xt i _ _ rfl _ _) _ _ _ d)
    ihave R104 := (wrow_fix_nat c i xt fw hr 104 (by decide) _ _ _ _ _ ?_) $$ R104
    · exact (fun d => wpay_fact c i xt fw hr _ _ (word_read c xt i _ _ rfl _ _) _ _ _ d)
    ihave R105 := (wrow_fix_nat c i xt fw hr 105 (by decide) _ _ _ _ _ ?_) $$ R105
    · exact (fun d => wpay_fact c i xt fw hr _ _ (word_read c xt i _ _ rfl _ _) _ _ _ d)
    ihave R106 := (wrow_fix_nat c i xt fw hr 106 (by decide) _ _ _ _ _ ?_) $$ R106
    · exact (fun d => wpay_fact c i xt fw hr _ _ (word_read c xt i _ _ rfl _ _) _ _ _ d)
    ihave R107 := (wrow_fix_nat c i xt fw hr 107 (by decide) _ _ _ _ _ ?_) $$ R107
    · exact (fun d => wpay_fact c i xt fw hr _ _ (word_read c xt i _ _ rfl _ _) _ _ _ d)
    ihave R108 := (wrow_fix_nat c i xt fw hr 108 (by decide) _ _ _ _ _ ?_) $$ R108
    · exact (fun d => wpay_fact c i xt fw hr _ _ (word_read c xt i _ _ rfl _ _) _ _ _ d)
    ihave R109 := (wrow_fix_nat c i xt fw hr 109 (by decide) _ _ _ _ _ ?_) $$ R109
    · exact (fun d => wpay_fact c i xt fw hr _ _ (word_read c xt i _ _ rfl _ _) _ _ _ d)
    ihave R110 := (wrow_fix_nat c i xt fw hr 110 (by decide) _ _ _ _ _ ?_) $$ R110
    · exact (fun d => wpay_fact c i xt fw hr _ _ (word_read c xt i _ _ rfl _ _) _ _ _ d)
    ihave R111 := (wrow_fix_nat c i xt fw hr 111 (by decide) _ _ _ _ _ ?_) $$ R111
    · exact (fun d => wpay_fact c i xt fw hr _ _ (word_read c xt i _ _ rfl _ _) _ _ _ d)
    ihave R112 := (wrow_fix_nat c i xt fw hr 112 (by decide) _ _ _ _ _ ?_) $$ R112
    · exact (fun d => wpay_fact c i xt fw hr _ _ (word_read c xt i _ _ rfl _ _) _ _ _ d)
    ihave R113 := (wrow_fix_nat c i xt fw hr 113 (by decide) _ _ _ _ _ ?_) $$ R113
    · exact (fun d => wpay_fact c i xt fw hr _ _ (word_read c xt i _ _ rfl _ _) _ _ _ d)
    ihave R114 := (wrow_fix_nat c i xt fw hr 114 (by decide) _ _ _ _ _ ?_) $$ R114
    · exact (fun d => wpay_fact c i xt fw hr _ _ (word_read c xt i _ _ rfl _ _) _ _ _ d)
    ihave R115 := (wrow_fix_nat c i xt fw hr 115 (by decide) _ _ _ _ _ ?_) $$ R115
    · exact (fun d => wpay_fact c i xt fw hr _ _ (word_read c xt i _ _ rfl _ _) _ _ _ d)
    ihave R116 := (wrow_fix_nat c i xt fw hr 116 (by decide) _ _ _ _ _ ?_) $$ R116
    · exact (fun d => wpay_fact c i xt fw hr _ _ (word_read c xt i _ _ rfl _ _) _ _ _ d)
    ihave R117 := (wrow_fix_nat c i xt fw hr 117 (by decide) _ _ _ _ _ ?_) $$ R117
    · exact (fun d => wpay_fact c i xt fw hr _ _ (word_read c xt i _ _ rfl _ _) _ _ _ d)
    ihave R118 := (wrow_fix_nat c i xt fw hr 118 (by decide) _ _ _ _ _ ?_) $$ R118
    · exact (fun d => wpay_fact c i xt fw hr _ _ (word_read c xt i _ _ rfl _ _) _ _ _ d)
    ihave R119 := (wrow_fix_nat c i xt fw hr 119 (by decide) _ _ _ _ _ ?_) $$ R119
    · exact (fun d => wpay_fact c i xt fw hr _ _ (word_read c xt i _ _ rfl _ _) _ _ _ d)
    ihave R120 := (wrow_fix_nat c i xt fw hr 120 (by decide) _ _ _ _ _ ?_) $$ R120
    · exact (fun d => wpay_fact c i xt fw hr _ _ (word_read c xt i _ _ rfl _ _) _ _ _ d)
    ihave R121 := (wrow_fix_nat c i xt fw hr 121 (by decide) _ _ _ _ _ ?_) $$ R121
    · exact (fun d => wpay_fact c i xt fw hr _ _ (word_read c xt i _ _ rfl _ _) _ _ _ d)
    ihave R122 := (wrow_fix_nat c i xt fw hr 122 (by decide) _ _ _ _ _ ?_) $$ R122
    · exact (fun d => wpay_fact c i xt fw hr _ _ (word_read c xt i _ _ rfl _ _) _ _ _ d)
    ihave R123 := (wrow_fix_nat c i xt fw hr 123 (by decide) _ _ _ _ _ ?_) $$ R123
    · exact (fun d => wpay_fact c i xt fw hr _ _ (word_read c xt i _ _ rfl _ _) _ _ _ d)
    ihave R124 := (wrow_fix_nat c i xt fw hr 124 (by decide) _ _ _ _ _ ?_) $$ R124
    · exact (fun d => wpay_fact c i xt fw hr _ _ (word_read c xt i _ _ rfl _ _) _ _ _ d)
    ihave R125 := (wrow_fix_nat c i xt fw hr 125 (by decide) _ _ _ _ _ ?_) $$ R125
    · exact (fun d => wpay_fact c i xt fw hr _ _ (word_read c xt i _ _ rfl _ _) _ _ _ d)
    ihave R126 := (wrow_fix_nat c i xt fw hr 126 (by decide) _ _ _ _ _ ?_) $$ R126
    · exact (fun d => wpay_fact c i xt fw hr _ _ (word_read c xt i _ _ rfl _ _) _ _ _ d)
    ihave R127 := (wrow_fix_nat c i xt fw hr 127 (by decide) _ _ _ _ _ ?_) $$ R127
    · exact (fun d => wpay_fact c i xt fw hr _ _ (word_read c xt i _ _ rfl _ _) _ _ _ d)
    ihave Q0 := (srow_fix_nat c i xt fs hr 0 (by decide) _ _ _ _ _ ?_) $$ Q0
    · exact (fun d => spay_fact c i xt fs hr _ _ (word_read c xt i _ _ rfl _ _) _ _ _ d)
    ihave Q1 := (srow_fix_nat c i xt fs hr 1 (by decide) _ _ _ _ _ ?_) $$ Q1
    · exact (fun d => spay_fact c i xt fs hr _ _ (word_read c xt i _ _ rfl _ _) _ _ _ d)
    ihave Q2 := (srow_fix_nat c i xt fs hr 2 (by decide) _ _ _ _ _ ?_) $$ Q2
    · exact (fun d => spay_fact c i xt fs hr _ _ (word_read c xt i _ _ rfl _ _) _ _ _ d)
    ihave Q3 := (srow_fix_nat c i xt fs hr 3 (by decide) _ _ _ _ _ ?_) $$ Q3
    · exact (fun d => spay_fact c i xt fs hr _ _ (word_read c xt i _ _ rfl _ _) _ _ _ d)
    ihave Q4 := (srow_fix_nat c i xt fs hr 4 (by decide) _ _ _ _ _ ?_) $$ Q4
    · exact (fun d => spay_fact c i xt fs hr _ _ (word_read c xt i _ _ rfl _ _) _ _ _ d)
    ihave Q5 := (srow_fix_nat c i xt fs hr 5 (by decide) _ _ _ _ _ ?_) $$ Q5
    · exact (fun d => spay_fact c i xt fs hr _ _ (word_read c xt i _ _ rfl _ _) _ _ _ d)
    ihave Q6 := (srow_fix_nat c i xt fs hr 6 (by decide) _ _ _ _ _ ?_) $$ Q6
    · exact (fun d => spay_fact c i xt fs hr _ _ (word_read c xt i _ _ rfl _ _) _ _ _ d)
    ihave Q7 := (srow_fix_nat c i xt fs hr 7 (by decide) _ _ _ _ _ ?_) $$ Q7
    · exact (fun d => spay_fact c i xt fs hr _ _ (word_read c xt i _ _ rfl _ _) _ _ _ d)
    ihave Q8 := (srow_fix_nat c i xt fs hr 8 (by decide) _ _ _ _ _ ?_) $$ Q8
    · exact (fun d => spay_fact c i xt fs hr _ _ (word_read c xt i _ _ rfl _ _) _ _ _ d)
    ihave Q9 := (srow_fix_nat c i xt fs hr 9 (by decide) _ _ _ _ _ ?_) $$ Q9
    · exact (fun d => spay_fact c i xt fs hr _ _ (word_read c xt i _ _ rfl _ _) _ _ _ d)
    ihave Q10 := (srow_fix_nat c i xt fs hr 10 (by decide) _ _ _ _ _ ?_) $$ Q10
    · exact (fun d => spay_fact c i xt fs hr _ _ (word_read c xt i _ _ rfl _ _) _ _ _ d)
    ihave Q11 := (srow_fix_nat c i xt fs hr 11 (by decide) _ _ _ _ _ ?_) $$ Q11
    · exact (fun d => spay_fact c i xt fs hr _ _ (word_read c xt i _ _ rfl _ _) _ _ _ d)
    ihave Q12 := (srow_fix_nat c i xt fs hr 12 (by decide) _ _ _ _ _ ?_) $$ Q12
    · exact (fun d => spay_fact c i xt fs hr _ _ (word_read c xt i _ _ rfl _ _) _ _ _ d)
    ihave Q13 := (srow_fix_nat c i xt fs hr 13 (by decide) _ _ _ _ _ ?_) $$ Q13
    · exact (fun d => spay_fact c i xt fs hr _ _ (word_read c xt i _ _ rfl _ _) _ _ _ d)
    ihave Q14 := (srow_fix_nat c i xt fs hr 14 (by decide) _ _ _ _ _ ?_) $$ Q14
    · exact (fun d => spay_fact c i xt fs hr _ _ (word_read c xt i _ _ rfl _ _) _ _ _ d)
    ihave Q15 := (srow_fix_nat c i xt fs hr 15 (by decide) _ _ _ _ _ ?_) $$ Q15
    · exact (fun d => spay_fact c i xt fs hr _ _ (word_read c xt i _ _ rfl _ _) _ _ _ d)
    ihave Q16 := (srow_fix_nat c i xt fs hr 16 (by decide) _ _ _ _ _ ?_) $$ Q16
    · exact (fun d => spay_fact c i xt fs hr _ _ (word_read c xt i _ _ rfl _ _) _ _ _ d)
    ihave Q17 := (srow_fix_nat c i xt fs hr 17 (by decide) _ _ _ _ _ ?_) $$ Q17
    · exact (fun d => spay_fact c i xt fs hr _ _ (word_read c xt i _ _ rfl _ _) _ _ _ d)
    ihave Q18 := (srow_fix_nat c i xt fs hr 18 (by decide) _ _ _ _ _ ?_) $$ Q18
    · exact (fun d => spay_fact c i xt fs hr _ _ (word_read c xt i _ _ rfl _ _) _ _ _ d)
    ihave Q19 := (srow_fix_nat c i xt fs hr 19 (by decide) _ _ _ _ _ ?_) $$ Q19
    · exact (fun d => spay_fact c i xt fs hr _ _ (word_read c xt i _ _ rfl _ _) _ _ _ d)
    ihave Q20 := (srow_fix_nat c i xt fs hr 20 (by decide) _ _ _ _ _ ?_) $$ Q20
    · exact (fun d => spay_fact c i xt fs hr _ _ (word_read c xt i _ _ rfl _ _) _ _ _ d)
    ihave Q21 := (srow_fix_nat c i xt fs hr 21 (by decide) _ _ _ _ _ ?_) $$ Q21
    · exact (fun d => spay_fact c i xt fs hr _ _ (word_read c xt i _ _ rfl _ _) _ _ _ d)
    ihave Q22 := (srow_fix_nat c i xt fs hr 22 (by decide) _ _ _ _ _ ?_) $$ Q22
    · exact (fun d => spay_fact c i xt fs hr _ _ (word_read c xt i _ _ rfl _ _) _ _ _ d)
    ihave Q23 := (srow_fix_nat c i xt fs hr 23 (by decide) _ _ _ _ _ ?_) $$ Q23
    · exact (fun d => spay_fact c i xt fs hr _ _ (word_read c xt i _ _ rfl _ _) _ _ _ d)
    ihave Q24 := (srow_fix_nat c i xt fs hr 24 (by decide) _ _ _ _ _ ?_) $$ Q24
    · exact (fun d => spay_fact c i xt fs hr _ _ (word_read c xt i _ _ rfl _ _) _ _ _ d)
    ihave Q25 := (srow_fix_nat c i xt fs hr 25 (by decide) _ _ _ _ _ ?_) $$ Q25
    · exact (fun d => spay_fact c i xt fs hr _ _ (word_read c xt i _ _ rfl _ _) _ _ _ d)
    ihave Q26 := (srow_fix_nat c i xt fs hr 26 (by decide) _ _ _ _ _ ?_) $$ Q26
    · exact (fun d => spay_fact c i xt fs hr _ _ (word_read c xt i _ _ rfl _ _) _ _ _ d)
    ihave Q27 := (srow_fix_nat c i xt fs hr 27 (by decide) _ _ _ _ _ ?_) $$ Q27
    · exact (fun d => spay_fact c i xt fs hr _ _ (word_read c xt i _ _ rfl _ _) _ _ _ d)
    ihave Q28 := (srow_fix_nat c i xt fs hr 28 (by decide) _ _ _ _ _ ?_) $$ Q28
    · exact (fun d => spay_fact c i xt fs hr _ _ (word_read c xt i _ _ rfl _ _) _ _ _ d)
    ihave Q29 := (srow_fix_nat c i xt fs hr 29 (by decide) _ _ _ _ _ ?_) $$ Q29
    · exact (fun d => spay_fact c i xt fs hr _ _ (word_read c xt i _ _ rfl _ _) _ _ _ d)
    ihave Q30 := (srow_fix_nat c i xt fs hr 30 (by decide) _ _ _ _ _ ?_) $$ Q30
    · exact (fun d => spay_fact c i xt fs hr _ _ (word_read c xt i _ _ rfl _ _) _ _ _ d)
    ihave Q31 := (srow_fix_nat c i xt fs hr 31 (by decide) _ _ _ _ _ ?_) $$ Q31
    · exact (fun d => spay_fact c i xt fs hr _ _ (word_read c xt i _ _ rfl _ _) _ _ _ d)
    ihave Q32 := (srow_fix_nat c i xt fs hr 32 (by decide) _ _ _ _ _ ?_) $$ Q32
    · exact (fun d => spay_fact c i xt fs hr _ _ (word_read c xt i _ _ rfl _ _) _ _ _ d)
    ihave Q33 := (srow_fix_nat c i xt fs hr 33 (by decide) _ _ _ _ _ ?_) $$ Q33
    · exact (fun d => spay_fact c i xt fs hr _ _ (word_read c xt i _ _ rfl _ _) _ _ _ d)
    ihave Q34 := (srow_fix_nat c i xt fs hr 34 (by decide) _ _ _ _ _ ?_) $$ Q34
    · exact (fun d => spay_fact c i xt fs hr _ _ (word_read c xt i _ _ rfl _ _) _ _ _ d)
    ihave Q35 := (srow_fix_nat c i xt fs hr 35 (by decide) _ _ _ _ _ ?_) $$ Q35
    · exact (fun d => spay_fact c i xt fs hr _ _ (word_read c xt i _ _ rfl _ _) _ _ _ d)
    ihave Q36 := (srow_fix_nat c i xt fs hr 36 (by decide) _ _ _ _ _ ?_) $$ Q36
    · exact (fun d => spay_fact c i xt fs hr _ _ (word_read c xt i _ _ rfl _ _) _ _ _ d)
    ihave Q37 := (srow_fix_nat c i xt fs hr 37 (by decide) _ _ _ _ _ ?_) $$ Q37
    · exact (fun d => spay_fact c i xt fs hr _ _ (word_read c xt i _ _ rfl _ _) _ _ _ d)
    ihave Q38 := (srow_fix_nat c i xt fs hr 38 (by decide) _ _ _ _ _ ?_) $$ Q38
    · exact (fun d => spay_fact c i xt fs hr _ _ (word_read c xt i _ _ rfl _ _) _ _ _ d)
    ihave Q39 := (srow_fix_nat c i xt fs hr 39 (by decide) _ _ _ _ _ ?_) $$ Q39
    · exact (fun d => spay_fact c i xt fs hr _ _ (word_read c xt i _ _ rfl _ _) _ _ _ d)
    ihave Q40 := (srow_fix_nat c i xt fs hr 40 (by decide) _ _ _ _ _ ?_) $$ Q40
    · exact (fun d => spay_fact c i xt fs hr _ _ (word_read c xt i _ _ rfl _ _) _ _ _ d)
    ihave Q41 := (srow_fix_nat c i xt fs hr 41 (by decide) _ _ _ _ _ ?_) $$ Q41
    · exact (fun d => spay_fact c i xt fs hr _ _ (word_read c xt i _ _ rfl _ _) _ _ _ d)
    ihave Q42 := (srow_fix_nat c i xt fs hr 42 (by decide) _ _ _ _ _ ?_) $$ Q42
    · exact (fun d => spay_fact c i xt fs hr _ _ (word_read c xt i _ _ rfl _ _) _ _ _ d)
    ihave Q43 := (srow_fix_nat c i xt fs hr 43 (by decide) _ _ _ _ _ ?_) $$ Q43
    · exact (fun d => spay_fact c i xt fs hr _ _ (word_read c xt i _ _ rfl _ _) _ _ _ d)
    ihave Q44 := (srow_fix_nat c i xt fs hr 44 (by decide) _ _ _ _ _ ?_) $$ Q44
    · exact (fun d => spay_fact c i xt fs hr _ _ (word_read c xt i _ _ rfl _ _) _ _ _ d)
    ihave Q45 := (srow_fix_nat c i xt fs hr 45 (by decide) _ _ _ _ _ ?_) $$ Q45
    · exact (fun d => spay_fact c i xt fs hr _ _ (word_read c xt i _ _ rfl _ _) _ _ _ d)
    ihave Q46 := (srow_fix_nat c i xt fs hr 46 (by decide) _ _ _ _ _ ?_) $$ Q46
    · exact (fun d => spay_fact c i xt fs hr _ _ (word_read c xt i _ _ rfl _ _) _ _ _ d)
    ihave Q47 := (srow_fix_nat c i xt fs hr 47 (by decide) _ _ _ _ _ ?_) $$ Q47
    · exact (fun d => spay_fact c i xt fs hr _ _ (word_read c xt i _ _ rfl _ _) _ _ _ d)
    ihave Q48 := (srow_fix_nat c i xt fs hr 48 (by decide) _ _ _ _ _ ?_) $$ Q48
    · exact (fun d => spay_fact c i xt fs hr _ _ (word_read c xt i _ _ rfl _ _) _ _ _ d)
    ihave Q49 := (srow_fix_nat c i xt fs hr 49 (by decide) _ _ _ _ _ ?_) $$ Q49
    · exact (fun d => spay_fact c i xt fs hr _ _ (word_read c xt i _ _ rfl _ _) _ _ _ d)
    ihave Q50 := (srow_fix_nat c i xt fs hr 50 (by decide) _ _ _ _ _ ?_) $$ Q50
    · exact (fun d => spay_fact c i xt fs hr _ _ (word_read c xt i _ _ rfl _ _) _ _ _ d)
    ihave Q51 := (srow_fix_nat c i xt fs hr 51 (by decide) _ _ _ _ _ ?_) $$ Q51
    · exact (fun d => spay_fact c i xt fs hr _ _ (word_read c xt i _ _ rfl _ _) _ _ _ d)
    ihave Q52 := (srow_fix_nat c i xt fs hr 52 (by decide) _ _ _ _ _ ?_) $$ Q52
    · exact (fun d => spay_fact c i xt fs hr _ _ (word_read c xt i _ _ rfl _ _) _ _ _ d)
    ihave Q53 := (srow_fix_nat c i xt fs hr 53 (by decide) _ _ _ _ _ ?_) $$ Q53
    · exact (fun d => spay_fact c i xt fs hr _ _ (word_read c xt i _ _ rfl _ _) _ _ _ d)
    ihave Q54 := (srow_fix_nat c i xt fs hr 54 (by decide) _ _ _ _ _ ?_) $$ Q54
    · exact (fun d => spay_fact c i xt fs hr _ _ (word_read c xt i _ _ rfl _ _) _ _ _ d)
    ihave Q55 := (srow_fix_nat c i xt fs hr 55 (by decide) _ _ _ _ _ ?_) $$ Q55
    · exact (fun d => spay_fact c i xt fs hr _ _ (word_read c xt i _ _ rfl _ _) _ _ _ d)
    ihave Q56 := (srow_fix_nat c i xt fs hr 56 (by decide) _ _ _ _ _ ?_) $$ Q56
    · exact (fun d => spay_fact c i xt fs hr _ _ (word_read c xt i _ _ rfl _ _) _ _ _ d)
    ihave Q57 := (srow_fix_nat c i xt fs hr 57 (by decide) _ _ _ _ _ ?_) $$ Q57
    · exact (fun d => spay_fact c i xt fs hr _ _ (word_read c xt i _ _ rfl _ _) _ _ _ d)
    ihave Q58 := (srow_fix_nat c i xt fs hr 58 (by decide) _ _ _ _ _ ?_) $$ Q58
    · exact (fun d => spay_fact c i xt fs hr _ _ (word_read c xt i _ _ rfl _ _) _ _ _ d)
    ihave Q59 := (srow_fix_nat c i xt fs hr 59 (by decide) _ _ _ _ _ ?_) $$ Q59
    · exact (fun d => spay_fact c i xt fs hr _ _ (word_read c xt i _ _ rfl _ _) _ _ _ d)
    ihave Q60 := (srow_fix_nat c i xt fs hr 60 (by decide) _ _ _ _ _ ?_) $$ Q60
    · exact (fun d => spay_fact c i xt fs hr _ _ (word_read c xt i _ _ rfl _ _) _ _ _ d)
    ihave Q61 := (srow_fix_nat c i xt fs hr 61 (by decide) _ _ _ _ _ ?_) $$ Q61
    · exact (fun d => spay_fact c i xt fs hr _ _ (word_read c xt i _ _ rfl _ _) _ _ _ d)
    ihave Q62 := (srow_fix_nat c i xt fs hr 62 (by decide) _ _ _ _ _ ?_) $$ Q62
    · exact (fun d => spay_fact c i xt fs hr _ _ (word_read c xt i _ _ rfl _ _) _ _ _ d)
    ihave Q63 := (srow_fix_nat c i xt fs hr 63 (by decide) _ _ _ _ _ ?_) $$ Q63
    · exact (fun d => spay_fact c i xt fs hr _ _ (word_read c xt i _ _ rfl _ _) _ _ _ d)
    ihave Q64 := (srow_fix_nat c i xt fs hr 64 (by decide) _ _ _ _ _ ?_) $$ Q64
    · exact (fun d => spay_fact c i xt fs hr _ _ (word_read c xt i _ _ rfl _ _) _ _ _ d)
    ihave Q65 := (srow_fix_nat c i xt fs hr 65 (by decide) _ _ _ _ _ ?_) $$ Q65
    · exact (fun d => spay_fact c i xt fs hr _ _ (word_read c xt i _ _ rfl _ _) _ _ _ d)
    ihave Q66 := (srow_fix_nat c i xt fs hr 66 (by decide) _ _ _ _ _ ?_) $$ Q66
    · exact (fun d => spay_fact c i xt fs hr _ _ (word_read c xt i _ _ rfl _ _) _ _ _ d)
    ihave Q67 := (srow_fix_nat c i xt fs hr 67 (by decide) _ _ _ _ _ ?_) $$ Q67
    · exact (fun d => spay_fact c i xt fs hr _ _ (word_read c xt i _ _ rfl _ _) _ _ _ d)
    ihave Q68 := (srow_fix_nat c i xt fs hr 68 (by decide) _ _ _ _ _ ?_) $$ Q68
    · exact (fun d => spay_fact c i xt fs hr _ _ (word_read c xt i _ _ rfl _ _) _ _ _ d)
    ihave Q69 := (srow_fix_nat c i xt fs hr 69 (by decide) _ _ _ _ _ ?_) $$ Q69
    · exact (fun d => spay_fact c i xt fs hr _ _ (word_read c xt i _ _ rfl _ _) _ _ _ d)
    ihave Q70 := (srow_fix_nat c i xt fs hr 70 (by decide) _ _ _ _ _ ?_) $$ Q70
    · exact (fun d => spay_fact c i xt fs hr _ _ (word_read c xt i _ _ rfl _ _) _ _ _ d)
    ihave Q71 := (srow_fix_nat c i xt fs hr 71 (by decide) _ _ _ _ _ ?_) $$ Q71
    · exact (fun d => spay_fact c i xt fs hr _ _ (word_read c xt i _ _ rfl _ _) _ _ _ d)
    ihave Q72 := (srow_fix_nat c i xt fs hr 72 (by decide) _ _ _ _ _ ?_) $$ Q72
    · exact (fun d => spay_fact c i xt fs hr _ _ (word_read c xt i _ _ rfl _ _) _ _ _ d)
    ihave Q73 := (srow_fix_nat c i xt fs hr 73 (by decide) _ _ _ _ _ ?_) $$ Q73
    · exact (fun d => spay_fact c i xt fs hr _ _ (word_read c xt i _ _ rfl _ _) _ _ _ d)
    ihave Q74 := (srow_fix_nat c i xt fs hr 74 (by decide) _ _ _ _ _ ?_) $$ Q74
    · exact (fun d => spay_fact c i xt fs hr _ _ (word_read c xt i _ _ rfl _ _) _ _ _ d)
    ihave Q75 := (srow_fix_nat c i xt fs hr 75 (by decide) _ _ _ _ _ ?_) $$ Q75
    · exact (fun d => spay_fact c i xt fs hr _ _ (word_read c xt i _ _ rfl _ _) _ _ _ d)
    ihave Q76 := (srow_fix_nat c i xt fs hr 76 (by decide) _ _ _ _ _ ?_) $$ Q76
    · exact (fun d => spay_fact c i xt fs hr _ _ (word_read c xt i _ _ rfl _ _) _ _ _ d)
    ihave Q77 := (srow_fix_nat c i xt fs hr 77 (by decide) _ _ _ _ _ ?_) $$ Q77
    · exact (fun d => spay_fact c i xt fs hr _ _ (word_read c xt i _ _ rfl _ _) _ _ _ d)
    ihave Q78 := (srow_fix_nat c i xt fs hr 78 (by decide) _ _ _ _ _ ?_) $$ Q78
    · exact (fun d => spay_fact c i xt fs hr _ _ (word_read c xt i _ _ rfl _ _) _ _ _ d)
    ihave Q79 := (srow_fix_nat c i xt fs hr 79 (by decide) _ _ _ _ _ ?_) $$ Q79
    · exact (fun d => spay_fact c i xt fs hr _ _ (word_read c xt i _ _ rfl _ _) _ _ _ d)
    ihave Q80 := (srow_fix_nat c i xt fs hr 80 (by decide) _ _ _ _ _ ?_) $$ Q80
    · exact (fun d => spay_fact c i xt fs hr _ _ (word_read c xt i _ _ rfl _ _) _ _ _ d)
    ihave Q81 := (srow_fix_nat c i xt fs hr 81 (by decide) _ _ _ _ _ ?_) $$ Q81
    · exact (fun d => spay_fact c i xt fs hr _ _ (word_read c xt i _ _ rfl _ _) _ _ _ d)
    ihave Q82 := (srow_fix_nat c i xt fs hr 82 (by decide) _ _ _ _ _ ?_) $$ Q82
    · exact (fun d => spay_fact c i xt fs hr _ _ (word_read c xt i _ _ rfl _ _) _ _ _ d)
    ihave Q83 := (srow_fix_nat c i xt fs hr 83 (by decide) _ _ _ _ _ ?_) $$ Q83
    · exact (fun d => spay_fact c i xt fs hr _ _ (word_read c xt i _ _ rfl _ _) _ _ _ d)
    ihave Q84 := (srow_fix_nat c i xt fs hr 84 (by decide) _ _ _ _ _ ?_) $$ Q84
    · exact (fun d => spay_fact c i xt fs hr _ _ (word_read c xt i _ _ rfl _ _) _ _ _ d)
    ihave Q85 := (srow_fix_nat c i xt fs hr 85 (by decide) _ _ _ _ _ ?_) $$ Q85
    · exact (fun d => spay_fact c i xt fs hr _ _ (word_read c xt i _ _ rfl _ _) _ _ _ d)
    ihave Q86 := (srow_fix_nat c i xt fs hr 86 (by decide) _ _ _ _ _ ?_) $$ Q86
    · exact (fun d => spay_fact c i xt fs hr _ _ (word_read c xt i _ _ rfl _ _) _ _ _ d)
    ihave Q87 := (srow_fix_nat c i xt fs hr 87 (by decide) _ _ _ _ _ ?_) $$ Q87
    · exact (fun d => spay_fact c i xt fs hr _ _ (word_read c xt i _ _ rfl _ _) _ _ _ d)
    ihave Q88 := (srow_fix_nat c i xt fs hr 88 (by decide) _ _ _ _ _ ?_) $$ Q88
    · exact (fun d => spay_fact c i xt fs hr _ _ (word_read c xt i _ _ rfl _ _) _ _ _ d)
    ihave Q89 := (srow_fix_nat c i xt fs hr 89 (by decide) _ _ _ _ _ ?_) $$ Q89
    · exact (fun d => spay_fact c i xt fs hr _ _ (word_read c xt i _ _ rfl _ _) _ _ _ d)
    ihave Q90 := (srow_fix_nat c i xt fs hr 90 (by decide) _ _ _ _ _ ?_) $$ Q90
    · exact (fun d => spay_fact c i xt fs hr _ _ (word_read c xt i _ _ rfl _ _) _ _ _ d)
    ihave Q91 := (srow_fix_nat c i xt fs hr 91 (by decide) _ _ _ _ _ ?_) $$ Q91
    · exact (fun d => spay_fact c i xt fs hr _ _ (word_read c xt i _ _ rfl _ _) _ _ _ d)
    ihave Q92 := (srow_fix_nat c i xt fs hr 92 (by decide) _ _ _ _ _ ?_) $$ Q92
    · exact (fun d => spay_fact c i xt fs hr _ _ (word_read c xt i _ _ rfl _ _) _ _ _ d)
    ihave Q93 := (srow_fix_nat c i xt fs hr 93 (by decide) _ _ _ _ _ ?_) $$ Q93
    · exact (fun d => spay_fact c i xt fs hr _ _ (word_read c xt i _ _ rfl _ _) _ _ _ d)
    ihave Q94 := (srow_fix_nat c i xt fs hr 94 (by decide) _ _ _ _ _ ?_) $$ Q94
    · exact (fun d => spay_fact c i xt fs hr _ _ (word_read c xt i _ _ rfl _ _) _ _ _ d)
    ihave Q95 := (srow_fix_nat c i xt fs hr 95 (by decide) _ _ _ _ _ ?_) $$ Q95
    · exact (fun d => spay_fact c i xt fs hr _ _ (word_read c xt i _ _ rfl _ _) _ _ _ d)
    ihave Q96 := (srow_fix_nat c i xt fs hr 96 (by decide) _ _ _ _ _ ?_) $$ Q96
    · exact (fun d => spay_fact c i xt fs hr _ _ (word_read c xt i _ _ rfl _ _) _ _ _ d)
    ihave Q97 := (srow_fix_nat c i xt fs hr 97 (by decide) _ _ _ _ _ ?_) $$ Q97
    · exact (fun d => spay_fact c i xt fs hr _ _ (word_read c xt i _ _ rfl _ _) _ _ _ d)
    ihave Q98 := (srow_fix_nat c i xt fs hr 98 (by decide) _ _ _ _ _ ?_) $$ Q98
    · exact (fun d => spay_fact c i xt fs hr _ _ (word_read c xt i _ _ rfl _ _) _ _ _ d)
    ihave Q99 := (srow_fix_nat c i xt fs hr 99 (by decide) _ _ _ _ _ ?_) $$ Q99
    · exact (fun d => spay_fact c i xt fs hr _ _ (word_read c xt i _ _ rfl _ _) _ _ _ d)
    ihave Q100 := (srow_fix_nat c i xt fs hr 100 (by decide) _ _ _ _ _ ?_) $$ Q100
    · exact (fun d => spay_fact c i xt fs hr _ _ (word_read c xt i _ _ rfl _ _) _ _ _ d)
    ihave Q101 := (srow_fix_nat c i xt fs hr 101 (by decide) _ _ _ _ _ ?_) $$ Q101
    · exact (fun d => spay_fact c i xt fs hr _ _ (word_read c xt i _ _ rfl _ _) _ _ _ d)
    ihave Q102 := (srow_fix_nat c i xt fs hr 102 (by decide) _ _ _ _ _ ?_) $$ Q102
    · exact (fun d => spay_fact c i xt fs hr _ _ (word_read c xt i _ _ rfl _ _) _ _ _ d)
    ihave Q103 := (srow_fix_nat c i xt fs hr 103 (by decide) _ _ _ _ _ ?_) $$ Q103
    · exact (fun d => spay_fact c i xt fs hr _ _ (word_read c xt i _ _ rfl _ _) _ _ _ d)
    ihave Q104 := (srow_fix_nat c i xt fs hr 104 (by decide) _ _ _ _ _ ?_) $$ Q104
    · exact (fun d => spay_fact c i xt fs hr _ _ (word_read c xt i _ _ rfl _ _) _ _ _ d)
    ihave Q105 := (srow_fix_nat c i xt fs hr 105 (by decide) _ _ _ _ _ ?_) $$ Q105
    · exact (fun d => spay_fact c i xt fs hr _ _ (word_read c xt i _ _ rfl _ _) _ _ _ d)
    ihave Q106 := (srow_fix_nat c i xt fs hr 106 (by decide) _ _ _ _ _ ?_) $$ Q106
    · exact (fun d => spay_fact c i xt fs hr _ _ (word_read c xt i _ _ rfl _ _) _ _ _ d)
    ihave Q107 := (srow_fix_nat c i xt fs hr 107 (by decide) _ _ _ _ _ ?_) $$ Q107
    · exact (fun d => spay_fact c i xt fs hr _ _ (word_read c xt i _ _ rfl _ _) _ _ _ d)
    ihave Q108 := (srow_fix_nat c i xt fs hr 108 (by decide) _ _ _ _ _ ?_) $$ Q108
    · exact (fun d => spay_fact c i xt fs hr _ _ (word_read c xt i _ _ rfl _ _) _ _ _ d)
    ihave Q109 := (srow_fix_nat c i xt fs hr 109 (by decide) _ _ _ _ _ ?_) $$ Q109
    · exact (fun d => spay_fact c i xt fs hr _ _ (word_read c xt i _ _ rfl _ _) _ _ _ d)
    ihave Q110 := (srow_fix_nat c i xt fs hr 110 (by decide) _ _ _ _ _ ?_) $$ Q110
    · exact (fun d => spay_fact c i xt fs hr _ _ (word_read c xt i _ _ rfl _ _) _ _ _ d)
    ihave Q111 := (srow_fix_nat c i xt fs hr 111 (by decide) _ _ _ _ _ ?_) $$ Q111
    · exact (fun d => spay_fact c i xt fs hr _ _ (word_read c xt i _ _ rfl _ _) _ _ _ d)
    ihave Q112 := (srow_fix_nat c i xt fs hr 112 (by decide) _ _ _ _ _ ?_) $$ Q112
    · exact (fun d => spay_fact c i xt fs hr _ _ (word_read c xt i _ _ rfl _ _) _ _ _ d)
    ihave Q113 := (srow_fix_nat c i xt fs hr 113 (by decide) _ _ _ _ _ ?_) $$ Q113
    · exact (fun d => spay_fact c i xt fs hr _ _ (word_read c xt i _ _ rfl _ _) _ _ _ d)
    ihave Q114 := (srow_fix_nat c i xt fs hr 114 (by decide) _ _ _ _ _ ?_) $$ Q114
    · exact (fun d => spay_fact c i xt fs hr _ _ (word_read c xt i _ _ rfl _ _) _ _ _ d)
    ihave Q115 := (srow_fix_nat c i xt fs hr 115 (by decide) _ _ _ _ _ ?_) $$ Q115
    · exact (fun d => spay_fact c i xt fs hr _ _ (word_read c xt i _ _ rfl _ _) _ _ _ d)
    ihave Q116 := (srow_fix_nat c i xt fs hr 116 (by decide) _ _ _ _ _ ?_) $$ Q116
    · exact (fun d => spay_fact c i xt fs hr _ _ (word_read c xt i _ _ rfl _ _) _ _ _ d)
    ihave Q117 := (srow_fix_nat c i xt fs hr 117 (by decide) _ _ _ _ _ ?_) $$ Q117
    · exact (fun d => spay_fact c i xt fs hr _ _ (word_read c xt i _ _ rfl _ _) _ _ _ d)
    ihave Q118 := (srow_fix_nat c i xt fs hr 118 (by decide) _ _ _ _ _ ?_) $$ Q118
    · exact (fun d => spay_fact c i xt fs hr _ _ (word_read c xt i _ _ rfl _ _) _ _ _ d)
    ihave Q119 := (srow_fix_nat c i xt fs hr 119 (by decide) _ _ _ _ _ ?_) $$ Q119
    · exact (fun d => spay_fact c i xt fs hr _ _ (word_read c xt i _ _ rfl _ _) _ _ _ d)
    ihave Q120 := (srow_fix_nat c i xt fs hr 120 (by decide) _ _ _ _ _ ?_) $$ Q120
    · exact (fun d => spay_fact c i xt fs hr _ _ (word_read c xt i _ _ rfl _ _) _ _ _ d)
    ihave Q121 := (srow_fix_nat c i xt fs hr 121 (by decide) _ _ _ _ _ ?_) $$ Q121
    · exact (fun d => spay_fact c i xt fs hr _ _ (word_read c xt i _ _ rfl _ _) _ _ _ d)
    ihave Q122 := (srow_fix_nat c i xt fs hr 122 (by decide) _ _ _ _ _ ?_) $$ Q122
    · exact (fun d => spay_fact c i xt fs hr _ _ (word_read c xt i _ _ rfl _ _) _ _ _ d)
    ihave Q123 := (srow_fix_nat c i xt fs hr 123 (by decide) _ _ _ _ _ ?_) $$ Q123
    · exact (fun d => spay_fact c i xt fs hr _ _ (word_read c xt i _ _ rfl _ _) _ _ _ d)
    ihave Q124 := (srow_fix_nat c i xt fs hr 124 (by decide) _ _ _ _ _ ?_) $$ Q124
    · exact (fun d => spay_fact c i xt fs hr _ _ (word_read c xt i _ _ rfl _ _) _ _ _ d)
    ihave Q125 := (srow_fix_nat c i xt fs hr 125 (by decide) _ _ _ _ _ ?_) $$ Q125
    · exact (fun d => spay_fact c i xt fs hr _ _ (word_read c xt i _ _ rfl _ _) _ _ _ d)
    ihave Q126 := (srow_fix_nat c i xt fs hr 126 (by decide) _ _ _ _ _ ?_) $$ Q126
    · exact (fun d => spay_fact c i xt fs hr _ _ (word_read c xt i _ _ rfl _ _) _ _ _ d)
    ihave Q127 := (srow_fix_nat c i xt fs hr 127 (by decide) _ _ _ _ _ ?_) $$ Q127
    · exact (fun d => spay_fact c i xt fs hr _ _ (word_read c xt i _ _ rfl _ _) _ _ _ d)
    ihave HW := (wbuf_rows c (Gw c i xt fw hr)).2 $$ [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127]
    · iframe
    ihave HS := (sbuf_rows c (Gs c i xt fs hr)).2 $$ [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51 Q52 Q53 Q54 Q55 Q56 Q57 Q58 Q59 Q60 Q61 Q62 Q63 Q64 Q65 Q66 Q67 Q68 Q69 Q70 Q71 Q72 Q73 Q74 Q75 Q76 Q77 Q78 Q79 Q80 Q81 Q82 Q83 Q84 Q85 Q86 Q87 Q88 Q89 Q90 Q91 Q92 Q93 Q94 Q95 Q96 Q97 Q98 Q99 Q100 Q101 Q102 Q103 Q104 Q105 Q106 Q107 Q108 Q109 Q110 Q111 Q112 Q113 Q114 Q115 Q116 Q117 Q118 Q119 Q120 Q121 Q122 Q123 Q124 Q125 Q126 Q127]
    · iframe
    set_option sl_exec.stepHeartbeats 5000000 in
    sl_exec (disch := first | exact ⟨inbW _ (hr _ _), inbS _ (hr _ _), inbW _ (hr _ _), inbS _ (hr _ _)⟩ | exact ⟨inbW _ (hr _ _), inbS _ (hr _ _)⟩)
    sl_step
    iapply Hk
    isplitl [H4]; · iexists _; iexact H4
    isplitl [HW]; · iexists _; iexact HW
    isplitl [HS]; · iexists _; iexact HS
    isplitl [HT]; · iexact HT
    isplitl [Hq2]; · iexact Hq2
    isplitl [Hq3]; · iexact Hq3
    isplitl [HO]; · iexists _; iexact HO
    iapply (BIClass.sep_mono (split128 (F := F) fw).2 (split128 (F := F) fs).2)
    iframe

end Cert.Kernel.Fr

end
-- ==== Proof.BitsEntry.lean ====
/-
  What the region finds when it is entered, read entry by entry: the arguments untouched, the prefetched table
  the clamp of the flattened ids — every word of it a row number of the tables, and the id itself when the id is
  in range —, and the two arrays the body gathers rows from the weight table and the zero-padded scales with a
  unit middle axis.
-/
import proofs.«418394_j61838939127938_3_alg».proof.Proof.BitsSetup
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.Lib.IdealHost

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.StableHlo

variable {F : FTy → Type} [BitOps F]

variable (m : (ℓ : Loc nD τ sig) → Buf (Elt F) ℓ)

/-! ## What the host operations before the region leave in each buffer

The operations before the region flatten the ids and clamp them into `[0, 50256]` (signed maximum with 0, then
signed minimum with 50256), give the weight table a unit middle axis, pad the scale rows from 8 to 128 lanes with
zeros and give them a unit middle axis too. None writes an argument. -/

/-- No host operation writes the ids. -/
theorem V_main_arg0 (c : Dev nD) : V m c main_arg0 = m ((c : Thread nD τ).loc main_arg0) := by
  dsimp only [V, V0]
  simp only [hostOps0, hostOps0_1, hostOps0_2, hostOps0_3, hostOps0_4, List.flatten_cons, List.flatten_nil,
    List.append_nil, List.cons_append, List.nil_append]
  after_results

/-- No host operation writes the weight table. -/
theorem V_main_arg1 (c : Dev nD) : V m c main_arg1 = m ((c : Thread nD τ).loc main_arg1) := by
  dsimp only [V, V0]
  simp only [hostOps0, hostOps0_1, hostOps0_2, hostOps0_3, hostOps0_4, List.flatten_cons, List.flatten_nil,
    List.append_nil, List.cons_append, List.nil_append]
  after_results

/-- No host operation writes the scales. -/
theorem V_main_arg2 (c : Dev nD) : V m c main_arg2 = m ((c : Thread nD τ).loc main_arg2) := by
  dsimp only [V, V0]
  simp only [hostOps0, hostOps0_1, hostOps0_2, hostOps0_3, hostOps0_4, List.flatten_cons, List.flatten_nil,
    List.append_nil, List.cons_append, List.nil_append]
  after_results

/-- The table of clamped ids as a term of the ids. -/
theorem V_main_v1 (c : Dev nD) :
    (V m c main_v1 : IVec S16384 32)
      = minsi (broadcastInDim S16384 ![] bcast_S_S16384 (constantI S_ 32 50256#32))
          (maxsi (broadcastInDim S16384 ![] bcast_S_S16384 (constantI S_ 32 0#32))
            (shapeCast S16384 (m ((c : Thread nD τ).loc main_arg0) : IVec S8x2048 32) shapeCasts_S8x2048_S16384)) := by
  dsimp only [V, V0]
  simp only [hostOps0, hostOps0_1, hostOps0_2, hostOps0_3, hostOps0_4, List.flatten_cons, List.flatten_nil,
    List.append_nil, List.cons_append, List.nil_append]
  after_results
  rfl

/-- The weight table with its unit middle axis. -/
theorem V_main_v2 (c : Dev nD) :
    (V m c main_v2 : FVec F S50257x1x1024 .f32)
      = shapeCast S50257x1x1024 (m ((c : Thread nD τ).loc main_arg1) : FVec F S50257x1024 .f32)
          shapeCasts_S50257x1024_S50257x1x1024 := by
  dsimp only [V, V0]
  simp only [hostOps0, hostOps0_1, hostOps0_2, hostOps0_3, hostOps0_4, List.flatten_cons, List.flatten_nil,
    List.append_nil, List.cons_append, List.nil_append]
  after_results
  rfl

/-- The scale rows padded to 128 lanes, with their unit middle axis. -/
theorem V_main_v4 (c : Dev nD) :
    (V m c main_v4 : FVec F S50257x1x128 .f32)
      = shapeCast S50257x1x128
          (pad S50257x128 ![0, 0] ![0, 120] ![0, 0] (m ((c : Thread nD τ).loc main_arg2) : FVec F S50257x8 .f32)
            (sitofp (F := F) .f32 (constantI S_ 32 0#32)) pads_S50257x8_S50257x128_000_01200 h_S_)
          shapeCasts_S50257x128_S50257x1x128 := by
  dsimp only [V, V0]
  simp only [hostOps0, hostOps0_1, hostOps0_2, hostOps0_3, hostOps0_4, List.flatten_cons, List.flatten_nil,
    List.append_nil, List.cons_append, List.nil_append]
  after_results
  rfl

/-! ## The clamp on one word -/

/-- Whatever the word, its clamp into `[0, 50256]` (signed) is below 50257 read unsigned: a negative word goes to
    0, a word above 50256 to 50256, and a word in between is non-negative, so both readings agree. -/
theorem clamp_lt (x : BitVec 32) : (IntOp.minsi 50256#32 (IntOp.maxsi 0#32 x)).toNat < 50257 := by
  have h50 : (50256#32 : BitVec 32).toInt = 50256 := by decide
  have h0 : (0#32 : BitVec 32).toInt = 0 := by decide
  unfold IntOp.maxsi
  split
  · show (IntOp.minsi 50256#32 0#32).toNat < 50257
    decide
  · rename_i hc
    unfold IntOp.minsi
    split
    · decide
    · rename_i hd
      simp only [BitVec.slt, h0, h50, decide_eq_true_eq] at hc hd
      rw [BitVec.toInt_eq_toNat_cond] at hc hd
      have := x.isLt
      split at hc <;> omega

/-- A word already in `[0, 50256]` is its own clamp. -/
theorem clamp_id (x : BitVec 32) (h : x.toNat < 50257) : IntOp.minsi 50256#32 (IntOp.maxsi 0#32 x) = x := by
  have hti : x.toInt = x.toNat := Predicate.toInt_eq_toNat_of_lt (by omega)
  have h50 : (50256#32 : BitVec 32).toInt = 50256 := by decide
  have h0 : (0#32 : BitVec 32).toInt = 0 := by decide
  have hmax : IntOp.maxsi 0#32 x = x := by
    unfold IntOp.maxsi
    split
    · rename_i hc
      simp only [BitVec.slt, hti, h0, decide_eq_true_eq] at hc
      omega
    · rfl
  rw [hmax]
  unfold IntOp.minsi
  split
  · rename_i hc
    simp only [BitVec.slt, hti, h50, decide_eq_true_eq] at hc
    omega
  · rfl

/-! ## The table of clamped ids -/

/-- The table at word `n`: the clamp of the flattened ids' word `n`. -/
theorem tbl_apply (n : S16384.Idx) :
    (tbl m 0 : IVec S16384 32) n
      = IntOp.minsi 50256#32 (IntOp.maxsi 0#32
          (shapeCast S16384 (m (((0 : Dev nD) : Thread nD τ).loc main_arg0) : IVec S8x2048 32) shapeCasts_S8x2048_S16384 n)) := by
  show (V m (0 : Dev nD) main_v1 : IVec S16384 32) n = _
  rw [V_main_v1]
  rfl

/-- Every word of the table is below 50257, whatever the memory. -/
theorem tbl_lt (n : S16384.Idx) : ((tbl m 0 : IVec S16384 32) n).toNat < 50257 := by
  rw [tbl_apply]
  exact clamp_lt _

/-- The same of any load through the whole table: a load reads the table at the coordinates under its indices. -/
theorem tbl_readAt_lt (c : Dev nD) (r : LoadRect S16384) (j : r.shape.Idx) :
    ((tbM.view.readAt (Elt F) r (tbl m 0) j : Elt F .i32) : BitVec 32).toNat < 50257 :=
  tbl_lt m (r.idx j)

/-- When every id is in range the table holds the ids, flattened row-major. -/
theorem tbl_eq_ids
    (hids : ∀ i : S8x2048.Idx, ((m (((0 : Dev nD) : Thread nD τ).loc main_arg0) : IVec S8x2048 32) i).toNat < 50257)
    (b : Fin 8) (t : Fin 2048) (hn : b.val * 2048 + t.val < 16384) :
    (tbl m 0 : IVec S16384 32) (ix1 ⟨b.val * 2048 + t.val, hn⟩)
      = (m (((0 : Dev nD) : Thread nD τ).loc main_arg0) : IVec S8x2048 32) (ix2 b t) := by
  rw [tbl_apply, shapeCast_apply (s := S8x2048) (t := S16384) _ _ (ix1 ⟨b.val * 2048 + t.val, hn⟩) (ix2 b t) (by
    rw [Shape.rowMajor_val_two, Shape.rowMajor_val_one]
    rfl)]
  exact clamp_id _ (hids (ix2 b t))

/-! ## The two arrays the body gathers rows from -/

/-- Row `v` of the reshaped weight table is row `v` of the weights. -/
theorem V_w (c : Dev nD) (v : Fin 50257) (d : Fin 1024) :
    (V m c main_v2 : FVec F S50257x1x1024 .f32) (ix3 v (0 : Fin 1) d)
      = (m ((c : Thread nD τ).loc main_arg1) : FVec F S50257x1024 .f32) (ix2 v d) := by
  rw [V_main_v2]
  exact shapeCast_apply (s := S50257x1024) (t := S50257x1x1024) _ _ (ix3 v (0 : Fin 1) d) (ix2 v d) (by
    rw [Shape.rowMajor_val_two, Shape.rowMajor_val_three]
    show v.val * 1024 + d.val = (v.val * 1 + 0) * 1024 + d.val
    omega)

/-- The first 8 lanes of row `v` of the padded scales are row `v` of the scales. -/
theorem V_s (c : Dev nD) (v : Fin 50257) (g : Fin 8) (hg : g.val < 128) :
    (V m c main_v4 : FVec F S50257x1x128 .f32) (ix3 v (0 : Fin 1) ⟨g.val, hg⟩)
      = (m ((c : Thread nD τ).loc main_arg2) : FVec F S50257x8 .f32) (ix2 v g) := by
  rw [V_main_v4]
  rw [shapeCast_apply (s := S50257x128) (t := S50257x1x128) _ _ (ix3 v (0 : Fin 1) (⟨g.val, hg⟩ : Fin 128)) (ix2 v (⟨g.val, hg⟩ : Fin 128)) (by
    rw [Shape.rowMajor_val_two, Shape.rowMajor_val_three]
    show v.val * 128 + g.val = (v.val * 1 + 0) * 128 + g.val
    omega)]
  exact pad_apply_of_inside (s := S50257x8) (t := S50257x128) _ _ _ _ _ _ _ (ix2 v (⟨g.val, hg⟩ : Fin 128)) (ix2 v g) (fun a => by
    match a with
    | ⟨0, _⟩ => show v.val = 0 + v.val * (0 + 1); omega
    | ⟨1, _⟩ => show g.val = 0 + g.val * (0 + 1); omega)

end Cert.Kernel.Fr

end
-- ==== Proof.BitsFrame.lean ====
/-
  The region's proof data and the launch: each block of the result as the body leaves it, the body's obligation at
  every grid point from the body's run, every weakly fair execution of the program terminating with the result array
  at the library's account of the blocks written back, and the three argument arrays unchanged.
-/
import proofs.«418394_j61838939127938_3_alg».proof.Proof.BitsRun
import proofs.«418394_j61838939127938_3_alg».proof.Proof.BitsEntry
import Idealize.ShloMosaic.Lib.Ring

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- One staging buffer of the output window, through which its contents are stated. -/
abbrev VO0 : View sig .tc .vmem S128x1024 .f32 := (Memref.whole cc0_stg0_0 : Memref sig .tc .vmem S128x1024 .f32).view

/-- The body's one store covers the output block. -/
theorem cover0 (c : Dev nD) (i : grid0.Coords) (arg4 : Memref sig .tc .vmem S128x1024 .f32) (harg4 : arg4.IsWhole)
    (xt : BufOf (F := F) c tbM) (fw : BufOf (F := F) c wM) (fs : BufOf (F := F) c sM)
    (hr : ∀ (r : LoadRect S16384) (j : r.shape.Idx), (tbM.view.readAt (Elt F) r xt j).toNat < 50257) (y : S128x1024.Idx) :
    ∃ pc ∈ (kernelRun0 c i arg4 harg4 xt fw fs hr).1, y ∈ pc.1.set :=
  View.cover_of_tiledL (kernelRun0 c i arg4 harg4 xt fw fs hr).1 S128x1024.size (by sl_kernel_rfl) y

/-- What the body leaves in the output's staging buffer: its store read back. -/
def out0 (c : Dev nD) (i : grid0.Coords) (arg4 : Memref sig .tc .vmem S128x1024 .f32) (harg4 : arg4.IsWhole)
    (xt : BufOf (F := F) c tbM) (fw : BufOf (F := F) c wM) (fs : BufOf (F := F) c sM)
    (hr : ∀ (r : LoadRect S16384) (j : r.shape.Idx), (tbM.view.readAt (Elt F) r xt j).toNat < 50257) : Vec F S128x1024 .f32 :=
  VO0.read (Elt F) (VO0.writes (Elt F) VO0.junk (kernelRun0 c i arg4 harg4 xt fw fs hr).1)

/-- The output block after the body at point `t`. -/
def outsAt0 (c : Dev nD) (t : Fin (cfgM m).N) : Vec F S128x1024 .f32 :=
  out0 c (grid0.coords t) (ms0_0 m t) (hs0_0 m t) (tbl m 0) (V m c main_v2) (V m c main_v4) (tbl_readAt_lt m c)

/-- The pipeline's proof data: the result array as the region finds it, each block as the body leaves it, the
    invariant (the row buffers, the two cells at zero, the gathered arrays and the table's half), nothing owed. -/
def dats (_ : Fin 1) (c : Dev nD) : Dat τ (Elt F) Unit ℕ (Pipeline.UD sig nD τ) ℕ (cfgM m) c where
  A w := V m c (Pipeline.arrRef spec0 w)
  after w t := match w with
    | ⟨0, _⟩ => outsAt0 m c t
  Φ _ := iprop(Pipeline.ΦD osem0 spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = outsAt0 m c t := by dsimp only [dats]; try rfl

/-- The kernel body at point `t`, on what the pipeline calls it with. -/
abbrev bodyAt0 (t : Fin (cfgM m).N) : Prog (TpuEff nD τ sig (Elt F) Λ₀ .tc) PUnit :=
  cc0__gather_quant_kernel (grid0.coords t) tbM (Memref.isWhole_whole _) wM (Memref.isWhole_whole _) sM (Memref.isWhole_whole _)
    (spec0_0.stage ((cfgM m).slots t 0)) (hstage0_0 (((cfgM m).slots t 0).cast nbuf0_0)) wbuf (Memref.isWhole_whole _) sbuf (Memref.isWhole_whole _)
    cc0_scratch2 cc0_scratch3

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d)))
/-- and what it returns. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t))

theorem sound_body (c : Dev nD) (t : Fin (cfgM m).N) :
    bodyPre m c t ⊢ wp frame (wpE (defs₀ (F := F)) Variants.none c none) Set.univ (bodyAt0 m t) (fun _ => bodyPost m c t) := by
  unfold bodyPre bodyPost
  rw [show (dats m 0 c).Φ t.succ = (dats m 0 c).Φ t.castSucc from rfl, after0_0]
  rw [show (dats m 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m 0 c).owed t.castSucc = 0 from rfl, show (dats m 0 c).owed t.succ = 0 from rfl]
  unfold outsAt0 out0
  iintro ⟨⟨⟨⟨HW, HS⟩, Hg, ⟨Hq2, Hq3⟩, ⟨HwM, HsM⟩⟩, HT⟩, ⟨%W, -, HO⟩, ⟨%d0, H0⟩⟩
  iapply ((kernelRun0 c (grid0.coords t) _ _ (tbl m 0) (V m c main_v2) (V m c main_v4) (tbl_readAt_lt m c)).2 W _)
  isplitl [H0]; · iexists _; iexact H0
  isplitl [HW]; · iexact HW
  isplitl [HS]; · iexact HS
  isplitl [HT]; · iexact HT
  isplitl [Hq2]; · iexact Hq2
  isplitl [Hq3]; · iexact Hq3
  isplitl [HwM]; · iexact HwM
  isplitl [HsM]; · iexact HsM
  isplitl [HO]; · iexact HO
  iintro ⟨⟨%e0, H0⟩, HW, HS, HT, Hq2, Hq3, ⟨%W', HO'⟩, HwM, HsM⟩
  isplitl [HW HS Hg Hq2 Hq3 HwM HsM HT]
  · isplitr [HT]; swap; · iexact HT
    isplitl [HW HS]
    · isplitl [HW]; · iexact HW
      iexact HS
    isplitl [Hg]; · iexact Hg
    isplitl [Hq2 Hq3]
    · isplitl [Hq2]; · iexact Hq2
      iexact Hq3
    isplitl [HwM]; · iexact HwM
    iexact HsM
  isplitl [HO']
  · iexists W'; isplitr; · ipureintro; exact fun _ _ => Or.inl trivial
    iexact HO'
  unfold owns; iexists _; isplitr
  swap; · iexact H0
  ipureintro; exact View.read_writes_of_cover _ _ _ _ _ (cover0 c _ _ _ _ _ _ _)

set_option maxRecDepth 200000 in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; the result array ends at the library's account of the
    blocks written back, every other unscoped buffer at what the final reshape leaves. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_dma_around pcfgs (fun _ => adm m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m)
    (hin := fun _ => .rfl) (hout := fun c => by
      rw [show (dats m 0 c).Φ (Fin.last (cfgM m).N) = iprop(Pipeline.ΦD osem0 spec0 H0 (V m) c ∗ Pipeline.ΦT pre0 (tbl m) c) from rfl]
      iintro ⟨H, -⟩; iexact H)

/-- The final reshape writes only the reshaped result: every other buffer but the region's result array ends as the
    region found it. -/
theorem tail_keep (c : Dev nD) (b : Ref sig .tc) (h5 : b ≠ main_v5) (h6 : b ≠ main_v6) :
    Pipeline.afterTail pcfgs (fun _ => adm m) (dats m) 0 (V0 m) [hostOps1] c b = V m c b := by
  have h1 : ∀ op ∈ ([hostOps1] : List (List (HloOp τ sig (Elt F)))).flatten, Proc.devRef .tc b ∉ op.writes := by
    intro op hop hw
    simp only [List.flatten_cons, List.flatten_nil, List.append_nil, hostOps1, List.mem_cons, List.mem_nil_iff, or_false] at hop
    subst hop
    simp only [StableHlo.reshape_writes, Finset.mem_singleton] at hw
    exact h6 (Proc.devRef_injective _ hw)
  have h2 : ∀ w, Pipeline.arrRef (Pipeline.pin pcfgs (fun _ => adm m) 0).spec w ≠ b := by
    intro w e; fin_cases w; exact h5 e.symm
  unfold Pipeline.afterTail
  rw [StableHlo.after_of_forall_not_mem _ _ h1, Pipeline.withArrays_of_ne _ c (V0 m c) _ b h2]

/-- The three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_arg0 (show main_arg0 ∈ Pipeline.restRefs sig spec0 from by decide)).trans ((tail_keep m c main_arg0 (by decide) (by decide)).trans (V_main_arg0 m c)),
      ((h c).2 main_arg1 (show main_arg1 ∈ Pipeline.restRefs sig spec0 from by decide)).trans ((tail_keep m c main_arg1 (by decide) (by decide)).trans (V_main_arg1 m c)),
      ((h c).2 main_arg2 (show main_arg2 ∈ Pipeline.restRefs sig spec0 from by decide)).trans ((tail_keep m c main_arg2 (by decide) (by decide)).trans (V_main_arg2 m c))⟩) (run_main m ρ)

end Cert.Kernel.Fr

end
-- ==== Proof.IdealSetup.lean ====
/-
  The kernel's program around its one region: what every buffer holds when the region is entered, the
  table of clamped ids the region prefetches, the two semaphores and the two arrays the body gathers rows from, and
  the region's invariant spelled conjunct by conjunct.
-/
import proofs.«418394_j61838939127938_3_alg».proof.Proof.Gen.KernelIdeal
import proofs.«418394_j61838939127938_3_alg».proof.Proof.Gen.KernelIdeal.Skeleton
import proofs.«418394_j61838939127938_3_alg».proof.Proof.Gen.KernelIdeal.Launch
import Idealize.ShloMosaic.Lib.Transfers
import Idealize.ShloMosaic.Lib.Batch
import Idealize.ShloMosaic.Lib.Writes
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around its one kernel region -/

/-- Core `c`'s buffer contents when the region is entered: the launch memory after the host operations that come
    before the region (the flattening and clamping of the ids, the reshape of the table, the padding of the scales). -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to its region continued by the final reshape, entered at the contents `V`. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-! ## The prefetched table of clamped ids -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Any contents are admissible: no window's index map reads the table. -/
abbrev adm : (pcfg0 (F := F)).Adm := ⟨tbl m, trivial⟩
abbrev cfgM : Pipeline.Cfg sig Λ₀ := cfg0 (adm m)

/-- The table, the two gathered arrays and the two row buffers as the body is handed them. -/
abbrev tbM : Memref sig .tc .smem S16384 .i32 := Memref.whole main_v1
abbrev wM : Memref sig .tc .hbm S50257x1x1024 .f32 := Memref.whole main_v2
abbrev sM : Memref sig .tc .hbm S50257x1x128 .f32 := Memref.whole main_v4
abbrev wbuf : Memref sig .tc .vmem S128x1x1024 .f32 := Memref.whole cc0_scratch0
abbrev sbuf : Memref sig .tc .vmem S128x1x128 .f32 := Memref.whole cc0_scratch1

abbrev BufOf (c : Dev nD) {sp : Space} {S : Shape} {e : EltTy} (M : Memref sig .tc sp S e) : Type := Buf (Elt F) (M.view.loc (c : Thread nD τ))
/-- A buffer held whole at share `q`. -/
abbrev ptAt (c : Dev nD) {sp : Space} {S : Shape} {e : EltTy} (M : Memref sig .tc sp S e) (q : PosShare TreeShare) (f : BufOf (F := F) c M) : sProp 𝕄 :=
  M.view.loc (c : Thread nD τ) ↦{q} f

/-- The half of the table the region hands the body (the pipeline keeps the other half). -/
theorem PhiT0_eq (c : Dev nD) : (Pipeline.ΦT pre0 (tbl m) c : sProp 𝕄) = iprop(ptAt c tbM fullShare.right (tbl m 0)) := by
  unfold Pipeline.ΦT Pipeline.prefHeld
  rw [show (Finset.univ : Finset (Fin 1)) = {(0 : Fin 1)} from by decide, bigSep_singleton]
  rfl

/-! ## The kernel's own cells and the arrays it gathers from -/

/-- The two DMA semaphores of the kernel's own: the weight rows' and the scale rows'. -/
abbrev osem0 : Fin 2 → SemLoc sig := fun j => (![SemLoc.dma 2, SemLoc.dma 3] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl
/-- The arrays left in HBM that the body reads rows of. -/
def H0 : Finset (Ref sig .tc) := {main_v2, main_v4}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(ptAt c wM fullShare (V m c main_v2) ∗ ptAt c sM fullShare (V m c main_v4)) := by
  rw [BI.bigSep_eq_bigSepL_of_eq [main_v2, main_v4] (by decide) (by decide)]; rfl

/-- The region's invariant, conjunct by conjunct: the two row buffers at some contents, the generator register, the two
    cells at zero, the two gathered arrays whole at their region-entry contents. -/
theorem PhiD0_eq (c : Dev nD) :
    (Pipeline.ΦD osem0 spec0 H0 (V m) c : sProp 𝕄)
      = iprop(iprop((∃ f, ptAt c wbuf fullShare f) ∗ (∃ f, ptAt c sbuf fullShare f)) ∗ (∃ r, prngReg c r)
          ∗ iprop(semVal ((c : Thread nD τ), SemLoc.dma 2) 0 ∗ semVal ((c : Thread nD τ), SemLoc.dma 3) 0)
          ∗ iprop(ptAt c wM fullShare (V m c main_v2) ∗ ptAt c sM fullShare (V m c main_v4))) := by
  rw [Pipeline.ΦD_eq, scopedRest0_eq, ownSems00_eq, hbmPts0_eq]

/-! ## The final reshape touches neither the table nor the gathered arrays -/

theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  refine Pipeline.sub_tailRefsBut pre0 spec0 H0 op ((List.forall_iff_forall_mem.mp hostOps1_sub) op hop) ?_ ?_
  all_goals
    simp only [hostOps1, List.mem_cons, List.mem_nil_iff, or_false] at hop
    rcases hop with rfl
  · intro k; fin_cases k; simp only [StableHlo.reshape_bufs]; decide
  · intro b hb; simp only [H0, Finset.mem_insert, Finset.mem_singleton] at hb
    rcases hb with rfl | rfl <;> simp only [StableHlo.reshape_bufs] <;> decide
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w
  simp only [StableHlo.reshape_writes, Finset.mem_singleton]
  exact StableHlo.devRef_ne_of_ne (by decide)

/-! ## The output window's staging buffer at a point -/

abbrev ms0_0 (t : Fin (cfgM m).N) : Memref sig .tc .vmem S128x1024 .f32 := spec0_0.stage ((cfgM m).slots t 0)
abbrev hs0_0 (t : Fin (cfgM m).N) : (ms0_0 m t).IsWhole := hstage0_0 (((cfgM m).slots t 0).cast nbuf0_0)

end Cert.KernelIdeal.Fr

end
-- ==== Proof.IdealRows.lean ====
/-
  The two row buffers cut into their 128 rows.

  A buffer held whole is its rows held each by its own elements (the rows written out one by one, as the body names
  the destinations of its copies). Once the copy for slot `j` has landed, row `j` holds the row of the gathered
  array that the table's word for slot `j` names; restated at ONE function of the buffer's index, the 128 rows join
  back to the buffer held whole at that function.
-/
import proofs.«418394_j61838939127938_3_alg».proof.Proof.IdealSetup
import Idealize.ShloMosaic.Lib.ValueIdx
import Idealize.ShloMosaic.Lib.Pipeline.Value
import Idealize.ShloMosaic.Lib.Pipeline.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! ## Row `j` of the weight row buffer, uniformly in `j` -/

theorem inbRowW (j : Fin 128) : ∀ a, (![j.val, 0, 0] : Fin 3 → ℕ) a + S1x1x1024.size a ≤ S128x1x1024.size a := by
  intro a
  have := j.isLt
  match a with
  | ⟨0, _⟩ => show j.val + 1 ≤ 128; omega
  | ⟨1, _⟩ => show 0 + 1 ≤ 1; omega
  | ⟨2, _⟩ => show 0 + 1024 ≤ 1024; omega

/-- Row `j` as a memref: the one-row slice of the buffer at row `j`, its two unit axes squeezed to one. -/
abbrev rowW (j : Fin 128) : Memref sig .tc .vmem S1x1024 .f32 :=
  ((wbuf.slice (Rect.unit (s := S128x1x1024) ![j.val, 0, 0] S1x1x1024.size (inbRowW j)) (fun _ => rfl)).squeeze S1x1024 squeezes_S1x1x1024_S1x1024)

/-- Entry `d` of row `j` sits at (j, 0, d) of the buffer. -/
theorem rowW_emb (j : Fin 128) (d : Fin 1024) :
    (rowW j).view.emb (ix2 (0 : Fin 1) d) = (ix3 j (0 : Fin 1) d : S128x1x1024.Idx) := by
  show (Rect.unit (s := S128x1x1024) ![j.val, 0, 0] S1x1x1024.size (inbRowW j)).emb
      (Shape.reshapeEquiv (Shape.Squeezes.numel_eq squeezes_S1x1x1024_S1x1024) (ix2 (0 : Fin 1) d)) = _
  rw [Shape.reshapeEquiv_eq_of_rowMajor _ (x := ix2 (0 : Fin 1) d) (y := (ix3 (0 : Fin 1) (0 : Fin 1) d : S1x1x1024.Idx)) (by
    rw [Shape.rowMajor_val_three, Shape.rowMajor_val_two]; rfl)]
  funext a
  refine Fin.ext ?_
  match a with
  | ⟨0, _⟩ => rw [Rect.emb_apply]; show j.val + 1 * 0 = j.val; omega
  | ⟨1, _⟩ => rw [Rect.emb_apply]; show 0 + 1 * 0 = 0; omega
  | ⟨2, _⟩ => rw [Rect.emb_apply]; show 0 + 1 * d.val = d.val; omega

/-- The elements of row `j`, as a set of the buffer's indices. -/
def rowSetW (c : Dev nD) (j : Fin 128) : Finset (Idx (wbuf.view.loc (c : Thread nD τ))) := (rowW j).view.set

/-- An index of the buffer lies in row `j` exactly when its first coordinate is `j`. -/
theorem mem_rowSetW (c : Dev nD) (j : Fin 128) (x : S128x1x1024.Idx) : x ∈ rowSetW c j ↔ (x 0).val = j.val := by
  constructor
  · intro hm
    obtain ⟨y, -, hy⟩ := Finset.mem_map.mp hm
    obtain ⟨u, d, rfl⟩ : ∃ (u : Fin 1) (d : Fin 1024), y = ix2 u d := ⟨y 0, y 1, eq_ix2 y⟩
    obtain rfl : u = 0 := Subsingleton.elim _ _
    rw [rowW_emb j d] at hy
    exact (congrArg (fun i : S128x1x1024.Idx => (i 0).val) hy).symm
  · intro h
    have hx : x = (ix3 j (0 : Fin 1) (x 2) : S128x1x1024.Idx) := by
      funext a
      match a with
      | ⟨0, _⟩ => exact Fin.ext h
      | ⟨1, h1⟩ =>
        refine Fin.ext ?_
        have hlt : (x ⟨1, h1⟩).val < 1 := (x ⟨1, h1⟩).isLt
        show (x ⟨1, h1⟩).val = 0
        omega
      | ⟨2, _⟩ => rfl
    rw [hx, ← rowW_emb j (x 2)]
    exact Finset.mem_map_of_mem _ (Finset.mem_univ _)

theorem rowSetW_disjoint (c : Dev nD) (j j' : Fin 128) (h : j ≠ j') : Disjoint (rowSetW c j) (rowSetW c j') := by
  rw [Finset.disjoint_left]
  intro x hx hx'
  rw [mem_rowSetW] at hx hx'
  exact h (Fin.ext (hx.symm.trans hx'))

theorem rowSetW_cover (c : Dev nD) : (Finset.univ : Finset (Fin 128)).biUnion (rowSetW c) = Finset.univ := by
  ext x
  refine ⟨fun _ => Finset.mem_univ _, fun _ => ?_⟩
  exact Finset.mem_biUnion.mpr ⟨(x : S128x1x1024.Idx) 0, Finset.mem_univ _, (mem_rowSetW c _ x).mpr rfl⟩

/-- The buffer held whole is its 128 rows, each held by its own elements. -/
theorem wbuf_rows_big (c : Dev nD) (f : BufOf (F := F) c wbuf) :
    (ptAt c wbuf fullShare f : sProp 𝕄)
      = bigSep Finset.univ fun j : Fin 128 => (rowW j).view.loc (c : Thread nD τ) ↦[(rowW j).view.set]{fullShare} f := by
  show (wbuf.view.loc (c : Thread nD τ) ↦[Finset.univ]{fullShare} f : sProp 𝕄) = _
  rw [← rowSetW_cover c, pointsTo_biUnion Finset.univ (rowSetW c) (fun t _ t' _ h => rowSetW_disjoint c t t' h)]
  rfl

/-! ## Row `j` of the scale row buffer, uniformly in `j` -/

theorem inbRowS (j : Fin 128) : ∀ a, (![j.val, 0, 0] : Fin 3 → ℕ) a + S1x1x128.size a ≤ S128x1x128.size a := by
  intro a
  have := j.isLt
  match a with
  | ⟨0, _⟩ => show j.val + 1 ≤ 128; omega
  | ⟨1, _⟩ => show 0 + 1 ≤ 1; omega
  | ⟨2, _⟩ => show 0 + 128 ≤ 128; omega

/-- Row `j` as a memref: the one-row slice of the buffer at row `j`, its two unit axes squeezed to one. -/
abbrev rowS (j : Fin 128) : Memref sig .tc .vmem S1x128 .f32 :=
  ((sbuf.slice (Rect.unit (s := S128x1x128) ![j.val, 0, 0] S1x1x128.size (inbRowS j)) (fun _ => rfl)).squeeze S1x128 squeezes_S1x1x128_S1x128)

/-- Entry `d` of row `j` sits at (j, 0, d) of the buffer. -/
theorem rowS_emb (j : Fin 128) (d : Fin 128) :
    (rowS j).view.emb (ix2 (0 : Fin 1) d) = (ix3 j (0 : Fin 1) d : S128x1x128.Idx) := by
  show (Rect.unit (s := S128x1x128) ![j.val, 0, 0] S1x1x128.size (inbRowS j)).emb
      (Shape.reshapeEquiv (Shape.Squeezes.numel_eq squeezes_S1x1x128_S1x128) (ix2 (0 : Fin 1) d)) = _
  rw [Shape.reshapeEquiv_eq_of_rowMajor _ (x := ix2 (0 : Fin 1) d) (y := (ix3 (0 : Fin 1) (0 : Fin 1) d : S1x1x128.Idx)) (by
    rw [Shape.rowMajor_val_three, Shape.rowMajor_val_two]; rfl)]
  funext a
  refine Fin.ext ?_
  match a with
  | ⟨0, _⟩ => rw [Rect.emb_apply]; show j.val + 1 * 0 = j.val; omega
  | ⟨1, _⟩ => rw [Rect.emb_apply]; show 0 + 1 * 0 = 0; omega
  | ⟨2, _⟩ => rw [Rect.emb_apply]; show 0 + 1 * d.val = d.val; omega

/-- The elements of row `j`, as a set of the buffer's indices. -/
def rowSetS (c : Dev nD) (j : Fin 128) : Finset (Idx (sbuf.view.loc (c : Thread nD τ))) := (rowS j).view.set

/-- An index of the buffer lies in row `j` exactly when its first coordinate is `j`. -/
theorem mem_rowSetS (c : Dev nD) (j : Fin 128) (x : S128x1x128.Idx) : x ∈ rowSetS c j ↔ (x 0).val = j.val := by
  constructor
  · intro hm
    obtain ⟨y, -, hy⟩ := Finset.mem_map.mp hm
    obtain ⟨u, d, rfl⟩ : ∃ (u : Fin 1) (d : Fin 128), y = ix2 u d := ⟨y 0, y 1, eq_ix2 y⟩
    obtain rfl : u = 0 := Subsingleton.elim _ _
    rw [rowS_emb j d] at hy
    exact (congrArg (fun i : S128x1x128.Idx => (i 0).val) hy).symm
  · intro h
    have hx : x = (ix3 j (0 : Fin 1) (x 2) : S128x1x128.Idx) := by
      funext a
      match a with
      | ⟨0, _⟩ => exact Fin.ext h
      | ⟨1, h1⟩ =>
        refine Fin.ext ?_
        have hlt : (x ⟨1, h1⟩).val < 1 := (x ⟨1, h1⟩).isLt
        show (x ⟨1, h1⟩).val = 0
        omega
      | ⟨2, _⟩ => rfl
    rw [hx, ← rowS_emb j (x 2)]
    exact Finset.mem_map_of_mem _ (Finset.mem_univ _)

theorem rowSetS_disjoint (c : Dev nD) (j j' : Fin 128) (h : j ≠ j') : Disjoint (rowSetS c j) (rowSetS c j') := by
  rw [Finset.disjoint_left]
  intro x hx hx'
  rw [mem_rowSetS] at hx hx'
  exact h (Fin.ext (hx.symm.trans hx'))

theorem rowSetS_cover (c : Dev nD) : (Finset.univ : Finset (Fin 128)).biUnion (rowSetS c) = Finset.univ := by
  ext x
  refine ⟨fun _ => Finset.mem_univ _, fun _ => ?_⟩
  exact Finset.mem_biUnion.mpr ⟨(x : S128x1x128.Idx) 0, Finset.mem_univ _, (mem_rowSetS c _ x).mpr rfl⟩

/-- The buffer held whole is its 128 rows, each held by its own elements. -/
theorem sbuf_rows_big (c : Dev nD) (f : BufOf (F := F) c sbuf) :
    (ptAt c sbuf fullShare f : sProp 𝕄)
      = bigSep Finset.univ fun j : Fin 128 => (rowS j).view.loc (c : Thread nD τ) ↦[(rowS j).view.set]{fullShare} f := by
  show (sbuf.view.loc (c : Thread nD τ) ↦[Finset.univ]{fullShare} f : sProp 𝕄) = _
  rw [← rowSetS_cover c, pointsTo_biUnion Finset.univ (rowSetS c) (fun t _ t' _ h => rowSetS_disjoint c t t' h)]
  rfl

/-! ## The rows written out one by one -/

/-- Row `j` of the weight row buffer, as the body names the destination of copy `j`. -/
abbrev wrow : (j : Fin 128) → Memref sig .tc .vmem S1x1024 .f32
  | ⟨0, _⟩ => ((wbuf.slice (Rect.unit (s := S128x1x1024) ![0, 0, 0] S1x1x1024.size inb_S128x1x1024_S1x1x1024_0_0_0) (fun _ => rfl)).squeeze S1x1024 squeezes_S1x1x1024_S1x1024)
  | ⟨1, _⟩ => ((wbuf.slice (Rect.unit (s := S128x1x1024) ![1, 0, 0] S1x1x1024.size inb_S128x1x1024_S1x1x1024_1_0_0) (fun _ => rfl)).squeeze S1x1024 squeezes_S1x1x1024_S1x1024)
  | ⟨2, _⟩ => ((wbuf.slice (Rect.unit (s := S128x1x1024) ![2, 0, 0] S1x1x1024.size inb_S128x1x1024_S1x1x1024_2_0_0) (fun _ => rfl)).squeeze S1x1024 squeezes_S1x1x1024_S1x1024)
  | ⟨3, _⟩ => ((wbuf.slice (Rect.unit (s := S128x1x1024) ![3, 0, 0] S1x1x1024.size inb_S128x1x1024_S1x1x1024_3_0_0) (fun _ => rfl)).squeeze S1x1024 squeezes_S1x1x1024_S1x1024)
  | ⟨4, _⟩ => ((wbuf.slice (Rect.unit (s := S128x1x1024) ![4, 0, 0] S1x1x1024.size inb_S128x1x1024_S1x1x1024_4_0_0) (fun _ => rfl)).squeeze S1x1024 squeezes_S1x1x1024_S1x1024)
  | ⟨5, _⟩ => ((wbuf.slice (Rect.unit (s := S128x1x1024) ![5, 0, 0] S1x1x1024.size inb_S128x1x1024_S1x1x1024_5_0_0) (fun _ => rfl)).squeeze S1x1024 squeezes_S1x1x1024_S1x1024)
  | ⟨6, _⟩ => ((wbuf.slice (Rect.unit (s := S128x1x1024) ![6, 0, 0] S1x1x1024.size inb_S128x1x1024_S1x1x1024_6_0_0) (fun _ => rfl)).squeeze S1x1024 squeezes_S1x1x1024_S1x1024)
  | ⟨7, _⟩ => ((wbuf.slice (Rect.unit (s := S128x1x1024) ![7, 0, 0] S1x1x1024.size inb_S128x1x1024_S1x1x1024_7_0_0) (fun _ => rfl)).squeeze S1x1024 squeezes_S1x1x1024_S1x1024)
  | ⟨8, _⟩ => ((wbuf.slice (Rect.unit (s := S128x1x1024) ![8, 0, 0] S1x1x1024.size inb_S128x1x1024_S1x1x1024_8_0_0) (fun _ => rfl)).squeeze S1x1024 squeezes_S1x1x1024_S1x1024)
  | ⟨9, _⟩ => ((wbuf.slice (Rect.unit (s := S128x1x1024) ![9, 0, 0] S1x1x1024.size inb_S128x1x1024_S1x1x1024_9_0_0) (fun _ => rfl)).squeeze S1x1024 squeezes_S1x1x1024_S1x1024)
  | ⟨10, _⟩ => ((wbuf.slice (Rect.unit (s := S128x1x1024) ![10, 0, 0] S1x1x1024.size inb_S128x1x1024_S1x1x1024_10_0_0) (fun _ => rfl)).squeeze S1x1024 squeezes_S1x1x1024_S1x1024)
  | ⟨11, _⟩ => ((wbuf.slice (Rect.unit (s := S128x1x1024) ![11, 0, 0] S1x1x1024.size inb_S128x1x1024_S1x1x1024_11_0_0) (fun _ => rfl)).squeeze S1x1024 squeezes_S1x1x1024_S1x1024)
  | ⟨12, _⟩ => ((wbuf.slice (Rect.unit (s := S128x1x1024) ![12, 0, 0] S1x1x1024.size inb_S128x1x1024_S1x1x1024_12_0_0) (fun _ => rfl)).squeeze S1x1024 squeezes_S1x1x1024_S1x1024)
  | ⟨13, _⟩ => ((wbuf.slice (Rect.unit (s := S128x1x1024) ![13, 0, 0] S1x1x1024.size inb_S128x1x1024_S1x1x1024_13_0_0) (fun _ => rfl)).squeeze S1x1024 squeezes_S1x1x1024_S1x1024)
  | ⟨14, _⟩ => ((wbuf.slice (Rect.unit (s := S128x1x1024) ![14, 0, 0] S1x1x1024.size inb_S128x1x1024_S1x1x1024_14_0_0) (fun _ => rfl)).squeeze S1x1024 squeezes_S1x1x1024_S1x1024)
  | ⟨15, _⟩ => ((wbuf.slice (Rect.unit (s := S128x1x1024) ![15, 0, 0] S1x1x1024.size inb_S128x1x1024_S1x1x1024_15_0_0) (fun _ => rfl)).squeeze S1x1024 squeezes_S1x1x1024_S1x1024)
  | ⟨16, _⟩ => ((wbuf.slice (Rect.unit (s := S128x1x1024) ![16, 0, 0] S1x1x1024.size inb_S128x1x1024_S1x1x1024_16_0_0) (fun _ => rfl)).squeeze S1x1024 squeezes_S1x1x1024_S1x1024)
  | ⟨17, _⟩ => ((wbuf.slice (Rect.unit (s := S128x1x1024) ![17, 0, 0] S1x1x1024.size inb_S128x1x1024_S1x1x1024_17_0_0) (fun _ => rfl)).squeeze S1x1024 squeezes_S1x1x1024_S1x1024)
  | ⟨18, _⟩ => ((wbuf.slice (Rect.unit (s := S128x1x1024) ![18, 0, 0] S1x1x1024.size inb_S128x1x1024_S1x1x1024_18_0_0) (fun _ => rfl)).squeeze S1x1024 squeezes_S1x1x1024_S1x1024)
  | ⟨19, _⟩ => ((wbuf.slice (Rect.unit (s := S128x1x1024) ![19, 0, 0] S1x1x1024.size inb_S128x1x1024_S1x1x1024_19_0_0) (fun _ => rfl)).squeeze S1x1024 squeezes_S1x1x1024_S1x1024)
  | ⟨20, _⟩ => ((wbuf.slice (Rect.unit (s := S128x1x1024) ![20, 0, 0] S1x1x1024.size inb_S128x1x1024_S1x1x1024_20_0_0) (fun _ => rfl)).squeeze S1x1024 squeezes_S1x1x1024_S1x1024)
  | ⟨21, _⟩ => ((wbuf.slice (Rect.unit (s := S128x1x1024) ![21, 0, 0] S1x1x1024.size inb_S128x1x1024_S1x1x1024_21_0_0) (fun _ => rfl)).squeeze S1x1024 squeezes_S1x1x1024_S1x1024)
  | ⟨22, _⟩ => ((wbuf.slice (Rect.unit (s := S128x1x1024) ![22, 0, 0] S1x1x1024.size inb_S128x1x1024_S1x1x1024_22_0_0) (fun _ => rfl)).squeeze S1x1024 squeezes_S1x1x1024_S1x1024)
  | ⟨23, _⟩ => ((wbuf.slice (Rect.unit (s := S128x1x1024) ![23, 0, 0] S1x1x1024.size inb_S128x1x1024_S1x1x1024_23_0_0) (fun _ => rfl)).squeeze S1x1024 squeezes_S1x1x1024_S1x1024)
  | ⟨24, _⟩ => ((wbuf.slice (Rect.unit (s := S128x1x1024) ![24, 0, 0] S1x1x1024.size inb_S128x1x1024_S1x1x1024_24_0_0) (fun _ => rfl)).squeeze S1x1024 squeezes_S1x1x1024_S1x1024)
  | ⟨25, _⟩ => ((wbuf.slice (Rect.unit (s := S128x1x1024) ![25, 0, 0] S1x1x1024.size inb_S128x1x1024_S1x1x1024_25_0_0) (fun _ => rfl)).squeeze S1x1024 squeezes_S1x1x1024_S1x1024)
  | ⟨26, _⟩ => ((wbuf.slice (Rect.unit (s := S128x1x1024) ![26, 0, 0] S1x1x1024.size inb_S128x1x1024_S1x1x1024_26_0_0) (fun _ => rfl)).squeeze S1x1024 squeezes_S1x1x1024_S1x1024)
  | ⟨27, _⟩ => ((wbuf.slice (Rect.unit (s := S128x1x1024) ![27, 0, 0] S1x1x1024.size inb_S128x1x1024_S1x1x1024_27_0_0) (fun _ => rfl)).squeeze S1x1024 squeezes_S1x1x1024_S1x1024)
  | ⟨28, _⟩ => ((wbuf.slice (Rect.unit (s := S128x1x1024) ![28, 0, 0] S1x1x1024.size inb_S128x1x1024_S1x1x1024_28_0_0) (fun _ => rfl)).squeeze S1x1024 squeezes_S1x1x1024_S1x1024)
  | ⟨29, _⟩ => ((wbuf.slice (Rect.unit (s := S128x1x1024) ![29, 0, 0] S1x1x1024.size inb_S128x1x1024_S1x1x1024_29_0_0) (fun _ => rfl)).squeeze S1x1024 squeezes_S1x1x1024_S1x1024)
  | ⟨30, _⟩ => ((wbuf.slice (Rect.unit (s := S128x1x1024) ![30, 0, 0] S1x1x1024.size inb_S128x1x1024_S1x1x1024_30_0_0) (fun _ => rfl)).squeeze S1x1024 squeezes_S1x1x1024_S1x1024)
  | ⟨31, _⟩ => ((wbuf.slice (Rect.unit (s := S128x1x1024) ![31, 0, 0] S1x1x1024.size inb_S128x1x1024_S1x1x1024_31_0_0) (fun _ => rfl)).squeeze S1x1024 squeezes_S1x1x1024_S1x1024)
  | ⟨32, _⟩ => ((wbuf.slice (Rect.unit (s := S128x1x1024) ![32, 0, 0] S1x1x1024.size inb_S128x1x1024_S1x1x1024_32_0_0) (fun _ => rfl)).squeeze S1x1024 squeezes_S1x1x1024_S1x1024)
  | ⟨33, _⟩ => ((wbuf.slice (Rect.unit (s := S128x1x1024) ![33, 0, 0] S1x1x1024.size inb_S128x1x1024_S1x1x1024_33_0_0) (fun _ => rfl)).squeeze S1x1024 squeezes_S1x1x1024_S1x1024)
  | ⟨34, _⟩ => ((wbuf.slice (Rect.unit (s := S128x1x1024) ![34, 0, 0] S1x1x1024.size inb_S128x1x1024_S1x1x1024_34_0_0) (fun _ => rfl)).squeeze S1x1024 squeezes_S1x1x1024_S1x1024)
  | ⟨35, _⟩ => ((wbuf.slice (Rect.unit (s := S128x1x1024) ![35, 0, 0] S1x1x1024.size inb_S128x1x1024_S1x1x1024_35_0_0) (fun _ => rfl)).squeeze S1x1024 squeezes_S1x1x1024_S1x1024)
  | ⟨36, _⟩ => ((wbuf.slice (Rect.unit (s := S128x1x1024) ![36, 0, 0] S1x1x1024.size inb_S128x1x1024_S1x1x1024_36_0_0) (fun _ => rfl)).squeeze S1x1024 squeezes_S1x1x1024_S1x1024)
  | ⟨37, _⟩ => ((wbuf.slice (Rect.unit (s := S128x1x1024) ![37, 0, 0] S1x1x1024.size inb_S128x1x1024_S1x1x1024_37_0_0) (fun _ => rfl)).squeeze S1x1024 squeezes_S1x1x1024_S1x1024)
  | ⟨38, _⟩ => ((wbuf.slice (Rect.unit (s := S128x1x1024) ![38, 0, 0] S1x1x1024.size inb_S128x1x1024_S1x1x1024_38_0_0) (fun _ => rfl)).squeeze S1x1024 squeezes_S1x1x1024_S1x1024)
  | ⟨39, _⟩ => ((wbuf.slice (Rect.unit (s := S128x1x1024) ![39, 0, 0] S1x1x1024.size inb_S128x1x1024_S1x1x1024_39_0_0) (fun _ => rfl)).squeeze S1x1024 squeezes_S1x1x1024_S1x1024)
  | ⟨40, _⟩ => ((wbuf.slice (Rect.unit (s := S128x1x1024) ![40, 0, 0] S1x1x1024.size inb_S128x1x1024_S1x1x1024_40_0_0) (fun _ => rfl)).squeeze S1x1024 squeezes_S1x1x1024_S1x1024)
  | ⟨41, _⟩ => ((wbuf.slice (Rect.unit (s := S128x1x1024) ![41, 0, 0] S1x1x1024.size inb_S128x1x1024_S1x1x1024_41_0_0) (fun _ => rfl)).squeeze S1x1024 squeezes_S1x1x1024_S1x1024)
  | ⟨42, _⟩ => ((wbuf.slice (Rect.unit (s := S128x1x1024) ![42, 0, 0] S1x1x1024.size inb_S128x1x1024_S1x1x1024_42_0_0) (fun _ => rfl)).squeeze S1x1024 squeezes_S1x1x1024_S1x1024)
  | ⟨43, _⟩ => ((wbuf.slice (Rect.unit (s := S128x1x1024) ![43, 0, 0] S1x1x1024.size inb_S128x1x1024_S1x1x1024_43_0_0) (fun _ => rfl)).squeeze S1x1024 squeezes_S1x1x1024_S1x1024)
  | ⟨44, _⟩ => ((wbuf.slice (Rect.unit (s := S128x1x1024) ![44, 0, 0] S1x1x1024.size inb_S128x1x1024_S1x1x1024_44_0_0) (fun _ => rfl)).squeeze S1x1024 squeezes_S1x1x1024_S1x1024)
  | ⟨45, _⟩ => ((wbuf.slice (Rect.unit (s := S128x1x1024) ![45, 0, 0] S1x1x1024.size inb_S128x1x1024_S1x1x1024_45_0_0) (fun _ => rfl)).squeeze S1x1024 squeezes_S1x1x1024_S1x1024)
  | ⟨46, _⟩ => ((wbuf.slice (Rect.unit (s := S128x1x1024) ![46, 0, 0] S1x1x1024.size inb_S128x1x1024_S1x1x1024_46_0_0) (fun _ => rfl)).squeeze S1x1024 squeezes_S1x1x1024_S1x1024)
  | ⟨47, _⟩ => ((wbuf.slice (Rect.unit (s := S128x1x1024) ![47, 0, 0] S1x1x1024.size inb_S128x1x1024_S1x1x1024_47_0_0) (fun _ => rfl)).squeeze S1x1024 squeezes_S1x1x1024_S1x1024)
  | ⟨48, _⟩ => ((wbuf.slice (Rect.unit (s := S128x1x1024) ![48, 0, 0] S1x1x1024.size inb_S128x1x1024_S1x1x1024_48_0_0) (fun _ => rfl)).squeeze S1x1024 squeezes_S1x1x1024_S1x1024)
  | ⟨49, _⟩ => ((wbuf.slice (Rect.unit (s := S128x1x1024) ![49, 0, 0] S1x1x1024.size inb_S128x1x1024_S1x1x1024_49_0_0) (fun _ => rfl)).squeeze S1x1024 squeezes_S1x1x1024_S1x1024)
  | ⟨50, _⟩ => ((wbuf.slice (Rect.unit (s := S128x1x1024) ![50, 0, 0] S1x1x1024.size inb_S128x1x1024_S1x1x1024_50_0_0) (fun _ => rfl)).squeeze S1x1024 squeezes_S1x1x1024_S1x1024)
  | ⟨51, _⟩ => ((wbuf.slice (Rect.unit (s := S128x1x1024) ![51, 0, 0] S1x1x1024.size inb_S128x1x1024_S1x1x1024_51_0_0) (fun _ => rfl)).squeeze S1x1024 squeezes_S1x1x1024_S1x1024)
  | ⟨52, _⟩ => ((wbuf.slice (Rect.unit (s := S128x1x1024) ![52, 0, 0] S1x1x1024.size inb_S128x1x1024_S1x1x1024_52_0_0) (fun _ => rfl)).squeeze S1x1024 squeezes_S1x1x1024_S1x1024)
  | ⟨53, _⟩ => ((wbuf.slice (Rect.unit (s := S128x1x1024) ![53, 0, 0] S1x1x1024.size inb_S128x1x1024_S1x1x1024_53_0_0) (fun _ => rfl)).squeeze S1x1024 squeezes_S1x1x1024_S1x1024)
  | ⟨54, _⟩ => ((wbuf.slice (Rect.unit (s := S128x1x1024) ![54, 0, 0] S1x1x1024.size inb_S128x1x1024_S1x1x1024_54_0_0) (fun _ => rfl)).squeeze S1x1024 squeezes_S1x1x1024_S1x1024)
  | ⟨55, _⟩ => ((wbuf.slice (Rect.unit (s := S128x1x1024) ![55, 0, 0] S1x1x1024.size inb_S128x1x1024_S1x1x1024_55_0_0) (fun _ => rfl)).squeeze S1x1024 squeezes_S1x1x1024_S1x1024)
  | ⟨56, _⟩ => ((wbuf.slice (Rect.unit (s := S128x1x1024) ![56, 0, 0] S1x1x1024.size inb_S128x1x1024_S1x1x1024_56_0_0) (fun _ => rfl)).squeeze S1x1024 squeezes_S1x1x1024_S1x1024)
  | ⟨57, _⟩ => ((wbuf.slice (Rect.unit (s := S128x1x1024) ![57, 0, 0] S1x1x1024.size inb_S128x1x1024_S1x1x1024_57_0_0) (fun _ => rfl)).squeeze S1x1024 squeezes_S1x1x1024_S1x1024)
  | ⟨58, _⟩ => ((wbuf.slice (Rect.unit (s := S128x1x1024) ![58, 0, 0] S1x1x1024.size inb_S128x1x1024_S1x1x1024_58_0_0) (fun _ => rfl)).squeeze S1x1024 squeezes_S1x1x1024_S1x1024)
  | ⟨59, _⟩ => ((wbuf.slice (Rect.unit (s := S128x1x1024) ![59, 0, 0] S1x1x1024.size inb_S128x1x1024_S1x1x1024_59_0_0) (fun _ => rfl)).squeeze S1x1024 squeezes_S1x1x1024_S1x1024)
  | ⟨60, _⟩ => ((wbuf.slice (Rect.unit (s := S128x1x1024) ![60, 0, 0] S1x1x1024.size inb_S128x1x1024_S1x1x1024_60_0_0) (fun _ => rfl)).squeeze S1x1024 squeezes_S1x1x1024_S1x1024)
  | ⟨61, _⟩ => ((wbuf.slice (Rect.unit (s := S128x1x1024) ![61, 0, 0] S1x1x1024.size inb_S128x1x1024_S1x1x1024_61_0_0) (fun _ => rfl)).squeeze S1x1024 squeezes_S1x1x1024_S1x1024)
  | ⟨62, _⟩ => ((wbuf.slice (Rect.unit (s := S128x1x1024) ![62, 0, 0] S1x1x1024.size inb_S128x1x1024_S1x1x1024_62_0_0) (fun _ => rfl)).squeeze S1x1024 squeezes_S1x1x1024_S1x1024)
  | ⟨63, _⟩ => ((wbuf.slice (Rect.unit (s := S128x1x1024) ![63, 0, 0] S1x1x1024.size inb_S128x1x1024_S1x1x1024_63_0_0) (fun _ => rfl)).squeeze S1x1024 squeezes_S1x1x1024_S1x1024)
  | ⟨64, _⟩ => ((wbuf.slice (Rect.unit (s := S128x1x1024) ![64, 0, 0] S1x1x1024.size inb_S128x1x1024_S1x1x1024_64_0_0) (fun _ => rfl)).squeeze S1x1024 squeezes_S1x1x1024_S1x1024)
  | ⟨65, _⟩ => ((wbuf.slice (Rect.unit (s := S128x1x1024) ![65, 0, 0] S1x1x1024.size inb_S128x1x1024_S1x1x1024_65_0_0) (fun _ => rfl)).squeeze S1x1024 squeezes_S1x1x1024_S1x1024)
  | ⟨66, _⟩ => ((wbuf.slice (Rect.unit (s := S128x1x1024) ![66, 0, 0] S1x1x1024.size inb_S128x1x1024_S1x1x1024_66_0_0) (fun _ => rfl)).squeeze S1x1024 squeezes_S1x1x1024_S1x1024)
  | ⟨67, _⟩ => ((wbuf.slice (Rect.unit (s := S128x1x1024) ![67, 0, 0] S1x1x1024.size inb_S128x1x1024_S1x1x1024_67_0_0) (fun _ => rfl)).squeeze S1x1024 squeezes_S1x1x1024_S1x1024)
  | ⟨68, _⟩ => ((wbuf.slice (Rect.unit (s := S128x1x1024) ![68, 0, 0] S1x1x1024.size inb_S128x1x1024_S1x1x1024_68_0_0) (fun _ => rfl)).squeeze S1x1024 squeezes_S1x1x1024_S1x1024)
  | ⟨69, _⟩ => ((wbuf.slice (Rect.unit (s := S128x1x1024) ![69, 0, 0] S1x1x1024.size inb_S128x1x1024_S1x1x1024_69_0_0) (fun _ => rfl)).squeeze S1x1024 squeezes_S1x1x1024_S1x1024)
  | ⟨70, _⟩ => ((wbuf.slice (Rect.unit (s := S128x1x1024) ![70, 0, 0] S1x1x1024.size inb_S128x1x1024_S1x1x1024_70_0_0) (fun _ => rfl)).squeeze S1x1024 squeezes_S1x1x1024_S1x1024)
  | ⟨71, _⟩ => ((wbuf.slice (Rect.unit (s := S128x1x1024) ![71, 0, 0] S1x1x1024.size inb_S128x1x1024_S1x1x1024_71_0_0) (fun _ => rfl)).squeeze S1x1024 squeezes_S1x1x1024_S1x1024)
  | ⟨72, _⟩ => ((wbuf.slice (Rect.unit (s := S128x1x1024) ![72, 0, 0] S1x1x1024.size inb_S128x1x1024_S1x1x1024_72_0_0) (fun _ => rfl)).squeeze S1x1024 squeezes_S1x1x1024_S1x1024)
  | ⟨73, _⟩ => ((wbuf.slice (Rect.unit (s := S128x1x1024) ![73, 0, 0] S1x1x1024.size inb_S128x1x1024_S1x1x1024_73_0_0) (fun _ => rfl)).squeeze S1x1024 squeezes_S1x1x1024_S1x1024)
  | ⟨74, _⟩ => ((wbuf.slice (Rect.unit (s := S128x1x1024) ![74, 0, 0] S1x1x1024.size inb_S128x1x1024_S1x1x1024_74_0_0) (fun _ => rfl)).squeeze S1x1024 squeezes_S1x1x1024_S1x1024)
  | ⟨75, _⟩ => ((wbuf.slice (Rect.unit (s := S128x1x1024) ![75, 0, 0] S1x1x1024.size inb_S128x1x1024_S1x1x1024_75_0_0) (fun _ => rfl)).squeeze S1x1024 squeezes_S1x1x1024_S1x1024)
  | ⟨76, _⟩ => ((wbuf.slice (Rect.unit (s := S128x1x1024) ![76, 0, 0] S1x1x1024.size inb_S128x1x1024_S1x1x1024_76_0_0) (fun _ => rfl)).squeeze S1x1024 squeezes_S1x1x1024_S1x1024)
  | ⟨77, _⟩ => ((wbuf.slice (Rect.unit (s := S128x1x1024) ![77, 0, 0] S1x1x1024.size inb_S128x1x1024_S1x1x1024_77_0_0) (fun _ => rfl)).squeeze S1x1024 squeezes_S1x1x1024_S1x1024)
  | ⟨78, _⟩ => ((wbuf.slice (Rect.unit (s := S128x1x1024) ![78, 0, 0] S1x1x1024.size inb_S128x1x1024_S1x1x1024_78_0_0) (fun _ => rfl)).squeeze S1x1024 squeezes_S1x1x1024_S1x1024)
  | ⟨79, _⟩ => ((wbuf.slice (Rect.unit (s := S128x1x1024) ![79, 0, 0] S1x1x1024.size inb_S128x1x1024_S1x1x1024_79_0_0) (fun _ => rfl)).squeeze S1x1024 squeezes_S1x1x1024_S1x1024)
  | ⟨80, _⟩ => ((wbuf.slice (Rect.unit (s := S128x1x1024) ![80, 0, 0] S1x1x1024.size inb_S128x1x1024_S1x1x1024_80_0_0) (fun _ => rfl)).squeeze S1x1024 squeezes_S1x1x1024_S1x1024)
  | ⟨81, _⟩ => ((wbuf.slice (Rect.unit (s := S128x1x1024) ![81, 0, 0] S1x1x1024.size inb_S128x1x1024_S1x1x1024_81_0_0) (fun _ => rfl)).squeeze S1x1024 squeezes_S1x1x1024_S1x1024)
  | ⟨82, _⟩ => ((wbuf.slice (Rect.unit (s := S128x1x1024) ![82, 0, 0] S1x1x1024.size inb_S128x1x1024_S1x1x1024_82_0_0) (fun _ => rfl)).squeeze S1x1024 squeezes_S1x1x1024_S1x1024)
  | ⟨83, _⟩ => ((wbuf.slice (Rect.unit (s := S128x1x1024) ![83, 0, 0] S1x1x1024.size inb_S128x1x1024_S1x1x1024_83_0_0) (fun _ => rfl)).squeeze S1x1024 squeezes_S1x1x1024_S1x1024)
  | ⟨84, _⟩ => ((wbuf.slice (Rect.unit (s := S128x1x1024) ![84, 0, 0] S1x1x1024.size inb_S128x1x1024_S1x1x1024_84_0_0) (fun _ => rfl)).squeeze S1x1024 squeezes_S1x1x1024_S1x1024)
  | ⟨85, _⟩ => ((wbuf.slice (Rect.unit (s := S128x1x1024) ![85, 0, 0] S1x1x1024.size inb_S128x1x1024_S1x1x1024_85_0_0) (fun _ => rfl)).squeeze S1x1024 squeezes_S1x1x1024_S1x1024)
  | ⟨86, _⟩ => ((wbuf.slice (Rect.unit (s := S128x1x1024) ![86, 0, 0] S1x1x1024.size inb_S128x1x1024_S1x1x1024_86_0_0) (fun _ => rfl)).squeeze S1x1024 squeezes_S1x1x1024_S1x1024)
  | ⟨87, _⟩ => ((wbuf.slice (Rect.unit (s := S128x1x1024) ![87, 0, 0] S1x1x1024.size inb_S128x1x1024_S1x1x1024_87_0_0) (fun _ => rfl)).squeeze S1x1024 squeezes_S1x1x1024_S1x1024)
  | ⟨88, _⟩ => ((wbuf.slice (Rect.unit (s := S128x1x1024) ![88, 0, 0] S1x1x1024.size inb_S128x1x1024_S1x1x1024_88_0_0) (fun _ => rfl)).squeeze S1x1024 squeezes_S1x1x1024_S1x1024)
  | ⟨89, _⟩ => ((wbuf.slice (Rect.unit (s := S128x1x1024) ![89, 0, 0] S1x1x1024.size inb_S128x1x1024_S1x1x1024_89_0_0) (fun _ => rfl)).squeeze S1x1024 squeezes_S1x1x1024_S1x1024)
  | ⟨90, _⟩ => ((wbuf.slice (Rect.unit (s := S128x1x1024) ![90, 0, 0] S1x1x1024.size inb_S128x1x1024_S1x1x1024_90_0_0) (fun _ => rfl)).squeeze S1x1024 squeezes_S1x1x1024_S1x1024)
  | ⟨91, _⟩ => ((wbuf.slice (Rect.unit (s := S128x1x1024) ![91, 0, 0] S1x1x1024.size inb_S128x1x1024_S1x1x1024_91_0_0) (fun _ => rfl)).squeeze S1x1024 squeezes_S1x1x1024_S1x1024)
  | ⟨92, _⟩ => ((wbuf.slice (Rect.unit (s := S128x1x1024) ![92, 0, 0] S1x1x1024.size inb_S128x1x1024_S1x1x1024_92_0_0) (fun _ => rfl)).squeeze S1x1024 squeezes_S1x1x1024_S1x1024)
  | ⟨93, _⟩ => ((wbuf.slice (Rect.unit (s := S128x1x1024) ![93, 0, 0] S1x1x1024.size inb_S128x1x1024_S1x1x1024_93_0_0) (fun _ => rfl)).squeeze S1x1024 squeezes_S1x1x1024_S1x1024)
  | ⟨94, _⟩ => ((wbuf.slice (Rect.unit (s := S128x1x1024) ![94, 0, 0] S1x1x1024.size inb_S128x1x1024_S1x1x1024_94_0_0) (fun _ => rfl)).squeeze S1x1024 squeezes_S1x1x1024_S1x1024)
  | ⟨95, _⟩ => ((wbuf.slice (Rect.unit (s := S128x1x1024) ![95, 0, 0] S1x1x1024.size inb_S128x1x1024_S1x1x1024_95_0_0) (fun _ => rfl)).squeeze S1x1024 squeezes_S1x1x1024_S1x1024)
  | ⟨96, _⟩ => ((wbuf.slice (Rect.unit (s := S128x1x1024) ![96, 0, 0] S1x1x1024.size inb_S128x1x1024_S1x1x1024_96_0_0) (fun _ => rfl)).squeeze S1x1024 squeezes_S1x1x1024_S1x1024)
  | ⟨97, _⟩ => ((wbuf.slice (Rect.unit (s := S128x1x1024) ![97, 0, 0] S1x1x1024.size inb_S128x1x1024_S1x1x1024_97_0_0) (fun _ => rfl)).squeeze S1x1024 squeezes_S1x1x1024_S1x1024)
  | ⟨98, _⟩ => ((wbuf.slice (Rect.unit (s := S128x1x1024) ![98, 0, 0] S1x1x1024.size inb_S128x1x1024_S1x1x1024_98_0_0) (fun _ => rfl)).squeeze S1x1024 squeezes_S1x1x1024_S1x1024)
  | ⟨99, _⟩ => ((wbuf.slice (Rect.unit (s := S128x1x1024) ![99, 0, 0] S1x1x1024.size inb_S128x1x1024_S1x1x1024_99_0_0) (fun _ => rfl)).squeeze S1x1024 squeezes_S1x1x1024_S1x1024)
  | ⟨100, _⟩ => ((wbuf.slice (Rect.unit (s := S128x1x1024) ![100, 0, 0] S1x1x1024.size inb_S128x1x1024_S1x1x1024_100_0_0) (fun _ => rfl)).squeeze S1x1024 squeezes_S1x1x1024_S1x1024)
  | ⟨101, _⟩ => ((wbuf.slice (Rect.unit (s := S128x1x1024) ![101, 0, 0] S1x1x1024.size inb_S128x1x1024_S1x1x1024_101_0_0) (fun _ => rfl)).squeeze S1x1024 squeezes_S1x1x1024_S1x1024)
  | ⟨102, _⟩ => ((wbuf.slice (Rect.unit (s := S128x1x1024) ![102, 0, 0] S1x1x1024.size inb_S128x1x1024_S1x1x1024_102_0_0) (fun _ => rfl)).squeeze S1x1024 squeezes_S1x1x1024_S1x1024)
  | ⟨103, _⟩ => ((wbuf.slice (Rect.unit (s := S128x1x1024) ![103, 0, 0] S1x1x1024.size inb_S128x1x1024_S1x1x1024_103_0_0) (fun _ => rfl)).squeeze S1x1024 squeezes_S1x1x1024_S1x1024)
  | ⟨104, _⟩ => ((wbuf.slice (Rect.unit (s := S128x1x1024) ![104, 0, 0] S1x1x1024.size inb_S128x1x1024_S1x1x1024_104_0_0) (fun _ => rfl)).squeeze S1x1024 squeezes_S1x1x1024_S1x1024)
  | ⟨105, _⟩ => ((wbuf.slice (Rect.unit (s := S128x1x1024) ![105, 0, 0] S1x1x1024.size inb_S128x1x1024_S1x1x1024_105_0_0) (fun _ => rfl)).squeeze S1x1024 squeezes_S1x1x1024_S1x1024)
  | ⟨106, _⟩ => ((wbuf.slice (Rect.unit (s := S128x1x1024) ![106, 0, 0] S1x1x1024.size inb_S128x1x1024_S1x1x1024_106_0_0) (fun _ => rfl)).squeeze S1x1024 squeezes_S1x1x1024_S1x1024)
  | ⟨107, _⟩ => ((wbuf.slice (Rect.unit (s := S128x1x1024) ![107, 0, 0] S1x1x1024.size inb_S128x1x1024_S1x1x1024_107_0_0) (fun _ => rfl)).squeeze S1x1024 squeezes_S1x1x1024_S1x1024)
  | ⟨108, _⟩ => ((wbuf.slice (Rect.unit (s := S128x1x1024) ![108, 0, 0] S1x1x1024.size inb_S128x1x1024_S1x1x1024_108_0_0) (fun _ => rfl)).squeeze S1x1024 squeezes_S1x1x1024_S1x1024)
  | ⟨109, _⟩ => ((wbuf.slice (Rect.unit (s := S128x1x1024) ![109, 0, 0] S1x1x1024.size inb_S128x1x1024_S1x1x1024_109_0_0) (fun _ => rfl)).squeeze S1x1024 squeezes_S1x1x1024_S1x1024)
  | ⟨110, _⟩ => ((wbuf.slice (Rect.unit (s := S128x1x1024) ![110, 0, 0] S1x1x1024.size inb_S128x1x1024_S1x1x1024_110_0_0) (fun _ => rfl)).squeeze S1x1024 squeezes_S1x1x1024_S1x1024)
  | ⟨111, _⟩ => ((wbuf.slice (Rect.unit (s := S128x1x1024) ![111, 0, 0] S1x1x1024.size inb_S128x1x1024_S1x1x1024_111_0_0) (fun _ => rfl)).squeeze S1x1024 squeezes_S1x1x1024_S1x1024)
  | ⟨112, _⟩ => ((wbuf.slice (Rect.unit (s := S128x1x1024) ![112, 0, 0] S1x1x1024.size inb_S128x1x1024_S1x1x1024_112_0_0) (fun _ => rfl)).squeeze S1x1024 squeezes_S1x1x1024_S1x1024)
  | ⟨113, _⟩ => ((wbuf.slice (Rect.unit (s := S128x1x1024) ![113, 0, 0] S1x1x1024.size inb_S128x1x1024_S1x1x1024_113_0_0) (fun _ => rfl)).squeeze S1x1024 squeezes_S1x1x1024_S1x1024)
  | ⟨114, _⟩ => ((wbuf.slice (Rect.unit (s := S128x1x1024) ![114, 0, 0] S1x1x1024.size inb_S128x1x1024_S1x1x1024_114_0_0) (fun _ => rfl)).squeeze S1x1024 squeezes_S1x1x1024_S1x1024)
  | ⟨115, _⟩ => ((wbuf.slice (Rect.unit (s := S128x1x1024) ![115, 0, 0] S1x1x1024.size inb_S128x1x1024_S1x1x1024_115_0_0) (fun _ => rfl)).squeeze S1x1024 squeezes_S1x1x1024_S1x1024)
  | ⟨116, _⟩ => ((wbuf.slice (Rect.unit (s := S128x1x1024) ![116, 0, 0] S1x1x1024.size inb_S128x1x1024_S1x1x1024_116_0_0) (fun _ => rfl)).squeeze S1x1024 squeezes_S1x1x1024_S1x1024)
  | ⟨117, _⟩ => ((wbuf.slice (Rect.unit (s := S128x1x1024) ![117, 0, 0] S1x1x1024.size inb_S128x1x1024_S1x1x1024_117_0_0) (fun _ => rfl)).squeeze S1x1024 squeezes_S1x1x1024_S1x1024)
  | ⟨118, _⟩ => ((wbuf.slice (Rect.unit (s := S128x1x1024) ![118, 0, 0] S1x1x1024.size inb_S128x1x1024_S1x1x1024_118_0_0) (fun _ => rfl)).squeeze S1x1024 squeezes_S1x1x1024_S1x1024)
  | ⟨119, _⟩ => ((wbuf.slice (Rect.unit (s := S128x1x1024) ![119, 0, 0] S1x1x1024.size inb_S128x1x1024_S1x1x1024_119_0_0) (fun _ => rfl)).squeeze S1x1024 squeezes_S1x1x1024_S1x1024)
  | ⟨120, _⟩ => ((wbuf.slice (Rect.unit (s := S128x1x1024) ![120, 0, 0] S1x1x1024.size inb_S128x1x1024_S1x1x1024_120_0_0) (fun _ => rfl)).squeeze S1x1024 squeezes_S1x1x1024_S1x1024)
  | ⟨121, _⟩ => ((wbuf.slice (Rect.unit (s := S128x1x1024) ![121, 0, 0] S1x1x1024.size inb_S128x1x1024_S1x1x1024_121_0_0) (fun _ => rfl)).squeeze S1x1024 squeezes_S1x1x1024_S1x1024)
  | ⟨122, _⟩ => ((wbuf.slice (Rect.unit (s := S128x1x1024) ![122, 0, 0] S1x1x1024.size inb_S128x1x1024_S1x1x1024_122_0_0) (fun _ => rfl)).squeeze S1x1024 squeezes_S1x1x1024_S1x1024)
  | ⟨123, _⟩ => ((wbuf.slice (Rect.unit (s := S128x1x1024) ![123, 0, 0] S1x1x1024.size inb_S128x1x1024_S1x1x1024_123_0_0) (fun _ => rfl)).squeeze S1x1024 squeezes_S1x1x1024_S1x1024)
  | ⟨124, _⟩ => ((wbuf.slice (Rect.unit (s := S128x1x1024) ![124, 0, 0] S1x1x1024.size inb_S128x1x1024_S1x1x1024_124_0_0) (fun _ => rfl)).squeeze S1x1024 squeezes_S1x1x1024_S1x1024)
  | ⟨125, _⟩ => ((wbuf.slice (Rect.unit (s := S128x1x1024) ![125, 0, 0] S1x1x1024.size inb_S128x1x1024_S1x1x1024_125_0_0) (fun _ => rfl)).squeeze S1x1024 squeezes_S1x1x1024_S1x1024)
  | ⟨126, _⟩ => ((wbuf.slice (Rect.unit (s := S128x1x1024) ![126, 0, 0] S1x1x1024.size inb_S128x1x1024_S1x1x1024_126_0_0) (fun _ => rfl)).squeeze S1x1024 squeezes_S1x1x1024_S1x1024)
  | ⟨127, _⟩ => ((wbuf.slice (Rect.unit (s := S128x1x1024) ![127, 0, 0] S1x1x1024.size inb_S128x1x1024_S1x1x1024_127_0_0) (fun _ => rfl)).squeeze S1x1024 squeezes_S1x1x1024_S1x1024)
  | ⟨_ + 128, h⟩ => absurd h (by omega)
/-- Row `j` of the scale row buffer. -/
abbrev srow : (j : Fin 128) → Memref sig .tc .vmem S1x128 .f32
  | ⟨0, _⟩ => ((sbuf.slice (Rect.unit (s := S128x1x128) ![0, 0, 0] S1x1x128.size inb_S128x1x128_S1x1x128_0_0_0) (fun _ => rfl)).squeeze S1x128 squeezes_S1x1x128_S1x128)
  | ⟨1, _⟩ => ((sbuf.slice (Rect.unit (s := S128x1x128) ![1, 0, 0] S1x1x128.size inb_S128x1x128_S1x1x128_1_0_0) (fun _ => rfl)).squeeze S1x128 squeezes_S1x1x128_S1x128)
  | ⟨2, _⟩ => ((sbuf.slice (Rect.unit (s := S128x1x128) ![2, 0, 0] S1x1x128.size inb_S128x1x128_S1x1x128_2_0_0) (fun _ => rfl)).squeeze S1x128 squeezes_S1x1x128_S1x128)
  | ⟨3, _⟩ => ((sbuf.slice (Rect.unit (s := S128x1x128) ![3, 0, 0] S1x1x128.size inb_S128x1x128_S1x1x128_3_0_0) (fun _ => rfl)).squeeze S1x128 squeezes_S1x1x128_S1x128)
  | ⟨4, _⟩ => ((sbuf.slice (Rect.unit (s := S128x1x128) ![4, 0, 0] S1x1x128.size inb_S128x1x128_S1x1x128_4_0_0) (fun _ => rfl)).squeeze S1x128 squeezes_S1x1x128_S1x128)
  | ⟨5, _⟩ => ((sbuf.slice (Rect.unit (s := S128x1x128) ![5, 0, 0] S1x1x128.size inb_S128x1x128_S1x1x128_5_0_0) (fun _ => rfl)).squeeze S1x128 squeezes_S1x1x128_S1x128)
  | ⟨6, _⟩ => ((sbuf.slice (Rect.unit (s := S128x1x128) ![6, 0, 0] S1x1x128.size inb_S128x1x128_S1x1x128_6_0_0) (fun _ => rfl)).squeeze S1x128 squeezes_S1x1x128_S1x128)
  | ⟨7, _⟩ => ((sbuf.slice (Rect.unit (s := S128x1x128) ![7, 0, 0] S1x1x128.size inb_S128x1x128_S1x1x128_7_0_0) (fun _ => rfl)).squeeze S1x128 squeezes_S1x1x128_S1x128)
  | ⟨8, _⟩ => ((sbuf.slice (Rect.unit (s := S128x1x128) ![8, 0, 0] S1x1x128.size inb_S128x1x128_S1x1x128_8_0_0) (fun _ => rfl)).squeeze S1x128 squeezes_S1x1x128_S1x128)
  | ⟨9, _⟩ => ((sbuf.slice (Rect.unit (s := S128x1x128) ![9, 0, 0] S1x1x128.size inb_S128x1x128_S1x1x128_9_0_0) (fun _ => rfl)).squeeze S1x128 squeezes_S1x1x128_S1x128)
  | ⟨10, _⟩ => ((sbuf.slice (Rect.unit (s := S128x1x128) ![10, 0, 0] S1x1x128.size inb_S128x1x128_S1x1x128_10_0_0) (fun _ => rfl)).squeeze S1x128 squeezes_S1x1x128_S1x128)
  | ⟨11, _⟩ => ((sbuf.slice (Rect.unit (s := S128x1x128) ![11, 0, 0] S1x1x128.size inb_S128x1x128_S1x1x128_11_0_0) (fun _ => rfl)).squeeze S1x128 squeezes_S1x1x128_S1x128)
  | ⟨12, _⟩ => ((sbuf.slice (Rect.unit (s := S128x1x128) ![12, 0, 0] S1x1x128.size inb_S128x1x128_S1x1x128_12_0_0) (fun _ => rfl)).squeeze S1x128 squeezes_S1x1x128_S1x128)
  | ⟨13, _⟩ => ((sbuf.slice (Rect.unit (s := S128x1x128) ![13, 0, 0] S1x1x128.size inb_S128x1x128_S1x1x128_13_0_0) (fun _ => rfl)).squeeze S1x128 squeezes_S1x1x128_S1x128)
  | ⟨14, _⟩ => ((sbuf.slice (Rect.unit (s := S128x1x128) ![14, 0, 0] S1x1x128.size inb_S128x1x128_S1x1x128_14_0_0) (fun _ => rfl)).squeeze S1x128 squeezes_S1x1x128_S1x128)
  | ⟨15, _⟩ => ((sbuf.slice (Rect.unit (s := S128x1x128) ![15, 0, 0] S1x1x128.size inb_S128x1x128_S1x1x128_15_0_0) (fun _ => rfl)).squeeze S1x128 squeezes_S1x1x128_S1x128)
  | ⟨16, _⟩ => ((sbuf.slice (Rect.unit (s := S128x1x128) ![16, 0, 0] S1x1x128.size inb_S128x1x128_S1x1x128_16_0_0) (fun _ => rfl)).squeeze S1x128 squeezes_S1x1x128_S1x128)
  | ⟨17, _⟩ => ((sbuf.slice (Rect.unit (s := S128x1x128) ![17, 0, 0] S1x1x128.size inb_S128x1x128_S1x1x128_17_0_0) (fun _ => rfl)).squeeze S1x128 squeezes_S1x1x128_S1x128)
  | ⟨18, _⟩ => ((sbuf.slice (Rect.unit (s := S128x1x128) ![18, 0, 0] S1x1x128.size inb_S128x1x128_S1x1x128_18_0_0) (fun _ => rfl)).squeeze S1x128 squeezes_S1x1x128_S1x128)
  | ⟨19, _⟩ => ((sbuf.slice (Rect.unit (s := S128x1x128) ![19, 0, 0] S1x1x128.size inb_S128x1x128_S1x1x128_19_0_0) (fun _ => rfl)).squeeze S1x128 squeezes_S1x1x128_S1x128)
  | ⟨20, _⟩ => ((sbuf.slice (Rect.unit (s := S128x1x128) ![20, 0, 0] S1x1x128.size inb_S128x1x128_S1x1x128_20_0_0) (fun _ => rfl)).squeeze S1x128 squeezes_S1x1x128_S1x128)
  | ⟨21, _⟩ => ((sbuf.slice (Rect.unit (s := S128x1x128) ![21, 0, 0] S1x1x128.size inb_S128x1x128_S1x1x128_21_0_0) (fun _ => rfl)).squeeze S1x128 squeezes_S1x1x128_S1x128)
  | ⟨22, _⟩ => ((sbuf.slice (Rect.unit (s := S128x1x128) ![22, 0, 0] S1x1x128.size inb_S128x1x128_S1x1x128_22_0_0) (fun _ => rfl)).squeeze S1x128 squeezes_S1x1x128_S1x128)
  | ⟨23, _⟩ => ((sbuf.slice (Rect.unit (s := S128x1x128) ![23, 0, 0] S1x1x128.size inb_S128x1x128_S1x1x128_23_0_0) (fun _ => rfl)).squeeze S1x128 squeezes_S1x1x128_S1x128)
  | ⟨24, _⟩ => ((sbuf.slice (Rect.unit (s := S128x1x128) ![24, 0, 0] S1x1x128.size inb_S128x1x128_S1x1x128_24_0_0) (fun _ => rfl)).squeeze S1x128 squeezes_S1x1x128_S1x128)
  | ⟨25, _⟩ => ((sbuf.slice (Rect.unit (s := S128x1x128) ![25, 0, 0] S1x1x128.size inb_S128x1x128_S1x1x128_25_0_0) (fun _ => rfl)).squeeze S1x128 squeezes_S1x1x128_S1x128)
  | ⟨26, _⟩ => ((sbuf.slice (Rect.unit (s := S128x1x128) ![26, 0, 0] S1x1x128.size inb_S128x1x128_S1x1x128_26_0_0) (fun _ => rfl)).squeeze S1x128 squeezes_S1x1x128_S1x128)
  | ⟨27, _⟩ => ((sbuf.slice (Rect.unit (s := S128x1x128) ![27, 0, 0] S1x1x128.size inb_S128x1x128_S1x1x128_27_0_0) (fun _ => rfl)).squeeze S1x128 squeezes_S1x1x128_S1x128)
  | ⟨28, _⟩ => ((sbuf.slice (Rect.unit (s := S128x1x128) ![28, 0, 0] S1x1x128.size inb_S128x1x128_S1x1x128_28_0_0) (fun _ => rfl)).squeeze S1x128 squeezes_S1x1x128_S1x128)
  | ⟨29, _⟩ => ((sbuf.slice (Rect.unit (s := S128x1x128) ![29, 0, 0] S1x1x128.size inb_S128x1x128_S1x1x128_29_0_0) (fun _ => rfl)).squeeze S1x128 squeezes_S1x1x128_S1x128)
  | ⟨30, _⟩ => ((sbuf.slice (Rect.unit (s := S128x1x128) ![30, 0, 0] S1x1x128.size inb_S128x1x128_S1x1x128_30_0_0) (fun _ => rfl)).squeeze S1x128 squeezes_S1x1x128_S1x128)
  | ⟨31, _⟩ => ((sbuf.slice (Rect.unit (s := S128x1x128) ![31, 0, 0] S1x1x128.size inb_S128x1x128_S1x1x128_31_0_0) (fun _ => rfl)).squeeze S1x128 squeezes_S1x1x128_S1x128)
  | ⟨32, _⟩ => ((sbuf.slice (Rect.unit (s := S128x1x128) ![32, 0, 0] S1x1x128.size inb_S128x1x128_S1x1x128_32_0_0) (fun _ => rfl)).squeeze S1x128 squeezes_S1x1x128_S1x128)
  | ⟨33, _⟩ => ((sbuf.slice (Rect.unit (s := S128x1x128) ![33, 0, 0] S1x1x128.size inb_S128x1x128_S1x1x128_33_0_0) (fun _ => rfl)).squeeze S1x128 squeezes_S1x1x128_S1x128)
  | ⟨34, _⟩ => ((sbuf.slice (Rect.unit (s := S128x1x128) ![34, 0, 0] S1x1x128.size inb_S128x1x128_S1x1x128_34_0_0) (fun _ => rfl)).squeeze S1x128 squeezes_S1x1x128_S1x128)
  | ⟨35, _⟩ => ((sbuf.slice (Rect.unit (s := S128x1x128) ![35, 0, 0] S1x1x128.size inb_S128x1x128_S1x1x128_35_0_0) (fun _ => rfl)).squeeze S1x128 squeezes_S1x1x128_S1x128)
  | ⟨36, _⟩ => ((sbuf.slice (Rect.unit (s := S128x1x128) ![36, 0, 0] S1x1x128.size inb_S128x1x128_S1x1x128_36_0_0) (fun _ => rfl)).squeeze S1x128 squeezes_S1x1x128_S1x128)
  | ⟨37, _⟩ => ((sbuf.slice (Rect.unit (s := S128x1x128) ![37, 0, 0] S1x1x128.size inb_S128x1x128_S1x1x128_37_0_0) (fun _ => rfl)).squeeze S1x128 squeezes_S1x1x128_S1x128)
  | ⟨38, _⟩ => ((sbuf.slice (Rect.unit (s := S128x1x128) ![38, 0, 0] S1x1x128.size inb_S128x1x128_S1x1x128_38_0_0) (fun _ => rfl)).squeeze S1x128 squeezes_S1x1x128_S1x128)
  | ⟨39, _⟩ => ((sbuf.slice (Rect.unit (s := S128x1x128) ![39, 0, 0] S1x1x128.size inb_S128x1x128_S1x1x128_39_0_0) (fun _ => rfl)).squeeze S1x128 squeezes_S1x1x128_S1x128)
  | ⟨40, _⟩ => ((sbuf.slice (Rect.unit (s := S128x1x128) ![40, 0, 0] S1x1x128.size inb_S128x1x128_S1x1x128_40_0_0) (fun _ => rfl)).squeeze S1x128 squeezes_S1x1x128_S1x128)
  | ⟨41, _⟩ => ((sbuf.slice (Rect.unit (s := S128x1x128) ![41, 0, 0] S1x1x128.size inb_S128x1x128_S1x1x128_41_0_0) (fun _ => rfl)).squeeze S1x128 squeezes_S1x1x128_S1x128)
  | ⟨42, _⟩ => ((sbuf.slice (Rect.unit (s := S128x1x128) ![42, 0, 0] S1x1x128.size inb_S128x1x128_S1x1x128_42_0_0) (fun _ => rfl)).squeeze S1x128 squeezes_S1x1x128_S1x128)
  | ⟨43, _⟩ => ((sbuf.slice (Rect.unit (s := S128x1x128) ![43, 0, 0] S1x1x128.size inb_S128x1x128_S1x1x128_43_0_0) (fun _ => rfl)).squeeze S1x128 squeezes_S1x1x128_S1x128)
  | ⟨44, _⟩ => ((sbuf.slice (Rect.unit (s := S128x1x128) ![44, 0, 0] S1x1x128.size inb_S128x1x128_S1x1x128_44_0_0) (fun _ => rfl)).squeeze S1x128 squeezes_S1x1x128_S1x128)
  | ⟨45, _⟩ => ((sbuf.slice (Rect.unit (s := S128x1x128) ![45, 0, 0] S1x1x128.size inb_S128x1x128_S1x1x128_45_0_0) (fun _ => rfl)).squeeze S1x128 squeezes_S1x1x128_S1x128)
  | ⟨46, _⟩ => ((sbuf.slice (Rect.unit (s := S128x1x128) ![46, 0, 0] S1x1x128.size inb_S128x1x128_S1x1x128_46_0_0) (fun _ => rfl)).squeeze S1x128 squeezes_S1x1x128_S1x128)
  | ⟨47, _⟩ => ((sbuf.slice (Rect.unit (s := S128x1x128) ![47, 0, 0] S1x1x128.size inb_S128x1x128_S1x1x128_47_0_0) (fun _ => rfl)).squeeze S1x128 squeezes_S1x1x128_S1x128)
  | ⟨48, _⟩ => ((sbuf.slice (Rect.unit (s := S128x1x128) ![48, 0, 0] S1x1x128.size inb_S128x1x128_S1x1x128_48_0_0) (fun _ => rfl)).squeeze S1x128 squeezes_S1x1x128_S1x128)
  | ⟨49, _⟩ => ((sbuf.slice (Rect.unit (s := S128x1x128) ![49, 0, 0] S1x1x128.size inb_S128x1x128_S1x1x128_49_0_0) (fun _ => rfl)).squeeze S1x128 squeezes_S1x1x128_S1x128)
  | ⟨50, _⟩ => ((sbuf.slice (Rect.unit (s := S128x1x128) ![50, 0, 0] S1x1x128.size inb_S128x1x128_S1x1x128_50_0_0) (fun _ => rfl)).squeeze S1x128 squeezes_S1x1x128_S1x128)
  | ⟨51, _⟩ => ((sbuf.slice (Rect.unit (s := S128x1x128) ![51, 0, 0] S1x1x128.size inb_S128x1x128_S1x1x128_51_0_0) (fun _ => rfl)).squeeze S1x128 squeezes_S1x1x128_S1x128)
  | ⟨52, _⟩ => ((sbuf.slice (Rect.unit (s := S128x1x128) ![52, 0, 0] S1x1x128.size inb_S128x1x128_S1x1x128_52_0_0) (fun _ => rfl)).squeeze S1x128 squeezes_S1x1x128_S1x128)
  | ⟨53, _⟩ => ((sbuf.slice (Rect.unit (s := S128x1x128) ![53, 0, 0] S1x1x128.size inb_S128x1x128_S1x1x128_53_0_0) (fun _ => rfl)).squeeze S1x128 squeezes_S1x1x128_S1x128)
  | ⟨54, _⟩ => ((sbuf.slice (Rect.unit (s := S128x1x128) ![54, 0, 0] S1x1x128.size inb_S128x1x128_S1x1x128_54_0_0) (fun _ => rfl)).squeeze S1x128 squeezes_S1x1x128_S1x128)
  | ⟨55, _⟩ => ((sbuf.slice (Rect.unit (s := S128x1x128) ![55, 0, 0] S1x1x128.size inb_S128x1x128_S1x1x128_55_0_0) (fun _ => rfl)).squeeze S1x128 squeezes_S1x1x128_S1x128)
  | ⟨56, _⟩ => ((sbuf.slice (Rect.unit (s := S128x1x128) ![56, 0, 0] S1x1x128.size inb_S128x1x128_S1x1x128_56_0_0) (fun _ => rfl)).squeeze S1x128 squeezes_S1x1x128_S1x128)
  | ⟨57, _⟩ => ((sbuf.slice (Rect.unit (s := S128x1x128) ![57, 0, 0] S1x1x128.size inb_S128x1x128_S1x1x128_57_0_0) (fun _ => rfl)).squeeze S1x128 squeezes_S1x1x128_S1x128)
  | ⟨58, _⟩ => ((sbuf.slice (Rect.unit (s := S128x1x128) ![58, 0, 0] S1x1x128.size inb_S128x1x128_S1x1x128_58_0_0) (fun _ => rfl)).squeeze S1x128 squeezes_S1x1x128_S1x128)
  | ⟨59, _⟩ => ((sbuf.slice (Rect.unit (s := S128x1x128) ![59, 0, 0] S1x1x128.size inb_S128x1x128_S1x1x128_59_0_0) (fun _ => rfl)).squeeze S1x128 squeezes_S1x1x128_S1x128)
  | ⟨60, _⟩ => ((sbuf.slice (Rect.unit (s := S128x1x128) ![60, 0, 0] S1x1x128.size inb_S128x1x128_S1x1x128_60_0_0) (fun _ => rfl)).squeeze S1x128 squeezes_S1x1x128_S1x128)
  | ⟨61, _⟩ => ((sbuf.slice (Rect.unit (s := S128x1x128) ![61, 0, 0] S1x1x128.size inb_S128x1x128_S1x1x128_61_0_0) (fun _ => rfl)).squeeze S1x128 squeezes_S1x1x128_S1x128)
  | ⟨62, _⟩ => ((sbuf.slice (Rect.unit (s := S128x1x128) ![62, 0, 0] S1x1x128.size inb_S128x1x128_S1x1x128_62_0_0) (fun _ => rfl)).squeeze S1x128 squeezes_S1x1x128_S1x128)
  | ⟨63, _⟩ => ((sbuf.slice (Rect.unit (s := S128x1x128) ![63, 0, 0] S1x1x128.size inb_S128x1x128_S1x1x128_63_0_0) (fun _ => rfl)).squeeze S1x128 squeezes_S1x1x128_S1x128)
  | ⟨64, _⟩ => ((sbuf.slice (Rect.unit (s := S128x1x128) ![64, 0, 0] S1x1x128.size inb_S128x1x128_S1x1x128_64_0_0) (fun _ => rfl)).squeeze S1x128 squeezes_S1x1x128_S1x128)
  | ⟨65, _⟩ => ((sbuf.slice (Rect.unit (s := S128x1x128) ![65, 0, 0] S1x1x128.size inb_S128x1x128_S1x1x128_65_0_0) (fun _ => rfl)).squeeze S1x128 squeezes_S1x1x128_S1x128)
  | ⟨66, _⟩ => ((sbuf.slice (Rect.unit (s := S128x1x128) ![66, 0, 0] S1x1x128.size inb_S128x1x128_S1x1x128_66_0_0) (fun _ => rfl)).squeeze S1x128 squeezes_S1x1x128_S1x128)
  | ⟨67, _⟩ => ((sbuf.slice (Rect.unit (s := S128x1x128) ![67, 0, 0] S1x1x128.size inb_S128x1x128_S1x1x128_67_0_0) (fun _ => rfl)).squeeze S1x128 squeezes_S1x1x128_S1x128)
  | ⟨68, _⟩ => ((sbuf.slice (Rect.unit (s := S128x1x128) ![68, 0, 0] S1x1x128.size inb_S128x1x128_S1x1x128_68_0_0) (fun _ => rfl)).squeeze S1x128 squeezes_S1x1x128_S1x128)
  | ⟨69, _⟩ => ((sbuf.slice (Rect.unit (s := S128x1x128) ![69, 0, 0] S1x1x128.size inb_S128x1x128_S1x1x128_69_0_0) (fun _ => rfl)).squeeze S1x128 squeezes_S1x1x128_S1x128)
  | ⟨70, _⟩ => ((sbuf.slice (Rect.unit (s := S128x1x128) ![70, 0, 0] S1x1x128.size inb_S128x1x128_S1x1x128_70_0_0) (fun _ => rfl)).squeeze S1x128 squeezes_S1x1x128_S1x128)
  | ⟨71, _⟩ => ((sbuf.slice (Rect.unit (s := S128x1x128) ![71, 0, 0] S1x1x128.size inb_S128x1x128_S1x1x128_71_0_0) (fun _ => rfl)).squeeze S1x128 squeezes_S1x1x128_S1x128)
  | ⟨72, _⟩ => ((sbuf.slice (Rect.unit (s := S128x1x128) ![72, 0, 0] S1x1x128.size inb_S128x1x128_S1x1x128_72_0_0) (fun _ => rfl)).squeeze S1x128 squeezes_S1x1x128_S1x128)
  | ⟨73, _⟩ => ((sbuf.slice (Rect.unit (s := S128x1x128) ![73, 0, 0] S1x1x128.size inb_S128x1x128_S1x1x128_73_0_0) (fun _ => rfl)).squeeze S1x128 squeezes_S1x1x128_S1x128)
  | ⟨74, _⟩ => ((sbuf.slice (Rect.unit (s := S128x1x128) ![74, 0, 0] S1x1x128.size inb_S128x1x128_S1x1x128_74_0_0) (fun _ => rfl)).squeeze S1x128 squeezes_S1x1x128_S1x128)
  | ⟨75, _⟩ => ((sbuf.slice (Rect.unit (s := S128x1x128) ![75, 0, 0] S1x1x128.size inb_S128x1x128_S1x1x128_75_0_0) (fun _ => rfl)).squeeze S1x128 squeezes_S1x1x128_S1x128)
  | ⟨76, _⟩ => ((sbuf.slice (Rect.unit (s := S128x1x128) ![76, 0, 0] S1x1x128.size inb_S128x1x128_S1x1x128_76_0_0) (fun _ => rfl)).squeeze S1x128 squeezes_S1x1x128_S1x128)
  | ⟨77, _⟩ => ((sbuf.slice (Rect.unit (s := S128x1x128) ![77, 0, 0] S1x1x128.size inb_S128x1x128_S1x1x128_77_0_0) (fun _ => rfl)).squeeze S1x128 squeezes_S1x1x128_S1x128)
  | ⟨78, _⟩ => ((sbuf.slice (Rect.unit (s := S128x1x128) ![78, 0, 0] S1x1x128.size inb_S128x1x128_S1x1x128_78_0_0) (fun _ => rfl)).squeeze S1x128 squeezes_S1x1x128_S1x128)
  | ⟨79, _⟩ => ((sbuf.slice (Rect.unit (s := S128x1x128) ![79, 0, 0] S1x1x128.size inb_S128x1x128_S1x1x128_79_0_0) (fun _ => rfl)).squeeze S1x128 squeezes_S1x1x128_S1x128)
  | ⟨80, _⟩ => ((sbuf.slice (Rect.unit (s := S128x1x128) ![80, 0, 0] S1x1x128.size inb_S128x1x128_S1x1x128_80_0_0) (fun _ => rfl)).squeeze S1x128 squeezes_S1x1x128_S1x128)
  | ⟨81, _⟩ => ((sbuf.slice (Rect.unit (s := S128x1x128) ![81, 0, 0] S1x1x128.size inb_S128x1x128_S1x1x128_81_0_0) (fun _ => rfl)).squeeze S1x128 squeezes_S1x1x128_S1x128)
  | ⟨82, _⟩ => ((sbuf.slice (Rect.unit (s := S128x1x128) ![82, 0, 0] S1x1x128.size inb_S128x1x128_S1x1x128_82_0_0) (fun _ => rfl)).squeeze S1x128 squeezes_S1x1x128_S1x128)
  | ⟨83, _⟩ => ((sbuf.slice (Rect.unit (s := S128x1x128) ![83, 0, 0] S1x1x128.size inb_S128x1x128_S1x1x128_83_0_0) (fun _ => rfl)).squeeze S1x128 squeezes_S1x1x128_S1x128)
  | ⟨84, _⟩ => ((sbuf.slice (Rect.unit (s := S128x1x128) ![84, 0, 0] S1x1x128.size inb_S128x1x128_S1x1x128_84_0_0) (fun _ => rfl)).squeeze S1x128 squeezes_S1x1x128_S1x128)
  | ⟨85, _⟩ => ((sbuf.slice (Rect.unit (s := S128x1x128) ![85, 0, 0] S1x1x128.size inb_S128x1x128_S1x1x128_85_0_0) (fun _ => rfl)).squeeze S1x128 squeezes_S1x1x128_S1x128)
  | ⟨86, _⟩ => ((sbuf.slice (Rect.unit (s := S128x1x128) ![86, 0, 0] S1x1x128.size inb_S128x1x128_S1x1x128_86_0_0) (fun _ => rfl)).squeeze S1x128 squeezes_S1x1x128_S1x128)
  | ⟨87, _⟩ => ((sbuf.slice (Rect.unit (s := S128x1x128) ![87, 0, 0] S1x1x128.size inb_S128x1x128_S1x1x128_87_0_0) (fun _ => rfl)).squeeze S1x128 squeezes_S1x1x128_S1x128)
  | ⟨88, _⟩ => ((sbuf.slice (Rect.unit (s := S128x1x128) ![88, 0, 0] S1x1x128.size inb_S128x1x128_S1x1x128_88_0_0) (fun _ => rfl)).squeeze S1x128 squeezes_S1x1x128_S1x128)
  | ⟨89, _⟩ => ((sbuf.slice (Rect.unit (s := S128x1x128) ![89, 0, 0] S1x1x128.size inb_S128x1x128_S1x1x128_89_0_0) (fun _ => rfl)).squeeze S1x128 squeezes_S1x1x128_S1x128)
  | ⟨90, _⟩ => ((sbuf.slice (Rect.unit (s := S128x1x128) ![90, 0, 0] S1x1x128.size inb_S128x1x128_S1x1x128_90_0_0) (fun _ => rfl)).squeeze S1x128 squeezes_S1x1x128_S1x128)
  | ⟨91, _⟩ => ((sbuf.slice (Rect.unit (s := S128x1x128) ![91, 0, 0] S1x1x128.size inb_S128x1x128_S1x1x128_91_0_0) (fun _ => rfl)).squeeze S1x128 squeezes_S1x1x128_S1x128)
  | ⟨92, _⟩ => ((sbuf.slice (Rect.unit (s := S128x1x128) ![92, 0, 0] S1x1x128.size inb_S128x1x128_S1x1x128_92_0_0) (fun _ => rfl)).squeeze S1x128 squeezes_S1x1x128_S1x128)
  | ⟨93, _⟩ => ((sbuf.slice (Rect.unit (s := S128x1x128) ![93, 0, 0] S1x1x128.size inb_S128x1x128_S1x1x128_93_0_0) (fun _ => rfl)).squeeze S1x128 squeezes_S1x1x128_S1x128)
  | ⟨94, _⟩ => ((sbuf.slice (Rect.unit (s := S128x1x128) ![94, 0, 0] S1x1x128.size inb_S128x1x128_S1x1x128_94_0_0) (fun _ => rfl)).squeeze S1x128 squeezes_S1x1x128_S1x128)
  | ⟨95, _⟩ => ((sbuf.slice (Rect.unit (s := S128x1x128) ![95, 0, 0] S1x1x128.size inb_S128x1x128_S1x1x128_95_0_0) (fun _ => rfl)).squeeze S1x128 squeezes_S1x1x128_S1x128)
  | ⟨96, _⟩ => ((sbuf.slice (Rect.unit (s := S128x1x128) ![96, 0, 0] S1x1x128.size inb_S128x1x128_S1x1x128_96_0_0) (fun _ => rfl)).squeeze S1x128 squeezes_S1x1x128_S1x128)
  | ⟨97, _⟩ => ((sbuf.slice (Rect.unit (s := S128x1x128) ![97, 0, 0] S1x1x128.size inb_S128x1x128_S1x1x128_97_0_0) (fun _ => rfl)).squeeze S1x128 squeezes_S1x1x128_S1x128)
  | ⟨98, _⟩ => ((sbuf.slice (Rect.unit (s := S128x1x128) ![98, 0, 0] S1x1x128.size inb_S128x1x128_S1x1x128_98_0_0) (fun _ => rfl)).squeeze S1x128 squeezes_S1x1x128_S1x128)
  | ⟨99, _⟩ => ((sbuf.slice (Rect.unit (s := S128x1x128) ![99, 0, 0] S1x1x128.size inb_S128x1x128_S1x1x128_99_0_0) (fun _ => rfl)).squeeze S1x128 squeezes_S1x1x128_S1x128)
  | ⟨100, _⟩ => ((sbuf.slice (Rect.unit (s := S128x1x128) ![100, 0, 0] S1x1x128.size inb_S128x1x128_S1x1x128_100_0_0) (fun _ => rfl)).squeeze S1x128 squeezes_S1x1x128_S1x128)
  | ⟨101, _⟩ => ((sbuf.slice (Rect.unit (s := S128x1x128) ![101, 0, 0] S1x1x128.size inb_S128x1x128_S1x1x128_101_0_0) (fun _ => rfl)).squeeze S1x128 squeezes_S1x1x128_S1x128)
  | ⟨102, _⟩ => ((sbuf.slice (Rect.unit (s := S128x1x128) ![102, 0, 0] S1x1x128.size inb_S128x1x128_S1x1x128_102_0_0) (fun _ => rfl)).squeeze S1x128 squeezes_S1x1x128_S1x128)
  | ⟨103, _⟩ => ((sbuf.slice (Rect.unit (s := S128x1x128) ![103, 0, 0] S1x1x128.size inb_S128x1x128_S1x1x128_103_0_0) (fun _ => rfl)).squeeze S1x128 squeezes_S1x1x128_S1x128)
  | ⟨104, _⟩ => ((sbuf.slice (Rect.unit (s := S128x1x128) ![104, 0, 0] S1x1x128.size inb_S128x1x128_S1x1x128_104_0_0) (fun _ => rfl)).squeeze S1x128 squeezes_S1x1x128_S1x128)
  | ⟨105, _⟩ => ((sbuf.slice (Rect.unit (s := S128x1x128) ![105, 0, 0] S1x1x128.size inb_S128x1x128_S1x1x128_105_0_0) (fun _ => rfl)).squeeze S1x128 squeezes_S1x1x128_S1x128)
  | ⟨106, _⟩ => ((sbuf.slice (Rect.unit (s := S128x1x128) ![106, 0, 0] S1x1x128.size inb_S128x1x128_S1x1x128_106_0_0) (fun _ => rfl)).squeeze S1x128 squeezes_S1x1x128_S1x128)
  | ⟨107, _⟩ => ((sbuf.slice (Rect.unit (s := S128x1x128) ![107, 0, 0] S1x1x128.size inb_S128x1x128_S1x1x128_107_0_0) (fun _ => rfl)).squeeze S1x128 squeezes_S1x1x128_S1x128)
  | ⟨108, _⟩ => ((sbuf.slice (Rect.unit (s := S128x1x128) ![108, 0, 0] S1x1x128.size inb_S128x1x128_S1x1x128_108_0_0) (fun _ => rfl)).squeeze S1x128 squeezes_S1x1x128_S1x128)
  | ⟨109, _⟩ => ((sbuf.slice (Rect.unit (s := S128x1x128) ![109, 0, 0] S1x1x128.size inb_S128x1x128_S1x1x128_109_0_0) (fun _ => rfl)).squeeze S1x128 squeezes_S1x1x128_S1x128)
  | ⟨110, _⟩ => ((sbuf.slice (Rect.unit (s := S128x1x128) ![110, 0, 0] S1x1x128.size inb_S128x1x128_S1x1x128_110_0_0) (fun _ => rfl)).squeeze S1x128 squeezes_S1x1x128_S1x128)
  | ⟨111, _⟩ => ((sbuf.slice (Rect.unit (s := S128x1x128) ![111, 0, 0] S1x1x128.size inb_S128x1x128_S1x1x128_111_0_0) (fun _ => rfl)).squeeze S1x128 squeezes_S1x1x128_S1x128)
  | ⟨112, _⟩ => ((sbuf.slice (Rect.unit (s := S128x1x128) ![112, 0, 0] S1x1x128.size inb_S128x1x128_S1x1x128_112_0_0) (fun _ => rfl)).squeeze S1x128 squeezes_S1x1x128_S1x128)
  | ⟨113, _⟩ => ((sbuf.slice (Rect.unit (s := S128x1x128) ![113, 0, 0] S1x1x128.size inb_S128x1x128_S1x1x128_113_0_0) (fun _ => rfl)).squeeze S1x128 squeezes_S1x1x128_S1x128)
  | ⟨114, _⟩ => ((sbuf.slice (Rect.unit (s := S128x1x128) ![114, 0, 0] S1x1x128.size inb_S128x1x128_S1x1x128_114_0_0) (fun _ => rfl)).squeeze S1x128 squeezes_S1x1x128_S1x128)
  | ⟨115, _⟩ => ((sbuf.slice (Rect.unit (s := S128x1x128) ![115, 0, 0] S1x1x128.size inb_S128x1x128_S1x1x128_115_0_0) (fun _ => rfl)).squeeze S1x128 squeezes_S1x1x128_S1x128)
  | ⟨116, _⟩ => ((sbuf.slice (Rect.unit (s := S128x1x128) ![116, 0, 0] S1x1x128.size inb_S128x1x128_S1x1x128_116_0_0) (fun _ => rfl)).squeeze S1x128 squeezes_S1x1x128_S1x128)
  | ⟨117, _⟩ => ((sbuf.slice (Rect.unit (s := S128x1x128) ![117, 0, 0] S1x1x128.size inb_S128x1x128_S1x1x128_117_0_0) (fun _ => rfl)).squeeze S1x128 squeezes_S1x1x128_S1x128)
  | ⟨118, _⟩ => ((sbuf.slice (Rect.unit (s := S128x1x128) ![118, 0, 0] S1x1x128.size inb_S128x1x128_S1x1x128_118_0_0) (fun _ => rfl)).squeeze S1x128 squeezes_S1x1x128_S1x128)
  | ⟨119, _⟩ => ((sbuf.slice (Rect.unit (s := S128x1x128) ![119, 0, 0] S1x1x128.size inb_S128x1x128_S1x1x128_119_0_0) (fun _ => rfl)).squeeze S1x128 squeezes_S1x1x128_S1x128)
  | ⟨120, _⟩ => ((sbuf.slice (Rect.unit (s := S128x1x128) ![120, 0, 0] S1x1x128.size inb_S128x1x128_S1x1x128_120_0_0) (fun _ => rfl)).squeeze S1x128 squeezes_S1x1x128_S1x128)
  | ⟨121, _⟩ => ((sbuf.slice (Rect.unit (s := S128x1x128) ![121, 0, 0] S1x1x128.size inb_S128x1x128_S1x1x128_121_0_0) (fun _ => rfl)).squeeze S1x128 squeezes_S1x1x128_S1x128)
  | ⟨122, _⟩ => ((sbuf.slice (Rect.unit (s := S128x1x128) ![122, 0, 0] S1x1x128.size inb_S128x1x128_S1x1x128_122_0_0) (fun _ => rfl)).squeeze S1x128 squeezes_S1x1x128_S1x128)
  | ⟨123, _⟩ => ((sbuf.slice (Rect.unit (s := S128x1x128) ![123, 0, 0] S1x1x128.size inb_S128x1x128_S1x1x128_123_0_0) (fun _ => rfl)).squeeze S1x128 squeezes_S1x1x128_S1x128)
  | ⟨124, _⟩ => ((sbuf.slice (Rect.unit (s := S128x1x128) ![124, 0, 0] S1x1x128.size inb_S128x1x128_S1x1x128_124_0_0) (fun _ => rfl)).squeeze S1x128 squeezes_S1x1x128_S1x128)
  | ⟨125, _⟩ => ((sbuf.slice (Rect.unit (s := S128x1x128) ![125, 0, 0] S1x1x128.size inb_S128x1x128_S1x1x128_125_0_0) (fun _ => rfl)).squeeze S1x128 squeezes_S1x1x128_S1x128)
  | ⟨126, _⟩ => ((sbuf.slice (Rect.unit (s := S128x1x128) ![126, 0, 0] S1x1x128.size inb_S128x1x128_S1x1x128_126_0_0) (fun _ => rfl)).squeeze S1x128 squeezes_S1x1x128_S1x128)
  | ⟨127, _⟩ => ((sbuf.slice (Rect.unit (s := S128x1x128) ![127, 0, 0] S1x1x128.size inb_S128x1x128_S1x1x128_127_0_0) (fun _ => rfl)).squeeze S1x128 squeezes_S1x1x128_S1x128)
  | ⟨_ + 128, h⟩ => absurd h (by omega)

set_option maxHeartbeats 8000000 in
/-- The weight row buffer held whole is its 128 rows, each held by its own elements (the rows written out one by one,
    as the body names the copies' destinations). -/
theorem wbuf_rows (c : Dev nD) (f : BufOf (F := F) c wbuf) :
    (ptAt c wbuf fullShare f : sProp 𝕄) ⊣⊢ iprop(
      (((wbuf.slice (Rect.unit (s := S128x1x1024) ![0, 0, 0] S1x1x1024.size inb_S128x1x1024_S1x1x1024_0_0_0) (fun _ => rfl)).squeeze S1x1024 squeezes_S1x1x1024_S1x1024).view.loc (c : Thread nD τ) ↦[((wbuf.slice (Rect.unit (s := S128x1x1024) ![0, 0, 0] S1x1x1024.size inb_S128x1x1024_S1x1x1024_0_0_0) (fun _ => rfl)).squeeze S1x1024 squeezes_S1x1x1024_S1x1024).view.set]{fullShare} f)
      ∗ (((wbuf.slice (Rect.unit (s := S128x1x1024) ![1, 0, 0] S1x1x1024.size inb_S128x1x1024_S1x1x1024_1_0_0) (fun _ => rfl)).squeeze S1x1024 squeezes_S1x1x1024_S1x1024).view.loc (c : Thread nD τ) ↦[((wbuf.slice (Rect.unit (s := S128x1x1024) ![1, 0, 0] S1x1x1024.size inb_S128x1x1024_S1x1x1024_1_0_0) (fun _ => rfl)).squeeze S1x1024 squeezes_S1x1x1024_S1x1024).view.set]{fullShare} f)
      ∗ (((wbuf.slice (Rect.unit (s := S128x1x1024) ![2, 0, 0] S1x1x1024.size inb_S128x1x1024_S1x1x1024_2_0_0) (fun _ => rfl)).squeeze S1x1024 squeezes_S1x1x1024_S1x1024).view.loc (c : Thread nD τ) ↦[((wbuf.slice (Rect.unit (s := S128x1x1024) ![2, 0, 0] S1x1x1024.size inb_S128x1x1024_S1x1x1024_2_0_0) (fun _ => rfl)).squeeze S1x1024 squeezes_S1x1x1024_S1x1024).view.set]{fullShare} f)
      ∗ (((wbuf.slice (Rect.unit (s := S128x1x1024) ![3, 0, 0] S1x1x1024.size inb_S128x1x1024_S1x1x1024_3_0_0) (fun _ => rfl)).squeeze S1x1024 squeezes_S1x1x1024_S1x1024).view.loc (c : Thread nD τ) ↦[((wbuf.slice (Rect.unit (s := S128x1x1024) ![3, 0, 0] S1x1x1024.size inb_S128x1x1024_S1x1x1024_3_0_0) (fun _ => rfl)).squeeze S1x1024 squeezes_S1x1x1024_S1x1024).view.set]{fullShare} f)
      ∗ (((wbuf.slice (Rect.unit (s := S128x1x1024) ![4, 0, 0] S1x1x1024.size inb_S128x1x1024_S1x1x1024_4_0_0) (fun _ => rfl)).squeeze S1x1024 squeezes_S1x1x1024_S1x1024).view.loc (c : Thread nD τ) ↦[((wbuf.slice (Rect.unit (s := S128x1x1024) ![4, 0, 0] S1x1x1024.size inb_S128x1x1024_S1x1x1024_4_0_0) (fun _ => rfl)).squeeze S1x1024 squeezes_S1x1x1024_S1x1024).view.set]{fullShare} f)
      ∗ (((wbuf.slice (Rect.unit (s := S128x1x1024) ![5, 0, 0] S1x1x1024.size inb_S128x1x1024_S1x1x1024_5_0_0) (fun _ => rfl)).squeeze S1x1024 squeezes_S1x1x1024_S1x1024).view.loc (c : Thread nD τ) ↦[((wbuf.slice (Rect.unit (s := S128x1x1024) ![5, 0, 0] S1x1x1024.size inb_S128x1x1024_S1x1x1024_5_0_0) (fun _ => rfl)).squeeze S1x1024 squeezes_S1x1x1024_S1x1024).view.set]{fullShare} f)
      ∗ (((wbuf.slice (Rect.unit (s := S128x1x1024) ![6, 0, 0] S1x1x1024.size inb_S128x1x1024_S1x1x1024_6_0_0) (fun _ => rfl)).squeeze S1x1024 squeezes_S1x1x1024_S1x1024).view.loc (c : Thread nD τ) ↦[((wbuf.slice (Rect.unit (s := S128x1x1024) ![6, 0, 0] S1x1x1024.size inb_S128x1x1024_S1x1x1024_6_0_0) (fun _ => rfl)).squeeze S1x1024 squeezes_S1x1x1024_S1x1024).view.set]{fullShare} f)
      ∗ (((wbuf.slice (Rect.unit (s := S128x1x1024) ![7, 0, 0] S1x1x1024.size inb_S128x1x1024_S1x1x1024_7_0_0) (fun _ => rfl)).squeeze S1x1024 squeezes_S1x1x1024_S1x1024).view.loc (c : Thread nD τ) ↦[((wbuf.slice (Rect.unit (s := S128x1x1024) ![7, 0, 0] S1x1x1024.size inb_S128x1x1024_S1x1x1024_7_0_0) (fun _ => rfl)).squeeze S1x1024 squeezes_S1x1x1024_S1x1024).view.set]{fullShare} f)
      ∗ (((wbuf.slice (Rect.unit (s := S128x1x1024) ![8, 0, 0] S1x1x1024.size inb_S128x1x1024_S1x1x1024_8_0_0) (fun _ => rfl)).squeeze S1x1024 squeezes_S1x1x1024_S1x1024).view.loc (c : Thread nD τ) ↦[((wbuf.slice (Rect.unit (s := S128x1x1024) ![8, 0, 0] S1x1x1024.size inb_S128x1x1024_S1x1x1024_8_0_0) (fun _ => rfl)).squeeze S1x1024 squeezes_S1x1x1024_S1x1024).view.set]{fullShare} f)
      ∗ (((wbuf.slice (Rect.unit (s := S128x1x1024) ![9, 0, 0] S1x1x1024.size inb_S128x1x1024_S1x1x1024_9_0_0) (fun _ => rfl)).squeeze S1x1024 squeezes_S1x1x1024_S1x1024).view.loc (c : Thread nD τ) ↦[((wbuf.slice (Rect.unit (s := S128x1x1024) ![9, 0, 0] S1x1x1024.size inb_S128x1x1024_S1x1x1024_9_0_0) (fun _ => rfl)).squeeze S1x1024 squeezes_S1x1x1024_S1x1024).view.set]{fullShare} f)
      ∗ (((wbuf.slice (Rect.unit (s := S128x1x1024) ![10, 0, 0] S1x1x1024.size inb_S128x1x1024_S1x1x1024_10_0_0) (fun _ => rfl)).squeeze S1x1024 squeezes_S1x1x1024_S1x1024).view.loc (c : Thread nD τ) ↦[((wbuf.slice (Rect.unit (s := S128x1x1024) ![10, 0, 0] S1x1x1024.size inb_S128x1x1024_S1x1x1024_10_0_0) (fun _ => rfl)).squeeze S1x1024 squeezes_S1x1x1024_S1x1024).view.set]{fullShare} f)
      ∗ (((wbuf.slice (Rect.unit (s := S128x1x1024) ![11, 0, 0] S1x1x1024.size inb_S128x1x1024_S1x1x1024_11_0_0) (fun _ => rfl)).squeeze S1x1024 squeezes_S1x1x1024_S1x1024).view.loc (c : Thread nD τ) ↦[((wbuf.slice (Rect.unit (s := S128x1x1024) ![11, 0, 0] S1x1x1024.size inb_S128x1x1024_S1x1x1024_11_0_0) (fun _ => rfl)).squeeze S1x1024 squeezes_S1x1x1024_S1x1024).view.set]{fullShare} f)
      ∗ (((wbuf.slice (Rect.unit (s := S128x1x1024) ![12, 0, 0] S1x1x1024.size inb_S128x1x1024_S1x1x1024_12_0_0) (fun _ => rfl)).squeeze S1x1024 squeezes_S1x1x1024_S1x1024).view.loc (c : Thread nD τ) ↦[((wbuf.slice (Rect.unit (s := S128x1x1024) ![12, 0, 0] S1x1x1024.size inb_S128x1x1024_S1x1x1024_12_0_0) (fun _ => rfl)).squeeze S1x1024 squeezes_S1x1x1024_S1x1024).view.set]{fullShare} f)
      ∗ (((wbuf.slice (Rect.unit (s := S128x1x1024) ![13, 0, 0] S1x1x1024.size inb_S128x1x1024_S1x1x1024_13_0_0) (fun _ => rfl)).squeeze S1x1024 squeezes_S1x1x1024_S1x1024).view.loc (c : Thread nD τ) ↦[((wbuf.slice (Rect.unit (s := S128x1x1024) ![13, 0, 0] S1x1x1024.size inb_S128x1x1024_S1x1x1024_13_0_0) (fun _ => rfl)).squeeze S1x1024 squeezes_S1x1x1024_S1x1024).view.set]{fullShare} f)
      ∗ (((wbuf.slice (Rect.unit (s := S128x1x1024) ![14, 0, 0] S1x1x1024.size inb_S128x1x1024_S1x1x1024_14_0_0) (fun _ => rfl)).squeeze S1x1024 squeezes_S1x1x1024_S1x1024).view.loc (c : Thread nD τ) ↦[((wbuf.slice (Rect.unit (s := S128x1x1024) ![14, 0, 0] S1x1x1024.size inb_S128x1x1024_S1x1x1024_14_0_0) (fun _ => rfl)).squeeze S1x1024 squeezes_S1x1x1024_S1x1024).view.set]{fullShare} f)
      ∗ (((wbuf.slice (Rect.unit (s := S128x1x1024) ![15, 0, 0] S1x1x1024.size inb_S128x1x1024_S1x1x1024_15_0_0) (fun _ => rfl)).squeeze S1x1024 squeezes_S1x1x1024_S1x1024).view.loc (c : Thread nD τ) ↦[((wbuf.slice (Rect.unit (s := S128x1x1024) ![15, 0, 0] S1x1x1024.size inb_S128x1x1024_S1x1x1024_15_0_0) (fun _ => rfl)).squeeze S1x1024 squeezes_S1x1x1024_S1x1024).view.set]{fullShare} f)
      ∗ (((wbuf.slice (Rect.unit (s := S128x1x1024) ![16, 0, 0] S1x1x1024.size inb_S128x1x1024_S1x1x1024_16_0_0) (fun _ => rfl)).squeeze S1x1024 squeezes_S1x1x1024_S1x1024).view.loc (c : Thread nD τ) ↦[((wbuf.slice (Rect.unit (s := S128x1x1024) ![16, 0, 0] S1x1x1024.size inb_S128x1x1024_S1x1x1024_16_0_0) (fun _ => rfl)).squeeze S1x1024 squeezes_S1x1x1024_S1x1024).view.set]{fullShare} f)
      ∗ (((wbuf.slice (Rect.unit (s := S128x1x1024) ![17, 0, 0] S1x1x1024.size inb_S128x1x1024_S1x1x1024_17_0_0) (fun _ => rfl)).squeeze S1x1024 squeezes_S1x1x1024_S1x1024).view.loc (c : Thread nD τ) ↦[((wbuf.slice (Rect.unit (s := S128x1x1024) ![17, 0, 0] S1x1x1024.size inb_S128x1x1024_S1x1x1024_17_0_0) (fun _ => rfl)).squeeze S1x1024 squeezes_S1x1x1024_S1x1024).view.set]{fullShare} f)
      ∗ (((wbuf.slice (Rect.unit (s := S128x1x1024) ![18, 0, 0] S1x1x1024.size inb_S128x1x1024_S1x1x1024_18_0_0) (fun _ => rfl)).squeeze S1x1024 squeezes_S1x1x1024_S1x1024).view.loc (c : Thread nD τ) ↦[((wbuf.slice (Rect.unit (s := S128x1x1024) ![18, 0, 0] S1x1x1024.size inb_S128x1x1024_S1x1x1024_18_0_0) (fun _ => rfl)).squeeze S1x1024 squeezes_S1x1x1024_S1x1024).view.set]{fullShare} f)
      ∗ (((wbuf.slice (Rect.unit (s := S128x1x1024) ![19, 0, 0] S1x1x1024.size inb_S128x1x1024_S1x1x1024_19_0_0) (fun _ => rfl)).squeeze S1x1024 squeezes_S1x1x1024_S1x1024).view.loc (c : Thread nD τ) ↦[((wbuf.slice (Rect.unit (s := S128x1x1024) ![19, 0, 0] S1x1x1024.size inb_S128x1x1024_S1x1x1024_19_0_0) (fun _ => rfl)).squeeze S1x1024 squeezes_S1x1x1024_S1x1024).view.set]{fullShare} f)
      ∗ (((wbuf.slice (Rect.unit (s := S128x1x1024) ![20, 0, 0] S1x1x1024.size inb_S128x1x1024_S1x1x1024_20_0_0) (fun _ => rfl)).squeeze S1x1024 squeezes_S1x1x1024_S1x1024).view.loc (c : Thread nD τ) ↦[((wbuf.slice (Rect.unit (s := S128x1x1024) ![20, 0, 0] S1x1x1024.size inb_S128x1x1024_S1x1x1024_20_0_0) (fun _ => rfl)).squeeze S1x1024 squeezes_S1x1x1024_S1x1024).view.set]{fullShare} f)
      ∗ (((wbuf.slice (Rect.unit (s := S128x1x1024) ![21, 0, 0] S1x1x1024.size inb_S128x1x1024_S1x1x1024_21_0_0) (fun _ => rfl)).squeeze S1x1024 squeezes_S1x1x1024_S1x1024).view.loc (c : Thread nD τ) ↦[((wbuf.slice (Rect.unit (s := S128x1x1024) ![21, 0, 0] S1x1x1024.size inb_S128x1x1024_S1x1x1024_21_0_0) (fun _ => rfl)).squeeze S1x1024 squeezes_S1x1x1024_S1x1024).view.set]{fullShare} f)
      ∗ (((wbuf.slice (Rect.unit (s := S128x1x1024) ![22, 0, 0] S1x1x1024.size inb_S128x1x1024_S1x1x1024_22_0_0) (fun _ => rfl)).squeeze S1x1024 squeezes_S1x1x1024_S1x1024).view.loc (c : Thread nD τ) ↦[((wbuf.slice (Rect.unit (s := S128x1x1024) ![22, 0, 0] S1x1x1024.size inb_S128x1x1024_S1x1x1024_22_0_0) (fun _ => rfl)).squeeze S1x1024 squeezes_S1x1x1024_S1x1024).view.set]{fullShare} f)
      ∗ (((wbuf.slice (Rect.unit (s := S128x1x1024) ![23, 0, 0] S1x1x1024.size inb_S128x1x1024_S1x1x1024_23_0_0) (fun _ => rfl)).squeeze S1x1024 squeezes_S1x1x1024_S1x1024).view.loc (c : Thread nD τ) ↦[((wbuf.slice (Rect.unit (s := S128x1x1024) ![23, 0, 0] S1x1x1024.size inb_S128x1x1024_S1x1x1024_23_0_0) (fun _ => rfl)).squeeze S1x1024 squeezes_S1x1x1024_S1x1024).view.set]{fullShare} f)
      ∗ (((wbuf.slice (Rect.unit (s := S128x1x1024) ![24, 0, 0] S1x1x1024.size inb_S128x1x1024_S1x1x1024_24_0_0) (fun _ => rfl)).squeeze S1x1024 squeezes_S1x1x1024_S1x1024).view.loc (c : Thread nD τ) ↦[((wbuf.slice (Rect.unit (s := S128x1x1024) ![24, 0, 0] S1x1x1024.size inb_S128x1x1024_S1x1x1024_24_0_0) (fun _ => rfl)).squeeze S1x1024 squeezes_S1x1x1024_S1x1024).view.set]{fullShare} f)
      ∗ (((wbuf.slice (Rect.unit (s := S128x1x1024) ![25, 0, 0] S1x1x1024.size inb_S128x1x1024_S1x1x1024_25_0_0) (fun _ => rfl)).squeeze S1x1024 squeezes_S1x1x1024_S1x1024).view.loc (c : Thread nD τ) ↦[((wbuf.slice (Rect.unit (s := S128x1x1024) ![25, 0, 0] S1x1x1024.size inb_S128x1x1024_S1x1x1024_25_0_0) (fun _ => rfl)).squeeze S1x1024 squeezes_S1x1x1024_S1x1024).view.set]{fullShare} f)
      ∗ (((wbuf.slice (Rect.unit (s := S128x1x1024) ![26, 0, 0] S1x1x1024.size inb_S128x1x1024_S1x1x1024_26_0_0) (fun _ => rfl)).squeeze S1x1024 squeezes_S1x1x1024_S1x1024).view.loc (c : Thread nD τ) ↦[((wbuf.slice (Rect.unit (s := S128x1x1024) ![26, 0, 0] S1x1x1024.size inb_S128x1x1024_S1x1x1024_26_0_0) (fun _ => rfl)).squeeze S1x1024 squeezes_S1x1x1024_S1x1024).view.set]{fullShare} f)
      ∗ (((wbuf.slice (Rect.unit (s := S128x1x1024) ![27, 0, 0] S1x1x1024.size inb_S128x1x1024_S1x1x1024_27_0_0) (fun _ => rfl)).squeeze S1x1024 squeezes_S1x1x1024_S1x1024).view.loc (c : Thread nD τ) ↦[((wbuf.slice (Rect.unit (s := S128x1x1024) ![27, 0, 0] S1x1x1024.size inb_S128x1x1024_S1x1x1024_27_0_0) (fun _ => rfl)).squeeze S1x1024 squeezes_S1x1x1024_S1x1024).view.set]{fullShare} f)
      ∗ (((wbuf.slice (Rect.unit (s := S128x1x1024) ![28, 0, 0] S1x1x1024.size inb_S128x1x1024_S1x1x1024_28_0_0) (fun _ => rfl)).squeeze S1x1024 squeezes_S1x1x1024_S1x1024).view.loc (c : Thread nD τ) ↦[((wbuf.slice (Rect.unit (s := S128x1x1024) ![28, 0, 0] S1x1x1024.size inb_S128x1x1024_S1x1x1024_28_0_0) (fun _ => rfl)).squeeze S1x1024 squeezes_S1x1x1024_S1x1024).view.set]{fullShare} f)
      ∗ (((wbuf.slice (Rect.unit (s := S128x1x1024) ![29, 0, 0] S1x1x1024.size inb_S128x1x1024_S1x1x1024_29_0_0) (fun _ => rfl)).squeeze S1x1024 squeezes_S1x1x1024_S1x1024).view.loc (c : Thread nD τ) ↦[((wbuf.slice (Rect.unit (s := S128x1x1024) ![29, 0, 0] S1x1x1024.size inb_S128x1x1024_S1x1x1024_29_0_0) (fun _ => rfl)).squeeze S1x1024 squeezes_S1x1x1024_S1x1024).view.set]{fullShare} f)
      ∗ (((wbuf.slice (Rect.unit (s := S128x1x1024) ![30, 0, 0] S1x1x1024.size inb_S128x1x1024_S1x1x1024_30_0_0) (fun _ => rfl)).squeeze S1x1024 squeezes_S1x1x1024_S1x1024).view.loc (c : Thread nD τ) ↦[((wbuf.slice (Rect.unit (s := S128x1x1024) ![30, 0, 0] S1x1x1024.size inb_S128x1x1024_S1x1x1024_30_0_0) (fun _ => rfl)).squeeze S1x1024 squeezes_S1x1x1024_S1x1024).view.set]{fullShare} f)
      ∗ (((wbuf.slice (Rect.unit (s := S128x1x1024) ![31, 0, 0] S1x1x1024.size inb_S128x1x1024_S1x1x1024_31_0_0) (fun _ => rfl)).squeeze S1x1024 squeezes_S1x1x1024_S1x1024).view.loc (c : Thread nD τ) ↦[((wbuf.slice (Rect.unit (s := S128x1x1024) ![31, 0, 0] S1x1x1024.size inb_S128x1x1024_S1x1x1024_31_0_0) (fun _ => rfl)).squeeze S1x1024 squeezes_S1x1x1024_S1x1024).view.set]{fullShare} f)
      ∗ (((wbuf.slice (Rect.unit (s := S128x1x1024) ![32, 0, 0] S1x1x1024.size inb_S128x1x1024_S1x1x1024_32_0_0) (fun _ => rfl)).squeeze S1x1024 squeezes_S1x1x1024_S1x1024).view.loc (c : Thread nD τ) ↦[((wbuf.slice (Rect.unit (s := S128x1x1024) ![32, 0, 0] S1x1x1024.size inb_S128x1x1024_S1x1x1024_32_0_0) (fun _ => rfl)).squeeze S1x1024 squeezes_S1x1x1024_S1x1024).view.set]{fullShare} f)
      ∗ (((wbuf.slice (Rect.unit (s := S128x1x1024) ![33, 0, 0] S1x1x1024.size inb_S128x1x1024_S1x1x1024_33_0_0) (fun _ => rfl)).squeeze S1x1024 squeezes_S1x1x1024_S1x1024).view.loc (c : Thread nD τ) ↦[((wbuf.slice (Rect.unit (s := S128x1x1024) ![33, 0, 0] S1x1x1024.size inb_S128x1x1024_S1x1x1024_33_0_0) (fun _ => rfl)).squeeze S1x1024 squeezes_S1x1x1024_S1x1024).view.set]{fullShare} f)
      ∗ (((wbuf.slice (Rect.unit (s := S128x1x1024) ![34, 0, 0] S1x1x1024.size inb_S128x1x1024_S1x1x1024_34_0_0) (fun _ => rfl)).squeeze S1x1024 squeezes_S1x1x1024_S1x1024).view.loc (c : Thread nD τ) ↦[((wbuf.slice (Rect.unit (s := S128x1x1024) ![34, 0, 0] S1x1x1024.size inb_S128x1x1024_S1x1x1024_34_0_0) (fun _ => rfl)).squeeze S1x1024 squeezes_S1x1x1024_S1x1024).view.set]{fullShare} f)
      ∗ (((wbuf.slice (Rect.unit (s := S128x1x1024) ![35, 0, 0] S1x1x1024.size inb_S128x1x1024_S1x1x1024_35_0_0) (fun _ => rfl)).squeeze S1x1024 squeezes_S1x1x1024_S1x1024).view.loc (c : Thread nD τ) ↦[((wbuf.slice (Rect.unit (s := S128x1x1024) ![35, 0, 0] S1x1x1024.size inb_S128x1x1024_S1x1x1024_35_0_0) (fun _ => rfl)).squeeze S1x1024 squeezes_S1x1x1024_S1x1024).view.set]{fullShare} f)
      ∗ (((wbuf.slice (Rect.unit (s := S128x1x1024) ![36, 0, 0] S1x1x1024.size inb_S128x1x1024_S1x1x1024_36_0_0) (fun _ => rfl)).squeeze S1x1024 squeezes_S1x1x1024_S1x1024).view.loc (c : Thread nD τ) ↦[((wbuf.slice (Rect.unit (s := S128x1x1024) ![36, 0, 0] S1x1x1024.size inb_S128x1x1024_S1x1x1024_36_0_0) (fun _ => rfl)).squeeze S1x1024 squeezes_S1x1x1024_S1x1024).view.set]{fullShare} f)
      ∗ (((wbuf.slice (Rect.unit (s := S128x1x1024) ![37, 0, 0] S1x1x1024.size inb_S128x1x1024_S1x1x1024_37_0_0) (fun _ => rfl)).squeeze S1x1024 squeezes_S1x1x1024_S1x1024).view.loc (c : Thread nD τ) ↦[((wbuf.slice (Rect.unit (s := S128x1x1024) ![37, 0, 0] S1x1x1024.size inb_S128x1x1024_S1x1x1024_37_0_0) (fun _ => rfl)).squeeze S1x1024 squeezes_S1x1x1024_S1x1024).view.set]{fullShare} f)
      ∗ (((wbuf.slice (Rect.unit (s := S128x1x1024) ![38, 0, 0] S1x1x1024.size inb_S128x1x1024_S1x1x1024_38_0_0) (fun _ => rfl)).squeeze S1x1024 squeezes_S1x1x1024_S1x1024).view.loc (c : Thread nD τ) ↦[((wbuf.slice (Rect.unit (s := S128x1x1024) ![38, 0, 0] S1x1x1024.size inb_S128x1x1024_S1x1x1024_38_0_0) (fun _ => rfl)).squeeze S1x1024 squeezes_S1x1x1024_S1x1024).view.set]{fullShare} f)
      ∗ (((wbuf.slice (Rect.unit (s := S128x1x1024) ![39, 0, 0] S1x1x1024.size inb_S128x1x1024_S1x1x1024_39_0_0) (fun _ => rfl)).squeeze S1x1024 squeezes_S1x1x1024_S1x1024).view.loc (c : Thread nD τ) ↦[((wbuf.slice (Rect.unit (s := S128x1x1024) ![39, 0, 0] S1x1x1024.size inb_S128x1x1024_S1x1x1024_39_0_0) (fun _ => rfl)).squeeze S1x1024 squeezes_S1x1x1024_S1x1024).view.set]{fullShare} f)
      ∗ (((wbuf.slice (Rect.unit (s := S128x1x1024) ![40, 0, 0] S1x1x1024.size inb_S128x1x1024_S1x1x1024_40_0_0) (fun _ => rfl)).squeeze S1x1024 squeezes_S1x1x1024_S1x1024).view.loc (c : Thread nD τ) ↦[((wbuf.slice (Rect.unit (s := S128x1x1024) ![40, 0, 0] S1x1x1024.size inb_S128x1x1024_S1x1x1024_40_0_0) (fun _ => rfl)).squeeze S1x1024 squeezes_S1x1x1024_S1x1024).view.set]{fullShare} f)
      ∗ (((wbuf.slice (Rect.unit (s := S128x1x1024) ![41, 0, 0] S1x1x1024.size inb_S128x1x1024_S1x1x1024_41_0_0) (fun _ => rfl)).squeeze S1x1024 squeezes_S1x1x1024_S1x1024).view.loc (c : Thread nD τ) ↦[((wbuf.slice (Rect.unit (s := S128x1x1024) ![41, 0, 0] S1x1x1024.size inb_S128x1x1024_S1x1x1024_41_0_0) (fun _ => rfl)).squeeze S1x1024 squeezes_S1x1x1024_S1x1024).view.set]{fullShare} f)
      ∗ (((wbuf.slice (Rect.unit (s := S128x1x1024) ![42, 0, 0] S1x1x1024.size inb_S128x1x1024_S1x1x1024_42_0_0) (fun _ => rfl)).squeeze S1x1024 squeezes_S1x1x1024_S1x1024).view.loc (c : Thread nD τ) ↦[((wbuf.slice (Rect.unit (s := S128x1x1024) ![42, 0, 0] S1x1x1024.size inb_S128x1x1024_S1x1x1024_42_0_0) (fun _ => rfl)).squeeze S1x1024 squeezes_S1x1x1024_S1x1024).view.set]{fullShare} f)
      ∗ (((wbuf.slice (Rect.unit (s := S128x1x1024) ![43, 0, 0] S1x1x1024.size inb_S128x1x1024_S1x1x1024_43_0_0) (fun _ => rfl)).squeeze S1x1024 squeezes_S1x1x1024_S1x1024).view.loc (c : Thread nD τ) ↦[((wbuf.slice (Rect.unit (s := S128x1x1024) ![43, 0, 0] S1x1x1024.size inb_S128x1x1024_S1x1x1024_43_0_0) (fun _ => rfl)).squeeze S1x1024 squeezes_S1x1x1024_S1x1024).view.set]{fullShare} f)
      ∗ (((wbuf.slice (Rect.unit (s := S128x1x1024) ![44, 0, 0] S1x1x1024.size inb_S128x1x1024_S1x1x1024_44_0_0) (fun _ => rfl)).squeeze S1x1024 squeezes_S1x1x1024_S1x1024).view.loc (c : Thread nD τ) ↦[((wbuf.slice (Rect.unit (s := S128x1x1024) ![44, 0, 0] S1x1x1024.size inb_S128x1x1024_S1x1x1024_44_0_0) (fun _ => rfl)).squeeze S1x1024 squeezes_S1x1x1024_S1x1024).view.set]{fullShare} f)
      ∗ (((wbuf.slice (Rect.unit (s := S128x1x1024) ![45, 0, 0] S1x1x1024.size inb_S128x1x1024_S1x1x1024_45_0_0) (fun _ => rfl)).squeeze S1x1024 squeezes_S1x1x1024_S1x1024).view.loc (c : Thread nD τ) ↦[((wbuf.slice (Rect.unit (s := S128x1x1024) ![45, 0, 0] S1x1x1024.size inb_S128x1x1024_S1x1x1024_45_0_0) (fun _ => rfl)).squeeze S1x1024 squeezes_S1x1x1024_S1x1024).view.set]{fullShare} f)
      ∗ (((wbuf.slice (Rect.unit (s := S128x1x1024) ![46, 0, 0] S1x1x1024.size inb_S128x1x1024_S1x1x1024_46_0_0) (fun _ => rfl)).squeeze S1x1024 squeezes_S1x1x1024_S1x1024).view.loc (c : Thread nD τ) ↦[((wbuf.slice (Rect.unit (s := S128x1x1024) ![46, 0, 0] S1x1x1024.size inb_S128x1x1024_S1x1x1024_46_0_0) (fun _ => rfl)).squeeze S1x1024 squeezes_S1x1x1024_S1x1024).view.set]{fullShare} f)
      ∗ (((wbuf.slice (Rect.unit (s := S128x1x1024) ![47, 0, 0] S1x1x1024.size inb_S128x1x1024_S1x1x1024_47_0_0) (fun _ => rfl)).squeeze S1x1024 squeezes_S1x1x1024_S1x1024).view.loc (c : Thread nD τ) ↦[((wbuf.slice (Rect.unit (s := S128x1x1024) ![47, 0, 0] S1x1x1024.size inb_S128x1x1024_S1x1x1024_47_0_0) (fun _ => rfl)).squeeze S1x1024 squeezes_S1x1x1024_S1x1024).view.set]{fullShare} f)
      ∗ (((wbuf.slice (Rect.unit (s := S128x1x1024) ![48, 0, 0] S1x1x1024.size inb_S128x1x1024_S1x1x1024_48_0_0) (fun _ => rfl)).squeeze S1x1024 squeezes_S1x1x1024_S1x1024).view.loc (c : Thread nD τ) ↦[((wbuf.slice (Rect.unit (s := S128x1x1024) ![48, 0, 0] S1x1x1024.size inb_S128x1x1024_S1x1x1024_48_0_0) (fun _ => rfl)).squeeze S1x1024 squeezes_S1x1x1024_S1x1024).view.set]{fullShare} f)
      ∗ (((wbuf.slice (Rect.unit (s := S128x1x1024) ![49, 0, 0] S1x1x1024.size inb_S128x1x1024_S1x1x1024_49_0_0) (fun _ => rfl)).squeeze S1x1024 squeezes_S1x1x1024_S1x1024).view.loc (c : Thread nD τ) ↦[((wbuf.slice (Rect.unit (s := S128x1x1024) ![49, 0, 0] S1x1x1024.size inb_S128x1x1024_S1x1x1024_49_0_0) (fun _ => rfl)).squeeze S1x1024 squeezes_S1x1x1024_S1x1024).view.set]{fullShare} f)
      ∗ (((wbuf.slice (Rect.unit (s := S128x1x1024) ![50, 0, 0] S1x1x1024.size inb_S128x1x1024_S1x1x1024_50_0_0) (fun _ => rfl)).squeeze S1x1024 squeezes_S1x1x1024_S1x1024).view.loc (c : Thread nD τ) ↦[((wbuf.slice (Rect.unit (s := S128x1x1024) ![50, 0, 0] S1x1x1024.size inb_S128x1x1024_S1x1x1024_50_0_0) (fun _ => rfl)).squeeze S1x1024 squeezes_S1x1x1024_S1x1024).view.set]{fullShare} f)
      ∗ (((wbuf.slice (Rect.unit (s := S128x1x1024) ![51, 0, 0] S1x1x1024.size inb_S128x1x1024_S1x1x1024_51_0_0) (fun _ => rfl)).squeeze S1x1024 squeezes_S1x1x1024_S1x1024).view.loc (c : Thread nD τ) ↦[((wbuf.slice (Rect.unit (s := S128x1x1024) ![51, 0, 0] S1x1x1024.size inb_S128x1x1024_S1x1x1024_51_0_0) (fun _ => rfl)).squeeze S1x1024 squeezes_S1x1x1024_S1x1024).view.set]{fullShare} f)
      ∗ (((wbuf.slice (Rect.unit (s := S128x1x1024) ![52, 0, 0] S1x1x1024.size inb_S128x1x1024_S1x1x1024_52_0_0) (fun _ => rfl)).squeeze S1x1024 squeezes_S1x1x1024_S1x1024).view.loc (c : Thread nD τ) ↦[((wbuf.slice (Rect.unit (s := S128x1x1024) ![52, 0, 0] S1x1x1024.size inb_S128x1x1024_S1x1x1024_52_0_0) (fun _ => rfl)).squeeze S1x1024 squeezes_S1x1x1024_S1x1024).view.set]{fullShare} f)
      ∗ (((wbuf.slice (Rect.unit (s := S128x1x1024) ![53, 0, 0] S1x1x1024.size inb_S128x1x1024_S1x1x1024_53_0_0) (fun _ => rfl)).squeeze S1x1024 squeezes_S1x1x1024_S1x1024).view.loc (c : Thread nD τ) ↦[((wbuf.slice (Rect.unit (s := S128x1x1024) ![53, 0, 0] S1x1x1024.size inb_S128x1x1024_S1x1x1024_53_0_0) (fun _ => rfl)).squeeze S1x1024 squeezes_S1x1x1024_S1x1024).view.set]{fullShare} f)
      ∗ (((wbuf.slice (Rect.unit (s := S128x1x1024) ![54, 0, 0] S1x1x1024.size inb_S128x1x1024_S1x1x1024_54_0_0) (fun _ => rfl)).squeeze S1x1024 squeezes_S1x1x1024_S1x1024).view.loc (c : Thread nD τ) ↦[((wbuf.slice (Rect.unit (s := S128x1x1024) ![54, 0, 0] S1x1x1024.size inb_S128x1x1024_S1x1x1024_54_0_0) (fun _ => rfl)).squeeze S1x1024 squeezes_S1x1x1024_S1x1024).view.set]{fullShare} f)
      ∗ (((wbuf.slice (Rect.unit (s := S128x1x1024) ![55, 0, 0] S1x1x1024.size inb_S128x1x1024_S1x1x1024_55_0_0) (fun _ => rfl)).squeeze S1x1024 squeezes_S1x1x1024_S1x1024).view.loc (c : Thread nD τ) ↦[((wbuf.slice (Rect.unit (s := S128x1x1024) ![55, 0, 0] S1x1x1024.size inb_S128x1x1024_S1x1x1024_55_0_0) (fun _ => rfl)).squeeze S1x1024 squeezes_S1x1x1024_S1x1024).view.set]{fullShare} f)
      ∗ (((wbuf.slice (Rect.unit (s := S128x1x1024) ![56, 0, 0] S1x1x1024.size inb_S128x1x1024_S1x1x1024_56_0_0) (fun _ => rfl)).squeeze S1x1024 squeezes_S1x1x1024_S1x1024).view.loc (c : Thread nD τ) ↦[((wbuf.slice (Rect.unit (s := S128x1x1024) ![56, 0, 0] S1x1x1024.size inb_S128x1x1024_S1x1x1024_56_0_0) (fun _ => rfl)).squeeze S1x1024 squeezes_S1x1x1024_S1x1024).view.set]{fullShare} f)
      ∗ (((wbuf.slice (Rect.unit (s := S128x1x1024) ![57, 0, 0] S1x1x1024.size inb_S128x1x1024_S1x1x1024_57_0_0) (fun _ => rfl)).squeeze S1x1024 squeezes_S1x1x1024_S1x1024).view.loc (c : Thread nD τ) ↦[((wbuf.slice (Rect.unit (s := S128x1x1024) ![57, 0, 0] S1x1x1024.size inb_S128x1x1024_S1x1x1024_57_0_0) (fun _ => rfl)).squeeze S1x1024 squeezes_S1x1x1024_S1x1024).view.set]{fullShare} f)
      ∗ (((wbuf.slice (Rect.unit (s := S128x1x1024) ![58, 0, 0] S1x1x1024.size inb_S128x1x1024_S1x1x1024_58_0_0) (fun _ => rfl)).squeeze S1x1024 squeezes_S1x1x1024_S1x1024).view.loc (c : Thread nD τ) ↦[((wbuf.slice (Rect.unit (s := S128x1x1024) ![58, 0, 0] S1x1x1024.size inb_S128x1x1024_S1x1x1024_58_0_0) (fun _ => rfl)).squeeze S1x1024 squeezes_S1x1x1024_S1x1024).view.set]{fullShare} f)
      ∗ (((wbuf.slice (Rect.unit (s := S128x1x1024) ![59, 0, 0] S1x1x1024.size inb_S128x1x1024_S1x1x1024_59_0_0) (fun _ => rfl)).squeeze S1x1024 squeezes_S1x1x1024_S1x1024).view.loc (c : Thread nD τ) ↦[((wbuf.slice (Rect.unit (s := S128x1x1024) ![59, 0, 0] S1x1x1024.size inb_S128x1x1024_S1x1x1024_59_0_0) (fun _ => rfl)).squeeze S1x1024 squeezes_S1x1x1024_S1x1024).view.set]{fullShare} f)
      ∗ (((wbuf.slice (Rect.unit (s := S128x1x1024) ![60, 0, 0] S1x1x1024.size inb_S128x1x1024_S1x1x1024_60_0_0) (fun _ => rfl)).squeeze S1x1024 squeezes_S1x1x1024_S1x1024).view.loc (c : Thread nD τ) ↦[((wbuf.slice (Rect.unit (s := S128x1x1024) ![60, 0, 0] S1x1x1024.size inb_S128x1x1024_S1x1x1024_60_0_0) (fun _ => rfl)).squeeze S1x1024 squeezes_S1x1x1024_S1x1024).view.set]{fullShare} f)
      ∗ (((wbuf.slice (Rect.unit (s := S128x1x1024) ![61, 0, 0] S1x1x1024.size inb_S128x1x1024_S1x1x1024_61_0_0) (fun _ => rfl)).squeeze S1x1024 squeezes_S1x1x1024_S1x1024).view.loc (c : Thread nD τ) ↦[((wbuf.slice (Rect.unit (s := S128x1x1024) ![61, 0, 0] S1x1x1024.size inb_S128x1x1024_S1x1x1024_61_0_0) (fun _ => rfl)).squeeze S1x1024 squeezes_S1x1x1024_S1x1024).view.set]{fullShare} f)
      ∗ (((wbuf.slice (Rect.unit (s := S128x1x1024) ![62, 0, 0] S1x1x1024.size inb_S128x1x1024_S1x1x1024_62_0_0) (fun _ => rfl)).squeeze S1x1024 squeezes_S1x1x1024_S1x1024).view.loc (c : Thread nD τ) ↦[((wbuf.slice (Rect.unit (s := S128x1x1024) ![62, 0, 0] S1x1x1024.size inb_S128x1x1024_S1x1x1024_62_0_0) (fun _ => rfl)).squeeze S1x1024 squeezes_S1x1x1024_S1x1024).view.set]{fullShare} f)
      ∗ (((wbuf.slice (Rect.unit (s := S128x1x1024) ![63, 0, 0] S1x1x1024.size inb_S128x1x1024_S1x1x1024_63_0_0) (fun _ => rfl)).squeeze S1x1024 squeezes_S1x1x1024_S1x1024).view.loc (c : Thread nD τ) ↦[((wbuf.slice (Rect.unit (s := S128x1x1024) ![63, 0, 0] S1x1x1024.size inb_S128x1x1024_S1x1x1024_63_0_0) (fun _ => rfl)).squeeze S1x1024 squeezes_S1x1x1024_S1x1024).view.set]{fullShare} f)
      ∗ (((wbuf.slice (Rect.unit (s := S128x1x1024) ![64, 0, 0] S1x1x1024.size inb_S128x1x1024_S1x1x1024_64_0_0) (fun _ => rfl)).squeeze S1x1024 squeezes_S1x1x1024_S1x1024).view.loc (c : Thread nD τ) ↦[((wbuf.slice (Rect.unit (s := S128x1x1024) ![64, 0, 0] S1x1x1024.size inb_S128x1x1024_S1x1x1024_64_0_0) (fun _ => rfl)).squeeze S1x1024 squeezes_S1x1x1024_S1x1024).view.set]{fullShare} f)
      ∗ (((wbuf.slice (Rect.unit (s := S128x1x1024) ![65, 0, 0] S1x1x1024.size inb_S128x1x1024_S1x1x1024_65_0_0) (fun _ => rfl)).squeeze S1x1024 squeezes_S1x1x1024_S1x1024).view.loc (c : Thread nD τ) ↦[((wbuf.slice (Rect.unit (s := S128x1x1024) ![65, 0, 0] S1x1x1024.size inb_S128x1x1024_S1x1x1024_65_0_0) (fun _ => rfl)).squeeze S1x1024 squeezes_S1x1x1024_S1x1024).view.set]{fullShare} f)
      ∗ (((wbuf.slice (Rect.unit (s := S128x1x1024) ![66, 0, 0] S1x1x1024.size inb_S128x1x1024_S1x1x1024_66_0_0) (fun _ => rfl)).squeeze S1x1024 squeezes_S1x1x1024_S1x1024).view.loc (c : Thread nD τ) ↦[((wbuf.slice (Rect.unit (s := S128x1x1024) ![66, 0, 0] S1x1x1024.size inb_S128x1x1024_S1x1x1024_66_0_0) (fun _ => rfl)).squeeze S1x1024 squeezes_S1x1x1024_S1x1024).view.set]{fullShare} f)
      ∗ (((wbuf.slice (Rect.unit (s := S128x1x1024) ![67, 0, 0] S1x1x1024.size inb_S128x1x1024_S1x1x1024_67_0_0) (fun _ => rfl)).squeeze S1x1024 squeezes_S1x1x1024_S1x1024).view.loc (c : Thread nD τ) ↦[((wbuf.slice (Rect.unit (s := S128x1x1024) ![67, 0, 0] S1x1x1024.size inb_S128x1x1024_S1x1x1024_67_0_0) (fun _ => rfl)).squeeze S1x1024 squeezes_S1x1x1024_S1x1024).view.set]{fullShare} f)
      ∗ (((wbuf.slice (Rect.unit (s := S128x1x1024) ![68, 0, 0] S1x1x1024.size inb_S128x1x1024_S1x1x1024_68_0_0) (fun _ => rfl)).squeeze S1x1024 squeezes_S1x1x1024_S1x1024).view.loc (c : Thread nD τ) ↦[((wbuf.slice (Rect.unit (s := S128x1x1024) ![68, 0, 0] S1x1x1024.size inb_S128x1x1024_S1x1x1024_68_0_0) (fun _ => rfl)).squeeze S1x1024 squeezes_S1x1x1024_S1x1024).view.set]{fullShare} f)
      ∗ (((wbuf.slice (Rect.unit (s := S128x1x1024) ![69, 0, 0] S1x1x1024.size inb_S128x1x1024_S1x1x1024_69_0_0) (fun _ => rfl)).squeeze S1x1024 squeezes_S1x1x1024_S1x1024).view.loc (c : Thread nD τ) ↦[((wbuf.slice (Rect.unit (s := S128x1x1024) ![69, 0, 0] S1x1x1024.size inb_S128x1x1024_S1x1x1024_69_0_0) (fun _ => rfl)).squeeze S1x1024 squeezes_S1x1x1024_S1x1024).view.set]{fullShare} f)
      ∗ (((wbuf.slice (Rect.unit (s := S128x1x1024) ![70, 0, 0] S1x1x1024.size inb_S128x1x1024_S1x1x1024_70_0_0) (fun _ => rfl)).squeeze S1x1024 squeezes_S1x1x1024_S1x1024).view.loc (c : Thread nD τ) ↦[((wbuf.slice (Rect.unit (s := S128x1x1024) ![70, 0, 0] S1x1x1024.size inb_S128x1x1024_S1x1x1024_70_0_0) (fun _ => rfl)).squeeze S1x1024 squeezes_S1x1x1024_S1x1024).view.set]{fullShare} f)
      ∗ (((wbuf.slice (Rect.unit (s := S128x1x1024) ![71, 0, 0] S1x1x1024.size inb_S128x1x1024_S1x1x1024_71_0_0) (fun _ => rfl)).squeeze S1x1024 squeezes_S1x1x1024_S1x1024).view.loc (c : Thread nD τ) ↦[((wbuf.slice (Rect.unit (s := S128x1x1024) ![71, 0, 0] S1x1x1024.size inb_S128x1x1024_S1x1x1024_71_0_0) (fun _ => rfl)).squeeze S1x1024 squeezes_S1x1x1024_S1x1024).view.set]{fullShare} f)
      ∗ (((wbuf.slice (Rect.unit (s := S128x1x1024) ![72, 0, 0] S1x1x1024.size inb_S128x1x1024_S1x1x1024_72_0_0) (fun _ => rfl)).squeeze S1x1024 squeezes_S1x1x1024_S1x1024).view.loc (c : Thread nD τ) ↦[((wbuf.slice (Rect.unit (s := S128x1x1024) ![72, 0, 0] S1x1x1024.size inb_S128x1x1024_S1x1x1024_72_0_0) (fun _ => rfl)).squeeze S1x1024 squeezes_S1x1x1024_S1x1024).view.set]{fullShare} f)
      ∗ (((wbuf.slice (Rect.unit (s := S128x1x1024) ![73, 0, 0] S1x1x1024.size inb_S128x1x1024_S1x1x1024_73_0_0) (fun _ => rfl)).squeeze S1x1024 squeezes_S1x1x1024_S1x1024).view.loc (c : Thread nD τ) ↦[((wbuf.slice (Rect.unit (s := S128x1x1024) ![73, 0, 0] S1x1x1024.size inb_S128x1x1024_S1x1x1024_73_0_0) (fun _ => rfl)).squeeze S1x1024 squeezes_S1x1x1024_S1x1024).view.set]{fullShare} f)
      ∗ (((wbuf.slice (Rect.unit (s := S128x1x1024) ![74, 0, 0] S1x1x1024.size inb_S128x1x1024_S1x1x1024_74_0_0) (fun _ => rfl)).squeeze S1x1024 squeezes_S1x1x1024_S1x1024).view.loc (c : Thread nD τ) ↦[((wbuf.slice (Rect.unit (s := S128x1x1024) ![74, 0, 0] S1x1x1024.size inb_S128x1x1024_S1x1x1024_74_0_0) (fun _ => rfl)).squeeze S1x1024 squeezes_S1x1x1024_S1x1024).view.set]{fullShare} f)
      ∗ (((wbuf.slice (Rect.unit (s := S128x1x1024) ![75, 0, 0] S1x1x1024.size inb_S128x1x1024_S1x1x1024_75_0_0) (fun _ => rfl)).squeeze S1x1024 squeezes_S1x1x1024_S1x1024).view.loc (c : Thread nD τ) ↦[((wbuf.slice (Rect.unit (s := S128x1x1024) ![75, 0, 0] S1x1x1024.size inb_S128x1x1024_S1x1x1024_75_0_0) (fun _ => rfl)).squeeze S1x1024 squeezes_S1x1x1024_S1x1024).view.set]{fullShare} f)
      ∗ (((wbuf.slice (Rect.unit (s := S128x1x1024) ![76, 0, 0] S1x1x1024.size inb_S128x1x1024_S1x1x1024_76_0_0) (fun _ => rfl)).squeeze S1x1024 squeezes_S1x1x1024_S1x1024).view.loc (c : Thread nD τ) ↦[((wbuf.slice (Rect.unit (s := S128x1x1024) ![76, 0, 0] S1x1x1024.size inb_S128x1x1024_S1x1x1024_76_0_0) (fun _ => rfl)).squeeze S1x1024 squeezes_S1x1x1024_S1x1024).view.set]{fullShare} f)
      ∗ (((wbuf.slice (Rect.unit (s := S128x1x1024) ![77, 0, 0] S1x1x1024.size inb_S128x1x1024_S1x1x1024_77_0_0) (fun _ => rfl)).squeeze S1x1024 squeezes_S1x1x1024_S1x1024).view.loc (c : Thread nD τ) ↦[((wbuf.slice (Rect.unit (s := S128x1x1024) ![77, 0, 0] S1x1x1024.size inb_S128x1x1024_S1x1x1024_77_0_0) (fun _ => rfl)).squeeze S1x1024 squeezes_S1x1x1024_S1x1024).view.set]{fullShare} f)
      ∗ (((wbuf.slice (Rect.unit (s := S128x1x1024) ![78, 0, 0] S1x1x1024.size inb_S128x1x1024_S1x1x1024_78_0_0) (fun _ => rfl)).squeeze S1x1024 squeezes_S1x1x1024_S1x1024).view.loc (c : Thread nD τ) ↦[((wbuf.slice (Rect.unit (s := S128x1x1024) ![78, 0, 0] S1x1x1024.size inb_S128x1x1024_S1x1x1024_78_0_0) (fun _ => rfl)).squeeze S1x1024 squeezes_S1x1x1024_S1x1024).view.set]{fullShare} f)
      ∗ (((wbuf.slice (Rect.unit (s := S128x1x1024) ![79, 0, 0] S1x1x1024.size inb_S128x1x1024_S1x1x1024_79_0_0) (fun _ => rfl)).squeeze S1x1024 squeezes_S1x1x1024_S1x1024).view.loc (c : Thread nD τ) ↦[((wbuf.slice (Rect.unit (s := S128x1x1024) ![79, 0, 0] S1x1x1024.size inb_S128x1x1024_S1x1x1024_79_0_0) (fun _ => rfl)).squeeze S1x1024 squeezes_S1x1x1024_S1x1024).view.set]{fullShare} f)
      ∗ (((wbuf.slice (Rect.unit (s := S128x1x1024) ![80, 0, 0] S1x1x1024.size inb_S128x1x1024_S1x1x1024_80_0_0) (fun _ => rfl)).squeeze S1x1024 squeezes_S1x1x1024_S1x1024).view.loc (c : Thread nD τ) ↦[((wbuf.slice (Rect.unit (s := S128x1x1024) ![80, 0, 0] S1x1x1024.size inb_S128x1x1024_S1x1x1024_80_0_0) (fun _ => rfl)).squeeze S1x1024 squeezes_S1x1x1024_S1x1024).view.set]{fullShare} f)
      ∗ (((wbuf.slice (Rect.unit (s := S128x1x1024) ![81, 0, 0] S1x1x1024.size inb_S128x1x1024_S1x1x1024_81_0_0) (fun _ => rfl)).squeeze S1x1024 squeezes_S1x1x1024_S1x1024).view.loc (c : Thread nD τ) ↦[((wbuf.slice (Rect.unit (s := S128x1x1024) ![81, 0, 0] S1x1x1024.size inb_S128x1x1024_S1x1x1024_81_0_0) (fun _ => rfl)).squeeze S1x1024 squeezes_S1x1x1024_S1x1024).view.set]{fullShare} f)
      ∗ (((wbuf.slice (Rect.unit (s := S128x1x1024) ![82, 0, 0] S1x1x1024.size inb_S128x1x1024_S1x1x1024_82_0_0) (fun _ => rfl)).squeeze S1x1024 squeezes_S1x1x1024_S1x1024).view.loc (c : Thread nD τ) ↦[((wbuf.slice (Rect.unit (s := S128x1x1024) ![82, 0, 0] S1x1x1024.size inb_S128x1x1024_S1x1x1024_82_0_0) (fun _ => rfl)).squeeze S1x1024 squeezes_S1x1x1024_S1x1024).view.set]{fullShare} f)
      ∗ (((wbuf.slice (Rect.unit (s := S128x1x1024) ![83, 0, 0] S1x1x1024.size inb_S128x1x1024_S1x1x1024_83_0_0) (fun _ => rfl)).squeeze S1x1024 squeezes_S1x1x1024_S1x1024).view.loc (c : Thread nD τ) ↦[((wbuf.slice (Rect.unit (s := S128x1x1024) ![83, 0, 0] S1x1x1024.size inb_S128x1x1024_S1x1x1024_83_0_0) (fun _ => rfl)).squeeze S1x1024 squeezes_S1x1x1024_S1x1024).view.set]{fullShare} f)
      ∗ (((wbuf.slice (Rect.unit (s := S128x1x1024) ![84, 0, 0] S1x1x1024.size inb_S128x1x1024_S1x1x1024_84_0_0) (fun _ => rfl)).squeeze S1x1024 squeezes_S1x1x1024_S1x1024).view.loc (c : Thread nD τ) ↦[((wbuf.slice (Rect.unit (s := S128x1x1024) ![84, 0, 0] S1x1x1024.size inb_S128x1x1024_S1x1x1024_84_0_0) (fun _ => rfl)).squeeze S1x1024 squeezes_S1x1x1024_S1x1024).view.set]{fullShare} f)
      ∗ (((wbuf.slice (Rect.unit (s := S128x1x1024) ![85, 0, 0] S1x1x1024.size inb_S128x1x1024_S1x1x1024_85_0_0) (fun _ => rfl)).squeeze S1x1024 squeezes_S1x1x1024_S1x1024).view.loc (c : Thread nD τ) ↦[((wbuf.slice (Rect.unit (s := S128x1x1024) ![85, 0, 0] S1x1x1024.size inb_S128x1x1024_S1x1x1024_85_0_0) (fun _ => rfl)).squeeze S1x1024 squeezes_S1x1x1024_S1x1024).view.set]{fullShare} f)
      ∗ (((wbuf.slice (Rect.unit (s := S128x1x1024) ![86, 0, 0] S1x1x1024.size inb_S128x1x1024_S1x1x1024_86_0_0) (fun _ => rfl)).squeeze S1x1024 squeezes_S1x1x1024_S1x1024).view.loc (c : Thread nD τ) ↦[((wbuf.slice (Rect.unit (s := S128x1x1024) ![86, 0, 0] S1x1x1024.size inb_S128x1x1024_S1x1x1024_86_0_0) (fun _ => rfl)).squeeze S1x1024 squeezes_S1x1x1024_S1x1024).view.set]{fullShare} f)
      ∗ (((wbuf.slice (Rect.unit (s := S128x1x1024) ![87, 0, 0] S1x1x1024.size inb_S128x1x1024_S1x1x1024_87_0_0) (fun _ => rfl)).squeeze S1x1024 squeezes_S1x1x1024_S1x1024).view.loc (c : Thread nD τ) ↦[((wbuf.slice (Rect.unit (s := S128x1x1024) ![87, 0, 0] S1x1x1024.size inb_S128x1x1024_S1x1x1024_87_0_0) (fun _ => rfl)).squeeze S1x1024 squeezes_S1x1x1024_S1x1024).view.set]{fullShare} f)
      ∗ (((wbuf.slice (Rect.unit (s := S128x1x1024) ![88, 0, 0] S1x1x1024.size inb_S128x1x1024_S1x1x1024_88_0_0) (fun _ => rfl)).squeeze S1x1024 squeezes_S1x1x1024_S1x1024).view.loc (c : Thread nD τ) ↦[((wbuf.slice (Rect.unit (s := S128x1x1024) ![88, 0, 0] S1x1x1024.size inb_S128x1x1024_S1x1x1024_88_0_0) (fun _ => rfl)).squeeze S1x1024 squeezes_S1x1x1024_S1x1024).view.set]{fullShare} f)
      ∗ (((wbuf.slice (Rect.unit (s := S128x1x1024) ![89, 0, 0] S1x1x1024.size inb_S128x1x1024_S1x1x1024_89_0_0) (fun _ => rfl)).squeeze S1x1024 squeezes_S1x1x1024_S1x1024).view.loc (c : Thread nD τ) ↦[((wbuf.slice (Rect.unit (s := S128x1x1024) ![89, 0, 0] S1x1x1024.size inb_S128x1x1024_S1x1x1024_89_0_0) (fun _ => rfl)).squeeze S1x1024 squeezes_S1x1x1024_S1x1024).view.set]{fullShare} f)
      ∗ (((wbuf.slice (Rect.unit (s := S128x1x1024) ![90, 0, 0] S1x1x1024.size inb_S128x1x1024_S1x1x1024_90_0_0) (fun _ => rfl)).squeeze S1x1024 squeezes_S1x1x1024_S1x1024).view.loc (c : Thread nD τ) ↦[((wbuf.slice (Rect.unit (s := S128x1x1024) ![90, 0, 0] S1x1x1024.size inb_S128x1x1024_S1x1x1024_90_0_0) (fun _ => rfl)).squeeze S1x1024 squeezes_S1x1x1024_S1x1024).view.set]{fullShare} f)
      ∗ (((wbuf.slice (Rect.unit (s := S128x1x1024) ![91, 0, 0] S1x1x1024.size inb_S128x1x1024_S1x1x1024_91_0_0) (fun _ => rfl)).squeeze S1x1024 squeezes_S1x1x1024_S1x1024).view.loc (c : Thread nD τ) ↦[((wbuf.slice (Rect.unit (s := S128x1x1024) ![91, 0, 0] S1x1x1024.size inb_S128x1x1024_S1x1x1024_91_0_0) (fun _ => rfl)).squeeze S1x1024 squeezes_S1x1x1024_S1x1024).view.set]{fullShare} f)
      ∗ (((wbuf.slice (Rect.unit (s := S128x1x1024) ![92, 0, 0] S1x1x1024.size inb_S128x1x1024_S1x1x1024_92_0_0) (fun _ => rfl)).squeeze S1x1024 squeezes_S1x1x1024_S1x1024).view.loc (c : Thread nD τ) ↦[((wbuf.slice (Rect.unit (s := S128x1x1024) ![92, 0, 0] S1x1x1024.size inb_S128x1x1024_S1x1x1024_92_0_0) (fun _ => rfl)).squeeze S1x1024 squeezes_S1x1x1024_S1x1024).view.set]{fullShare} f)
      ∗ (((wbuf.slice (Rect.unit (s := S128x1x1024) ![93, 0, 0] S1x1x1024.size inb_S128x1x1024_S1x1x1024_93_0_0) (fun _ => rfl)).squeeze S1x1024 squeezes_S1x1x1024_S1x1024).view.loc (c : Thread nD τ) ↦[((wbuf.slice (Rect.unit (s := S128x1x1024) ![93, 0, 0] S1x1x1024.size inb_S128x1x1024_S1x1x1024_93_0_0) (fun _ => rfl)).squeeze S1x1024 squeezes_S1x1x1024_S1x1024).view.set]{fullShare} f)
      ∗ (((wbuf.slice (Rect.unit (s := S128x1x1024) ![94, 0, 0] S1x1x1024.size inb_S128x1x1024_S1x1x1024_94_0_0) (fun _ => rfl)).squeeze S1x1024 squeezes_S1x1x1024_S1x1024).view.loc (c : Thread nD τ) ↦[((wbuf.slice (Rect.unit (s := S128x1x1024) ![94, 0, 0] S1x1x1024.size inb_S128x1x1024_S1x1x1024_94_0_0) (fun _ => rfl)).squeeze S1x1024 squeezes_S1x1x1024_S1x1024).view.set]{fullShare} f)
      ∗ (((wbuf.slice (Rect.unit (s := S128x1x1024) ![95, 0, 0] S1x1x1024.size inb_S128x1x1024_S1x1x1024_95_0_0) (fun _ => rfl)).squeeze S1x1024 squeezes_S1x1x1024_S1x1024).view.loc (c : Thread nD τ) ↦[((wbuf.slice (Rect.unit (s := S128x1x1024) ![95, 0, 0] S1x1x1024.size inb_S128x1x1024_S1x1x1024_95_0_0) (fun _ => rfl)).squeeze S1x1024 squeezes_S1x1x1024_S1x1024).view.set]{fullShare} f)
      ∗ (((wbuf.slice (Rect.unit (s := S128x1x1024) ![96, 0, 0] S1x1x1024.size inb_S128x1x1024_S1x1x1024_96_0_0) (fun _ => rfl)).squeeze S1x1024 squeezes_S1x1x1024_S1x1024).view.loc (c : Thread nD τ) ↦[((wbuf.slice (Rect.unit (s := S128x1x1024) ![96, 0, 0] S1x1x1024.size inb_S128x1x1024_S1x1x1024_96_0_0) (fun _ => rfl)).squeeze S1x1024 squeezes_S1x1x1024_S1x1024).view.set]{fullShare} f)
      ∗ (((wbuf.slice (Rect.unit (s := S128x1x1024) ![97, 0, 0] S1x1x1024.size inb_S128x1x1024_S1x1x1024_97_0_0) (fun _ => rfl)).squeeze S1x1024 squeezes_S1x1x1024_S1x1024).view.loc (c : Thread nD τ) ↦[((wbuf.slice (Rect.unit (s := S128x1x1024) ![97, 0, 0] S1x1x1024.size inb_S128x1x1024_S1x1x1024_97_0_0) (fun _ => rfl)).squeeze S1x1024 squeezes_S1x1x1024_S1x1024).view.set]{fullShare} f)
      ∗ (((wbuf.slice (Rect.unit (s := S128x1x1024) ![98, 0, 0] S1x1x1024.size inb_S128x1x1024_S1x1x1024_98_0_0) (fun _ => rfl)).squeeze S1x1024 squeezes_S1x1x1024_S1x1024).view.loc (c : Thread nD τ) ↦[((wbuf.slice (Rect.unit (s := S128x1x1024) ![98, 0, 0] S1x1x1024.size inb_S128x1x1024_S1x1x1024_98_0_0) (fun _ => rfl)).squeeze S1x1024 squeezes_S1x1x1024_S1x1024).view.set]{fullShare} f)
      ∗ (((wbuf.slice (Rect.unit (s := S128x1x1024) ![99, 0, 0] S1x1x1024.size inb_S128x1x1024_S1x1x1024_99_0_0) (fun _ => rfl)).squeeze S1x1024 squeezes_S1x1x1024_S1x1024).view.loc (c : Thread nD τ) ↦[((wbuf.slice (Rect.unit (s := S128x1x1024) ![99, 0, 0] S1x1x1024.size inb_S128x1x1024_S1x1x1024_99_0_0) (fun _ => rfl)).squeeze S1x1024 squeezes_S1x1x1024_S1x1024).view.set]{fullShare} f)
      ∗ (((wbuf.slice (Rect.unit (s := S128x1x1024) ![100, 0, 0] S1x1x1024.size inb_S128x1x1024_S1x1x1024_100_0_0) (fun _ => rfl)).squeeze S1x1024 squeezes_S1x1x1024_S1x1024).view.loc (c : Thread nD τ) ↦[((wbuf.slice (Rect.unit (s := S128x1x1024) ![100, 0, 0] S1x1x1024.size inb_S128x1x1024_S1x1x1024_100_0_0) (fun _ => rfl)).squeeze S1x1024 squeezes_S1x1x1024_S1x1024).view.set]{fullShare} f)
      ∗ (((wbuf.slice (Rect.unit (s := S128x1x1024) ![101, 0, 0] S1x1x1024.size inb_S128x1x1024_S1x1x1024_101_0_0) (fun _ => rfl)).squeeze S1x1024 squeezes_S1x1x1024_S1x1024).view.loc (c : Thread nD τ) ↦[((wbuf.slice (Rect.unit (s := S128x1x1024) ![101, 0, 0] S1x1x1024.size inb_S128x1x1024_S1x1x1024_101_0_0) (fun _ => rfl)).squeeze S1x1024 squeezes_S1x1x1024_S1x1024).view.set]{fullShare} f)
      ∗ (((wbuf.slice (Rect.unit (s := S128x1x1024) ![102, 0, 0] S1x1x1024.size inb_S128x1x1024_S1x1x1024_102_0_0) (fun _ => rfl)).squeeze S1x1024 squeezes_S1x1x1024_S1x1024).view.loc (c : Thread nD τ) ↦[((wbuf.slice (Rect.unit (s := S128x1x1024) ![102, 0, 0] S1x1x1024.size inb_S128x1x1024_S1x1x1024_102_0_0) (fun _ => rfl)).squeeze S1x1024 squeezes_S1x1x1024_S1x1024).view.set]{fullShare} f)
      ∗ (((wbuf.slice (Rect.unit (s := S128x1x1024) ![103, 0, 0] S1x1x1024.size inb_S128x1x1024_S1x1x1024_103_0_0) (fun _ => rfl)).squeeze S1x1024 squeezes_S1x1x1024_S1x1024).view.loc (c : Thread nD τ) ↦[((wbuf.slice (Rect.unit (s := S128x1x1024) ![103, 0, 0] S1x1x1024.size inb_S128x1x1024_S1x1x1024_103_0_0) (fun _ => rfl)).squeeze S1x1024 squeezes_S1x1x1024_S1x1024).view.set]{fullShare} f)
      ∗ (((wbuf.slice (Rect.unit (s := S128x1x1024) ![104, 0, 0] S1x1x1024.size inb_S128x1x1024_S1x1x1024_104_0_0) (fun _ => rfl)).squeeze S1x1024 squeezes_S1x1x1024_S1x1024).view.loc (c : Thread nD τ) ↦[((wbuf.slice (Rect.unit (s := S128x1x1024) ![104, 0, 0] S1x1x1024.size inb_S128x1x1024_S1x1x1024_104_0_0) (fun _ => rfl)).squeeze S1x1024 squeezes_S1x1x1024_S1x1024).view.set]{fullShare} f)
      ∗ (((wbuf.slice (Rect.unit (s := S128x1x1024) ![105, 0, 0] S1x1x1024.size inb_S128x1x1024_S1x1x1024_105_0_0) (fun _ => rfl)).squeeze S1x1024 squeezes_S1x1x1024_S1x1024).view.loc (c : Thread nD τ) ↦[((wbuf.slice (Rect.unit (s := S128x1x1024) ![105, 0, 0] S1x1x1024.size inb_S128x1x1024_S1x1x1024_105_0_0) (fun _ => rfl)).squeeze S1x1024 squeezes_S1x1x1024_S1x1024).view.set]{fullShare} f)
      ∗ (((wbuf.slice (Rect.unit (s := S128x1x1024) ![106, 0, 0] S1x1x1024.size inb_S128x1x1024_S1x1x1024_106_0_0) (fun _ => rfl)).squeeze S1x1024 squeezes_S1x1x1024_S1x1024).view.loc (c : Thread nD τ) ↦[((wbuf.slice (Rect.unit (s := S128x1x1024) ![106, 0, 0] S1x1x1024.size inb_S128x1x1024_S1x1x1024_106_0_0) (fun _ => rfl)).squeeze S1x1024 squeezes_S1x1x1024_S1x1024).view.set]{fullShare} f)
      ∗ (((wbuf.slice (Rect.unit (s := S128x1x1024) ![107, 0, 0] S1x1x1024.size inb_S128x1x1024_S1x1x1024_107_0_0) (fun _ => rfl)).squeeze S1x1024 squeezes_S1x1x1024_S1x1024).view.loc (c : Thread nD τ) ↦[((wbuf.slice (Rect.unit (s := S128x1x1024) ![107, 0, 0] S1x1x1024.size inb_S128x1x1024_S1x1x1024_107_0_0) (fun _ => rfl)).squeeze S1x1024 squeezes_S1x1x1024_S1x1024).view.set]{fullShare} f)
      ∗ (((wbuf.slice (Rect.unit (s := S128x1x1024) ![108, 0, 0] S1x1x1024.size inb_S128x1x1024_S1x1x1024_108_0_0) (fun _ => rfl)).squeeze S1x1024 squeezes_S1x1x1024_S1x1024).view.loc (c : Thread nD τ) ↦[((wbuf.slice (Rect.unit (s := S128x1x1024) ![108, 0, 0] S1x1x1024.size inb_S128x1x1024_S1x1x1024_108_0_0) (fun _ => rfl)).squeeze S1x1024 squeezes_S1x1x1024_S1x1024).view.set]{fullShare} f)
      ∗ (((wbuf.slice (Rect.unit (s := S128x1x1024) ![109, 0, 0] S1x1x1024.size inb_S128x1x1024_S1x1x1024_109_0_0) (fun _ => rfl)).squeeze S1x1024 squeezes_S1x1x1024_S1x1024).view.loc (c : Thread nD τ) ↦[((wbuf.slice (Rect.unit (s := S128x1x1024) ![109, 0, 0] S1x1x1024.size inb_S128x1x1024_S1x1x1024_109_0_0) (fun _ => rfl)).squeeze S1x1024 squeezes_S1x1x1024_S1x1024).view.set]{fullShare} f)
      ∗ (((wbuf.slice (Rect.unit (s := S128x1x1024) ![110, 0, 0] S1x1x1024.size inb_S128x1x1024_S1x1x1024_110_0_0) (fun _ => rfl)).squeeze S1x1024 squeezes_S1x1x1024_S1x1024).view.loc (c : Thread nD τ) ↦[((wbuf.slice (Rect.unit (s := S128x1x1024) ![110, 0, 0] S1x1x1024.size inb_S128x1x1024_S1x1x1024_110_0_0) (fun _ => rfl)).squeeze S1x1024 squeezes_S1x1x1024_S1x1024).view.set]{fullShare} f)
      ∗ (((wbuf.slice (Rect.unit (s := S128x1x1024) ![111, 0, 0] S1x1x1024.size inb_S128x1x1024_S1x1x1024_111_0_0) (fun _ => rfl)).squeeze S1x1024 squeezes_S1x1x1024_S1x1024).view.loc (c : Thread nD τ) ↦[((wbuf.slice (Rect.unit (s := S128x1x1024) ![111, 0, 0] S1x1x1024.size inb_S128x1x1024_S1x1x1024_111_0_0) (fun _ => rfl)).squeeze S1x1024 squeezes_S1x1x1024_S1x1024).view.set]{fullShare} f)
      ∗ (((wbuf.slice (Rect.unit (s := S128x1x1024) ![112, 0, 0] S1x1x1024.size inb_S128x1x1024_S1x1x1024_112_0_0) (fun _ => rfl)).squeeze S1x1024 squeezes_S1x1x1024_S1x1024).view.loc (c : Thread nD τ) ↦[((wbuf.slice (Rect.unit (s := S128x1x1024) ![112, 0, 0] S1x1x1024.size inb_S128x1x1024_S1x1x1024_112_0_0) (fun _ => rfl)).squeeze S1x1024 squeezes_S1x1x1024_S1x1024).view.set]{fullShare} f)
      ∗ (((wbuf.slice (Rect.unit (s := S128x1x1024) ![113, 0, 0] S1x1x1024.size inb_S128x1x1024_S1x1x1024_113_0_0) (fun _ => rfl)).squeeze S1x1024 squeezes_S1x1x1024_S1x1024).view.loc (c : Thread nD τ) ↦[((wbuf.slice (Rect.unit (s := S128x1x1024) ![113, 0, 0] S1x1x1024.size inb_S128x1x1024_S1x1x1024_113_0_0) (fun _ => rfl)).squeeze S1x1024 squeezes_S1x1x1024_S1x1024).view.set]{fullShare} f)
      ∗ (((wbuf.slice (Rect.unit (s := S128x1x1024) ![114, 0, 0] S1x1x1024.size inb_S128x1x1024_S1x1x1024_114_0_0) (fun _ => rfl)).squeeze S1x1024 squeezes_S1x1x1024_S1x1024).view.loc (c : Thread nD τ) ↦[((wbuf.slice (Rect.unit (s := S128x1x1024) ![114, 0, 0] S1x1x1024.size inb_S128x1x1024_S1x1x1024_114_0_0) (fun _ => rfl)).squeeze S1x1024 squeezes_S1x1x1024_S1x1024).view.set]{fullShare} f)
      ∗ (((wbuf.slice (Rect.unit (s := S128x1x1024) ![115, 0, 0] S1x1x1024.size inb_S128x1x1024_S1x1x1024_115_0_0) (fun _ => rfl)).squeeze S1x1024 squeezes_S1x1x1024_S1x1024).view.loc (c : Thread nD τ) ↦[((wbuf.slice (Rect.unit (s := S128x1x1024) ![115, 0, 0] S1x1x1024.size inb_S128x1x1024_S1x1x1024_115_0_0) (fun _ => rfl)).squeeze S1x1024 squeezes_S1x1x1024_S1x1024).view.set]{fullShare} f)
      ∗ (((wbuf.slice (Rect.unit (s := S128x1x1024) ![116, 0, 0] S1x1x1024.size inb_S128x1x1024_S1x1x1024_116_0_0) (fun _ => rfl)).squeeze S1x1024 squeezes_S1x1x1024_S1x1024).view.loc (c : Thread nD τ) ↦[((wbuf.slice (Rect.unit (s := S128x1x1024) ![116, 0, 0] S1x1x1024.size inb_S128x1x1024_S1x1x1024_116_0_0) (fun _ => rfl)).squeeze S1x1024 squeezes_S1x1x1024_S1x1024).view.set]{fullShare} f)
      ∗ (((wbuf.slice (Rect.unit (s := S128x1x1024) ![117, 0, 0] S1x1x1024.size inb_S128x1x1024_S1x1x1024_117_0_0) (fun _ => rfl)).squeeze S1x1024 squeezes_S1x1x1024_S1x1024).view.loc (c : Thread nD τ) ↦[((wbuf.slice (Rect.unit (s := S128x1x1024) ![117, 0, 0] S1x1x1024.size inb_S128x1x1024_S1x1x1024_117_0_0) (fun _ => rfl)).squeeze S1x1024 squeezes_S1x1x1024_S1x1024).view.set]{fullShare} f)
      ∗ (((wbuf.slice (Rect.unit (s := S128x1x1024) ![118, 0, 0] S1x1x1024.size inb_S128x1x1024_S1x1x1024_118_0_0) (fun _ => rfl)).squeeze S1x1024 squeezes_S1x1x1024_S1x1024).view.loc (c : Thread nD τ) ↦[((wbuf.slice (Rect.unit (s := S128x1x1024) ![118, 0, 0] S1x1x1024.size inb_S128x1x1024_S1x1x1024_118_0_0) (fun _ => rfl)).squeeze S1x1024 squeezes_S1x1x1024_S1x1024).view.set]{fullShare} f)
      ∗ (((wbuf.slice (Rect.unit (s := S128x1x1024) ![119, 0, 0] S1x1x1024.size inb_S128x1x1024_S1x1x1024_119_0_0) (fun _ => rfl)).squeeze S1x1024 squeezes_S1x1x1024_S1x1024).view.loc (c : Thread nD τ) ↦[((wbuf.slice (Rect.unit (s := S128x1x1024) ![119, 0, 0] S1x1x1024.size inb_S128x1x1024_S1x1x1024_119_0_0) (fun _ => rfl)).squeeze S1x1024 squeezes_S1x1x1024_S1x1024).view.set]{fullShare} f)
      ∗ (((wbuf.slice (Rect.unit (s := S128x1x1024) ![120, 0, 0] S1x1x1024.size inb_S128x1x1024_S1x1x1024_120_0_0) (fun _ => rfl)).squeeze S1x1024 squeezes_S1x1x1024_S1x1024).view.loc (c : Thread nD τ) ↦[((wbuf.slice (Rect.unit (s := S128x1x1024) ![120, 0, 0] S1x1x1024.size inb_S128x1x1024_S1x1x1024_120_0_0) (fun _ => rfl)).squeeze S1x1024 squeezes_S1x1x1024_S1x1024).view.set]{fullShare} f)
      ∗ (((wbuf.slice (Rect.unit (s := S128x1x1024) ![121, 0, 0] S1x1x1024.size inb_S128x1x1024_S1x1x1024_121_0_0) (fun _ => rfl)).squeeze S1x1024 squeezes_S1x1x1024_S1x1024).view.loc (c : Thread nD τ) ↦[((wbuf.slice (Rect.unit (s := S128x1x1024) ![121, 0, 0] S1x1x1024.size inb_S128x1x1024_S1x1x1024_121_0_0) (fun _ => rfl)).squeeze S1x1024 squeezes_S1x1x1024_S1x1024).view.set]{fullShare} f)
      ∗ (((wbuf.slice (Rect.unit (s := S128x1x1024) ![122, 0, 0] S1x1x1024.size inb_S128x1x1024_S1x1x1024_122_0_0) (fun _ => rfl)).squeeze S1x1024 squeezes_S1x1x1024_S1x1024).view.loc (c : Thread nD τ) ↦[((wbuf.slice (Rect.unit (s := S128x1x1024) ![122, 0, 0] S1x1x1024.size inb_S128x1x1024_S1x1x1024_122_0_0) (fun _ => rfl)).squeeze S1x1024 squeezes_S1x1x1024_S1x1024).view.set]{fullShare} f)
      ∗ (((wbuf.slice (Rect.unit (s := S128x1x1024) ![123, 0, 0] S1x1x1024.size inb_S128x1x1024_S1x1x1024_123_0_0) (fun _ => rfl)).squeeze S1x1024 squeezes_S1x1x1024_S1x1024).view.loc (c : Thread nD τ) ↦[((wbuf.slice (Rect.unit (s := S128x1x1024) ![123, 0, 0] S1x1x1024.size inb_S128x1x1024_S1x1x1024_123_0_0) (fun _ => rfl)).squeeze S1x1024 squeezes_S1x1x1024_S1x1024).view.set]{fullShare} f)
      ∗ (((wbuf.slice (Rect.unit (s := S128x1x1024) ![124, 0, 0] S1x1x1024.size inb_S128x1x1024_S1x1x1024_124_0_0) (fun _ => rfl)).squeeze S1x1024 squeezes_S1x1x1024_S1x1024).view.loc (c : Thread nD τ) ↦[((wbuf.slice (Rect.unit (s := S128x1x1024) ![124, 0, 0] S1x1x1024.size inb_S128x1x1024_S1x1x1024_124_0_0) (fun _ => rfl)).squeeze S1x1024 squeezes_S1x1x1024_S1x1024).view.set]{fullShare} f)
      ∗ (((wbuf.slice (Rect.unit (s := S128x1x1024) ![125, 0, 0] S1x1x1024.size inb_S128x1x1024_S1x1x1024_125_0_0) (fun _ => rfl)).squeeze S1x1024 squeezes_S1x1x1024_S1x1024).view.loc (c : Thread nD τ) ↦[((wbuf.slice (Rect.unit (s := S128x1x1024) ![125, 0, 0] S1x1x1024.size inb_S128x1x1024_S1x1x1024_125_0_0) (fun _ => rfl)).squeeze S1x1024 squeezes_S1x1x1024_S1x1024).view.set]{fullShare} f)
      ∗ (((wbuf.slice (Rect.unit (s := S128x1x1024) ![126, 0, 0] S1x1x1024.size inb_S128x1x1024_S1x1x1024_126_0_0) (fun _ => rfl)).squeeze S1x1024 squeezes_S1x1x1024_S1x1024).view.loc (c : Thread nD τ) ↦[((wbuf.slice (Rect.unit (s := S128x1x1024) ![126, 0, 0] S1x1x1024.size inb_S128x1x1024_S1x1x1024_126_0_0) (fun _ => rfl)).squeeze S1x1024 squeezes_S1x1x1024_S1x1024).view.set]{fullShare} f)
      ∗ (((wbuf.slice (Rect.unit (s := S128x1x1024) ![127, 0, 0] S1x1x1024.size inb_S128x1x1024_S1x1x1024_127_0_0) (fun _ => rfl)).squeeze S1x1024 squeezes_S1x1x1024_S1x1024).view.loc (c : Thread nD τ) ↦[((wbuf.slice (Rect.unit (s := S128x1x1024) ![127, 0, 0] S1x1x1024.size inb_S128x1x1024_S1x1x1024_127_0_0) (fun _ => rfl)).squeeze S1x1024 squeezes_S1x1x1024_S1x1024).view.set]{fullShare} f)) := by
  have h := (wbuf_rows_big c f).trans
    (bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List (Fin 128)) (by decide +kernel) (by decide +kernel)
      (fun j : Fin 128 => ((rowW j).view.loc (c : Thread nD τ) ↦[(rowW j).view.set]{fullShare} f : sProp 𝕄)))
  exact ⟨Entails.of_eq h, Entails.of_eq h.symm⟩

set_option maxHeartbeats 8000000 in
/-- The scale row buffer likewise. -/
theorem sbuf_rows (c : Dev nD) (f : BufOf (F := F) c sbuf) :
    (ptAt c sbuf fullShare f : sProp 𝕄) ⊣⊢ iprop(
      (((sbuf.slice (Rect.unit (s := S128x1x128) ![0, 0, 0] S1x1x128.size inb_S128x1x128_S1x1x128_0_0_0) (fun _ => rfl)).squeeze S1x128 squeezes_S1x1x128_S1x128).view.loc (c : Thread nD τ) ↦[((sbuf.slice (Rect.unit (s := S128x1x128) ![0, 0, 0] S1x1x128.size inb_S128x1x128_S1x1x128_0_0_0) (fun _ => rfl)).squeeze S1x128 squeezes_S1x1x128_S1x128).view.set]{fullShare} f)
      ∗ (((sbuf.slice (Rect.unit (s := S128x1x128) ![1, 0, 0] S1x1x128.size inb_S128x1x128_S1x1x128_1_0_0) (fun _ => rfl)).squeeze S1x128 squeezes_S1x1x128_S1x128).view.loc (c : Thread nD τ) ↦[((sbuf.slice (Rect.unit (s := S128x1x128) ![1, 0, 0] S1x1x128.size inb_S128x1x128_S1x1x128_1_0_0) (fun _ => rfl)).squeeze S1x128 squeezes_S1x1x128_S1x128).view.set]{fullShare} f)
      ∗ (((sbuf.slice (Rect.unit (s := S128x1x128) ![2, 0, 0] S1x1x128.size inb_S128x1x128_S1x1x128_2_0_0) (fun _ => rfl)).squeeze S1x128 squeezes_S1x1x128_S1x128).view.loc (c : Thread nD τ) ↦[((sbuf.slice (Rect.unit (s := S128x1x128) ![2, 0, 0] S1x1x128.size inb_S128x1x128_S1x1x128_2_0_0) (fun _ => rfl)).squeeze S1x128 squeezes_S1x1x128_S1x128).view.set]{fullShare} f)
      ∗ (((sbuf.slice (Rect.unit (s := S128x1x128) ![3, 0, 0] S1x1x128.size inb_S128x1x128_S1x1x128_3_0_0) (fun _ => rfl)).squeeze S1x128 squeezes_S1x1x128_S1x128).view.loc (c : Thread nD τ) ↦[((sbuf.slice (Rect.unit (s := S128x1x128) ![3, 0, 0] S1x1x128.size inb_S128x1x128_S1x1x128_3_0_0) (fun _ => rfl)).squeeze S1x128 squeezes_S1x1x128_S1x128).view.set]{fullShare} f)
      ∗ (((sbuf.slice (Rect.unit (s := S128x1x128) ![4, 0, 0] S1x1x128.size inb_S128x1x128_S1x1x128_4_0_0) (fun _ => rfl)).squeeze S1x128 squeezes_S1x1x128_S1x128).view.loc (c : Thread nD τ) ↦[((sbuf.slice (Rect.unit (s := S128x1x128) ![4, 0, 0] S1x1x128.size inb_S128x1x128_S1x1x128_4_0_0) (fun _ => rfl)).squeeze S1x128 squeezes_S1x1x128_S1x128).view.set]{fullShare} f)
      ∗ (((sbuf.slice (Rect.unit (s := S128x1x128) ![5, 0, 0] S1x1x128.size inb_S128x1x128_S1x1x128_5_0_0) (fun _ => rfl)).squeeze S1x128 squeezes_S1x1x128_S1x128).view.loc (c : Thread nD τ) ↦[((sbuf.slice (Rect.unit (s := S128x1x128) ![5, 0, 0] S1x1x128.size inb_S128x1x128_S1x1x128_5_0_0) (fun _ => rfl)).squeeze S1x128 squeezes_S1x1x128_S1x128).view.set]{fullShare} f)
      ∗ (((sbuf.slice (Rect.unit (s := S128x1x128) ![6, 0, 0] S1x1x128.size inb_S128x1x128_S1x1x128_6_0_0) (fun _ => rfl)).squeeze S1x128 squeezes_S1x1x128_S1x128).view.loc (c : Thread nD τ) ↦[((sbuf.slice (Rect.unit (s := S128x1x128) ![6, 0, 0] S1x1x128.size inb_S128x1x128_S1x1x128_6_0_0) (fun _ => rfl)).squeeze S1x128 squeezes_S1x1x128_S1x128).view.set]{fullShare} f)
      ∗ (((sbuf.slice (Rect.unit (s := S128x1x128) ![7, 0, 0] S1x1x128.size inb_S128x1x128_S1x1x128_7_0_0) (fun _ => rfl)).squeeze S1x128 squeezes_S1x1x128_S1x128).view.loc (c : Thread nD τ) ↦[((sbuf.slice (Rect.unit (s := S128x1x128) ![7, 0, 0] S1x1x128.size inb_S128x1x128_S1x1x128_7_0_0) (fun _ => rfl)).squeeze S1x128 squeezes_S1x1x128_S1x128).view.set]{fullShare} f)
      ∗ (((sbuf.slice (Rect.unit (s := S128x1x128) ![8, 0, 0] S1x1x128.size inb_S128x1x128_S1x1x128_8_0_0) (fun _ => rfl)).squeeze S1x128 squeezes_S1x1x128_S1x128).view.loc (c : Thread nD τ) ↦[((sbuf.slice (Rect.unit (s := S128x1x128) ![8, 0, 0] S1x1x128.size inb_S128x1x128_S1x1x128_8_0_0) (fun _ => rfl)).squeeze S1x128 squeezes_S1x1x128_S1x128).view.set]{fullShare} f)
      ∗ (((sbuf.slice (Rect.unit (s := S128x1x128) ![9, 0, 0] S1x1x128.size inb_S128x1x128_S1x1x128_9_0_0) (fun _ => rfl)).squeeze S1x128 squeezes_S1x1x128_S1x128).view.loc (c : Thread nD τ) ↦[((sbuf.slice (Rect.unit (s := S128x1x128) ![9, 0, 0] S1x1x128.size inb_S128x1x128_S1x1x128_9_0_0) (fun _ => rfl)).squeeze S1x128 squeezes_S1x1x128_S1x128).view.set]{fullShare} f)
      ∗ (((sbuf.slice (Rect.unit (s := S128x1x128) ![10, 0, 0] S1x1x128.size inb_S128x1x128_S1x1x128_10_0_0) (fun _ => rfl)).squeeze S1x128 squeezes_S1x1x128_S1x128).view.loc (c : Thread nD τ) ↦[((sbuf.slice (Rect.unit (s := S128x1x128) ![10, 0, 0] S1x1x128.size inb_S128x1x128_S1x1x128_10_0_0) (fun _ => rfl)).squeeze S1x128 squeezes_S1x1x128_S1x128).view.set]{fullShare} f)
      ∗ (((sbuf.slice (Rect.unit (s := S128x1x128) ![11, 0, 0] S1x1x128.size inb_S128x1x128_S1x1x128_11_0_0) (fun _ => rfl)).squeeze S1x128 squeezes_S1x1x128_S1x128).view.loc (c : Thread nD τ) ↦[((sbuf.slice (Rect.unit (s := S128x1x128) ![11, 0, 0] S1x1x128.size inb_S128x1x128_S1x1x128_11_0_0) (fun _ => rfl)).squeeze S1x128 squeezes_S1x1x128_S1x128).view.set]{fullShare} f)
      ∗ (((sbuf.slice (Rect.unit (s := S128x1x128) ![12, 0, 0] S1x1x128.size inb_S128x1x128_S1x1x128_12_0_0) (fun _ => rfl)).squeeze S1x128 squeezes_S1x1x128_S1x128).view.loc (c : Thread nD τ) ↦[((sbuf.slice (Rect.unit (s := S128x1x128) ![12, 0, 0] S1x1x128.size inb_S128x1x128_S1x1x128_12_0_0) (fun _ => rfl)).squeeze S1x128 squeezes_S1x1x128_S1x128).view.set]{fullShare} f)
      ∗ (((sbuf.slice (Rect.unit (s := S128x1x128) ![13, 0, 0] S1x1x128.size inb_S128x1x128_S1x1x128_13_0_0) (fun _ => rfl)).squeeze S1x128 squeezes_S1x1x128_S1x128).view.loc (c : Thread nD τ) ↦[((sbuf.slice (Rect.unit (s := S128x1x128) ![13, 0, 0] S1x1x128.size inb_S128x1x128_S1x1x128_13_0_0) (fun _ => rfl)).squeeze S1x128 squeezes_S1x1x128_S1x128).view.set]{fullShare} f)
      ∗ (((sbuf.slice (Rect.unit (s := S128x1x128) ![14, 0, 0] S1x1x128.size inb_S128x1x128_S1x1x128_14_0_0) (fun _ => rfl)).squeeze S1x128 squeezes_S1x1x128_S1x128).view.loc (c : Thread nD τ) ↦[((sbuf.slice (Rect.unit (s := S128x1x128) ![14, 0, 0] S1x1x128.size inb_S128x1x128_S1x1x128_14_0_0) (fun _ => rfl)).squeeze S1x128 squeezes_S1x1x128_S1x128).view.set]{fullShare} f)
      ∗ (((sbuf.slice (Rect.unit (s := S128x1x128) ![15, 0, 0] S1x1x128.size inb_S128x1x128_S1x1x128_15_0_0) (fun _ => rfl)).squeeze S1x128 squeezes_S1x1x128_S1x128).view.loc (c : Thread nD τ) ↦[((sbuf.slice (Rect.unit (s := S128x1x128) ![15, 0, 0] S1x1x128.size inb_S128x1x128_S1x1x128_15_0_0) (fun _ => rfl)).squeeze S1x128 squeezes_S1x1x128_S1x128).view.set]{fullShare} f)
      ∗ (((sbuf.slice (Rect.unit (s := S128x1x128) ![16, 0, 0] S1x1x128.size inb_S128x1x128_S1x1x128_16_0_0) (fun _ => rfl)).squeeze S1x128 squeezes_S1x1x128_S1x128).view.loc (c : Thread nD τ) ↦[((sbuf.slice (Rect.unit (s := S128x1x128) ![16, 0, 0] S1x1x128.size inb_S128x1x128_S1x1x128_16_0_0) (fun _ => rfl)).squeeze S1x128 squeezes_S1x1x128_S1x128).view.set]{fullShare} f)
      ∗ (((sbuf.slice (Rect.unit (s := S128x1x128) ![17, 0, 0] S1x1x128.size inb_S128x1x128_S1x1x128_17_0_0) (fun _ => rfl)).squeeze S1x128 squeezes_S1x1x128_S1x128).view.loc (c : Thread nD τ) ↦[((sbuf.slice (Rect.unit (s := S128x1x128) ![17, 0, 0] S1x1x128.size inb_S128x1x128_S1x1x128_17_0_0) (fun _ => rfl)).squeeze S1x128 squeezes_S1x1x128_S1x128).view.set]{fullShare} f)
      ∗ (((sbuf.slice (Rect.unit (s := S128x1x128) ![18, 0, 0] S1x1x128.size inb_S128x1x128_S1x1x128_18_0_0) (fun _ => rfl)).squeeze S1x128 squeezes_S1x1x128_S1x128).view.loc (c : Thread nD τ) ↦[((sbuf.slice (Rect.unit (s := S128x1x128) ![18, 0, 0] S1x1x128.size inb_S128x1x128_S1x1x128_18_0_0) (fun _ => rfl)).squeeze S1x128 squeezes_S1x1x128_S1x128).view.set]{fullShare} f)
      ∗ (((sbuf.slice (Rect.unit (s := S128x1x128) ![19, 0, 0] S1x1x128.size inb_S128x1x128_S1x1x128_19_0_0) (fun _ => rfl)).squeeze S1x128 squeezes_S1x1x128_S1x128).view.loc (c : Thread nD τ) ↦[((sbuf.slice (Rect.unit (s := S128x1x128) ![19, 0, 0] S1x1x128.size inb_S128x1x128_S1x1x128_19_0_0) (fun _ => rfl)).squeeze S1x128 squeezes_S1x1x128_S1x128).view.set]{fullShare} f)
      ∗ (((sbuf.slice (Rect.unit (s := S128x1x128) ![20, 0, 0] S1x1x128.size inb_S128x1x128_S1x1x128_20_0_0) (fun _ => rfl)).squeeze S1x128 squeezes_S1x1x128_S1x128).view.loc (c : Thread nD τ) ↦[((sbuf.slice (Rect.unit (s := S128x1x128) ![20, 0, 0] S1x1x128.size inb_S128x1x128_S1x1x128_20_0_0) (fun _ => rfl)).squeeze S1x128 squeezes_S1x1x128_S1x128).view.set]{fullShare} f)
      ∗ (((sbuf.slice (Rect.unit (s := S128x1x128) ![21, 0, 0] S1x1x128.size inb_S128x1x128_S1x1x128_21_0_0) (fun _ => rfl)).squeeze S1x128 squeezes_S1x1x128_S1x128).view.loc (c : Thread nD τ) ↦[((sbuf.slice (Rect.unit (s := S128x1x128) ![21, 0, 0] S1x1x128.size inb_S128x1x128_S1x1x128_21_0_0) (fun _ => rfl)).squeeze S1x128 squeezes_S1x1x128_S1x128).view.set]{fullShare} f)
      ∗ (((sbuf.slice (Rect.unit (s := S128x1x128) ![22, 0, 0] S1x1x128.size inb_S128x1x128_S1x1x128_22_0_0) (fun _ => rfl)).squeeze S1x128 squeezes_S1x1x128_S1x128).view.loc (c : Thread nD τ) ↦[((sbuf.slice (Rect.unit (s := S128x1x128) ![22, 0, 0] S1x1x128.size inb_S128x1x128_S1x1x128_22_0_0) (fun _ => rfl)).squeeze S1x128 squeezes_S1x1x128_S1x128).view.set]{fullShare} f)
      ∗ (((sbuf.slice (Rect.unit (s := S128x1x128) ![23, 0, 0] S1x1x128.size inb_S128x1x128_S1x1x128_23_0_0) (fun _ => rfl)).squeeze S1x128 squeezes_S1x1x128_S1x128).view.loc (c : Thread nD τ) ↦[((sbuf.slice (Rect.unit (s := S128x1x128) ![23, 0, 0] S1x1x128.size inb_S128x1x128_S1x1x128_23_0_0) (fun _ => rfl)).squeeze S1x128 squeezes_S1x1x128_S1x128).view.set]{fullShare} f)
      ∗ (((sbuf.slice (Rect.unit (s := S128x1x128) ![24, 0, 0] S1x1x128.size inb_S128x1x128_S1x1x128_24_0_0) (fun _ => rfl)).squeeze S1x128 squeezes_S1x1x128_S1x128).view.loc (c : Thread nD τ) ↦[((sbuf.slice (Rect.unit (s := S128x1x128) ![24, 0, 0] S1x1x128.size inb_S128x1x128_S1x1x128_24_0_0) (fun _ => rfl)).squeeze S1x128 squeezes_S1x1x128_S1x128).view.set]{fullShare} f)
      ∗ (((sbuf.slice (Rect.unit (s := S128x1x128) ![25, 0, 0] S1x1x128.size inb_S128x1x128_S1x1x128_25_0_0) (fun _ => rfl)).squeeze S1x128 squeezes_S1x1x128_S1x128).view.loc (c : Thread nD τ) ↦[((sbuf.slice (Rect.unit (s := S128x1x128) ![25, 0, 0] S1x1x128.size inb_S128x1x128_S1x1x128_25_0_0) (fun _ => rfl)).squeeze S1x128 squeezes_S1x1x128_S1x128).view.set]{fullShare} f)
      ∗ (((sbuf.slice (Rect.unit (s := S128x1x128) ![26, 0, 0] S1x1x128.size inb_S128x1x128_S1x1x128_26_0_0) (fun _ => rfl)).squeeze S1x128 squeezes_S1x1x128_S1x128).view.loc (c : Thread nD τ) ↦[((sbuf.slice (Rect.unit (s := S128x1x128) ![26, 0, 0] S1x1x128.size inb_S128x1x128_S1x1x128_26_0_0) (fun _ => rfl)).squeeze S1x128 squeezes_S1x1x128_S1x128).view.set]{fullShare} f)
      ∗ (((sbuf.slice (Rect.unit (s := S128x1x128) ![27, 0, 0] S1x1x128.size inb_S128x1x128_S1x1x128_27_0_0) (fun _ => rfl)).squeeze S1x128 squeezes_S1x1x128_S1x128).view.loc (c : Thread nD τ) ↦[((sbuf.slice (Rect.unit (s := S128x1x128) ![27, 0, 0] S1x1x128.size inb_S128x1x128_S1x1x128_27_0_0) (fun _ => rfl)).squeeze S1x128 squeezes_S1x1x128_S1x128).view.set]{fullShare} f)
      ∗ (((sbuf.slice (Rect.unit (s := S128x1x128) ![28, 0, 0] S1x1x128.size inb_S128x1x128_S1x1x128_28_0_0) (fun _ => rfl)).squeeze S1x128 squeezes_S1x1x128_S1x128).view.loc (c : Thread nD τ) ↦[((sbuf.slice (Rect.unit (s := S128x1x128) ![28, 0, 0] S1x1x128.size inb_S128x1x128_S1x1x128_28_0_0) (fun _ => rfl)).squeeze S1x128 squeezes_S1x1x128_S1x128).view.set]{fullShare} f)
      ∗ (((sbuf.slice (Rect.unit (s := S128x1x128) ![29, 0, 0] S1x1x128.size inb_S128x1x128_S1x1x128_29_0_0) (fun _ => rfl)).squeeze S1x128 squeezes_S1x1x128_S1x128).view.loc (c : Thread nD τ) ↦[((sbuf.slice (Rect.unit (s := S128x1x128) ![29, 0, 0] S1x1x128.size inb_S128x1x128_S1x1x128_29_0_0) (fun _ => rfl)).squeeze S1x128 squeezes_S1x1x128_S1x128).view.set]{fullShare} f)
      ∗ (((sbuf.slice (Rect.unit (s := S128x1x128) ![30, 0, 0] S1x1x128.size inb_S128x1x128_S1x1x128_30_0_0) (fun _ => rfl)).squeeze S1x128 squeezes_S1x1x128_S1x128).view.loc (c : Thread nD τ) ↦[((sbuf.slice (Rect.unit (s := S128x1x128) ![30, 0, 0] S1x1x128.size inb_S128x1x128_S1x1x128_30_0_0) (fun _ => rfl)).squeeze S1x128 squeezes_S1x1x128_S1x128).view.set]{fullShare} f)
      ∗ (((sbuf.slice (Rect.unit (s := S128x1x128) ![31, 0, 0] S1x1x128.size inb_S128x1x128_S1x1x128_31_0_0) (fun _ => rfl)).squeeze S1x128 squeezes_S1x1x128_S1x128).view.loc (c : Thread nD τ) ↦[((sbuf.slice (Rect.unit (s := S128x1x128) ![31, 0, 0] S1x1x128.size inb_S128x1x128_S1x1x128_31_0_0) (fun _ => rfl)).squeeze S1x128 squeezes_S1x1x128_S1x128).view.set]{fullShare} f)
      ∗ (((sbuf.slice (Rect.unit (s := S128x1x128) ![32, 0, 0] S1x1x128.size inb_S128x1x128_S1x1x128_32_0_0) (fun _ => rfl)).squeeze S1x128 squeezes_S1x1x128_S1x128).view.loc (c : Thread nD τ) ↦[((sbuf.slice (Rect.unit (s := S128x1x128) ![32, 0, 0] S1x1x128.size inb_S128x1x128_S1x1x128_32_0_0) (fun _ => rfl)).squeeze S1x128 squeezes_S1x1x128_S1x128).view.set]{fullShare} f)
      ∗ (((sbuf.slice (Rect.unit (s := S128x1x128) ![33, 0, 0] S1x1x128.size inb_S128x1x128_S1x1x128_33_0_0) (fun _ => rfl)).squeeze S1x128 squeezes_S1x1x128_S1x128).view.loc (c : Thread nD τ) ↦[((sbuf.slice (Rect.unit (s := S128x1x128) ![33, 0, 0] S1x1x128.size inb_S128x1x128_S1x1x128_33_0_0) (fun _ => rfl)).squeeze S1x128 squeezes_S1x1x128_S1x128).view.set]{fullShare} f)
      ∗ (((sbuf.slice (Rect.unit (s := S128x1x128) ![34, 0, 0] S1x1x128.size inb_S128x1x128_S1x1x128_34_0_0) (fun _ => rfl)).squeeze S1x128 squeezes_S1x1x128_S1x128).view.loc (c : Thread nD τ) ↦[((sbuf.slice (Rect.unit (s := S128x1x128) ![34, 0, 0] S1x1x128.size inb_S128x1x128_S1x1x128_34_0_0) (fun _ => rfl)).squeeze S1x128 squeezes_S1x1x128_S1x128).view.set]{fullShare} f)
      ∗ (((sbuf.slice (Rect.unit (s := S128x1x128) ![35, 0, 0] S1x1x128.size inb_S128x1x128_S1x1x128_35_0_0) (fun _ => rfl)).squeeze S1x128 squeezes_S1x1x128_S1x128).view.loc (c : Thread nD τ) ↦[((sbuf.slice (Rect.unit (s := S128x1x128) ![35, 0, 0] S1x1x128.size inb_S128x1x128_S1x1x128_35_0_0) (fun _ => rfl)).squeeze S1x128 squeezes_S1x1x128_S1x128).view.set]{fullShare} f)
      ∗ (((sbuf.slice (Rect.unit (s := S128x1x128) ![36, 0, 0] S1x1x128.size inb_S128x1x128_S1x1x128_36_0_0) (fun _ => rfl)).squeeze S1x128 squeezes_S1x1x128_S1x128).view.loc (c : Thread nD τ) ↦[((sbuf.slice (Rect.unit (s := S128x1x128) ![36, 0, 0] S1x1x128.size inb_S128x1x128_S1x1x128_36_0_0) (fun _ => rfl)).squeeze S1x128 squeezes_S1x1x128_S1x128).view.set]{fullShare} f)
      ∗ (((sbuf.slice (Rect.unit (s := S128x1x128) ![37, 0, 0] S1x1x128.size inb_S128x1x128_S1x1x128_37_0_0) (fun _ => rfl)).squeeze S1x128 squeezes_S1x1x128_S1x128).view.loc (c : Thread nD τ) ↦[((sbuf.slice (Rect.unit (s := S128x1x128) ![37, 0, 0] S1x1x128.size inb_S128x1x128_S1x1x128_37_0_0) (fun _ => rfl)).squeeze S1x128 squeezes_S1x1x128_S1x128).view.set]{fullShare} f)
      ∗ (((sbuf.slice (Rect.unit (s := S128x1x128) ![38, 0, 0] S1x1x128.size inb_S128x1x128_S1x1x128_38_0_0) (fun _ => rfl)).squeeze S1x128 squeezes_S1x1x128_S1x128).view.loc (c : Thread nD τ) ↦[((sbuf.slice (Rect.unit (s := S128x1x128) ![38, 0, 0] S1x1x128.size inb_S128x1x128_S1x1x128_38_0_0) (fun _ => rfl)).squeeze S1x128 squeezes_S1x1x128_S1x128).view.set]{fullShare} f)
      ∗ (((sbuf.slice (Rect.unit (s := S128x1x128) ![39, 0, 0] S1x1x128.size inb_S128x1x128_S1x1x128_39_0_0) (fun _ => rfl)).squeeze S1x128 squeezes_S1x1x128_S1x128).view.loc (c : Thread nD τ) ↦[((sbuf.slice (Rect.unit (s := S128x1x128) ![39, 0, 0] S1x1x128.size inb_S128x1x128_S1x1x128_39_0_0) (fun _ => rfl)).squeeze S1x128 squeezes_S1x1x128_S1x128).view.set]{fullShare} f)
      ∗ (((sbuf.slice (Rect.unit (s := S128x1x128) ![40, 0, 0] S1x1x128.size inb_S128x1x128_S1x1x128_40_0_0) (fun _ => rfl)).squeeze S1x128 squeezes_S1x1x128_S1x128).view.loc (c : Thread nD τ) ↦[((sbuf.slice (Rect.unit (s := S128x1x128) ![40, 0, 0] S1x1x128.size inb_S128x1x128_S1x1x128_40_0_0) (fun _ => rfl)).squeeze S1x128 squeezes_S1x1x128_S1x128).view.set]{fullShare} f)
      ∗ (((sbuf.slice (Rect.unit (s := S128x1x128) ![41, 0, 0] S1x1x128.size inb_S128x1x128_S1x1x128_41_0_0) (fun _ => rfl)).squeeze S1x128 squeezes_S1x1x128_S1x128).view.loc (c : Thread nD τ) ↦[((sbuf.slice (Rect.unit (s := S128x1x128) ![41, 0, 0] S1x1x128.size inb_S128x1x128_S1x1x128_41_0_0) (fun _ => rfl)).squeeze S1x128 squeezes_S1x1x128_S1x128).view.set]{fullShare} f)
      ∗ (((sbuf.slice (Rect.unit (s := S128x1x128) ![42, 0, 0] S1x1x128.size inb_S128x1x128_S1x1x128_42_0_0) (fun _ => rfl)).squeeze S1x128 squeezes_S1x1x128_S1x128).view.loc (c : Thread nD τ) ↦[((sbuf.slice (Rect.unit (s := S128x1x128) ![42, 0, 0] S1x1x128.size inb_S128x1x128_S1x1x128_42_0_0) (fun _ => rfl)).squeeze S1x128 squeezes_S1x1x128_S1x128).view.set]{fullShare} f)
      ∗ (((sbuf.slice (Rect.unit (s := S128x1x128) ![43, 0, 0] S1x1x128.size inb_S128x1x128_S1x1x128_43_0_0) (fun _ => rfl)).squeeze S1x128 squeezes_S1x1x128_S1x128).view.loc (c : Thread nD τ) ↦[((sbuf.slice (Rect.unit (s := S128x1x128) ![43, 0, 0] S1x1x128.size inb_S128x1x128_S1x1x128_43_0_0) (fun _ => rfl)).squeeze S1x128 squeezes_S1x1x128_S1x128).view.set]{fullShare} f)
      ∗ (((sbuf.slice (Rect.unit (s := S128x1x128) ![44, 0, 0] S1x1x128.size inb_S128x1x128_S1x1x128_44_0_0) (fun _ => rfl)).squeeze S1x128 squeezes_S1x1x128_S1x128).view.loc (c : Thread nD τ) ↦[((sbuf.slice (Rect.unit (s := S128x1x128) ![44, 0, 0] S1x1x128.size inb_S128x1x128_S1x1x128_44_0_0) (fun _ => rfl)).squeeze S1x128 squeezes_S1x1x128_S1x128).view.set]{fullShare} f)
      ∗ (((sbuf.slice (Rect.unit (s := S128x1x128) ![45, 0, 0] S1x1x128.size inb_S128x1x128_S1x1x128_45_0_0) (fun _ => rfl)).squeeze S1x128 squeezes_S1x1x128_S1x128).view.loc (c : Thread nD τ) ↦[((sbuf.slice (Rect.unit (s := S128x1x128) ![45, 0, 0] S1x1x128.size inb_S128x1x128_S1x1x128_45_0_0) (fun _ => rfl)).squeeze S1x128 squeezes_S1x1x128_S1x128).view.set]{fullShare} f)
      ∗ (((sbuf.slice (Rect.unit (s := S128x1x128) ![46, 0, 0] S1x1x128.size inb_S128x1x128_S1x1x128_46_0_0) (fun _ => rfl)).squeeze S1x128 squeezes_S1x1x128_S1x128).view.loc (c : Thread nD τ) ↦[((sbuf.slice (Rect.unit (s := S128x1x128) ![46, 0, 0] S1x1x128.size inb_S128x1x128_S1x1x128_46_0_0) (fun _ => rfl)).squeeze S1x128 squeezes_S1x1x128_S1x128).view.set]{fullShare} f)
      ∗ (((sbuf.slice (Rect.unit (s := S128x1x128) ![47, 0, 0] S1x1x128.size inb_S128x1x128_S1x1x128_47_0_0) (fun _ => rfl)).squeeze S1x128 squeezes_S1x1x128_S1x128).view.loc (c : Thread nD τ) ↦[((sbuf.slice (Rect.unit (s := S128x1x128) ![47, 0, 0] S1x1x128.size inb_S128x1x128_S1x1x128_47_0_0) (fun _ => rfl)).squeeze S1x128 squeezes_S1x1x128_S1x128).view.set]{fullShare} f)
      ∗ (((sbuf.slice (Rect.unit (s := S128x1x128) ![48, 0, 0] S1x1x128.size inb_S128x1x128_S1x1x128_48_0_0) (fun _ => rfl)).squeeze S1x128 squeezes_S1x1x128_S1x128).view.loc (c : Thread nD τ) ↦[((sbuf.slice (Rect.unit (s := S128x1x128) ![48, 0, 0] S1x1x128.size inb_S128x1x128_S1x1x128_48_0_0) (fun _ => rfl)).squeeze S1x128 squeezes_S1x1x128_S1x128).view.set]{fullShare} f)
      ∗ (((sbuf.slice (Rect.unit (s := S128x1x128) ![49, 0, 0] S1x1x128.size inb_S128x1x128_S1x1x128_49_0_0) (fun _ => rfl)).squeeze S1x128 squeezes_S1x1x128_S1x128).view.loc (c : Thread nD τ) ↦[((sbuf.slice (Rect.unit (s := S128x1x128) ![49, 0, 0] S1x1x128.size inb_S128x1x128_S1x1x128_49_0_0) (fun _ => rfl)).squeeze S1x128 squeezes_S1x1x128_S1x128).view.set]{fullShare} f)
      ∗ (((sbuf.slice (Rect.unit (s := S128x1x128) ![50, 0, 0] S1x1x128.size inb_S128x1x128_S1x1x128_50_0_0) (fun _ => rfl)).squeeze S1x128 squeezes_S1x1x128_S1x128).view.loc (c : Thread nD τ) ↦[((sbuf.slice (Rect.unit (s := S128x1x128) ![50, 0, 0] S1x1x128.size inb_S128x1x128_S1x1x128_50_0_0) (fun _ => rfl)).squeeze S1x128 squeezes_S1x1x128_S1x128).view.set]{fullShare} f)
      ∗ (((sbuf.slice (Rect.unit (s := S128x1x128) ![51, 0, 0] S1x1x128.size inb_S128x1x128_S1x1x128_51_0_0) (fun _ => rfl)).squeeze S1x128 squeezes_S1x1x128_S1x128).view.loc (c : Thread nD τ) ↦[((sbuf.slice (Rect.unit (s := S128x1x128) ![51, 0, 0] S1x1x128.size inb_S128x1x128_S1x1x128_51_0_0) (fun _ => rfl)).squeeze S1x128 squeezes_S1x1x128_S1x128).view.set]{fullShare} f)
      ∗ (((sbuf.slice (Rect.unit (s := S128x1x128) ![52, 0, 0] S1x1x128.size inb_S128x1x128_S1x1x128_52_0_0) (fun _ => rfl)).squeeze S1x128 squeezes_S1x1x128_S1x128).view.loc (c : Thread nD τ) ↦[((sbuf.slice (Rect.unit (s := S128x1x128) ![52, 0, 0] S1x1x128.size inb_S128x1x128_S1x1x128_52_0_0) (fun _ => rfl)).squeeze S1x128 squeezes_S1x1x128_S1x128).view.set]{fullShare} f)
      ∗ (((sbuf.slice (Rect.unit (s := S128x1x128) ![53, 0, 0] S1x1x128.size inb_S128x1x128_S1x1x128_53_0_0) (fun _ => rfl)).squeeze S1x128 squeezes_S1x1x128_S1x128).view.loc (c : Thread nD τ) ↦[((sbuf.slice (Rect.unit (s := S128x1x128) ![53, 0, 0] S1x1x128.size inb_S128x1x128_S1x1x128_53_0_0) (fun _ => rfl)).squeeze S1x128 squeezes_S1x1x128_S1x128).view.set]{fullShare} f)
      ∗ (((sbuf.slice (Rect.unit (s := S128x1x128) ![54, 0, 0] S1x1x128.size inb_S128x1x128_S1x1x128_54_0_0) (fun _ => rfl)).squeeze S1x128 squeezes_S1x1x128_S1x128).view.loc (c : Thread nD τ) ↦[((sbuf.slice (Rect.unit (s := S128x1x128) ![54, 0, 0] S1x1x128.size inb_S128x1x128_S1x1x128_54_0_0) (fun _ => rfl)).squeeze S1x128 squeezes_S1x1x128_S1x128).view.set]{fullShare} f)
      ∗ (((sbuf.slice (Rect.unit (s := S128x1x128) ![55, 0, 0] S1x1x128.size inb_S128x1x128_S1x1x128_55_0_0) (fun _ => rfl)).squeeze S1x128 squeezes_S1x1x128_S1x128).view.loc (c : Thread nD τ) ↦[((sbuf.slice (Rect.unit (s := S128x1x128) ![55, 0, 0] S1x1x128.size inb_S128x1x128_S1x1x128_55_0_0) (fun _ => rfl)).squeeze S1x128 squeezes_S1x1x128_S1x128).view.set]{fullShare} f)
      ∗ (((sbuf.slice (Rect.unit (s := S128x1x128) ![56, 0, 0] S1x1x128.size inb_S128x1x128_S1x1x128_56_0_0) (fun _ => rfl)).squeeze S1x128 squeezes_S1x1x128_S1x128).view.loc (c : Thread nD τ) ↦[((sbuf.slice (Rect.unit (s := S128x1x128) ![56, 0, 0] S1x1x128.size inb_S128x1x128_S1x1x128_56_0_0) (fun _ => rfl)).squeeze S1x128 squeezes_S1x1x128_S1x128).view.set]{fullShare} f)
      ∗ (((sbuf.slice (Rect.unit (s := S128x1x128) ![57, 0, 0] S1x1x128.size inb_S128x1x128_S1x1x128_57_0_0) (fun _ => rfl)).squeeze S1x128 squeezes_S1x1x128_S1x128).view.loc (c : Thread nD τ) ↦[((sbuf.slice (Rect.unit (s := S128x1x128) ![57, 0, 0] S1x1x128.size inb_S128x1x128_S1x1x128_57_0_0) (fun _ => rfl)).squeeze S1x128 squeezes_S1x1x128_S1x128).view.set]{fullShare} f)
      ∗ (((sbuf.slice (Rect.unit (s := S128x1x128) ![58, 0, 0] S1x1x128.size inb_S128x1x128_S1x1x128_58_0_0) (fun _ => rfl)).squeeze S1x128 squeezes_S1x1x128_S1x128).view.loc (c : Thread nD τ) ↦[((sbuf.slice (Rect.unit (s := S128x1x128) ![58, 0, 0] S1x1x128.size inb_S128x1x128_S1x1x128_58_0_0) (fun _ => rfl)).squeeze S1x128 squeezes_S1x1x128_S1x128).view.set]{fullShare} f)
      ∗ (((sbuf.slice (Rect.unit (s := S128x1x128) ![59, 0, 0] S1x1x128.size inb_S128x1x128_S1x1x128_59_0_0) (fun _ => rfl)).squeeze S1x128 squeezes_S1x1x128_S1x128).view.loc (c : Thread nD τ) ↦[((sbuf.slice (Rect.unit (s := S128x1x128) ![59, 0, 0] S1x1x128.size inb_S128x1x128_S1x1x128_59_0_0) (fun _ => rfl)).squeeze S1x128 squeezes_S1x1x128_S1x128).view.set]{fullShare} f)
      ∗ (((sbuf.slice (Rect.unit (s := S128x1x128) ![60, 0, 0] S1x1x128.size inb_S128x1x128_S1x1x128_60_0_0) (fun _ => rfl)).squeeze S1x128 squeezes_S1x1x128_S1x128).view.loc (c : Thread nD τ) ↦[((sbuf.slice (Rect.unit (s := S128x1x128) ![60, 0, 0] S1x1x128.size inb_S128x1x128_S1x1x128_60_0_0) (fun _ => rfl)).squeeze S1x128 squeezes_S1x1x128_S1x128).view.set]{fullShare} f)
      ∗ (((sbuf.slice (Rect.unit (s := S128x1x128) ![61, 0, 0] S1x1x128.size inb_S128x1x128_S1x1x128_61_0_0) (fun _ => rfl)).squeeze S1x128 squeezes_S1x1x128_S1x128).view.loc (c : Thread nD τ) ↦[((sbuf.slice (Rect.unit (s := S128x1x128) ![61, 0, 0] S1x1x128.size inb_S128x1x128_S1x1x128_61_0_0) (fun _ => rfl)).squeeze S1x128 squeezes_S1x1x128_S1x128).view.set]{fullShare} f)
      ∗ (((sbuf.slice (Rect.unit (s := S128x1x128) ![62, 0, 0] S1x1x128.size inb_S128x1x128_S1x1x128_62_0_0) (fun _ => rfl)).squeeze S1x128 squeezes_S1x1x128_S1x128).view.loc (c : Thread nD τ) ↦[((sbuf.slice (Rect.unit (s := S128x1x128) ![62, 0, 0] S1x1x128.size inb_S128x1x128_S1x1x128_62_0_0) (fun _ => rfl)).squeeze S1x128 squeezes_S1x1x128_S1x128).view.set]{fullShare} f)
      ∗ (((sbuf.slice (Rect.unit (s := S128x1x128) ![63, 0, 0] S1x1x128.size inb_S128x1x128_S1x1x128_63_0_0) (fun _ => rfl)).squeeze S1x128 squeezes_S1x1x128_S1x128).view.loc (c : Thread nD τ) ↦[((sbuf.slice (Rect.unit (s := S128x1x128) ![63, 0, 0] S1x1x128.size inb_S128x1x128_S1x1x128_63_0_0) (fun _ => rfl)).squeeze S1x128 squeezes_S1x1x128_S1x128).view.set]{fullShare} f)
      ∗ (((sbuf.slice (Rect.unit (s := S128x1x128) ![64, 0, 0] S1x1x128.size inb_S128x1x128_S1x1x128_64_0_0) (fun _ => rfl)).squeeze S1x128 squeezes_S1x1x128_S1x128).view.loc (c : Thread nD τ) ↦[((sbuf.slice (Rect.unit (s := S128x1x128) ![64, 0, 0] S1x1x128.size inb_S128x1x128_S1x1x128_64_0_0) (fun _ => rfl)).squeeze S1x128 squeezes_S1x1x128_S1x128).view.set]{fullShare} f)
      ∗ (((sbuf.slice (Rect.unit (s := S128x1x128) ![65, 0, 0] S1x1x128.size inb_S128x1x128_S1x1x128_65_0_0) (fun _ => rfl)).squeeze S1x128 squeezes_S1x1x128_S1x128).view.loc (c : Thread nD τ) ↦[((sbuf.slice (Rect.unit (s := S128x1x128) ![65, 0, 0] S1x1x128.size inb_S128x1x128_S1x1x128_65_0_0) (fun _ => rfl)).squeeze S1x128 squeezes_S1x1x128_S1x128).view.set]{fullShare} f)
      ∗ (((sbuf.slice (Rect.unit (s := S128x1x128) ![66, 0, 0] S1x1x128.size inb_S128x1x128_S1x1x128_66_0_0) (fun _ => rfl)).squeeze S1x128 squeezes_S1x1x128_S1x128).view.loc (c : Thread nD τ) ↦[((sbuf.slice (Rect.unit (s := S128x1x128) ![66, 0, 0] S1x1x128.size inb_S128x1x128_S1x1x128_66_0_0) (fun _ => rfl)).squeeze S1x128 squeezes_S1x1x128_S1x128).view.set]{fullShare} f)
      ∗ (((sbuf.slice (Rect.unit (s := S128x1x128) ![67, 0, 0] S1x1x128.size inb_S128x1x128_S1x1x128_67_0_0) (fun _ => rfl)).squeeze S1x128 squeezes_S1x1x128_S1x128).view.loc (c : Thread nD τ) ↦[((sbuf.slice (Rect.unit (s := S128x1x128) ![67, 0, 0] S1x1x128.size inb_S128x1x128_S1x1x128_67_0_0) (fun _ => rfl)).squeeze S1x128 squeezes_S1x1x128_S1x128).view.set]{fullShare} f)
      ∗ (((sbuf.slice (Rect.unit (s := S128x1x128) ![68, 0, 0] S1x1x128.size inb_S128x1x128_S1x1x128_68_0_0) (fun _ => rfl)).squeeze S1x128 squeezes_S1x1x128_S1x128).view.loc (c : Thread nD τ) ↦[((sbuf.slice (Rect.unit (s := S128x1x128) ![68, 0, 0] S1x1x128.size inb_S128x1x128_S1x1x128_68_0_0) (fun _ => rfl)).squeeze S1x128 squeezes_S1x1x128_S1x128).view.set]{fullShare} f)
      ∗ (((sbuf.slice (Rect.unit (s := S128x1x128) ![69, 0, 0] S1x1x128.size inb_S128x1x128_S1x1x128_69_0_0) (fun _ => rfl)).squeeze S1x128 squeezes_S1x1x128_S1x128).view.loc (c : Thread nD τ) ↦[((sbuf.slice (Rect.unit (s := S128x1x128) ![69, 0, 0] S1x1x128.size inb_S128x1x128_S1x1x128_69_0_0) (fun _ => rfl)).squeeze S1x128 squeezes_S1x1x128_S1x128).view.set]{fullShare} f)
      ∗ (((sbuf.slice (Rect.unit (s := S128x1x128) ![70, 0, 0] S1x1x128.size inb_S128x1x128_S1x1x128_70_0_0) (fun _ => rfl)).squeeze S1x128 squeezes_S1x1x128_S1x128).view.loc (c : Thread nD τ) ↦[((sbuf.slice (Rect.unit (s := S128x1x128) ![70, 0, 0] S1x1x128.size inb_S128x1x128_S1x1x128_70_0_0) (fun _ => rfl)).squeeze S1x128 squeezes_S1x1x128_S1x128).view.set]{fullShare} f)
      ∗ (((sbuf.slice (Rect.unit (s := S128x1x128) ![71, 0, 0] S1x1x128.size inb_S128x1x128_S1x1x128_71_0_0) (fun _ => rfl)).squeeze S1x128 squeezes_S1x1x128_S1x128).view.loc (c : Thread nD τ) ↦[((sbuf.slice (Rect.unit (s := S128x1x128) ![71, 0, 0] S1x1x128.size inb_S128x1x128_S1x1x128_71_0_0) (fun _ => rfl)).squeeze S1x128 squeezes_S1x1x128_S1x128).view.set]{fullShare} f)
      ∗ (((sbuf.slice (Rect.unit (s := S128x1x128) ![72, 0, 0] S1x1x128.size inb_S128x1x128_S1x1x128_72_0_0) (fun _ => rfl)).squeeze S1x128 squeezes_S1x1x128_S1x128).view.loc (c : Thread nD τ) ↦[((sbuf.slice (Rect.unit (s := S128x1x128) ![72, 0, 0] S1x1x128.size inb_S128x1x128_S1x1x128_72_0_0) (fun _ => rfl)).squeeze S1x128 squeezes_S1x1x128_S1x128).view.set]{fullShare} f)
      ∗ (((sbuf.slice (Rect.unit (s := S128x1x128) ![73, 0, 0] S1x1x128.size inb_S128x1x128_S1x1x128_73_0_0) (fun _ => rfl)).squeeze S1x128 squeezes_S1x1x128_S1x128).view.loc (c : Thread nD τ) ↦[((sbuf.slice (Rect.unit (s := S128x1x128) ![73, 0, 0] S1x1x128.size inb_S128x1x128_S1x1x128_73_0_0) (fun _ => rfl)).squeeze S1x128 squeezes_S1x1x128_S1x128).view.set]{fullShare} f)
      ∗ (((sbuf.slice (Rect.unit (s := S128x1x128) ![74, 0, 0] S1x1x128.size inb_S128x1x128_S1x1x128_74_0_0) (fun _ => rfl)).squeeze S1x128 squeezes_S1x1x128_S1x128).view.loc (c : Thread nD τ) ↦[((sbuf.slice (Rect.unit (s := S128x1x128) ![74, 0, 0] S1x1x128.size inb_S128x1x128_S1x1x128_74_0_0) (fun _ => rfl)).squeeze S1x128 squeezes_S1x1x128_S1x128).view.set]{fullShare} f)
      ∗ (((sbuf.slice (Rect.unit (s := S128x1x128) ![75, 0, 0] S1x1x128.size inb_S128x1x128_S1x1x128_75_0_0) (fun _ => rfl)).squeeze S1x128 squeezes_S1x1x128_S1x128).view.loc (c : Thread nD τ) ↦[((sbuf.slice (Rect.unit (s := S128x1x128) ![75, 0, 0] S1x1x128.size inb_S128x1x128_S1x1x128_75_0_0) (fun _ => rfl)).squeeze S1x128 squeezes_S1x1x128_S1x128).view.set]{fullShare} f)
      ∗ (((sbuf.slice (Rect.unit (s := S128x1x128) ![76, 0, 0] S1x1x128.size inb_S128x1x128_S1x1x128_76_0_0) (fun _ => rfl)).squeeze S1x128 squeezes_S1x1x128_S1x128).view.loc (c : Thread nD τ) ↦[((sbuf.slice (Rect.unit (s := S128x1x128) ![76, 0, 0] S1x1x128.size inb_S128x1x128_S1x1x128_76_0_0) (fun _ => rfl)).squeeze S1x128 squeezes_S1x1x128_S1x128).view.set]{fullShare} f)
      ∗ (((sbuf.slice (Rect.unit (s := S128x1x128) ![77, 0, 0] S1x1x128.size inb_S128x1x128_S1x1x128_77_0_0) (fun _ => rfl)).squeeze S1x128 squeezes_S1x1x128_S1x128).view.loc (c : Thread nD τ) ↦[((sbuf.slice (Rect.unit (s := S128x1x128) ![77, 0, 0] S1x1x128.size inb_S128x1x128_S1x1x128_77_0_0) (fun _ => rfl)).squeeze S1x128 squeezes_S1x1x128_S1x128).view.set]{fullShare} f)
      ∗ (((sbuf.slice (Rect.unit (s := S128x1x128) ![78, 0, 0] S1x1x128.size inb_S128x1x128_S1x1x128_78_0_0) (fun _ => rfl)).squeeze S1x128 squeezes_S1x1x128_S1x128).view.loc (c : Thread nD τ) ↦[((sbuf.slice (Rect.unit (s := S128x1x128) ![78, 0, 0] S1x1x128.size inb_S128x1x128_S1x1x128_78_0_0) (fun _ => rfl)).squeeze S1x128 squeezes_S1x1x128_S1x128).view.set]{fullShare} f)
      ∗ (((sbuf.slice (Rect.unit (s := S128x1x128) ![79, 0, 0] S1x1x128.size inb_S128x1x128_S1x1x128_79_0_0) (fun _ => rfl)).squeeze S1x128 squeezes_S1x1x128_S1x128).view.loc (c : Thread nD τ) ↦[((sbuf.slice (Rect.unit (s := S128x1x128) ![79, 0, 0] S1x1x128.size inb_S128x1x128_S1x1x128_79_0_0) (fun _ => rfl)).squeeze S1x128 squeezes_S1x1x128_S1x128).view.set]{fullShare} f)
      ∗ (((sbuf.slice (Rect.unit (s := S128x1x128) ![80, 0, 0] S1x1x128.size inb_S128x1x128_S1x1x128_80_0_0) (fun _ => rfl)).squeeze S1x128 squeezes_S1x1x128_S1x128).view.loc (c : Thread nD τ) ↦[((sbuf.slice (Rect.unit (s := S128x1x128) ![80, 0, 0] S1x1x128.size inb_S128x1x128_S1x1x128_80_0_0) (fun _ => rfl)).squeeze S1x128 squeezes_S1x1x128_S1x128).view.set]{fullShare} f)
      ∗ (((sbuf.slice (Rect.unit (s := S128x1x128) ![81, 0, 0] S1x1x128.size inb_S128x1x128_S1x1x128_81_0_0) (fun _ => rfl)).squeeze S1x128 squeezes_S1x1x128_S1x128).view.loc (c : Thread nD τ) ↦[((sbuf.slice (Rect.unit (s := S128x1x128) ![81, 0, 0] S1x1x128.size inb_S128x1x128_S1x1x128_81_0_0) (fun _ => rfl)).squeeze S1x128 squeezes_S1x1x128_S1x128).view.set]{fullShare} f)
      ∗ (((sbuf.slice (Rect.unit (s := S128x1x128) ![82, 0, 0] S1x1x128.size inb_S128x1x128_S1x1x128_82_0_0) (fun _ => rfl)).squeeze S1x128 squeezes_S1x1x128_S1x128).view.loc (c : Thread nD τ) ↦[((sbuf.slice (Rect.unit (s := S128x1x128) ![82, 0, 0] S1x1x128.size inb_S128x1x128_S1x1x128_82_0_0) (fun _ => rfl)).squeeze S1x128 squeezes_S1x1x128_S1x128).view.set]{fullShare} f)
      ∗ (((sbuf.slice (Rect.unit (s := S128x1x128) ![83, 0, 0] S1x1x128.size inb_S128x1x128_S1x1x128_83_0_0) (fun _ => rfl)).squeeze S1x128 squeezes_S1x1x128_S1x128).view.loc (c : Thread nD τ) ↦[((sbuf.slice (Rect.unit (s := S128x1x128) ![83, 0, 0] S1x1x128.size inb_S128x1x128_S1x1x128_83_0_0) (fun _ => rfl)).squeeze S1x128 squeezes_S1x1x128_S1x128).view.set]{fullShare} f)
      ∗ (((sbuf.slice (Rect.unit (s := S128x1x128) ![84, 0, 0] S1x1x128.size inb_S128x1x128_S1x1x128_84_0_0) (fun _ => rfl)).squeeze S1x128 squeezes_S1x1x128_S1x128).view.loc (c : Thread nD τ) ↦[((sbuf.slice (Rect.unit (s := S128x1x128) ![84, 0, 0] S1x1x128.size inb_S128x1x128_S1x1x128_84_0_0) (fun _ => rfl)).squeeze S1x128 squeezes_S1x1x128_S1x128).view.set]{fullShare} f)
      ∗ (((sbuf.slice (Rect.unit (s := S128x1x128) ![85, 0, 0] S1x1x128.size inb_S128x1x128_S1x1x128_85_0_0) (fun _ => rfl)).squeeze S1x128 squeezes_S1x1x128_S1x128).view.loc (c : Thread nD τ) ↦[((sbuf.slice (Rect.unit (s := S128x1x128) ![85, 0, 0] S1x1x128.size inb_S128x1x128_S1x1x128_85_0_0) (fun _ => rfl)).squeeze S1x128 squeezes_S1x1x128_S1x128).view.set]{fullShare} f)
      ∗ (((sbuf.slice (Rect.unit (s := S128x1x128) ![86, 0, 0] S1x1x128.size inb_S128x1x128_S1x1x128_86_0_0) (fun _ => rfl)).squeeze S1x128 squeezes_S1x1x128_S1x128).view.loc (c : Thread nD τ) ↦[((sbuf.slice (Rect.unit (s := S128x1x128) ![86, 0, 0] S1x1x128.size inb_S128x1x128_S1x1x128_86_0_0) (fun _ => rfl)).squeeze S1x128 squeezes_S1x1x128_S1x128).view.set]{fullShare} f)
      ∗ (((sbuf.slice (Rect.unit (s := S128x1x128) ![87, 0, 0] S1x1x128.size inb_S128x1x128_S1x1x128_87_0_0) (fun _ => rfl)).squeeze S1x128 squeezes_S1x1x128_S1x128).view.loc (c : Thread nD τ) ↦[((sbuf.slice (Rect.unit (s := S128x1x128) ![87, 0, 0] S1x1x128.size inb_S128x1x128_S1x1x128_87_0_0) (fun _ => rfl)).squeeze S1x128 squeezes_S1x1x128_S1x128).view.set]{fullShare} f)
      ∗ (((sbuf.slice (Rect.unit (s := S128x1x128) ![88, 0, 0] S1x1x128.size inb_S128x1x128_S1x1x128_88_0_0) (fun _ => rfl)).squeeze S1x128 squeezes_S1x1x128_S1x128).view.loc (c : Thread nD τ) ↦[((sbuf.slice (Rect.unit (s := S128x1x128) ![88, 0, 0] S1x1x128.size inb_S128x1x128_S1x1x128_88_0_0) (fun _ => rfl)).squeeze S1x128 squeezes_S1x1x128_S1x128).view.set]{fullShare} f)
      ∗ (((sbuf.slice (Rect.unit (s := S128x1x128) ![89, 0, 0] S1x1x128.size inb_S128x1x128_S1x1x128_89_0_0) (fun _ => rfl)).squeeze S1x128 squeezes_S1x1x128_S1x128).view.loc (c : Thread nD τ) ↦[((sbuf.slice (Rect.unit (s := S128x1x128) ![89, 0, 0] S1x1x128.size inb_S128x1x128_S1x1x128_89_0_0) (fun _ => rfl)).squeeze S1x128 squeezes_S1x1x128_S1x128).view.set]{fullShare} f)
      ∗ (((sbuf.slice (Rect.unit (s := S128x1x128) ![90, 0, 0] S1x1x128.size inb_S128x1x128_S1x1x128_90_0_0) (fun _ => rfl)).squeeze S1x128 squeezes_S1x1x128_S1x128).view.loc (c : Thread nD τ) ↦[((sbuf.slice (Rect.unit (s := S128x1x128) ![90, 0, 0] S1x1x128.size inb_S128x1x128_S1x1x128_90_0_0) (fun _ => rfl)).squeeze S1x128 squeezes_S1x1x128_S1x128).view.set]{fullShare} f)
      ∗ (((sbuf.slice (Rect.unit (s := S128x1x128) ![91, 0, 0] S1x1x128.size inb_S128x1x128_S1x1x128_91_0_0) (fun _ => rfl)).squeeze S1x128 squeezes_S1x1x128_S1x128).view.loc (c : Thread nD τ) ↦[((sbuf.slice (Rect.unit (s := S128x1x128) ![91, 0, 0] S1x1x128.size inb_S128x1x128_S1x1x128_91_0_0) (fun _ => rfl)).squeeze S1x128 squeezes_S1x1x128_S1x128).view.set]{fullShare} f)
      ∗ (((sbuf.slice (Rect.unit (s := S128x1x128) ![92, 0, 0] S1x1x128.size inb_S128x1x128_S1x1x128_92_0_0) (fun _ => rfl)).squeeze S1x128 squeezes_S1x1x128_S1x128).view.loc (c : Thread nD τ) ↦[((sbuf.slice (Rect.unit (s := S128x1x128) ![92, 0, 0] S1x1x128.size inb_S128x1x128_S1x1x128_92_0_0) (fun _ => rfl)).squeeze S1x128 squeezes_S1x1x128_S1x128).view.set]{fullShare} f)
      ∗ (((sbuf.slice (Rect.unit (s := S128x1x128) ![93, 0, 0] S1x1x128.size inb_S128x1x128_S1x1x128_93_0_0) (fun _ => rfl)).squeeze S1x128 squeezes_S1x1x128_S1x128).view.loc (c : Thread nD τ) ↦[((sbuf.slice (Rect.unit (s := S128x1x128) ![93, 0, 0] S1x1x128.size inb_S128x1x128_S1x1x128_93_0_0) (fun _ => rfl)).squeeze S1x128 squeezes_S1x1x128_S1x128).view.set]{fullShare} f)
      ∗ (((sbuf.slice (Rect.unit (s := S128x1x128) ![94, 0, 0] S1x1x128.size inb_S128x1x128_S1x1x128_94_0_0) (fun _ => rfl)).squeeze S1x128 squeezes_S1x1x128_S1x128).view.loc (c : Thread nD τ) ↦[((sbuf.slice (Rect.unit (s := S128x1x128) ![94, 0, 0] S1x1x128.size inb_S128x1x128_S1x1x128_94_0_0) (fun _ => rfl)).squeeze S1x128 squeezes_S1x1x128_S1x128).view.set]{fullShare} f)
      ∗ (((sbuf.slice (Rect.unit (s := S128x1x128) ![95, 0, 0] S1x1x128.size inb_S128x1x128_S1x1x128_95_0_0) (fun _ => rfl)).squeeze S1x128 squeezes_S1x1x128_S1x128).view.loc (c : Thread nD τ) ↦[((sbuf.slice (Rect.unit (s := S128x1x128) ![95, 0, 0] S1x1x128.size inb_S128x1x128_S1x1x128_95_0_0) (fun _ => rfl)).squeeze S1x128 squeezes_S1x1x128_S1x128).view.set]{fullShare} f)
      ∗ (((sbuf.slice (Rect.unit (s := S128x1x128) ![96, 0, 0] S1x1x128.size inb_S128x1x128_S1x1x128_96_0_0) (fun _ => rfl)).squeeze S1x128 squeezes_S1x1x128_S1x128).view.loc (c : Thread nD τ) ↦[((sbuf.slice (Rect.unit (s := S128x1x128) ![96, 0, 0] S1x1x128.size inb_S128x1x128_S1x1x128_96_0_0) (fun _ => rfl)).squeeze S1x128 squeezes_S1x1x128_S1x128).view.set]{fullShare} f)
      ∗ (((sbuf.slice (Rect.unit (s := S128x1x128) ![97, 0, 0] S1x1x128.size inb_S128x1x128_S1x1x128_97_0_0) (fun _ => rfl)).squeeze S1x128 squeezes_S1x1x128_S1x128).view.loc (c : Thread nD τ) ↦[((sbuf.slice (Rect.unit (s := S128x1x128) ![97, 0, 0] S1x1x128.size inb_S128x1x128_S1x1x128_97_0_0) (fun _ => rfl)).squeeze S1x128 squeezes_S1x1x128_S1x128).view.set]{fullShare} f)
      ∗ (((sbuf.slice (Rect.unit (s := S128x1x128) ![98, 0, 0] S1x1x128.size inb_S128x1x128_S1x1x128_98_0_0) (fun _ => rfl)).squeeze S1x128 squeezes_S1x1x128_S1x128).view.loc (c : Thread nD τ) ↦[((sbuf.slice (Rect.unit (s := S128x1x128) ![98, 0, 0] S1x1x128.size inb_S128x1x128_S1x1x128_98_0_0) (fun _ => rfl)).squeeze S1x128 squeezes_S1x1x128_S1x128).view.set]{fullShare} f)
      ∗ (((sbuf.slice (Rect.unit (s := S128x1x128) ![99, 0, 0] S1x1x128.size inb_S128x1x128_S1x1x128_99_0_0) (fun _ => rfl)).squeeze S1x128 squeezes_S1x1x128_S1x128).view.loc (c : Thread nD τ) ↦[((sbuf.slice (Rect.unit (s := S128x1x128) ![99, 0, 0] S1x1x128.size inb_S128x1x128_S1x1x128_99_0_0) (fun _ => rfl)).squeeze S1x128 squeezes_S1x1x128_S1x128).view.set]{fullShare} f)
      ∗ (((sbuf.slice (Rect.unit (s := S128x1x128) ![100, 0, 0] S1x1x128.size inb_S128x1x128_S1x1x128_100_0_0) (fun _ => rfl)).squeeze S1x128 squeezes_S1x1x128_S1x128).view.loc (c : Thread nD τ) ↦[((sbuf.slice (Rect.unit (s := S128x1x128) ![100, 0, 0] S1x1x128.size inb_S128x1x128_S1x1x128_100_0_0) (fun _ => rfl)).squeeze S1x128 squeezes_S1x1x128_S1x128).view.set]{fullShare} f)
      ∗ (((sbuf.slice (Rect.unit (s := S128x1x128) ![101, 0, 0] S1x1x128.size inb_S128x1x128_S1x1x128_101_0_0) (fun _ => rfl)).squeeze S1x128 squeezes_S1x1x128_S1x128).view.loc (c : Thread nD τ) ↦[((sbuf.slice (Rect.unit (s := S128x1x128) ![101, 0, 0] S1x1x128.size inb_S128x1x128_S1x1x128_101_0_0) (fun _ => rfl)).squeeze S1x128 squeezes_S1x1x128_S1x128).view.set]{fullShare} f)
      ∗ (((sbuf.slice (Rect.unit (s := S128x1x128) ![102, 0, 0] S1x1x128.size inb_S128x1x128_S1x1x128_102_0_0) (fun _ => rfl)).squeeze S1x128 squeezes_S1x1x128_S1x128).view.loc (c : Thread nD τ) ↦[((sbuf.slice (Rect.unit (s := S128x1x128) ![102, 0, 0] S1x1x128.size inb_S128x1x128_S1x1x128_102_0_0) (fun _ => rfl)).squeeze S1x128 squeezes_S1x1x128_S1x128).view.set]{fullShare} f)
      ∗ (((sbuf.slice (Rect.unit (s := S128x1x128) ![103, 0, 0] S1x1x128.size inb_S128x1x128_S1x1x128_103_0_0) (fun _ => rfl)).squeeze S1x128 squeezes_S1x1x128_S1x128).view.loc (c : Thread nD τ) ↦[((sbuf.slice (Rect.unit (s := S128x1x128) ![103, 0, 0] S1x1x128.size inb_S128x1x128_S1x1x128_103_0_0) (fun _ => rfl)).squeeze S1x128 squeezes_S1x1x128_S1x128).view.set]{fullShare} f)
      ∗ (((sbuf.slice (Rect.unit (s := S128x1x128) ![104, 0, 0] S1x1x128.size inb_S128x1x128_S1x1x128_104_0_0) (fun _ => rfl)).squeeze S1x128 squeezes_S1x1x128_S1x128).view.loc (c : Thread nD τ) ↦[((sbuf.slice (Rect.unit (s := S128x1x128) ![104, 0, 0] S1x1x128.size inb_S128x1x128_S1x1x128_104_0_0) (fun _ => rfl)).squeeze S1x128 squeezes_S1x1x128_S1x128).view.set]{fullShare} f)
      ∗ (((sbuf.slice (Rect.unit (s := S128x1x128) ![105, 0, 0] S1x1x128.size inb_S128x1x128_S1x1x128_105_0_0) (fun _ => rfl)).squeeze S1x128 squeezes_S1x1x128_S1x128).view.loc (c : Thread nD τ) ↦[((sbuf.slice (Rect.unit (s := S128x1x128) ![105, 0, 0] S1x1x128.size inb_S128x1x128_S1x1x128_105_0_0) (fun _ => rfl)).squeeze S1x128 squeezes_S1x1x128_S1x128).view.set]{fullShare} f)
      ∗ (((sbuf.slice (Rect.unit (s := S128x1x128) ![106, 0, 0] S1x1x128.size inb_S128x1x128_S1x1x128_106_0_0) (fun _ => rfl)).squeeze S1x128 squeezes_S1x1x128_S1x128).view.loc (c : Thread nD τ) ↦[((sbuf.slice (Rect.unit (s := S128x1x128) ![106, 0, 0] S1x1x128.size inb_S128x1x128_S1x1x128_106_0_0) (fun _ => rfl)).squeeze S1x128 squeezes_S1x1x128_S1x128).view.set]{fullShare} f)
      ∗ (((sbuf.slice (Rect.unit (s := S128x1x128) ![107, 0, 0] S1x1x128.size inb_S128x1x128_S1x1x128_107_0_0) (fun _ => rfl)).squeeze S1x128 squeezes_S1x1x128_S1x128).view.loc (c : Thread nD τ) ↦[((sbuf.slice (Rect.unit (s := S128x1x128) ![107, 0, 0] S1x1x128.size inb_S128x1x128_S1x1x128_107_0_0) (fun _ => rfl)).squeeze S1x128 squeezes_S1x1x128_S1x128).view.set]{fullShare} f)
      ∗ (((sbuf.slice (Rect.unit (s := S128x1x128) ![108, 0, 0] S1x1x128.size inb_S128x1x128_S1x1x128_108_0_0) (fun _ => rfl)).squeeze S1x128 squeezes_S1x1x128_S1x128).view.loc (c : Thread nD τ) ↦[((sbuf.slice (Rect.unit (s := S128x1x128) ![108, 0, 0] S1x1x128.size inb_S128x1x128_S1x1x128_108_0_0) (fun _ => rfl)).squeeze S1x128 squeezes_S1x1x128_S1x128).view.set]{fullShare} f)
      ∗ (((sbuf.slice (Rect.unit (s := S128x1x128) ![109, 0, 0] S1x1x128.size inb_S128x1x128_S1x1x128_109_0_0) (fun _ => rfl)).squeeze S1x128 squeezes_S1x1x128_S1x128).view.loc (c : Thread nD τ) ↦[((sbuf.slice (Rect.unit (s := S128x1x128) ![109, 0, 0] S1x1x128.size inb_S128x1x128_S1x1x128_109_0_0) (fun _ => rfl)).squeeze S1x128 squeezes_S1x1x128_S1x128).view.set]{fullShare} f)
      ∗ (((sbuf.slice (Rect.unit (s := S128x1x128) ![110, 0, 0] S1x1x128.size inb_S128x1x128_S1x1x128_110_0_0) (fun _ => rfl)).squeeze S1x128 squeezes_S1x1x128_S1x128).view.loc (c : Thread nD τ) ↦[((sbuf.slice (Rect.unit (s := S128x1x128) ![110, 0, 0] S1x1x128.size inb_S128x1x128_S1x1x128_110_0_0) (fun _ => rfl)).squeeze S1x128 squeezes_S1x1x128_S1x128).view.set]{fullShare} f)
      ∗ (((sbuf.slice (Rect.unit (s := S128x1x128) ![111, 0, 0] S1x1x128.size inb_S128x1x128_S1x1x128_111_0_0) (fun _ => rfl)).squeeze S1x128 squeezes_S1x1x128_S1x128).view.loc (c : Thread nD τ) ↦[((sbuf.slice (Rect.unit (s := S128x1x128) ![111, 0, 0] S1x1x128.size inb_S128x1x128_S1x1x128_111_0_0) (fun _ => rfl)).squeeze S1x128 squeezes_S1x1x128_S1x128).view.set]{fullShare} f)
      ∗ (((sbuf.slice (Rect.unit (s := S128x1x128) ![112, 0, 0] S1x1x128.size inb_S128x1x128_S1x1x128_112_0_0) (fun _ => rfl)).squeeze S1x128 squeezes_S1x1x128_S1x128).view.loc (c : Thread nD τ) ↦[((sbuf.slice (Rect.unit (s := S128x1x128) ![112, 0, 0] S1x1x128.size inb_S128x1x128_S1x1x128_112_0_0) (fun _ => rfl)).squeeze S1x128 squeezes_S1x1x128_S1x128).view.set]{fullShare} f)
      ∗ (((sbuf.slice (Rect.unit (s := S128x1x128) ![113, 0, 0] S1x1x128.size inb_S128x1x128_S1x1x128_113_0_0) (fun _ => rfl)).squeeze S1x128 squeezes_S1x1x128_S1x128).view.loc (c : Thread nD τ) ↦[((sbuf.slice (Rect.unit (s := S128x1x128) ![113, 0, 0] S1x1x128.size inb_S128x1x128_S1x1x128_113_0_0) (fun _ => rfl)).squeeze S1x128 squeezes_S1x1x128_S1x128).view.set]{fullShare} f)
      ∗ (((sbuf.slice (Rect.unit (s := S128x1x128) ![114, 0, 0] S1x1x128.size inb_S128x1x128_S1x1x128_114_0_0) (fun _ => rfl)).squeeze S1x128 squeezes_S1x1x128_S1x128).view.loc (c : Thread nD τ) ↦[((sbuf.slice (Rect.unit (s := S128x1x128) ![114, 0, 0] S1x1x128.size inb_S128x1x128_S1x1x128_114_0_0) (fun _ => rfl)).squeeze S1x128 squeezes_S1x1x128_S1x128).view.set]{fullShare} f)
      ∗ (((sbuf.slice (Rect.unit (s := S128x1x128) ![115, 0, 0] S1x1x128.size inb_S128x1x128_S1x1x128_115_0_0) (fun _ => rfl)).squeeze S1x128 squeezes_S1x1x128_S1x128).view.loc (c : Thread nD τ) ↦[((sbuf.slice (Rect.unit (s := S128x1x128) ![115, 0, 0] S1x1x128.size inb_S128x1x128_S1x1x128_115_0_0) (fun _ => rfl)).squeeze S1x128 squeezes_S1x1x128_S1x128).view.set]{fullShare} f)
      ∗ (((sbuf.slice (Rect.unit (s := S128x1x128) ![116, 0, 0] S1x1x128.size inb_S128x1x128_S1x1x128_116_0_0) (fun _ => rfl)).squeeze S1x128 squeezes_S1x1x128_S1x128).view.loc (c : Thread nD τ) ↦[((sbuf.slice (Rect.unit (s := S128x1x128) ![116, 0, 0] S1x1x128.size inb_S128x1x128_S1x1x128_116_0_0) (fun _ => rfl)).squeeze S1x128 squeezes_S1x1x128_S1x128).view.set]{fullShare} f)
      ∗ (((sbuf.slice (Rect.unit (s := S128x1x128) ![117, 0, 0] S1x1x128.size inb_S128x1x128_S1x1x128_117_0_0) (fun _ => rfl)).squeeze S1x128 squeezes_S1x1x128_S1x128).view.loc (c : Thread nD τ) ↦[((sbuf.slice (Rect.unit (s := S128x1x128) ![117, 0, 0] S1x1x128.size inb_S128x1x128_S1x1x128_117_0_0) (fun _ => rfl)).squeeze S1x128 squeezes_S1x1x128_S1x128).view.set]{fullShare} f)
      ∗ (((sbuf.slice (Rect.unit (s := S128x1x128) ![118, 0, 0] S1x1x128.size inb_S128x1x128_S1x1x128_118_0_0) (fun _ => rfl)).squeeze S1x128 squeezes_S1x1x128_S1x128).view.loc (c : Thread nD τ) ↦[((sbuf.slice (Rect.unit (s := S128x1x128) ![118, 0, 0] S1x1x128.size inb_S128x1x128_S1x1x128_118_0_0) (fun _ => rfl)).squeeze S1x128 squeezes_S1x1x128_S1x128).view.set]{fullShare} f)
      ∗ (((sbuf.slice (Rect.unit (s := S128x1x128) ![119, 0, 0] S1x1x128.size inb_S128x1x128_S1x1x128_119_0_0) (fun _ => rfl)).squeeze S1x128 squeezes_S1x1x128_S1x128).view.loc (c : Thread nD τ) ↦[((sbuf.slice (Rect.unit (s := S128x1x128) ![119, 0, 0] S1x1x128.size inb_S128x1x128_S1x1x128_119_0_0) (fun _ => rfl)).squeeze S1x128 squeezes_S1x1x128_S1x128).view.set]{fullShare} f)
      ∗ (((sbuf.slice (Rect.unit (s := S128x1x128) ![120, 0, 0] S1x1x128.size inb_S128x1x128_S1x1x128_120_0_0) (fun _ => rfl)).squeeze S1x128 squeezes_S1x1x128_S1x128).view.loc (c : Thread nD τ) ↦[((sbuf.slice (Rect.unit (s := S128x1x128) ![120, 0, 0] S1x1x128.size inb_S128x1x128_S1x1x128_120_0_0) (fun _ => rfl)).squeeze S1x128 squeezes_S1x1x128_S1x128).view.set]{fullShare} f)
      ∗ (((sbuf.slice (Rect.unit (s := S128x1x128) ![121, 0, 0] S1x1x128.size inb_S128x1x128_S1x1x128_121_0_0) (fun _ => rfl)).squeeze S1x128 squeezes_S1x1x128_S1x128).view.loc (c : Thread nD τ) ↦[((sbuf.slice (Rect.unit (s := S128x1x128) ![121, 0, 0] S1x1x128.size inb_S128x1x128_S1x1x128_121_0_0) (fun _ => rfl)).squeeze S1x128 squeezes_S1x1x128_S1x128).view.set]{fullShare} f)
      ∗ (((sbuf.slice (Rect.unit (s := S128x1x128) ![122, 0, 0] S1x1x128.size inb_S128x1x128_S1x1x128_122_0_0) (fun _ => rfl)).squeeze S1x128 squeezes_S1x1x128_S1x128).view.loc (c : Thread nD τ) ↦[((sbuf.slice (Rect.unit (s := S128x1x128) ![122, 0, 0] S1x1x128.size inb_S128x1x128_S1x1x128_122_0_0) (fun _ => rfl)).squeeze S1x128 squeezes_S1x1x128_S1x128).view.set]{fullShare} f)
      ∗ (((sbuf.slice (Rect.unit (s := S128x1x128) ![123, 0, 0] S1x1x128.size inb_S128x1x128_S1x1x128_123_0_0) (fun _ => rfl)).squeeze S1x128 squeezes_S1x1x128_S1x128).view.loc (c : Thread nD τ) ↦[((sbuf.slice (Rect.unit (s := S128x1x128) ![123, 0, 0] S1x1x128.size inb_S128x1x128_S1x1x128_123_0_0) (fun _ => rfl)).squeeze S1x128 squeezes_S1x1x128_S1x128).view.set]{fullShare} f)
      ∗ (((sbuf.slice (Rect.unit (s := S128x1x128) ![124, 0, 0] S1x1x128.size inb_S128x1x128_S1x1x128_124_0_0) (fun _ => rfl)).squeeze S1x128 squeezes_S1x1x128_S1x128).view.loc (c : Thread nD τ) ↦[((sbuf.slice (Rect.unit (s := S128x1x128) ![124, 0, 0] S1x1x128.size inb_S128x1x128_S1x1x128_124_0_0) (fun _ => rfl)).squeeze S1x128 squeezes_S1x1x128_S1x128).view.set]{fullShare} f)
      ∗ (((sbuf.slice (Rect.unit (s := S128x1x128) ![125, 0, 0] S1x1x128.size inb_S128x1x128_S1x1x128_125_0_0) (fun _ => rfl)).squeeze S1x128 squeezes_S1x1x128_S1x128).view.loc (c : Thread nD τ) ↦[((sbuf.slice (Rect.unit (s := S128x1x128) ![125, 0, 0] S1x1x128.size inb_S128x1x128_S1x1x128_125_0_0) (fun _ => rfl)).squeeze S1x128 squeezes_S1x1x128_S1x128).view.set]{fullShare} f)
      ∗ (((sbuf.slice (Rect.unit (s := S128x1x128) ![126, 0, 0] S1x1x128.size inb_S128x1x128_S1x1x128_126_0_0) (fun _ => rfl)).squeeze S1x128 squeezes_S1x1x128_S1x128).view.loc (c : Thread nD τ) ↦[((sbuf.slice (Rect.unit (s := S128x1x128) ![126, 0, 0] S1x1x128.size inb_S128x1x128_S1x1x128_126_0_0) (fun _ => rfl)).squeeze S1x128 squeezes_S1x1x128_S1x128).view.set]{fullShare} f)
      ∗ (((sbuf.slice (Rect.unit (s := S128x1x128) ![127, 0, 0] S1x1x128.size inb_S128x1x128_S1x1x128_127_0_0) (fun _ => rfl)).squeeze S1x128 squeezes_S1x1x128_S1x128).view.loc (c : Thread nD τ) ↦[((sbuf.slice (Rect.unit (s := S128x1x128) ![127, 0, 0] S1x1x128.size inb_S128x1x128_S1x1x128_127_0_0) (fun _ => rfl)).squeeze S1x128 squeezes_S1x1x128_S1x128).view.set]{fullShare} f)) := by
  have h := (sbuf_rows_big c f).trans
    (bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List (Fin 128)) (by decide +kernel) (by decide +kernel)
      (fun j : Fin 128 => ((rowS j).view.loc (c : Thread nD τ) ↦[(rowS j).view.set]{fullShare} f : sProp 𝕄)))
  exact ⟨Entails.of_eq h, Entails.of_eq h.symm⟩

/-! ## The table's words, and what the two row buffers hold once every copy has landed -/

/-- A one-word load of the table at offset `n` reads the table's word `n`. -/
theorem tbl_read (c : Dev nD) (xt : BufOf (F := F) c tbM) (off : Fin 1 → ℕ) (n : ℕ) (hn : n < 16384)
    (hoff : off 0 = n) (inb : ∀ a, off a + S1.size a ≤ S16384.size a) (j : S1.Idx) :
    tbM.view.readAt (Elt F) (Rect.unit (s := S16384) off S1.size inb).toLoadRect xt j = (xt : IVec S16384 32) (ix1 ⟨n, hn⟩) := by
  show (xt : IVec S16384 32) ((Rect.unit (s := S16384) off S1.size inb).emb j) = _
  congr 1
  funext a
  refine Fin.ext ?_
  match a with
  | ⟨0, _⟩ =>
    rw [Rect.emb_apply]
    show off 0 + 1 * (j 0).val = n
    have : (j 0).val < 1 := (j 0).isLt
    omega

/-- Every word of a table all of whose loads are in range is in range. -/
theorem xt_lt (c : Dev nD) (xt : BufOf (F := F) c tbM)
    (hr : ∀ (r : LoadRect S16384) (j : r.shape.Idx), ((tbM.view.readAt (Elt F) r xt j : Elt F .i32) : BitVec 32).toNat < 50257)
    (n : Fin 16384) : ((xt : IVec S16384 32) (ix1 n)).toNat < 50257 := by
  have inb : ∀ a, (![n.val] : Fin 1 → ℕ) a + S1.size a ≤ S16384.size a := by
    intro a
    match a with
    | ⟨0, _⟩ => show n.val + 1 ≤ 16384; have := n.isLt; omega
  have h := hr (Rect.unit (s := S16384) ![n.val] S1.size inb).toLoadRect (show S1.Idx from ix1 (0 : Fin 1))
  rw [tbl_read c xt ![n.val] n.val n.isLt rfl inb] at h
  exact h

/-- The table's word for slot `r` of grid point `i`: word `i·128 + r`. -/
def word (c : Dev nD) (xt : BufOf (F := F) c tbM) (i : grid0.Coords) (r : Fin 128) : BitVec 32 :=
  (xt : IVec S16384 32) (ix1 ⟨(i 0).val * 128 + r.val, by
    have h0 : (i 0).val < 128 := (i 0).isLt
    have := r.isLt
    omega⟩)

theorem word_lt (c : Dev nD) (xt : BufOf (F := F) c tbM)
    (hr : ∀ (r : LoadRect S16384) (j : r.shape.Idx), ((tbM.view.readAt (Elt F) r xt j : Elt F .i32) : BitVec 32).toNat < 50257)
    (i : grid0.Coords) (r : Fin 128) : (word c xt i r).toNat < 50257 := xt_lt c xt hr _

/-- The word index the kernel computes for slot `j` of point `i0`: `i0·128 + j`, without wrap-around. -/
theorem word_idx (i0 j : ℕ) (h0 : i0 < 128) (hj : j < 128) :
    (Scalar.indexCast (Scalar.addi (Scalar.muli (BitVec.ofNat 32 i0) 128#32) (BitVec.ofNat 32 j))).toNat = i0 * 128 + j := by
  show ((BitVec.ofNat 32 i0 * 128#32) + BitVec.ofNat 32 j).toNat = _
  rw [BitVec.toNat_add, BitVec.toNat_mul, BitVec.toNat_ofNat, BitVec.toNat_ofNat]
  show ((i0 % 2 ^ 32) * 128 % 2 ^ 32 + j % 2 ^ 32) % 2 ^ 32 = _
  omega

/-- A one-word load of the table at the offset the kernel computes for slot `r` is `word … r`. -/
theorem word_read (c : Dev nD) (xt : BufOf (F := F) c tbM) (i : grid0.Coords) (r : Fin 128) (off : Fin 1 → ℕ)
    (hoff : off 0 = (Scalar.indexCast (Scalar.addi (Scalar.muli (BitVec.ofNat 32 (i 0).val) 128#32) (BitVec.ofNat 32 r.val))).toNat)
    (inb : ∀ a, off a + S1.size a ≤ S16384.size a) (j : S1.Idx) :
    tbM.view.readAt (Elt F) (Rect.unit (s := S16384) off S1.size inb).toLoadRect xt j = word c xt i r := by
  have h0 : (i 0).val < 128 := (i 0).isLt
  have hn : (i 0).val * 128 + r.val < 16384 := by have := r.isLt; omega
  exact tbl_read c xt off ((i 0).val * 128 + r.val) hn (hoff.trans (word_idx _ _ h0 r.isLt)) inb j

/-- The weight row buffer once every copy has landed: row `r` is the weight array's row that the word of slot `r` names. -/
def Gw (c : Dev nD) (i : grid0.Coords) (xt : BufOf (F := F) c tbM) (fw : BufOf (F := F) c wM)
    (hr : ∀ (r : LoadRect S16384) (j : r.shape.Idx), ((tbM.view.readAt (Elt F) r xt j : Elt F .i32) : BitVec 32).toNat < 50257) :
    BufOf (F := F) c wbuf :=
  fun x : S128x1x1024.Idx => (fw : FVec F S50257x1x1024 .f32) (ix3 (⟨(word c xt i (x 0)).toNat, word_lt c xt hr i (x 0)⟩ : Fin 50257) (0 : Fin 1) (x 2))

/-- The scale row buffer once every copy has landed. -/
def Gs (c : Dev nD) (i : grid0.Coords) (xt : BufOf (F := F) c tbM) (fs : BufOf (F := F) c sM)
    (hr : ∀ (r : LoadRect S16384) (j : r.shape.Idx), ((tbM.view.readAt (Elt F) r xt j : Elt F .i32) : BitVec 32).toNat < 50257) :
    BufOf (F := F) c sbuf :=
  fun x : S128x1x128.Idx => (fs : FVec F S50257x1x128 .f32) (ix3 (⟨(word c xt i (x 0)).toNat, word_lt c xt hr i (x 0)⟩ : Fin 50257) (0 : Fin 1) (x 2))

theorem Gw_apply (c : Dev nD) (i : grid0.Coords) (xt : BufOf (F := F) c tbM) (fw : BufOf (F := F) c wM) (hr) (r : Fin 128) (d : Fin 1024) :
    (Gw c i xt fw hr : FVec F S128x1x1024 .f32) (ix3 r (0 : Fin 1) d)
      = (fw : FVec F S50257x1x1024 .f32) (ix3 (⟨(word c xt i r).toNat, word_lt c xt hr i r⟩ : Fin 50257) (0 : Fin 1) d) := rfl

theorem Gs_apply (c : Dev nD) (i : grid0.Coords) (xt : BufOf (F := F) c tbM) (fs : BufOf (F := F) c sM) (hr) (r : Fin 128) (d : Fin 128) :
    (Gs c i xt fs hr : FVec F S128x1x128 .f32) (ix3 r (0 : Fin 1) d)
      = (fs : FVec F S50257x1x128 .f32) (ix3 (⟨(word c xt i r).toNat, word_lt c xt hr i r⟩ : Fin 50257) (0 : Fin 1) d) := rfl

/-! ## One weight row restated -/

/-- Row `j` held at contents that agree with `G` on the row is row `j` held at `G`. -/
theorem rowW_congr (c : Dev nD) (j : Fin 128) (X G : BufOf (F := F) c wbuf)
    (h : ∀ d : Fin 1024, (X : FVec F S128x1x1024 .f32) (ix3 j (0 : Fin 1) d) = (G : FVec F S128x1x1024 .f32) (ix3 j (0 : Fin 1) d)) :
    ((rowW j).view.loc (c : Thread nD τ) ↦[(rowW j).view.set]{fullShare} X : sProp 𝕄)
      = ((rowW j).view.loc (c : Thread nD τ) ↦[(rowW j).view.set]{fullShare} G) := by
  refine pointsTo_congr (fun x hx => ?_)
  have hx' : (x : S128x1x1024.Idx) ∈ rowSetW c j := hx
  rw [mem_rowSetW] at hx'
  have e : (x : S128x1x1024.Idx) = ix3 j (0 : Fin 1) ((x : S128x1x1024.Idx) 2) := by
    funext a
    match a with
    | ⟨0, _⟩ => exact Fin.ext hx'
    | ⟨1, h1⟩ =>
      refine Fin.ext ?_
      have hlt : ((x : S128x1x1024.Idx) ⟨1, h1⟩).val < 1 := ((x : S128x1x1024.Idx) ⟨1, h1⟩).isLt
      show ((x : S128x1x1024.Idx) ⟨1, h1⟩).val = 0
      omega
    | ⟨2, _⟩ => rfl
  have hh := h ((x : S128x1x1024.Idx) 2)
  exact (congrArg (fun y => X y) e).trans (hh.trans (congrArg (fun y => G y) e).symm)

/-- What one landed copy leaves in row `j`, at the row's entries: the payload. -/
theorem rowW_writes_apply (c : Dev nD) (j : Fin 128) (fb : BufOf (F := F) c wbuf) (p : S1x1024.Idx → Elt F .f32) (d : Fin 1024) :
    ((rowW j).view.writes (Elt F) fb [⟨Rect.whole S1x1024, p⟩] : FVec F S128x1x1024 .f32) (ix3 j (0 : Fin 1) d) = p (ix2 (0 : Fin 1) d) := by
  show (((rowW j).view.slice (Rect.whole S1x1024)).write (Elt F) fb p Finset.univ : FVec F S128x1x1024 .f32) (ix3 j (0 : Fin 1) d) = _
  have he : ((rowW j).view.slice (Rect.whole S1x1024)).emb (ix2 (0 : Fin 1) d) = (ix3 j (0 : Fin 1) d : S128x1x1024.Idx) := by
    show (rowW j).view.emb ((Rect.whole S1x1024).emb (ix2 (0 : Fin 1) d)) = _
    rw [Rect.emb_whole_apply, rowW_emb]
  rw [← he]
  exact View.write_emb_of_mem _ _ (Finset.mem_univ _)

/-- Row `j` after its copy has landed, restated at the one function of the buffer's index: the payload's entries are
    the weight array's at the row the word of slot `j` names (`hp`). -/
theorem wrow_fix (c : Dev nD) (i : grid0.Coords) (xt : BufOf (F := F) c tbM) (fw : BufOf (F := F) c wM)
    (hr : ∀ (r : LoadRect S16384) (j : r.shape.Idx), ((tbM.view.readAt (Elt F) r xt j : Elt F .i32) : BitVec 32).toNat < 50257)
    (j : Fin 128) (fb : BufOf (F := F) c wbuf) (p : S1x1024.Idx → Elt F .f32)
    (hp : ∀ d : Fin 1024, p (ix2 (0 : Fin 1) d)
      = (fw : FVec F S50257x1x1024 .f32) (ix3 (⟨(word c xt i j).toNat, word_lt c xt hr i j⟩ : Fin 50257) (0 : Fin 1) d)) :
    ((rowW j).view.loc (c : Thread nD τ) ↦[(rowW j).view.set]{fullShare} (rowW j).view.writes (Elt F) fb [⟨Rect.whole S1x1024, p⟩] : sProp 𝕄)
      ⊢ ((rowW j).view.loc (c : Thread nD τ) ↦[(rowW j).view.set]{fullShare} Gw c i xt fw hr) :=
  Entails.of_eq (rowW_congr c j _ _ (fun d => (rowW_writes_apply c j fb p d).trans (hp d)))

/-- The payload of the copy for slot `j`, entry by entry: the source is the one-row slice of the weight array at the
    row the slot's word names. (`w` is the word as the run names it; `hw` identifies it.) -/
theorem wpay_fact (c : Dev nD) (i : grid0.Coords) (xt : BufOf (F := F) c tbM) (fw : BufOf (F := F) c wM)
    (hr : ∀ (r : LoadRect S16384) (j : r.shape.Idx), ((tbM.view.readAt (Elt F) r xt j : Elt F .i32) : BitVec 32).toNat < 50257)
    (j : Fin 128) (w : BitVec 32) (hw : w = word c xt i j)
    (inb : ∀ a, (![w.toNat, 0, 0] : Fin 3 → ℕ) a + S1x1x1024.size a ≤ S50257x1x1024.size a) (hst) (hsq) (d : Fin 1024) :
    ReadAs.same.apply (((wM.slice (Rect.unit ![w.toNat, 0, 0] S1x1x1024.size inb) hst).squeeze S1x1024 hsq).view.read (Elt F) fw) (ix2 (0 : Fin 1) d)
      = (fw : FVec F S50257x1x1024 .f32) (ix3 (⟨(word c xt i j).toNat, word_lt c xt hr i j⟩ : Fin 50257) (0 : Fin 1) d) := by
  subst hw
  have hc : (Rect.unit (s := S50257x1x1024) ![(word c xt i j).toNat, 0, 0] S1x1x1024.size inb).shape.ShapeCasts S1x1024 :=
    (by decide : S1x1x1024.ShapeCasts S1x1024)
  show ((wM.slice (Rect.unit ![(word c xt i j).toNat, 0, 0] S1x1x1024.size inb) hst).squeeze S1x1024 hsq).view.read (Elt F) fw (ix2 (0 : Fin 1) d) = _
  rw [Memref.read_squeeze_slice wM _ hst hsq hc fw]
  rw [shapeCast_apply _ hc (ix2 (0 : Fin 1) d) (ix3 (0 : Fin 1) (0 : Fin 1) d) (by
    rw [Shape.rowMajor_val_three, Shape.rowMajor_val_two]; rfl)]
  show (fw : FVec F S50257x1x1024 .f32) ((Rect.unit (s := S50257x1x1024) ![(word c xt i j).toNat, 0, 0] S1x1x1024.size inb).emb (ix3 (0 : Fin 1) (0 : Fin 1) d)) = _
  congr 1
  funext a
  refine Fin.ext ?_
  match a with
  | ⟨0, _⟩ => rw [Rect.emb_apply]; show (word c xt i j).toNat + 1 * 0 = (word c xt i j).toNat; omega
  | ⟨1, _⟩ => rw [Rect.emb_apply]; show 0 + 1 * 0 = 0; omega
  | ⟨2, _⟩ => rw [Rect.emb_apply]; show 0 + 1 * d.val = d.val; omega

/-- `wrow_fix` with the row given by its number and the memref's proofs left free, so that it applies to the
    row as the body spells it. -/
theorem wrow_fix_nat (c : Dev nD) (i : grid0.Coords) (xt : BufOf (F := F) c tbM) (fw : BufOf (F := F) c wM)
    (hr : ∀ (r : LoadRect S16384) (j : r.shape.Idx), ((tbM.view.readAt (Elt F) r xt j : Elt F .i32) : BitVec 32).toNat < 50257)
    (j : ℕ) (hj : j < 128) (inb : ∀ a, (![j, 0, 0] : Fin 3 → ℕ) a + S1x1x1024.size a ≤ S128x1x1024.size a)
    (hst : ∀ a, (Rect.unit (s := S128x1x1024) ![j, 0, 0] S1x1x1024.size inb).stride a = 1)
    (hsq : (Rect.unit (s := S128x1x1024) ![j, 0, 0] S1x1x1024.size inb).shape.Squeezes S1x1024)
    (fb : BufOf (F := F) c wbuf) (p : S1x1024.Idx → Elt F .f32)
    (hp : ∀ d : Fin 1024, p (ix2 (0 : Fin 1) d)
      = (fw : FVec F S50257x1x1024 .f32) (ix3 (⟨(word c xt i ⟨j, hj⟩).toNat, word_lt c xt hr i ⟨j, hj⟩⟩ : Fin 50257) (0 : Fin 1) d)) :
    (((wbuf.slice (Rect.unit (s := S128x1x1024) ![j, 0, 0] S1x1x1024.size inb) hst).squeeze S1x1024 hsq).view.loc (c : Thread nD τ)
        ↦[((wbuf.slice (Rect.unit (s := S128x1x1024) ![j, 0, 0] S1x1x1024.size inb) hst).squeeze S1x1024 hsq).view.set]{fullShare}
        ((wbuf.slice (Rect.unit (s := S128x1x1024) ![j, 0, 0] S1x1x1024.size inb) hst).squeeze S1x1024 hsq).view.writes (Elt F) fb [⟨Rect.whole S1x1024, p⟩] : sProp 𝕄)
      ⊢ (((wbuf.slice (Rect.unit (s := S128x1x1024) ![j, 0, 0] S1x1x1024.size inb) hst).squeeze S1x1024 hsq).view.loc (c : Thread nD τ)
        ↦[((wbuf.slice (Rect.unit (s := S128x1x1024) ![j, 0, 0] S1x1x1024.size inb) hst).squeeze S1x1024 hsq).view.set]{fullShare} Gw c i xt fw hr) :=
  wrow_fix c i xt fw hr ⟨j, hj⟩ fb p hp

/-! ## One scale row restated -/

/-- Row `j` held at contents that agree with `G` on the row is row `j` held at `G`. -/
theorem rowS_congr (c : Dev nD) (j : Fin 128) (X G : BufOf (F := F) c sbuf)
    (h : ∀ d : Fin 128, (X : FVec F S128x1x128 .f32) (ix3 j (0 : Fin 1) d) = (G : FVec F S128x1x128 .f32) (ix3 j (0 : Fin 1) d)) :
    ((rowS j).view.loc (c : Thread nD τ) ↦[(rowS j).view.set]{fullShare} X : sProp 𝕄)
      = ((rowS j).view.loc (c : Thread nD τ) ↦[(rowS j).view.set]{fullShare} G) := by
  refine pointsTo_congr (fun x hx => ?_)
  have hx' : (x : S128x1x128.Idx) ∈ rowSetS c j := hx
  rw [mem_rowSetS] at hx'
  have e : (x : S128x1x128.Idx) = ix3 j (0 : Fin 1) ((x : S128x1x128.Idx) 2) := by
    funext a
    match a with
    | ⟨0, _⟩ => exact Fin.ext hx'
    | ⟨1, h1⟩ =>
      refine Fin.ext ?_
      have hlt : ((x : S128x1x128.Idx) ⟨1, h1⟩).val < 1 := ((x : S128x1x128.Idx) ⟨1, h1⟩).isLt
      show ((x : S128x1x128.Idx) ⟨1, h1⟩).val = 0
      omega
    | ⟨2, _⟩ => rfl
  have hh := h ((x : S128x1x128.Idx) 2)
  exact (congrArg (fun y => X y) e).trans (hh.trans (congrArg (fun y => G y) e).symm)

/-- What one landed copy leaves in row `j`, at the row's entries: the payload. -/
theorem rowS_writes_apply (c : Dev nD) (j : Fin 128) (fb : BufOf (F := F) c sbuf) (p : S1x128.Idx → Elt F .f32) (d : Fin 128) :
    ((rowS j).view.writes (Elt F) fb [⟨Rect.whole S1x128, p⟩] : FVec F S128x1x128 .f32) (ix3 j (0 : Fin 1) d) = p (ix2 (0 : Fin 1) d) := by
  show (((rowS j).view.slice (Rect.whole S1x128)).write (Elt F) fb p Finset.univ : FVec F S128x1x128 .f32) (ix3 j (0 : Fin 1) d) = _
  have he : ((rowS j).view.slice (Rect.whole S1x128)).emb (ix2 (0 : Fin 1) d) = (ix3 j (0 : Fin 1) d : S128x1x128.Idx) := by
    show (rowS j).view.emb ((Rect.whole S1x128).emb (ix2 (0 : Fin 1) d)) = _
    rw [Rect.emb_whole_apply, rowS_emb]
  rw [← he]
  exact View.write_emb_of_mem _ _ (Finset.mem_univ _)

/-- Row `j` after its copy has landed, restated at the one function of the buffer's index: the payload's entries are
    the padded scale array's at the row the word of slot `j` names (`hp`). -/
theorem srow_fix (c : Dev nD) (i : grid0.Coords) (xt : BufOf (F := F) c tbM) (fs : BufOf (F := F) c sM)
    (hr : ∀ (r : LoadRect S16384) (j : r.shape.Idx), ((tbM.view.readAt (Elt F) r xt j : Elt F .i32) : BitVec 32).toNat < 50257)
    (j : Fin 128) (fb : BufOf (F := F) c sbuf) (p : S1x128.Idx → Elt F .f32)
    (hp : ∀ d : Fin 128, p (ix2 (0 : Fin 1) d)
      = (fs : FVec F S50257x1x128 .f32) (ix3 (⟨(word c xt i j).toNat, word_lt c xt hr i j⟩ : Fin 50257) (0 : Fin 1) d)) :
    ((rowS j).view.loc (c : Thread nD τ) ↦[(rowS j).view.set]{fullShare} (rowS j).view.writes (Elt F) fb [⟨Rect.whole S1x128, p⟩] : sProp 𝕄)
      ⊢ ((rowS j).view.loc (c : Thread nD τ) ↦[(rowS j).view.set]{fullShare} Gs c i xt fs hr) :=
  Entails.of_eq (rowS_congr c j _ _ (fun d => (rowS_writes_apply c j fb p d).trans (hp d)))

/-- The payload of the copy for slot `j`, entry by entry: the source is the one-row slice of the padded scale array at the
    row the slot's word names. (`w` is the word as the run names it; `hw` identifies it.) -/
theorem spay_fact (c : Dev nD) (i : grid0.Coords) (xt : BufOf (F := F) c tbM) (fs : BufOf (F := F) c sM)
    (hr : ∀ (r : LoadRect S16384) (j : r.shape.Idx), ((tbM.view.readAt (Elt F) r xt j : Elt F .i32) : BitVec 32).toNat < 50257)
    (j : Fin 128) (w : BitVec 32) (hw : w = word c xt i j)
    (inb : ∀ a, (![w.toNat, 0, 0] : Fin 3 → ℕ) a + S1x1x128.size a ≤ S50257x1x128.size a) (hst) (hsq) (d : Fin 128) :
    ReadAs.same.apply (((sM.slice (Rect.unit ![w.toNat, 0, 0] S1x1x128.size inb) hst).squeeze S1x128 hsq).view.read (Elt F) fs) (ix2 (0 : Fin 1) d)
      = (fs : FVec F S50257x1x128 .f32) (ix3 (⟨(word c xt i j).toNat, word_lt c xt hr i j⟩ : Fin 50257) (0 : Fin 1) d) := by
  subst hw
  have hc : (Rect.unit (s := S50257x1x128) ![(word c xt i j).toNat, 0, 0] S1x1x128.size inb).shape.ShapeCasts S1x128 :=
    (by decide : S1x1x128.ShapeCasts S1x128)
  show ((sM.slice (Rect.unit ![(word c xt i j).toNat, 0, 0] S1x1x128.size inb) hst).squeeze S1x128 hsq).view.read (Elt F) fs (ix2 (0 : Fin 1) d) = _
  rw [Memref.read_squeeze_slice sM _ hst hsq hc fs]
  rw [shapeCast_apply _ hc (ix2 (0 : Fin 1) d) (ix3 (0 : Fin 1) (0 : Fin 1) d) (by
    rw [Shape.rowMajor_val_three, Shape.rowMajor_val_two]; rfl)]
  show (fs : FVec F S50257x1x128 .f32) ((Rect.unit (s := S50257x1x128) ![(word c xt i j).toNat, 0, 0] S1x1x128.size inb).emb (ix3 (0 : Fin 1) (0 : Fin 1) d)) = _
  congr 1
  funext a
  refine Fin.ext ?_
  match a with
  | ⟨0, _⟩ => rw [Rect.emb_apply]; show (word c xt i j).toNat + 1 * 0 = (word c xt i j).toNat; omega
  | ⟨1, _⟩ => rw [Rect.emb_apply]; show 0 + 1 * 0 = 0; omega
  | ⟨2, _⟩ => rw [Rect.emb_apply]; show 0 + 1 * d.val = d.val; omega

/-- `srow_fix` with the row given by its number and the memref's proofs left free, so that it applies to the
    row as the body spells it. -/
theorem srow_fix_nat (c : Dev nD) (i : grid0.Coords) (xt : BufOf (F := F) c tbM) (fs : BufOf (F := F) c sM)
    (hr : ∀ (r : LoadRect S16384) (j : r.shape.Idx), ((tbM.view.readAt (Elt F) r xt j : Elt F .i32) : BitVec 32).toNat < 50257)
    (j : ℕ) (hj : j < 128) (inb : ∀ a, (![j, 0, 0] : Fin 3 → ℕ) a + S1x1x128.size a ≤ S128x1x128.size a)
    (hst : ∀ a, (Rect.unit (s := S128x1x128) ![j, 0, 0] S1x1x128.size inb).stride a = 1)
    (hsq : (Rect.unit (s := S128x1x128) ![j, 0, 0] S1x1x128.size inb).shape.Squeezes S1x128)
    (fb : BufOf (F := F) c sbuf) (p : S1x128.Idx → Elt F .f32)
    (hp : ∀ d : Fin 128, p (ix2 (0 : Fin 1) d)
      = (fs : FVec F S50257x1x128 .f32) (ix3 (⟨(word c xt i ⟨j, hj⟩).toNat, word_lt c xt hr i ⟨j, hj⟩⟩ : Fin 50257) (0 : Fin 1) d)) :
    (((sbuf.slice (Rect.unit (s := S128x1x128) ![j, 0, 0] S1x1x128.size inb) hst).squeeze S1x128 hsq).view.loc (c : Thread nD τ)
        ↦[((sbuf.slice (Rect.unit (s := S128x1x128) ![j, 0, 0] S1x1x128.size inb) hst).squeeze S1x128 hsq).view.set]{fullShare}
        ((sbuf.slice (Rect.unit (s := S128x1x128) ![j, 0, 0] S1x1x128.size inb) hst).squeeze S1x128 hsq).view.writes (Elt F) fb [⟨Rect.whole S1x128, p⟩] : sProp 𝕄)
      ⊢ (((sbuf.slice (Rect.unit (s := S128x1x128) ![j, 0, 0] S1x1x128.size inb) hst).squeeze S1x128 hsq).view.loc (c : Thread nD τ)
        ↦[((sbuf.slice (Rect.unit (s := S128x1x128) ![j, 0, 0] S1x1x128.size inb) hst).squeeze S1x128 hsq).view.set]{fullShare} Gs c i xt fs hr) :=
  srow_fix c i xt fs hr ⟨j, hj⟩ fb p hp

end Cert.KernelIdeal.Fr

end
-- ==== Proof.IdealRun.lean ====
/-
  The body's run at a grid point.  Each of the two gathered arrays is held as 128 read shares, one for each of the
  128 row copies that read it at once, and each row buffer as its 128 rows, one for each copy that lands in it; the
  copies of a block land on one semaphore per array and are recorded as one batch per semaphore; every copy is waited
  for before anything is read.  After the last wait every row holds the row of the gathered array that the table's
  word for its slot names; the rows join back to the two row buffers at that one function of the index, and the rest
  of the body — the loads, the quantization, the one store — runs on from there.
-/
import proofs.«418394_j61838939127938_3_alg».proof.Proof.IdealRows

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Reading one array by 128 transfers at once -/

/-- Read share number `j` of the full share: what is cut off at the `j`-th halving. -/
def rtok (j : ℕ) : PosShare TreeShare := Transfers.shareTokN fullShare j

/-- A buffer held whole is 128 read shares of it and what remains after 128 halvings; and back. -/
theorem split128 {ℓ : Loc nD τ sig} (f : Buf (Elt F) ℓ) :
    (ℓ ↦{fullShare} f : sProp 𝕄) ⊣⊢ iprop((ℓ ↦{Transfers.shareDrop fullShare 128} f) ∗ (ℓ ↦{rtok 0} f) ∗ (ℓ ↦{rtok 1} f) ∗ (ℓ ↦{rtok 2} f) ∗ (ℓ ↦{rtok 3} f) ∗ (ℓ ↦{rtok 4} f) ∗ (ℓ ↦{rtok 5} f) ∗ (ℓ ↦{rtok 6} f) ∗ (ℓ ↦{rtok 7} f) ∗ (ℓ ↦{rtok 8} f) ∗ (ℓ ↦{rtok 9} f) ∗ (ℓ ↦{rtok 10} f) ∗ (ℓ ↦{rtok 11} f) ∗ (ℓ ↦{rtok 12} f) ∗ (ℓ ↦{rtok 13} f) ∗ (ℓ ↦{rtok 14} f) ∗ (ℓ ↦{rtok 15} f) ∗ (ℓ ↦{rtok 16} f) ∗ (ℓ ↦{rtok 17} f) ∗ (ℓ ↦{rtok 18} f) ∗ (ℓ ↦{rtok 19} f) ∗ (ℓ ↦{rtok 20} f) ∗ (ℓ ↦{rtok 21} f) ∗ (ℓ ↦{rtok 22} f) ∗ (ℓ ↦{rtok 23} f) ∗ (ℓ ↦{rtok 24} f) ∗ (ℓ ↦{rtok 25} f) ∗ (ℓ ↦{rtok 26} f) ∗ (ℓ ↦{rtok 27} f) ∗ (ℓ ↦{rtok 28} f) ∗ (ℓ ↦{rtok 29} f) ∗ (ℓ ↦{rtok 30} f) ∗ (ℓ ↦{rtok 31} f) ∗ (ℓ ↦{rtok 32} f) ∗ (ℓ ↦{rtok 33} f) ∗ (ℓ ↦{rtok 34} f) ∗ (ℓ ↦{rtok 35} f) ∗ (ℓ ↦{rtok 36} f) ∗ (ℓ ↦{rtok 37} f) ∗ (ℓ ↦{rtok 38} f) ∗ (ℓ ↦{rtok 39} f) ∗ (ℓ ↦{rtok 40} f) ∗ (ℓ ↦{rtok 41} f) ∗ (ℓ ↦{rtok 42} f) ∗ (ℓ ↦{rtok 43} f) ∗ (ℓ ↦{rtok 44} f) ∗ (ℓ ↦{rtok 45} f) ∗ (ℓ ↦{rtok 46} f) ∗ (ℓ ↦{rtok 47} f) ∗ (ℓ ↦{rtok 48} f) ∗ (ℓ ↦{rtok 49} f) ∗ (ℓ ↦{rtok 50} f) ∗ (ℓ ↦{rtok 51} f) ∗ (ℓ ↦{rtok 52} f) ∗ (ℓ ↦{rtok 53} f) ∗ (ℓ ↦{rtok 54} f) ∗ (ℓ ↦{rtok 55} f) ∗ (ℓ ↦{rtok 56} f) ∗ (ℓ ↦{rtok 57} f) ∗ (ℓ ↦{rtok 58} f) ∗ (ℓ ↦{rtok 59} f) ∗ (ℓ ↦{rtok 60} f) ∗ (ℓ ↦{rtok 61} f) ∗ (ℓ ↦{rtok 62} f) ∗ (ℓ ↦{rtok 63} f) ∗ (ℓ ↦{rtok 64} f) ∗ (ℓ ↦{rtok 65} f) ∗ (ℓ ↦{rtok 66} f) ∗ (ℓ ↦{rtok 67} f) ∗ (ℓ ↦{rtok 68} f) ∗ (ℓ ↦{rtok 69} f) ∗ (ℓ ↦{rtok 70} f) ∗ (ℓ ↦{rtok 71} f) ∗ (ℓ ↦{rtok 72} f) ∗ (ℓ ↦{rtok 73} f) ∗ (ℓ ↦{rtok 74} f) ∗ (ℓ ↦{rtok 75} f) ∗ (ℓ ↦{rtok 76} f) ∗ (ℓ ↦{rtok 77} f) ∗ (ℓ ↦{rtok 78} f) ∗ (ℓ ↦{rtok 79} f) ∗ (ℓ ↦{rtok 80} f) ∗ (ℓ ↦{rtok 81} f) ∗ (ℓ ↦{rtok 82} f) ∗ (ℓ ↦{rtok 83} f) ∗ (ℓ ↦{rtok 84} f) ∗ (ℓ ↦{rtok 85} f) ∗ (ℓ ↦{rtok 86} f) ∗ (ℓ ↦{rtok 87} f) ∗ (ℓ ↦{rtok 88} f) ∗ (ℓ ↦{rtok 89} f) ∗ (ℓ ↦{rtok 90} f) ∗ (ℓ ↦{rtok 91} f) ∗ (ℓ ↦{rtok 92} f) ∗ (ℓ ↦{rtok 93} f) ∗ (ℓ ↦{rtok 94} f) ∗ (ℓ ↦{rtok 95} f) ∗ (ℓ ↦{rtok 96} f) ∗ (ℓ ↦{rtok 97} f) ∗ (ℓ ↦{rtok 98} f) ∗ (ℓ ↦{rtok 99} f) ∗ (ℓ ↦{rtok 100} f) ∗ (ℓ ↦{rtok 101} f) ∗ (ℓ ↦{rtok 102} f) ∗ (ℓ ↦{rtok 103} f) ∗ (ℓ ↦{rtok 104} f) ∗ (ℓ ↦{rtok 105} f) ∗ (ℓ ↦{rtok 106} f) ∗ (ℓ ↦{rtok 107} f) ∗ (ℓ ↦{rtok 108} f) ∗ (ℓ ↦{rtok 109} f) ∗ (ℓ ↦{rtok 110} f) ∗ (ℓ ↦{rtok 111} f) ∗ (ℓ ↦{rtok 112} f) ∗ (ℓ ↦{rtok 113} f) ∗ (ℓ ↦{rtok 114} f) ∗ (ℓ ↦{rtok 115} f) ∗ (ℓ ↦{rtok 116} f) ∗ (ℓ ↦{rtok 117} f) ∗ (ℓ ↦{rtok 118} f) ∗ (ℓ ↦{rtok 119} f) ∗ (ℓ ↦{rtok 120} f) ∗ (ℓ ↦{rtok 121} f) ∗ (ℓ ↦{rtok 122} f) ∗ (ℓ ↦{rtok 123} f) ∗ (ℓ ↦{rtok 124} f) ∗ (ℓ ↦{rtok 125} f) ∗ (ℓ ↦{rtok 126} f) ∗ (ℓ ↦{rtok 127} f)) := by
  have h := Transfers.pointsTo_toks_range (Ix := Unit) (Name := ℕ) (U := Pipeline.UD sig nD τ) (Lvl := ℕ) (Val := Elt F) (ℓ := ℓ) (S := Finset.univ) (f := f) fullShare 128
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] (by decide) (by decide)] at h
  exact h

/-- An id in the table's range names a row inside the weight array and inside the padded scale array. -/
theorem inbW (v : BitVec 32) (h : v.toNat < 50257) : ∀ a, (![v.toNat, 0, 0] : Fin 3 → Nat) a + S1x1x1024.size a ≤ S50257x1x1024.size a := by
  intro a; fin_cases a <;> simp [Shape.size] <;> omega
theorem inbS (v : BitVec 32) (h : v.toNat < 50257) : ∀ a, (![v.toNat, 0, 0] : Fin 3 → Nat) a + S1x1x128.size a ≤ S50257x1x128.size a := by
  intro a; fin_cases a <;> simp [Shape.size] <;> omega

set_option maxHeartbeats 0 in
/-- What the body's one store leaves in the output's staging buffer, as a list of pieces, WITH the proof that from the
    staging buffer at anything, the two row buffers at anything, the table's half, the two cells at zero, the two
    gathered arrays whole and the core owing nothing, the body runs to its end holding all of them again — the rows of
    the two arrays named by the table's words copied into the row buffers, every copy waited for before anything is read. -/
noncomputable def kernelRun0 (c : Dev nD) (i : grid0.Coords) (arg4 : Memref sig .tc .vmem S128x1024 .f32) (harg4 : arg4.IsWhole)
    (xt : BufOf (F := F) c tbM) (fw : BufOf (F := F) c wM) (fs : BufOf (F := F) c sM)
    (hr : ∀ (r : LoadRect S16384) (j : r.shape.Idx), (tbM.view.readAt (Elt F) r xt j).toNat < 50257) :
    { L1 : List (View.Piece (Elt F) S128x1024 .f32) //
      ∀ (W : Waits sig Unit) (K : PUnit → sProp 𝕄),
        iprop((∃ d, owns (c : Thread nD τ) arg4 fullShare d) ∗ (∃ f, ptAt c wbuf fullShare f) ∗ (∃ f, ptAt c sbuf fullShare f)
            ∗ ptAt c tbM fullShare.right xt
            ∗ semVal ((c : Thread nD τ), SemLoc.dma 2) 0 ∗ semVal ((c : Thread nD τ), SemLoc.dma 3) 0
            ∗ ptAt c wM fullShare fw ∗ ptAt c sM fullShare fs ∗ owes (c : Thread nD τ) 0 W
            ∗ (iprop((∃ f, arg4.view.loc (c : Thread nD τ) ↦[arg4.view.set]{fullShare} arg4.view.writes (Elt F) f L1)
                ∗ (∃ f, ptAt c wbuf fullShare f) ∗ (∃ f, ptAt c sbuf fullShare f) ∗ ptAt c tbM fullShare.right xt
                ∗ semVal ((c : Thread nD τ), SemLoc.dma 2) 0 ∗ semVal ((c : Thread nD τ), SemLoc.dma 3) 0
                ∗ (∃ W', owes (c : Thread nD τ) 0 W') ∗ ptAt c wM fullShare fw ∗ ptAt c sM fullShare fs) -∗ K ⟨⟩))
          ⊢ wp frame (wpE (defs₀ (F := F)) Variants.none c none) Set.univ
              (cc0__gather_quant_kernel i tbM (Memref.isWhole_whole _) wM (Memref.isWhole_whole _) sM (Memref.isWhole_whole _) arg4 harg4
                wbuf (Memref.isWhole_whole _) sbuf (Memref.isWhole_whole _) cc0_scratch2 cc0_scratch3) K } := by
  refine ⟨?_, fun W K => ?run⟩
  case run =>
    have _pw : Transfers.BatchOf (c : Thread nD τ) (SemLoc.dma (sig := sig) 2) 128 := trivial
    have _ps : Transfers.BatchOf (c : Thread nD τ) (SemLoc.dma (sig := sig) 3) 128 := trivial
    unfold owns
    iintro ⟨⟨%d4, %f4, -, H4⟩, ⟨%fwb, HW⟩, ⟨%fsb, HS⟩, HT, Hq2, Hq3, HwM, HsM, HO, Hk⟩
    ihave HwM' := (split128 (F := F) fw).1 $$ HwM
    icases HwM' with ⟨HdW, A0, A1, A2, A3, A4, A5, A6, A7, A8, A9, A10, A11, A12, A13, A14, A15, A16, A17, A18, A19, A20, A21, A22, A23, A24, A25, A26, A27, A28, A29, A30, A31, A32, A33, A34, A35, A36, A37, A38, A39, A40, A41, A42, A43, A44, A45, A46, A47, A48, A49, A50, A51, A52, A53, A54, A55, A56, A57, A58, A59, A60, A61, A62, A63, A64, A65, A66, A67, A68, A69, A70, A71, A72, A73, A74, A75, A76, A77, A78, A79, A80, A81, A82, A83, A84, A85, A86, A87, A88, A89, A90, A91, A92, A93, A94, A95, A96, A97, A98, A99, A100, A101, A102, A103, A104, A105, A106, A107, A108, A109, A110, A111, A112, A113, A114, A115, A116, A117, A118, A119, A120, A121, A122, A123, A124, A125, A126, A127⟩
    ihave HsM' := (split128 (F := F) fs).1 $$ HsM
    icases HsM' with ⟨HdS, B0, B1, B2, B3, B4, B5, B6, B7, B8, B9, B10, B11, B12, B13, B14, B15, B16, B17, B18, B19, B20, B21, B22, B23, B24, B25, B26, B27, B28, B29, B30, B31, B32, B33, B34, B35, B36, B37, B38, B39, B40, B41, B42, B43, B44, B45, B46, B47, B48, B49, B50, B51, B52, B53, B54, B55, B56, B57, B58, B59, B60, B61, B62, B63, B64, B65, B66, B67, B68, B69, B70, B71, B72, B73, B74, B75, B76, B77, B78, B79, B80, B81, B82, B83, B84, B85, B86, B87, B88, B89, B90, B91, B92, B93, B94, B95, B96, B97, B98, B99, B100, B101, B102, B103, B104, B105, B106, B107, B108, B109, B110, B111, B112, B113, B114, B115, B116, B117, B118, B119, B120, B121, B122, B123, B124, B125, B126, B127⟩
    ihave HW' := (wbuf_rows c fwb).1 $$ HW
    icases HW' with ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127⟩
    ihave HS' := (sbuf_rows c fsb).1 $$ HS
    icases HS' with ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127⟩
    set_option sl_exec.stepHeartbeats 5000000 in
    sl_exec_parts (disch := first | exact ⟨inbW _ (hr _ _), inbS _ (hr _ _), inbW _ (hr _ _), inbS _ (hr _ _)⟩ | exact ⟨inbW _ (hr _ _), inbS _ (hr _ _)⟩)
    ihave R0 := (wrow_fix_nat c i xt fw hr 0 (by decide) _ _ _ _ _ ?_) $$ R0
    · exact (fun d => wpay_fact c i xt fw hr _ _ (word_read c xt i _ _ rfl _ _) _ _ _ d)
    ihave R1 := (wrow_fix_nat c i xt fw hr 1 (by decide) _ _ _ _ _ ?_) $$ R1
    · exact (fun d => wpay_fact c i xt fw hr _ _ (word_read c xt i _ _ rfl _ _) _ _ _ d)
    ihave R2 := (wrow_fix_nat c i xt fw hr 2 (by decide) _ _ _ _ _ ?_) $$ R2
    · exact (fun d => wpay_fact c i xt fw hr _ _ (word_read c xt i _ _ rfl _ _) _ _ _ d)
    ihave R3 := (wrow_fix_nat c i xt fw hr 3 (by decide) _ _ _ _ _ ?_) $$ R3
    · exact (fun d => wpay_fact c i xt fw hr _ _ (word_read c xt i _ _ rfl _ _) _ _ _ d)
    ihave R4 := (wrow_fix_nat c i xt fw hr 4 (by decide) _ _ _ _ _ ?_) $$ R4
    · exact (fun d => wpay_fact c i xt fw hr _ _ (word_read c xt i _ _ rfl _ _) _ _ _ d)
    ihave R5 := (wrow_fix_nat c i xt fw hr 5 (by decide) _ _ _ _ _ ?_) $$ R5
    · exact (fun d => wpay_fact c i xt fw hr _ _ (word_read c xt i _ _ rfl _ _) _ _ _ d)
    ihave R6 := (wrow_fix_nat c i xt fw hr 6 (by decide) _ _ _ _ _ ?_) $$ R6
    · exact (fun d => wpay_fact c i xt fw hr _ _ (word_read c xt i _ _ rfl _ _) _ _ _ d)
    ihave R7 := (wrow_fix_nat c i xt fw hr 7 (by decide) _ _ _ _ _ ?_) $$ R7
    · exact (fun d => wpay_fact c i xt fw hr _ _ (word_read c xt i _ _ rfl _ _) _ _ _ d)
    ihave R8 := (wrow_fix_nat c i xt fw hr 8 (by decide) _ _ _ _ _ ?_) $$ R8
    · exact (fun d => wpay_fact c i xt fw hr _ _ (word_read c xt i _ _ rfl _ _) _ _ _ d)
    ihave R9 := (wrow_fix_nat c i xt fw hr 9 (by decide) _ _ _ _ _ ?_) $$ R9
    · exact (fun d => wpay_fact c i xt fw hr _ _ (word_read c xt i _ _ rfl _ _) _ _ _ d)
    ihave R10 := (wrow_fix_nat c i xt fw hr 10 (by decide) _ _ _ _ _ ?_) $$ R10
    · exact (fun d => wpay_fact c i xt fw hr _ _ (word_read c xt i _ _ rfl _ _) _ _ _ d)
    ihave R11 := (wrow_fix_nat c i xt fw hr 11 (by decide) _ _ _ _ _ ?_) $$ R11
    · exact (fun d => wpay_fact c i xt fw hr _ _ (word_read c xt i _ _ rfl _ _) _ _ _ d)
    ihave R12 := (wrow_fix_nat c i xt fw hr 12 (by decide) _ _ _ _ _ ?_) $$ R12
    · exact (fun d => wpay_fact c i xt fw hr _ _ (word_read c xt i _ _ rfl _ _) _ _ _ d)
    ihave R13 := (wrow_fix_nat c i xt fw hr 13 (by decide) _ _ _ _ _ ?_) $$ R13
    · exact (fun d => wpay_fact c i xt fw hr _ _ (word_read c xt i _ _ rfl _ _) _ _ _ d)
    ihave R14 := (wrow_fix_nat c i xt fw hr 14 (by decide) _ _ _ _ _ ?_) $$ R14
    · exact (fun d => wpay_fact c i xt fw hr _ _ (word_read c xt i _ _ rfl _ _) _ _ _ d)
    ihave R15 := (wrow_fix_nat c i xt fw hr 15 (by decide) _ _ _ _ _ ?_) $$ R15
    · exact (fun d => wpay_fact c i xt fw hr _ _ (word_read c xt i _ _ rfl _ _) _ _ _ d)
    ihave R16 := (wrow_fix_nat c i xt fw hr 16 (by decide) _ _ _ _ _ ?_) $$ R16
    · exact (fun d => wpay_fact c i xt fw hr _ _ (word_read c xt i _ _ rfl _ _) _ _ _ d)
    ihave R17 := (wrow_fix_nat c i xt fw hr 17 (by decide) _ _ _ _ _ ?_) $$ R17
    · exact (fun d => wpay_fact c i xt fw hr _ _ (word_read c xt i _ _ rfl _ _) _ _ _ d)
    ihave R18 := (wrow_fix_nat c i xt fw hr 18 (by decide) _ _ _ _ _ ?_) $$ R18
    · exact (fun d => wpay_fact c i xt fw hr _ _ (word_read c xt i _ _ rfl _ _) _ _ _ d)
    ihave R19 := (wrow_fix_nat c i xt fw hr 19 (by decide) _ _ _ _ _ ?_) $$ R19
    · exact (fun d => wpay_fact c i xt fw hr _ _ (word_read c xt i _ _ rfl _ _) _ _ _ d)
    ihave R20 := (wrow_fix_nat c i xt fw hr 20 (by decide) _ _ _ _ _ ?_) $$ R20
    · exact (fun d => wpay_fact c i xt fw hr _ _ (word_read c xt i _ _ rfl _ _) _ _ _ d)
    ihave R21 := (wrow_fix_nat c i xt fw hr 21 (by decide) _ _ _ _ _ ?_) $$ R21
    · exact (fun d => wpay_fact c i xt fw hr _ _ (word_read c xt i _ _ rfl _ _) _ _ _ d)
    ihave R22 := (wrow_fix_nat c i xt fw hr 22 (by decide) _ _ _ _ _ ?_) $$ R22
    · exact (fun d => wpay_fact c i xt fw hr _ _ (word_read c xt i _ _ rfl _ _) _ _ _ d)
    ihave R23 := (wrow_fix_nat c i xt fw hr 23 (by decide) _ _ _ _ _ ?_) $$ R23
    · exact (fun d => wpay_fact c i xt fw hr _ _ (word_read c xt i _ _ rfl _ _) _ _ _ d)
    ihave R24 := (wrow_fix_nat c i xt fw hr 24 (by decide) _ _ _ _ _ ?_) $$ R24
    · exact (fun d => wpay_fact c i xt fw hr _ _ (word_read c xt i _ _ rfl _ _) _ _ _ d)
    ihave R25 := (wrow_fix_nat c i xt fw hr 25 (by decide) _ _ _ _ _ ?_) $$ R25
    · exact (fun d => wpay_fact c i xt fw hr _ _ (word_read c xt i _ _ rfl _ _) _ _ _ d)
    ihave R26 := (wrow_fix_nat c i xt fw hr 26 (by decide) _ _ _ _ _ ?_) $$ R26
    · exact (fun d => wpay_fact c i xt fw hr _ _ (word_read c xt i _ _ rfl _ _) _ _ _ d)
    ihave R27 := (wrow_fix_nat c i xt fw hr 27 (by decide) _ _ _ _ _ ?_) $$ R27
    · exact (fun d => wpay_fact c i xt fw hr _ _ (word_read c xt i _ _ rfl _ _) _ _ _ d)
    ihave R28 := (wrow_fix_nat c i xt fw hr 28 (by decide) _ _ _ _ _ ?_) $$ R28
    · exact (fun d => wpay_fact c i xt fw hr _ _ (word_read c xt i _ _ rfl _ _) _ _ _ d)
    ihave R29 := (wrow_fix_nat c i xt fw hr 29 (by decide) _ _ _ _ _ ?_) $$ R29
    · exact (fun d => wpay_fact c i xt fw hr _ _ (word_read c xt i _ _ rfl _ _) _ _ _ d)
    ihave R30 := (wrow_fix_nat c i xt fw hr 30 (by decide) _ _ _ _ _ ?_) $$ R30
    · exact (fun d => wpay_fact c i xt fw hr _ _ (word_read c xt i _ _ rfl _ _) _ _ _ d)
    ihave R31 := (wrow_fix_nat c i xt fw hr 31 (by decide) _ _ _ _ _ ?_) $$ R31
    · exact (fun d => wpay_fact c i xt fw hr _ _ (word_read c xt i _ _ rfl _ _) _ _ _ d)
    ihave R32 := (wrow_fix_nat c i xt fw hr 32 (by decide) _ _ _ _ _ ?_) $$ R32
    · exact (fun d => wpay_fact c i xt fw hr _ _ (word_read c xt i _ _ rfl _ _) _ _ _ d)
    ihave R33 := (wrow_fix_nat c i xt fw hr 33 (by decide) _ _ _ _ _ ?_) $$ R33
    · exact (fun d => wpay_fact c i xt fw hr _ _ (word_read c xt i _ _ rfl _ _) _ _ _ d)
    ihave R34 := (wrow_fix_nat c i xt fw hr 34 (by decide) _ _ _ _ _ ?_) $$ R34
    · exact (fun d => wpay_fact c i xt fw hr _ _ (word_read c xt i _ _ rfl _ _) _ _ _ d)
    ihave R35 := (wrow_fix_nat c i xt fw hr 35 (by decide) _ _ _ _ _ ?_) $$ R35
    · exact (fun d => wpay_fact c i xt fw hr _ _ (word_read c xt i _ _ rfl _ _) _ _ _ d)
    ihave R36 := (wrow_fix_nat c i xt fw hr 36 (by decide) _ _ _ _ _ ?_) $$ R36
    · exact (fun d => wpay_fact c i xt fw hr _ _ (word_read c xt i _ _ rfl _ _) _ _ _ d)
    ihave R37 := (wrow_fix_nat c i xt fw hr 37 (by decide) _ _ _ _ _ ?_) $$ R37
    · exact (fun d => wpay_fact c i xt fw hr _ _ (word_read c xt i _ _ rfl _ _) _ _ _ d)
    ihave R38 := (wrow_fix_nat c i xt fw hr 38 (by decide) _ _ _ _ _ ?_) $$ R38
    · exact (fun d => wpay_fact c i xt fw hr _ _ (word_read c xt i _ _ rfl _ _) _ _ _ d)
    ihave R39 := (wrow_fix_nat c i xt fw hr 39 (by decide) _ _ _ _ _ ?_) $$ R39
    · exact (fun d => wpay_fact c i xt fw hr _ _ (word_read c xt i _ _ rfl _ _) _ _ _ d)
    ihave R40 := (wrow_fix_nat c i xt fw hr 40 (by decide) _ _ _ _ _ ?_) $$ R40
    · exact (fun d => wpay_fact c i xt fw hr _ _ (word_read c xt i _ _ rfl _ _) _ _ _ d)
    ihave R41 := (wrow_fix_nat c i xt fw hr 41 (by decide) _ _ _ _ _ ?_) $$ R41
    · exact (fun d => wpay_fact c i xt fw hr _ _ (word_read c xt i _ _ rfl _ _) _ _ _ d)
    ihave R42 := (wrow_fix_nat c i xt fw hr 42 (by decide) _ _ _ _ _ ?_) $$ R42
    · exact (fun d => wpay_fact c i xt fw hr _ _ (word_read c xt i _ _ rfl _ _) _ _ _ d)
    ihave R43 := (wrow_fix_nat c i xt fw hr 43 (by decide) _ _ _ _ _ ?_) $$ R43
    · exact (fun d => wpay_fact c i xt fw hr _ _ (word_read c xt i _ _ rfl _ _) _ _ _ d)
    ihave R44 := (wrow_fix_nat c i xt fw hr 44 (by decide) _ _ _ _ _ ?_) $$ R44
    · exact (fun d => wpay_fact c i xt fw hr _ _ (word_read c xt i _ _ rfl _ _) _ _ _ d)
    ihave R45 := (wrow_fix_nat c i xt fw hr 45 (by decide) _ _ _ _ _ ?_) $$ R45
    · exact (fun d => wpay_fact c i xt fw hr _ _ (word_read c xt i _ _ rfl _ _) _ _ _ d)
    ihave R46 := (wrow_fix_nat c i xt fw hr 46 (by decide) _ _ _ _ _ ?_) $$ R46
    · exact (fun d => wpay_fact c i xt fw hr _ _ (word_read c xt i _ _ rfl _ _) _ _ _ d)
    ihave R47 := (wrow_fix_nat c i xt fw hr 47 (by decide) _ _ _ _ _ ?_) $$ R47
    · exact (fun d => wpay_fact c i xt fw hr _ _ (word_read c xt i _ _ rfl _ _) _ _ _ d)
    ihave R48 := (wrow_fix_nat c i xt fw hr 48 (by decide) _ _ _ _ _ ?_) $$ R48
    · exact (fun d => wpay_fact c i xt fw hr _ _ (word_read c xt i _ _ rfl _ _) _ _ _ d)
    ihave R49 := (wrow_fix_nat c i xt fw hr 49 (by decide) _ _ _ _ _ ?_) $$ R49
    · exact (fun d => wpay_fact c i xt fw hr _ _ (word_read c xt i _ _ rfl _ _) _ _ _ d)
    ihave R50 := (wrow_fix_nat c i xt fw hr 50 (by decide) _ _ _ _ _ ?_) $$ R50
    · exact (fun d => wpay_fact c i xt fw hr _ _ (word_read c xt i _ _ rfl _ _) _ _ _ d)
    ihave R51 := (wrow_fix_nat c i xt fw hr 51 (by decide) _ _ _ _ _ ?_) $$ R51
    · exact (fun d => wpay_fact c i xt fw hr _ _ (word_read c xt i _ _ rfl _ _) _ _ _ d)
    ihave R52 := (wrow_fix_nat c i xt fw hr 52 (by decide) _ _ _ _ _ ?_) $$ R52
    · exact (fun d => wpay_fact c i xt fw hr _ _ (word_read c xt i _ _ rfl _ _) _ _ _ d)
    ihave R53 := (wrow_fix_nat c i xt fw hr 53 (by decide) _ _ _ _ _ ?_) $$ R53
    · exact (fun d => wpay_fact c i xt fw hr _ _ (word_read c xt i _ _ rfl _ _) _ _ _ d)
    ihave R54 := (wrow_fix_nat c i xt fw hr 54 (by decide) _ _ _ _ _ ?_) $$ R54
    · exact (fun d => wpay_fact c i xt fw hr _ _ (word_read c xt i _ _ rfl _ _) _ _ _ d)
    ihave R55 := (wrow_fix_nat c i xt fw hr 55 (by decide) _ _ _ _ _ ?_) $$ R55
    · exact (fun d => wpay_fact c i xt fw hr _ _ (word_read c xt i _ _ rfl _ _) _ _ _ d)
    ihave R56 := (wrow_fix_nat c i xt fw hr 56 (by decide) _ _ _ _ _ ?_) $$ R56
    · exact (fun d => wpay_fact c i xt fw hr _ _ (word_read c xt i _ _ rfl _ _) _ _ _ d)
    ihave R57 := (wrow_fix_nat c i xt fw hr 57 (by decide) _ _ _ _ _ ?_) $$ R57
    · exact (fun d => wpay_fact c i xt fw hr _ _ (word_read c xt i _ _ rfl _ _) _ _ _ d)
    ihave R58 := (wrow_fix_nat c i xt fw hr 58 (by decide) _ _ _ _ _ ?_) $$ R58
    · exact (fun d => wpay_fact c i xt fw hr _ _ (word_read c xt i _ _ rfl _ _) _ _ _ d)
    ihave R59 := (wrow_fix_nat c i xt fw hr 59 (by decide) _ _ _ _ _ ?_) $$ R59
    · exact (fun d => wpay_fact c i xt fw hr _ _ (word_read c xt i _ _ rfl _ _) _ _ _ d)
    ihave R60 := (wrow_fix_nat c i xt fw hr 60 (by decide) _ _ _ _ _ ?_) $$ R60
    · exact (fun d => wpay_fact c i xt fw hr _ _ (word_read c xt i _ _ rfl _ _) _ _ _ d)
    ihave R61 := (wrow_fix_nat c i xt fw hr 61 (by decide) _ _ _ _ _ ?_) $$ R61
    · exact (fun d => wpay_fact c i xt fw hr _ _ (word_read c xt i _ _ rfl _ _) _ _ _ d)
    ihave R62 := (wrow_fix_nat c i xt fw hr 62 (by decide) _ _ _ _ _ ?_) $$ R62
    · exact (fun d => wpay_fact c i xt fw hr _ _ (word_read c xt i _ _ rfl _ _) _ _ _ d)
    ihave R63 := (wrow_fix_nat c i xt fw hr 63 (by decide) _ _ _ _ _ ?_) $$ R63
    · exact (fun d => wpay_fact c i xt fw hr _ _ (word_read c xt i _ _ rfl _ _) _ _ _ d)
    ihave R64 := (wrow_fix_nat c i xt fw hr 64 (by decide) _ _ _ _ _ ?_) $$ R64
    · exact (fun d => wpay_fact c i xt fw hr _ _ (word_read c xt i _ _ rfl _ _) _ _ _ d)
    ihave R65 := (wrow_fix_nat c i xt fw hr 65 (by decide) _ _ _ _ _ ?_) $$ R65
    · exact (fun d => wpay_fact c i xt fw hr _ _ (word_read c xt i _ _ rfl _ _) _ _ _ d)
    ihave R66 := (wrow_fix_nat c i xt fw hr 66 (by decide) _ _ _ _ _ ?_) $$ R66
    · exact (fun d => wpay_fact c i xt fw hr _ _ (word_read c xt i _ _ rfl _ _) _ _ _ d)
    ihave R67 := (wrow_fix_nat c i xt fw hr 67 (by decide) _ _ _ _ _ ?_) $$ R67
    · exact (fun d => wpay_fact c i xt fw hr _ _ (word_read c xt i _ _ rfl _ _) _ _ _ d)
    ihave R68 := (wrow_fix_nat c i xt fw hr 68 (by decide) _ _ _ _ _ ?_) $$ R68
    · exact (fun d => wpay_fact c i xt fw hr _ _ (word_read c xt i _ _ rfl _ _) _ _ _ d)
    ihave R69 := (wrow_fix_nat c i xt fw hr 69 (by decide) _ _ _ _ _ ?_) $$ R69
    · exact (fun d => wpay_fact c i xt fw hr _ _ (word_read c xt i _ _ rfl _ _) _ _ _ d)
    ihave R70 := (wrow_fix_nat c i xt fw hr 70 (by decide) _ _ _ _ _ ?_) $$ R70
    · exact (fun d => wpay_fact c i xt fw hr _ _ (word_read c xt i _ _ rfl _ _) _ _ _ d)
    ihave R71 := (wrow_fix_nat c i xt fw hr 71 (by decide) _ _ _ _ _ ?_) $$ R71
    · exact (fun d => wpay_fact c i xt fw hr _ _ (word_read c xt i _ _ rfl _ _) _ _ _ d)
    ihave R72 := (wrow_fix_nat c i xt fw hr 72 (by decide) _ _ _ _ _ ?_) $$ R72
    · exact (fun d => wpay_fact c i xt fw hr _ _ (word_read c xt i _ _ rfl _ _) _ _ _ d)
    ihave R73 := (wrow_fix_nat c i xt fw hr 73 (by decide) _ _ _ _ _ ?_) $$ R73
    · exact (fun d => wpay_fact c i xt fw hr _ _ (word_read c xt i _ _ rfl _ _) _ _ _ d)
    ihave R74 := (wrow_fix_nat c i xt fw hr 74 (by decide) _ _ _ _ _ ?_) $$ R74
    · exact (fun d => wpay_fact c i xt fw hr _ _ (word_read c xt i _ _ rfl _ _) _ _ _ d)
    ihave R75 := (wrow_fix_nat c i xt fw hr 75 (by decide) _ _ _ _ _ ?_) $$ R75
    · exact (fun d => wpay_fact c i xt fw hr _ _ (word_read c xt i _ _ rfl _ _) _ _ _ d)
    ihave R76 := (wrow_fix_nat c i xt fw hr 76 (by decide) _ _ _ _ _ ?_) $$ R76
    · exact (fun d => wpay_fact c i xt fw hr _ _ (word_read c xt i _ _ rfl _ _) _ _ _ d)
    ihave R77 := (wrow_fix_nat c i xt fw hr 77 (by decide) _ _ _ _ _ ?_) $$ R77
    · exact (fun d => wpay_fact c i xt fw hr _ _ (word_read c xt i _ _ rfl _ _) _ _ _ d)
    ihave R78 := (wrow_fix_nat c i xt fw hr 78 (by decide) _ _ _ _ _ ?_) $$ R78
    · exact (fun d => wpay_fact c i xt fw hr _ _ (word_read c xt i _ _ rfl _ _) _ _ _ d)
    ihave R79 := (wrow_fix_nat c i xt fw hr 79 (by decide) _ _ _ _ _ ?_) $$ R79
    · exact (fun d => wpay_fact c i xt fw hr _ _ (word_read c xt i _ _ rfl _ _) _ _ _ d)
    ihave R80 := (wrow_fix_nat c i xt fw hr 80 (by decide) _ _ _ _ _ ?_) $$ R80
    · exact (fun d => wpay_fact c i xt fw hr _ _ (word_read c xt i _ _ rfl _ _) _ _ _ d)
    ihave R81 := (wrow_fix_nat c i xt fw hr 81 (by decide) _ _ _ _ _ ?_) $$ R81
    · exact (fun d => wpay_fact c i xt fw hr _ _ (word_read c xt i _ _ rfl _ _) _ _ _ d)
    ihave R82 := (wrow_fix_nat c i xt fw hr 82 (by decide) _ _ _ _ _ ?_) $$ R82
    · exact (fun d => wpay_fact c i xt fw hr _ _ (word_read c xt i _ _ rfl _ _) _ _ _ d)
    ihave R83 := (wrow_fix_nat c i xt fw hr 83 (by decide) _ _ _ _ _ ?_) $$ R83
    · exact (fun d => wpay_fact c i xt fw hr _ _ (word_read c xt i _ _ rfl _ _) _ _ _ d)
    ihave R84 := (wrow_fix_nat c i xt fw hr 84 (by decide) _ _ _ _ _ ?_) $$ R84
    · exact (fun d => wpay_fact c i xt fw hr _ _ (word_read c xt i _ _ rfl _ _) _ _ _ d)
    ihave R85 := (wrow_fix_nat c i xt fw hr 85 (by decide) _ _ _ _ _ ?_) $$ R85
    · exact (fun d => wpay_fact c i xt fw hr _ _ (word_read c xt i _ _ rfl _ _) _ _ _ d)
    ihave R86 := (wrow_fix_nat c i xt fw hr 86 (by decide) _ _ _ _ _ ?_) $$ R86
    · exact (fun d => wpay_fact c i xt fw hr _ _ (word_read c xt i _ _ rfl _ _) _ _ _ d)
    ihave R87 := (wrow_fix_nat c i xt fw hr 87 (by decide) _ _ _ _ _ ?_) $$ R87
    · exact (fun d => wpay_fact c i xt fw hr _ _ (word_read c xt i _ _ rfl _ _) _ _ _ d)
    ihave R88 := (wrow_fix_nat c i xt fw hr 88 (by decide) _ _ _ _ _ ?_) $$ R88
    · exact (fun d => wpay_fact c i xt fw hr _ _ (word_read c xt i _ _ rfl _ _) _ _ _ d)
    ihave R89 := (wrow_fix_nat c i xt fw hr 89 (by decide) _ _ _ _ _ ?_) $$ R89
    · exact (fun d => wpay_fact c i xt fw hr _ _ (word_read c xt i _ _ rfl _ _) _ _ _ d)
    ihave R90 := (wrow_fix_nat c i xt fw hr 90 (by decide) _ _ _ _ _ ?_) $$ R90
    · exact (fun d => wpay_fact c i xt fw hr _ _ (word_read c xt i _ _ rfl _ _) _ _ _ d)
    ihave R91 := (wrow_fix_nat c i xt fw hr 91 (by decide) _ _ _ _ _ ?_) $$ R91
    · exact (fun d => wpay_fact c i xt fw hr _ _ (word_read c xt i _ _ rfl _ _) _ _ _ d)
    ihave R92 := (wrow_fix_nat c i xt fw hr 92 (by decide) _ _ _ _ _ ?_) $$ R92
    · exact (fun d => wpay_fact c i xt fw hr _ _ (word_read c xt i _ _ rfl _ _) _ _ _ d)
    ihave R93 := (wrow_fix_nat c i xt fw hr 93 (by decide) _ _ _ _ _ ?_) $$ R93
    · exact (fun d => wpay_fact c i xt fw hr _ _ (word_read c xt i _ _ rfl _ _) _ _ _ d)
    ihave R94 := (wrow_fix_nat c i xt fw hr 94 (by decide) _ _ _ _ _ ?_) $$ R94
    · exact (fun d => wpay_fact c i xt fw hr _ _ (word_read c xt i _ _ rfl _ _) _ _ _ d)
    ihave R95 := (wrow_fix_nat c i xt fw hr 95 (by decide) _ _ _ _ _ ?_) $$ R95
    · exact (fun d => wpay_fact c i xt fw hr _ _ (word_read c xt i _ _ rfl _ _) _ _ _ d)
    ihave R96 := (wrow_fix_nat c i xt fw hr 96 (by decide) _ _ _ _ _ ?_) $$ R96
    · exact (fun d => wpay_fact c i xt fw hr _ _ (word_read c xt i _ _ rfl _ _) _ _ _ d)
    ihave R97 := (wrow_fix_nat c i xt fw hr 97 (by decide) _ _ _ _ _ ?_) $$ R97
    · exact (fun d => wpay_fact c i xt fw hr _ _ (word_read c xt i _ _ rfl _ _) _ _ _ d)
    ihave R98 := (wrow_fix_nat c i xt fw hr 98 (by decide) _ _ _ _ _ ?_) $$ R98
    · exact (fun d => wpay_fact c i xt fw hr _ _ (word_read c xt i _ _ rfl _ _) _ _ _ d)
    ihave R99 := (wrow_fix_nat c i xt fw hr 99 (by decide) _ _ _ _ _ ?_) $$ R99
    · exact (fun d => wpay_fact c i xt fw hr _ _ (word_read c xt i _ _ rfl _ _) _ _ _ d)
    ihave R100 := (wrow_fix_nat c i xt fw hr 100 (by decide) _ _ _ _ _ ?_) $$ R100
    · exact (fun d => wpay_fact c i xt fw hr _ _ (word_read c xt i _ _ rfl _ _) _ _ _ d)
    ihave R101 := (wrow_fix_nat c i xt fw hr 101 (by decide) _ _ _ _ _ ?_) $$ R101
    · exact (fun d => wpay_fact c i xt fw hr _ _ (word_read c xt i _ _ rfl _ _) _ _ _ d)
    ihave R102 := (wrow_fix_nat c i xt fw hr 102 (by decide) _ _ _ _ _ ?_) $$ R102
    · exact (fun d => wpay_fact c i xt fw hr _ _ (word_read c xt i _ _ rfl _ _) _ _ _ d)
    ihave R103 := (wrow_fix_nat c i xt fw hr 103 (by decide) _ _ _ _ _ ?_) $$ R103
    · exact (fun d => wpay_fact c i xt fw hr _ _ (word_read c xt i _ _ rfl _ _) _ _ _ d)
    ihave R104 := (wrow_fix_nat c i xt fw hr 104 (by decide) _ _ _ _ _ ?_) $$ R104
    · exact (fun d => wpay_fact c i xt fw hr _ _ (word_read c xt i _ _ rfl _ _) _ _ _ d)
    ihave R105 := (wrow_fix_nat c i xt fw hr 105 (by decide) _ _ _ _ _ ?_) $$ R105
    · exact (fun d => wpay_fact c i xt fw hr _ _ (word_read c xt i _ _ rfl _ _) _ _ _ d)
    ihave R106 := (wrow_fix_nat c i xt fw hr 106 (by decide) _ _ _ _ _ ?_) $$ R106
    · exact (fun d => wpay_fact c i xt fw hr _ _ (word_read c xt i _ _ rfl _ _) _ _ _ d)
    ihave R107 := (wrow_fix_nat c i xt fw hr 107 (by decide) _ _ _ _ _ ?_) $$ R107
    · exact (fun d => wpay_fact c i xt fw hr _ _ (word_read c xt i _ _ rfl _ _) _ _ _ d)
    ihave R108 := (wrow_fix_nat c i xt fw hr 108 (by decide) _ _ _ _ _ ?_) $$ R108
    · exact (fun d => wpay_fact c i xt fw hr _ _ (word_read c xt i _ _ rfl _ _) _ _ _ d)
    ihave R109 := (wrow_fix_nat c i xt fw hr 109 (by decide) _ _ _ _ _ ?_) $$ R109
    · exact (fun d => wpay_fact c i xt fw hr _ _ (word_read c xt i _ _ rfl _ _) _ _ _ d)
    ihave R110 := (wrow_fix_nat c i xt fw hr 110 (by decide) _ _ _ _ _ ?_) $$ R110
    · exact (fun d => wpay_fact c i xt fw hr _ _ (word_read c xt i _ _ rfl _ _) _ _ _ d)
    ihave R111 := (wrow_fix_nat c i xt fw hr 111 (by decide) _ _ _ _ _ ?_) $$ R111
    · exact (fun d => wpay_fact c i xt fw hr _ _ (word_read c xt i _ _ rfl _ _) _ _ _ d)
    ihave R112 := (wrow_fix_nat c i xt fw hr 112 (by decide) _ _ _ _ _ ?_) $$ R112
    · exact (fun d => wpay_fact c i xt fw hr _ _ (word_read c xt i _ _ rfl _ _) _ _ _ d)
    ihave R113 := (wrow_fix_nat c i xt fw hr 113 (by decide) _ _ _ _ _ ?_) $$ R113
    · exact (fun d => wpay_fact c i xt fw hr _ _ (word_read c xt i _ _ rfl _ _) _ _ _ d)
    ihave R114 := (wrow_fix_nat c i xt fw hr 114 (by decide) _ _ _ _ _ ?_) $$ R114
    · exact (fun d => wpay_fact c i xt fw hr _ _ (word_read c xt i _ _ rfl _ _) _ _ _ d)
    ihave R115 := (wrow_fix_nat c i xt fw hr 115 (by decide) _ _ _ _ _ ?_) $$ R115
    · exact (fun d => wpay_fact c i xt fw hr _ _ (word_read c xt i _ _ rfl _ _) _ _ _ d)
    ihave R116 := (wrow_fix_nat c i xt fw hr 116 (by decide) _ _ _ _ _ ?_) $$ R116
    · exact (fun d => wpay_fact c i xt fw hr _ _ (word_read c xt i _ _ rfl _ _) _ _ _ d)
    ihave R117 := (wrow_fix_nat c i xt fw hr 117 (by decide) _ _ _ _ _ ?_) $$ R117
    · exact (fun d => wpay_fact c i xt fw hr _ _ (word_read c xt i _ _ rfl _ _) _ _ _ d)
    ihave R118 := (wrow_fix_nat c i xt fw hr 118 (by decide) _ _ _ _ _ ?_) $$ R118
    · exact (fun d => wpay_fact c i xt fw hr _ _ (word_read c xt i _ _ rfl _ _) _ _ _ d)
    ihave R119 := (wrow_fix_nat c i xt fw hr 119 (by decide) _ _ _ _ _ ?_) $$ R119
    · exact (fun d => wpay_fact c i xt fw hr _ _ (word_read c xt i _ _ rfl _ _) _ _ _ d)
    ihave R120 := (wrow_fix_nat c i xt fw hr 120 (by decide) _ _ _ _ _ ?_) $$ R120
    · exact (fun d => wpay_fact c i xt fw hr _ _ (word_read c xt i _ _ rfl _ _) _ _ _ d)
    ihave R121 := (wrow_fix_nat c i xt fw hr 121 (by decide) _ _ _ _ _ ?_) $$ R121
    · exact (fun d => wpay_fact c i xt fw hr _ _ (word_read c xt i _ _ rfl _ _) _ _ _ d)
    ihave R122 := (wrow_fix_nat c i xt fw hr 122 (by decide) _ _ _ _ _ ?_) $$ R122
    · exact (fun d => wpay_fact c i xt fw hr _ _ (word_read c xt i _ _ rfl _ _) _ _ _ d)
    ihave R123 := (wrow_fix_nat c i xt fw hr 123 (by decide) _ _ _ _ _ ?_) $$ R123
    · exact (fun d => wpay_fact c i xt fw hr _ _ (word_read c xt i _ _ rfl _ _) _ _ _ d)
    ihave R124 := (wrow_fix_nat c i xt fw hr 124 (by decide) _ _ _ _ _ ?_) $$ R124
    · exact (fun d => wpay_fact c i xt fw hr _ _ (word_read c xt i _ _ rfl _ _) _ _ _ d)
    ihave R125 := (wrow_fix_nat c i xt fw hr 125 (by decide) _ _ _ _ _ ?_) $$ R125
    · exact (fun d => wpay_fact c i xt fw hr _ _ (word_read c xt i _ _ rfl _ _) _ _ _ d)
    ihave R126 := (wrow_fix_nat c i xt fw hr 126 (by decide) _ _ _ _ _ ?_) $$ R126
    · exact (fun d => wpay_fact c i xt fw hr _ _ (word_read c xt i _ _ rfl _ _) _ _ _ d)
    ihave R127 := (wrow_fix_nat c i xt fw hr 127 (by decide) _ _ _ _ _ ?_) $$ R127
    · exact (fun d => wpay_fact c i xt fw hr _ _ (word_read c xt i _ _ rfl _ _) _ _ _ d)
    ihave Q0 := (srow_fix_nat c i xt fs hr 0 (by decide) _ _ _ _ _ ?_) $$ Q0
    · exact (fun d => spay_fact c i xt fs hr _ _ (word_read c xt i _ _ rfl _ _) _ _ _ d)
    ihave Q1 := (srow_fix_nat c i xt fs hr 1 (by decide) _ _ _ _ _ ?_) $$ Q1
    · exact (fun d => spay_fact c i xt fs hr _ _ (word_read c xt i _ _ rfl _ _) _ _ _ d)
    ihave Q2 := (srow_fix_nat c i xt fs hr 2 (by decide) _ _ _ _ _ ?_) $$ Q2
    · exact (fun d => spay_fact c i xt fs hr _ _ (word_read c xt i _ _ rfl _ _) _ _ _ d)
    ihave Q3 := (srow_fix_nat c i xt fs hr 3 (by decide) _ _ _ _ _ ?_) $$ Q3
    · exact (fun d => spay_fact c i xt fs hr _ _ (word_read c xt i _ _ rfl _ _) _ _ _ d)
    ihave Q4 := (srow_fix_nat c i xt fs hr 4 (by decide) _ _ _ _ _ ?_) $$ Q4
    · exact (fun d => spay_fact c i xt fs hr _ _ (word_read c xt i _ _ rfl _ _) _ _ _ d)
    ihave Q5 := (srow_fix_nat c i xt fs hr 5 (by decide) _ _ _ _ _ ?_) $$ Q5
    · exact (fun d => spay_fact c i xt fs hr _ _ (word_read c xt i _ _ rfl _ _) _ _ _ d)
    ihave Q6 := (srow_fix_nat c i xt fs hr 6 (by decide) _ _ _ _ _ ?_) $$ Q6
    · exact (fun d => spay_fact c i xt fs hr _ _ (word_read c xt i _ _ rfl _ _) _ _ _ d)
    ihave Q7 := (srow_fix_nat c i xt fs hr 7 (by decide) _ _ _ _ _ ?_) $$ Q7
    · exact (fun d => spay_fact c i xt fs hr _ _ (word_read c xt i _ _ rfl _ _) _ _ _ d)
    ihave Q8 := (srow_fix_nat c i xt fs hr 8 (by decide) _ _ _ _ _ ?_) $$ Q8
    · exact (fun d => spay_fact c i xt fs hr _ _ (word_read c xt i _ _ rfl _ _) _ _ _ d)
    ihave Q9 := (srow_fix_nat c i xt fs hr 9 (by decide) _ _ _ _ _ ?_) $$ Q9
    · exact (fun d => spay_fact c i xt fs hr _ _ (word_read c xt i _ _ rfl _ _) _ _ _ d)
    ihave Q10 := (srow_fix_nat c i xt fs hr 10 (by decide) _ _ _ _ _ ?_) $$ Q10
    · exact (fun d => spay_fact c i xt fs hr _ _ (word_read c xt i _ _ rfl _ _) _ _ _ d)
    ihave Q11 := (srow_fix_nat c i xt fs hr 11 (by decide) _ _ _ _ _ ?_) $$ Q11
    · exact (fun d => spay_fact c i xt fs hr _ _ (word_read c xt i _ _ rfl _ _) _ _ _ d)
    ihave Q12 := (srow_fix_nat c i xt fs hr 12 (by decide) _ _ _ _ _ ?_) $$ Q12
    · exact (fun d => spay_fact c i xt fs hr _ _ (word_read c xt i _ _ rfl _ _) _ _ _ d)
    ihave Q13 := (srow_fix_nat c i xt fs hr 13 (by decide) _ _ _ _ _ ?_) $$ Q13
    · exact (fun d => spay_fact c i xt fs hr _ _ (word_read c xt i _ _ rfl _ _) _ _ _ d)
    ihave Q14 := (srow_fix_nat c i xt fs hr 14 (by decide) _ _ _ _ _ ?_) $$ Q14
    · exact (fun d => spay_fact c i xt fs hr _ _ (word_read c xt i _ _ rfl _ _) _ _ _ d)
    ihave Q15 := (srow_fix_nat c i xt fs hr 15 (by decide) _ _ _ _ _ ?_) $$ Q15
    · exact (fun d => spay_fact c i xt fs hr _ _ (word_read c xt i _ _ rfl _ _) _ _ _ d)
    ihave Q16 := (srow_fix_nat c i xt fs hr 16 (by decide) _ _ _ _ _ ?_) $$ Q16
    · exact (fun d => spay_fact c i xt fs hr _ _ (word_read c xt i _ _ rfl _ _) _ _ _ d)
    ihave Q17 := (srow_fix_nat c i xt fs hr 17 (by decide) _ _ _ _ _ ?_) $$ Q17
    · exact (fun d => spay_fact c i xt fs hr _ _ (word_read c xt i _ _ rfl _ _) _ _ _ d)
    ihave Q18 := (srow_fix_nat c i xt fs hr 18 (by decide) _ _ _ _ _ ?_) $$ Q18
    · exact (fun d => spay_fact c i xt fs hr _ _ (word_read c xt i _ _ rfl _ _) _ _ _ d)
    ihave Q19 := (srow_fix_nat c i xt fs hr 19 (by decide) _ _ _ _ _ ?_) $$ Q19
    · exact (fun d => spay_fact c i xt fs hr _ _ (word_read c xt i _ _ rfl _ _) _ _ _ d)
    ihave Q20 := (srow_fix_nat c i xt fs hr 20 (by decide) _ _ _ _ _ ?_) $$ Q20
    · exact (fun d => spay_fact c i xt fs hr _ _ (word_read c xt i _ _ rfl _ _) _ _ _ d)
    ihave Q21 := (srow_fix_nat c i xt fs hr 21 (by decide) _ _ _ _ _ ?_) $$ Q21
    · exact (fun d => spay_fact c i xt fs hr _ _ (word_read c xt i _ _ rfl _ _) _ _ _ d)
    ihave Q22 := (srow_fix_nat c i xt fs hr 22 (by decide) _ _ _ _ _ ?_) $$ Q22
    · exact (fun d => spay_fact c i xt fs hr _ _ (word_read c xt i _ _ rfl _ _) _ _ _ d)
    ihave Q23 := (srow_fix_nat c i xt fs hr 23 (by decide) _ _ _ _ _ ?_) $$ Q23
    · exact (fun d => spay_fact c i xt fs hr _ _ (word_read c xt i _ _ rfl _ _) _ _ _ d)
    ihave Q24 := (srow_fix_nat c i xt fs hr 24 (by decide) _ _ _ _ _ ?_) $$ Q24
    · exact (fun d => spay_fact c i xt fs hr _ _ (word_read c xt i _ _ rfl _ _) _ _ _ d)
    ihave Q25 := (srow_fix_nat c i xt fs hr 25 (by decide) _ _ _ _ _ ?_) $$ Q25
    · exact (fun d => spay_fact c i xt fs hr _ _ (word_read c xt i _ _ rfl _ _) _ _ _ d)
    ihave Q26 := (srow_fix_nat c i xt fs hr 26 (by decide) _ _ _ _ _ ?_) $$ Q26
    · exact (fun d => spay_fact c i xt fs hr _ _ (word_read c xt i _ _ rfl _ _) _ _ _ d)
    ihave Q27 := (srow_fix_nat c i xt fs hr 27 (by decide) _ _ _ _ _ ?_) $$ Q27
    · exact (fun d => spay_fact c i xt fs hr _ _ (word_read c xt i _ _ rfl _ _) _ _ _ d)
    ihave Q28 := (srow_fix_nat c i xt fs hr 28 (by decide) _ _ _ _ _ ?_) $$ Q28
    · exact (fun d => spay_fact c i xt fs hr _ _ (word_read c xt i _ _ rfl _ _) _ _ _ d)
    ihave Q29 := (srow_fix_nat c i xt fs hr 29 (by decide) _ _ _ _ _ ?_) $$ Q29
    · exact (fun d => spay_fact c i xt fs hr _ _ (word_read c xt i _ _ rfl _ _) _ _ _ d)
    ihave Q30 := (srow_fix_nat c i xt fs hr 30 (by decide) _ _ _ _ _ ?_) $$ Q30
    · exact (fun d => spay_fact c i xt fs hr _ _ (word_read c xt i _ _ rfl _ _) _ _ _ d)
    ihave Q31 := (srow_fix_nat c i xt fs hr 31 (by decide) _ _ _ _ _ ?_) $$ Q31
    · exact (fun d => spay_fact c i xt fs hr _ _ (word_read c xt i _ _ rfl _ _) _ _ _ d)
    ihave Q32 := (srow_fix_nat c i xt fs hr 32 (by decide) _ _ _ _ _ ?_) $$ Q32
    · exact (fun d => spay_fact c i xt fs hr _ _ (word_read c xt i _ _ rfl _ _) _ _ _ d)
    ihave Q33 := (srow_fix_nat c i xt fs hr 33 (by decide) _ _ _ _ _ ?_) $$ Q33
    · exact (fun d => spay_fact c i xt fs hr _ _ (word_read c xt i _ _ rfl _ _) _ _ _ d)
    ihave Q34 := (srow_fix_nat c i xt fs hr 34 (by decide) _ _ _ _ _ ?_) $$ Q34
    · exact (fun d => spay_fact c i xt fs hr _ _ (word_read c xt i _ _ rfl _ _) _ _ _ d)
    ihave Q35 := (srow_fix_nat c i xt fs hr 35 (by decide) _ _ _ _ _ ?_) $$ Q35
    · exact (fun d => spay_fact c i xt fs hr _ _ (word_read c xt i _ _ rfl _ _) _ _ _ d)
    ihave Q36 := (srow_fix_nat c i xt fs hr 36 (by decide) _ _ _ _ _ ?_) $$ Q36
    · exact (fun d => spay_fact c i xt fs hr _ _ (word_read c xt i _ _ rfl _ _) _ _ _ d)
    ihave Q37 := (srow_fix_nat c i xt fs hr 37 (by decide) _ _ _ _ _ ?_) $$ Q37
    · exact (fun d => spay_fact c i xt fs hr _ _ (word_read c xt i _ _ rfl _ _) _ _ _ d)
    ihave Q38 := (srow_fix_nat c i xt fs hr 38 (by decide) _ _ _ _ _ ?_) $$ Q38
    · exact (fun d => spay_fact c i xt fs hr _ _ (word_read c xt i _ _ rfl _ _) _ _ _ d)
    ihave Q39 := (srow_fix_nat c i xt fs hr 39 (by decide) _ _ _ _ _ ?_) $$ Q39
    · exact (fun d => spay_fact c i xt fs hr _ _ (word_read c xt i _ _ rfl _ _) _ _ _ d)
    ihave Q40 := (srow_fix_nat c i xt fs hr 40 (by decide) _ _ _ _ _ ?_) $$ Q40
    · exact (fun d => spay_fact c i xt fs hr _ _ (word_read c xt i _ _ rfl _ _) _ _ _ d)
    ihave Q41 := (srow_fix_nat c i xt fs hr 41 (by decide) _ _ _ _ _ ?_) $$ Q41
    · exact (fun d => spay_fact c i xt fs hr _ _ (word_read c xt i _ _ rfl _ _) _ _ _ d)
    ihave Q42 := (srow_fix_nat c i xt fs hr 42 (by decide) _ _ _ _ _ ?_) $$ Q42
    · exact (fun d => spay_fact c i xt fs hr _ _ (word_read c xt i _ _ rfl _ _) _ _ _ d)
    ihave Q43 := (srow_fix_nat c i xt fs hr 43 (by decide) _ _ _ _ _ ?_) $$ Q43
    · exact (fun d => spay_fact c i xt fs hr _ _ (word_read c xt i _ _ rfl _ _) _ _ _ d)
    ihave Q44 := (srow_fix_nat c i xt fs hr 44 (by decide) _ _ _ _ _ ?_) $$ Q44
    · exact (fun d => spay_fact c i xt fs hr _ _ (word_read c xt i _ _ rfl _ _) _ _ _ d)
    ihave Q45 := (srow_fix_nat c i xt fs hr 45 (by decide) _ _ _ _ _ ?_) $$ Q45
    · exact (fun d => spay_fact c i xt fs hr _ _ (word_read c xt i _ _ rfl _ _) _ _ _ d)
    ihave Q46 := (srow_fix_nat c i xt fs hr 46 (by decide) _ _ _ _ _ ?_) $$ Q46
    · exact (fun d => spay_fact c i xt fs hr _ _ (word_read c xt i _ _ rfl _ _) _ _ _ d)
    ihave Q47 := (srow_fix_nat c i xt fs hr 47 (by decide) _ _ _ _ _ ?_) $$ Q47
    · exact (fun d => spay_fact c i xt fs hr _ _ (word_read c xt i _ _ rfl _ _) _ _ _ d)
    ihave Q48 := (srow_fix_nat c i xt fs hr 48 (by decide) _ _ _ _ _ ?_) $$ Q48
    · exact (fun d => spay_fact c i xt fs hr _ _ (word_read c xt i _ _ rfl _ _) _ _ _ d)
    ihave Q49 := (srow_fix_nat c i xt fs hr 49 (by decide) _ _ _ _ _ ?_) $$ Q49
    · exact (fun d => spay_fact c i xt fs hr _ _ (word_read c xt i _ _ rfl _ _) _ _ _ d)
    ihave Q50 := (srow_fix_nat c i xt fs hr 50 (by decide) _ _ _ _ _ ?_) $$ Q50
    · exact (fun d => spay_fact c i xt fs hr _ _ (word_read c xt i _ _ rfl _ _) _ _ _ d)
    ihave Q51 := (srow_fix_nat c i xt fs hr 51 (by decide) _ _ _ _ _ ?_) $$ Q51
    · exact (fun d => spay_fact c i xt fs hr _ _ (word_read c xt i _ _ rfl _ _) _ _ _ d)
    ihave Q52 := (srow_fix_nat c i xt fs hr 52 (by decide) _ _ _ _ _ ?_) $$ Q52
    · exact (fun d => spay_fact c i xt fs hr _ _ (word_read c xt i _ _ rfl _ _) _ _ _ d)
    ihave Q53 := (srow_fix_nat c i xt fs hr 53 (by decide) _ _ _ _ _ ?_) $$ Q53
    · exact (fun d => spay_fact c i xt fs hr _ _ (word_read c xt i _ _ rfl _ _) _ _ _ d)
    ihave Q54 := (srow_fix_nat c i xt fs hr 54 (by decide) _ _ _ _ _ ?_) $$ Q54
    · exact (fun d => spay_fact c i xt fs hr _ _ (word_read c xt i _ _ rfl _ _) _ _ _ d)
    ihave Q55 := (srow_fix_nat c i xt fs hr 55 (by decide) _ _ _ _ _ ?_) $$ Q55
    · exact (fun d => spay_fact c i xt fs hr _ _ (word_read c xt i _ _ rfl _ _) _ _ _ d)
    ihave Q56 := (srow_fix_nat c i xt fs hr 56 (by decide) _ _ _ _ _ ?_) $$ Q56
    · exact (fun d => spay_fact c i xt fs hr _ _ (word_read c xt i _ _ rfl _ _) _ _ _ d)
    ihave Q57 := (srow_fix_nat c i xt fs hr 57 (by decide) _ _ _ _ _ ?_) $$ Q57
    · exact (fun d => spay_fact c i xt fs hr _ _ (word_read c xt i _ _ rfl _ _) _ _ _ d)
    ihave Q58 := (srow_fix_nat c i xt fs hr 58 (by decide) _ _ _ _ _ ?_) $$ Q58
    · exact (fun d => spay_fact c i xt fs hr _ _ (word_read c xt i _ _ rfl _ _) _ _ _ d)
    ihave Q59 := (srow_fix_nat c i xt fs hr 59 (by decide) _ _ _ _ _ ?_) $$ Q59
    · exact (fun d => spay_fact c i xt fs hr _ _ (word_read c xt i _ _ rfl _ _) _ _ _ d)
    ihave Q60 := (srow_fix_nat c i xt fs hr 60 (by decide) _ _ _ _ _ ?_) $$ Q60
    · exact (fun d => spay_fact c i xt fs hr _ _ (word_read c xt i _ _ rfl _ _) _ _ _ d)
    ihave Q61 := (srow_fix_nat c i xt fs hr 61 (by decide) _ _ _ _ _ ?_) $$ Q61
    · exact (fun d => spay_fact c i xt fs hr _ _ (word_read c xt i _ _ rfl _ _) _ _ _ d)
    ihave Q62 := (srow_fix_nat c i xt fs hr 62 (by decide) _ _ _ _ _ ?_) $$ Q62
    · exact (fun d => spay_fact c i xt fs hr _ _ (word_read c xt i _ _ rfl _ _) _ _ _ d)
    ihave Q63 := (srow_fix_nat c i xt fs hr 63 (by decide) _ _ _ _ _ ?_) $$ Q63
    · exact (fun d => spay_fact c i xt fs hr _ _ (word_read c xt i _ _ rfl _ _) _ _ _ d)
    ihave Q64 := (srow_fix_nat c i xt fs hr 64 (by decide) _ _ _ _ _ ?_) $$ Q64
    · exact (fun d => spay_fact c i xt fs hr _ _ (word_read c xt i _ _ rfl _ _) _ _ _ d)
    ihave Q65 := (srow_fix_nat c i xt fs hr 65 (by decide) _ _ _ _ _ ?_) $$ Q65
    · exact (fun d => spay_fact c i xt fs hr _ _ (word_read c xt i _ _ rfl _ _) _ _ _ d)
    ihave Q66 := (srow_fix_nat c i xt fs hr 66 (by decide) _ _ _ _ _ ?_) $$ Q66
    · exact (fun d => spay_fact c i xt fs hr _ _ (word_read c xt i _ _ rfl _ _) _ _ _ d)
    ihave Q67 := (srow_fix_nat c i xt fs hr 67 (by decide) _ _ _ _ _ ?_) $$ Q67
    · exact (fun d => spay_fact c i xt fs hr _ _ (word_read c xt i _ _ rfl _ _) _ _ _ d)
    ihave Q68 := (srow_fix_nat c i xt fs hr 68 (by decide) _ _ _ _ _ ?_) $$ Q68
    · exact (fun d => spay_fact c i xt fs hr _ _ (word_read c xt i _ _ rfl _ _) _ _ _ d)
    ihave Q69 := (srow_fix_nat c i xt fs hr 69 (by decide) _ _ _ _ _ ?_) $$ Q69
    · exact (fun d => spay_fact c i xt fs hr _ _ (word_read c xt i _ _ rfl _ _) _ _ _ d)
    ihave Q70 := (srow_fix_nat c i xt fs hr 70 (by decide) _ _ _ _ _ ?_) $$ Q70
    · exact (fun d => spay_fact c i xt fs hr _ _ (word_read c xt i _ _ rfl _ _) _ _ _ d)
    ihave Q71 := (srow_fix_nat c i xt fs hr 71 (by decide) _ _ _ _ _ ?_) $$ Q71
    · exact (fun d => spay_fact c i xt fs hr _ _ (word_read c xt i _ _ rfl _ _) _ _ _ d)
    ihave Q72 := (srow_fix_nat c i xt fs hr 72 (by decide) _ _ _ _ _ ?_) $$ Q72
    · exact (fun d => spay_fact c i xt fs hr _ _ (word_read c xt i _ _ rfl _ _) _ _ _ d)
    ihave Q73 := (srow_fix_nat c i xt fs hr 73 (by decide) _ _ _ _ _ ?_) $$ Q73
    · exact (fun d => spay_fact c i xt fs hr _ _ (word_read c xt i _ _ rfl _ _) _ _ _ d)
    ihave Q74 := (srow_fix_nat c i xt fs hr 74 (by decide) _ _ _ _ _ ?_) $$ Q74
    · exact (fun d => spay_fact c i xt fs hr _ _ (word_read c xt i _ _ rfl _ _) _ _ _ d)
    ihave Q75 := (srow_fix_nat c i xt fs hr 75 (by decide) _ _ _ _ _ ?_) $$ Q75
    · exact (fun d => spay_fact c i xt fs hr _ _ (word_read c xt i _ _ rfl _ _) _ _ _ d)
    ihave Q76 := (srow_fix_nat c i xt fs hr 76 (by decide) _ _ _ _ _ ?_) $$ Q76
    · exact (fun d => spay_fact c i xt fs hr _ _ (word_read c xt i _ _ rfl _ _) _ _ _ d)
    ihave Q77 := (srow_fix_nat c i xt fs hr 77 (by decide) _ _ _ _ _ ?_) $$ Q77
    · exact (fun d => spay_fact c i xt fs hr _ _ (word_read c xt i _ _ rfl _ _) _ _ _ d)
    ihave Q78 := (srow_fix_nat c i xt fs hr 78 (by decide) _ _ _ _ _ ?_) $$ Q78
    · exact (fun d => spay_fact c i xt fs hr _ _ (word_read c xt i _ _ rfl _ _) _ _ _ d)
    ihave Q79 := (srow_fix_nat c i xt fs hr 79 (by decide) _ _ _ _ _ ?_) $$ Q79
    · exact (fun d => spay_fact c i xt fs hr _ _ (word_read c xt i _ _ rfl _ _) _ _ _ d)
    ihave Q80 := (srow_fix_nat c i xt fs hr 80 (by decide) _ _ _ _ _ ?_) $$ Q80
    · exact (fun d => spay_fact c i xt fs hr _ _ (word_read c xt i _ _ rfl _ _) _ _ _ d)
    ihave Q81 := (srow_fix_nat c i xt fs hr 81 (by decide) _ _ _ _ _ ?_) $$ Q81
    · exact (fun d => spay_fact c i xt fs hr _ _ (word_read c xt i _ _ rfl _ _) _ _ _ d)
    ihave Q82 := (srow_fix_nat c i xt fs hr 82 (by decide) _ _ _ _ _ ?_) $$ Q82
    · exact (fun d => spay_fact c i xt fs hr _ _ (word_read c xt i _ _ rfl _ _) _ _ _ d)
    ihave Q83 := (srow_fix_nat c i xt fs hr 83 (by decide) _ _ _ _ _ ?_) $$ Q83
    · exact (fun d => spay_fact c i xt fs hr _ _ (word_read c xt i _ _ rfl _ _) _ _ _ d)
    ihave Q84 := (srow_fix_nat c i xt fs hr 84 (by decide) _ _ _ _ _ ?_) $$ Q84
    · exact (fun d => spay_fact c i xt fs hr _ _ (word_read c xt i _ _ rfl _ _) _ _ _ d)
    ihave Q85 := (srow_fix_nat c i xt fs hr 85 (by decide) _ _ _ _ _ ?_) $$ Q85
    · exact (fun d => spay_fact c i xt fs hr _ _ (word_read c xt i _ _ rfl _ _) _ _ _ d)
    ihave Q86 := (srow_fix_nat c i xt fs hr 86 (by decide) _ _ _ _ _ ?_) $$ Q86
    · exact (fun d => spay_fact c i xt fs hr _ _ (word_read c xt i _ _ rfl _ _) _ _ _ d)
    ihave Q87 := (srow_fix_nat c i xt fs hr 87 (by decide) _ _ _ _ _ ?_) $$ Q87
    · exact (fun d => spay_fact c i xt fs hr _ _ (word_read c xt i _ _ rfl _ _) _ _ _ d)
    ihave Q88 := (srow_fix_nat c i xt fs hr 88 (by decide) _ _ _ _ _ ?_) $$ Q88
    · exact (fun d => spay_fact c i xt fs hr _ _ (word_read c xt i _ _ rfl _ _) _ _ _ d)
    ihave Q89 := (srow_fix_nat c i xt fs hr 89 (by decide) _ _ _ _ _ ?_) $$ Q89
    · exact (fun d => spay_fact c i xt fs hr _ _ (word_read c xt i _ _ rfl _ _) _ _ _ d)
    ihave Q90 := (srow_fix_nat c i xt fs hr 90 (by decide) _ _ _ _ _ ?_) $$ Q90
    · exact (fun d => spay_fact c i xt fs hr _ _ (word_read c xt i _ _ rfl _ _) _ _ _ d)
    ihave Q91 := (srow_fix_nat c i xt fs hr 91 (by decide) _ _ _ _ _ ?_) $$ Q91
    · exact (fun d => spay_fact c i xt fs hr _ _ (word_read c xt i _ _ rfl _ _) _ _ _ d)
    ihave Q92 := (srow_fix_nat c i xt fs hr 92 (by decide) _ _ _ _ _ ?_) $$ Q92
    · exact (fun d => spay_fact c i xt fs hr _ _ (word_read c xt i _ _ rfl _ _) _ _ _ d)
    ihave Q93 := (srow_fix_nat c i xt fs hr 93 (by decide) _ _ _ _ _ ?_) $$ Q93
    · exact (fun d => spay_fact c i xt fs hr _ _ (word_read c xt i _ _ rfl _ _) _ _ _ d)
    ihave Q94 := (srow_fix_nat c i xt fs hr 94 (by decide) _ _ _ _ _ ?_) $$ Q94
    · exact (fun d => spay_fact c i xt fs hr _ _ (word_read c xt i _ _ rfl _ _) _ _ _ d)
    ihave Q95 := (srow_fix_nat c i xt fs hr 95 (by decide) _ _ _ _ _ ?_) $$ Q95
    · exact (fun d => spay_fact c i xt fs hr _ _ (word_read c xt i _ _ rfl _ _) _ _ _ d)
    ihave Q96 := (srow_fix_nat c i xt fs hr 96 (by decide) _ _ _ _ _ ?_) $$ Q96
    · exact (fun d => spay_fact c i xt fs hr _ _ (word_read c xt i _ _ rfl _ _) _ _ _ d)
    ihave Q97 := (srow_fix_nat c i xt fs hr 97 (by decide) _ _ _ _ _ ?_) $$ Q97
    · exact (fun d => spay_fact c i xt fs hr _ _ (word_read c xt i _ _ rfl _ _) _ _ _ d)
    ihave Q98 := (srow_fix_nat c i xt fs hr 98 (by decide) _ _ _ _ _ ?_) $$ Q98
    · exact (fun d => spay_fact c i xt fs hr _ _ (word_read c xt i _ _ rfl _ _) _ _ _ d)
    ihave Q99 := (srow_fix_nat c i xt fs hr 99 (by decide) _ _ _ _ _ ?_) $$ Q99
    · exact (fun d => spay_fact c i xt fs hr _ _ (word_read c xt i _ _ rfl _ _) _ _ _ d)
    ihave Q100 := (srow_fix_nat c i xt fs hr 100 (by decide) _ _ _ _ _ ?_) $$ Q100
    · exact (fun d => spay_fact c i xt fs hr _ _ (word_read c xt i _ _ rfl _ _) _ _ _ d)
    ihave Q101 := (srow_fix_nat c i xt fs hr 101 (by decide) _ _ _ _ _ ?_) $$ Q101
    · exact (fun d => spay_fact c i xt fs hr _ _ (word_read c xt i _ _ rfl _ _) _ _ _ d)
    ihave Q102 := (srow_fix_nat c i xt fs hr 102 (by decide) _ _ _ _ _ ?_) $$ Q102
    · exact (fun d => spay_fact c i xt fs hr _ _ (word_read c xt i _ _ rfl _ _) _ _ _ d)
    ihave Q103 := (srow_fix_nat c i xt fs hr 103 (by decide) _ _ _ _ _ ?_) $$ Q103
    · exact (fun d => spay_fact c i xt fs hr _ _ (word_read c xt i _ _ rfl _ _) _ _ _ d)
    ihave Q104 := (srow_fix_nat c i xt fs hr 104 (by decide) _ _ _ _ _ ?_) $$ Q104
    · exact (fun d => spay_fact c i xt fs hr _ _ (word_read c xt i _ _ rfl _ _) _ _ _ d)
    ihave Q105 := (srow_fix_nat c i xt fs hr 105 (by decide) _ _ _ _ _ ?_) $$ Q105
    · exact (fun d => spay_fact c i xt fs hr _ _ (word_read c xt i _ _ rfl _ _) _ _ _ d)
    ihave Q106 := (srow_fix_nat c i xt fs hr 106 (by decide) _ _ _ _ _ ?_) $$ Q106
    · exact (fun d => spay_fact c i xt fs hr _ _ (word_read c xt i _ _ rfl _ _) _ _ _ d)
    ihave Q107 := (srow_fix_nat c i xt fs hr 107 (by decide) _ _ _ _ _ ?_) $$ Q107
    · exact (fun d => spay_fact c i xt fs hr _ _ (word_read c xt i _ _ rfl _ _) _ _ _ d)
    ihave Q108 := (srow_fix_nat c i xt fs hr 108 (by decide) _ _ _ _ _ ?_) $$ Q108
    · exact (fun d => spay_fact c i xt fs hr _ _ (word_read c xt i _ _ rfl _ _) _ _ _ d)
    ihave Q109 := (srow_fix_nat c i xt fs hr 109 (by decide) _ _ _ _ _ ?_) $$ Q109
    · exact (fun d => spay_fact c i xt fs hr _ _ (word_read c xt i _ _ rfl _ _) _ _ _ d)
    ihave Q110 := (srow_fix_nat c i xt fs hr 110 (by decide) _ _ _ _ _ ?_) $$ Q110
    · exact (fun d => spay_fact c i xt fs hr _ _ (word_read c xt i _ _ rfl _ _) _ _ _ d)
    ihave Q111 := (srow_fix_nat c i xt fs hr 111 (by decide) _ _ _ _ _ ?_) $$ Q111
    · exact (fun d => spay_fact c i xt fs hr _ _ (word_read c xt i _ _ rfl _ _) _ _ _ d)
    ihave Q112 := (srow_fix_nat c i xt fs hr 112 (by decide) _ _ _ _ _ ?_) $$ Q112
    · exact (fun d => spay_fact c i xt fs hr _ _ (word_read c xt i _ _ rfl _ _) _ _ _ d)
    ihave Q113 := (srow_fix_nat c i xt fs hr 113 (by decide) _ _ _ _ _ ?_) $$ Q113
    · exact (fun d => spay_fact c i xt fs hr _ _ (word_read c xt i _ _ rfl _ _) _ _ _ d)
    ihave Q114 := (srow_fix_nat c i xt fs hr 114 (by decide) _ _ _ _ _ ?_) $$ Q114
    · exact (fun d => spay_fact c i xt fs hr _ _ (word_read c xt i _ _ rfl _ _) _ _ _ d)
    ihave Q115 := (srow_fix_nat c i xt fs hr 115 (by decide) _ _ _ _ _ ?_) $$ Q115
    · exact (fun d => spay_fact c i xt fs hr _ _ (word_read c xt i _ _ rfl _ _) _ _ _ d)
    ihave Q116 := (srow_fix_nat c i xt fs hr 116 (by decide) _ _ _ _ _ ?_) $$ Q116
    · exact (fun d => spay_fact c i xt fs hr _ _ (word_read c xt i _ _ rfl _ _) _ _ _ d)
    ihave Q117 := (srow_fix_nat c i xt fs hr 117 (by decide) _ _ _ _ _ ?_) $$ Q117
    · exact (fun d => spay_fact c i xt fs hr _ _ (word_read c xt i _ _ rfl _ _) _ _ _ d)
    ihave Q118 := (srow_fix_nat c i xt fs hr 118 (by decide) _ _ _ _ _ ?_) $$ Q118
    · exact (fun d => spay_fact c i xt fs hr _ _ (word_read c xt i _ _ rfl _ _) _ _ _ d)
    ihave Q119 := (srow_fix_nat c i xt fs hr 119 (by decide) _ _ _ _ _ ?_) $$ Q119
    · exact (fun d => spay_fact c i xt fs hr _ _ (word_read c xt i _ _ rfl _ _) _ _ _ d)
    ihave Q120 := (srow_fix_nat c i xt fs hr 120 (by decide) _ _ _ _ _ ?_) $$ Q120
    · exact (fun d => spay_fact c i xt fs hr _ _ (word_read c xt i _ _ rfl _ _) _ _ _ d)
    ihave Q121 := (srow_fix_nat c i xt fs hr 121 (by decide) _ _ _ _ _ ?_) $$ Q121
    · exact (fun d => spay_fact c i xt fs hr _ _ (word_read c xt i _ _ rfl _ _) _ _ _ d)
    ihave Q122 := (srow_fix_nat c i xt fs hr 122 (by decide) _ _ _ _ _ ?_) $$ Q122
    · exact (fun d => spay_fact c i xt fs hr _ _ (word_read c xt i _ _ rfl _ _) _ _ _ d)
    ihave Q123 := (srow_fix_nat c i xt fs hr 123 (by decide) _ _ _ _ _ ?_) $$ Q123
    · exact (fun d => spay_fact c i xt fs hr _ _ (word_read c xt i _ _ rfl _ _) _ _ _ d)
    ihave Q124 := (srow_fix_nat c i xt fs hr 124 (by decide) _ _ _ _ _ ?_) $$ Q124
    · exact (fun d => spay_fact c i xt fs hr _ _ (word_read c xt i _ _ rfl _ _) _ _ _ d)
    ihave Q125 := (srow_fix_nat c i xt fs hr 125 (by decide) _ _ _ _ _ ?_) $$ Q125
    · exact (fun d => spay_fact c i xt fs hr _ _ (word_read c xt i _ _ rfl _ _) _ _ _ d)
    ihave Q126 := (srow_fix_nat c i xt fs hr 126 (by decide) _ _ _ _ _ ?_) $$ Q126
    · exact (fun d => spay_fact c i xt fs hr _ _ (word_read c xt i _ _ rfl _ _) _ _ _ d)
    ihave Q127 := (srow_fix_nat c i xt fs hr 127 (by decide) _ _ _ _ _ ?_) $$ Q127
    · exact (fun d => spay_fact c i xt fs hr _ _ (word_read c xt i _ _ rfl _ _) _ _ _ d)
    ihave HW := (wbuf_rows c (Gw c i xt fw hr)).2 $$ [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127]
    · iframe
    ihave HS := (sbuf_rows c (Gs c i xt fs hr)).2 $$ [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51 Q52 Q53 Q54 Q55 Q56 Q57 Q58 Q59 Q60 Q61 Q62 Q63 Q64 Q65 Q66 Q67 Q68 Q69 Q70 Q71 Q72 Q73 Q74 Q75 Q76 Q77 Q78 Q79 Q80 Q81 Q82 Q83 Q84 Q85 Q86 Q87 Q88 Q89 Q90 Q91 Q92 Q93 Q94 Q95 Q96 Q97 Q98 Q99 Q100 Q101 Q102 Q103 Q104 Q105 Q106 Q107 Q108 Q109 Q110 Q111 Q112 Q113 Q114 Q115 Q116 Q117 Q118 Q119 Q120 Q121 Q122 Q123 Q124 Q125 Q126 Q127]
    · iframe
    set_option sl_exec.stepHeartbeats 5000000 in
    sl_exec (disch := first | exact ⟨inbW _ (hr _ _), inbS _ (hr _ _), inbW _ (hr _ _), inbS _ (hr _ _)⟩ | exact ⟨inbW _ (hr _ _), inbS _ (hr _ _)⟩)
    sl_step
    iapply Hk
    isplitl [H4]; · iexists _; iexact H4
    isplitl [HW]; · iexists _; iexact HW
    isplitl [HS]; · iexists _; iexact HS
    isplitl [HT]; · iexact HT
    isplitl [Hq2]; · iexact Hq2
    isplitl [Hq3]; · iexact Hq3
    isplitl [HO]; · iexists _; iexact HO
    iapply (BIClass.sep_mono (split128 (F := F) fw).2 (split128 (F := F) fs).2)
    iframe

end Cert.KernelIdeal.Fr

end
-- ==== Proof.IdealEntry.lean ====
/-
  What the region finds when it is entered, read entry by entry: the arguments untouched, the prefetched table
  the clamp of the flattened ids — every word of it a row number of the tables, and the id itself when the id is
  in range —, and the two arrays the body gathers rows from the weight table and the zero-padded scales with a
  unit middle axis.
-/
import proofs.«418394_j61838939127938_3_alg».proof.Proof.IdealSetup
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.Lib.IdealHost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.StableHlo

variable {F : FTy → Type} [FloatOps F]

variable (m : (ℓ : Loc nD τ sig) → Buf (Elt F) ℓ)

/-! ## What the host operations before the region leave in each buffer

The operations before the region flatten the ids and clamp them into `[0, 50256]` (signed maximum with 0, then
signed minimum with 50256), give the weight table a unit middle axis, pad the scale rows from 8 to 128 lanes with
zeros and give them a unit middle axis too. None writes an argument. -/

/-- No host operation writes the ids. -/
theorem V_main_arg0 (c : Dev nD) : V m c main_arg0 = m ((c : Thread nD τ).loc main_arg0) := by
  dsimp only [V, V0]
  simp only [hostOps0, hostOps0_1, hostOps0_2, hostOps0_3, hostOps0_4, List.flatten_cons, List.flatten_nil,
    List.append_nil, List.cons_append, List.nil_append]
  after_results

/-- No host operation writes the weight table. -/
theorem V_main_arg1 (c : Dev nD) : V m c main_arg1 = m ((c : Thread nD τ).loc main_arg1) := by
  dsimp only [V, V0]
  simp only [hostOps0, hostOps0_1, hostOps0_2, hostOps0_3, hostOps0_4, List.flatten_cons, List.flatten_nil,
    List.append_nil, List.cons_append, List.nil_append]
  after_results

/-- No host operation writes the scales. -/
theorem V_main_arg2 (c : Dev nD) : V m c main_arg2 = m ((c : Thread nD τ).loc main_arg2) := by
  dsimp only [V, V0]
  simp only [hostOps0, hostOps0_1, hostOps0_2, hostOps0_3, hostOps0_4, List.flatten_cons, List.flatten_nil,
    List.append_nil, List.cons_append, List.nil_append]
  after_results

/-- The table of clamped ids as a term of the ids. -/
theorem V_main_v1 (c : Dev nD) :
    (V m c main_v1 : IVec S16384 32)
      = minsi (broadcastInDim S16384 ![] bcast_S_S16384 (constantI S_ 32 50256#32))
          (maxsi (broadcastInDim S16384 ![] bcast_S_S16384 (constantI S_ 32 0#32))
            (shapeCast S16384 (m ((c : Thread nD τ).loc main_arg0) : IVec S8x2048 32) shapeCasts_S8x2048_S16384)) := by
  dsimp only [V, V0]
  simp only [hostOps0, hostOps0_1, hostOps0_2, hostOps0_3, hostOps0_4, List.flatten_cons, List.flatten_nil,
    List.append_nil, List.cons_append, List.nil_append]
  after_results
  rfl

/-- The weight table with its unit middle axis. -/
theorem V_main_v2 (c : Dev nD) :
    (V m c main_v2 : FVec F S50257x1x1024 .f32)
      = shapeCast S50257x1x1024 (m ((c : Thread nD τ).loc main_arg1) : FVec F S50257x1024 .f32)
          shapeCasts_S50257x1024_S50257x1x1024 := by
  dsimp only [V, V0]
  simp only [hostOps0, hostOps0_1, hostOps0_2, hostOps0_3, hostOps0_4, List.flatten_cons, List.flatten_nil,
    List.append_nil, List.cons_append, List.nil_append]
  after_results
  rfl

/-- The scale rows padded to 128 lanes, with their unit middle axis. -/
theorem V_main_v4 (c : Dev nD) :
    (V m c main_v4 : FVec F S50257x1x128 .f32)
      = shapeCast S50257x1x128
          (pad S50257x128 ![0, 0] ![0, 120] ![0, 0] (m ((c : Thread nD τ).loc main_arg2) : FVec F S50257x8 .f32)
            (sitofp (F := F) .f32 (constantI S_ 32 0#32)) pads_S50257x8_S50257x128_000_01200 h_S_)
          shapeCasts_S50257x128_S50257x1x128 := by
  dsimp only [V, V0]
  simp only [hostOps0, hostOps0_1, hostOps0_2, hostOps0_3, hostOps0_4, List.flatten_cons, List.flatten_nil,
    List.append_nil, List.cons_append, List.nil_append]
  after_results
  rfl

/-! ## The clamp on one word -/

/-- Whatever the word, its clamp into `[0, 50256]` (signed) is below 50257 read unsigned: a negative word goes to
    0, a word above 50256 to 50256, and a word in between is non-negative, so both readings agree. -/
theorem clamp_lt (x : BitVec 32) : (IntOp.minsi 50256#32 (IntOp.maxsi 0#32 x)).toNat < 50257 := by
  have h50 : (50256#32 : BitVec 32).toInt = 50256 := by decide
  have h0 : (0#32 : BitVec 32).toInt = 0 := by decide
  unfold IntOp.maxsi
  split
  · show (IntOp.minsi 50256#32 0#32).toNat < 50257
    decide
  · rename_i hc
    unfold IntOp.minsi
    split
    · decide
    · rename_i hd
      simp only [BitVec.slt, h0, h50, decide_eq_true_eq] at hc hd
      rw [BitVec.toInt_eq_toNat_cond] at hc hd
      have := x.isLt
      split at hc <;> omega

/-- A word already in `[0, 50256]` is its own clamp. -/
theorem clamp_id (x : BitVec 32) (h : x.toNat < 50257) : IntOp.minsi 50256#32 (IntOp.maxsi 0#32 x) = x := by
  have hti : x.toInt = x.toNat := Predicate.toInt_eq_toNat_of_lt (by omega)
  have h50 : (50256#32 : BitVec 32).toInt = 50256 := by decide
  have h0 : (0#32 : BitVec 32).toInt = 0 := by decide
  have hmax : IntOp.maxsi 0#32 x = x := by
    unfold IntOp.maxsi
    split
    · rename_i hc
      simp only [BitVec.slt, hti, h0, decide_eq_true_eq] at hc
      omega
    · rfl
  rw [hmax]
  unfold IntOp.minsi
  split
  · rename_i hc
    simp only [BitVec.slt, hti, h50, decide_eq_true_eq] at hc
    omega
  · rfl

/-! ## The table of clamped ids -/

/-- The table at word `n`: the clamp of the flattened ids' word `n`. -/
theorem tbl_apply (n : S16384.Idx) :
    (tbl m 0 : IVec S16384 32) n
      = IntOp.minsi 50256#32 (IntOp.maxsi 0#32
          (shapeCast S16384 (m (((0 : Dev nD) : Thread nD τ).loc main_arg0) : IVec S8x2048 32) shapeCasts_S8x2048_S16384 n)) := by
  show (V m (0 : Dev nD) main_v1 : IVec S16384 32) n = _
  rw [V_main_v1]
  rfl

/-- Every word of the table is below 50257, whatever the memory. -/
theorem tbl_lt (n : S16384.Idx) : ((tbl m 0 : IVec S16384 32) n).toNat < 50257 := by
  rw [tbl_apply]
  exact clamp_lt _

/-- The same of any load through the whole table: a load reads the table at the coordinates under its indices. -/
theorem tbl_readAt_lt (c : Dev nD) (r : LoadRect S16384) (j : r.shape.Idx) :
    ((tbM.view.readAt (Elt F) r (tbl m 0) j : Elt F .i32) : BitVec 32).toNat < 50257 :=
  tbl_lt m (r.idx j)

/-- When every id is in range the table holds the ids, flattened row-major. -/
theorem tbl_eq_ids
    (hids : ∀ i : S8x2048.Idx, ((m (((0 : Dev nD) : Thread nD τ).loc main_arg0) : IVec S8x2048 32) i).toNat < 50257)
    (b : Fin 8) (t : Fin 2048) (hn : b.val * 2048 + t.val < 16384) :
    (tbl m 0 : IVec S16384 32) (ix1 ⟨b.val * 2048 + t.val, hn⟩)
      = (m (((0 : Dev nD) : Thread nD τ).loc main_arg0) : IVec S8x2048 32) (ix2 b t) := by
  rw [tbl_apply, shapeCast_apply (s := S8x2048) (t := S16384) _ _ (ix1 ⟨b.val * 2048 + t.val, hn⟩) (ix2 b t) (by
    rw [Shape.rowMajor_val_two, Shape.rowMajor_val_one]
    rfl)]
  exact clamp_id _ (hids (ix2 b t))

/-! ## The two arrays the body gathers rows from -/

/-- Row `v` of the reshaped weight table is row `v` of the weights. -/
theorem V_w (c : Dev nD) (v : Fin 50257) (d : Fin 1024) :
    (V m c main_v2 : FVec F S50257x1x1024 .f32) (ix3 v (0 : Fin 1) d)
      = (m ((c : Thread nD τ).loc main_arg1) : FVec F S50257x1024 .f32) (ix2 v d) := by
  rw [V_main_v2]
  exact shapeCast_apply (s := S50257x1024) (t := S50257x1x1024) _ _ (ix3 v (0 : Fin 1) d) (ix2 v d) (by
    rw [Shape.rowMajor_val_two, Shape.rowMajor_val_three]
    show v.val * 1024 + d.val = (v.val * 1 + 0) * 1024 + d.val
    omega)

/-- The first 8 lanes of row `v` of the padded scales are row `v` of the scales. -/
theorem V_s (c : Dev nD) (v : Fin 50257) (g : Fin 8) (hg : g.val < 128) :
    (V m c main_v4 : FVec F S50257x1x128 .f32) (ix3 v (0 : Fin 1) ⟨g.val, hg⟩)
      = (m ((c : Thread nD τ).loc main_arg2) : FVec F S50257x8 .f32) (ix2 v g) := by
  rw [V_main_v4]
  rw [shapeCast_apply (s := S50257x128) (t := S50257x1x128) _ _ (ix3 v (0 : Fin 1) (⟨g.val, hg⟩ : Fin 128)) (ix2 v (⟨g.val, hg⟩ : Fin 128)) (by
    rw [Shape.rowMajor_val_two, Shape.rowMajor_val_three]
    show v.val * 128 + g.val = (v.val * 1 + 0) * 128 + g.val
    omega)]
  exact pad_apply_of_inside (s := S50257x8) (t := S50257x128) _ _ _ _ _ _ _ (ix2 v (⟨g.val, hg⟩ : Fin 128)) (ix2 v g) (fun a => by
    match a with
    | ⟨0, _⟩ => show v.val = 0 + v.val * (0 + 1); omega
    | ⟨1, _⟩ => show g.val = 0 + g.val * (0 + 1); omega)

end Cert.KernelIdeal.Fr

end
-- ==== Proof.IdealFrame.lean ====
/-
  The region's proof data and the launch: each block of the result as the body leaves it, the body's obligation at
  every grid point from the body's run, every weakly fair execution of the program terminating with the result array
  at the library's account of the blocks written back, and the three argument arrays unchanged.
-/
import proofs.«418394_j61838939127938_3_alg».proof.Proof.IdealRun
import proofs.«418394_j61838939127938_3_alg».proof.Proof.IdealEntry
import Idealize.ShloMosaic.Lib.Ring

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- One staging buffer of the output window, through which its contents are stated. -/
abbrev VO0 : View sig .tc .vmem S128x1024 .f32 := (Memref.whole cc0_stg0_0 : Memref sig .tc .vmem S128x1024 .f32).view

/-- The body's one store covers the output block. -/
theorem cover0 (c : Dev nD) (i : grid0.Coords) (arg4 : Memref sig .tc .vmem S128x1024 .f32) (harg4 : arg4.IsWhole)
    (xt : BufOf (F := F) c tbM) (fw : BufOf (F := F) c wM) (fs : BufOf (F := F) c sM)
    (hr : ∀ (r : LoadRect S16384) (j : r.shape.Idx), (tbM.view.readAt (Elt F) r xt j).toNat < 50257) (y : S128x1024.Idx) :
    ∃ pc ∈ (kernelRun0 c i arg4 harg4 xt fw fs hr).1, y ∈ pc.1.set :=
  View.cover_of_tiledL (kernelRun0 c i arg4 harg4 xt fw fs hr).1 S128x1024.size (by sl_kernel_rfl) y

/-- What the body leaves in the output's staging buffer: its store read back. -/
def out0 (c : Dev nD) (i : grid0.Coords) (arg4 : Memref sig .tc .vmem S128x1024 .f32) (harg4 : arg4.IsWhole)
    (xt : BufOf (F := F) c tbM) (fw : BufOf (F := F) c wM) (fs : BufOf (F := F) c sM)
    (hr : ∀ (r : LoadRect S16384) (j : r.shape.Idx), (tbM.view.readAt (Elt F) r xt j).toNat < 50257) : Vec F S128x1024 .f32 :=
  VO0.read (Elt F) (VO0.writes (Elt F) VO0.junk (kernelRun0 c i arg4 harg4 xt fw fs hr).1)

/-- The output block after the body at point `t`. -/
def outsAt0 (c : Dev nD) (t : Fin (cfgM m).N) : Vec F S128x1024 .f32 :=
  out0 c (grid0.coords t) (ms0_0 m t) (hs0_0 m t) (tbl m 0) (V m c main_v2) (V m c main_v4) (tbl_readAt_lt m c)

/-- The pipeline's proof data: the result array as the region finds it, each block as the body leaves it, the
    invariant (the row buffers, the two cells at zero, the gathered arrays and the table's half), nothing owed. -/
def dats (_ : Fin 1) (c : Dev nD) : Dat τ (Elt F) Unit ℕ (Pipeline.UD sig nD τ) ℕ (cfgM m) c where
  A w := V m c (Pipeline.arrRef spec0 w)
  after w t := match w with
    | ⟨0, _⟩ => outsAt0 m c t
  Φ _ := iprop(Pipeline.ΦD osem0 spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = outsAt0 m c t := by dsimp only [dats]; try rfl

/-- The kernel body at point `t`, on what the pipeline calls it with. -/
abbrev bodyAt0 (t : Fin (cfgM m).N) : Prog (TpuEff nD τ sig (Elt F) Λ₀ .tc) PUnit :=
  cc0__gather_quant_kernel (grid0.coords t) tbM (Memref.isWhole_whole _) wM (Memref.isWhole_whole _) sM (Memref.isWhole_whole _)
    (spec0_0.stage ((cfgM m).slots t 0)) (hstage0_0 (((cfgM m).slots t 0).cast nbuf0_0)) wbuf (Memref.isWhole_whole _) sbuf (Memref.isWhole_whole _)
    cc0_scratch2 cc0_scratch3

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d)))
/-- and what it returns. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t))

theorem sound_body (c : Dev nD) (t : Fin (cfgM m).N) :
    bodyPre m c t ⊢ wp frame (wpE (defs₀ (F := F)) Variants.none c none) Set.univ (bodyAt0 m t) (fun _ => bodyPost m c t) := by
  unfold bodyPre bodyPost
  rw [show (dats m 0 c).Φ t.succ = (dats m 0 c).Φ t.castSucc from rfl, after0_0]
  rw [show (dats m 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m 0 c).owed t.castSucc = 0 from rfl, show (dats m 0 c).owed t.succ = 0 from rfl]
  unfold outsAt0 out0
  iintro ⟨⟨⟨⟨HW, HS⟩, Hg, ⟨Hq2, Hq3⟩, ⟨HwM, HsM⟩⟩, HT⟩, ⟨%W, -, HO⟩, ⟨%d0, H0⟩⟩
  iapply ((kernelRun0 c (grid0.coords t) _ _ (tbl m 0) (V m c main_v2) (V m c main_v4) (tbl_readAt_lt m c)).2 W _)
  isplitl [H0]; · iexists _; iexact H0
  isplitl [HW]; · iexact HW
  isplitl [HS]; · iexact HS
  isplitl [HT]; · iexact HT
  isplitl [Hq2]; · iexact Hq2
  isplitl [Hq3]; · iexact Hq3
  isplitl [HwM]; · iexact HwM
  isplitl [HsM]; · iexact HsM
  isplitl [HO]; · iexact HO
  iintro ⟨⟨%e0, H0⟩, HW, HS, HT, Hq2, Hq3, ⟨%W', HO'⟩, HwM, HsM⟩
  isplitl [HW HS Hg Hq2 Hq3 HwM HsM HT]
  · isplitr [HT]; swap; · iexact HT
    isplitl [HW HS]
    · isplitl [HW]; · iexact HW
      iexact HS
    isplitl [Hg]; · iexact Hg
    isplitl [Hq2 Hq3]
    · isplitl [Hq2]; · iexact Hq2
      iexact Hq3
    isplitl [HwM]; · iexact HwM
    iexact HsM
  isplitl [HO']
  · iexists W'; isplitr; · ipureintro; exact fun _ _ => Or.inl trivial
    iexact HO'
  unfold owns; iexists _; isplitr
  swap; · iexact H0
  ipureintro; exact View.read_writes_of_cover _ _ _ _ _ (cover0 c _ _ _ _ _ _ _)

set_option maxRecDepth 200000 in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; the result array ends at the library's account of the
    blocks written back, every other unscoped buffer at what the final reshape leaves. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_dma_around pcfgs (fun _ => adm m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m)
    (hin := fun _ => .rfl) (hout := fun c => by
      rw [show (dats m 0 c).Φ (Fin.last (cfgM m).N) = iprop(Pipeline.ΦD osem0 spec0 H0 (V m) c ∗ Pipeline.ΦT pre0 (tbl m) c) from rfl]
      iintro ⟨H, -⟩; iexact H)

/-- The final reshape writes only the reshaped result: every other buffer but the region's result array ends as the
    region found it. -/
theorem tail_keep (c : Dev nD) (b : Ref sig .tc) (h5 : b ≠ main_v5) (h6 : b ≠ main_v6) :
    Pipeline.afterTail pcfgs (fun _ => adm m) (dats m) 0 (V0 m) [hostOps1] c b = V m c b := by
  have h1 : ∀ op ∈ ([hostOps1] : List (List (HloOp τ sig (Elt F)))).flatten, Proc.devRef .tc b ∉ op.writes := by
    intro op hop hw
    simp only [List.flatten_cons, List.flatten_nil, List.append_nil, hostOps1, List.mem_cons, List.mem_nil_iff, or_false] at hop
    subst hop
    simp only [StableHlo.reshape_writes, Finset.mem_singleton] at hw
    exact h6 (Proc.devRef_injective _ hw)
  have h2 : ∀ w, Pipeline.arrRef (Pipeline.pin pcfgs (fun _ => adm m) 0).spec w ≠ b := by
    intro w e; fin_cases w; exact h5 e.symm
  unfold Pipeline.afterTail
  rw [StableHlo.after_of_forall_not_mem _ _ h1, Pipeline.withArrays_of_ne _ c (V0 m c) _ b h2]

/-- The three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_arg0 (show main_arg0 ∈ Pipeline.restRefs sig spec0 from by decide)).trans ((tail_keep m c main_arg0 (by decide) (by decide)).trans (V_main_arg0 m c)),
      ((h c).2 main_arg1 (show main_arg1 ∈ Pipeline.restRefs sig spec0 from by decide)).trans ((tail_keep m c main_arg1 (by decide) (by decide)).trans (V_main_arg1 m c)),
      ((h c).2 main_arg2 (show main_arg2 ∈ Pipeline.restRefs sig spec0 from by decide)).trans ((tail_keep m c main_arg2 (by decide) (by decide)).trans (V_main_arg2 m c))⟩) (run_main m ρ)

end Cert.KernelIdeal.Fr

end
-- ==== Proof.IdealValue.lean ====
/-
  The idealized kernel's value from its frame run, given what the body leaves at each grid point.

  The region has 128 points; point `t` writes back rows `t·128 … t·128 + 127` of the [16384, 1024] result array,
  and the program ends by regrouping that array as 8 × 2048 rows. The BLOCK FACT says what the body leaves: row `r`
  of point `t`'s block is, column by column, the specification's cell of the row of the two gathered arrays that the
  prefetched table names for output row `t·128 + r`. From it: the blocks are restrictions of one whole-array
  function and cover the array, so the array ends at that function; and when every id is in range the table's word
  is the id, the gathered arrays hold the weights and (in their first 8 lanes) the scales, and the regrouped array is
  the specification.
-/
import proofs.«418394_j61838939127938_3_alg».proof.Proof.IdealFrame
import proofs.«418394_j61838939127938_3_alg».proof.Proof.IdealEntry
import proofs.«418394_j61838939127938_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx Idealize.ShloMosaic.StableHlo

variable (m : (ℓ : Loc nD τ sig) → Buf (Elt Ideal) ℓ) (ρ : Dev nD → PrngReg)

/-- The grid has 128 points. -/
theorem N_eq : (cfgM m).N = 128 := N_0

/-- The row of the tables that output row `n` is gathered from: the table's word `n`. -/
def rowOf (n : Fin 16384) : Fin 50257 := ⟨((tbl m 0 : IVec S16384 32) (ix1 n)).toNat, tbl_lt m (ix1 n)⟩

/-- The output row that row `r` of point `t`'s block is. -/
def slot (t : Fin (cfgM m).N) (r : Fin 128) : Fin 16384 :=
  ⟨t.val * 128 + r.val, by have h : t.val < 128 := lt_of_lt_of_eq t.isLt (N_eq m); have := r.isLt; omega⟩

/-- The group of 128 columns a column lies in, as a lane of the padded scale rows. -/
def lane (d : Fin 1024) : Fin 128 := ⟨d.val / 128, by have := d.isLt; omega⟩

/-- One entry of the result array from the two gathered arrays: the cell of row `v`'s weight at column `d` and its
    scale at the column's group. -/
def cellAt (c : Dev nD) (v : Fin 50257) (d : Fin 1024) : EReal :=
  Cert.Spec.cell ((V m c main_v2 : FVec Ideal S50257x1x1024 .f32) (ix3 v (0 : Fin 1) d))
    ((V m c main_v4 : FVec Ideal S50257x1x128 .f32) (ix3 v (0 : Fin 1) (lane d)))

/-- THE BLOCK FACT: row `r` of the block the body leaves at point `t` is, column by column, the cell of the row of the
    gathered arrays that the table names for output row `t·128 + r`. -/
def BlockFact : Prop :=
  ∀ (c : Dev nD) (t : Fin (cfgM m).N) (r : Fin 128) (d : Fin 1024),
    outsAt0 (F := Ideal) m c t (ix2 r d) = cellAt m c (rowOf m (slot m t r)) d

/-- The whole result array: row `n`, column `d` the cell of the row the table names for `n`. -/
def Garr (c : Dev nD) : FVec Ideal S16384x1024 .f32 := fun i => cellAt m c (rowOf m (i 0)) (i 1)

theorem Garr_apply (c : Dev nD) (n : Fin 16384) (d : Fin 1024) : Garr m c (ix2 n d) = cellAt m c (rowOf m n) d := rfl

/-- The output window's block index at point `t`: block row `t`, block column 0. -/
theorem idx_facts : ∀ t : Fin (cfgM m).N, ((cfgM m).win 0).index t (0 : Fin 2) = t.val ∧ ((cfgM m).win 0).index t (1 : Fin 2) = 0 :=
  (by decide +kernel : ∀ t : Fin grid0.N, cc0_transform_2 (grid0.coords t) (0 : Fin 2) = t.val ∧ cc0_transform_2 (grid0.coords t) (1 : Fin 2) = 0)

/-- The block fact, with the right side as the result array's entry. -/
theorem block_eq (hblk : BlockFact m) (c : Dev nD) (t : Fin (cfgM m).N) (r : Fin 128) (d : Fin 1024) :
    outsAt0 (F := Ideal) m c t (ix2 r d) = Garr m c (ix2 (slot m t r) d) :=
  (hblk c t r d).trans (Garr_apply m c (slot m t r) d).symm

/-- WHAT POINT `t` WRITES BACK is block `t` of the result array. -/
theorem flushed_eq (hblk : BlockFact m) (c : Dev nD) (t : Fin (cfgM m).N) :
    (dats m 0 c).flushed 0 t = (((cfgM m).win 0).blk t).view.read (Elt Ideal) (Garr m c) := by
  show ((cfgM m).win 0).cut (grid0.coords t) ((dats m 0 c).after 0 t) = _
  rw [after0_0]
  funext j
  revert j
  show ∀ j : S128x1024.Idx, outsAt0 (F := Ideal) m c t j = Garr m c ((((cfgM m).win 0).blk t).view.emb j)
  intro j
  obtain ⟨e0, e1⟩ := idx_facts m t
  have hemb : (((cfgM m).win 0).blk t).view.emb j = ix2 (slot m t (j 0)) (j 1) := by
    funext a; apply Fin.ext
    match a with
    | ⟨0, _⟩ =>
      show ((cfgM m).win 0).index t (0 : Fin 2) * 128 + 1 * (j 0).val = t.val * 128 + (j 0).val
      rw [e0]; omega
    | ⟨1, _⟩ =>
      show ((cfgM m).win 0).index t (1 : Fin 2) * 1024 + 1 * (j 1).val = (j 1).val
      rw [e1]; omega
  rw [hemb]
  exact (congrArg (outsAt0 (F := Ideal) m c t) (eq_ix2 j)).trans (block_eq m hblk c t (j 0) (j 1))

/-- The output window is written back at every point. -/
theorem flush_all : ∀ t : Fin (cfgM m).N, ((cfgM m).win 0).flush t = true :=
  (by decide +kernel : ∀ t : Fin grid0.N, Pipeline.Window.flushOf grid0 true cc0_transform_2 t = true)

set_option backward.isDefEq.respectTransparency.types false in
/-- An index of the result array is in point `t`'s block iff each coordinate is in the block's range on its axis. -/
theorem mem_blk (t : Fin (cfgM m).N) (i : S16384x1024.Idx) :
    i ∈ (((cfgM m).win 0).blk t).view.set ↔ ∀ a : Fin 2, ((cfgM m).win 0).index t a * S128x1024.size a ≤ (i a).val
      ∧ (i a).val < ((cfgM m).win 0).index t a * S128x1024.size a + S128x1024.size a := by
  show i ∈ ((View.whole main_v5).slice (((cfgM m).win 0).rect t)).set ↔ _
  rw [View.set_slice_whole]
  exact Rect.mem_set_unit

/-- Every index of the result array is in the block of the point its row falls to: row `n` in point `n / 128`. -/
theorem covered (i : S16384x1024.Idx) :
    ∃ t : Fin (cfgM m).N, ((cfgM m).win 0).flush t = true ∧ i ∈ (((cfgM m).win 0).blk t).view.set := by
  have hi0 : (i 0).val < 16384 := (i 0).isLt
  have hi1 : (i 1).val < 1024 := (i 1).isLt
  refine ⟨⟨(i 0).val / 128, by rw [N_eq m]; omega⟩, flush_all m _, ?_⟩
  rw [mem_blk]
  obtain ⟨e0, e1⟩ := idx_facts m ⟨(i 0).val / 128, by rw [N_eq m]; omega⟩
  intro a
  match a with
  | ⟨0, _⟩ =>
    show ((cfgM m).win 0).index ⟨(i 0).val / 128, _⟩ (0 : Fin 2) * 128 ≤ (i 0).val
      ∧ (i 0).val < ((cfgM m).win 0).index ⟨(i 0).val / 128, _⟩ (0 : Fin 2) * 128 + 128
    rw [e0]
    show (i 0).val / 128 * 128 ≤ (i 0).val ∧ (i 0).val < (i 0).val / 128 * 128 + 128
    omega
  | ⟨1, _⟩ =>
    show ((cfgM m).win 0).index ⟨(i 0).val / 128, _⟩ (1 : Fin 2) * 1024 ≤ (i 1).val
      ∧ (i 1).val < ((cfgM m).win 0).index ⟨(i 0).val / 128, _⟩ (1 : Fin 2) * 1024 + 1024
    rw [e1]
    omega

/-- THE RESULT ARRAY after the run, given the block fact. -/
theorem final (hblk : BlockFact m) (c : Dev nD) : (dats m 0 c).arrAt 0 (cfgM m).N = Garr m c :=
  (dats m 0 c).arrAt_eq_of_cover 0 (Garr m c) (fun t _ => flushed_eq m hblk c t) (covered m)

/-- After the final reshape the result buffer holds the result array regrouped as 8 × 2048 rows. -/
theorem tail_v6 (c : Dev nD) :
    (Pipeline.afterTail pcfgs (fun _ => adm m) (dats m) 0 (V0 m) [hostOps1] c main_v6 : FVec Ideal S8x2048x1024 .f32)
      = shapeCast S8x2048x1024 ((dats m 0 c).arrAt 0 (cfgM m).N : FVec Ideal S16384x1024 .f32) shapeCasts_S16384x1024_S8x2048x1024 := by
  unfold Pipeline.afterTail
  show StableHlo.after hostOps1 _ (Proc.devRef .tc main_v6) = _
  after_results
  have e : Pipeline.withArrays (Pipeline.pin pcfgs (fun _ => adm m) 0).spec c (V0 m c)
      (fun w => (dats m 0 c).arrAt w (Pipeline.pin pcfgs (fun _ => adm m) 0).N) (Proc.devRef .tc main_v5)
      = (dats m 0 c).arrAt 0 (cfgM m).N :=
    Pipeline.withArrays_arr (Pipeline.pin pcfgs (fun _ => adm m) 0).spec winFacts0.arr_inj c (V0 m c) _ 0
  funext i
  exact congrArg (fun X : FVec Ideal S16384x1024 .f32 => shapeCast S8x2048x1024 X shapeCasts_S16384x1024_S8x2048x1024 i) e

/-- The result array regrouped as 8 × 2048 rows is the specification when every id is in range: row
    `b·2048 + t` is gathered from the row the table names, the table's word there is the id, and the two
    gathered arrays hold the weights and the scales in their first lanes. -/
theorem reshaped_eq
    (hids : ∀ (c : Dev nD) (i : S8x2048.Idx), ((m ((c.tc : Thread nD τ).loc main_arg0) : IVec S8x2048 32) i).toNat < 50257)
    (c : Dev nD) :
    shapeCast S8x2048x1024 (Garr m c) shapeCasts_S16384x1024_S8x2048x1024
      = Cert.Spec.G (m ((c.tc : Thread nD τ).loc main_arg0)) (m ((c.tc : Thread nD τ).loc main_arg1)) (m ((c.tc : Thread nD τ).loc main_arg2)) := by
  obtain rfl : c = 0 := Subsingleton.elim _ _
  funext j
  obtain ⟨b, t, d, rfl⟩ : ∃ (b : Fin 8) (t : Fin 2048) (d : Fin 1024), j = ix3 b t d := ⟨j 0, j 1, j 2, eq_ix3 j⟩
  have hn : b.val * 2048 + t.val < 16384 := by have := b.isLt; have := t.isLt; omega
  have hg : (Cert.Spec.grp d).val < 128 := by have := (Cert.Spec.grp d).isLt; omega
  rw [shapeCast_apply (s := S16384x1024) (t := S8x2048x1024) _ _ (ix3 b t d) (ix2 (⟨b.val * 2048 + t.val, hn⟩ : Fin 16384) d) (by
    rw [Shape.rowMajor_val_two, Shape.rowMajor_val_three]
    rfl)]
  rw [Garr_apply, Cert.Spec.G_apply]
  have hrow : rowOf m (⟨b.val * 2048 + t.val, hn⟩ : Fin 16384)
      = Cert.Spec.row (m (((0 : Dev nD).tc : Thread nD τ).loc main_arg0)) b t := by
    refine Fin.ext ?_
    show ((tbl m 0 : IVec S16384 32) (ix1 ⟨b.val * 2048 + t.val, hn⟩)).toNat = _
    rw [tbl_eq_ids m (hids 0) b t hn, Cert.Spec.row_val _ b t (hids 0 (ix2 b t))]
  rw [hrow]
  unfold cellAt
  rw [V_w m 0 _ d]
  have hs := V_s m 0 (Cert.Spec.row (m (((0 : Dev nD).tc : Thread nD τ).loc main_arg0)) b t) (Cert.Spec.grp d) hg
  exact congrArg (Cert.Spec.cell _) hs

/-- THE KERNEL'S VALUE: given the block fact and the ids in range, every weakly fair execution terminates with the
    result buffer at the specification and the three arguments unchanged. -/
theorem value_run (hblk : BlockFact m)
    (hids : ∀ (c : Dev nD) (i : S8x2048.Idx), ((m ((c.tc : Thread nD τ).loc main_arg0) : IVec S8x2048 32) i).toNat < 50257) :
    θ_run (defs (F := Ideal)) (onTc (τ := τ) (main (F := Ideal))) ⟨m, fun _ => 0, ρ⟩ (fun r => ∀ c : Dev nD,
      r.2.mem ((c.tc : Thread nD τ).loc main_v6)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v6 (show main_v6 ∈ Pipeline.restRefs sig spec0 from by decide)).trans
        ((tail_v6 m c).trans (by rw [final m hblk c]; exact reshaped_eq m hids c)),
      ((h c).2 main_arg0 (show main_arg0 ∈ Pipeline.restRefs sig spec0 from by decide)).trans ((tail_keep m c main_arg0 (by decide) (by decide)).trans (V_main_arg0 m c)),
      ((h c).2 main_arg1 (show main_arg1 ∈ Pipeline.restRefs sig spec0 from by decide)).trans ((tail_keep m c main_arg1 (by decide) (by decide)).trans (V_main_arg1 m c)),
      ((h c).2 main_arg2 (show main_arg2 ∈ Pipeline.restRefs sig spec0 from by decide)).trans ((tail_keep m c main_arg2 (by decide) (by decide)).trans (V_main_arg2 m c))⟩) (run_main m ρ)

end Cert.KernelIdeal.Fr

end
-- ==== Proof.Payload.lean ====
/-
  The kernel's arithmetic on one staged chunk, read at explicit coordinates.

  A chunk holds 128 gathered weight rows `wb[r, 0, c]` (1024 columns) and 128 gathered scale rows
  `sb[r, 0, c]` (128 lanes, of which the first 8 are the scales). The body regroups a weight row
  as 8 groups of 128, takes the sign of each entry with zero sent to one (spelled with comparisons
  only), clamps the row's 8 scales from below by ε, spreads each over its group and multiplies.
  At row `r` and column `g·128 + l` the stored value is therefore the specification's cell of
  `wb[r, 0, g·128 + l]` and `sb[r, 0, g]`.
-/
import proofs.«418394_j61838939127938_3_alg».proof.Proof.Gen.KernelIdeal.Skeleton
import proofs.«418394_j61838939127938_3_alg».proof.Proof.Spec
import Idealize.ShloMosaic.Lib.ValueIdx
import Idealize.ShloMosaic.Lib.ValueLayout
import Idealize.ShloMosaic.Lib.Pipeline.Value

noncomputable section

namespace Cert.Proof.Payload

open Idealize.ShloMosaic Idealize.ShloMosaic.ValueIdx Cert.KernelIdeal

variable {α : Type}

/-! ## The layout steps, each read at coordinates

Every shape cast keeps the row-major position; the positions are written out and compared as
natural numbers. -/

/-- A row of 1024 regrouped as 8 × 128: entry (r, g, l) is entry (r, 0, g·128 + l). -/
theorem cast_w (x : S128x1x1024.Idx → α) (h : S128x1x1024.ShapeCasts S128x8x128)
    (r : Fin 128) (g : Fin 8) (l : Fin 128) (hc : g.val * 128 + l.val < 1024) :
    shapeCast S128x8x128 x h (ix3 r g l) = x (ix3 r (0 : Fin 1) ⟨g.val * 128 + l.val, hc⟩) :=
  shapeCast_apply x h _ _ (by
    rw [Shape.rowMajor_val_three, Shape.rowMajor_val_three]
    show (r.val * 1 + 0) * 1024 + (g.val * 128 + l.val) = (r.val * 8 + g.val) * 128 + l.val
    omega)

/-- 8 × 128 flattened back to a row of 1024: entry (r, g·128 + l) is entry (r, g, l). -/
theorem cast_out (x : S128x8x128.Idx → α) (h : S128x8x128.ShapeCasts S128x1024)
    (r : Fin 128) (g : Fin 8) (l : Fin 128) (hc : g.val * 128 + l.val < 1024) :
    shapeCast S128x1024 x h (ix2 r ⟨g.val * 128 + l.val, hc⟩) = x (ix3 r g l) :=
  shapeCast_apply x h _ _ (by
    rw [Shape.rowMajor_val_three, Shape.rowMajor_val_two]
    show (r.val * 8 + g.val) * 128 + l.val = r.val * 1024 + (g.val * 128 + l.val)
    omega)

/-- The middle unit axis of the scale rows dropped: entry (r, c) is entry (r, 0, c). -/
theorem cast_s (x : S128x1x128.Idx → α) (h : S128x1x128.ShapeCasts S128x128)
    (r : Fin 128) (c : Fin 128) :
    shapeCast S128x128 x h (ix2 r c) = x (ix3 r (0 : Fin 1) c) :=
  shapeCast_apply x h _ _ (by
    rw [Shape.rowMajor_val_three, Shape.rowMajor_val_two]
    show (r.val * 1 + 0) * 128 + c.val = r.val * 128 + c.val
    omega)

/-- A trailing unit axis added: entry (r, g, 0) is entry (r, g). -/
theorem cast_col (x : S128x8.Idx → α) (h : S128x8.ShapeCasts S128x8x1)
    (r : Fin 128) (g : Fin 8) (u : Fin 1) :
    shapeCast S128x8x1 x h (ix3 r g u) = x (ix2 r g) :=
  shapeCast_apply x h _ _ (by
    rw [Shape.rowMajor_val_two, Shape.rowMajor_val_three]
    show r.val * 8 + g.val = (r.val * 8 + g.val) * 1 + u.val
    omega)

/-- A column spread over 128 lanes: entry (r, g, l) is entry (r, g, 0). -/
theorem bcast_col (x : S128x8x1.Idx → α) (h : S128x8x1.Broadcasts S128x8x128)
    (r : Fin 128) (g : Fin 8) (l : Fin 128) :
    broadcastTo S128x8x128 x h (ix3 r g l) = x (ix3 r g (0 : Fin 1)) := by
  refine broadcastTo_apply x h (ix3 r g l) (ix3 r g (0 : Fin 1)) fun ax => ?_
  match ax with
  | ⟨0, _⟩ => rfl
  | ⟨1, _⟩ => rfl
  | ⟨2, _⟩ => rfl

/-! ## The two payloads -/

/-- The sign part at (r, g, l): the comparison spelling of the sign of `wb[r, 0, g·128 + l]`.
    Every operation after the regrouping is entrywise, so the entry is that spelling of the
    regrouped entry by unfolding. -/
theorem pay2_apply (wb : Vec Ideal S128x1x1024 .f32) (r : Fin 128) (g : Fin 8) (l : Fin 128)
    (hc : g.val * 128 + l.val < 1024) :
    Gen.k0_pay2 (F := Ideal) wb (ix3 r g l)
      = Cert.Spec.q' (wb (ix3 r (0 : Fin 1) ⟨g.val * 128 + l.val, hc⟩)) := by
  have e := cast_w wb Facts₀.shapeCasts_S128x1x1024_S128x8x128 r g l hc
  show Cert.Spec.q' (shapeCast S128x8x128 wb Facts₀.shapeCasts_S128x1x1024_S128x8x128 (ix3 r g l)) = _
  rw [e]

/-- The stored chunk at row `r`, column `g·128 + l`: the cell of the weight entry there and the
    row's `g`-th scale. -/
theorem pay_apply (wb : Vec Ideal S128x1x1024 .f32) (sb : Vec Ideal S128x1x128 .f32)
    (r : Fin 128) (g : Fin 8) (l : Fin 128) (hc : g.val * 128 + l.val < 1024) (hg : g.val < 128) :
    Gen.k0_pay1 (F := Ideal) (Gen.k0_pay2 wb) sb (ix2 r ⟨g.val * 128 + l.val, hc⟩)
      = Cert.Spec.cell (wb (ix3 r (0 : Fin 1) ⟨g.val * 128 + l.val, hc⟩))
          (sb (ix3 r (0 : Fin 1) ⟨g.val, hg⟩)) := by
  unfold Gen.k0_pay1
  rw [cast_out _ _ r g l hc, mulf_apply, pay2_apply wb r g l hc, bcast_col, shapeCast_self, cast_col,
    maximumf_apply, slice2_axis1_apply 0 _ _ r g ⟨g.val, hg⟩ (Nat.zero_add _).symm, cast_s,
    Cert.Spec.q'_eq_q]
  rfl

end Cert.Proof.Payload

end
-- ==== Proof.IdealBlock.lean ====
/-
  What the body leaves in the output block at a grid point, row by row.

  Once every copy has landed, row `r` of the weight row buffer is the row of the weight array that the table's word
  for slot `r` names, and likewise for the scale row buffer. The body loads both buffers whole and stores the payload
  of the two: the sign of each weight entry with zero sent to one, times the row's scale of the entry's group clamped
  from below. So row `r` of the block at point `t` is, column by column, the specification's cell of the row of the
  two gathered arrays that the table names for output row `t·128 + r`.
-/
import proofs.«418394_j61838939127938_3_alg».proof.Proof.IdealValue
import proofs.«418394_j61838939127938_3_alg».proof.Proof.Payload
import proofs.«418394_j61838939127938_3_alg».proof.Proof.IdealRows
import Idealize.ShloMosaic.Lib.Writes
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.ValueIdx

/-! ## At the ideal instance: the block from the two row buffers -/

variable (m : (ℓ : Loc nD τ sig) → Buf (Elt Ideal) ℓ)

/-- The one grid axis: point `t` has coordinate `t`. -/
theorem coords_val : ∀ t : Fin (cfgM m).N, ((grid0.coords t) 0).val = t.val :=
  (by decide +kernel : ∀ t : Fin grid0.N, ((grid0.coords t) 0).val = t.val)

/-- The word of slot `r` at point `t` is the table's word for output row `t·128 + r`. -/
theorem word_eq (c : Dev nD) (t : Fin (cfgM m).N) (r : Fin 128) :
    word (F := Ideal) c (tbl m 0) (grid0.coords t) r = (tbl m 0 : IVec S16384 32) (ix1 (slot m t r)) := by
  unfold word
  congr 2
  refine Fin.ext ?_
  show ((grid0.coords t) 0).val * 128 + r.val = t.val * 128 + r.val
  rw [coords_val m t]

/-- If the loaded row buffers hold, row by row, the rows of the gathered arrays that the table names, the stored
    payload is the block fact's right side. -/
theorem block_of_rows (c : Dev nD) (t : Fin (cfgM m).N) (WB : Vec Ideal S128x1x1024 .f32) (SB : Vec Ideal S128x1x128 .f32)
    (hW : ∀ (r : Fin 128) (d : Fin 1024), WB (ix3 r (0 : Fin 1) d) = (V m c main_v2 : FVec Ideal S50257x1x1024 .f32) (ix3 (rowOf m (slot m t r)) (0 : Fin 1) d))
    (hS : ∀ (r : Fin 128) (d : Fin 128), SB (ix3 r (0 : Fin 1) d) = (V m c main_v4 : FVec Ideal S50257x1x128 .f32) (ix3 (rowOf m (slot m t r)) (0 : Fin 1) d))
    (r : Fin 128) (d : Fin 1024) :
    Gen.k0_pay1 (F := Ideal) (Gen.k0_pay2 WB) SB (ix2 r d) = cellAt m c (rowOf m (slot m t r)) d := by
  have hdl : d.val < 1024 := d.isLt
  have hg8 : d.val / 128 < 8 := by omega
  have hl : d.val % 128 < 128 := Nat.mod_lt _ (by decide)
  have hc : (⟨d.val / 128, hg8⟩ : Fin 8).val * 128 + (⟨d.val % 128, hl⟩ : Fin 128).val < 1024 := by
    show d.val / 128 * 128 + d.val % 128 < 1024; omega
  have hg : (⟨d.val / 128, hg8⟩ : Fin 8).val < 128 := by show d.val / 128 < 128; omega
  have hd : d = ⟨(⟨d.val / 128, hg8⟩ : Fin 8).val * 128 + (⟨d.val % 128, hl⟩ : Fin 128).val, hc⟩ :=
    Fin.ext (by show d.val = d.val / 128 * 128 + d.val % 128; omega)
  have e := Cert.Proof.Payload.pay_apply WB SB r ⟨d.val / 128, hg8⟩ ⟨d.val % 128, hl⟩ hc hg
  rw [← hd] at e
  rw [e, hW, hS]
  rfl

/-- The payload of the two row buffers as they stand once every copy has landed is the block fact's right side. -/
theorem block_of_G (c : Dev nD) (t : Fin (cfgM m).N) (r : Fin 128) (d : Fin 1024) :
    Gen.k0_pay1 (F := Ideal)
        (Gen.k0_pay2 (Gw (F := Ideal) c (grid0.coords t) (tbl m 0) (V m c main_v2) (tbl_readAt_lt m c) : Vec Ideal S128x1x1024 .f32))
        (Gs (F := Ideal) c (grid0.coords t) (tbl m 0) (V m c main_v4) (tbl_readAt_lt m c) : Vec Ideal S128x1x128 .f32) (ix2 r d)
      = cellAt m c (rowOf m (slot m t r)) d := by
  have hv : ∀ r : Fin 128,
      (⟨(word (F := Ideal) c (tbl m 0) (grid0.coords t) r).toNat, word_lt c (tbl m 0) (tbl_readAt_lt m c) (grid0.coords t) r⟩ : Fin 50257)
        = rowOf m (slot m t r) := by
    intro r
    refine Fin.ext ?_
    show (word (F := Ideal) c (tbl m 0) (grid0.coords t) r).toNat = ((tbl m 0 : IVec S16384 32) (ix1 (slot m t r))).toNat
    rw [word_eq m c t r]
  refine block_of_rows m c t _ _ (fun r d => ?_) (fun r d => ?_) r d
  · exact congrArg (fun v : Fin 50257 => (V m c main_v2 : FVec Ideal S50257x1x1024 .f32) (ix3 v (0 : Fin 1) d)) (hv r)
  · exact congrArg (fun v : Fin 50257 => (V m c main_v4 : FVec Ideal S50257x1x128 .f32) (ix3 v (0 : Fin 1) d)) (hv r)

theorem hz2 : (![0, 0] : Fin 2 → ℕ) = fun _ => 0 := funext fun a => by fin_cases a <;> rfl
theorem hz3 : (![0, 0, 0] : Fin 3 → ℕ) = fun _ => 0 := funext fun a => by fin_cases a <;> rfl

/-- What the body leaves at point `t`: the payload of the two row buffers as they stand once every copy has landed. -/
theorem outsAt0_eq (c : Dev nD) (t : Fin (cfgM m).N) :
    outsAt0 (F := Ideal) m c t
      = Gen.k0_pay1 (F := Ideal)
          (Gen.k0_pay2 (Gw (F := Ideal) c (grid0.coords t) (tbl m 0) (V m c main_v2) (tbl_readAt_lt m c) : Vec Ideal S128x1x1024 .f32))
          (Gs (F := Ideal) c (grid0.coords t) (tbl m 0) (V m c main_v4) (tbl_readAt_lt m c) : Vec Ideal S128x1x128 .f32) := by
  unfold outsAt0 out0
  refine (View.read_writes_eq_canon VO0 VO0.junk _
    (cover0 c (grid0.coords t) (ms0_0 m t) (hs0_0 m t) (tbl m 0) (V m c main_v2) (V m c main_v4) (tbl_readAt_lt m c))).trans ?_
  unfold kernelRun0
  dsimp only
  sl_unfold_words
  refine (View.canon_unit_zero hz2 _ _).trans ?_
  have e1 := Memref.readAt_unit_zero (Elt Ideal) cc0_scratch0 hz3 inb_S128x1x1024_S128x1x1024_0_0_0
    (Gw (F := Ideal) c (grid0.coords t) (tbl m 0) (V m c main_v2) (tbl_readAt_lt m c))
  have e2 := Memref.readAt_unit_zero (Elt Ideal) cc0_scratch1 hz3 inb_S128x1x128_S128x1x128_0_0_0
    (Gs (F := Ideal) c (grid0.coords t) (tbl m 0) (V m c main_v4) (tbl_readAt_lt m c))
  exact (congrArg (fun X : Vec Ideal S128x1x1024 .f32 => Gen.k0_pay1 (F := Ideal) (Gen.k0_pay2 X) _) e1).trans
    (congrArg (fun Y : Vec Ideal S128x1x128 .f32 => Gen.k0_pay1 (F := Ideal) (Gen.k0_pay2 _) Y) e2)

/-- THE BLOCK FACT. -/
theorem blockFact (m : (ℓ : Loc nD τ sig) → Buf (Elt Ideal) ℓ) : BlockFact m := by
  intro c t r d
  rw [outsAt0_eq m c t]
  exact block_of_G m c t r d

end Cert.KernelIdeal.Fr

end
-- ==== Proof.lean ====
/-
  The gather-and-quantize kernel against its reference.  Each of the 16384 looked-up rows is the row of the weight
  table named by its id, every entry replaced by its sign (zero counted as positive) times its group's scale, the scale
  clamped from below by 1e-8.  The kernel clamps each id into the table's range, copies the 128 rows of a block by
  128 concurrent transfers per array, waits for all of them, and quantizes the block at once; the reference quantizes
  the whole table and then takes the rows, reading an out-of-range id as "no value".  Under the precondition that every
  id lies in the table's range the clamp is the identity and the reference's mask is everywhere true, so both programs
  compute the same function of the three arguments, entry by entry, on the extended reals; no arithmetic law is needed
  beyond the two spellings of the sign agreeing.
-/
import proofs.«418394_j61838939127938_3_alg».proof.Defs
import proofs.«418394_j61838939127938_3_alg».proof.Proof.Gen.Kernel
import proofs.«418394_j61838939127938_3_alg».proof.Proof.Gen.KernelIdeal
import proofs.«418394_j61838939127938_3_alg».proof.Proof.Gen.ReferenceIdeal
import proofs.«418394_j61838939127938_3_alg».proof.Proof.Gen.Pre_finite_inputs
import proofs.«418394_j61838939127938_3_alg».proof.Proof.PreIds
import proofs.«418394_j61838939127938_3_alg».proof.Proof.RefRun
import proofs.«418394_j61838939127938_3_alg».proof.Proof.BitsFrame
import proofs.«418394_j61838939127938_3_alg».proof.Proof.IdealBlock
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs to its end and leaves its arguments as they were. -/
theorem frame_k : Cert.frame_Kernel := fun m ρ _ => Cert.Kernel.Fr.frame (F := Bits) m ρ
/-- So does the idealized kernel, -/
theorem frame_ki : Cert.frame_KernelIdeal := fun m ρ _ => Cert.KernelIdeal.Fr.frame (F := Ideal) m ρ
/-- and the reference. -/
theorem frame_ri : Cert.frame_ReferenceIdeal := fun m ρ _ => Cert.Proof.RefRun.frame m ρ

/-- The one rewrite of the ideal pass: the word "1.0 with the sign bit of x" read as −1 for x < 0 and 1 otherwise. -/
theorem preserves : Cert.preserves_Kernel_KernelIdeal := IdealRules.sign_bit.statement Cert.KernelIdeal.S128x8x128 .f32

/-- From memories agreeing on the arguments both programs end at the one function of the arguments. -/
theorem algebraic : Cert.algebraic_KernelIdeal_ReferenceIdeal := by
  intro m ρ m' ρ' hpre hagree
  have hids : ∀ (c : Dev Cert.KernelIdeal.nD) (i : Cert.KernelIdeal.S8x2048.Idx),
      ((m ((c.tc : Thread Cert.KernelIdeal.nD Cert.KernelIdeal.τ).loc Cert.KernelIdeal.main_arg0) : IVec Cert.KernelIdeal.S8x2048 32) i).toNat < 50257 :=
    fun c i => Cert.Proof.PreIds.ids_range_KernelIdeal m hpre c i
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fr.value_run m ρ (Cert.KernelIdeal.Fr.blockFact m) hids, ?_⟩
  have hids' : ∀ (c : Dev Cert.ReferenceIdeal.nD) (i : Cert.ReferenceIdeal.S8x2048.Idx),
      ((m' ((c.tc : Thread Cert.ReferenceIdeal.nD Cert.ReferenceIdeal.τ).loc Cert.ReferenceIdeal.main_arg0) : IVec Cert.ReferenceIdeal.S8x2048 32) i).toNat < 50257 := by
    intro c i; rw [(hagree c).1]; exact hids c i
  refine (θ_run Cert.ReferenceIdeal.defs _ _).mono (fun r h c => ⟨?_, (h c).2⟩) (Cert.Proof.RefRun.run m' ρ' hids')
  rw [(h c).1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
